-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v202)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v202) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v386) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1600000 : Shape := ⟨2, ![2, 1600000]⟩
abbrev S1600000 : Shape := ⟨1, ![1600000]⟩
abbrev S21x64 : Shape := ⟨2, ![21, 64]⟩
abbrev S4x4x64 : Shape := ⟨3, ![4, 4, 64]⟩
abbrev S4 : Shape := ⟨1, ![4]⟩
abbrev S4x64x64 : Shape := ⟨3, ![4, 64, 64]⟩
abbrev S4x64 : Shape := ⟨2, ![4, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩
abbrev S1x1600000 : Shape := ⟨2, ![1, 1600000]⟩

class Facts : Prop where
  bcast_S_S21x64 : S_.BroadcastsInDim S21x64 (![] : Fin 0 → Fin S21x64.rank)
  reducesTo_S21x64_S_d0_1 : S21x64.ReducesTo [0, 1] S_
  h_S_ : 0 < S_.numel
  bcast_S_S4x4x64 : S_.BroadcastsInDim S4x4x64 (![] : Fin 0 → Fin S4x4x64.rank)
  reducesTo_S4x4x64_S_d0_1_2 : S4x4x64.ReducesTo [0, 1, 2] S_
  bcast_S_S4 : S_.BroadcastsInDim S4 (![] : Fin 0 → Fin S4.rank)
  reducesTo_S4_S_d0 : S4.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_arg2 : IVec S1600000 32) (main_v80 : IVec S_ 1) (main_v84 : IVec S1600000 1) (main_v85 : IVec S1x1600000 32) : IVec S_ 1 :=
  let main_v86 : IVec S1600000 32 := shapeCast S1600000 main_v85 shapeCasts_S1x1600000_S1600000
  let main_c_32 : IVec S_ 32 := constantI S_ 32 100000#32
  let main_v87 : IVec S1600000 32 := broadcastInDim S1600000 ![] bcast_S_S1600000 main_c_32
  let main_v88 : IVec S1600000 1 := cmpi .slt main_v86 main_v87
  let main_v89 : IVec S1600000 1 := andi main_v84 main_v88
  let main_c_33 : IVec S_ 1 := constantI S_ 1 1#1
  let main_v90 : IVec S_ 1 := (fun x v => Host.reduce IntOp.andi x v reducesTo_S1600000_S_d0 h_S_) main_v89 main_c_33
  let main_v91 : IVec S_ 1 := andi main_v80 main_v90
  let main_c_34 : IVec S_ 32 := constantI S_ 32 0#32
  let main_v92 : IVec S1600000 32 := broadcastInDim S1600000 ![] bcast_S_S1600000 main_c_34
  let main_v93 : IVec S1600000 1 := cmpi .sge main_arg2 main_v92
  let main_c_35 : IVec S_ 32 := constantI S_ 32 4#32
  let main_v94 : IVec S1600000 32 := broadcastInDim S1600000 ![] bcast_S_S1600000 main_c_35
  let main_v95 : IVec S1600000 1 := cmpi .slt main_arg2 main_v94
  let main_v96 : IVec S1600000 1 := andi main_v93 main_v95
  let main_c_36 : IVec S_ 1 := constantI S_ 1 1#1
  let main_v97 : IVec S_ 1 := (fun x v => Host.reduce IntOp.andi x v reducesTo_S1600000_S_d0 h_S_) main_v96 main_c_36
  let main_v98 : IVec S_ 1 := andi main_v91 main_v97
  main_v98

def fn_part4 {F : FTy → Type} [FloatOps F] (main_arg0 : IVec S100000 32) (main_arg1 : IVec S2x1600000 32) (main_arg2 : IVec S1600000 32) (main_arg18 : FVec F S1 .f32) (main_v63 : IVec S_ 1) (main_v67 : IVec S_ 1) : IVec S_ 1 :=
  let main_v68 : IVec S_ 1 := andi main_v63 main_v67
  let main_v69 : FVec F S1 .f32 := Host.absf main_arg18
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S100000 32 := broadcastInDim S100000 ![] bcast_S_S100000 main_c_28
  let main_v75 : IVec S100000 1 := cmpi .sge main_arg0 main_v74
  let main_c_29 : IVec S_ 32 := constantI S_ 32 21#32
  let main_v76 : IVec S100000 32 := broadcastInDim S100000 ![] bcast_S_S100000 main_c_29
  let main_v77 : IVec S100000 1 := cmpi .slt main_arg0 main_v76
  let main_v78 : IVec S100000 1 := andi main_v75 main_v77
  let main_c_30 : IVec S_ 1 := constantI S_ 1 1#1
  let main_v79 : IVec S_ 1 := (fun x v => Host.reduce IntOp.andi x v reducesTo_S100000_S_d0 h_S_) main_v78 main_c_30
  let main_v80 : IVec S_ 1 := andi main_v73 main_v79
  let main_v81 : IVec S1x1600000 32 := (extractStridedSlice S1x1600000 ![0, 0] · slices_S2x1600000_S1x1600000_0_0) main_arg1
  let main_v82 : IVec S1600000 32 := shapeCast S1600000 main_v81 shapeCasts_S1x1600000_S1600000
  let main_c_31 : IVec S_ 32 := constantI S_ 32 0#32
  let main_v83 : IVec S1600000 32 := broadcastInDim S1600000 ![] bcast_S_S1600000 main_c_31
  let main_v84 : IVec S1600000 1 := cmpi .sge main_v82 main_v83
  let main_v85 : IVec S1x1600000 32 := (extractStridedSlice S1x1600000 ![0, 0] · slices_S2x1600000_S1x1600000_0_0) main_arg1
  fn_part5 (F := F) main_arg2 main_v80 main_v84 main_v85

def fn_part3 {F : FTy → Type} [FloatOps F] (main_arg0 : IVec S100000 32) (main_arg1 : IVec S2x1600000 32) (main_arg2 : IVec S1600000 32) (main_arg15 : FVec F S64x128 .f32) (main_arg16 : FVec F S128 .f32) (main_arg17 : FVec F S128x1 .f32) (main_arg18 : FVec F S1 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S64x128 .f32 := Host.absf main_arg15
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg17
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg0 main_arg1 main_arg2 main_arg18 main_v63 main_v67

def fn_part2 {F : FTy → Type} [FloatOps F] (main_arg0 : IVec S100000 32) (main_arg1 : IVec S2x1600000 32) (main_arg2 : IVec S1600000 32) (main_arg11 : FVec F S4x64x64 .f32) (main_arg12 : FVec F S4x64 .f32) (main_arg13 : FVec F S4x64 .f32) (main_arg14 : FVec F S4x64 .f32) (main_arg15 : FVec F S64x128 .f32) (main_arg16 : FVec F S128 .f32) (main_arg17 : FVec F S128x1 .f32) (main_arg18 : FVec F S1 .f32) (main_v33 : IVec S_ 1) : IVec S_ 1 :=
  let main_v34 : FVec F S4x64x64 .f32 := Host.absf main_arg11
  let main_cst_12 : FVec F S_ .f32 := constant S_ .f32 0x7F800000#32
  let main_v35 : FVec F S4x64x64 .f32 := broadcastInDim S4x64x64 ![] bcast_S_S4x64x64 main_cst_12
  let main_v36 : IVec S4x64x64 1 := cmpf .olt main_v34 main_v35
  let main_c_13 : IVec S_ 1 := constantI S_ 1 1#1
  let main_v37 : IVec S_ 1 := (fun x v => Host.reduce IntOp.andi x v reducesTo_S4x64x64_S_d0_1_2 h_S_) main_v36 main_c_13
  let main_v38 : IVec S_ 1 := andi main_v33 main_v37
  let main_v39 : FVec F S4x64 .f32 := Host.absf main_arg12
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S4x64 .f32 := Host.absf main_arg13
  let main_cst_16 : FVec F S_ .f32 := constant S_ .f32 0x7F800000#32
  let main_v45 : FVec F S4x64 .f32 := broadcastInDim S4x64 ![] bcast_S_S4x64 main_cst_16
  let main_v46 : IVec S4x64 1 := cmpf .olt main_v44 main_v45
  let main_c_17 : IVec S_ 1 := constantI S_ 1 1#1
  let main_v47 : IVec S_ 1 := (fun x v => Host.reduce IntOp.andi x v reducesTo_S4x64_S_d0_1 h_S_) main_v46 main_c_17
  let main_v48 : IVec S_ 1 := andi main_v43 main_v47
  let main_v49 : FVec F S4x64 .f32 := Host.absf main_arg14
  let main_cst_18 : FVec F S_ .f32 := constant S_ .f32 0x7F800000#32
  let main_v50 : FVec F S4x64 .f32 := broadcastInDim S4x64 ![] bcast_S_S4x64 main_cst_18
  fn_part3 (F := F) main_arg0 main_arg1 main_arg2 main_arg15 main_arg16 main_arg17 main_arg18 main_v48 main_v49 main_v50

def fn_part1 {F : FTy → Type} [FloatOps F] (main_arg0 : IVec S100000 32) (main_arg1 : IVec S2x1600000 32) (main_arg2 : IVec S1600000 32) (main_arg8 : FVec F S4x64 .f32) (main_arg9 : FVec F S4x64 .f32) (main_arg10 : FVec F S4x64 .f32) (main_arg11 : FVec F S4x64x64 .f32) (main_arg12 : FVec F S4x64 .f32) (main_arg13 : FVec F S4x64 .f32) (main_arg14 : FVec F S4x64 .f32) (main_arg15 : FVec F S64x128 .f32) (main_arg16 : FVec F S128 .f32) (main_arg17 : FVec F S128x1 .f32) (main_arg18 : FVec F S1 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg8
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64 .f32 := Host.absf main_arg9
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64 .f32 := Host.absf main_arg10
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg0 main_arg1 main_arg2 main_arg11 main_arg12 main_arg13 main_arg14 main_arg15 main_arg16 main_arg17 main_arg18 main_v33

def fn {F : FTy → Type} [FloatOps F] (main_arg0 : IVec S100000 32) (main_arg1 : IVec S2x1600000 32) (main_arg2 : IVec S1600000 32) (main_arg3 : IVec S100000 32) (main_arg4 : FVec F S21x64 .f32) (main_arg5 : FVec F S4x4x64 .f32) (main_arg6 : FVec F S4 .f32) (main_arg7 : FVec F S4x64x64 .f32) (main_arg8 : FVec F S4x64 .f32) (main_arg9 : FVec F S4x64 .f32) (main_arg10 : FVec F S4x64 .f32) (main_arg11 : FVec F S4x64x64 .f32) (main_arg12 : FVec F S4x64 .f32) (main_arg13 : FVec F S4x64 .f32) (main_arg14 : FVec F S4x64 .f32) (main_arg15 : FVec F S64x128 .f32) (main_arg16 : FVec F S128 .f32) (main_arg17 : FVec F S128x1 .f32) (main_arg18 : FVec F S1 .f32) : IVec S_ 1 :=
  let main_v0 : FVec F S21x64 .f32 := Host.absf main_arg4
  let main_cst : FVec F S_ .f32 := constant S_ .f32 0x7F800000#32
  let main_v1 : FVec F S21x64 .f32 := broadcastInDim S21x64 ![] bcast_S_S21x64 main_cst
  let main_v2 : IVec S21x64 1 := cmpf .olt main_v0 main_v1
  let main_c : IVec S_ 1 := constantI S_ 1 1#1
  let main_v3 : IVec S_ 1 := (fun x v => Host.reduce IntOp.andi x v reducesTo_S21x64_S_d0_1 h_S_) main_v2 main_c
  let main_v4 : FVec F S4x4x64 .f32 := Host.absf main_arg5
  let main_cst_0 : FVec F S_ .f32 := constant S_ .f32 0x7F800000#32
  let main_v5 : FVec F S4x4x64 .f32 := broadcastInDim S4x4x64 ![] bcast_S_S4x4x64 main_cst_0
  let main_v6 : IVec S4x4x64 1 := cmpf .olt main_v4 main_v5
  let main_c_1 : IVec S_ 1 := constantI S_ 1 1#1
  let main_v7 : IVec S_ 1 := (fun x v => Host.reduce IntOp.andi x v reducesTo_S4x4x64_S_d0_1_2 h_S_) main_v6 main_c_1
  let main_v8 : IVec S_ 1 := andi main_v3 main_v7
  let main_v9 : FVec F S4 .f32 := Host.absf main_arg6
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x64x64 .f32 := Host.absf main_arg7
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg0 main_arg1 main_arg2 main_arg8 main_arg9 main_arg10 main_arg11 main_arg12 main_arg13 main_arg14 main_arg15 main_arg16 main_arg17 main_arg18 main_v13 main_v16
-- ==== Kernel.lean ====
abbrev S100000 : Shape := ⟨1, ![100000]⟩
abbrev S2x1600000 : Shape := ⟨2, ![2, 1600000]⟩
abbrev S1600000 : Shape := ⟨1, ![1600000]⟩
abbrev S21x64 : Shape := ⟨2, ![21, 64]⟩
abbrev S4x4x64 : Shape := ⟨3, ![4, 4, 64]⟩
abbrev S4 : Shape := ⟨1, ![4]⟩
abbrev S4x64x64 : Shape := ⟨3, ![4, 64, 64]⟩
abbrev S4x64 : Shape := ⟨2, ![4, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S_ : Shape := ⟨0, ![]⟩
abbrev S100000x1 : Shape := ⟨2, ![100000, 1]⟩
abbrev S1x1 : Shape := ⟨2, ![1, 1]⟩
abbrev S100000x64 : Shape := ⟨2, ![100000, 64]⟩
abbrev S1600000x1 : Shape := ⟨2, ![1600000, 1]⟩
abbrev S1600000x64 : Shape := ⟨2, ![1600000, 64]⟩
abbrev S1x4x64 : Shape := ⟨3, ![1, 4, 64]⟩
abbrev S12800x64 : Shape := ⟨2, ![12800, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩
abbrev S512x64 : Shape := ⟨2, ![512, 64]⟩
abbrev S1x128 : Shape := ⟨2, ![1, 128]⟩
abbrev S512x1 : Shape := ⟨2, ![512, 1]⟩
abbrev S512x128 : Shape := ⟨2, ![512, 128]⟩

abbrev nBuf : Space → Nat
  | .hbm => 629
  | .vmem => 134
  | .smem => 0
  | _ => 0

abbrev hbmTy0_0 (i : Nat) : BufTy := match i % 128 with
  | 0 => ⟨S100000, .i32⟩
  | 1 => ⟨S2x1600000, .i32⟩
  | 2 => ⟨S1600000, .i32⟩
  | 3 => ⟨S100000, .i32⟩
  | 4 => ⟨S21x64, .f32⟩
  | 5 => ⟨S4x4x64, .f32⟩
  | 6 => ⟨S4, .f32⟩
  | 7 => ⟨S4x64x64, .f32⟩
  | 8 => ⟨S4x64, .f32⟩
  | 9 => ⟨S4x64, .f32⟩
  | 10 => ⟨S4x64, .f32⟩
  | 11 => ⟨S4x64x64, .f32⟩
  | 12 => ⟨S4x64, .f32⟩
  | 13 => ⟨S4x64, .f32⟩
  | 14 => ⟨S4x64, .f32⟩
  | 15 => ⟨S64x128, .f32⟩
  | 16 => ⟨S128, .f32⟩
  | 17 => ⟨S128x1, .f32⟩
  | 18 => ⟨S1, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S1, .i32⟩
  | 32 => ⟨S_, .i32⟩
  | 33 => ⟨S100000x1, .i32⟩
  | 34 => ⟨S100000x1, .i1⟩
  | 35 => ⟨S1x1, .i32⟩
  | 36 => ⟨S100000x1, .i32⟩
  | 37 => ⟨S100000x1, .i1⟩
  | 38 => ⟨S100000x1, .i1⟩
  | 39 => ⟨S_, .i1⟩
  | 40 => ⟨S100000, .i1⟩
  | 41 => ⟨S100000x64, .f32⟩
  | 42 => ⟨S100000x64, .i1⟩
  | 43 => ⟨S_, .f32⟩
  | 44 => ⟨S100000x64, .f32⟩
  | 45 => ⟨S100000x64, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1, .i32⟩
  | 55 => ⟨S_, .i32⟩
  | 56 => ⟨S1600000x1, .i32⟩
  | 57 => ⟨S1600000x1, .i1⟩
  | 58 => ⟨S1x1, .i32⟩
  | 59 => ⟨S1600000x1, .i32⟩
  | 60 => ⟨S1600000x1, .i1⟩
  | 61 => ⟨S1600000x1, .i1⟩
  | 62 => ⟨S_, .i1⟩
  | 63 => ⟨S1600000, .i1⟩
  | 64 => ⟨S1600000x64, .f32⟩
  | 65 => ⟨S1600000x64, .i1⟩
  | 66 => ⟨S_, .f32⟩
  | 67 => ⟨S1600000x64, .f32⟩
  | 68 => ⟨S1600000x64, .f32⟩
  | 69 => ⟨S1x4x64, .f32⟩
  | 70 => ⟨S4x64, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1, .i32⟩
  | 80 => ⟨S_, .i32⟩
  | 81 => ⟨S1600000x1, .i32⟩
  | 82 => ⟨S1600000x1, .i1⟩
  | 83 => ⟨S1x1, .i32⟩
  | 84 => ⟨S1600000x1, .i32⟩
  | 85 => ⟨S1600000x1, .i1⟩
  | 86 => ⟨S1600000x1, .i1⟩
  | 87 => ⟨S_, .i1⟩
  | 88 => ⟨S1600000, .i1⟩
  | 89 => ⟨S1600000x64, .f32⟩
  | 90 => ⟨S1600000x64, .i1⟩
  | 91 => ⟨S_, .f32⟩
  | 92 => ⟨S1600000x64, .f32⟩
  | 93 => ⟨S1600000x64, .f32⟩
  | 94 => ⟨S1600000x64, .f32⟩
  | 95 => ⟨S_, .f32⟩
  | 96 => ⟨S100000x64, .f32⟩
  | 97 => ⟨S1600000x1, .i32⟩
  | 98 => ⟨S100000x64, .f32⟩
  | 99 => ⟨S1, .f32⟩
  | 100 => ⟨S_, .f32⟩
  | 101 => ⟨S_, .f32⟩
  | 102 => ⟨S_, .f32⟩
  | 103 => ⟨S100000x64, .f32⟩
  | 104 => ⟨S100000x64, .f32⟩
  | 105 => ⟨S1x64x64, .f32⟩
  | 106 => ⟨S64x64, .f32⟩
  | 107 => ⟨S1x64, .f32⟩
  | 108 => ⟨S64, .f32⟩
  | 109 => ⟨S1x64, .f32⟩
  | 110 => ⟨S1x64, .f32⟩
  | 111 => ⟨S64, .f32⟩
  | 112 => ⟨S1x64, .f32⟩
  | 113 => ⟨S1x64, .f32⟩
  | 114 => ⟨S64, .f32⟩
  | 115 => ⟨S1x64, .f32⟩
  | 116 => ⟨S1x64x64, .f32⟩
  | 117 => ⟨S64x64, .f32⟩
  | 118 => ⟨S1x64, .f32⟩
  | 119 => ⟨S64, .f32⟩
  | 120 => ⟨S1x64, .f32⟩
  | 121 => ⟨S1x64, .f32⟩
  | 122 => ⟨S64, .f32⟩
  | 123 => ⟨S1x64, .f32⟩
  | 124 => ⟨S1x64, .f32⟩
  | 125 => ⟨S64, .f32⟩
  | 126 => ⟨S1x64, .f32⟩
  | 127 => ⟨S100000x64, .f32⟩
  | _ => ⟨S100000, .i32⟩

abbrev hbmTy0_1 (i : Nat) : BufTy := match i % 128 with
  | 0 => ⟨S_, .f32⟩
  | 1 => ⟨S64, .f32⟩
  | 2 => ⟨S1x64, .f32⟩
  | 3 => ⟨S_, .f32⟩
  | 4 => ⟨S1x64, .f32⟩
  | 5 => ⟨S1x64, .f32⟩
  | 6 => ⟨S_, .i32⟩
  | 7 => ⟨S_, .f32⟩
  | 8 => ⟨S64, .f32⟩
  | 9 => ⟨S1x64, .f32⟩
  | 10 => ⟨S_, .f32⟩
  | 11 => ⟨S1x64, .f32⟩
  | 12 => ⟨S1x64, .f32⟩
  | 13 => ⟨S100000x64, .f32⟩
  | 14 => ⟨S100000x64, .f32⟩
  | 15 => ⟨S100000x64, .f32⟩
  | 16 => ⟨S_, .f32⟩
  | 17 => ⟨S_, .f32⟩
  | 18 => ⟨S_, .f32⟩
  | 19 => ⟨S_, .f32⟩
  | 20 => ⟨S64, .f32⟩
  | 21 => ⟨S1x64, .f32⟩
  | 22 => ⟨S1x64, .f32⟩
  | 23 => ⟨S1x64, .f32⟩
  | 24 => ⟨S_, .f32⟩
  | 25 => ⟨S_, .i1⟩
  | 26 => ⟨S_, .f32⟩
  | 27 => ⟨S_, .f32⟩
  | 28 => ⟨S1x64, .f32⟩
  | 29 => ⟨S1x64, .f32⟩
  | 30 => ⟨S100000x64, .f32⟩
  | 31 => ⟨S_, .f32⟩
  | 32 => ⟨S64, .f32⟩
  | 33 => ⟨S1x64, .f32⟩
  | 34 => ⟨S_, .f32⟩
  | 35 => ⟨S1x64, .f32⟩
  | 36 => ⟨S1x64, .f32⟩
  | 37 => ⟨S_, .i32⟩
  | 38 => ⟨S_, .f32⟩
  | 39 => ⟨S64, .f32⟩
  | 40 => ⟨S1x64, .f32⟩
  | 41 => ⟨S_, .f32⟩
  | 42 => ⟨S1x64, .f32⟩
  | 43 => ⟨S1x64, .f32⟩
  | 44 => ⟨S100000x64, .f32⟩
  | 45 => ⟨S100000x64, .f32⟩
  | 46 => ⟨S100000x64, .f32⟩
  | 47 => ⟨S_, .f32⟩
  | 48 => ⟨S_, .f32⟩
  | 49 => ⟨S_, .f32⟩
  | 50 => ⟨S_, .f32⟩
  | 51 => ⟨S64, .f32⟩
  | 52 => ⟨S1x64, .f32⟩
  | 53 => ⟨S1x64, .f32⟩
  | 54 => ⟨S1x64, .f32⟩
  | 55 => ⟨S_, .f32⟩
  | 56 => ⟨S_, .i1⟩
  | 57 => ⟨S_, .f32⟩
  | 58 => ⟨S_, .f32⟩
  | 59 => ⟨S1x64, .f32⟩
  | 60 => ⟨S1x64, .f32⟩
  | 61 => ⟨S100000x64, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1, .i32⟩
  | 71 => ⟨S_, .i32⟩
  | 72 => ⟨S1600000x1, .i32⟩
  | 73 => ⟨S1600000x1, .i1⟩
  | 74 => ⟨S1x1, .i32⟩
  | 75 => ⟨S1600000x1, .i32⟩
  | 76 => ⟨S1600000x1, .i1⟩
  | 77 => ⟨S1600000x1, .i1⟩
  | 78 => ⟨S_, .i1⟩
  | 79 => ⟨S1600000, .i1⟩
  | 80 => ⟨S1600000x64, .f32⟩
  | 81 => ⟨S1600000x64, .i1⟩
  | 82 => ⟨S_, .f32⟩
  | 83 => ⟨S1600000x64, .f32⟩
  | 84 => ⟨S1600000x64, .f32⟩
  | 85 => ⟨S1x4x64, .f32⟩
  | 86 => ⟨S4x64, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1, .i32⟩
  | 96 => ⟨S_, .i32⟩
  | 97 => ⟨S1600000x1, .i32⟩
  | 98 => ⟨S1600000x1, .i1⟩
  | 99 => ⟨S1x1, .i32⟩
  | 100 => ⟨S1600000x1, .i32⟩
  | 101 => ⟨S1600000x1, .i1⟩
  | 102 => ⟨S1600000x1, .i1⟩
  | 103 => ⟨S_, .i1⟩
  | 104 => ⟨S1600000, .i1⟩
  | 105 => ⟨S1600000x64, .f32⟩
  | 106 => ⟨S1600000x64, .i1⟩
  | 107 => ⟨S_, .f32⟩
  | 108 => ⟨S1600000x64, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S1, .f32⟩
  | 116 => ⟨S_, .f32⟩
  | 117 => ⟨S_, .f32⟩
  | 118 => ⟨S_, .f32⟩
  | 119 => ⟨S100000x64, .f32⟩
  | 120 => ⟨S100000x64, .f32⟩
  | 121 => ⟨S1x64x64, .f32⟩
  | 122 => ⟨S64x64, .f32⟩
  | 123 => ⟨S1x64, .f32⟩
  | 124 => ⟨S64, .f32⟩
  | 125 => ⟨S1x64, .f32⟩
  | 126 => ⟨S1x64, .f32⟩
  | 127 => ⟨S64, .f32⟩
  | _ => ⟨S100000, .i32⟩

abbrev hbmTy0_2 (i : Nat) : BufTy := match i % 128 with
  | 0 => ⟨S1x64, .f32⟩
  | 1 => ⟨S1x64, .f32⟩
  | 2 => ⟨S64, .f32⟩
  | 3 => ⟨S1x64, .f32⟩
  | 4 => ⟨S1x64x64, .f32⟩
  | 5 => ⟨S64x64, .f32⟩
  | 6 => ⟨S1x64, .f32⟩
  | 7 => ⟨S64, .f32⟩
  | 8 => ⟨S1x64, .f32⟩
  | 9 => ⟨S1x64, .f32⟩
  | 10 => ⟨S64, .f32⟩
  | 11 => ⟨S1x64, .f32⟩
  | 12 => ⟨S1x64, .f32⟩
  | 13 => ⟨S64, .f32⟩
  | 14 => ⟨S1x64, .f32⟩
  | 15 => ⟨S100000x64, .f32⟩
  | 16 => ⟨S_, .f32⟩
  | 17 => ⟨S64, .f32⟩
  | 18 => ⟨S1x64, .f32⟩
  | 19 => ⟨S_, .f32⟩
  | 20 => ⟨S1x64, .f32⟩
  | 21 => ⟨S1x64, .f32⟩
  | 22 => ⟨S_, .i32⟩
  | 23 => ⟨S_, .f32⟩
  | 24 => ⟨S64, .f32⟩
  | 25 => ⟨S1x64, .f32⟩
  | 26 => ⟨S_, .f32⟩
  | 27 => ⟨S1x64, .f32⟩
  | 28 => ⟨S1x64, .f32⟩
  | 29 => ⟨S100000x64, .f32⟩
  | 30 => ⟨S100000x64, .f32⟩
  | 31 => ⟨S100000x64, .f32⟩
  | 32 => ⟨S_, .f32⟩
  | 33 => ⟨S_, .f32⟩
  | 34 => ⟨S_, .f32⟩
  | 35 => ⟨S_, .f32⟩
  | 36 => ⟨S64, .f32⟩
  | 37 => ⟨S1x64, .f32⟩
  | 38 => ⟨S1x64, .f32⟩
  | 39 => ⟨S1x64, .f32⟩
  | 40 => ⟨S_, .f32⟩
  | 41 => ⟨S_, .i1⟩
  | 42 => ⟨S_, .f32⟩
  | 43 => ⟨S_, .f32⟩
  | 44 => ⟨S1x64, .f32⟩
  | 45 => ⟨S1x64, .f32⟩
  | 46 => ⟨S100000x64, .f32⟩
  | 47 => ⟨S_, .f32⟩
  | 48 => ⟨S64, .f32⟩
  | 49 => ⟨S1x64, .f32⟩
  | 50 => ⟨S_, .f32⟩
  | 51 => ⟨S1x64, .f32⟩
  | 52 => ⟨S1x64, .f32⟩
  | 53 => ⟨S_, .i32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S100000x64, .f32⟩
  | 61 => ⟨S100000x64, .f32⟩
  | 62 => ⟨S100000x64, .f32⟩
  | 63 => ⟨S_, .f32⟩
  | 64 => ⟨S_, .f32⟩
  | 65 => ⟨S_, .f32⟩
  | 66 => ⟨S_, .f32⟩
  | 67 => ⟨S64, .f32⟩
  | 68 => ⟨S1x64, .f32⟩
  | 69 => ⟨S1x64, .f32⟩
  | 70 => ⟨S1x64, .f32⟩
  | 71 => ⟨S_, .f32⟩
  | 72 => ⟨S_, .i1⟩
  | 73 => ⟨S_, .f32⟩
  | 74 => ⟨S_, .f32⟩
  | 75 => ⟨S1x64, .f32⟩
  | 76 => ⟨S1x64, .f32⟩
  | 77 => ⟨S100000x64, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1, .i32⟩
  | 87 => ⟨S_, .i32⟩
  | 88 => ⟨S1600000x1, .i32⟩
  | 89 => ⟨S1600000x1, .i1⟩
  | 90 => ⟨S1x1, .i32⟩
  | 91 => ⟨S1600000x1, .i32⟩
  | 92 => ⟨S1600000x1, .i1⟩
  | 93 => ⟨S1600000x1, .i1⟩
  | 94 => ⟨S_, .i1⟩
  | 95 => ⟨S1600000, .i1⟩
  | 96 => ⟨S1600000x64, .f32⟩
  | 97 => ⟨S1600000x64, .i1⟩
  | 98 => ⟨S_, .f32⟩
  | 99 => ⟨S1600000x64, .f32⟩
  | 100 => ⟨S1600000x64, .f32⟩
  | 101 => ⟨S1x4x64, .f32⟩
  | 102 => ⟨S4x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1, .i32⟩
  | 112 => ⟨S_, .i32⟩
  | 113 => ⟨S1600000x1, .i32⟩
  | 114 => ⟨S1600000x1, .i1⟩
  | 115 => ⟨S1x1, .i32⟩
  | 116 => ⟨S1600000x1, .i32⟩
  | 117 => ⟨S1600000x1, .i1⟩
  | 118 => ⟨S1600000x1, .i1⟩
  | 119 => ⟨S_, .i1⟩
  | 120 => ⟨S1600000, .i1⟩
  | 121 => ⟨S1600000x64, .f32⟩
  | 122 => ⟨S1600000x64, .i1⟩
  | 123 => ⟨S_, .f32⟩
  | 124 => ⟨S1600000x64, .f32⟩
  | 125 => ⟨S1600000x64, .f32⟩
  | 126 => ⟨S1600000x64, .f32⟩
  | 127 => ⟨S_, .f32⟩
  | _ => ⟨S100000, .i32⟩

abbrev hbmTy0_3 (i : Nat) : BufTy := match i % 128 with
  | 0 => ⟨S100000x64, .f32⟩
  | 1 => ⟨S1600000x1, .i32⟩
  | 2 => ⟨S100000x64, .f32⟩
  | 3 => ⟨S1, .f32⟩
  | 4 => ⟨S_, .f32⟩
  | 5 => ⟨S_, .f32⟩
  | 6 => ⟨S_, .f32⟩
  | 7 => ⟨S100000x64, .f32⟩
  | 8 => ⟨S100000x64, .f32⟩
  | 9 => ⟨S1x64x64, .f32⟩
  | 10 => ⟨S64x64, .f32⟩
  | 11 => ⟨S1x64, .f32⟩
  | 12 => ⟨S64, .f32⟩
  | 13 => ⟨S1x64, .f32⟩
  | 14 => ⟨S1x64, .f32⟩
  | 15 => ⟨S64, .f32⟩
  | 16 => ⟨S1x64, .f32⟩
  | 17 => ⟨S1x64, .f32⟩
  | 18 => ⟨S64, .f32⟩
  | 19 => ⟨S1x64, .f32⟩
  | 20 => ⟨S1x64x64, .f32⟩
  | 21 => ⟨S64x64, .f32⟩
  | 22 => ⟨S1x64, .f32⟩
  | 23 => ⟨S64, .f32⟩
  | 24 => ⟨S1x64, .f32⟩
  | 25 => ⟨S1x64, .f32⟩
  | 26 => ⟨S64, .f32⟩
  | 27 => ⟨S1x64, .f32⟩
  | 28 => ⟨S1x64, .f32⟩
  | 29 => ⟨S64, .f32⟩
  | 30 => ⟨S1x64, .f32⟩
  | 31 => ⟨S100000x64, .f32⟩
  | 32 => ⟨S_, .f32⟩
  | 33 => ⟨S64, .f32⟩
  | 34 => ⟨S1x64, .f32⟩
  | 35 => ⟨S_, .f32⟩
  | 36 => ⟨S1x64, .f32⟩
  | 37 => ⟨S1x64, .f32⟩
  | 38 => ⟨S_, .i32⟩
  | 39 => ⟨S_, .f32⟩
  | 40 => ⟨S64, .f32⟩
  | 41 => ⟨S1x64, .f32⟩
  | 42 => ⟨S_, .f32⟩
  | 43 => ⟨S1x64, .f32⟩
  | 44 => ⟨S1x64, .f32⟩
  | 45 => ⟨S100000x64, .f32⟩
  | 46 => ⟨S100000x64, .f32⟩
  | 47 => ⟨S100000x64, .f32⟩
  | 48 => ⟨S_, .f32⟩
  | 49 => ⟨S_, .f32⟩
  | 50 => ⟨S_, .f32⟩
  | 51 => ⟨S_, .f32⟩
  | 52 => ⟨S64, .f32⟩
  | 53 => ⟨S1x64, .f32⟩
  | 54 => ⟨S1x64, .f32⟩
  | 55 => ⟨S1x64, .f32⟩
  | 56 => ⟨S_, .f32⟩
  | 57 => ⟨S_, .i1⟩
  | 58 => ⟨S_, .f32⟩
  | 59 => ⟨S_, .f32⟩
  | 60 => ⟨S1x64, .f32⟩
  | 61 => ⟨S1x64, .f32⟩
  | 62 => ⟨S100000x64, .f32⟩
  | 63 => ⟨S_, .f32⟩
  | 64 => ⟨S64, .f32⟩
  | 65 => ⟨S1x64, .f32⟩
  | 66 => ⟨S_, .f32⟩
  | 67 => ⟨S1x64, .f32⟩
  | 68 => ⟨S1x64, .f32⟩
  | 69 => ⟨S_, .i32⟩
  | 70 => ⟨S_, .f32⟩
  | 71 => ⟨S64, .f32⟩
  | 72 => ⟨S1x64, .f32⟩
  | 73 => ⟨S_, .f32⟩
  | 74 => ⟨S1x64, .f32⟩
  | 75 => ⟨S1x64, .f32⟩
  | 76 => ⟨S100000x64, .f32⟩
  | 77 => ⟨S100000x64, .f32⟩
  | 78 => ⟨S100000x64, .f32⟩
  | 79 => ⟨S_, .f32⟩
  | 80 => ⟨S_, .f32⟩
  | 81 => ⟨S_, .f32⟩
  | 82 => ⟨S_, .f32⟩
  | 83 => ⟨S64, .f32⟩
  | 84 => ⟨S1x64, .f32⟩
  | 85 => ⟨S1x64, .f32⟩
  | 86 => ⟨S1x64, .f32⟩
  | 87 => ⟨S_, .f32⟩
  | 88 => ⟨S_, .i1⟩
  | 89 => ⟨S_, .f32⟩
  | 90 => ⟨S_, .f32⟩
  | 91 => ⟨S1x64, .f32⟩
  | 92 => ⟨S1x64, .f32⟩
  | 93 => ⟨S100000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1, .i32⟩
  | 103 => ⟨S_, .i32⟩
  | 104 => ⟨S1600000x1, .i32⟩
  | 105 => ⟨S1600000x1, .i1⟩
  | 106 => ⟨S1x1, .i32⟩
  | 107 => ⟨S1600000x1, .i32⟩
  | 108 => ⟨S1600000x1, .i1⟩
  | 109 => ⟨S1600000x1, .i1⟩
  | 110 => ⟨S_, .i1⟩
  | 111 => ⟨S1600000, .i1⟩
  | 112 => ⟨S1600000x64, .f32⟩
  | 113 => ⟨S1600000x64, .i1⟩
  | 114 => ⟨S_, .f32⟩
  | 115 => ⟨S1600000x64, .f32⟩
  | 116 => ⟨S1600000x64, .f32⟩
  | 117 => ⟨S1x4x64, .f32⟩
  | 118 => ⟨S4x64, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1, .i32⟩
  | _ => ⟨S100000, .i32⟩

abbrev hbmTy0_4 (i : Nat) : BufTy := match i % 128 with
  | 0 => ⟨S_, .i32⟩
  | 1 => ⟨S1600000x1, .i32⟩
  | 2 => ⟨S1600000x1, .i1⟩
  | 3 => ⟨S1x1, .i32⟩
  | 4 => ⟨S1600000x1, .i32⟩
  | 5 => ⟨S1600000x1, .i1⟩
  | 6 => ⟨S1600000x1, .i1⟩
  | 7 => ⟨S_, .i1⟩
  | 8 => ⟨S1600000, .i1⟩
  | 9 => ⟨S1600000x64, .f32⟩
  | 10 => ⟨S1600000x64, .i1⟩
  | 11 => ⟨S_, .f32⟩
  | 12 => ⟨S1600000x64, .f32⟩
  | 13 => ⟨S1600000x64, .f32⟩
  | 14 => ⟨S1600000x64, .f32⟩
  | 15 => ⟨S_, .f32⟩
  | 16 => ⟨S100000x64, .f32⟩
  | 17 => ⟨S1600000x1, .i32⟩
  | 18 => ⟨S100000x64, .f32⟩
  | 19 => ⟨S1, .f32⟩
  | 20 => ⟨S_, .f32⟩
  | 21 => ⟨S_, .f32⟩
  | 22 => ⟨S_, .f32⟩
  | 23 => ⟨S100000x64, .f32⟩
  | 24 => ⟨S100000x64, .f32⟩
  | 25 => ⟨S1x64x64, .f32⟩
  | 26 => ⟨S64x64, .f32⟩
  | 27 => ⟨S1x64, .f32⟩
  | 28 => ⟨S64, .f32⟩
  | 29 => ⟨S1x64, .f32⟩
  | 30 => ⟨S1x64, .f32⟩
  | 31 => ⟨S64, .f32⟩
  | 32 => ⟨S1x64, .f32⟩
  | 33 => ⟨S1x64, .f32⟩
  | 34 => ⟨S64, .f32⟩
  | 35 => ⟨S1x64, .f32⟩
  | 36 => ⟨S1x64x64, .f32⟩
  | 37 => ⟨S64x64, .f32⟩
  | 38 => ⟨S1x64, .f32⟩
  | 39 => ⟨S64, .f32⟩
  | 40 => ⟨S1x64, .f32⟩
  | 41 => ⟨S1x64, .f32⟩
  | 42 => ⟨S64, .f32⟩
  | 43 => ⟨S1x64, .f32⟩
  | 44 => ⟨S1x64, .f32⟩
  | 45 => ⟨S64, .f32⟩
  | 46 => ⟨S1x64, .f32⟩
  | 47 => ⟨S100000x64, .f32⟩
  | 48 => ⟨S_, .f32⟩
  | 49 => ⟨S64, .f32⟩
  | 50 => ⟨S1x64, .f32⟩
  | 51 => ⟨S_, .f32⟩
  | 52 => ⟨S1x64, .f32⟩
  | 53 => ⟨S1x64, .f32⟩
  | 54 => ⟨S_, .i32⟩
  | 55 => ⟨S_, .f32⟩
  | 56 => ⟨S64, .f32⟩
  | 57 => ⟨S1x64, .f32⟩
  | 58 => ⟨S_, .f32⟩
  | 59 => ⟨S1x64, .f32⟩
  | 60 => ⟨S1x64, .f32⟩
  | 61 => ⟨S100000x64, .f32⟩
  | 62 => ⟨S100000x64, .f32⟩
  | 63 => ⟨S100000x64, .f32⟩
  | 64 => ⟨S_, .f32⟩
  | 65 => ⟨S_, .f32⟩
  | 66 => ⟨S_, .f32⟩
  | 67 => ⟨S_, .f32⟩
  | 68 => ⟨S64, .f32⟩
  | 69 => ⟨S1x64, .f32⟩
  | 70 => ⟨S1x64, .f32⟩
  | 71 => ⟨S1x64, .f32⟩
  | 72 => ⟨S_, .f32⟩
  | 73 => ⟨S_, .i1⟩
  | 74 => ⟨S_, .f32⟩
  | 75 => ⟨S_, .f32⟩
  | 76 => ⟨S1x64, .f32⟩
  | 77 => ⟨S1x64, .f32⟩
  | 78 => ⟨S100000x64, .f32⟩
  | 79 => ⟨S_, .f32⟩
  | 80 => ⟨S64, .f32⟩
  | 81 => ⟨S1x64, .f32⟩
  | 82 => ⟨S_, .f32⟩
  | 83 => ⟨S1x64, .f32⟩
  | 84 => ⟨S1x64, .f32⟩
  | 85 => ⟨S_, .i32⟩
  | 86 => ⟨S_, .f32⟩
  | 87 => ⟨S64, .f32⟩
  | 88 => ⟨S1x64, .f32⟩
  | 89 => ⟨S_, .f32⟩
  | 90 => ⟨S1x64, .f32⟩
  | 91 => ⟨S1x64, .f32⟩
  | 92 => ⟨S100000x64, .f32⟩
  | 93 => ⟨S100000x64, .f32⟩
  | 94 => ⟨S100000x64, .f32⟩
  | 95 => ⟨S_, .f32⟩
  | 96 => ⟨S_, .f32⟩
  | 97 => ⟨S_, .f32⟩
  | 98 => ⟨S_, .f32⟩
  | 99 => ⟨S64, .f32⟩
  | 100 => ⟨S1x64, .f32⟩
  | 101 => ⟨S1x64, .f32⟩
  | 102 => ⟨S1x64, .f32⟩
  | 103 => ⟨S_, .f32⟩
  | 104 => ⟨S_, .i1⟩
  | 105 => ⟨S_, .f32⟩
  | 106 => ⟨S_, .f32⟩
  | 107 => ⟨S1x64, .f32⟩
  | 108 => ⟨S1x64, .f32⟩
  | 109 => ⟨S100000x64, .f32⟩
  | 110 => ⟨S_, .f32⟩
  | 111 => ⟨S512x64, .f32⟩
  | 112 => ⟨S100000x1, .i32⟩
  | 113 => ⟨S512x64, .f32⟩
  | 114 => ⟨S1x128, .f32⟩
  | 115 => ⟨S1x1, .f32⟩
  | 116 => ⟨S512x1, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000, .i32⟩

abbrev vmemTy0_0 (i : Nat) : BufTy := match i % 128 with
  | 0 => ⟨S12800x64, .f32⟩
  | 1 => ⟨S12800x64, .f32⟩
  | 2 => ⟨S12800x64, .f32⟩
  | 3 => ⟨S12800x64, .f32⟩
  | 4 => ⟨S12800x64, .f32⟩
  | 5 => ⟨S12800x64, .f32⟩
  | 6 => ⟨S5000x64, .f32⟩
  | 7 => ⟨S5000x64, .f32⟩
  | 8 => ⟨S5000x64, .f32⟩
  | 9 => ⟨S5000x64, .f32⟩
  | 10 => ⟨S64x64, .f32⟩
  | 11 => ⟨S1x64, .f32⟩
  | 12 => ⟨S5000x64, .f32⟩
  | 13 => ⟨S5000x64, .f32⟩
  | 14 => ⟨S5000x64, .f32⟩
  | 15 => ⟨S5000x64, .f32⟩
  | 16 => ⟨S1x64, .f32⟩
  | 17 => ⟨S1x64, .f32⟩
  | 18 => ⟨S1x64, .f32⟩
  | 19 => ⟨S1x64, .f32⟩
  | 20 => ⟨S64x64, .f32⟩
  | 21 => ⟨S1x64, .f32⟩
  | 22 => ⟨S5000x64, .f32⟩
  | 23 => ⟨S5000x64, .f32⟩
  | 24 => ⟨S5000x64, .f32⟩
  | 25 => ⟨S5000x64, .f32⟩
  | 26 => ⟨S1x64, .f32⟩
  | 27 => ⟨S1x64, .f32⟩
  | 28 => ⟨S1x64, .f32⟩
  | 29 => ⟨S1x64, .f32⟩
  | 30 => ⟨S5000x64, .f32⟩
  | 31 => ⟨S5000x64, .f32⟩
  | 32 => ⟨S12800x64, .f32⟩
  | 33 => ⟨S12800x64, .f32⟩
  | 34 => ⟨S12800x64, .f32⟩
  | 35 => ⟨S12800x64, .f32⟩
  | 36 => ⟨S12800x64, .f32⟩
  | 37 => ⟨S12800x64, .f32⟩
  | 38 => ⟨S5000x64, .f32⟩
  | 39 => ⟨S5000x64, .f32⟩
  | 40 => ⟨S5000x64, .f32⟩
  | 41 => ⟨S5000x64, .f32⟩
  | 42 => ⟨S64x64, .f32⟩
  | 43 => ⟨S1x64, .f32⟩
  | 44 => ⟨S5000x64, .f32⟩
  | 45 => ⟨S5000x64, .f32⟩
  | 46 => ⟨S5000x64, .f32⟩
  | 47 => ⟨S5000x64, .f32⟩
  | 48 => ⟨S1x64, .f32⟩
  | 49 => ⟨S1x64, .f32⟩
  | 50 => ⟨S1x64, .f32⟩
  | 51 => ⟨S1x64, .f32⟩
  | 52 => ⟨S64x64, .f32⟩
  | 53 => ⟨S1x64, .f32⟩
  | 54 => ⟨S5000x64, .f32⟩
  | 55 => ⟨S5000x64, .f32⟩
  | 56 => ⟨S5000x64, .f32⟩
  | 57 => ⟨S5000x64, .f32⟩
  | 58 => ⟨S1x64, .f32⟩
  | 59 => ⟨S1x64, .f32⟩
  | 60 => ⟨S1x64, .f32⟩
  | 61 => ⟨S1x64, .f32⟩
  | 62 => ⟨S5000x64, .f32⟩
  | 63 => ⟨S5000x64, .f32⟩
  | 64 => ⟨S12800x64, .f32⟩
  | 65 => ⟨S12800x64, .f32⟩
  | 66 => ⟨S12800x64, .f32⟩
  | 67 => ⟨S12800x64, .f32⟩
  | 68 => ⟨S12800x64, .f32⟩
  | 69 => ⟨S12800x64, .f32⟩
  | 70 => ⟨S5000x64, .f32⟩
  | 71 => ⟨S5000x64, .f32⟩
  | 72 => ⟨S5000x64, .f32⟩
  | 73 => ⟨S5000x64, .f32⟩
  | 74 => ⟨S64x64, .f32⟩
  | 75 => ⟨S1x64, .f32⟩
  | 76 => ⟨S5000x64, .f32⟩
  | 77 => ⟨S5000x64, .f32⟩
  | 78 => ⟨S5000x64, .f32⟩
  | 79 => ⟨S5000x64, .f32⟩
  | 80 => ⟨S1x64, .f32⟩
  | 81 => ⟨S1x64, .f32⟩
  | 82 => ⟨S1x64, .f32⟩
  | 83 => ⟨S1x64, .f32⟩
  | 84 => ⟨S64x64, .f32⟩
  | 85 => ⟨S1x64, .f32⟩
  | 86 => ⟨S5000x64, .f32⟩
  | 87 => ⟨S5000x64, .f32⟩
  | 88 => ⟨S5000x64, .f32⟩
  | 89 => ⟨S5000x64, .f32⟩
  | 90 => ⟨S1x64, .f32⟩
  | 91 => ⟨S1x64, .f32⟩
  | 92 => ⟨S1x64, .f32⟩
  | 93 => ⟨S1x64, .f32⟩
  | 94 => ⟨S5000x64, .f32⟩
  | 95 => ⟨S5000x64, .f32⟩
  | 96 => ⟨S12800x64, .f32⟩
  | 97 => ⟨S12800x64, .f32⟩
  | 98 => ⟨S12800x64, .f32⟩
  | 99 => ⟨S12800x64, .f32⟩
  | 100 => ⟨S12800x64, .f32⟩
  | 101 => ⟨S12800x64, .f32⟩
  | 102 => ⟨S5000x64, .f32⟩
  | 103 => ⟨S5000x64, .f32⟩
  | 104 => ⟨S5000x64, .f32⟩
  | 105 => ⟨S5000x64, .f32⟩
  | 106 => ⟨S64x64, .f32⟩
  | 107 => ⟨S1x64, .f32⟩
  | 108 => ⟨S5000x64, .f32⟩
  | 109 => ⟨S5000x64, .f32⟩
  | 110 => ⟨S5000x64, .f32⟩
  | 111 => ⟨S5000x64, .f32⟩
  | 112 => ⟨S1x64, .f32⟩
  | 113 => ⟨S1x64, .f32⟩
  | 114 => ⟨S1x64, .f32⟩
  | 115 => ⟨S1x64, .f32⟩
  | 116 => ⟨S64x64, .f32⟩
  | 117 => ⟨S1x64, .f32⟩
  | 118 => ⟨S5000x64, .f32⟩
  | 119 => ⟨S5000x64, .f32⟩
  | 120 => ⟨S5000x64, .f32⟩
  | 121 => ⟨S5000x64, .f32⟩
  | 122 => ⟨S1x64, .f32⟩
  | 123 => ⟨S1x64, .f32⟩
  | 124 => ⟨S1x64, .f32⟩
  | 125 => ⟨S1x64, .f32⟩
  | 126 => ⟨S5000x64, .f32⟩
  | 127 => ⟨S5000x64, .f32⟩
  | _ => ⟨S100000, .i32⟩

abbrev vmemTy0_1 (i : Nat) : BufTy := match i % 128 with
  | 0 => ⟨S512x64, .f32⟩
  | 1 => ⟨S64x128, .f32⟩
  | 2 => ⟨S1x128, .f32⟩
  | 3 => ⟨S128x1, .f32⟩
  | 4 => ⟨S1x1, .f32⟩
  | 5 => ⟨S512x1, .f32⟩
  | _ => ⟨S100000, .i32⟩

abbrev vmemTy (i : Nat) : BufTy := match i / 128 with
  | 0 => vmemTy0_0 i
  | 1 => vmemTy0_1 i
  | _ => ⟨S100000, .i32⟩

abbrev bufTy : (tb : Table) → Fin (tcTables nBuf tb) → BufTy
  | .hbm, ⟨i, _⟩ => hbmTy i
  | .local _ .vmem, ⟨i, _⟩ => vmemTy i
  | _, _ => ⟨S100000, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v4 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v8 : Ref sig .tc := ⟨.hbm, 93, rfl⟩
abbrev main_v9 : Ref sig .tc := ⟨.hbm, 94, rfl⟩
abbrev main_cst : Ref sig .tc := ⟨.hbm, 95, rfl⟩
abbrev main_v10 : Ref sig .tc := ⟨.hbm, 96, rfl⟩
abbrev main_v11 : Ref sig .tc := ⟨.hbm, 97, rfl⟩
abbrev main_v12 : Ref sig .tc := ⟨.hbm, 98, rfl⟩
abbrev main_v13 : Ref sig .tc := ⟨.hbm, 99, rfl⟩
abbrev main_v14 : Ref sig .tc := ⟨.hbm, 100, rfl⟩
abbrev main_cst_0 : Ref sig .tc := ⟨.hbm, 101, rfl⟩
abbrev main_v15 : Ref sig .tc := ⟨.hbm, 102, rfl⟩
abbrev main_v16 : Ref sig .tc := ⟨.hbm, 103, rfl⟩
abbrev main_v17 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_v21 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_cst_1 : Ref sig .tc := ⟨.hbm, 128, rfl⟩
abbrev main_v41 : Ref sig .tc := ⟨.hbm, 129, rfl⟩
abbrev main_v42 : Ref sig .tc := ⟨.hbm, 130, rfl⟩
abbrev main_cst_2 : Ref sig .tc := ⟨.hbm, 131, rfl⟩
abbrev main_v43 : Ref sig .tc := ⟨.hbm, 132, rfl⟩
abbrev main_v44 : Ref sig .tc := ⟨.hbm, 133, rfl⟩
abbrev main_c : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_cst_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_v6 : Ref sig .tc := ⟨.hbm, 143, rfl⟩
abbrev main_call3_v7 : Ref sig .tc := ⟨.hbm, 144, rfl⟩
abbrev main_call3_cst_1 : Ref sig .tc := ⟨.hbm, 145, rfl⟩
abbrev main_call3_v8 : Ref sig .tc := ⟨.hbm, 146, rfl⟩
abbrev main_call3_cst_2 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_v12 : Ref sig .tc := ⟨.hbm, 151, rfl⟩
abbrev main_call3_cst_3 : Ref sig .tc := ⟨.hbm, 152, rfl⟩
abbrev main_call3_v13 : Ref sig .tc := ⟨.hbm, 153, rfl⟩
abbrev main_call3_cst_4 : Ref sig .tc := ⟨.hbm, 154, rfl⟩
abbrev main_call3_call0_v0 : Ref sig .tc := ⟨.hbm, 155, rfl⟩
abbrev main_call3_call0_v1 : Ref sig .tc := ⟨.hbm, 156, rfl⟩
abbrev main_v45 : Ref sig .tc := ⟨.hbm, 157, rfl⟩
abbrev main_v46 : Ref sig .tc := ⟨.hbm, 158, rfl⟩
abbrev main_cst_3 : Ref sig .tc := ⟨.hbm, 159, rfl⟩
abbrev main_v47 : Ref sig .tc := ⟨.hbm, 160, rfl⟩
abbrev main_v48 : Ref sig .tc := ⟨.hbm, 161, rfl⟩
abbrev main_cst_4 : Ref sig .tc := ⟨.hbm, 162, rfl⟩
abbrev main_v49 : Ref sig .tc := ⟨.hbm, 163, rfl⟩
abbrev main_v50 : Ref sig .tc := ⟨.hbm, 164, rfl⟩
abbrev main_c_5 : Ref sig .tc := ⟨.hbm, 165, rfl⟩
abbrev main_call4_cst : Ref sig .tc := ⟨.hbm, 166, rfl⟩
abbrev main_call4_v0 : Ref sig .tc := ⟨.hbm, 167, rfl⟩
abbrev main_call4_v1 : Ref sig .tc := ⟨.hbm, 168, rfl⟩
abbrev main_call4_cst_0 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_v5 : Ref sig .tc := ⟨.hbm, 173, rfl⟩
abbrev main_call4_v6 : Ref sig .tc := ⟨.hbm, 174, rfl⟩
abbrev main_call4_v7 : Ref sig .tc := ⟨.hbm, 175, rfl⟩
abbrev main_call4_cst_1 : Ref sig .tc := ⟨.hbm, 176, rfl⟩
abbrev main_call4_v8 : Ref sig .tc := ⟨.hbm, 177, rfl⟩
abbrev main_call4_cst_2 : Ref sig .tc := ⟨.hbm, 178, rfl⟩
abbrev main_call4_v9 : Ref sig .tc := ⟨.hbm, 179, rfl⟩
abbrev main_call4_v10 : Ref sig .tc := ⟨.hbm, 180, rfl⟩
abbrev main_call4_v11 : Ref sig .tc := ⟨.hbm, 181, rfl⟩
abbrev main_call4_v12 : Ref sig .tc := ⟨.hbm, 182, rfl⟩
abbrev main_call4_cst_3 : Ref sig .tc := ⟨.hbm, 183, rfl⟩
abbrev main_call4_v13 : Ref sig .tc := ⟨.hbm, 184, rfl⟩
abbrev main_call4_cst_4 : Ref sig .tc := ⟨.hbm, 185, rfl⟩
abbrev main_call4_call0_v0 : Ref sig .tc := ⟨.hbm, 186, rfl⟩
abbrev main_call4_call0_v1 : Ref sig .tc := ⟨.hbm, 187, rfl⟩
abbrev main_v51 : Ref sig .tc := ⟨.hbm, 188, rfl⟩
abbrev main_v52 : Ref sig .tc := ⟨.hbm, 189, rfl⟩
abbrev main_call5_c : Ref sig .tc := ⟨.hbm, 190, rfl⟩
abbrev main_call5_v0 : Ref sig .tc := ⟨.hbm, 191, rfl⟩
abbrev main_call5_v1 : Ref sig .tc := ⟨.hbm, 192, rfl⟩
abbrev main_call5_c_0 : Ref sig .tc := ⟨.hbm, 193, rfl⟩
abbrev main_call5_v2 : Ref sig .tc := ⟨.hbm, 194, rfl⟩
abbrev main_call5_v3 : Ref sig .tc := ⟨.hbm, 195, rfl⟩
abbrev main_call5_v4 : Ref sig .tc := ⟨.hbm, 196, rfl⟩
abbrev main_call5_v5 : Ref sig .tc := ⟨.hbm, 197, rfl⟩
abbrev main_call5_c_1 : Ref sig .tc := ⟨.hbm, 198, rfl⟩
abbrev main_call5_c_2 : Ref sig .tc := ⟨.hbm, 199, rfl⟩
abbrev main_call5_v6 : Ref sig .tc := ⟨.hbm, 200, rfl⟩
abbrev main_call5_v7 : Ref sig .tc := ⟨.hbm, 201, rfl⟩
abbrev main_call5_v8 : Ref sig .tc := ⟨.hbm, 202, rfl⟩
abbrev main_call5_v9 : Ref sig .tc := ⟨.hbm, 203, rfl⟩
abbrev main_call5_v10 : Ref sig .tc := ⟨.hbm, 204, rfl⟩
abbrev main_call5_v11 : Ref sig .tc := ⟨.hbm, 205, rfl⟩
abbrev main_call5_c_3 : Ref sig .tc := ⟨.hbm, 206, rfl⟩
abbrev main_call5_v12 : Ref sig .tc := ⟨.hbm, 207, rfl⟩
abbrev main_call5_v13 : Ref sig .tc := ⟨.hbm, 208, rfl⟩
abbrev main_call5_v14 : Ref sig .tc := ⟨.hbm, 209, rfl⟩
abbrev main_call5_cst : Ref sig .tc := ⟨.hbm, 210, rfl⟩
abbrev main_call5_v15 : Ref sig .tc := ⟨.hbm, 211, rfl⟩
abbrev main_v53 : Ref sig .tc := ⟨.hbm, 212, rfl⟩
abbrev main_v54 : Ref sig .tc := ⟨.hbm, 213, rfl⟩
abbrev main_v55 : Ref sig .tc := ⟨.hbm, 214, rfl⟩
abbrev main_call6_c : Ref sig .tc := ⟨.hbm, 215, rfl⟩
abbrev main_call6_v0 : Ref sig .tc := ⟨.hbm, 216, rfl⟩
abbrev main_call6_v1 : Ref sig .tc := ⟨.hbm, 217, rfl⟩
abbrev main_call6_c_0 : Ref sig .tc := ⟨.hbm, 218, rfl⟩
abbrev main_call6_v2 : Ref sig .tc := ⟨.hbm, 219, rfl⟩
abbrev main_call6_v3 : Ref sig .tc := ⟨.hbm, 220, rfl⟩
abbrev main_call6_v4 : Ref sig .tc := ⟨.hbm, 221, rfl⟩
abbrev main_call6_v5 : Ref sig .tc := ⟨.hbm, 222, rfl⟩
abbrev main_call6_c_1 : Ref sig .tc := ⟨.hbm, 223, rfl⟩
abbrev main_call6_c_2 : Ref sig .tc := ⟨.hbm, 224, rfl⟩
abbrev main_call6_v6 : Ref sig .tc := ⟨.hbm, 225, rfl⟩
abbrev main_call6_v7 : Ref sig .tc := ⟨.hbm, 226, rfl⟩
abbrev main_call6_v8 : Ref sig .tc := ⟨.hbm, 227, rfl⟩
abbrev main_call6_v9 : Ref sig .tc := ⟨.hbm, 228, rfl⟩
abbrev main_call6_v10 : Ref sig .tc := ⟨.hbm, 229, rfl⟩
abbrev main_call6_v11 : Ref sig .tc := ⟨.hbm, 230, rfl⟩
abbrev main_call6_c_3 : Ref sig .tc := ⟨.hbm, 231, rfl⟩
abbrev main_call6_v12 : Ref sig .tc := ⟨.hbm, 232, rfl⟩
abbrev main_call6_v13 : Ref sig .tc := ⟨.hbm, 233, rfl⟩
abbrev main_call6_v14 : Ref sig .tc := ⟨.hbm, 234, rfl⟩
abbrev main_call6_cst : Ref sig .tc := ⟨.hbm, 235, rfl⟩
abbrev main_call6_v15 : Ref sig .tc := ⟨.hbm, 236, rfl⟩
abbrev main_v56 : Ref sig .tc := ⟨.hbm, 237, rfl⟩
abbrev main_v57 : Ref sig .tc := ⟨.hbm, 238, rfl⟩
abbrev main_cst_6 : Ref sig .tc := ⟨.hbm, 239, rfl⟩
abbrev main_v58 : Ref sig .tc := ⟨.hbm, 240, rfl⟩
abbrev main_v59 : Ref sig .tc := ⟨.hbm, 241, rfl⟩
abbrev main_v60 : Ref sig .tc := ⟨.hbm, 242, rfl⟩
abbrev main_v61 : Ref sig .tc := ⟨.hbm, 243, rfl⟩
abbrev main_v62 : Ref sig .tc := ⟨.hbm, 244, rfl⟩
abbrev main_cst_7 : Ref sig .tc := ⟨.hbm, 245, rfl⟩
abbrev main_v63 : Ref sig .tc := ⟨.hbm, 246, rfl⟩
abbrev main_v64 : Ref sig .tc := ⟨.hbm, 247, rfl⟩
abbrev main_v65 : Ref sig .tc := ⟨.hbm, 248, rfl⟩
abbrev main_v66 : Ref sig .tc := ⟨.hbm, 249, rfl⟩
abbrev main_v67 : Ref sig .tc := ⟨.hbm, 250, rfl⟩
abbrev main_v68 : Ref sig .tc := ⟨.hbm, 251, rfl⟩
abbrev main_v69 : Ref sig .tc := ⟨.hbm, 252, rfl⟩
abbrev main_v70 : Ref sig .tc := ⟨.hbm, 253, rfl⟩
abbrev main_v71 : Ref sig .tc := ⟨.hbm, 254, rfl⟩
abbrev main_v72 : Ref sig .tc := ⟨.hbm, 255, rfl⟩
abbrev main_v73 : Ref sig .tc := ⟨.hbm, 256, rfl⟩
abbrev main_v74 : Ref sig .tc := ⟨.hbm, 257, rfl⟩
abbrev main_v75 : Ref sig .tc := ⟨.hbm, 258, rfl⟩
abbrev main_v76 : Ref sig .tc := ⟨.hbm, 259, rfl⟩
abbrev main_v77 : Ref sig .tc := ⟨.hbm, 260, rfl⟩
abbrev main_v78 : Ref sig .tc := ⟨.hbm, 261, rfl⟩
abbrev main_v79 : Ref sig .tc := ⟨.hbm, 262, rfl⟩
abbrev main_v80 : Ref sig .tc := ⟨.hbm, 263, rfl⟩
abbrev main_v81 : Ref sig .tc := ⟨.hbm, 264, rfl⟩
abbrev main_v82 : Ref sig .tc := ⟨.hbm, 265, rfl⟩
abbrev main_v83 : Ref sig .tc := ⟨.hbm, 266, rfl⟩
abbrev main_v84 : Ref sig .tc := ⟨.hbm, 267, rfl⟩
abbrev main_v85 : Ref sig .tc := ⟨.hbm, 268, rfl⟩
abbrev main_v86 : Ref sig .tc := ⟨.hbm, 269, rfl⟩
abbrev main_v87 : Ref sig .tc := ⟨.hbm, 270, rfl⟩
abbrev main_v88 : Ref sig .tc := ⟨.hbm, 271, rfl⟩
abbrev main_cst_8 : Ref sig .tc := ⟨.hbm, 272, rfl⟩
abbrev main_v89 : Ref sig .tc := ⟨.hbm, 273, rfl⟩
abbrev main_v90 : Ref sig .tc := ⟨.hbm, 274, rfl⟩
abbrev main_cst_9 : Ref sig .tc := ⟨.hbm, 275, rfl⟩
abbrev main_v91 : Ref sig .tc := ⟨.hbm, 276, rfl⟩
abbrev main_v92 : Ref sig .tc := ⟨.hbm, 277, rfl⟩
abbrev main_c_10 : Ref sig .tc := ⟨.hbm, 278, rfl⟩
abbrev main_call7_cst : Ref sig .tc := ⟨.hbm, 279, rfl⟩
abbrev main_call7_v0 : Ref sig .tc := ⟨.hbm, 280, rfl⟩
abbrev main_call7_v1 : Ref sig .tc := ⟨.hbm, 281, rfl⟩
abbrev main_call7_cst_0 : Ref sig .tc := ⟨.hbm, 282, rfl⟩
abbrev main_call7_v2 : Ref sig .tc := ⟨.hbm, 283, rfl⟩
abbrev main_call7_v3 : Ref sig .tc := ⟨.hbm, 284, rfl⟩
abbrev main_call7_v4 : Ref sig .tc := ⟨.hbm, 285, rfl⟩
abbrev main_call7_v5 : Ref sig .tc := ⟨.hbm, 286, rfl⟩
abbrev main_call7_v6 : Ref sig .tc := ⟨.hbm, 287, rfl⟩
abbrev main_call7_v7 : Ref sig .tc := ⟨.hbm, 288, rfl⟩
abbrev main_call7_cst_1 : Ref sig .tc := ⟨.hbm, 289, rfl⟩
abbrev main_call7_v8 : Ref sig .tc := ⟨.hbm, 290, rfl⟩
abbrev main_call7_cst_2 : Ref sig .tc := ⟨.hbm, 291, rfl⟩
abbrev main_call7_v9 : Ref sig .tc := ⟨.hbm, 292, rfl⟩
abbrev main_call7_v10 : Ref sig .tc := ⟨.hbm, 293, rfl⟩
abbrev main_call7_v11 : Ref sig .tc := ⟨.hbm, 294, rfl⟩
abbrev main_call7_v12 : Ref sig .tc := ⟨.hbm, 295, rfl⟩
abbrev main_call7_cst_3 : Ref sig .tc := ⟨.hbm, 296, rfl⟩
abbrev main_call7_v13 : Ref sig .tc := ⟨.hbm, 297, rfl⟩
abbrev main_call7_cst_4 : Ref sig .tc := ⟨.hbm, 298, rfl⟩
abbrev main_call7_call0_v0 : Ref sig .tc := ⟨.hbm, 299, rfl⟩
abbrev main_call7_call0_v1 : Ref sig .tc := ⟨.hbm, 300, rfl⟩
abbrev main_v93 : Ref sig .tc := ⟨.hbm, 301, rfl⟩
abbrev main_v94 : Ref sig .tc := ⟨.hbm, 302, rfl⟩
abbrev main_cst_11 : Ref sig .tc := ⟨.hbm, 303, rfl⟩
abbrev main_v95 : Ref sig .tc := ⟨.hbm, 304, rfl⟩
abbrev main_v96 : Ref sig .tc := ⟨.hbm, 305, rfl⟩
abbrev main_cst_12 : Ref sig .tc := ⟨.hbm, 306, rfl⟩
abbrev main_v97 : Ref sig .tc := ⟨.hbm, 307, rfl⟩
abbrev main_v98 : Ref sig .tc := ⟨.hbm, 308, rfl⟩
abbrev main_c_13 : Ref sig .tc := ⟨.hbm, 309, rfl⟩
abbrev main_call8_cst : Ref sig .tc := ⟨.hbm, 310, rfl⟩
abbrev main_call8_v0 : Ref sig .tc := ⟨.hbm, 311, rfl⟩
abbrev main_call8_v1 : Ref sig .tc := ⟨.hbm, 312, rfl⟩
abbrev main_call8_cst_0 : Ref sig .tc := ⟨.hbm, 313, rfl⟩
abbrev main_call8_v2 : Ref sig .tc := ⟨.hbm, 314, rfl⟩
abbrev main_call8_v3 : Ref sig .tc := ⟨.hbm, 315, rfl⟩
abbrev main_call8_v4 : Ref sig .tc := ⟨.hbm, 316, rfl⟩
abbrev main_call8_v5 : Ref sig .tc := ⟨.hbm, 317, rfl⟩
abbrev main_call8_v6 : Ref sig .tc := ⟨.hbm, 318, rfl⟩
abbrev main_call8_v7 : Ref sig .tc := ⟨.hbm, 319, rfl⟩
abbrev main_call8_cst_1 : Ref sig .tc := ⟨.hbm, 320, rfl⟩
abbrev main_call8_v8 : Ref sig .tc := ⟨.hbm, 321, rfl⟩
abbrev main_call8_cst_2 : Ref sig .tc := ⟨.hbm, 322, rfl⟩
abbrev main_call8_v9 : Ref sig .tc := ⟨.hbm, 323, rfl⟩
abbrev main_call8_v10 : Ref sig .tc := ⟨.hbm, 324, rfl⟩
abbrev main_call8_v11 : Ref sig .tc := ⟨.hbm, 325, rfl⟩
abbrev main_call8_v12 : Ref sig .tc := ⟨.hbm, 326, rfl⟩
abbrev main_call8_cst_3 : Ref sig .tc := ⟨.hbm, 327, rfl⟩
abbrev main_call8_v13 : Ref sig .tc := ⟨.hbm, 328, rfl⟩
abbrev main_call8_cst_4 : Ref sig .tc := ⟨.hbm, 329, rfl⟩
abbrev main_call8_call0_v0 : Ref sig .tc := ⟨.hbm, 330, rfl⟩
abbrev main_call8_call0_v1 : Ref sig .tc := ⟨.hbm, 331, rfl⟩
abbrev main_v99 : Ref sig .tc := ⟨.hbm, 332, rfl⟩
abbrev main_v100 : Ref sig .tc := ⟨.hbm, 333, rfl⟩
abbrev main_call9_c : Ref sig .tc := ⟨.hbm, 334, rfl⟩
abbrev main_call9_v0 : Ref sig .tc := ⟨.hbm, 335, rfl⟩
abbrev main_call9_v1 : Ref sig .tc := ⟨.hbm, 336, rfl⟩
abbrev main_call9_c_0 : Ref sig .tc := ⟨.hbm, 337, rfl⟩
abbrev main_call9_v2 : Ref sig .tc := ⟨.hbm, 338, rfl⟩
abbrev main_call9_v3 : Ref sig .tc := ⟨.hbm, 339, rfl⟩
abbrev main_call9_v4 : Ref sig .tc := ⟨.hbm, 340, rfl⟩
abbrev main_call9_v5 : Ref sig .tc := ⟨.hbm, 341, rfl⟩
abbrev main_call9_c_1 : Ref sig .tc := ⟨.hbm, 342, rfl⟩
abbrev main_call9_c_2 : Ref sig .tc := ⟨.hbm, 343, rfl⟩
abbrev main_call9_v6 : Ref sig .tc := ⟨.hbm, 344, rfl⟩
abbrev main_call9_v7 : Ref sig .tc := ⟨.hbm, 345, rfl⟩
abbrev main_call9_v8 : Ref sig .tc := ⟨.hbm, 346, rfl⟩
abbrev main_call9_v9 : Ref sig .tc := ⟨.hbm, 347, rfl⟩
abbrev main_call9_v10 : Ref sig .tc := ⟨.hbm, 348, rfl⟩
abbrev main_call9_v11 : Ref sig .tc := ⟨.hbm, 349, rfl⟩
abbrev main_call9_c_3 : Ref sig .tc := ⟨.hbm, 350, rfl⟩
abbrev main_call9_v12 : Ref sig .tc := ⟨.hbm, 351, rfl⟩
abbrev main_call9_v13 : Ref sig .tc := ⟨.hbm, 352, rfl⟩
abbrev main_call9_v14 : Ref sig .tc := ⟨.hbm, 353, rfl⟩
abbrev main_call9_cst : Ref sig .tc := ⟨.hbm, 354, rfl⟩
abbrev main_call9_v15 : Ref sig .tc := ⟨.hbm, 355, rfl⟩
abbrev main_v101 : Ref sig .tc := ⟨.hbm, 356, rfl⟩
abbrev main_v102 : Ref sig .tc := ⟨.hbm, 357, rfl⟩
abbrev main_v103 : Ref sig .tc := ⟨.hbm, 358, rfl⟩
abbrev main_call10_c : Ref sig .tc := ⟨.hbm, 359, rfl⟩
abbrev main_call10_v0 : Ref sig .tc := ⟨.hbm, 360, rfl⟩
abbrev main_call10_v1 : Ref sig .tc := ⟨.hbm, 361, rfl⟩
abbrev main_call10_c_0 : Ref sig .tc := ⟨.hbm, 362, rfl⟩
abbrev main_call10_v2 : Ref sig .tc := ⟨.hbm, 363, rfl⟩
abbrev main_call10_v3 : Ref sig .tc := ⟨.hbm, 364, rfl⟩
abbrev main_call10_v4 : Ref sig .tc := ⟨.hbm, 365, rfl⟩
abbrev main_call10_v5 : Ref sig .tc := ⟨.hbm, 366, rfl⟩
abbrev main_call10_c_1 : Ref sig .tc := ⟨.hbm, 367, rfl⟩
abbrev main_call10_c_2 : Ref sig .tc := ⟨.hbm, 368, rfl⟩
abbrev main_call10_v6 : Ref sig .tc := ⟨.hbm, 369, rfl⟩
abbrev main_call10_v7 : Ref sig .tc := ⟨.hbm, 370, rfl⟩
abbrev main_call10_v8 : Ref sig .tc := ⟨.hbm, 371, rfl⟩
abbrev main_call10_v9 : Ref sig .tc := ⟨.hbm, 372, rfl⟩
abbrev main_call10_v10 : Ref sig .tc := ⟨.hbm, 373, rfl⟩
abbrev main_call10_v11 : Ref sig .tc := ⟨.hbm, 374, rfl⟩
abbrev main_call10_c_3 : Ref sig .tc := ⟨.hbm, 375, rfl⟩
abbrev main_call10_v12 : Ref sig .tc := ⟨.hbm, 376, rfl⟩
abbrev main_call10_v13 : Ref sig .tc := ⟨.hbm, 377, rfl⟩
abbrev main_call10_v14 : Ref sig .tc := ⟨.hbm, 378, rfl⟩
abbrev main_call10_cst : Ref sig .tc := ⟨.hbm, 379, rfl⟩
abbrev main_call10_v15 : Ref sig .tc := ⟨.hbm, 380, rfl⟩
abbrev main_v104 : Ref sig .tc := ⟨.hbm, 381, rfl⟩
abbrev main_v105 : Ref sig .tc := ⟨.hbm, 382, rfl⟩
abbrev main_cst_14 : Ref sig .tc := ⟨.hbm, 383, rfl⟩
abbrev main_v106 : Ref sig .tc := ⟨.hbm, 384, rfl⟩
abbrev main_v107 : Ref sig .tc := ⟨.hbm, 385, rfl⟩
abbrev main_v108 : Ref sig .tc := ⟨.hbm, 386, rfl⟩
abbrev main_v109 : Ref sig .tc := ⟨.hbm, 387, rfl⟩
abbrev main_v110 : Ref sig .tc := ⟨.hbm, 388, rfl⟩
abbrev main_cst_15 : Ref sig .tc := ⟨.hbm, 389, rfl⟩
abbrev main_v111 : Ref sig .tc := ⟨.hbm, 390, rfl⟩
abbrev main_v112 : Ref sig .tc := ⟨.hbm, 391, rfl⟩
abbrev main_v113 : Ref sig .tc := ⟨.hbm, 392, rfl⟩
abbrev main_v114 : Ref sig .tc := ⟨.hbm, 393, rfl⟩
abbrev main_v115 : Ref sig .tc := ⟨.hbm, 394, rfl⟩
abbrev main_v116 : Ref sig .tc := ⟨.hbm, 395, rfl⟩
abbrev main_v117 : Ref sig .tc := ⟨.hbm, 396, rfl⟩
abbrev main_v118 : Ref sig .tc := ⟨.hbm, 397, rfl⟩
abbrev main_v119 : Ref sig .tc := ⟨.hbm, 398, rfl⟩
abbrev main_v120 : Ref sig .tc := ⟨.hbm, 399, rfl⟩
abbrev main_v121 : Ref sig .tc := ⟨.hbm, 400, rfl⟩
abbrev main_v122 : Ref sig .tc := ⟨.hbm, 401, rfl⟩
abbrev main_v123 : Ref sig .tc := ⟨.hbm, 402, rfl⟩
abbrev main_v124 : Ref sig .tc := ⟨.hbm, 403, rfl⟩
abbrev main_v125 : Ref sig .tc := ⟨.hbm, 404, rfl⟩
abbrev main_v126 : Ref sig .tc := ⟨.hbm, 405, rfl⟩
abbrev main_v127 : Ref sig .tc := ⟨.hbm, 406, rfl⟩
abbrev main_v128 : Ref sig .tc := ⟨.hbm, 407, rfl⟩
abbrev main_v129 : Ref sig .tc := ⟨.hbm, 408, rfl⟩
abbrev main_v130 : Ref sig .tc := ⟨.hbm, 409, rfl⟩
abbrev main_v131 : Ref sig .tc := ⟨.hbm, 410, rfl⟩
abbrev main_v132 : Ref sig .tc := ⟨.hbm, 411, rfl⟩
abbrev main_v133 : Ref sig .tc := ⟨.hbm, 412, rfl⟩
abbrev main_v134 : Ref sig .tc := ⟨.hbm, 413, rfl⟩
abbrev main_v135 : Ref sig .tc := ⟨.hbm, 414, rfl⟩
abbrev main_v136 : Ref sig .tc := ⟨.hbm, 415, rfl⟩
abbrev main_cst_16 : Ref sig .tc := ⟨.hbm, 416, rfl⟩
abbrev main_v137 : Ref sig .tc := ⟨.hbm, 417, rfl⟩
abbrev main_v138 : Ref sig .tc := ⟨.hbm, 418, rfl⟩
abbrev main_cst_17 : Ref sig .tc := ⟨.hbm, 419, rfl⟩
abbrev main_v139 : Ref sig .tc := ⟨.hbm, 420, rfl⟩
abbrev main_v140 : Ref sig .tc := ⟨.hbm, 421, rfl⟩
abbrev main_c_18 : Ref sig .tc := ⟨.hbm, 422, rfl⟩
abbrev main_call11_cst : Ref sig .tc := ⟨.hbm, 423, rfl⟩
abbrev main_call11_v0 : Ref sig .tc := ⟨.hbm, 424, rfl⟩
abbrev main_call11_v1 : Ref sig .tc := ⟨.hbm, 425, rfl⟩
abbrev main_call11_cst_0 : Ref sig .tc := ⟨.hbm, 426, rfl⟩
abbrev main_call11_v2 : Ref sig .tc := ⟨.hbm, 427, rfl⟩
abbrev main_call11_v3 : Ref sig .tc := ⟨.hbm, 428, rfl⟩
abbrev main_call11_v4 : Ref sig .tc := ⟨.hbm, 429, rfl⟩
abbrev main_call11_v5 : Ref sig .tc := ⟨.hbm, 430, rfl⟩
abbrev main_call11_v6 : Ref sig .tc := ⟨.hbm, 431, rfl⟩
abbrev main_call11_v7 : Ref sig .tc := ⟨.hbm, 432, rfl⟩
abbrev main_call11_cst_1 : Ref sig .tc := ⟨.hbm, 433, rfl⟩
abbrev main_call11_v8 : Ref sig .tc := ⟨.hbm, 434, rfl⟩
abbrev main_call11_cst_2 : Ref sig .tc := ⟨.hbm, 435, rfl⟩
abbrev main_call11_v9 : Ref sig .tc := ⟨.hbm, 436, rfl⟩
abbrev main_call11_v10 : Ref sig .tc := ⟨.hbm, 437, rfl⟩
abbrev main_call11_v11 : Ref sig .tc := ⟨.hbm, 438, rfl⟩
abbrev main_call11_v12 : Ref sig .tc := ⟨.hbm, 439, rfl⟩
abbrev main_call11_cst_3 : Ref sig .tc := ⟨.hbm, 440, rfl⟩
abbrev main_call11_v13 : Ref sig .tc := ⟨.hbm, 441, rfl⟩
abbrev main_call11_cst_4 : Ref sig .tc := ⟨.hbm, 442, rfl⟩
abbrev main_call11_call0_v0 : Ref sig .tc := ⟨.hbm, 443, rfl⟩
abbrev main_call11_call0_v1 : Ref sig .tc := ⟨.hbm, 444, rfl⟩
abbrev main_v141 : Ref sig .tc := ⟨.hbm, 445, rfl⟩
abbrev main_v142 : Ref sig .tc := ⟨.hbm, 446, rfl⟩
abbrev main_cst_19 : Ref sig .tc := ⟨.hbm, 447, rfl⟩
abbrev main_v143 : Ref sig .tc := ⟨.hbm, 448, rfl⟩
abbrev main_v144 : Ref sig .tc := ⟨.hbm, 449, rfl⟩
abbrev main_cst_20 : Ref sig .tc := ⟨.hbm, 450, rfl⟩
abbrev main_v145 : Ref sig .tc := ⟨.hbm, 451, rfl⟩
abbrev main_v146 : Ref sig .tc := ⟨.hbm, 452, rfl⟩
abbrev main_c_21 : Ref sig .tc := ⟨.hbm, 453, rfl⟩
abbrev main_call12_cst : Ref sig .tc := ⟨.hbm, 454, rfl⟩
abbrev main_call12_v0 : Ref sig .tc := ⟨.hbm, 455, rfl⟩
abbrev main_call12_v1 : Ref sig .tc := ⟨.hbm, 456, rfl⟩
abbrev main_call12_cst_0 : Ref sig .tc := ⟨.hbm, 457, rfl⟩
abbrev main_call12_v2 : Ref sig .tc := ⟨.hbm, 458, rfl⟩
abbrev main_call12_v3 : Ref sig .tc := ⟨.hbm, 459, rfl⟩
abbrev main_call12_v4 : Ref sig .tc := ⟨.hbm, 460, rfl⟩
abbrev main_call12_v5 : Ref sig .tc := ⟨.hbm, 461, rfl⟩
abbrev main_call12_v6 : Ref sig .tc := ⟨.hbm, 462, rfl⟩
abbrev main_call12_v7 : Ref sig .tc := ⟨.hbm, 463, rfl⟩
abbrev main_call12_cst_1 : Ref sig .tc := ⟨.hbm, 464, rfl⟩
abbrev main_call12_v8 : Ref sig .tc := ⟨.hbm, 465, rfl⟩
abbrev main_call12_cst_2 : Ref sig .tc := ⟨.hbm, 466, rfl⟩
abbrev main_call12_v9 : Ref sig .tc := ⟨.hbm, 467, rfl⟩
abbrev main_call12_v10 : Ref sig .tc := ⟨.hbm, 468, rfl⟩
abbrev main_call12_v11 : Ref sig .tc := ⟨.hbm, 469, rfl⟩
abbrev main_call12_v12 : Ref sig .tc := ⟨.hbm, 470, rfl⟩
abbrev main_call12_cst_3 : Ref sig .tc := ⟨.hbm, 471, rfl⟩
abbrev main_call12_v13 : Ref sig .tc := ⟨.hbm, 472, rfl⟩
abbrev main_call12_cst_4 : Ref sig .tc := ⟨.hbm, 473, rfl⟩
abbrev main_call12_call0_v0 : Ref sig .tc := ⟨.hbm, 474, rfl⟩
abbrev main_call12_call0_v1 : Ref sig .tc := ⟨.hbm, 475, rfl⟩
abbrev main_v147 : Ref sig .tc := ⟨.hbm, 476, rfl⟩
abbrev main_v148 : Ref sig .tc := ⟨.hbm, 477, rfl⟩
abbrev main_call13_c : Ref sig .tc := ⟨.hbm, 478, rfl⟩
abbrev main_call13_v0 : Ref sig .tc := ⟨.hbm, 479, rfl⟩
abbrev main_call13_v1 : Ref sig .tc := ⟨.hbm, 480, rfl⟩
abbrev main_call13_c_0 : Ref sig .tc := ⟨.hbm, 481, rfl⟩
abbrev main_call13_v2 : Ref sig .tc := ⟨.hbm, 482, rfl⟩
abbrev main_call13_v3 : Ref sig .tc := ⟨.hbm, 483, rfl⟩
abbrev main_call13_v4 : Ref sig .tc := ⟨.hbm, 484, rfl⟩
abbrev main_call13_v5 : Ref sig .tc := ⟨.hbm, 485, rfl⟩
abbrev main_call13_c_1 : Ref sig .tc := ⟨.hbm, 486, rfl⟩
abbrev main_call13_c_2 : Ref sig .tc := ⟨.hbm, 487, rfl⟩
abbrev main_call13_v6 : Ref sig .tc := ⟨.hbm, 488, rfl⟩
abbrev main_call13_v7 : Ref sig .tc := ⟨.hbm, 489, rfl⟩
abbrev main_call13_v8 : Ref sig .tc := ⟨.hbm, 490, rfl⟩
abbrev main_call13_v9 : Ref sig .tc := ⟨.hbm, 491, rfl⟩
abbrev main_call13_v10 : Ref sig .tc := ⟨.hbm, 492, rfl⟩
abbrev main_call13_v11 : Ref sig .tc := ⟨.hbm, 493, rfl⟩
abbrev main_call13_c_3 : Ref sig .tc := ⟨.hbm, 494, rfl⟩
abbrev main_call13_v12 : Ref sig .tc := ⟨.hbm, 495, rfl⟩
abbrev main_call13_v13 : Ref sig .tc := ⟨.hbm, 496, rfl⟩
abbrev main_call13_v14 : Ref sig .tc := ⟨.hbm, 497, rfl⟩
abbrev main_call13_cst : Ref sig .tc := ⟨.hbm, 498, rfl⟩
abbrev main_call13_v15 : Ref sig .tc := ⟨.hbm, 499, rfl⟩
abbrev main_v149 : Ref sig .tc := ⟨.hbm, 500, rfl⟩
abbrev main_v150 : Ref sig .tc := ⟨.hbm, 501, rfl⟩
abbrev main_v151 : Ref sig .tc := ⟨.hbm, 502, rfl⟩
abbrev main_call14_c : Ref sig .tc := ⟨.hbm, 503, rfl⟩
abbrev main_call14_v0 : Ref sig .tc := ⟨.hbm, 504, rfl⟩
abbrev main_call14_v1 : Ref sig .tc := ⟨.hbm, 505, rfl⟩
abbrev main_call14_c_0 : Ref sig .tc := ⟨.hbm, 506, rfl⟩
abbrev main_call14_v2 : Ref sig .tc := ⟨.hbm, 507, rfl⟩
abbrev main_call14_v3 : Ref sig .tc := ⟨.hbm, 508, rfl⟩
abbrev main_call14_v4 : Ref sig .tc := ⟨.hbm, 509, rfl⟩
abbrev main_call14_v5 : Ref sig .tc := ⟨.hbm, 510, rfl⟩
abbrev main_call14_c_1 : Ref sig .tc := ⟨.hbm, 511, rfl⟩
abbrev main_call14_c_2 : Ref sig .tc := ⟨.hbm, 512, rfl⟩
abbrev main_call14_v6 : Ref sig .tc := ⟨.hbm, 513, rfl⟩
abbrev main_call14_v7 : Ref sig .tc := ⟨.hbm, 514, rfl⟩
abbrev main_call14_v8 : Ref sig .tc := ⟨.hbm, 515, rfl⟩
abbrev main_call14_v9 : Ref sig .tc := ⟨.hbm, 516, rfl⟩
abbrev main_call14_v10 : Ref sig .tc := ⟨.hbm, 517, rfl⟩
abbrev main_call14_v11 : Ref sig .tc := ⟨.hbm, 518, rfl⟩
abbrev main_call14_c_3 : Ref sig .tc := ⟨.hbm, 519, rfl⟩
abbrev main_call14_v12 : Ref sig .tc := ⟨.hbm, 520, rfl⟩
abbrev main_call14_v13 : Ref sig .tc := ⟨.hbm, 521, rfl⟩
abbrev main_call14_v14 : Ref sig .tc := ⟨.hbm, 522, rfl⟩
abbrev main_call14_cst : Ref sig .tc := ⟨.hbm, 523, rfl⟩
abbrev main_call14_v15 : Ref sig .tc := ⟨.hbm, 524, rfl⟩
abbrev main_v152 : Ref sig .tc := ⟨.hbm, 525, rfl⟩
abbrev main_v153 : Ref sig .tc := ⟨.hbm, 526, rfl⟩
abbrev main_cst_22 : Ref sig .tc := ⟨.hbm, 527, rfl⟩
abbrev main_v154 : Ref sig .tc := ⟨.hbm, 528, rfl⟩
abbrev main_v155 : Ref sig .tc := ⟨.hbm, 529, rfl⟩
abbrev main_v156 : Ref sig .tc := ⟨.hbm, 530, rfl⟩
abbrev main_v157 : Ref sig .tc := ⟨.hbm, 531, rfl⟩
abbrev main_v158 : Ref sig .tc := ⟨.hbm, 532, rfl⟩
abbrev main_cst_23 : Ref sig .tc := ⟨.hbm, 533, rfl⟩
abbrev main_v159 : Ref sig .tc := ⟨.hbm, 534, rfl⟩
abbrev main_v160 : Ref sig .tc := ⟨.hbm, 535, rfl⟩
abbrev main_v161 : Ref sig .tc := ⟨.hbm, 536, rfl⟩
abbrev main_v162 : Ref sig .tc := ⟨.hbm, 537, rfl⟩
abbrev main_v163 : Ref sig .tc := ⟨.hbm, 538, rfl⟩
abbrev main_v164 : Ref sig .tc := ⟨.hbm, 539, rfl⟩
abbrev main_v165 : Ref sig .tc := ⟨.hbm, 540, rfl⟩
abbrev main_v166 : Ref sig .tc := ⟨.hbm, 541, rfl⟩
abbrev main_v167 : Ref sig .tc := ⟨.hbm, 542, rfl⟩
abbrev main_v168 : Ref sig .tc := ⟨.hbm, 543, rfl⟩
abbrev main_v169 : Ref sig .tc := ⟨.hbm, 544, rfl⟩
abbrev main_v170 : Ref sig .tc := ⟨.hbm, 545, rfl⟩
abbrev main_v171 : Ref sig .tc := ⟨.hbm, 546, rfl⟩
abbrev main_v172 : Ref sig .tc := ⟨.hbm, 547, rfl⟩
abbrev main_v173 : Ref sig .tc := ⟨.hbm, 548, rfl⟩
abbrev main_v174 : Ref sig .tc := ⟨.hbm, 549, rfl⟩
abbrev main_v175 : Ref sig .tc := ⟨.hbm, 550, rfl⟩
abbrev main_v176 : Ref sig .tc := ⟨.hbm, 551, rfl⟩
abbrev main_v177 : Ref sig .tc := ⟨.hbm, 552, rfl⟩
abbrev main_v178 : Ref sig .tc := ⟨.hbm, 553, rfl⟩
abbrev main_v179 : Ref sig .tc := ⟨.hbm, 554, rfl⟩
abbrev main_v180 : Ref sig .tc := ⟨.hbm, 555, rfl⟩
abbrev main_v181 : Ref sig .tc := ⟨.hbm, 556, rfl⟩
abbrev main_v182 : Ref sig .tc := ⟨.hbm, 557, rfl⟩
abbrev main_v183 : Ref sig .tc := ⟨.hbm, 558, rfl⟩
abbrev main_v184 : Ref sig .tc := ⟨.hbm, 559, rfl⟩
abbrev main_cst_24 : Ref sig .tc := ⟨.hbm, 560, rfl⟩
abbrev main_v185 : Ref sig .tc := ⟨.hbm, 561, rfl⟩
abbrev main_v186 : Ref sig .tc := ⟨.hbm, 562, rfl⟩
abbrev main_cst_25 : Ref sig .tc := ⟨.hbm, 563, rfl⟩
abbrev main_v187 : Ref sig .tc := ⟨.hbm, 564, rfl⟩
abbrev main_v188 : Ref sig .tc := ⟨.hbm, 565, rfl⟩
abbrev main_c_26 : Ref sig .tc := ⟨.hbm, 566, rfl⟩
abbrev main_call15_cst : Ref sig .tc := ⟨.hbm, 567, rfl⟩
abbrev main_call15_v0 : Ref sig .tc := ⟨.hbm, 568, rfl⟩
abbrev main_call15_v1 : Ref sig .tc := ⟨.hbm, 569, rfl⟩
abbrev main_call15_cst_0 : Ref sig .tc := ⟨.hbm, 570, rfl⟩
abbrev main_call15_v2 : Ref sig .tc := ⟨.hbm, 571, rfl⟩
abbrev main_call15_v3 : Ref sig .tc := ⟨.hbm, 572, rfl⟩
abbrev main_call15_v4 : Ref sig .tc := ⟨.hbm, 573, rfl⟩
abbrev main_call15_v5 : Ref sig .tc := ⟨.hbm, 574, rfl⟩
abbrev main_call15_v6 : Ref sig .tc := ⟨.hbm, 575, rfl⟩
abbrev main_call15_v7 : Ref sig .tc := ⟨.hbm, 576, rfl⟩
abbrev main_call15_cst_1 : Ref sig .tc := ⟨.hbm, 577, rfl⟩
abbrev main_call15_v8 : Ref sig .tc := ⟨.hbm, 578, rfl⟩
abbrev main_call15_cst_2 : Ref sig .tc := ⟨.hbm, 579, rfl⟩
abbrev main_call15_v9 : Ref sig .tc := ⟨.hbm, 580, rfl⟩
abbrev main_call15_v10 : Ref sig .tc := ⟨.hbm, 581, rfl⟩
abbrev main_call15_v11 : Ref sig .tc := ⟨.hbm, 582, rfl⟩
abbrev main_call15_v12 : Ref sig .tc := ⟨.hbm, 583, rfl⟩
abbrev main_call15_cst_3 : Ref sig .tc := ⟨.hbm, 584, rfl⟩
abbrev main_call15_v13 : Ref sig .tc := ⟨.hbm, 585, rfl⟩
abbrev main_call15_cst_4 : Ref sig .tc := ⟨.hbm, 586, rfl⟩
abbrev main_call15_call0_v0 : Ref sig .tc := ⟨.hbm, 587, rfl⟩
abbrev main_call15_call0_v1 : Ref sig .tc := ⟨.hbm, 588, rfl⟩
abbrev main_v189 : Ref sig .tc := ⟨.hbm, 589, rfl⟩
abbrev main_v190 : Ref sig .tc := ⟨.hbm, 590, rfl⟩
abbrev main_cst_27 : Ref sig .tc := ⟨.hbm, 591, rfl⟩
abbrev main_v191 : Ref sig .tc := ⟨.hbm, 592, rfl⟩
abbrev main_v192 : Ref sig .tc := ⟨.hbm, 593, rfl⟩
abbrev main_cst_28 : Ref sig .tc := ⟨.hbm, 594, rfl⟩
abbrev main_v193 : Ref sig .tc := ⟨.hbm, 595, rfl⟩
abbrev main_v194 : Ref sig .tc := ⟨.hbm, 596, rfl⟩
abbrev main_c_29 : Ref sig .tc := ⟨.hbm, 597, rfl⟩
abbrev main_call16_cst : Ref sig .tc := ⟨.hbm, 598, rfl⟩
abbrev main_call16_v0 : Ref sig .tc := ⟨.hbm, 599, rfl⟩
abbrev main_call16_v1 : Ref sig .tc := ⟨.hbm, 600, rfl⟩
abbrev main_call16_cst_0 : Ref sig .tc := ⟨.hbm, 601, rfl⟩
abbrev main_call16_v2 : Ref sig .tc := ⟨.hbm, 602, rfl⟩
abbrev main_call16_v3 : Ref sig .tc := ⟨.hbm, 603, rfl⟩
abbrev main_call16_v4 : Ref sig .tc := ⟨.hbm, 604, rfl⟩
abbrev main_call16_v5 : Ref sig .tc := ⟨.hbm, 605, rfl⟩
abbrev main_call16_v6 : Ref sig .tc := ⟨.hbm, 606, rfl⟩
abbrev main_call16_v7 : Ref sig .tc := ⟨.hbm, 607, rfl⟩
abbrev main_call16_cst_1 : Ref sig .tc := ⟨.hbm, 608, rfl⟩
abbrev main_call16_v8 : Ref sig .tc := ⟨.hbm, 609, rfl⟩
abbrev main_call16_cst_2 : Ref sig .tc := ⟨.hbm, 610, rfl⟩
abbrev main_call16_v9 : Ref sig .tc := ⟨.hbm, 611, rfl⟩
abbrev main_call16_v10 : Ref sig .tc := ⟨.hbm, 612, rfl⟩
abbrev main_call16_v11 : Ref sig .tc := ⟨.hbm, 613, rfl⟩
abbrev main_call16_v12 : Ref sig .tc := ⟨.hbm, 614, rfl⟩
abbrev main_call16_cst_3 : Ref sig .tc := ⟨.hbm, 615, rfl⟩
abbrev main_call16_v13 : Ref sig .tc := ⟨.hbm, 616, rfl⟩
abbrev main_call16_cst_4 : Ref sig .tc := ⟨.hbm, 617, rfl⟩
abbrev main_call16_call0_v0 : Ref sig .tc := ⟨.hbm, 618, rfl⟩
abbrev main_call16_call0_v1 : Ref sig .tc := ⟨.hbm, 619, rfl⟩
abbrev main_v195 : Ref sig .tc := ⟨.hbm, 620, rfl⟩
abbrev main_v196 : Ref sig .tc := ⟨.hbm, 621, rfl⟩
abbrev main_cst_30 : Ref sig .tc := ⟨.hbm, 622, rfl⟩
abbrev main_v197 : Ref sig .tc := ⟨.hbm, 623, rfl⟩
abbrev main_v198 : Ref sig .tc := ⟨.hbm, 624, rfl⟩
abbrev main_v199 : Ref sig .tc := ⟨.hbm, 625, rfl⟩
abbrev main_v200 : Ref sig .tc := ⟨.hbm, 626, rfl⟩
abbrev main_v201 : Ref sig .tc := ⟨.hbm, 627, rfl⟩
abbrev main_v202 : Ref sig .tc := ⟨.hbm, 628, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg6_0 : Ref sig .tc := ⟨.vmem, 53, rfl⟩
abbrev cc6_stg7_0 : Ref sig .tc := ⟨.vmem, 54, rfl⟩
abbrev cc6_stg7_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg1_1 : Ref sig .tc := ⟨.vmem, 67, rfl⟩
abbrev cc8_stg2_0 : Ref sig .tc := ⟨.vmem, 68, rfl⟩
abbrev cc8_stg2_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg4_1 : Ref sig .tc := ⟨.vmem, 77, rfl⟩
abbrev cc10_stg0_0 : Ref sig .tc := ⟨.vmem, 78, rfl⟩
abbrev cc10_stg0_1 : Ref sig .tc := ⟨.vmem, 79, rfl⟩
abbrev cc10_stg1_0 : Ref sig .tc := ⟨.vmem, 80, rfl⟩
abbrev cc10_stg2_0 : Ref sig .tc := ⟨.vmem, 81, rfl⟩
abbrev cc10_stg3_0 : Ref sig .tc := ⟨.vmem, 82, rfl⟩
abbrev cc10_stg4_0 : Ref sig .tc := ⟨.vmem, 83, rfl⟩
abbrev cc10_stg5_0 : Ref sig .tc := ⟨.vmem, 84, rfl⟩
abbrev cc10_stg6_0 : Ref sig .tc := ⟨.vmem, 85, rfl⟩
abbrev cc10_stg7_0 : Ref sig .tc := ⟨.vmem, 86, rfl⟩
abbrev cc10_stg7_1 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg2_0 : Ref sig .tc := ⟨.vmem, 91, rfl⟩
abbrev cc11_stg3_0 : Ref sig .tc := ⟨.vmem, 92, rfl⟩
abbrev cc11_stg4_0 : Ref sig .tc := ⟨.vmem, 93, rfl⟩
abbrev cc11_stg5_0 : Ref sig .tc := ⟨.vmem, 94, rfl⟩
abbrev cc11_stg5_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg1_1 : Ref sig .tc := ⟨.vmem, 99, rfl⟩
abbrev cc12_stg2_0 : Ref sig .tc := ⟨.vmem, 100, rfl⟩
abbrev cc12_stg2_1 : Ref sig .tc := ⟨.vmem, 101, rfl⟩
abbrev cc13_stg0_0 : Ref sig .tc := ⟨.vmem, 102, rfl⟩
abbrev cc13_stg0_1 : Ref sig .tc := ⟨.vmem, 103, rfl⟩
abbrev cc13_stg1_0 : Ref sig .tc := ⟨.vmem, 104, rfl⟩
abbrev cc13_stg1_1 : Ref sig .tc := ⟨.vmem, 105, rfl⟩
abbrev cc13_stg2_0 : Ref sig .tc := ⟨.vmem, 106, rfl⟩
abbrev cc13_stg3_0 : Ref sig .tc := ⟨.vmem, 107, rfl⟩
abbrev cc13_stg4_0 : Ref sig .tc := ⟨.vmem, 108, rfl⟩
abbrev cc13_stg4_1 : Ref sig .tc := ⟨.vmem, 109, rfl⟩
abbrev cc14_stg0_0 : Ref sig .tc := ⟨.vmem, 110, rfl⟩
abbrev cc14_stg0_1 : Ref sig .tc := ⟨.vmem, 111, rfl⟩
abbrev cc14_stg1_0 : Ref sig .tc := ⟨.vmem, 112, rfl⟩
abbrev cc14_stg2_0 : Ref sig .tc := ⟨.vmem, 113, rfl⟩
abbrev cc14_stg3_0 : Ref sig .tc := ⟨.vmem, 114, rfl⟩
abbrev cc14_stg4_0 : Ref sig .tc := ⟨.vmem, 115, rfl⟩
abbrev cc14_stg5_0 : Ref sig .tc := ⟨.vmem, 116, rfl⟩
abbrev cc14_stg6_0 : Ref sig .tc := ⟨.vmem, 117, rfl⟩
abbrev cc14_stg7_0 : Ref sig .tc := ⟨.vmem, 118, rfl⟩
abbrev cc14_stg7_1 : Ref sig .tc := ⟨.vmem, 119, rfl⟩
abbrev cc15_stg0_0 : Ref sig .tc := ⟨.vmem, 120, rfl⟩
abbrev cc15_stg0_1 : Ref sig .tc := ⟨.vmem, 121, rfl⟩
abbrev cc15_stg1_0 : Ref sig .tc := ⟨.vmem, 122, rfl⟩
abbrev cc15_stg2_0 : Ref sig .tc := ⟨.vmem, 123, rfl⟩
abbrev cc15_stg3_0 : Ref sig .tc := ⟨.vmem, 124, rfl⟩
abbrev cc15_stg4_0 : Ref sig .tc := ⟨.vmem, 125, rfl⟩
abbrev cc15_stg5_0 : Ref sig .tc := ⟨.vmem, 126, rfl⟩
abbrev cc15_stg5_1 : Ref sig .tc := ⟨.vmem, 127, rfl⟩
abbrev cc16_stg0_0 : Ref sig .tc := ⟨.vmem, 128, rfl⟩
abbrev cc16_stg1_0 : Ref sig .tc := ⟨.vmem, 129, rfl⟩
abbrev cc16_stg2_0 : Ref sig .tc := ⟨.vmem, 130, rfl⟩
abbrev cc16_stg3_0 : Ref sig .tc := ⟨.vmem, 131, rfl⟩
abbrev cc16_stg4_0 : Ref sig .tc := ⟨.vmem, 132, rfl⟩
abbrev cc16_stg5_0 : Ref sig .tc := ⟨.vmem, 133, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem4_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem6_0 : DmaSem sig := 53
abbrev cc6_sem7_0 : DmaSem sig := 54
abbrev cc6_sem7_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem3_0 : DmaSem sig := 75
abbrev cc9_sem4_0 : DmaSem sig := 76
abbrev cc9_sem4_1 : DmaSem sig := 77
abbrev cc10_sem0_0 : DmaSem sig := 78
abbrev cc10_sem0_1 : DmaSem sig := 79
abbrev cc10_sem1_0 : DmaSem sig := 80
abbrev cc10_sem2_0 : DmaSem sig := 81
abbrev cc10_sem3_0 : DmaSem sig := 82
abbrev cc10_sem4_0 : DmaSem sig := 83
abbrev cc10_sem5_0 : DmaSem sig := 84
abbrev cc10_sem6_0 : DmaSem sig := 85
abbrev cc10_sem7_0 : DmaSem sig := 86
abbrev cc10_sem7_1 : DmaSem sig := 87
abbrev cc11_sem0_0 : DmaSem sig := 88
abbrev cc11_sem0_1 : DmaSem sig := 89
abbrev cc11_sem1_0 : DmaSem sig := 90
abbrev cc11_sem2_0 : DmaSem sig := 91
abbrev cc11_sem3_0 : DmaSem sig := 92
abbrev cc11_sem4_0 : DmaSem sig := 93
abbrev cc11_sem5_0 : DmaSem sig := 94
abbrev cc11_sem5_1 : DmaSem sig := 95
abbrev cc12_sem0_0 : DmaSem sig := 96
abbrev cc12_sem0_1 : DmaSem sig := 97
abbrev cc12_sem1_0 : DmaSem sig := 98
abbrev cc12_sem1_1 : DmaSem sig := 99
abbrev cc12_sem2_0 : DmaSem sig := 100
abbrev cc12_sem2_1 : DmaSem sig := 101
abbrev cc13_sem0_0 : DmaSem sig := 102
abbrev cc13_sem0_1 : DmaSem sig := 103
abbrev cc13_sem1_0 : DmaSem sig := 104
abbrev cc13_sem1_1 : DmaSem sig := 105
abbrev cc13_sem2_0 : DmaSem sig := 106
abbrev cc13_sem3_0 : DmaSem sig := 107
abbrev cc13_sem4_0 : DmaSem sig := 108
abbrev cc13_sem4_1 : DmaSem sig := 109
abbrev cc14_sem0_0 : DmaSem sig := 110
abbrev cc14_sem0_1 : DmaSem sig := 111
abbrev cc14_sem1_0 : DmaSem sig := 112
abbrev cc14_sem2_0 : DmaSem sig := 113
abbrev cc14_sem3_0 : DmaSem sig := 114
abbrev cc14_sem4_0 : DmaSem sig := 115
abbrev cc14_sem5_0 : DmaSem sig := 116
abbrev cc14_sem6_0 : DmaSem sig := 117
abbrev cc14_sem7_0 : DmaSem sig := 118
abbrev cc14_sem7_1 : DmaSem sig := 119
abbrev cc15_sem0_0 : DmaSem sig := 120
abbrev cc15_sem0_1 : DmaSem sig := 121
abbrev cc15_sem1_0 : DmaSem sig := 122
abbrev cc15_sem2_0 : DmaSem sig := 123
abbrev cc15_sem3_0 : DmaSem sig := 124
abbrev cc15_sem4_0 : DmaSem sig := 125
abbrev cc15_sem5_0 : DmaSem sig := 126
abbrev cc15_sem5_1 : DmaSem sig := 127
abbrev cc16_sem0_0 : DmaSem sig := 128
abbrev cc16_sem1_0 : DmaSem sig := 129
abbrev cc16_sem2_0 : DmaSem sig := 130
abbrev cc16_sem3_0 : DmaSem sig := 131
abbrev cc16_sem4_0 : DmaSem sig := 132
abbrev cc16_sem5_0 : DmaSem sig := 133

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12800x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S12800x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S12800x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S12800x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![125], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S12800x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S12800x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S12800x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x64 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![125], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S12800x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S12800x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S12800x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S64x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x64 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S64x64 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x64 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 2 → Memref sig .tc .vmem S5000x64 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

abbrev grid15 : Pipeline.Grid := ⟨1, ![20], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x64 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x64 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 2 → Memref sig .tc .vmem S5000x64 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 1 → Memref sig .tc .vmem S512x64 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![false]

abbrev stage16_1 : Fin 1 → Memref sig .tc .vmem S64x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S128x1 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x1 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S512x1 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  slices_S4x4x64_S1x4x64_0_0_0 : S4x4x64.Slices ![0, 0, 0] S1x4x64
  shapeCasts_S1x4x64_S4x64 : S1x4x64.ShapeCasts S4x64
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  slices_S4_S1_0 : S4.Slices ![0] S1
  shapeCasts_S1_S_ : S1.ShapeCasts S_
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reducesTo_S100000x64_S64_d0 : S100000x64.ReducesTo [0] S64
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  slices_S4x4x64_S1x4x64_1_0_0 : S4x4x64.Slices ![1, 0, 0] S1x4x64
  slices_S4_S1_1 : S4.Slices ![1] S1
  slices_S4x64x64_S1x64x64_1_0_0 : S4x64x64.Slices ![1, 0, 0] S1x64x64
  slices_S4x64_S1x64_1_0 : S4x64.Slices ![1, 0] S1x64
  slices_S4x4x64_S1x4x64_2_0_0 : S4x4x64.Slices ![2, 0, 0] S1x4x64
  slices_S4_S1_2 : S4.Slices ![2] S1
  slices_S4x64x64_S1x64x64_2_0_0 : S4x64x64.Slices ![2, 0, 0] S1x64x64
  slices_S4x64_S1x64_2_0 : S4x64.Slices ![2, 0] S1x64
  slices_S4x4x64_S1x4x64_3_0_0 : S4x4x64.Slices ![3, 0, 0] S1x4x64
  slices_S4_S1_3 : S4.Slices ![3] S1
  slices_S4x64x64_S1x64x64_3_0_0 : S4x64x64.Slices ![3, 0, 0] S1x64x64
  slices_S4x64_S1x64_3_0 : S4x64.Slices ![3, 0] S1x64
  bcast_S_S512x64 : S_.BroadcastsInDim S512x64 (![] : Fin 0 → Fin S512x64.rank)
  shapeCasts_S128_S1x128 : S128.ShapeCasts S1x128
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S21x64_S100000x1_S100000x64_1_0_n_n_0_1_164_wf : GatherDims.WF S21x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  gather_S4x64_S1600000x1_S1600000x64_1_0_n_n_0_1_164_wf : GatherDims.WF S4x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S512x64_S100000x1_S100000x64_1_0_0_1_wf : ScatterDims.WF S512x64 S100000x1 S100000x64 [1] [0] [0] 1
  dot_S512x64_S64x128_S512x128_1_0_0_1_n_n_wf : DotDims.WF S512x64 S64x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x64.size a ≤ S1600000x64.size a
  hwx0_0 : ∀ i : grid0.Coords, EltTy.bits .f32 = 32 ∨ (Rect.block (s := S1600000x64) S12800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x64.size a ≤ S1600000x64.size a
  hwx0_1 : ∀ i : grid0.Coords, EltTy.bits .f32 = 32 ∨ (Rect.block (s := S1600000x64) S12800x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12800x64.size a ≤ S1600000x64.size a
  hwx0_2 : ∀ i : grid0.Coords, EltTy.bits .f32 = 32 ∨ (Rect.block (s := S1600000x64) S12800x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S12800x64.size a ≤ S1600000x64.size a
  hwx4_0 : ∀ i : grid4.Coords, EltTy.bits .f32 = 32 ∨ (Rect.block (s := S1600000x64) S12800x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S12800x64.size a ≤ S1600000x64.size a
  hwx4_1 : ∀ i : grid4.Coords, EltTy.bits .f32 = 32 ∨ (Rect.block (s := S1600000x64) S12800x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S12800x64.size a ≤ S1600000x64.size a
  hwx4_2 : ∀ i : grid4.Coords, EltTy.bits .f32 = 32 ∨ (Rect.block (s := S1600000x64) S12800x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x64.size a ≤ S64x64.size a
  hwx6_5 : ∀ i : grid6.Coords, EltTy.bits .f32 = 32 ∨ (Rect.block (s := S64x64) S64x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x64.size a ≤ S100000x64.size a
  hwx6_7 : ∀ i : grid6.Coords, EltTy.bits .f32 = 32 ∨ (Rect.block (s := S100000x64) S5000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S100000x64.size a
  hwx7_5 : ∀ i : grid7.Coords, EltTy.bits .f32 = 32 ∨ (Rect.block (s := S100000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S12800x64.size a ≤ S1600000x64.size a
  hwx8_0 : ∀ i : grid8.Coords, EltTy.bits .f32 = 32 ∨ (Rect.block (s := S1600000x64) S12800x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S12800x64.size a ≤ S1600000x64.size a
  hwx8_1 : ∀ i : grid8.Coords, EltTy.bits .f32 = 32 ∨ (Rect.block (s := S1600000x64) S12800x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S12800x64.size a ≤ S1600000x64.size a
  hwx8_2 : ∀ i : grid8.Coords, EltTy.bits .f32 = 32 ∨ (Rect.block (s := S1600000x64) S12800x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x64.size a ≤ S100000x64.size a
  hwx9_4 : ∀ i : grid9.Coords, EltTy.bits .f32 = 32 ∨ (Rect.block (s := S100000x64) S5000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x64.size a ≤ S64x64.size a
  hwx10_5 : ∀ i : grid10.Coords, EltTy.bits .f32 = 32 ∨ (Rect.block (s := S64x64) S64x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x64.size a ≤ S100000x64.size a
  hwx10_7 : ∀ i : grid10.Coords, EltTy.bits .f32 = 32 ∨ (Rect.block (s := S100000x64) S5000x64.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x64.size a ≤ S100000x64.size a
  hwx11_5 : ∀ i : grid11.Coords, EltTy.bits .f32 = 32 ∨ (Rect.block (s := S100000x64) S5000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S12800x64.size a ≤ S1600000x64.size a
  hwx12_0 : ∀ i : grid12.Coords, EltTy.bits .f32 = 32 ∨ (Rect.block (s := S1600000x64) S12800x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S12800x64.size a ≤ S1600000x64.size a
  hwx12_1 : ∀ i : grid12.Coords, EltTy.bits .f32 = 32 ∨ (Rect.block (s := S1600000x64) S12800x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S12800x64.size a ≤ S1600000x64.size a
  hwx12_2 : ∀ i : grid12.Coords, EltTy.bits .f32 = 32 ∨ (Rect.block (s := S1600000x64) S12800x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S100000x64.size a
  hwx13_0 : ∀ i : grid13.Coords, EltTy.bits .f32 = 32 ∨ (Rect.block (s := S100000x64) S5000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x64.size a ≤ S100000x64.size a
  hwx13_1 : ∀ i : grid13.Coords, EltTy.bits .f32 = 32 ∨ (Rect.block (s := S100000x64) S5000x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S64x64.size a ≤ S64x64.size a
  hwx13_2 : ∀ i : grid13.Coords, EltTy.bits .f32 = 32 ∨ (Rect.block (s := S64x64) S64x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x64.size a ≤ S100000x64.size a
  hwx13_4 : ∀ i : grid13.Coords, EltTy.bits .f32 = 32 ∨ (Rect.block (s := S100000x64) S5000x64.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S100000x64.size a
  hwx14_0 : ∀ i : grid14.Coords, EltTy.bits .f32 = 32 ∨ (Rect.block (s := S100000x64) S5000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x64.size a ≤ S1x64.size a
  hwx14_1 : ∀ i : grid14.Coords, EltTy.bits .f32 = 32 ∨ (Rect.block (s := S1x64) S1x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S64x64.size a ≤ S64x64.size a
  hwx14_5 : ∀ i : grid14.Coords, EltTy.bits .f32 = 32 ∨ (Rect.block (s := S64x64) S64x64.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x64.size a ≤ S1x64.size a
  hwx14_6 : ∀ i : grid14.Coords, EltTy.bits .f32 = 32 ∨ (Rect.block (s := S1x64) S1x64.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S5000x64.size a ≤ S100000x64.size a
  hwx14_7 : ∀ i : grid14.Coords, EltTy.bits .f32 = 32 ∨ (Rect.block (s := S100000x64) S5000x64.size (cc14_transform_7 i) (hinb14_7 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x64.size a ≤ S100000x64.size a
  hwx15_0 : ∀ i : grid15.Coords, EltTy.bits .f32 = 32 ∨ (Rect.block (s := S100000x64) S5000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x64.size a ≤ S1x64.size a
  hwx15_1 : ∀ i : grid15.Coords, EltTy.bits .f32 = 32 ∨ (Rect.block (s := S1x64) S1x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x64.size a ≤ S1x64.size a
  hwx15_3 : ∀ i : grid15.Coords, EltTy.bits .f32 = 32 ∨ (Rect.block (s := S1x64) S1x64.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x64.size a ≤ S1x64.size a
  hwx15_4 : ∀ i : grid15.Coords, EltTy.bits .f32 = 32 ∨ (Rect.block (s := S1x64) S1x64.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S5000x64.size a ≤ S100000x64.size a
  hwx15_5 : ∀ i : grid15.Coords, EltTy.bits .f32 = 32 ∨ (Rect.block (s := S100000x64) S5000x64.size (cc15_transform_5 i) (hinb15_5 i)).WholeWords (EltTy.packing .f32)
  hrank16 : 0 < grid16.rank
  hstage16_0 : ∀ j, (stage16_0 j).IsWhole
  nbuf16_0 : grid16.bufCount reads16_0 true = 1
  hreads16_0 : ∀ i i' : grid16.Coords, (∀ a, reads16_0 a = true → i a = i' a) → cc16_transform_0 i = cc16_transform_0 i'
  hinb16_0 : ∀ (i : grid16.Coords) a, (cc16_transform_0 i a + 1) * S512x64.size a ≤ S512x64.size a
  hwx16_0 : ∀ i : grid16.Coords, EltTy.bits .f32 = 32 ∨ (Rect.block (s := S512x64) S512x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S64x128.size a ≤ S64x128.size a
  hwx16_1 : ∀ i : grid16.Coords, EltTy.bits .f32 = 32 ∨ (Rect.block (s := S64x128) S64x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S128x1.size a ≤ S128x1.size a
  hwx16_3 : ∀ i : grid16.Coords, EltTy.bits .f32 = 32 ∨ (Rect.block (s := S128x1) S128x1.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x1.size a ≤ S1x1.size a
  hwx16_4 : ∀ i : grid16.Coords, EltTy.bits .f32 = 32 ∨ (Rect.block (s := S1x1) S1x1.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S512x1.size a ≤ S512x1.size a
  hwx16_5 : ∀ i : grid16.Coords, EltTy.bits .f32 = 32 ∨ (Rect.block (s := S512x1) S512x1.size (cc16_transform_5 i) (hinb16_5 i)).WholeWords (EltTy.packing .f32)

variable [Facts₀]

def gather_S21x64_S100000x1_S100000x64_1_0_n_n_0_1_164 : GatherDims S21x64 S100000x1 S100000x64 where
  offsetDims := [1]
  collapsedSliceDims := [0]
  operandBatchingDims := []
  startIndicesBatchingDims := []
  startIndexMap := [0]
  indexVectorDim := 1
  sliceSizes := ![1, 64]
  wf := gather_S21x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S4x64_S1600000x1_S1600000x64_1_0_n_n_0_1_164 : GatherDims S4x64 S1600000x1 S1600000x64 where
  offsetDims := [1]
  collapsedSliceDims := [0]
  operandBatchingDims := []
  startIndicesBatchingDims := []
  startIndexMap := [0]
  indexVectorDim := 1
  sliceSizes := ![1, 64]
  wf := gather_S4x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v5) S12800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S12800x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S12800x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v33) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v46) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v53) S12800x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S12800x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S12800x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v65) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v67) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v88) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v92) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v73) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v76) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v78) S64x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v81) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v94) S5000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v94) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v99) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v84) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v87) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v100) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v101) S12800x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v104) S12800x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v105) S12800x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v113) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v108) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v115) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v118) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v136) S5000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v136) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v140) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v141) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v121) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v124) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v126) S64x64.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v129) S1x64.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v142) S5000x64.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v142) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v146) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v147) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v132) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v135) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v148) S5000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v149) S12800x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v152) S12800x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v153) S12800x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v161) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v156) S5000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v163) S64x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v166) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v184) S5000x64.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v184) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v188) S1x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v189) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v169) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v172) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v174) S64x64.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v177) S1x64.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v190) S5000x64.size cc14_transform_7 reads14_7 true false 2 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

abbrev win15_0 : Pipeline.Window sig grid15 :=
  Pipeline.Window.ofSpec (Memref.whole main_v190) S5000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v194) S1x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v195) S1x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v180) S1x64.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v183) S1x64.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v196) S5000x64.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v199) S512x64.size cc16_transform_0 reads16_0 false true 1 stage16_0 sem16_0
    hrank16 hreads16_0 hinb16_0 nbuf16_0 (Memref.isWhole_whole _) hwx16_0 hstage16_0

abbrev win16_1 : Pipeline.Window sig grid16 :=
  Pipeline.Window.ofSpec (Memref.whole main_arg15) S64x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v200) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_arg17) S128x1.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v201) S1x1.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v202) S512x1.size cc16_transform_5 reads16_5 true true 1 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

class Facts : Prop extends Facts₀ where

variable [Facts]
-- ==== ReferenceIdeal.lean ====
abbrev S100000 : Shape := ⟨1, ![100000]⟩
abbrev S2x1600000 : Shape := ⟨2, ![2, 1600000]⟩
abbrev S1600000 : Shape := ⟨1, ![1600000]⟩
abbrev S21x64 : Shape := ⟨2, ![21, 64]⟩
abbrev S4x4x64 : Shape := ⟨3, ![4, 4, 64]⟩
abbrev S4 : Shape := ⟨1, ![4]⟩
abbrev S4x64x64 : Shape := ⟨3, ![4, 64, 64]⟩
abbrev S4x64 : Shape := ⟨2, ![4, 64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S_ : Shape := ⟨0, ![]⟩
abbrev S100000x1 : Shape := ⟨2, ![100000, 1]⟩
abbrev S100000x64 : Shape := ⟨2, ![100000, 64]⟩
abbrev S1600000x1 : Shape := ⟨2, ![1600000, 1]⟩
abbrev S1600000x64 : Shape := ⟨2, ![1600000, 64]⟩
abbrev S1x4x64 : Shape := ⟨3, ![1, 4, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S512x64 : Shape := ⟨2, ![512, 64]⟩
abbrev S512x128 : Shape := ⟨2, ![512, 128]⟩
abbrev S1x128 : Shape := ⟨2, ![1, 128]⟩
abbrev S512x1 : Shape := ⟨2, ![512, 1]⟩
abbrev S1x1 : Shape := ⟨2, ![1, 1]⟩

abbrev nBuf : Space → Nat
  | .hbm => 659
  | .vmem => 0
  | .smem => 0
  | _ => 0

abbrev hbmTy0_0 (i : Nat) : BufTy := match i % 128 with
  | 0 => ⟨S100000, .i32⟩
  | 1 => ⟨S2x1600000, .i32⟩
  | 2 => ⟨S1600000, .i32⟩
  | 3 => ⟨S100000, .i32⟩
  | 4 => ⟨S21x64, .f32⟩
  | 5 => ⟨S4x4x64, .f32⟩
  | 6 => ⟨S4, .f32⟩
  | 7 => ⟨S4x64x64, .f32⟩
  | 8 => ⟨S4x64, .f32⟩
  | 9 => ⟨S4x64, .f32⟩
  | 10 => ⟨S4x64, .f32⟩
  | 11 => ⟨S4x64x64, .f32⟩
  | 12 => ⟨S4x64, .f32⟩
  | 13 => ⟨S4x64, .f32⟩
  | 14 => ⟨S4x64, .f32⟩
  | 15 => ⟨S64x128, .f32⟩
  | 16 => ⟨S128, .f32⟩
  | 17 => ⟨S128x1, .f32⟩
  | 18 => ⟨S1, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x64, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x64, .f32⟩
  | 41 => ⟨S1x4x64, .f32⟩
  | 42 => ⟨S4x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x64, .f32⟩
  | 53 => ⟨S_, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S1, .f32⟩
  | 61 => ⟨S_, .f32⟩
  | 62 => ⟨S_, .f32⟩
  | 63 => ⟨S_, .f32⟩
  | 64 => ⟨S100000x64, .f32⟩
  | 65 => ⟨S100000x64, .f32⟩
  | 66 => ⟨S100000x64, .f32⟩
  | 67 => ⟨S1x64x64, .f32⟩
  | 68 => ⟨S64x64, .f32⟩
  | 69 => ⟨S100000x64, .f32⟩
  | 70 => ⟨S1x64, .f32⟩
  | 71 => ⟨S64, .f32⟩
  | 72 => ⟨S1x64, .f32⟩
  | 73 => ⟨S100000x64, .f32⟩
  | 74 => ⟨S100000x64, .f32⟩
  | 75 => ⟨S1x64, .f32⟩
  | 76 => ⟨S64, .f32⟩
  | 77 => ⟨S1x64, .f32⟩
  | 78 => ⟨S64, .f32⟩
  | 79 => ⟨S_, .f32⟩
  | 80 => ⟨S64, .f32⟩
  | 81 => ⟨S_, .f32⟩
  | 82 => ⟨S64, .f32⟩
  | 83 => ⟨S64, .f32⟩
  | 84 => ⟨S_, .i32⟩
  | 85 => ⟨S_, .f32⟩
  | 86 => ⟨S64, .f32⟩
  | 87 => ⟨S1x64, .f32⟩
  | 88 => ⟨S_, .f32⟩
  | 89 => ⟨S1x64, .f32⟩
  | 90 => ⟨S1x64, .f32⟩
  | 91 => ⟨S100000x64, .f32⟩
  | 92 => ⟨S100000x64, .f32⟩
  | 93 => ⟨S100000x64, .f32⟩
  | 94 => ⟨S_, .f32⟩
  | 95 => ⟨S_, .f32⟩
  | 96 => ⟨S_, .f32⟩
  | 97 => ⟨S_, .f32⟩
  | 98 => ⟨S64, .f32⟩
  | 99 => ⟨S64, .f32⟩
  | 100 => ⟨S64, .f32⟩
  | 101 => ⟨S_, .f32⟩
  | 102 => ⟨S_, .i1⟩
  | 103 => ⟨S_, .f32⟩
  | 104 => ⟨S_, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S_, .f32⟩
  | 111 => ⟨S64, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S1x64x64, .f32⟩
  | 127 => ⟨S64x64, .f32⟩
  | _ => ⟨S100000, .i32⟩

abbrev hbmTy0_1 (i : Nat) : BufTy := match i % 128 with
  | 0 => ⟨S100000x64, .f32⟩
  | 1 => ⟨S1x64, .f32⟩
  | 2 => ⟨S64, .f32⟩
  | 3 => ⟨S1x64, .f32⟩
  | 4 => ⟨S100000x64, .f32⟩
  | 5 => ⟨S100000x64, .f32⟩
  | 6 => ⟨S1x64, .f32⟩
  | 7 => ⟨S64, .f32⟩
  | 8 => ⟨S1x64, .f32⟩
  | 9 => ⟨S64, .f32⟩
  | 10 => ⟨S_, .f32⟩
  | 11 => ⟨S64, .f32⟩
  | 12 => ⟨S_, .f32⟩
  | 13 => ⟨S64, .f32⟩
  | 14 => ⟨S64, .f32⟩
  | 15 => ⟨S_, .i32⟩
  | 16 => ⟨S_, .f32⟩
  | 17 => ⟨S64, .f32⟩
  | 18 => ⟨S1x64, .f32⟩
  | 19 => ⟨S_, .f32⟩
  | 20 => ⟨S1x64, .f32⟩
  | 21 => ⟨S1x64, .f32⟩
  | 22 => ⟨S100000x64, .f32⟩
  | 23 => ⟨S100000x64, .f32⟩
  | 24 => ⟨S100000x64, .f32⟩
  | 25 => ⟨S_, .f32⟩
  | 26 => ⟨S_, .f32⟩
  | 27 => ⟨S_, .f32⟩
  | 28 => ⟨S_, .f32⟩
  | 29 => ⟨S64, .f32⟩
  | 30 => ⟨S64, .f32⟩
  | 31 => ⟨S64, .f32⟩
  | 32 => ⟨S_, .f32⟩
  | 33 => ⟨S_, .i1⟩
  | 34 => ⟨S_, .f32⟩
  | 35 => ⟨S_, .f32⟩
  | 36 => ⟨S64, .f32⟩
  | 37 => ⟨S64, .f32⟩
  | 38 => ⟨S1x64, .f32⟩
  | 39 => ⟨S100000x64, .f32⟩
  | 40 => ⟨S100000x64, .f32⟩
  | 41 => ⟨S_, .f32⟩
  | 42 => ⟨S64, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S1x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S100000x64, .f32⟩
  | 56 => ⟨S100000x64, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1x4x64, .f32⟩
  | 67 => ⟨S4x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x64, .f32⟩
  | 77 => ⟨S1600000x64, .f32⟩
  | 78 => ⟨S_, .f32⟩
  | 79 => ⟨S1600000x64, .f32⟩
  | 80 => ⟨S1600000x64, .f32⟩
  | 81 => ⟨S_, .f32⟩
  | 82 => ⟨S100000x64, .f32⟩
  | 83 => ⟨S1600000x1, .i32⟩
  | 84 => ⟨S100000x64, .f32⟩
  | 85 => ⟨S1, .f32⟩
  | 86 => ⟨S_, .f32⟩
  | 87 => ⟨S_, .f32⟩
  | 88 => ⟨S_, .f32⟩
  | 89 => ⟨S100000x64, .f32⟩
  | 90 => ⟨S100000x64, .f32⟩
  | 91 => ⟨S100000x64, .f32⟩
  | 92 => ⟨S1x64x64, .f32⟩
  | 93 => ⟨S64x64, .f32⟩
  | 94 => ⟨S100000x64, .f32⟩
  | 95 => ⟨S1x64, .f32⟩
  | 96 => ⟨S64, .f32⟩
  | 97 => ⟨S1x64, .f32⟩
  | 98 => ⟨S100000x64, .f32⟩
  | 99 => ⟨S100000x64, .f32⟩
  | 100 => ⟨S1x64, .f32⟩
  | 101 => ⟨S64, .f32⟩
  | 102 => ⟨S1x64, .f32⟩
  | 103 => ⟨S64, .f32⟩
  | 104 => ⟨S_, .f32⟩
  | 105 => ⟨S64, .f32⟩
  | 106 => ⟨S_, .f32⟩
  | 107 => ⟨S64, .f32⟩
  | 108 => ⟨S64, .f32⟩
  | 109 => ⟨S_, .i32⟩
  | 110 => ⟨S_, .f32⟩
  | 111 => ⟨S64, .f32⟩
  | 112 => ⟨S1x64, .f32⟩
  | 113 => ⟨S_, .f32⟩
  | 114 => ⟨S1x64, .f32⟩
  | 115 => ⟨S1x64, .f32⟩
  | 116 => ⟨S100000x64, .f32⟩
  | 117 => ⟨S100000x64, .f32⟩
  | 118 => ⟨S100000x64, .f32⟩
  | 119 => ⟨S_, .f32⟩
  | 120 => ⟨S_, .f32⟩
  | 121 => ⟨S_, .f32⟩
  | 122 => ⟨S_, .f32⟩
  | 123 => ⟨S64, .f32⟩
  | 124 => ⟨S64, .f32⟩
  | 125 => ⟨S64, .f32⟩
  | 126 => ⟨S_, .f32⟩
  | 127 => ⟨S_, .i1⟩
  | _ => ⟨S100000, .i32⟩

abbrev hbmTy0_2 (i : Nat) : BufTy := match i % 128 with
  | 0 => ⟨S_, .f32⟩
  | 1 => ⟨S_, .f32⟩
  | 2 => ⟨S64, .f32⟩
  | 3 => ⟨S64, .f32⟩
  | 4 => ⟨S1x64, .f32⟩
  | 5 => ⟨S100000x64, .f32⟩
  | 6 => ⟨S100000x64, .f32⟩
  | 7 => ⟨S_, .f32⟩
  | 8 => ⟨S64, .f32⟩
  | 9 => ⟨S64, .f32⟩
  | 10 => ⟨S64, .f32⟩
  | 11 => ⟨S1x64, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S1x64x64, .f32⟩
  | 24 => ⟨S64x64, .f32⟩
  | 25 => ⟨S100000x64, .f32⟩
  | 26 => ⟨S1x64, .f32⟩
  | 27 => ⟨S64, .f32⟩
  | 28 => ⟨S1x64, .f32⟩
  | 29 => ⟨S100000x64, .f32⟩
  | 30 => ⟨S100000x64, .f32⟩
  | 31 => ⟨S1x64, .f32⟩
  | 32 => ⟨S64, .f32⟩
  | 33 => ⟨S1x64, .f32⟩
  | 34 => ⟨S64, .f32⟩
  | 35 => ⟨S_, .f32⟩
  | 36 => ⟨S64, .f32⟩
  | 37 => ⟨S_, .f32⟩
  | 38 => ⟨S64, .f32⟩
  | 39 => ⟨S64, .f32⟩
  | 40 => ⟨S_, .i32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S100000x64, .f32⟩
  | 48 => ⟨S100000x64, .f32⟩
  | 49 => ⟨S100000x64, .f32⟩
  | 50 => ⟨S_, .f32⟩
  | 51 => ⟨S_, .f32⟩
  | 52 => ⟨S_, .f32⟩
  | 53 => ⟨S_, .f32⟩
  | 54 => ⟨S64, .f32⟩
  | 55 => ⟨S64, .f32⟩
  | 56 => ⟨S64, .f32⟩
  | 57 => ⟨S_, .f32⟩
  | 58 => ⟨S_, .i1⟩
  | 59 => ⟨S_, .f32⟩
  | 60 => ⟨S_, .f32⟩
  | 61 => ⟨S64, .f32⟩
  | 62 => ⟨S64, .f32⟩
  | 63 => ⟨S1x64, .f32⟩
  | 64 => ⟨S100000x64, .f32⟩
  | 65 => ⟨S100000x64, .f32⟩
  | 66 => ⟨S_, .f32⟩
  | 67 => ⟨S64, .f32⟩
  | 68 => ⟨S64, .f32⟩
  | 69 => ⟨S64, .f32⟩
  | 70 => ⟨S1x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S1x4x64, .f32⟩
  | 92 => ⟨S4x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x64, .f32⟩
  | 103 => ⟨S_, .f32⟩
  | 104 => ⟨S1600000x64, .f32⟩
  | 105 => ⟨S1600000x64, .f32⟩
  | 106 => ⟨S_, .f32⟩
  | 107 => ⟨S100000x64, .f32⟩
  | 108 => ⟨S1600000x1, .i32⟩
  | 109 => ⟨S100000x64, .f32⟩
  | 110 => ⟨S1, .f32⟩
  | 111 => ⟨S_, .f32⟩
  | 112 => ⟨S_, .f32⟩
  | 113 => ⟨S_, .f32⟩
  | 114 => ⟨S100000x64, .f32⟩
  | 115 => ⟨S100000x64, .f32⟩
  | 116 => ⟨S100000x64, .f32⟩
  | 117 => ⟨S1x64x64, .f32⟩
  | 118 => ⟨S64x64, .f32⟩
  | 119 => ⟨S100000x64, .f32⟩
  | 120 => ⟨S1x64, .f32⟩
  | 121 => ⟨S64, .f32⟩
  | 122 => ⟨S1x64, .f32⟩
  | 123 => ⟨S100000x64, .f32⟩
  | 124 => ⟨S100000x64, .f32⟩
  | 125 => ⟨S1x64, .f32⟩
  | 126 => ⟨S64, .f32⟩
  | 127 => ⟨S1x64, .f32⟩
  | _ => ⟨S100000, .i32⟩

abbrev hbmTy0_3 (i : Nat) : BufTy := match i % 128 with
  | 0 => ⟨S64, .f32⟩
  | 1 => ⟨S_, .f32⟩
  | 2 => ⟨S64, .f32⟩
  | 3 => ⟨S_, .f32⟩
  | 4 => ⟨S64, .f32⟩
  | 5 => ⟨S64, .f32⟩
  | 6 => ⟨S_, .i32⟩
  | 7 => ⟨S_, .f32⟩
  | 8 => ⟨S64, .f32⟩
  | 9 => ⟨S1x64, .f32⟩
  | 10 => ⟨S_, .f32⟩
  | 11 => ⟨S1x64, .f32⟩
  | 12 => ⟨S1x64, .f32⟩
  | 13 => ⟨S100000x64, .f32⟩
  | 14 => ⟨S100000x64, .f32⟩
  | 15 => ⟨S100000x64, .f32⟩
  | 16 => ⟨S_, .f32⟩
  | 17 => ⟨S_, .f32⟩
  | 18 => ⟨S_, .f32⟩
  | 19 => ⟨S_, .f32⟩
  | 20 => ⟨S64, .f32⟩
  | 21 => ⟨S64, .f32⟩
  | 22 => ⟨S64, .f32⟩
  | 23 => ⟨S_, .f32⟩
  | 24 => ⟨S_, .i1⟩
  | 25 => ⟨S_, .f32⟩
  | 26 => ⟨S_, .f32⟩
  | 27 => ⟨S64, .f32⟩
  | 28 => ⟨S64, .f32⟩
  | 29 => ⟨S1x64, .f32⟩
  | 30 => ⟨S100000x64, .f32⟩
  | 31 => ⟨S100000x64, .f32⟩
  | 32 => ⟨S_, .f32⟩
  | 33 => ⟨S64, .f32⟩
  | 34 => ⟨S64, .f32⟩
  | 35 => ⟨S64, .f32⟩
  | 36 => ⟨S1x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S1x64x64, .f32⟩
  | 49 => ⟨S64x64, .f32⟩
  | 50 => ⟨S100000x64, .f32⟩
  | 51 => ⟨S1x64, .f32⟩
  | 52 => ⟨S64, .f32⟩
  | 53 => ⟨S1x64, .f32⟩
  | 54 => ⟨S100000x64, .f32⟩
  | 55 => ⟨S100000x64, .f32⟩
  | 56 => ⟨S1x64, .f32⟩
  | 57 => ⟨S64, .f32⟩
  | 58 => ⟨S1x64, .f32⟩
  | 59 => ⟨S64, .f32⟩
  | 60 => ⟨S_, .f32⟩
  | 61 => ⟨S64, .f32⟩
  | 62 => ⟨S_, .f32⟩
  | 63 => ⟨S64, .f32⟩
  | 64 => ⟨S64, .f32⟩
  | 65 => ⟨S_, .i32⟩
  | 66 => ⟨S_, .f32⟩
  | 67 => ⟨S64, .f32⟩
  | 68 => ⟨S1x64, .f32⟩
  | 69 => ⟨S_, .f32⟩
  | 70 => ⟨S1x64, .f32⟩
  | 71 => ⟨S1x64, .f32⟩
  | 72 => ⟨S100000x64, .f32⟩
  | 73 => ⟨S100000x64, .f32⟩
  | 74 => ⟨S100000x64, .f32⟩
  | 75 => ⟨S_, .f32⟩
  | 76 => ⟨S_, .f32⟩
  | 77 => ⟨S_, .f32⟩
  | 78 => ⟨S_, .f32⟩
  | 79 => ⟨S64, .f32⟩
  | 80 => ⟨S64, .f32⟩
  | 81 => ⟨S64, .f32⟩
  | 82 => ⟨S_, .f32⟩
  | 83 => ⟨S_, .i1⟩
  | 84 => ⟨S_, .f32⟩
  | 85 => ⟨S_, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S_, .f32⟩
  | 92 => ⟨S64, .f32⟩
  | 93 => ⟨S64, .f32⟩
  | 94 => ⟨S64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S_, .f32⟩
  | 105 => ⟨S100000x64, .f32⟩
  | 106 => ⟨S100000x64, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x64, .f32⟩
  | 116 => ⟨S1x4x64, .f32⟩
  | 117 => ⟨S4x64, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S1600000x64, .f32⟩
  | _ => ⟨S100000, .i32⟩

abbrev hbmTy0_4 (i : Nat) : BufTy := match i % 128 with
  | 0 => ⟨S_, .f32⟩
  | 1 => ⟨S1600000x64, .f32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S1, .f32⟩
  | 8 => ⟨S_, .f32⟩
  | 9 => ⟨S_, .f32⟩
  | 10 => ⟨S_, .f32⟩
  | 11 => ⟨S100000x64, .f32⟩
  | 12 => ⟨S100000x64, .f32⟩
  | 13 => ⟨S100000x64, .f32⟩
  | 14 => ⟨S1x64x64, .f32⟩
  | 15 => ⟨S64x64, .f32⟩
  | 16 => ⟨S100000x64, .f32⟩
  | 17 => ⟨S1x64, .f32⟩
  | 18 => ⟨S64, .f32⟩
  | 19 => ⟨S1x64, .f32⟩
  | 20 => ⟨S100000x64, .f32⟩
  | 21 => ⟨S100000x64, .f32⟩
  | 22 => ⟨S1x64, .f32⟩
  | 23 => ⟨S64, .f32⟩
  | 24 => ⟨S1x64, .f32⟩
  | 25 => ⟨S64, .f32⟩
  | 26 => ⟨S_, .f32⟩
  | 27 => ⟨S64, .f32⟩
  | 28 => ⟨S_, .f32⟩
  | 29 => ⟨S64, .f32⟩
  | 30 => ⟨S64, .f32⟩
  | 31 => ⟨S_, .i32⟩
  | 32 => ⟨S_, .f32⟩
  | 33 => ⟨S64, .f32⟩
  | 34 => ⟨S1x64, .f32⟩
  | 35 => ⟨S_, .f32⟩
  | 36 => ⟨S1x64, .f32⟩
  | 37 => ⟨S1x64, .f32⟩
  | 38 => ⟨S100000x64, .f32⟩
  | 39 => ⟨S100000x64, .f32⟩
  | 40 => ⟨S100000x64, .f32⟩
  | 41 => ⟨S_, .f32⟩
  | 42 => ⟨S_, .f32⟩
  | 43 => ⟨S_, .f32⟩
  | 44 => ⟨S_, .f32⟩
  | 45 => ⟨S64, .f32⟩
  | 46 => ⟨S64, .f32⟩
  | 47 => ⟨S64, .f32⟩
  | 48 => ⟨S_, .f32⟩
  | 49 => ⟨S_, .i1⟩
  | 50 => ⟨S_, .f32⟩
  | 51 => ⟨S_, .f32⟩
  | 52 => ⟨S64, .f32⟩
  | 53 => ⟨S64, .f32⟩
  | 54 => ⟨S1x64, .f32⟩
  | 55 => ⟨S100000x64, .f32⟩
  | 56 => ⟨S100000x64, .f32⟩
  | 57 => ⟨S_, .f32⟩
  | 58 => ⟨S64, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S1x64x64, .f32⟩
  | 74 => ⟨S64x64, .f32⟩
  | 75 => ⟨S100000x64, .f32⟩
  | 76 => ⟨S1x64, .f32⟩
  | 77 => ⟨S64, .f32⟩
  | 78 => ⟨S1x64, .f32⟩
  | 79 => ⟨S100000x64, .f32⟩
  | 80 => ⟨S100000x64, .f32⟩
  | 81 => ⟨S1x64, .f32⟩
  | 82 => ⟨S64, .f32⟩
  | 83 => ⟨S1x64, .f32⟩
  | 84 => ⟨S64, .f32⟩
  | 85 => ⟨S_, .f32⟩
  | 86 => ⟨S64, .f32⟩
  | 87 => ⟨S_, .f32⟩
  | 88 => ⟨S64, .f32⟩
  | 89 => ⟨S64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S100000x64, .f32⟩
  | 98 => ⟨S100000x64, .f32⟩
  | 99 => ⟨S100000x64, .f32⟩
  | 100 => ⟨S_, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .i1⟩
  | 109 => ⟨S_, .f32⟩
  | 110 => ⟨S_, .f32⟩
  | 111 => ⟨S64, .f32⟩
  | 112 => ⟨S64, .f32⟩
  | 113 => ⟨S1x64, .f32⟩
  | 114 => ⟨S100000x64, .f32⟩
  | 115 => ⟨S100000x64, .f32⟩
  | 116 => ⟨S_, .f32⟩
  | 117 => ⟨S64, .f32⟩
  | 118 => ⟨S64, .f32⟩
  | 119 => ⟨S64, .f32⟩
  | 120 => ⟨S1x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S1x64, .f32⟩
  | 127 => ⟨S100000x64, .f32⟩
  | _ => ⟨S100000, .i32⟩

abbrev hbmTy0_5 (i : Nat) : BufTy := match i % 128 with
  | 0 => ⟨S100000x64, .f32⟩
  | 1 => ⟨S_, .f32⟩
  | 2 => ⟨S100000x64, .f32⟩
  | 3 => ⟨S100000x64, .f32⟩
  | 4 => ⟨S_, .f32⟩
  | 5 => ⟨S512x64, .f32⟩
  | 6 => ⟨S100000x1, .i32⟩
  | 7 => ⟨S512x64, .f32⟩
  | 8 => ⟨S512x128, .f32⟩
  | 9 => ⟨S1x128, .f32⟩
  | 10 => ⟨S512x128, .f32⟩
  | 11 => ⟨S512x128, .f32⟩
  | 12 => ⟨S_, .f32⟩
  | 13 => ⟨S512x128, .f32⟩
  | 14 => ⟨S512x128, .f32⟩
  | 15 => ⟨S512x1, .f32⟩
  | 16 => ⟨S1x1, .f32⟩
  | 17 => ⟨S512x1, .f32⟩
  | 18 => ⟨S512x1, .f32⟩
  | _ => ⟨S100000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call0_cst : Ref sig .tc := ⟨.hbm, 53, rfl⟩
abbrev main_call0_v0 : Ref sig .tc := ⟨.hbm, 54, rfl⟩
abbrev main_v28 : Ref sig .tc := ⟨.hbm, 55, rfl⟩
abbrev main_cst : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_cst_7 : Ref sig .tc := ⟨.hbm, 81, rfl⟩
abbrev main_v51 : Ref sig .tc := ⟨.hbm, 82, rfl⟩
abbrev main_v52 : Ref sig .tc := ⟨.hbm, 83, rfl⟩
abbrev main_c_8 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_cst_3 : Ref sig .tc := ⟨.hbm, 101, rfl⟩
abbrev main_call1_v12 : Ref sig .tc := ⟨.hbm, 102, rfl⟩
abbrev main_call1_cst_4 : Ref sig .tc := ⟨.hbm, 103, rfl⟩
abbrev main_call1_call0_v0 : Ref sig .tc := ⟨.hbm, 104, rfl⟩
abbrev main_call1_call0_v1 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_9 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_call2_cst : Ref sig .tc := ⟨.hbm, 123, rfl⟩
abbrev main_call2_v0 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_10 : Ref sig .tc := ⟨.hbm, 138, rfl⟩
abbrev main_v82 : Ref sig .tc := ⟨.hbm, 139, rfl⟩
abbrev main_cst_11 : Ref sig .tc := ⟨.hbm, 140, rfl⟩
abbrev main_v83 : Ref sig .tc := ⟨.hbm, 141, rfl⟩
abbrev main_v84 : Ref sig .tc := ⟨.hbm, 142, rfl⟩
abbrev main_c_12 : Ref sig .tc := ⟨.hbm, 143, rfl⟩
abbrev main_call3_cst : Ref sig .tc := ⟨.hbm, 144, rfl⟩
abbrev main_call3_v0 : Ref sig .tc := ⟨.hbm, 145, rfl⟩
abbrev main_call3_v1 : Ref sig .tc := ⟨.hbm, 146, rfl⟩
abbrev main_call3_cst_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_v7 : Ref sig .tc := ⟨.hbm, 153, rfl⟩
abbrev main_call3_cst_1 : Ref sig .tc := ⟨.hbm, 154, rfl⟩
abbrev main_call3_v8 : Ref sig .tc := ⟨.hbm, 155, rfl⟩
abbrev main_call3_cst_2 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_cst_3 : Ref sig .tc := ⟨.hbm, 160, rfl⟩
abbrev main_call3_v12 : Ref sig .tc := ⟨.hbm, 161, rfl⟩
abbrev main_call3_cst_4 : Ref sig .tc := ⟨.hbm, 162, rfl⟩
abbrev main_call3_call0_v0 : Ref sig .tc := ⟨.hbm, 163, rfl⟩
abbrev main_call3_call0_v1 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_cst_13 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_call4_cst : Ref sig .tc := ⟨.hbm, 182, rfl⟩
abbrev main_call4_v0 : Ref sig .tc := ⟨.hbm, 183, rfl⟩
abbrev main_v101 : Ref sig .tc := ⟨.hbm, 184, rfl⟩
abbrev main_c_14 : Ref sig .tc := ⟨.hbm, 185, rfl⟩
abbrev main_v102 : Ref sig .tc := ⟨.hbm, 186, rfl⟩
abbrev main_v103 : Ref sig .tc := ⟨.hbm, 187, rfl⟩
abbrev main_c_15 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_c_16 : Ref sig .tc := ⟨.hbm, 196, rfl⟩
abbrev main_v111 : Ref sig .tc := ⟨.hbm, 197, rfl⟩
abbrev main_v112 : Ref sig .tc := ⟨.hbm, 198, rfl⟩
abbrev main_c_17 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_call5_cst : Ref sig .tc := ⟨.hbm, 206, rfl⟩
abbrev main_call5_v0 : Ref sig .tc := ⟨.hbm, 207, rfl⟩
abbrev main_v119 : Ref sig .tc := ⟨.hbm, 208, rfl⟩
abbrev main_cst_18 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_cst_19 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_cst_20 : Ref sig .tc := ⟨.hbm, 232, rfl⟩
abbrev main_v141 : Ref sig .tc := ⟨.hbm, 233, rfl⟩
abbrev main_cst_21 : Ref sig .tc := ⟨.hbm, 234, rfl⟩
abbrev main_v142 : Ref sig .tc := ⟨.hbm, 235, rfl⟩
abbrev main_v143 : Ref sig .tc := ⟨.hbm, 236, rfl⟩
abbrev main_c_22 : Ref sig .tc := ⟨.hbm, 237, rfl⟩
abbrev main_call6_cst : Ref sig .tc := ⟨.hbm, 238, rfl⟩
abbrev main_call6_v0 : Ref sig .tc := ⟨.hbm, 239, rfl⟩
abbrev main_call6_v1 : Ref sig .tc := ⟨.hbm, 240, rfl⟩
abbrev main_call6_cst_0 : Ref sig .tc := ⟨.hbm, 241, rfl⟩
abbrev main_call6_v2 : Ref sig .tc := ⟨.hbm, 242, rfl⟩
abbrev main_call6_v3 : Ref sig .tc := ⟨.hbm, 243, rfl⟩
abbrev main_call6_v4 : Ref sig .tc := ⟨.hbm, 244, rfl⟩
abbrev main_call6_v5 : Ref sig .tc := ⟨.hbm, 245, rfl⟩
abbrev main_call6_v6 : Ref sig .tc := ⟨.hbm, 246, rfl⟩
abbrev main_call6_v7 : Ref sig .tc := ⟨.hbm, 247, rfl⟩
abbrev main_call6_cst_1 : Ref sig .tc := ⟨.hbm, 248, rfl⟩
abbrev main_call6_v8 : Ref sig .tc := ⟨.hbm, 249, rfl⟩
abbrev main_call6_cst_2 : Ref sig .tc := ⟨.hbm, 250, rfl⟩
abbrev main_call6_v9 : Ref sig .tc := ⟨.hbm, 251, rfl⟩
abbrev main_call6_v10 : Ref sig .tc := ⟨.hbm, 252, rfl⟩
abbrev main_call6_v11 : Ref sig .tc := ⟨.hbm, 253, rfl⟩
abbrev main_call6_cst_3 : Ref sig .tc := ⟨.hbm, 254, rfl⟩
abbrev main_call6_v12 : Ref sig .tc := ⟨.hbm, 255, rfl⟩
abbrev main_call6_cst_4 : Ref sig .tc := ⟨.hbm, 256, rfl⟩
abbrev main_call6_call0_v0 : Ref sig .tc := ⟨.hbm, 257, rfl⟩
abbrev main_call6_call0_v1 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩
abbrev main_v147 : Ref sig .tc := ⟨.hbm, 262, rfl⟩
abbrev main_cst_23 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_call7_cst : Ref sig .tc := ⟨.hbm, 276, rfl⟩
abbrev main_call7_v0 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_cst_24 : Ref sig .tc := ⟨.hbm, 291, rfl⟩
abbrev main_v173 : Ref sig .tc := ⟨.hbm, 292, rfl⟩
abbrev main_cst_25 : Ref sig .tc := ⟨.hbm, 293, rfl⟩
abbrev main_v174 : Ref sig .tc := ⟨.hbm, 294, rfl⟩
abbrev main_v175 : Ref sig .tc := ⟨.hbm, 295, rfl⟩
abbrev main_c_26 : Ref sig .tc := ⟨.hbm, 296, rfl⟩
abbrev main_call8_cst : Ref sig .tc := ⟨.hbm, 297, rfl⟩
abbrev main_call8_v0 : Ref sig .tc := ⟨.hbm, 298, rfl⟩
abbrev main_call8_v1 : Ref sig .tc := ⟨.hbm, 299, rfl⟩
abbrev main_call8_cst_0 : Ref sig .tc := ⟨.hbm, 300, rfl⟩
abbrev main_call8_v2 : Ref sig .tc := ⟨.hbm, 301, rfl⟩
abbrev main_call8_v3 : Ref sig .tc := ⟨.hbm, 302, rfl⟩
abbrev main_call8_v4 : Ref sig .tc := ⟨.hbm, 303, rfl⟩
abbrev main_call8_v5 : Ref sig .tc := ⟨.hbm, 304, rfl⟩
abbrev main_call8_v6 : Ref sig .tc := ⟨.hbm, 305, rfl⟩
abbrev main_call8_v7 : Ref sig .tc := ⟨.hbm, 306, rfl⟩
abbrev main_call8_cst_1 : Ref sig .tc := ⟨.hbm, 307, rfl⟩
abbrev main_call8_v8 : Ref sig .tc := ⟨.hbm, 308, rfl⟩
abbrev main_call8_cst_2 : Ref sig .tc := ⟨.hbm, 309, rfl⟩
abbrev main_call8_v9 : Ref sig .tc := ⟨.hbm, 310, rfl⟩
abbrev main_call8_v10 : Ref sig .tc := ⟨.hbm, 311, rfl⟩
abbrev main_call8_v11 : Ref sig .tc := ⟨.hbm, 312, rfl⟩
abbrev main_call8_cst_3 : Ref sig .tc := ⟨.hbm, 313, rfl⟩
abbrev main_call8_v12 : Ref sig .tc := ⟨.hbm, 314, rfl⟩
abbrev main_call8_cst_4 : Ref sig .tc := ⟨.hbm, 315, rfl⟩
abbrev main_call8_call0_v0 : Ref sig .tc := ⟨.hbm, 316, rfl⟩
abbrev main_call8_call0_v1 : Ref sig .tc := ⟨.hbm, 317, rfl⟩
abbrev main_v176 : Ref sig .tc := ⟨.hbm, 318, rfl⟩
abbrev main_v177 : Ref sig .tc := ⟨.hbm, 319, rfl⟩
abbrev main_v178 : Ref sig .tc := ⟨.hbm, 320, rfl⟩
abbrev main_v179 : Ref sig .tc := ⟨.hbm, 321, rfl⟩
abbrev main_cst_27 : Ref sig .tc := ⟨.hbm, 322, rfl⟩
abbrev main_v180 : Ref sig .tc := ⟨.hbm, 323, rfl⟩
abbrev main_v181 : Ref sig .tc := ⟨.hbm, 324, rfl⟩
abbrev main_v182 : Ref sig .tc := ⟨.hbm, 325, rfl⟩
abbrev main_v183 : Ref sig .tc := ⟨.hbm, 326, rfl⟩
abbrev main_v184 : Ref sig .tc := ⟨.hbm, 327, rfl⟩
abbrev main_v185 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_v191 : Ref sig .tc := ⟨.hbm, 334, rfl⟩
abbrev main_call9_cst : Ref sig .tc := ⟨.hbm, 335, rfl⟩
abbrev main_call9_v0 : Ref sig .tc := ⟨.hbm, 336, rfl⟩
abbrev main_v192 : Ref sig .tc := ⟨.hbm, 337, rfl⟩
abbrev main_c_28 : Ref sig .tc := ⟨.hbm, 338, rfl⟩
abbrev main_v193 : Ref sig .tc := ⟨.hbm, 339, rfl⟩
abbrev main_v194 : Ref sig .tc := ⟨.hbm, 340, rfl⟩
abbrev main_c_29 : Ref sig .tc := ⟨.hbm, 341, rfl⟩
abbrev main_v195 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_v200 : Ref sig .tc := ⟨.hbm, 347, rfl⟩
abbrev main_v201 : Ref sig .tc := ⟨.hbm, 348, rfl⟩
abbrev main_c_30 : Ref sig .tc := ⟨.hbm, 349, rfl⟩
abbrev main_v202 : Ref sig .tc := ⟨.hbm, 350, rfl⟩
abbrev main_v203 : Ref sig .tc := ⟨.hbm, 351, rfl⟩
abbrev main_c_31 : Ref sig .tc := ⟨.hbm, 352, rfl⟩
abbrev main_v204 : Ref sig .tc := ⟨.hbm, 353, rfl⟩
abbrev main_v205 : Ref sig .tc := ⟨.hbm, 354, rfl⟩
abbrev main_v206 : Ref sig .tc := ⟨.hbm, 355, rfl⟩
abbrev main_v207 : Ref sig .tc := ⟨.hbm, 356, rfl⟩
abbrev main_v208 : Ref sig .tc := ⟨.hbm, 357, rfl⟩
abbrev main_v209 : Ref sig .tc := ⟨.hbm, 358, rfl⟩
abbrev main_call10_cst : Ref sig .tc := ⟨.hbm, 359, rfl⟩
abbrev main_call10_v0 : Ref sig .tc := ⟨.hbm, 360, rfl⟩
abbrev main_v210 : Ref sig .tc := ⟨.hbm, 361, rfl⟩
abbrev main_cst_32 : Ref sig .tc := ⟨.hbm, 362, rfl⟩
abbrev main_v211 : Ref sig .tc := ⟨.hbm, 363, rfl⟩
abbrev main_v212 : Ref sig .tc := ⟨.hbm, 364, rfl⟩
abbrev main_v213 : Ref sig .tc := ⟨.hbm, 365, rfl⟩
abbrev main_v214 : Ref sig .tc := ⟨.hbm, 366, rfl⟩
abbrev main_v215 : Ref sig .tc := ⟨.hbm, 367, rfl⟩
abbrev main_cst_33 : Ref sig .tc := ⟨.hbm, 368, rfl⟩
abbrev main_v216 : Ref sig .tc := ⟨.hbm, 369, rfl⟩
abbrev main_v217 : Ref sig .tc := ⟨.hbm, 370, rfl⟩
abbrev main_v218 : Ref sig .tc := ⟨.hbm, 371, rfl⟩
abbrev main_v219 : Ref sig .tc := ⟨.hbm, 372, rfl⟩
abbrev main_v220 : Ref sig .tc := ⟨.hbm, 373, rfl⟩
abbrev main_v221 : Ref sig .tc := ⟨.hbm, 374, rfl⟩
abbrev main_v222 : Ref sig .tc := ⟨.hbm, 375, rfl⟩
abbrev main_v223 : Ref sig .tc := ⟨.hbm, 376, rfl⟩
abbrev main_v224 : Ref sig .tc := ⟨.hbm, 377, rfl⟩
abbrev main_v225 : Ref sig .tc := ⟨.hbm, 378, rfl⟩
abbrev main_v226 : Ref sig .tc := ⟨.hbm, 379, rfl⟩
abbrev main_v227 : Ref sig .tc := ⟨.hbm, 380, rfl⟩
abbrev main_v228 : Ref sig .tc := ⟨.hbm, 381, rfl⟩
abbrev main_v229 : Ref sig .tc := ⟨.hbm, 382, rfl⟩
abbrev main_v230 : Ref sig .tc := ⟨.hbm, 383, rfl⟩
abbrev main_v231 : Ref sig .tc := ⟨.hbm, 384, rfl⟩
abbrev main_cst_34 : Ref sig .tc := ⟨.hbm, 385, rfl⟩
abbrev main_v232 : Ref sig .tc := ⟨.hbm, 386, rfl⟩
abbrev main_cst_35 : Ref sig .tc := ⟨.hbm, 387, rfl⟩
abbrev main_v233 : Ref sig .tc := ⟨.hbm, 388, rfl⟩
abbrev main_v234 : Ref sig .tc := ⟨.hbm, 389, rfl⟩
abbrev main_c_36 : Ref sig .tc := ⟨.hbm, 390, rfl⟩
abbrev main_call11_cst : Ref sig .tc := ⟨.hbm, 391, rfl⟩
abbrev main_call11_v0 : Ref sig .tc := ⟨.hbm, 392, rfl⟩
abbrev main_call11_v1 : Ref sig .tc := ⟨.hbm, 393, rfl⟩
abbrev main_call11_cst_0 : Ref sig .tc := ⟨.hbm, 394, rfl⟩
abbrev main_call11_v2 : Ref sig .tc := ⟨.hbm, 395, rfl⟩
abbrev main_call11_v3 : Ref sig .tc := ⟨.hbm, 396, rfl⟩
abbrev main_call11_v4 : Ref sig .tc := ⟨.hbm, 397, rfl⟩
abbrev main_call11_v5 : Ref sig .tc := ⟨.hbm, 398, rfl⟩
abbrev main_call11_v6 : Ref sig .tc := ⟨.hbm, 399, rfl⟩
abbrev main_call11_v7 : Ref sig .tc := ⟨.hbm, 400, rfl⟩
abbrev main_call11_cst_1 : Ref sig .tc := ⟨.hbm, 401, rfl⟩
abbrev main_call11_v8 : Ref sig .tc := ⟨.hbm, 402, rfl⟩
abbrev main_call11_cst_2 : Ref sig .tc := ⟨.hbm, 403, rfl⟩
abbrev main_call11_v9 : Ref sig .tc := ⟨.hbm, 404, rfl⟩
abbrev main_call11_v10 : Ref sig .tc := ⟨.hbm, 405, rfl⟩
abbrev main_call11_v11 : Ref sig .tc := ⟨.hbm, 406, rfl⟩
abbrev main_call11_cst_3 : Ref sig .tc := ⟨.hbm, 407, rfl⟩
abbrev main_call11_v12 : Ref sig .tc := ⟨.hbm, 408, rfl⟩
abbrev main_call11_cst_4 : Ref sig .tc := ⟨.hbm, 409, rfl⟩
abbrev main_call11_call0_v0 : Ref sig .tc := ⟨.hbm, 410, rfl⟩
abbrev main_call11_call0_v1 : Ref sig .tc := ⟨.hbm, 411, rfl⟩
abbrev main_v235 : Ref sig .tc := ⟨.hbm, 412, rfl⟩
abbrev main_v236 : Ref sig .tc := ⟨.hbm, 413, rfl⟩
abbrev main_v237 : Ref sig .tc := ⟨.hbm, 414, rfl⟩
abbrev main_v238 : Ref sig .tc := ⟨.hbm, 415, rfl⟩
abbrev main_cst_37 : Ref sig .tc := ⟨.hbm, 416, rfl⟩
abbrev main_v239 : Ref sig .tc := ⟨.hbm, 417, rfl⟩
abbrev main_v240 : Ref sig .tc := ⟨.hbm, 418, rfl⟩
abbrev main_v241 : Ref sig .tc := ⟨.hbm, 419, rfl⟩
abbrev main_v242 : Ref sig .tc := ⟨.hbm, 420, rfl⟩
abbrev main_v243 : Ref sig .tc := ⟨.hbm, 421, rfl⟩
abbrev main_v244 : Ref sig .tc := ⟨.hbm, 422, rfl⟩
abbrev main_v245 : Ref sig .tc := ⟨.hbm, 423, rfl⟩
abbrev main_v246 : Ref sig .tc := ⟨.hbm, 424, rfl⟩
abbrev main_v247 : Ref sig .tc := ⟨.hbm, 425, rfl⟩
abbrev main_v248 : Ref sig .tc := ⟨.hbm, 426, rfl⟩
abbrev main_v249 : Ref sig .tc := ⟨.hbm, 427, rfl⟩
abbrev main_v250 : Ref sig .tc := ⟨.hbm, 428, rfl⟩
abbrev main_call12_cst : Ref sig .tc := ⟨.hbm, 429, rfl⟩
abbrev main_call12_v0 : Ref sig .tc := ⟨.hbm, 430, rfl⟩
abbrev main_v251 : Ref sig .tc := ⟨.hbm, 431, rfl⟩
abbrev main_v252 : Ref sig .tc := ⟨.hbm, 432, rfl⟩
abbrev main_v253 : Ref sig .tc := ⟨.hbm, 433, rfl⟩
abbrev main_v254 : Ref sig .tc := ⟨.hbm, 434, rfl⟩
abbrev main_v255 : Ref sig .tc := ⟨.hbm, 435, rfl⟩
abbrev main_v256 : Ref sig .tc := ⟨.hbm, 436, rfl⟩
abbrev main_v257 : Ref sig .tc := ⟨.hbm, 437, rfl⟩
abbrev main_v258 : Ref sig .tc := ⟨.hbm, 438, rfl⟩
abbrev main_v259 : Ref sig .tc := ⟨.hbm, 439, rfl⟩
abbrev main_v260 : Ref sig .tc := ⟨.hbm, 440, rfl⟩
abbrev main_v261 : Ref sig .tc := ⟨.hbm, 441, rfl⟩
abbrev main_v262 : Ref sig .tc := ⟨.hbm, 442, rfl⟩
abbrev main_v263 : Ref sig .tc := ⟨.hbm, 443, rfl⟩
abbrev main_cst_38 : Ref sig .tc := ⟨.hbm, 444, rfl⟩
abbrev main_v264 : Ref sig .tc := ⟨.hbm, 445, rfl⟩
abbrev main_cst_39 : Ref sig .tc := ⟨.hbm, 446, rfl⟩
abbrev main_v265 : Ref sig .tc := ⟨.hbm, 447, rfl⟩
abbrev main_v266 : Ref sig .tc := ⟨.hbm, 448, rfl⟩
abbrev main_c_40 : Ref sig .tc := ⟨.hbm, 449, rfl⟩
abbrev main_call13_cst : Ref sig .tc := ⟨.hbm, 450, rfl⟩
abbrev main_call13_v0 : Ref sig .tc := ⟨.hbm, 451, rfl⟩
abbrev main_call13_v1 : Ref sig .tc := ⟨.hbm, 452, rfl⟩
abbrev main_call13_cst_0 : Ref sig .tc := ⟨.hbm, 453, rfl⟩
abbrev main_call13_v2 : Ref sig .tc := ⟨.hbm, 454, rfl⟩
abbrev main_call13_v3 : Ref sig .tc := ⟨.hbm, 455, rfl⟩
abbrev main_call13_v4 : Ref sig .tc := ⟨.hbm, 456, rfl⟩
abbrev main_call13_v5 : Ref sig .tc := ⟨.hbm, 457, rfl⟩
abbrev main_call13_v6 : Ref sig .tc := ⟨.hbm, 458, rfl⟩
abbrev main_call13_v7 : Ref sig .tc := ⟨.hbm, 459, rfl⟩
abbrev main_call13_cst_1 : Ref sig .tc := ⟨.hbm, 460, rfl⟩
abbrev main_call13_v8 : Ref sig .tc := ⟨.hbm, 461, rfl⟩
abbrev main_call13_cst_2 : Ref sig .tc := ⟨.hbm, 462, rfl⟩
abbrev main_call13_v9 : Ref sig .tc := ⟨.hbm, 463, rfl⟩
abbrev main_call13_v10 : Ref sig .tc := ⟨.hbm, 464, rfl⟩
abbrev main_call13_v11 : Ref sig .tc := ⟨.hbm, 465, rfl⟩
abbrev main_call13_cst_3 : Ref sig .tc := ⟨.hbm, 466, rfl⟩
abbrev main_call13_v12 : Ref sig .tc := ⟨.hbm, 467, rfl⟩
abbrev main_call13_cst_4 : Ref sig .tc := ⟨.hbm, 468, rfl⟩
abbrev main_call13_call0_v0 : Ref sig .tc := ⟨.hbm, 469, rfl⟩
abbrev main_call13_call0_v1 : Ref sig .tc := ⟨.hbm, 470, rfl⟩
abbrev main_v267 : Ref sig .tc := ⟨.hbm, 471, rfl⟩
abbrev main_v268 : Ref sig .tc := ⟨.hbm, 472, rfl⟩
abbrev main_v269 : Ref sig .tc := ⟨.hbm, 473, rfl⟩
abbrev main_v270 : Ref sig .tc := ⟨.hbm, 474, rfl⟩
abbrev main_cst_41 : Ref sig .tc := ⟨.hbm, 475, rfl⟩
abbrev main_v271 : Ref sig .tc := ⟨.hbm, 476, rfl⟩
abbrev main_v272 : Ref sig .tc := ⟨.hbm, 477, rfl⟩
abbrev main_v273 : Ref sig .tc := ⟨.hbm, 478, rfl⟩
abbrev main_v274 : Ref sig .tc := ⟨.hbm, 479, rfl⟩
abbrev main_v275 : Ref sig .tc := ⟨.hbm, 480, rfl⟩
abbrev main_v276 : Ref sig .tc := ⟨.hbm, 481, rfl⟩
abbrev main_v277 : Ref sig .tc := ⟨.hbm, 482, rfl⟩
abbrev main_v278 : Ref sig .tc := ⟨.hbm, 483, rfl⟩
abbrev main_v279 : Ref sig .tc := ⟨.hbm, 484, rfl⟩
abbrev main_v280 : Ref sig .tc := ⟨.hbm, 485, rfl⟩
abbrev main_v281 : Ref sig .tc := ⟨.hbm, 486, rfl⟩
abbrev main_v282 : Ref sig .tc := ⟨.hbm, 487, rfl⟩
abbrev main_call14_cst : Ref sig .tc := ⟨.hbm, 488, rfl⟩
abbrev main_call14_v0 : Ref sig .tc := ⟨.hbm, 489, rfl⟩
abbrev main_v283 : Ref sig .tc := ⟨.hbm, 490, rfl⟩
abbrev main_c_42 : Ref sig .tc := ⟨.hbm, 491, rfl⟩
abbrev main_v284 : Ref sig .tc := ⟨.hbm, 492, rfl⟩
abbrev main_v285 : Ref sig .tc := ⟨.hbm, 493, rfl⟩
abbrev main_c_43 : Ref sig .tc := ⟨.hbm, 494, rfl⟩
abbrev main_v286 : Ref sig .tc := ⟨.hbm, 495, rfl⟩
abbrev main_v287 : Ref sig .tc := ⟨.hbm, 496, rfl⟩
abbrev main_v288 : Ref sig .tc := ⟨.hbm, 497, rfl⟩
abbrev main_v289 : Ref sig .tc := ⟨.hbm, 498, rfl⟩
abbrev main_v290 : Ref sig .tc := ⟨.hbm, 499, rfl⟩
abbrev main_v291 : Ref sig .tc := ⟨.hbm, 500, rfl⟩
abbrev main_v292 : Ref sig .tc := ⟨.hbm, 501, rfl⟩
abbrev main_c_44 : Ref sig .tc := ⟨.hbm, 502, rfl⟩
abbrev main_v293 : Ref sig .tc := ⟨.hbm, 503, rfl⟩
abbrev main_v294 : Ref sig .tc := ⟨.hbm, 504, rfl⟩
abbrev main_c_45 : Ref sig .tc := ⟨.hbm, 505, rfl⟩
abbrev main_v295 : Ref sig .tc := ⟨.hbm, 506, rfl⟩
abbrev main_v296 : Ref sig .tc := ⟨.hbm, 507, rfl⟩
abbrev main_v297 : Ref sig .tc := ⟨.hbm, 508, rfl⟩
abbrev main_v298 : Ref sig .tc := ⟨.hbm, 509, rfl⟩
abbrev main_v299 : Ref sig .tc := ⟨.hbm, 510, rfl⟩
abbrev main_v300 : Ref sig .tc := ⟨.hbm, 511, rfl⟩
abbrev main_call15_cst : Ref sig .tc := ⟨.hbm, 512, rfl⟩
abbrev main_call15_v0 : Ref sig .tc := ⟨.hbm, 513, rfl⟩
abbrev main_v301 : Ref sig .tc := ⟨.hbm, 514, rfl⟩
abbrev main_cst_46 : Ref sig .tc := ⟨.hbm, 515, rfl⟩
abbrev main_v302 : Ref sig .tc := ⟨.hbm, 516, rfl⟩
abbrev main_v303 : Ref sig .tc := ⟨.hbm, 517, rfl⟩
abbrev main_v304 : Ref sig .tc := ⟨.hbm, 518, rfl⟩
abbrev main_v305 : Ref sig .tc := ⟨.hbm, 519, rfl⟩
abbrev main_v306 : Ref sig .tc := ⟨.hbm, 520, rfl⟩
abbrev main_cst_47 : Ref sig .tc := ⟨.hbm, 521, rfl⟩
abbrev main_v307 : Ref sig .tc := ⟨.hbm, 522, rfl⟩
abbrev main_v308 : Ref sig .tc := ⟨.hbm, 523, rfl⟩
abbrev main_v309 : Ref sig .tc := ⟨.hbm, 524, rfl⟩
abbrev main_v310 : Ref sig .tc := ⟨.hbm, 525, rfl⟩
abbrev main_v311 : Ref sig .tc := ⟨.hbm, 526, rfl⟩
abbrev main_v312 : Ref sig .tc := ⟨.hbm, 527, rfl⟩
abbrev main_v313 : Ref sig .tc := ⟨.hbm, 528, rfl⟩
abbrev main_v314 : Ref sig .tc := ⟨.hbm, 529, rfl⟩
abbrev main_v315 : Ref sig .tc := ⟨.hbm, 530, rfl⟩
abbrev main_v316 : Ref sig .tc := ⟨.hbm, 531, rfl⟩
abbrev main_v317 : Ref sig .tc := ⟨.hbm, 532, rfl⟩
abbrev main_v318 : Ref sig .tc := ⟨.hbm, 533, rfl⟩
abbrev main_v319 : Ref sig .tc := ⟨.hbm, 534, rfl⟩
abbrev main_v320 : Ref sig .tc := ⟨.hbm, 535, rfl⟩
abbrev main_v321 : Ref sig .tc := ⟨.hbm, 536, rfl⟩
abbrev main_v322 : Ref sig .tc := ⟨.hbm, 537, rfl⟩
abbrev main_cst_48 : Ref sig .tc := ⟨.hbm, 538, rfl⟩
abbrev main_v323 : Ref sig .tc := ⟨.hbm, 539, rfl⟩
abbrev main_cst_49 : Ref sig .tc := ⟨.hbm, 540, rfl⟩
abbrev main_v324 : Ref sig .tc := ⟨.hbm, 541, rfl⟩
abbrev main_v325 : Ref sig .tc := ⟨.hbm, 542, rfl⟩
abbrev main_c_50 : Ref sig .tc := ⟨.hbm, 543, rfl⟩
abbrev main_call16_cst : Ref sig .tc := ⟨.hbm, 544, rfl⟩
abbrev main_call16_v0 : Ref sig .tc := ⟨.hbm, 545, rfl⟩
abbrev main_call16_v1 : Ref sig .tc := ⟨.hbm, 546, rfl⟩
abbrev main_call16_cst_0 : Ref sig .tc := ⟨.hbm, 547, rfl⟩
abbrev main_call16_v2 : Ref sig .tc := ⟨.hbm, 548, rfl⟩
abbrev main_call16_v3 : Ref sig .tc := ⟨.hbm, 549, rfl⟩
abbrev main_call16_v4 : Ref sig .tc := ⟨.hbm, 550, rfl⟩
abbrev main_call16_v5 : Ref sig .tc := ⟨.hbm, 551, rfl⟩
abbrev main_call16_v6 : Ref sig .tc := ⟨.hbm, 552, rfl⟩
abbrev main_call16_v7 : Ref sig .tc := ⟨.hbm, 553, rfl⟩
abbrev main_call16_cst_1 : Ref sig .tc := ⟨.hbm, 554, rfl⟩
abbrev main_call16_v8 : Ref sig .tc := ⟨.hbm, 555, rfl⟩
abbrev main_call16_cst_2 : Ref sig .tc := ⟨.hbm, 556, rfl⟩
abbrev main_call16_v9 : Ref sig .tc := ⟨.hbm, 557, rfl⟩
abbrev main_call16_v10 : Ref sig .tc := ⟨.hbm, 558, rfl⟩
abbrev main_call16_v11 : Ref sig .tc := ⟨.hbm, 559, rfl⟩
abbrev main_call16_cst_3 : Ref sig .tc := ⟨.hbm, 560, rfl⟩
abbrev main_call16_v12 : Ref sig .tc := ⟨.hbm, 561, rfl⟩
abbrev main_call16_cst_4 : Ref sig .tc := ⟨.hbm, 562, rfl⟩
abbrev main_call16_call0_v0 : Ref sig .tc := ⟨.hbm, 563, rfl⟩
abbrev main_call16_call0_v1 : Ref sig .tc := ⟨.hbm, 564, rfl⟩
abbrev main_v326 : Ref sig .tc := ⟨.hbm, 565, rfl⟩
abbrev main_v327 : Ref sig .tc := ⟨.hbm, 566, rfl⟩
abbrev main_v328 : Ref sig .tc := ⟨.hbm, 567, rfl⟩
abbrev main_v329 : Ref sig .tc := ⟨.hbm, 568, rfl⟩
abbrev main_cst_51 : Ref sig .tc := ⟨.hbm, 569, rfl⟩
abbrev main_v330 : Ref sig .tc := ⟨.hbm, 570, rfl⟩
abbrev main_v331 : Ref sig .tc := ⟨.hbm, 571, rfl⟩
abbrev main_v332 : Ref sig .tc := ⟨.hbm, 572, rfl⟩
abbrev main_v333 : Ref sig .tc := ⟨.hbm, 573, rfl⟩
abbrev main_v334 : Ref sig .tc := ⟨.hbm, 574, rfl⟩
abbrev main_v335 : Ref sig .tc := ⟨.hbm, 575, rfl⟩
abbrev main_v336 : Ref sig .tc := ⟨.hbm, 576, rfl⟩
abbrev main_v337 : Ref sig .tc := ⟨.hbm, 577, rfl⟩
abbrev main_v338 : Ref sig .tc := ⟨.hbm, 578, rfl⟩
abbrev main_v339 : Ref sig .tc := ⟨.hbm, 579, rfl⟩
abbrev main_v340 : Ref sig .tc := ⟨.hbm, 580, rfl⟩
abbrev main_v341 : Ref sig .tc := ⟨.hbm, 581, rfl⟩
abbrev main_call17_cst : Ref sig .tc := ⟨.hbm, 582, rfl⟩
abbrev main_call17_v0 : Ref sig .tc := ⟨.hbm, 583, rfl⟩
abbrev main_v342 : Ref sig .tc := ⟨.hbm, 584, rfl⟩
abbrev main_v343 : Ref sig .tc := ⟨.hbm, 585, rfl⟩
abbrev main_v344 : Ref sig .tc := ⟨.hbm, 586, rfl⟩
abbrev main_v345 : Ref sig .tc := ⟨.hbm, 587, rfl⟩
abbrev main_v346 : Ref sig .tc := ⟨.hbm, 588, rfl⟩
abbrev main_v347 : Ref sig .tc := ⟨.hbm, 589, rfl⟩
abbrev main_v348 : Ref sig .tc := ⟨.hbm, 590, rfl⟩
abbrev main_v349 : Ref sig .tc := ⟨.hbm, 591, rfl⟩
abbrev main_v350 : Ref sig .tc := ⟨.hbm, 592, rfl⟩
abbrev main_v351 : Ref sig .tc := ⟨.hbm, 593, rfl⟩
abbrev main_v352 : Ref sig .tc := ⟨.hbm, 594, rfl⟩
abbrev main_v353 : Ref sig .tc := ⟨.hbm, 595, rfl⟩
abbrev main_v354 : Ref sig .tc := ⟨.hbm, 596, rfl⟩
abbrev main_cst_52 : Ref sig .tc := ⟨.hbm, 597, rfl⟩
abbrev main_v355 : Ref sig .tc := ⟨.hbm, 598, rfl⟩
abbrev main_cst_53 : Ref sig .tc := ⟨.hbm, 599, rfl⟩
abbrev main_v356 : Ref sig .tc := ⟨.hbm, 600, rfl⟩
abbrev main_v357 : Ref sig .tc := ⟨.hbm, 601, rfl⟩
abbrev main_c_54 : Ref sig .tc := ⟨.hbm, 602, rfl⟩
abbrev main_call18_cst : Ref sig .tc := ⟨.hbm, 603, rfl⟩
abbrev main_call18_v0 : Ref sig .tc := ⟨.hbm, 604, rfl⟩
abbrev main_call18_v1 : Ref sig .tc := ⟨.hbm, 605, rfl⟩
abbrev main_call18_cst_0 : Ref sig .tc := ⟨.hbm, 606, rfl⟩
abbrev main_call18_v2 : Ref sig .tc := ⟨.hbm, 607, rfl⟩
abbrev main_call18_v3 : Ref sig .tc := ⟨.hbm, 608, rfl⟩
abbrev main_call18_v4 : Ref sig .tc := ⟨.hbm, 609, rfl⟩
abbrev main_call18_v5 : Ref sig .tc := ⟨.hbm, 610, rfl⟩
abbrev main_call18_v6 : Ref sig .tc := ⟨.hbm, 611, rfl⟩
abbrev main_call18_v7 : Ref sig .tc := ⟨.hbm, 612, rfl⟩
abbrev main_call18_cst_1 : Ref sig .tc := ⟨.hbm, 613, rfl⟩
abbrev main_call18_v8 : Ref sig .tc := ⟨.hbm, 614, rfl⟩
abbrev main_call18_cst_2 : Ref sig .tc := ⟨.hbm, 615, rfl⟩
abbrev main_call18_v9 : Ref sig .tc := ⟨.hbm, 616, rfl⟩
abbrev main_call18_v10 : Ref sig .tc := ⟨.hbm, 617, rfl⟩
abbrev main_call18_v11 : Ref sig .tc := ⟨.hbm, 618, rfl⟩
abbrev main_call18_cst_3 : Ref sig .tc := ⟨.hbm, 619, rfl⟩
abbrev main_call18_v12 : Ref sig .tc := ⟨.hbm, 620, rfl⟩
abbrev main_call18_cst_4 : Ref sig .tc := ⟨.hbm, 621, rfl⟩
abbrev main_call18_call0_v0 : Ref sig .tc := ⟨.hbm, 622, rfl⟩
abbrev main_call18_call0_v1 : Ref sig .tc := ⟨.hbm, 623, rfl⟩
abbrev main_v358 : Ref sig .tc := ⟨.hbm, 624, rfl⟩
abbrev main_v359 : Ref sig .tc := ⟨.hbm, 625, rfl⟩
abbrev main_v360 : Ref sig .tc := ⟨.hbm, 626, rfl⟩
abbrev main_v361 : Ref sig .tc := ⟨.hbm, 627, rfl⟩
abbrev main_cst_55 : Ref sig .tc := ⟨.hbm, 628, rfl⟩
abbrev main_v362 : Ref sig .tc := ⟨.hbm, 629, rfl⟩
abbrev main_v363 : Ref sig .tc := ⟨.hbm, 630, rfl⟩
abbrev main_v364 : Ref sig .tc := ⟨.hbm, 631, rfl⟩
abbrev main_v365 : Ref sig .tc := ⟨.hbm, 632, rfl⟩
abbrev main_v366 : Ref sig .tc := ⟨.hbm, 633, rfl⟩
abbrev main_v367 : Ref sig .tc := ⟨.hbm, 634, rfl⟩
abbrev main_v368 : Ref sig .tc := ⟨.hbm, 635, rfl⟩
abbrev main_v369 : Ref sig .tc := ⟨.hbm, 636, rfl⟩
abbrev main_v370 : Ref sig .tc := ⟨.hbm, 637, rfl⟩
abbrev main_v371 : Ref sig .tc := ⟨.hbm, 638, rfl⟩
abbrev main_v372 : Ref sig .tc := ⟨.hbm, 639, rfl⟩
abbrev main_v373 : Ref sig .tc := ⟨.hbm, 640, rfl⟩
abbrev main_call19_cst : Ref sig .tc := ⟨.hbm, 641, rfl⟩
abbrev main_call19_v0 : Ref sig .tc := ⟨.hbm, 642, rfl⟩
abbrev main_v374 : Ref sig .tc := ⟨.hbm, 643, rfl⟩
abbrev main_cst_56 : Ref sig .tc := ⟨.hbm, 644, rfl⟩
abbrev main_v375 : Ref sig .tc := ⟨.hbm, 645, rfl⟩
abbrev main_v376 : Ref sig .tc := ⟨.hbm, 646, rfl⟩
abbrev main_v377 : Ref sig .tc := ⟨.hbm, 647, rfl⟩
abbrev main_v378 : Ref sig .tc := ⟨.hbm, 648, rfl⟩
abbrev main_v379 : Ref sig .tc := ⟨.hbm, 649, rfl⟩
abbrev main_v380 : Ref sig .tc := ⟨.hbm, 650, rfl⟩
abbrev main_v381 : Ref sig .tc := ⟨.hbm, 651, rfl⟩
abbrev main_call20_cst : Ref sig .tc := ⟨.hbm, 652, rfl⟩
abbrev main_call20_v0 : Ref sig .tc := ⟨.hbm, 653, rfl⟩
abbrev main_v382 : Ref sig .tc := ⟨.hbm, 654, rfl⟩
abbrev main_v383 : Ref sig .tc := ⟨.hbm, 655, rfl⟩
abbrev main_v384 : Ref sig .tc := ⟨.hbm, 656, rfl⟩
abbrev main_v385 : Ref sig .tc := ⟨.hbm, 657, rfl⟩
abbrev main_v386 : Ref sig .tc := ⟨.hbm, 658, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S4x4x64_S1x4x64_0_0_0 : S4x4x64.Slices ![0, 0, 0] S1x4x64
  shapeCasts_S1x4x64_S4x64 : S1x4x64.ShapeCasts S4x64
  bcast_S_S1600000x64 : S_.BroadcastsInDim S1600000x64 (![] : Fin 0 → Fin S1600000x64.rank)
  bcast_S_S100000x64 : S_.BroadcastsInDim S100000x64 (![] : Fin 0 → Fin S100000x64.rank)
  slices_S4_S1_0 : S4.Slices ![0] S1
  shapeCasts_S1_S_ : S1.ShapeCasts S_
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S4x4x64_S1x4x64_1_0_0 : S4x4x64.Slices ![1, 0, 0] S1x4x64
  slices_S4_S1_1 : S4.Slices ![1] S1
  slices_S4x64x64_S1x64x64_1_0_0 : S4x64x64.Slices ![1, 0, 0] S1x64x64
  slices_S4x64_S1x64_1_0 : S4x64.Slices ![1, 0] S1x64
  slices_S4x4x64_S1x4x64_2_0_0 : S4x4x64.Slices ![2, 0, 0] S1x4x64
  slices_S4_S1_2 : S4.Slices ![2] S1
  slices_S4x64x64_S1x64x64_2_0_0 : S4x64x64.Slices ![2, 0, 0] S1x64x64
  slices_S4x64_S1x64_2_0 : S4x64.Slices ![2, 0] S1x64
  slices_S4x4x64_S1x4x64_3_0_0 : S4x4x64.Slices ![3, 0, 0] S1x4x64
  slices_S4_S1_3 : S4.Slices ![3] S1
  slices_S4x64x64_S1x64x64_3_0_0 : S4x64x64.Slices ![3, 0, 0] S1x64x64
  slices_S4x64_S1x64_3_0 : S4x64.Slices ![3, 0] S1x64
  bcast_S_S512x64 : S_.BroadcastsInDim S512x64 (![] : Fin 0 → Fin S512x64.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S21x64_S100000x1_S100000x64_1_0_n_n_0_1_164_wf : GatherDims.WF S21x64 S100000x1 S100000x64 [1] [0] [] [0] [] 1 ![1, 64]
  gather_S100000x64_S1600000x1_S1600000x64_1_0_n_n_0_1_164_wf : GatherDims.WF S100000x64 S1600000x1 S1600000x64 [1] [0] [] [0] [] 1 ![1, 64]
  gather_S4x64_S1600000x1_S1600000x64_1_0_n_n_0_1_164_wf : GatherDims.WF S4x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  dot_S512x64_S64x128_S512x128_1_0_0_1_n_n_wf : DotDims.WF S512x64 S64x128 S512x128 [1] [0] [0] [1] [] []
  dot_S512x128_S128x1_S512x1_1_0_0_1_n_n_wf : DotDims.WF S512x128 S128x1 S512x1 [1] [0] [0] [1] [] []

variable [Facts₀]

def gather_S21x64_S100000x1_S100000x64_1_0_n_n_0_1_164 : GatherDims S21x64 S100000x1 S100000x64 where
  offsetDims := [1]
  collapsedSliceDims := [0]
  operandBatchingDims := []
  startIndicesBatchingDims := []
  startIndexMap := [0]
  indexVectorDim := 1
  sliceSizes := ![1, 64]
  wf := gather_S21x64_S100000x1_S100000x64_1_0_n_n_0_1_164_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S4x64_S1600000x1_S1600000x64_1_0_n_n_0_1_164 : GatherDims S4x64 S1600000x1 S1600000x64 where
  offsetDims := [1]
  collapsedSliceDims := [0]
  operandBatchingDims := []
  startIndicesBatchingDims := []
  startIndexMap := [0]
  indexVectorDim := 1
  sliceSizes := ![1, 64]
  wf := gather_S4x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.Setup.lean ====
/- Names shared by the bridge between the idealized kernel program and the idealized reference.
   Every buffer of either program is written once, so the contents each program leaves at the end hold every
   intermediate value: `KV b` is what the kernel program leaves in its buffer `b` (the last boundary of the run's
   fold), `RV b` what the reference leaves in its buffer `b` (the fold of its 43 operation lists over the launch
   contents). `Agree` says the two launch memories hold the same argument arrays; `Ranges` that the three index
   arguments that are gathered through lie inside the tables they index. -/
import proofs.«417278_j53197464928922_1_alg».proof.Proof.Gen.KernelIdeal.Frame
import proofs.«417278_j53197464928922_1_alg».proof.Proof.RefOps
import Idealize.ShloMosaic.PureOps.Ideal

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- What the kernel program leaves in buffer `b` of TensorCore `c`. -/
abbrev KV (c : Dev Cert.KernelIdeal.nD) (b : Ref Cert.KernelIdeal.sig .tc) :=
  Cert.KernelIdeal.Gen.W52 (F := Ideal) m ρ c (Proc.devRef .tc b)

/-- The reference's buffers at launch. -/
abbrev R0 (c : Dev Cert.ReferenceIdeal.nD) : Valuation Cert.ReferenceIdeal.τ Cert.ReferenceIdeal.sig (Elt Ideal) := StableHlo.launchContents m' c
abbrev R1 (c : Dev Cert.ReferenceIdeal.nD) : Valuation Cert.ReferenceIdeal.τ Cert.ReferenceIdeal.sig (Elt Ideal) := StableHlo.after (Cert.ReferenceIdeal.Ops.hostOps0 (F := Ideal)) (R0 m' c)
abbrev R2 (c : Dev Cert.ReferenceIdeal.nD) : Valuation Cert.ReferenceIdeal.τ Cert.ReferenceIdeal.sig (Elt Ideal) := StableHlo.after (Cert.ReferenceIdeal.Ops.hostOps0_1 (F := Ideal)) (R1 m' c)
abbrev R3 (c : Dev Cert.ReferenceIdeal.nD) : Valuation Cert.ReferenceIdeal.τ Cert.ReferenceIdeal.sig (Elt Ideal) := StableHlo.after (Cert.ReferenceIdeal.Ops.hostOps0_2 (F := Ideal)) (R2 m' c)
abbrev R4 (c : Dev Cert.ReferenceIdeal.nD) : Valuation Cert.ReferenceIdeal.τ Cert.ReferenceIdeal.sig (Elt Ideal) := StableHlo.after (Cert.ReferenceIdeal.Ops.hostOps0_3 (F := Ideal)) (R3 m' c)
abbrev R5 (c : Dev Cert.ReferenceIdeal.nD) : Valuation Cert.ReferenceIdeal.τ Cert.ReferenceIdeal.sig (Elt Ideal) := StableHlo.after (Cert.ReferenceIdeal.Ops.hostOps0_4 (F := Ideal)) (R4 m' c)
abbrev R6 (c : Dev Cert.ReferenceIdeal.nD) : Valuation Cert.ReferenceIdeal.τ Cert.ReferenceIdeal.sig (Elt Ideal) := StableHlo.after (Cert.ReferenceIdeal.Ops.hostOps0_5 (F := Ideal)) (R5 m' c)
abbrev R7 (c : Dev Cert.ReferenceIdeal.nD) : Valuation Cert.ReferenceIdeal.τ Cert.ReferenceIdeal.sig (Elt Ideal) := StableHlo.after (Cert.ReferenceIdeal.Ops.hostOps0_6 (F := Ideal)) (R6 m' c)
abbrev R8 (c : Dev Cert.ReferenceIdeal.nD) : Valuation Cert.ReferenceIdeal.τ Cert.ReferenceIdeal.sig (Elt Ideal) := StableHlo.after (Cert.ReferenceIdeal.Ops.hostOps0_7 (F := Ideal)) (R7 m' c)
abbrev R9 (c : Dev Cert.ReferenceIdeal.nD) : Valuation Cert.ReferenceIdeal.τ Cert.ReferenceIdeal.sig (Elt Ideal) := StableHlo.after (Cert.ReferenceIdeal.Ops.hostOps0_8 (F := Ideal)) (R8 m' c)
abbrev R10 (c : Dev Cert.ReferenceIdeal.nD) : Valuation Cert.ReferenceIdeal.τ Cert.ReferenceIdeal.sig (Elt Ideal) := StableHlo.after (Cert.ReferenceIdeal.Ops.hostOps0_9 (F := Ideal)) (R9 m' c)
abbrev R11 (c : Dev Cert.ReferenceIdeal.nD) : Valuation Cert.ReferenceIdeal.τ Cert.ReferenceIdeal.sig (Elt Ideal) := StableHlo.after (Cert.ReferenceIdeal.Ops.hostOps0_10 (F := Ideal)) (R10 m' c)
abbrev R12 (c : Dev Cert.ReferenceIdeal.nD) : Valuation Cert.ReferenceIdeal.τ Cert.ReferenceIdeal.sig (Elt Ideal) := StableHlo.after (Cert.ReferenceIdeal.Ops.hostOps0_11 (F := Ideal)) (R11 m' c)
abbrev R13 (c : Dev Cert.ReferenceIdeal.nD) : Valuation Cert.ReferenceIdeal.τ Cert.ReferenceIdeal.sig (Elt Ideal) := StableHlo.after (Cert.ReferenceIdeal.Ops.hostOps0_12 (F := Ideal)) (R12 m' c)
abbrev R14 (c : Dev Cert.ReferenceIdeal.nD) : Valuation Cert.ReferenceIdeal.τ Cert.ReferenceIdeal.sig (Elt Ideal) := StableHlo.after (Cert.ReferenceIdeal.Ops.hostOps0_13 (F := Ideal)) (R13 m' c)
abbrev R15 (c : Dev Cert.ReferenceIdeal.nD) : Valuation Cert.ReferenceIdeal.τ Cert.ReferenceIdeal.sig (Elt Ideal) := StableHlo.after (Cert.ReferenceIdeal.Ops.hostOps0_14 (F := Ideal)) (R14 m' c)
abbrev R16 (c : Dev Cert.ReferenceIdeal.nD) : Valuation Cert.ReferenceIdeal.τ Cert.ReferenceIdeal.sig (Elt Ideal) := StableHlo.after (Cert.ReferenceIdeal.Ops.hostOps0_15 (F := Ideal)) (R15 m' c)
abbrev R17 (c : Dev Cert.ReferenceIdeal.nD) : Valuation Cert.ReferenceIdeal.τ Cert.ReferenceIdeal.sig (Elt Ideal) := StableHlo.after (Cert.ReferenceIdeal.Ops.hostOps0_16 (F := Ideal)) (R16 m' c)
abbrev R18 (c : Dev Cert.ReferenceIdeal.nD) : Valuation Cert.ReferenceIdeal.τ Cert.ReferenceIdeal.sig (Elt Ideal) := StableHlo.after (Cert.ReferenceIdeal.Ops.hostOps0_17 (F := Ideal)) (R17 m' c)
abbrev R19 (c : Dev Cert.ReferenceIdeal.nD) : Valuation Cert.ReferenceIdeal.τ Cert.ReferenceIdeal.sig (Elt Ideal) := StableHlo.after (Cert.ReferenceIdeal.Ops.hostOps0_18 (F := Ideal)) (R18 m' c)
abbrev R20 (c : Dev Cert.ReferenceIdeal.nD) : Valuation Cert.ReferenceIdeal.τ Cert.ReferenceIdeal.sig (Elt Ideal) := StableHlo.after (Cert.ReferenceIdeal.Ops.hostOps0_19 (F := Ideal)) (R19 m' c)
abbrev R21 (c : Dev Cert.ReferenceIdeal.nD) : Valuation Cert.ReferenceIdeal.τ Cert.ReferenceIdeal.sig (Elt Ideal) := StableHlo.after (Cert.ReferenceIdeal.Ops.hostOps0_20 (F := Ideal)) (R20 m' c)
abbrev R22 (c : Dev Cert.ReferenceIdeal.nD) : Valuation Cert.ReferenceIdeal.τ Cert.ReferenceIdeal.sig (Elt Ideal) := StableHlo.after (Cert.ReferenceIdeal.Ops.hostOps0_21 (F := Ideal)) (R21 m' c)
abbrev R23 (c : Dev Cert.ReferenceIdeal.nD) : Valuation Cert.ReferenceIdeal.τ Cert.ReferenceIdeal.sig (Elt Ideal) := StableHlo.after (Cert.ReferenceIdeal.Ops.hostOps0_22 (F := Ideal)) (R22 m' c)
abbrev R24 (c : Dev Cert.ReferenceIdeal.nD) : Valuation Cert.ReferenceIdeal.τ Cert.ReferenceIdeal.sig (Elt Ideal) := StableHlo.after (Cert.ReferenceIdeal.Ops.hostOps0_23 (F := Ideal)) (R23 m' c)
abbrev R25 (c : Dev Cert.ReferenceIdeal.nD) : Valuation Cert.ReferenceIdeal.τ Cert.ReferenceIdeal.sig (Elt Ideal) := StableHlo.after (Cert.ReferenceIdeal.Ops.hostOps0_24 (F := Ideal)) (R24 m' c)
abbrev R26 (c : Dev Cert.ReferenceIdeal.nD) : Valuation Cert.ReferenceIdeal.τ Cert.ReferenceIdeal.sig (Elt Ideal) := StableHlo.after (Cert.ReferenceIdeal.Ops.hostOps0_25 (F := Ideal)) (R25 m' c)
abbrev R27 (c : Dev Cert.ReferenceIdeal.nD) : Valuation Cert.ReferenceIdeal.τ Cert.ReferenceIdeal.sig (Elt Ideal) := StableHlo.after (Cert.ReferenceIdeal.Ops.hostOps0_26 (F := Ideal)) (R26 m' c)
abbrev R28 (c : Dev Cert.ReferenceIdeal.nD) : Valuation Cert.ReferenceIdeal.τ Cert.ReferenceIdeal.sig (Elt Ideal) := StableHlo.after (Cert.ReferenceIdeal.Ops.hostOps0_27 (F := Ideal)) (R27 m' c)
abbrev R29 (c : Dev Cert.ReferenceIdeal.nD) : Valuation Cert.ReferenceIdeal.τ Cert.ReferenceIdeal.sig (Elt Ideal) := StableHlo.after (Cert.ReferenceIdeal.Ops.hostOps0_28 (F := Ideal)) (R28 m' c)
abbrev R30 (c : Dev Cert.ReferenceIdeal.nD) : Valuation Cert.ReferenceIdeal.τ Cert.ReferenceIdeal.sig (Elt Ideal) := StableHlo.after (Cert.ReferenceIdeal.Ops.hostOps0_29 (F := Ideal)) (R29 m' c)
abbrev R31 (c : Dev Cert.ReferenceIdeal.nD) : Valuation Cert.ReferenceIdeal.τ Cert.ReferenceIdeal.sig (Elt Ideal) := StableHlo.after (Cert.ReferenceIdeal.Ops.hostOps0_30 (F := Ideal)) (R30 m' c)
abbrev R32 (c : Dev Cert.ReferenceIdeal.nD) : Valuation Cert.ReferenceIdeal.τ Cert.ReferenceIdeal.sig (Elt Ideal) := StableHlo.after (Cert.ReferenceIdeal.Ops.hostOps0_31 (F := Ideal)) (R31 m' c)
abbrev R33 (c : Dev Cert.ReferenceIdeal.nD) : Valuation Cert.ReferenceIdeal.τ Cert.ReferenceIdeal.sig (Elt Ideal) := StableHlo.after (Cert.ReferenceIdeal.Ops.hostOps0_32 (F := Ideal)) (R32 m' c)
abbrev R34 (c : Dev Cert.ReferenceIdeal.nD) : Valuation Cert.ReferenceIdeal.τ Cert.ReferenceIdeal.sig (Elt Ideal) := StableHlo.after (Cert.ReferenceIdeal.Ops.hostOps0_33 (F := Ideal)) (R33 m' c)
abbrev R35 (c : Dev Cert.ReferenceIdeal.nD) : Valuation Cert.ReferenceIdeal.τ Cert.ReferenceIdeal.sig (Elt Ideal) := StableHlo.after (Cert.ReferenceIdeal.Ops.hostOps0_34 (F := Ideal)) (R34 m' c)
abbrev R36 (c : Dev Cert.ReferenceIdeal.nD) : Valuation Cert.ReferenceIdeal.τ Cert.ReferenceIdeal.sig (Elt Ideal) := StableHlo.after (Cert.ReferenceIdeal.Ops.hostOps0_35 (F := Ideal)) (R35 m' c)
abbrev R37 (c : Dev Cert.ReferenceIdeal.nD) : Valuation Cert.ReferenceIdeal.τ Cert.ReferenceIdeal.sig (Elt Ideal) := StableHlo.after (Cert.ReferenceIdeal.Ops.hostOps0_36 (F := Ideal)) (R36 m' c)
abbrev R38 (c : Dev Cert.ReferenceIdeal.nD) : Valuation Cert.ReferenceIdeal.τ Cert.ReferenceIdeal.sig (Elt Ideal) := StableHlo.after (Cert.ReferenceIdeal.Ops.hostOps0_37 (F := Ideal)) (R37 m' c)
abbrev R39 (c : Dev Cert.ReferenceIdeal.nD) : Valuation Cert.ReferenceIdeal.τ Cert.ReferenceIdeal.sig (Elt Ideal) := StableHlo.after (Cert.ReferenceIdeal.Ops.hostOps0_38 (F := Ideal)) (R38 m' c)
abbrev R40 (c : Dev Cert.ReferenceIdeal.nD) : Valuation Cert.ReferenceIdeal.τ Cert.ReferenceIdeal.sig (Elt Ideal) := StableHlo.after (Cert.ReferenceIdeal.Ops.hostOps0_39 (F := Ideal)) (R39 m' c)
abbrev R41 (c : Dev Cert.ReferenceIdeal.nD) : Valuation Cert.ReferenceIdeal.τ Cert.ReferenceIdeal.sig (Elt Ideal) := StableHlo.after (Cert.ReferenceIdeal.Ops.hostOps0_40 (F := Ideal)) (R40 m' c)
abbrev R42 (c : Dev Cert.ReferenceIdeal.nD) : Valuation Cert.ReferenceIdeal.τ Cert.ReferenceIdeal.sig (Elt Ideal) := StableHlo.after (Cert.ReferenceIdeal.Ops.hostOps0_41 (F := Ideal)) (R41 m' c)
abbrev R43 (c : Dev Cert.ReferenceIdeal.nD) : Valuation Cert.ReferenceIdeal.τ Cert.ReferenceIdeal.sig (Elt Ideal) := StableHlo.after (Cert.ReferenceIdeal.Ops.hostOps0_42 (F := Ideal)) (R42 m' c)

/-- What the reference leaves in buffer `b` of TensorCore `c`. -/
abbrev RV (c : Dev Cert.ReferenceIdeal.nD) (b : Ref Cert.ReferenceIdeal.sig .tc) :=
  R43 m' c (Proc.devRef .tc b)

/-- The two launch memories agree on the nineteen argument arrays (the hypothesis of the algebraic claim). -/
def Agree : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)

/-- The index arguments lie inside the tables they index: node features in the 21-row table, edge sources among
    the 100000 nodes (row 0 of `edge_index`), edge attributes in the 4-row tables. -/
structure Ranges : Prop where
  x : ∀ (c : Dev Cert.KernelIdeal.nD) (i : Cert.KernelIdeal.S100000.Idx),
    0 ≤ ((m ((c.tc : Thread Cert.KernelIdeal.nD Cert.KernelIdeal.τ).loc Cert.KernelIdeal.main_arg0) : Vec Ideal Cert.KernelIdeal.S100000 .i32) i).toInt
    ∧ ((m ((c.tc : Thread Cert.KernelIdeal.nD Cert.KernelIdeal.τ).loc Cert.KernelIdeal.main_arg0) : Vec Ideal Cert.KernelIdeal.S100000 .i32) i).toInt < 21
  src : ∀ (c : Dev Cert.KernelIdeal.nD) (i : Cert.KernelIdeal.S2x1600000.Idx), (i 0).val = 0 →
    0 ≤ ((m ((c.tc : Thread Cert.KernelIdeal.nD Cert.KernelIdeal.τ).loc Cert.KernelIdeal.main_arg1) : Vec Ideal Cert.KernelIdeal.S2x1600000 .i32) i).toInt
    ∧ ((m ((c.tc : Thread Cert.KernelIdeal.nD Cert.KernelIdeal.τ).loc Cert.KernelIdeal.main_arg1) : Vec Ideal Cert.KernelIdeal.S2x1600000 .i32) i).toInt < 100000
  attr : ∀ (c : Dev Cert.KernelIdeal.nD) (i : Cert.KernelIdeal.S1600000.Idx),
    0 ≤ ((m ((c.tc : Thread Cert.KernelIdeal.nD Cert.KernelIdeal.τ).loc Cert.KernelIdeal.main_arg2) : Vec Ideal Cert.KernelIdeal.S1600000 .i32) i).toInt
    ∧ ((m ((c.tc : Thread Cert.KernelIdeal.nD Cert.KernelIdeal.τ).loc Cert.KernelIdeal.main_arg2) : Vec Ideal Cert.KernelIdeal.S1600000 .i32) i).toInt < 4

end Cert.Bridge

end
-- ==== Proof.RRun.lean ====
/- The run of the idealized reference: a host program with no kernel, its @main the chain of 43 lists of host
   operations. Every weakly fair execution terminates, and each TensorCore buffer ends at the fold of the 43 lists,
   in order, over its launch contents. -/
import proofs.«417278_j53197464928922_1_alg».proof.Proof.Setup
import Idealize.ShloMosaic.Lib.StableHlo.RunLoop

set_option maxRecDepth 16384

noncomputable section

namespace Cert.ReferenceIdeal.RRun

open Cert.ReferenceIdeal
open Idealize.ShloMosaic Idealize.ShloMosaic.TcCoe Idealize.SL.Sem

section General

variable {nD : Nat} {τ : Topo} {sig : RefSig} {F : FTy → Type} {Λ : Labels}

/-- The chain of the lists' programs is the one line of their concatenation. -/
theorem chain_map_seq : ∀ items : List (List (HloOp τ sig (Elt F))),
    Pipeline.chain (items.map fun ops => (StableHlo.seq ops : Prog (TpuEff nD τ sig (Elt F) Λ .tc) PUnit)) = StableHlo.seq items.flatten
  | [] => rfl
  | ops :: rest => by
    rw [List.map_cons, Pipeline.chain_cons, List.flatten_cons, StableHlo.seq_append, chain_map_seq rest]

/-- A program that is a chain of lists of host operations, each operation touching TensorCore references only and
    none allocating, on a signature that scopes nothing: every weakly fair execution terminates, and each TensorCore
    buffer ends at the fold of the lists, in order, over its launch contents. -/
theorem run_items (hR : (Finset.univ.filter fun b : Ref sig .tc => b.isScoped) = ∅)
    (hC : (Finset.univ.filter fun sm : SemLoc sig => sm.isScoped .tc) = ∅)
    (defs : Defs nD τ sig (Elt F) Λ) (main : Dev nD → Prog (TpuEff nD τ sig (Elt F) Λ .tc) PUnit)
    (items : List (List (HloOp τ sig (Elt F))))
    (hmain : ∀ d, main d = Pipeline.chain (items.map fun ops => (StableHlo.seq ops : Prog (TpuEff nD τ sig (Elt F) Λ .tc) PUnit)))
    (hp : StableHlo.Plain items)
    (m : (ℓ : Loc nD τ sig) → Buf (Elt F) ℓ) (ρ : Dev nD → PrngReg) :
    θ_run defs (onTc (τ := τ) main) ⟨m, fun _ => 0, ρ⟩ fun r =>
      ∀ (d : Dev nD) (b : Ref sig .tc), r.2.mem ((d.tc : Thread nD τ).loc b)
        = StableHlo.afterL items (StableHlo.launchContents m d) (Proc.devRef .tc b) := by
  have h := StableHlo.run_seq hR hC defs main (fun _ => items.flatten) (fun d => by rw [hmain d, chain_map_seq])
    (fun _ => List.forall_iff_forall_mem.mpr fun op hop => by
      obtain ⟨ops, hops, ho⟩ := List.mem_flatten.mp hop
      exact (hp ops hops).1 op ho) m ρ
    (fun _ op hop => by
      obtain ⟨ops, hops, ho⟩ := List.mem_flatten.mp hop
      exact (hp ops hops).2 op ho)
  simpa only [StableHlo.afterL_eq_after_flatten] using h

end General

/-- The reference's signature scopes no TensorCore buffer. -/
theorem scopedRefs_eq : (Finset.univ.filter fun b : Ref sig .tc => b.isScoped) = ∅ := by decide
/-- The reference's signature has no scoped semaphore. -/
theorem scopedSems_eq : (Finset.univ.filter fun sm : SemLoc sig => sm.isScoped .tc) = ∅ := by decide

/-- The 43 lists of the reference's @main, in order. -/
abbrev items : List (List (HloOp τ sig (Elt Ideal))) :=
  [Ops.hostOps0, Ops.hostOps0_1, Ops.hostOps0_2, Ops.hostOps0_3, Ops.hostOps0_4, Ops.hostOps0_5, Ops.hostOps0_6, Ops.hostOps0_7, Ops.hostOps0_8, Ops.hostOps0_9, Ops.hostOps0_10, Ops.hostOps0_11, Ops.hostOps0_12, Ops.hostOps0_13, Ops.hostOps0_14, Ops.hostOps0_15, Ops.hostOps0_16, Ops.hostOps0_17, Ops.hostOps0_18, Ops.hostOps0_19, Ops.hostOps0_20, Ops.hostOps0_21, Ops.hostOps0_22, Ops.hostOps0_23, Ops.hostOps0_24, Ops.hostOps0_25, Ops.hostOps0_26, Ops.hostOps0_27, Ops.hostOps0_28, Ops.hostOps0_29, Ops.hostOps0_30, Ops.hostOps0_31, Ops.hostOps0_32, Ops.hostOps0_33, Ops.hostOps0_34, Ops.hostOps0_35, Ops.hostOps0_36, Ops.hostOps0_37, Ops.hostOps0_38, Ops.hostOps0_39, Ops.hostOps0_40, Ops.hostOps0_41, Ops.hostOps0_42]

/-- Each list touches TensorCore references only and allocates nothing. -/
theorem items_plain : StableHlo.Plain items :=
    StableHlo.Plain.cons Ops.hostOps0_sub <|
    StableHlo.Plain.cons Ops.hostOps0_1_sub <|
    StableHlo.Plain.cons Ops.hostOps0_2_sub <|
    StableHlo.Plain.cons Ops.hostOps0_3_sub <|
    StableHlo.Plain.cons Ops.hostOps0_4_sub <|
    StableHlo.Plain.cons Ops.hostOps0_5_sub <|
    StableHlo.Plain.cons Ops.hostOps0_6_sub <|
    StableHlo.Plain.cons Ops.hostOps0_7_sub <|
    StableHlo.Plain.cons Ops.hostOps0_8_sub <|
    StableHlo.Plain.cons Ops.hostOps0_9_sub <|
    StableHlo.Plain.cons Ops.hostOps0_10_sub <|
    StableHlo.Plain.cons Ops.hostOps0_11_sub <|
    StableHlo.Plain.cons Ops.hostOps0_12_sub <|
    StableHlo.Plain.cons Ops.hostOps0_13_sub <|
    StableHlo.Plain.cons Ops.hostOps0_14_sub <|
    StableHlo.Plain.cons Ops.hostOps0_15_sub <|
    StableHlo.Plain.cons Ops.hostOps0_16_sub <|
    StableHlo.Plain.cons Ops.hostOps0_17_sub <|
    StableHlo.Plain.cons Ops.hostOps0_18_sub <|
    StableHlo.Plain.cons Ops.hostOps0_19_sub <|
    StableHlo.Plain.cons Ops.hostOps0_20_sub <|
    StableHlo.Plain.cons Ops.hostOps0_21_sub <|
    StableHlo.Plain.cons Ops.hostOps0_22_sub <|
    StableHlo.Plain.cons Ops.hostOps0_23_sub <|
    StableHlo.Plain.cons Ops.hostOps0_24_sub <|
    StableHlo.Plain.cons Ops.hostOps0_25_sub <|
    StableHlo.Plain.cons Ops.hostOps0_26_sub <|
    StableHlo.Plain.cons Ops.hostOps0_27_sub <|
    StableHlo.Plain.cons Ops.hostOps0_28_sub <|
    StableHlo.Plain.cons Ops.hostOps0_29_sub <|
    StableHlo.Plain.cons Ops.hostOps0_30_sub <|
    StableHlo.Plain.cons Ops.hostOps0_31_sub <|
    StableHlo.Plain.cons Ops.hostOps0_32_sub <|
    StableHlo.Plain.cons Ops.hostOps0_33_sub <|
    StableHlo.Plain.cons Ops.hostOps0_34_sub <|
    StableHlo.Plain.cons Ops.hostOps0_35_sub <|
    StableHlo.Plain.cons Ops.hostOps0_36_sub <|
    StableHlo.Plain.cons Ops.hostOps0_37_sub <|
    StableHlo.Plain.cons Ops.hostOps0_38_sub <|
    StableHlo.Plain.cons Ops.hostOps0_39_sub <|
    StableHlo.Plain.cons Ops.hostOps0_40_sub <|
    StableHlo.Plain.cons Ops.hostOps0_41_sub <|
    StableHlo.Plain.cons Ops.hostOps0_42_sub <|
    StableHlo.Plain.nil

/-- The fold of the 43 lists over the launch contents is the last boundary valuation. -/
theorem afterL_items (m' : (ℓ : Loc nD τ sig) → Buf (Elt Ideal) ℓ) (c : Dev nD) :
    StableHlo.afterL items (StableHlo.launchContents m' c) = Cert.Bridge.R43 m' c := rfl

/-- THE RUN of the idealized reference: every weakly fair execution of its @main terminates, and each TensorCore buffer
    ends at the last boundary valuation `R43`. -/
theorem run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      (fun r => ∀ (c : Dev nD) (b : Ref sig .tc), r.2.mem ((c.tc : Thread nD τ).loc b) = Cert.Bridge.R43 m' c (Proc.devRef .tc b)) := by
  have h := run_items scopedRefs_eq scopedSems_eq (Cert.ReferenceIdeal.defs (F := Ideal)) (Cert.ReferenceIdeal.main (F := Ideal)) items
    (fun d => Ops.main_chain (F := Ideal) d) items_plain m' ρ'
  simpa only [afterL_items] using h

end Cert.ReferenceIdeal.RRun

end
-- ==== Proof.RKeep.lean ====
/- Carrying a buffer's contents from a boundary of the reference's run to its end: a buffer that no later operation
   list writes holds at the end what it held at that boundary. Each operation writes exactly one buffer, its result;
   writes_j lists the results of operation list j in order, and writtenFrom_j those of lists j to 42. The
   arguments are written by no list, so the end still holds their launch contents. -/
import proofs.«417278_j53197464928922_1_alg».proof.Proof.Setup

set_option maxRecDepth 16384

noncomputable section

namespace Cert.ReferenceIdeal.Keep

open Cert.ReferenceIdeal Cert.Bridge
open Idealize.ShloMosaic Idealize.ShloMosaic.TcCoe Idealize.SL.Sem

variable (m' : (ℓ : Loc nD τ sig) → Buf (Elt Ideal) ℓ)

/-- A member of a list of references is, as a device buffer, a member of the list's device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The buffers operation list 42 writes: the result of each of its 4 operations, in order. -/
noncomputable def writes_42 : List (Ref sig .tc) :=
  [
    main_v383, main_v384, main_v385, main_v386 ]
/-- A buffer that operation list 42 does not write holds after the list what it held before it. -/
theorem step_42 (c : Dev nD) (b : Ref sig .tc) (hb : b ∉ writes_42) :
    R43 m' c (Proc.devRef .tc b) = R42 m' c (Proc.devRef .tc b) :=
  StableHlo.after_of_writes_sub (W := writes_42) _ _ (by
    simp only [Ops.hostOps0_42, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 42 on. -/
noncomputable def writtenFrom_42 : List (Ref sig .tc) := writes_42
theorem toEnd_42 (c : Dev nD) (b : Ref sig .tc) (hb : b ∉ writtenFrom_42) :
    R42 m' c (Proc.devRef .tc b) = R43 m' c (Proc.devRef .tc b) :=
  (step_42 m' c b hb).symm

/-- The buffers operation list 41 writes: the result of each of its 3 operations, in order. -/
noncomputable def writes_41 : List (Ref sig .tc) :=
  [
    main_call20_cst, main_call20_v0, main_v382 ]
/-- A buffer that operation list 41 does not write holds after the list what it held before it. -/
theorem step_41 (c : Dev nD) (b : Ref sig .tc) (hb : b ∉ writes_41) :
    R42 m' c (Proc.devRef .tc b) = R41 m' c (Proc.devRef .tc b) :=
  StableHlo.after_of_writes_sub (W := writes_41) _ _ (by
    simp only [Ops.hostOps0_41, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 41 on. -/
noncomputable def writtenFrom_41 : List (Ref sig .tc) := writes_41 ++ writtenFrom_42
theorem toEnd_41 (c : Dev nD) (b : Ref sig .tc) (hb : b ∉ writtenFrom_41) :
    R41 m' c (Proc.devRef .tc b) = R43 m' c (Proc.devRef .tc b) :=
  (step_41 m' c b fun h => hb (List.mem_append_left _ h)).symm.trans
    (toEnd_42 m' c b fun h => hb (List.mem_append_right _ h))

/-- The buffers operation list 40 writes: the result of each of its 8 operations, in order. -/
noncomputable def writes_40 : List (Ref sig .tc) :=
  [
    main_cst_56, main_v375, main_v376, main_v377, main_v378, main_v379, main_v380, main_v381 ]
/-- A buffer that operation list 40 does not write holds after the list what it held before it. -/
theorem step_40 (c : Dev nD) (b : Ref sig .tc) (hb : b ∉ writes_40) :
    R41 m' c (Proc.devRef .tc b) = R40 m' c (Proc.devRef .tc b) :=
  StableHlo.after_of_writes_sub (W := writes_40) _ _ (by
    simp only [Ops.hostOps0_40, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 40 on. -/
noncomputable def writtenFrom_40 : List (Ref sig .tc) := writes_40 ++ writtenFrom_41
theorem toEnd_40 (c : Dev nD) (b : Ref sig .tc) (hb : b ∉ writtenFrom_40) :
    R40 m' c (Proc.devRef .tc b) = R43 m' c (Proc.devRef .tc b) :=
  (step_40 m' c b fun h => hb (List.mem_append_left _ h)).symm.trans
    (toEnd_41 m' c b fun h => hb (List.mem_append_right _ h))

/-- The buffers operation list 39 writes: the result of each of its 3 operations, in order. -/
noncomputable def writes_39 : List (Ref sig .tc) :=
  [
    main_call19_cst, main_call19_v0, main_v374 ]
/-- A buffer that operation list 39 does not write holds after the list what it held before it. -/
theorem step_39 (c : Dev nD) (b : Ref sig .tc) (hb : b ∉ writes_39) :
    R40 m' c (Proc.devRef .tc b) = R39 m' c (Proc.devRef .tc b) :=
  StableHlo.after_of_writes_sub (W := writes_39) _ _ (by
    simp only [Ops.hostOps0_39, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 39 on. -/
noncomputable def writtenFrom_39 : List (Ref sig .tc) := writes_39 ++ writtenFrom_40
theorem toEnd_39 (c : Dev nD) (b : Ref sig .tc) (hb : b ∉ writtenFrom_39) :
    R39 m' c (Proc.devRef .tc b) = R43 m' c (Proc.devRef .tc b) :=
  (step_39 m' c b fun h => hb (List.mem_append_left _ h)).symm.trans
    (toEnd_40 m' c b fun h => hb (List.mem_append_right _ h))

/-- The buffers operation list 38 writes: the result of each of its 16 operations, in order. -/
noncomputable def writes_38 : List (Ref sig .tc) :=
  [
    main_v359, main_v360, main_v361, main_cst_55, main_v362, main_v363, main_v364, main_v365, main_v366, main_v367,
    main_v368, main_v369, main_v370, main_v371, main_v372, main_v373 ]
/-- A buffer that operation list 38 does not write holds after the list what it held before it. -/
theorem step_38 (c : Dev nD) (b : Ref sig .tc) (hb : b ∉ writes_38) :
    R39 m' c (Proc.devRef .tc b) = R38 m' c (Proc.devRef .tc b) :=
  StableHlo.after_of_writes_sub (W := writes_38) _ _ (by
    simp only [Ops.hostOps0_38, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 38 on. -/
noncomputable def writtenFrom_38 : List (Ref sig .tc) := writes_38 ++ writtenFrom_39
theorem toEnd_38 (c : Dev nD) (b : Ref sig .tc) (hb : b ∉ writtenFrom_38) :
    R38 m' c (Proc.devRef .tc b) = R43 m' c (Proc.devRef .tc b) :=
  (step_38 m' c b fun h => hb (List.mem_append_left _ h)).symm.trans
    (toEnd_39 m' c b fun h => hb (List.mem_append_right _ h))

/-- The buffers operation list 37 writes: the result of each of its 22 operations, in order. -/
noncomputable def writes_37 : List (Ref sig .tc) :=
  [
    main_call18_cst, main_call18_v0, main_call18_v1, main_call18_cst_0, main_call18_v2, main_call18_v3,
    main_call18_v4, main_call18_v5, main_call18_v6, main_call18_v7, main_call18_cst_1, main_call18_v8,
    main_call18_cst_2, main_call18_v9, main_call18_v10, main_call18_v11, main_call18_cst_3, main_call18_v12,
    main_call18_cst_4, main_call18_call0_v0, main_call18_call0_v1, main_v358 ]
/-- A buffer that operation list 37 does not write holds after the list what it held before it. -/
theorem step_37 (c : Dev nD) (b : Ref sig .tc) (hb : b ∉ writes_37) :
    R38 m' c (Proc.devRef .tc b) = R37 m' c (Proc.devRef .tc b) :=
  StableHlo.after_of_writes_sub (W := writes_37) _ _ (by
    simp only [Ops.hostOps0_37, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 37 on. -/
noncomputable def writtenFrom_37 : List (Ref sig .tc) := writes_37 ++ writtenFrom_38
theorem toEnd_37 (c : Dev nD) (b : Ref sig .tc) (hb : b ∉ writtenFrom_37) :
    R37 m' c (Proc.devRef .tc b) = R43 m' c (Proc.devRef .tc b) :=
  (step_37 m' c b fun h => hb (List.mem_append_left _ h)).symm.trans
    (toEnd_38 m' c b fun h => hb (List.mem_append_right _ h))

/-- The buffers operation list 36 writes: the result of each of its 18 operations, in order. -/
noncomputable def writes_36 : List (Ref sig .tc) :=
  [
    main_v343, main_v344, main_v345, main_v346, main_v347, main_v348, main_v349, main_v350, main_v351, main_v352,
    main_v353, main_v354, main_cst_52, main_v355, main_cst_53, main_v356, main_v357, main_c_54 ]
/-- A buffer that operation list 36 does not write holds after the list what it held before it. -/
theorem step_36 (c : Dev nD) (b : Ref sig .tc) (hb : b ∉ writes_36) :
    R37 m' c (Proc.devRef .tc b) = R36 m' c (Proc.devRef .tc b) :=
  StableHlo.after_of_writes_sub (W := writes_36) _ _ (by
    simp only [Ops.hostOps0_36, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 36 on. -/
noncomputable def writtenFrom_36 : List (Ref sig .tc) := writes_36 ++ writtenFrom_37
theorem toEnd_36 (c : Dev nD) (b : Ref sig .tc) (hb : b ∉ writtenFrom_36) :
    R36 m' c (Proc.devRef .tc b) = R43 m' c (Proc.devRef .tc b) :=
  (step_36 m' c b fun h => hb (List.mem_append_left _ h)).symm.trans
    (toEnd_37 m' c b fun h => hb (List.mem_append_right _ h))

/-- The buffers operation list 35 writes: the result of each of its 3 operations, in order. -/
noncomputable def writes_35 : List (Ref sig .tc) :=
  [
    main_call17_cst, main_call17_v0, main_v342 ]
/-- A buffer that operation list 35 does not write holds after the list what it held before it. -/
theorem step_35 (c : Dev nD) (b : Ref sig .tc) (hb : b ∉ writes_35) :
    R36 m' c (Proc.devRef .tc b) = R35 m' c (Proc.devRef .tc b) :=
  StableHlo.after_of_writes_sub (W := writes_35) _ _ (by
    simp only [Ops.hostOps0_35, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 35 on. -/
noncomputable def writtenFrom_35 : List (Ref sig .tc) := writes_35 ++ writtenFrom_36
theorem toEnd_35 (c : Dev nD) (b : Ref sig .tc) (hb : b ∉ writtenFrom_35) :
    R35 m' c (Proc.devRef .tc b) = R43 m' c (Proc.devRef .tc b) :=
  (step_35 m' c b fun h => hb (List.mem_append_left _ h)).symm.trans
    (toEnd_36 m' c b fun h => hb (List.mem_append_right _ h))

/-- The buffers operation list 34 writes: the result of each of its 16 operations, in order. -/
noncomputable def writes_34 : List (Ref sig .tc) :=
  [
    main_v327, main_v328, main_v329, main_cst_51, main_v330, main_v331, main_v332, main_v333, main_v334, main_v335,
    main_v336, main_v337, main_v338, main_v339, main_v340, main_v341 ]
/-- A buffer that operation list 34 does not write holds after the list what it held before it. -/
theorem step_34 (c : Dev nD) (b : Ref sig .tc) (hb : b ∉ writes_34) :
    R35 m' c (Proc.devRef .tc b) = R34 m' c (Proc.devRef .tc b) :=
  StableHlo.after_of_writes_sub (W := writes_34) _ _ (by
    simp only [Ops.hostOps0_34, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 34 on. -/
noncomputable def writtenFrom_34 : List (Ref sig .tc) := writes_34 ++ writtenFrom_35
theorem toEnd_34 (c : Dev nD) (b : Ref sig .tc) (hb : b ∉ writtenFrom_34) :
    R34 m' c (Proc.devRef .tc b) = R43 m' c (Proc.devRef .tc b) :=
  (step_34 m' c b fun h => hb (List.mem_append_left _ h)).symm.trans
    (toEnd_35 m' c b fun h => hb (List.mem_append_right _ h))

/-- The buffers operation list 33 writes: the result of each of its 22 operations, in order. -/
noncomputable def writes_33 : List (Ref sig .tc) :=
  [
    main_call16_cst, main_call16_v0, main_call16_v1, main_call16_cst_0, main_call16_v2, main_call16_v3,
    main_call16_v4, main_call16_v5, main_call16_v6, main_call16_v7, main_call16_cst_1, main_call16_v8,
    main_call16_cst_2, main_call16_v9, main_call16_v10, main_call16_v11, main_call16_cst_3, main_call16_v12,
    main_call16_cst_4, main_call16_call0_v0, main_call16_call0_v1, main_v326 ]
/-- A buffer that operation list 33 does not write holds after the list what it held before it. -/
theorem step_33 (c : Dev nD) (b : Ref sig .tc) (hb : b ∉ writes_33) :
    R34 m' c (Proc.devRef .tc b) = R33 m' c (Proc.devRef .tc b) :=
  StableHlo.after_of_writes_sub (W := writes_33) _ _ (by
    simp only [Ops.hostOps0_33, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 33 on. -/
noncomputable def writtenFrom_33 : List (Ref sig .tc) := writes_33 ++ writtenFrom_34
theorem toEnd_33 (c : Dev nD) (b : Ref sig .tc) (hb : b ∉ writtenFrom_33) :
    R33 m' c (Proc.devRef .tc b) = R43 m' c (Proc.devRef .tc b) :=
  (step_33 m' c b fun h => hb (List.mem_append_left _ h)).symm.trans
    (toEnd_34 m' c b fun h => hb (List.mem_append_right _ h))

/-- The buffers operation list 32 writes: the result of each of its 29 operations, in order. -/
noncomputable def writes_32 : List (Ref sig .tc) :=
  [
    main_cst_46, main_v302, main_v303, main_v304, main_v305, main_v306, main_cst_47, main_v307, main_v308, main_v309,
    main_v310, main_v311, main_v312, main_v313, main_v314, main_v315, main_v316, main_v317, main_v318, main_v319,
    main_v320, main_v321, main_v322, main_cst_48, main_v323, main_cst_49, main_v324, main_v325, main_c_50 ]
/-- A buffer that operation list 32 does not write holds after the list what it held before it. -/
theorem step_32 (c : Dev nD) (b : Ref sig .tc) (hb : b ∉ writes_32) :
    R33 m' c (Proc.devRef .tc b) = R32 m' c (Proc.devRef .tc b) :=
  StableHlo.after_of_writes_sub (W := writes_32) _ _ (by
    simp only [Ops.hostOps0_32, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 32 on. -/
noncomputable def writtenFrom_32 : List (Ref sig .tc) := writes_32 ++ writtenFrom_33
theorem toEnd_32 (c : Dev nD) (b : Ref sig .tc) (hb : b ∉ writtenFrom_32) :
    R32 m' c (Proc.devRef .tc b) = R43 m' c (Proc.devRef .tc b) :=
  (step_32 m' c b fun h => hb (List.mem_append_left _ h)).symm.trans
    (toEnd_33 m' c b fun h => hb (List.mem_append_right _ h))

/-- The buffers operation list 31 writes: the result of each of its 3 operations, in order. -/
noncomputable def writes_31 : List (Ref sig .tc) :=
  [
    main_call15_cst, main_call15_v0, main_v301 ]
/-- A buffer that operation list 31 does not write holds after the list what it held before it. -/
theorem step_31 (c : Dev nD) (b : Ref sig .tc) (hb : b ∉ writes_31) :
    R32 m' c (Proc.devRef .tc b) = R31 m' c (Proc.devRef .tc b) :=
  StableHlo.after_of_writes_sub (W := writes_31) _ _ (by
    simp only [Ops.hostOps0_31, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 31 on. -/
noncomputable def writtenFrom_31 : List (Ref sig .tc) := writes_31 ++ writtenFrom_32
theorem toEnd_31 (c : Dev nD) (b : Ref sig .tc) (hb : b ∉ writtenFrom_31) :
    R31 m' c (Proc.devRef .tc b) = R43 m' c (Proc.devRef .tc b) :=
  (step_31 m' c b fun h => hb (List.mem_append_left _ h)).symm.trans
    (toEnd_32 m' c b fun h => hb (List.mem_append_right _ h))

/-- The buffers operation list 30 writes: the result of each of its 21 operations, in order. -/
noncomputable def writes_30 : List (Ref sig .tc) :=
  [
    main_c_42, main_v284, main_v285, main_c_43, main_v286, main_v287, main_v288, main_v289, main_v290, main_v291,
    main_v292, main_c_44, main_v293, main_v294, main_c_45, main_v295, main_v296, main_v297, main_v298, main_v299,
    main_v300 ]
/-- A buffer that operation list 30 does not write holds after the list what it held before it. -/
theorem step_30 (c : Dev nD) (b : Ref sig .tc) (hb : b ∉ writes_30) :
    R31 m' c (Proc.devRef .tc b) = R30 m' c (Proc.devRef .tc b) :=
  StableHlo.after_of_writes_sub (W := writes_30) _ _ (by
    simp only [Ops.hostOps0_30, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 30 on. -/
noncomputable def writtenFrom_30 : List (Ref sig .tc) := writes_30 ++ writtenFrom_31
theorem toEnd_30 (c : Dev nD) (b : Ref sig .tc) (hb : b ∉ writtenFrom_30) :
    R30 m' c (Proc.devRef .tc b) = R43 m' c (Proc.devRef .tc b) :=
  (step_30 m' c b fun h => hb (List.mem_append_left _ h)).symm.trans
    (toEnd_31 m' c b fun h => hb (List.mem_append_right _ h))

/-- The buffers operation list 29 writes: the result of each of its 3 operations, in order. -/
noncomputable def writes_29 : List (Ref sig .tc) :=
  [
    main_call14_cst, main_call14_v0, main_v283 ]
/-- A buffer that operation list 29 does not write holds after the list what it held before it. -/
theorem step_29 (c : Dev nD) (b : Ref sig .tc) (hb : b ∉ writes_29) :
    R30 m' c (Proc.devRef .tc b) = R29 m' c (Proc.devRef .tc b) :=
  StableHlo.after_of_writes_sub (W := writes_29) _ _ (by
    simp only [Ops.hostOps0_29, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 29 on. -/
noncomputable def writtenFrom_29 : List (Ref sig .tc) := writes_29 ++ writtenFrom_30
theorem toEnd_29 (c : Dev nD) (b : Ref sig .tc) (hb : b ∉ writtenFrom_29) :
    R29 m' c (Proc.devRef .tc b) = R43 m' c (Proc.devRef .tc b) :=
  (step_29 m' c b fun h => hb (List.mem_append_left _ h)).symm.trans
    (toEnd_30 m' c b fun h => hb (List.mem_append_right _ h))

/-- The buffers operation list 28 writes: the result of each of its 16 operations, in order. -/
noncomputable def writes_28 : List (Ref sig .tc) :=
  [
    main_v268, main_v269, main_v270, main_cst_41, main_v271, main_v272, main_v273, main_v274, main_v275, main_v276,
    main_v277, main_v278, main_v279, main_v280, main_v281, main_v282 ]
/-- A buffer that operation list 28 does not write holds after the list what it held before it. -/
theorem step_28 (c : Dev nD) (b : Ref sig .tc) (hb : b ∉ writes_28) :
    R29 m' c (Proc.devRef .tc b) = R28 m' c (Proc.devRef .tc b) :=
  StableHlo.after_of_writes_sub (W := writes_28) _ _ (by
    simp only [Ops.hostOps0_28, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 28 on. -/
noncomputable def writtenFrom_28 : List (Ref sig .tc) := writes_28 ++ writtenFrom_29
theorem toEnd_28 (c : Dev nD) (b : Ref sig .tc) (hb : b ∉ writtenFrom_28) :
    R28 m' c (Proc.devRef .tc b) = R43 m' c (Proc.devRef .tc b) :=
  (step_28 m' c b fun h => hb (List.mem_append_left _ h)).symm.trans
    (toEnd_29 m' c b fun h => hb (List.mem_append_right _ h))

/-- The buffers operation list 27 writes: the result of each of its 22 operations, in order. -/
noncomputable def writes_27 : List (Ref sig .tc) :=
  [
    main_call13_cst, main_call13_v0, main_call13_v1, main_call13_cst_0, main_call13_v2, main_call13_v3,
    main_call13_v4, main_call13_v5, main_call13_v6, main_call13_v7, main_call13_cst_1, main_call13_v8,
    main_call13_cst_2, main_call13_v9, main_call13_v10, main_call13_v11, main_call13_cst_3, main_call13_v12,
    main_call13_cst_4, main_call13_call0_v0, main_call13_call0_v1, main_v267 ]
/-- A buffer that operation list 27 does not write holds after the list what it held before it. -/
theorem step_27 (c : Dev nD) (b : Ref sig .tc) (hb : b ∉ writes_27) :
    R28 m' c (Proc.devRef .tc b) = R27 m' c (Proc.devRef .tc b) :=
  StableHlo.after_of_writes_sub (W := writes_27) _ _ (by
    simp only [Ops.hostOps0_27, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 27 on. -/
noncomputable def writtenFrom_27 : List (Ref sig .tc) := writes_27 ++ writtenFrom_28
theorem toEnd_27 (c : Dev nD) (b : Ref sig .tc) (hb : b ∉ writtenFrom_27) :
    R27 m' c (Proc.devRef .tc b) = R43 m' c (Proc.devRef .tc b) :=
  (step_27 m' c b fun h => hb (List.mem_append_left _ h)).symm.trans
    (toEnd_28 m' c b fun h => hb (List.mem_append_right _ h))

/-- The buffers operation list 26 writes: the result of each of its 18 operations, in order. -/
noncomputable def writes_26 : List (Ref sig .tc) :=
  [
    main_v252, main_v253, main_v254, main_v255, main_v256, main_v257, main_v258, main_v259, main_v260, main_v261,
    main_v262, main_v263, main_cst_38, main_v264, main_cst_39, main_v265, main_v266, main_c_40 ]
/-- A buffer that operation list 26 does not write holds after the list what it held before it. -/
theorem step_26 (c : Dev nD) (b : Ref sig .tc) (hb : b ∉ writes_26) :
    R27 m' c (Proc.devRef .tc b) = R26 m' c (Proc.devRef .tc b) :=
  StableHlo.after_of_writes_sub (W := writes_26) _ _ (by
    simp only [Ops.hostOps0_26, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 26 on. -/
noncomputable def writtenFrom_26 : List (Ref sig .tc) := writes_26 ++ writtenFrom_27
theorem toEnd_26 (c : Dev nD) (b : Ref sig .tc) (hb : b ∉ writtenFrom_26) :
    R26 m' c (Proc.devRef .tc b) = R43 m' c (Proc.devRef .tc b) :=
  (step_26 m' c b fun h => hb (List.mem_append_left _ h)).symm.trans
    (toEnd_27 m' c b fun h => hb (List.mem_append_right _ h))

/-- The buffers operation list 25 writes: the result of each of its 3 operations, in order. -/
noncomputable def writes_25 : List (Ref sig .tc) :=
  [
    main_call12_cst, main_call12_v0, main_v251 ]
/-- A buffer that operation list 25 does not write holds after the list what it held before it. -/
theorem step_25 (c : Dev nD) (b : Ref sig .tc) (hb : b ∉ writes_25) :
    R26 m' c (Proc.devRef .tc b) = R25 m' c (Proc.devRef .tc b) :=
  StableHlo.after_of_writes_sub (W := writes_25) _ _ (by
    simp only [Ops.hostOps0_25, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 25 on. -/
noncomputable def writtenFrom_25 : List (Ref sig .tc) := writes_25 ++ writtenFrom_26
theorem toEnd_25 (c : Dev nD) (b : Ref sig .tc) (hb : b ∉ writtenFrom_25) :
    R25 m' c (Proc.devRef .tc b) = R43 m' c (Proc.devRef .tc b) :=
  (step_25 m' c b fun h => hb (List.mem_append_left _ h)).symm.trans
    (toEnd_26 m' c b fun h => hb (List.mem_append_right _ h))

/-- The buffers operation list 24 writes: the result of each of its 16 operations, in order. -/
noncomputable def writes_24 : List (Ref sig .tc) :=
  [
    main_v236, main_v237, main_v238, main_cst_37, main_v239, main_v240, main_v241, main_v242, main_v243, main_v244,
    main_v245, main_v246, main_v247, main_v248, main_v249, main_v250 ]
/-- A buffer that operation list 24 does not write holds after the list what it held before it. -/
theorem step_24 (c : Dev nD) (b : Ref sig .tc) (hb : b ∉ writes_24) :
    R25 m' c (Proc.devRef .tc b) = R24 m' c (Proc.devRef .tc b) :=
  StableHlo.after_of_writes_sub (W := writes_24) _ _ (by
    simp only [Ops.hostOps0_24, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 24 on. -/
noncomputable def writtenFrom_24 : List (Ref sig .tc) := writes_24 ++ writtenFrom_25
theorem toEnd_24 (c : Dev nD) (b : Ref sig .tc) (hb : b ∉ writtenFrom_24) :
    R24 m' c (Proc.devRef .tc b) = R43 m' c (Proc.devRef .tc b) :=
  (step_24 m' c b fun h => hb (List.mem_append_left _ h)).symm.trans
    (toEnd_25 m' c b fun h => hb (List.mem_append_right _ h))

/-- The buffers operation list 23 writes: the result of each of its 22 operations, in order. -/
noncomputable def writes_23 : List (Ref sig .tc) :=
  [
    main_call11_cst, main_call11_v0, main_call11_v1, main_call11_cst_0, main_call11_v2, main_call11_v3,
    main_call11_v4, main_call11_v5, main_call11_v6, main_call11_v7, main_call11_cst_1, main_call11_v8,
    main_call11_cst_2, main_call11_v9, main_call11_v10, main_call11_v11, main_call11_cst_3, main_call11_v12,
    main_call11_cst_4, main_call11_call0_v0, main_call11_call0_v1, main_v235 ]
/-- A buffer that operation list 23 does not write holds after the list what it held before it. -/
theorem step_23 (c : Dev nD) (b : Ref sig .tc) (hb : b ∉ writes_23) :
    R24 m' c (Proc.devRef .tc b) = R23 m' c (Proc.devRef .tc b) :=
  StableHlo.after_of_writes_sub (W := writes_23) _ _ (by
    simp only [Ops.hostOps0_23, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 23 on. -/
noncomputable def writtenFrom_23 : List (Ref sig .tc) := writes_23 ++ writtenFrom_24
theorem toEnd_23 (c : Dev nD) (b : Ref sig .tc) (hb : b ∉ writtenFrom_23) :
    R23 m' c (Proc.devRef .tc b) = R43 m' c (Proc.devRef .tc b) :=
  (step_23 m' c b fun h => hb (List.mem_append_left _ h)).symm.trans
    (toEnd_24 m' c b fun h => hb (List.mem_append_right _ h))

/-- The buffers operation list 22 writes: the result of each of its 29 operations, in order. -/
noncomputable def writes_22 : List (Ref sig .tc) :=
  [
    main_cst_32, main_v211, main_v212, main_v213, main_v214, main_v215, main_cst_33, main_v216, main_v217, main_v218,
    main_v219, main_v220, main_v221, main_v222, main_v223, main_v224, main_v225, main_v226, main_v227, main_v228,
    main_v229, main_v230, main_v231, main_cst_34, main_v232, main_cst_35, main_v233, main_v234, main_c_36 ]
/-- A buffer that operation list 22 does not write holds after the list what it held before it. -/
theorem step_22 (c : Dev nD) (b : Ref sig .tc) (hb : b ∉ writes_22) :
    R23 m' c (Proc.devRef .tc b) = R22 m' c (Proc.devRef .tc b) :=
  StableHlo.after_of_writes_sub (W := writes_22) _ _ (by
    simp only [Ops.hostOps0_22, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 22 on. -/
noncomputable def writtenFrom_22 : List (Ref sig .tc) := writes_22 ++ writtenFrom_23
theorem toEnd_22 (c : Dev nD) (b : Ref sig .tc) (hb : b ∉ writtenFrom_22) :
    R22 m' c (Proc.devRef .tc b) = R43 m' c (Proc.devRef .tc b) :=
  (step_22 m' c b fun h => hb (List.mem_append_left _ h)).symm.trans
    (toEnd_23 m' c b fun h => hb (List.mem_append_right _ h))

/-- The buffers operation list 21 writes: the result of each of its 3 operations, in order. -/
noncomputable def writes_21 : List (Ref sig .tc) :=
  [
    main_call10_cst, main_call10_v0, main_v210 ]
/-- A buffer that operation list 21 does not write holds after the list what it held before it. -/
theorem step_21 (c : Dev nD) (b : Ref sig .tc) (hb : b ∉ writes_21) :
    R22 m' c (Proc.devRef .tc b) = R21 m' c (Proc.devRef .tc b) :=
  StableHlo.after_of_writes_sub (W := writes_21) _ _ (by
    simp only [Ops.hostOps0_21, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 21 on. -/
noncomputable def writtenFrom_21 : List (Ref sig .tc) := writes_21 ++ writtenFrom_22
theorem toEnd_21 (c : Dev nD) (b : Ref sig .tc) (hb : b ∉ writtenFrom_21) :
    R21 m' c (Proc.devRef .tc b) = R43 m' c (Proc.devRef .tc b) :=
  (step_21 m' c b fun h => hb (List.mem_append_left _ h)).symm.trans
    (toEnd_22 m' c b fun h => hb (List.mem_append_right _ h))

/-- The buffers operation list 20 writes: the result of each of its 21 operations, in order. -/
noncomputable def writes_20 : List (Ref sig .tc) :=
  [
    main_c_28, main_v193, main_v194, main_c_29, main_v195, main_v196, main_v197, main_v198, main_v199, main_v200,
    main_v201, main_c_30, main_v202, main_v203, main_c_31, main_v204, main_v205, main_v206, main_v207, main_v208,
    main_v209 ]
/-- A buffer that operation list 20 does not write holds after the list what it held before it. -/
theorem step_20 (c : Dev nD) (b : Ref sig .tc) (hb : b ∉ writes_20) :
    R21 m' c (Proc.devRef .tc b) = R20 m' c (Proc.devRef .tc b) :=
  StableHlo.after_of_writes_sub (W := writes_20) _ _ (by
    simp only [Ops.hostOps0_20, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 20 on. -/
noncomputable def writtenFrom_20 : List (Ref sig .tc) := writes_20 ++ writtenFrom_21
theorem toEnd_20 (c : Dev nD) (b : Ref sig .tc) (hb : b ∉ writtenFrom_20) :
    R20 m' c (Proc.devRef .tc b) = R43 m' c (Proc.devRef .tc b) :=
  (step_20 m' c b fun h => hb (List.mem_append_left _ h)).symm.trans
    (toEnd_21 m' c b fun h => hb (List.mem_append_right _ h))

/-- The buffers operation list 19 writes: the result of each of its 3 operations, in order. -/
noncomputable def writes_19 : List (Ref sig .tc) :=
  [
    main_call9_cst, main_call9_v0, main_v192 ]
/-- A buffer that operation list 19 does not write holds after the list what it held before it. -/
theorem step_19 (c : Dev nD) (b : Ref sig .tc) (hb : b ∉ writes_19) :
    R20 m' c (Proc.devRef .tc b) = R19 m' c (Proc.devRef .tc b) :=
  StableHlo.after_of_writes_sub (W := writes_19) _ _ (by
    simp only [Ops.hostOps0_19, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 19 on. -/
noncomputable def writtenFrom_19 : List (Ref sig .tc) := writes_19 ++ writtenFrom_20
theorem toEnd_19 (c : Dev nD) (b : Ref sig .tc) (hb : b ∉ writtenFrom_19) :
    R19 m' c (Proc.devRef .tc b) = R43 m' c (Proc.devRef .tc b) :=
  (step_19 m' c b fun h => hb (List.mem_append_left _ h)).symm.trans
    (toEnd_20 m' c b fun h => hb (List.mem_append_right _ h))

/-- The buffers operation list 18 writes: the result of each of its 16 operations, in order. -/
noncomputable def writes_18 : List (Ref sig .tc) :=
  [
    main_v177, main_v178, main_v179, main_cst_27, main_v180, main_v181, main_v182, main_v183, main_v184, main_v185,
    main_v186, main_v187, main_v188, main_v189, main_v190, main_v191 ]
/-- A buffer that operation list 18 does not write holds after the list what it held before it. -/
theorem step_18 (c : Dev nD) (b : Ref sig .tc) (hb : b ∉ writes_18) :
    R19 m' c (Proc.devRef .tc b) = R18 m' c (Proc.devRef .tc b) :=
  StableHlo.after_of_writes_sub (W := writes_18) _ _ (by
    simp only [Ops.hostOps0_18, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 18 on. -/
noncomputable def writtenFrom_18 : List (Ref sig .tc) := writes_18 ++ writtenFrom_19
theorem toEnd_18 (c : Dev nD) (b : Ref sig .tc) (hb : b ∉ writtenFrom_18) :
    R18 m' c (Proc.devRef .tc b) = R43 m' c (Proc.devRef .tc b) :=
  (step_18 m' c b fun h => hb (List.mem_append_left _ h)).symm.trans
    (toEnd_19 m' c b fun h => hb (List.mem_append_right _ h))

/-- The buffers operation list 17 writes: the result of each of its 22 operations, in order. -/
noncomputable def writes_17 : List (Ref sig .tc) :=
  [
    main_call8_cst, main_call8_v0, main_call8_v1, main_call8_cst_0, main_call8_v2, main_call8_v3, main_call8_v4,
    main_call8_v5, main_call8_v6, main_call8_v7, main_call8_cst_1, main_call8_v8, main_call8_cst_2, main_call8_v9,
    main_call8_v10, main_call8_v11, main_call8_cst_3, main_call8_v12, main_call8_cst_4, main_call8_call0_v0,
    main_call8_call0_v1, main_v176 ]
/-- A buffer that operation list 17 does not write holds after the list what it held before it. -/
theorem step_17 (c : Dev nD) (b : Ref sig .tc) (hb : b ∉ writes_17) :
    R18 m' c (Proc.devRef .tc b) = R17 m' c (Proc.devRef .tc b) :=
  StableHlo.after_of_writes_sub (W := writes_17) _ _ (by
    simp only [Ops.hostOps0_17, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 17 on. -/
noncomputable def writtenFrom_17 : List (Ref sig .tc) := writes_17 ++ writtenFrom_18
theorem toEnd_17 (c : Dev nD) (b : Ref sig .tc) (hb : b ∉ writtenFrom_17) :
    R17 m' c (Proc.devRef .tc b) = R43 m' c (Proc.devRef .tc b) :=
  (step_17 m' c b fun h => hb (List.mem_append_left _ h)).symm.trans
    (toEnd_18 m' c b fun h => hb (List.mem_append_right _ h))

/-- The buffers operation list 16 writes: the result of each of its 18 operations, in order. -/
noncomputable def writes_16 : List (Ref sig .tc) :=
  [
    main_v161, main_v162, main_v163, main_v164, main_v165, main_v166, main_v167, main_v168, main_v169, main_v170,
    main_v171, main_v172, main_cst_24, main_v173, main_cst_25, main_v174, main_v175, main_c_26 ]
/-- A buffer that operation list 16 does not write holds after the list what it held before it. -/
theorem step_16 (c : Dev nD) (b : Ref sig .tc) (hb : b ∉ writes_16) :
    R17 m' c (Proc.devRef .tc b) = R16 m' c (Proc.devRef .tc b) :=
  StableHlo.after_of_writes_sub (W := writes_16) _ _ (by
    simp only [Ops.hostOps0_16, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 16 on. -/
noncomputable def writtenFrom_16 : List (Ref sig .tc) := writes_16 ++ writtenFrom_17
theorem toEnd_16 (c : Dev nD) (b : Ref sig .tc) (hb : b ∉ writtenFrom_16) :
    R16 m' c (Proc.devRef .tc b) = R43 m' c (Proc.devRef .tc b) :=
  (step_16 m' c b fun h => hb (List.mem_append_left _ h)).symm.trans
    (toEnd_17 m' c b fun h => hb (List.mem_append_right _ h))

/-- The buffers operation list 15 writes: the result of each of its 3 operations, in order. -/
noncomputable def writes_15 : List (Ref sig .tc) :=
  [
    main_call7_cst, main_call7_v0, main_v160 ]
/-- A buffer that operation list 15 does not write holds after the list what it held before it. -/
theorem step_15 (c : Dev nD) (b : Ref sig .tc) (hb : b ∉ writes_15) :
    R16 m' c (Proc.devRef .tc b) = R15 m' c (Proc.devRef .tc b) :=
  StableHlo.after_of_writes_sub (W := writes_15) _ _ (by
    simp only [Ops.hostOps0_15, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 15 on. -/
noncomputable def writtenFrom_15 : List (Ref sig .tc) := writes_15 ++ writtenFrom_16
theorem toEnd_15 (c : Dev nD) (b : Ref sig .tc) (hb : b ∉ writtenFrom_15) :
    R15 m' c (Proc.devRef .tc b) = R43 m' c (Proc.devRef .tc b) :=
  (step_15 m' c b fun h => hb (List.mem_append_left _ h)).symm.trans
    (toEnd_16 m' c b fun h => hb (List.mem_append_right _ h))

/-- The buffers operation list 14 writes: the result of each of its 16 operations, in order. -/
noncomputable def writes_14 : List (Ref sig .tc) :=
  [
    main_v145, main_v146, main_v147, main_cst_23, main_v148, main_v149, main_v150, main_v151, main_v152, main_v153,
    main_v154, main_v155, main_v156, main_v157, main_v158, main_v159 ]
/-- A buffer that operation list 14 does not write holds after the list what it held before it. -/
theorem step_14 (c : Dev nD) (b : Ref sig .tc) (hb : b ∉ writes_14) :
    R15 m' c (Proc.devRef .tc b) = R14 m' c (Proc.devRef .tc b) :=
  StableHlo.after_of_writes_sub (W := writes_14) _ _ (by
    simp only [Ops.hostOps0_14, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 14 on. -/
noncomputable def writtenFrom_14 : List (Ref sig .tc) := writes_14 ++ writtenFrom_15
theorem toEnd_14 (c : Dev nD) (b : Ref sig .tc) (hb : b ∉ writtenFrom_14) :
    R14 m' c (Proc.devRef .tc b) = R43 m' c (Proc.devRef .tc b) :=
  (step_14 m' c b fun h => hb (List.mem_append_left _ h)).symm.trans
    (toEnd_15 m' c b fun h => hb (List.mem_append_right _ h))

/-- The buffers operation list 13 writes: the result of each of its 22 operations, in order. -/
noncomputable def writes_13 : List (Ref sig .tc) :=
  [
    main_call6_cst, main_call6_v0, main_call6_v1, main_call6_cst_0, main_call6_v2, main_call6_v3, main_call6_v4,
    main_call6_v5, main_call6_v6, main_call6_v7, main_call6_cst_1, main_call6_v8, main_call6_cst_2, main_call6_v9,
    main_call6_v10, main_call6_v11, main_call6_cst_3, main_call6_v12, main_call6_cst_4, main_call6_call0_v0,
    main_call6_call0_v1, main_v144 ]
/-- A buffer that operation list 13 does not write holds after the list what it held before it. -/
theorem step_13 (c : Dev nD) (b : Ref sig .tc) (hb : b ∉ writes_13) :
    R14 m' c (Proc.devRef .tc b) = R13 m' c (Proc.devRef .tc b) :=
  StableHlo.after_of_writes_sub (W := writes_13) _ _ (by
    simp only [Ops.hostOps0_13, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 13 on. -/
noncomputable def writtenFrom_13 : List (Ref sig .tc) := writes_13 ++ writtenFrom_14
theorem toEnd_13 (c : Dev nD) (b : Ref sig .tc) (hb : b ∉ writtenFrom_13) :
    R13 m' c (Proc.devRef .tc b) = R43 m' c (Proc.devRef .tc b) :=
  (step_13 m' c b fun h => hb (List.mem_append_left _ h)).symm.trans
    (toEnd_14 m' c b fun h => hb (List.mem_append_right _ h))

/-- The buffers operation list 12 writes: the result of each of its 29 operations, in order. -/
noncomputable def writes_12 : List (Ref sig .tc) :=
  [
    main_cst_18, main_v120, main_v121, main_v122, main_v123, main_v124, main_cst_19, main_v125, main_v126, main_v127,
    main_v128, main_v129, main_v130, main_v131, main_v132, main_v133, main_v134, main_v135, main_v136, main_v137,
    main_v138, main_v139, main_v140, main_cst_20, main_v141, main_cst_21, main_v142, main_v143, main_c_22 ]
/-- A buffer that operation list 12 does not write holds after the list what it held before it. -/
theorem step_12 (c : Dev nD) (b : Ref sig .tc) (hb : b ∉ writes_12) :
    R13 m' c (Proc.devRef .tc b) = R12 m' c (Proc.devRef .tc b) :=
  StableHlo.after_of_writes_sub (W := writes_12) _ _ (by
    simp only [Ops.hostOps0_12, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 12 on. -/
noncomputable def writtenFrom_12 : List (Ref sig .tc) := writes_12 ++ writtenFrom_13
theorem toEnd_12 (c : Dev nD) (b : Ref sig .tc) (hb : b ∉ writtenFrom_12) :
    R12 m' c (Proc.devRef .tc b) = R43 m' c (Proc.devRef .tc b) :=
  (step_12 m' c b fun h => hb (List.mem_append_left _ h)).symm.trans
    (toEnd_13 m' c b fun h => hb (List.mem_append_right _ h))

/-- The buffers operation list 11 writes: the result of each of its 3 operations, in order. -/
noncomputable def writes_11 : List (Ref sig .tc) :=
  [
    main_call5_cst, main_call5_v0, main_v119 ]
/-- A buffer that operation list 11 does not write holds after the list what it held before it. -/
theorem step_11 (c : Dev nD) (b : Ref sig .tc) (hb : b ∉ writes_11) :
    R12 m' c (Proc.devRef .tc b) = R11 m' c (Proc.devRef .tc b) :=
  StableHlo.after_of_writes_sub (W := writes_11) _ _ (by
    simp only [Ops.hostOps0_11, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 11 on. -/
noncomputable def writtenFrom_11 : List (Ref sig .tc) := writes_11 ++ writtenFrom_12
theorem toEnd_11 (c : Dev nD) (b : Ref sig .tc) (hb : b ∉ writtenFrom_11) :
    R11 m' c (Proc.devRef .tc b) = R43 m' c (Proc.devRef .tc b) :=
  (step_11 m' c b fun h => hb (List.mem_append_left _ h)).symm.trans
    (toEnd_12 m' c b fun h => hb (List.mem_append_right _ h))

/-- The buffers operation list 10 writes: the result of each of its 21 operations, in order. -/
noncomputable def writes_10 : List (Ref sig .tc) :=
  [
    main_c_14, main_v102, main_v103, main_c_15, main_v104, main_v105, main_v106, main_v107, main_v108, main_v109,
    main_v110, main_c_16, main_v111, main_v112, main_c_17, main_v113, main_v114, main_v115, main_v116, main_v117,
    main_v118 ]
/-- A buffer that operation list 10 does not write holds after the list what it held before it. -/
theorem step_10 (c : Dev nD) (b : Ref sig .tc) (hb : b ∉ writes_10) :
    R11 m' c (Proc.devRef .tc b) = R10 m' c (Proc.devRef .tc b) :=
  StableHlo.after_of_writes_sub (W := writes_10) _ _ (by
    simp only [Ops.hostOps0_10, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 10 on. -/
noncomputable def writtenFrom_10 : List (Ref sig .tc) := writes_10 ++ writtenFrom_11
theorem toEnd_10 (c : Dev nD) (b : Ref sig .tc) (hb : b ∉ writtenFrom_10) :
    R10 m' c (Proc.devRef .tc b) = R43 m' c (Proc.devRef .tc b) :=
  (step_10 m' c b fun h => hb (List.mem_append_left _ h)).symm.trans
    (toEnd_11 m' c b fun h => hb (List.mem_append_right _ h))

/-- The buffers operation list 9 writes: the result of each of its 3 operations, in order. -/
noncomputable def writes_9 : List (Ref sig .tc) :=
  [
    main_call4_cst, main_call4_v0, main_v101 ]
/-- A buffer that operation list 9 does not write holds after the list what it held before it. -/
theorem step_9 (c : Dev nD) (b : Ref sig .tc) (hb : b ∉ writes_9) :
    R10 m' c (Proc.devRef .tc b) = R9 m' c (Proc.devRef .tc b) :=
  StableHlo.after_of_writes_sub (W := writes_9) _ _ (by
    simp only [Ops.hostOps0_9, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 9 on. -/
noncomputable def writtenFrom_9 : List (Ref sig .tc) := writes_9 ++ writtenFrom_10
theorem toEnd_9 (c : Dev nD) (b : Ref sig .tc) (hb : b ∉ writtenFrom_9) :
    R9 m' c (Proc.devRef .tc b) = R43 m' c (Proc.devRef .tc b) :=
  (step_9 m' c b fun h => hb (List.mem_append_left _ h)).symm.trans
    (toEnd_10 m' c b fun h => hb (List.mem_append_right _ h))

/-- The buffers operation list 8 writes: the result of each of its 16 operations, in order. -/
noncomputable def writes_8 : List (Ref sig .tc) :=
  [
    main_v86, main_v87, main_v88, main_cst_13, main_v89, main_v90, main_v91, main_v92, main_v93, main_v94, main_v95,
    main_v96, main_v97, main_v98, main_v99, main_v100 ]
/-- A buffer that operation list 8 does not write holds after the list what it held before it. -/
theorem step_8 (c : Dev nD) (b : Ref sig .tc) (hb : b ∉ writes_8) :
    R9 m' c (Proc.devRef .tc b) = R8 m' c (Proc.devRef .tc b) :=
  StableHlo.after_of_writes_sub (W := writes_8) _ _ (by
    simp only [Ops.hostOps0_8, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 8 on. -/
noncomputable def writtenFrom_8 : List (Ref sig .tc) := writes_8 ++ writtenFrom_9
theorem toEnd_8 (c : Dev nD) (b : Ref sig .tc) (hb : b ∉ writtenFrom_8) :
    R8 m' c (Proc.devRef .tc b) = R43 m' c (Proc.devRef .tc b) :=
  (step_8 m' c b fun h => hb (List.mem_append_left _ h)).symm.trans
    (toEnd_9 m' c b fun h => hb (List.mem_append_right _ h))

/-- The buffers operation list 7 writes: the result of each of its 22 operations, in order. -/
noncomputable def writes_7 : List (Ref sig .tc) :=
  [
    main_call3_cst, main_call3_v0, main_call3_v1, main_call3_cst_0, main_call3_v2, main_call3_v3, main_call3_v4,
    main_call3_v5, main_call3_v6, main_call3_v7, main_call3_cst_1, main_call3_v8, main_call3_cst_2, main_call3_v9,
    main_call3_v10, main_call3_v11, main_call3_cst_3, main_call3_v12, main_call3_cst_4, main_call3_call0_v0,
    main_call3_call0_v1, main_v85 ]
/-- A buffer that operation list 7 does not write holds after the list what it held before it. -/
theorem step_7 (c : Dev nD) (b : Ref sig .tc) (hb : b ∉ writes_7) :
    R8 m' c (Proc.devRef .tc b) = R7 m' c (Proc.devRef .tc b) :=
  StableHlo.after_of_writes_sub (W := writes_7) _ _ (by
    simp only [Ops.hostOps0_7, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 7 on. -/
noncomputable def writtenFrom_7 : List (Ref sig .tc) := writes_7 ++ writtenFrom_8
theorem toEnd_7 (c : Dev nD) (b : Ref sig .tc) (hb : b ∉ writtenFrom_7) :
    R7 m' c (Proc.devRef .tc b) = R43 m' c (Proc.devRef .tc b) :=
  (step_7 m' c b fun h => hb (List.mem_append_left _ h)).symm.trans
    (toEnd_8 m' c b fun h => hb (List.mem_append_right _ h))

/-- The buffers operation list 6 writes: the result of each of its 18 operations, in order. -/
noncomputable def writes_6 : List (Ref sig .tc) :=
  [
    main_v70, main_v71, main_v72, main_v73, main_v74, main_v75, main_v76, main_v77, main_v78, main_v79, main_v80,
    main_v81, main_cst_10, main_v82, main_cst_11, main_v83, main_v84, main_c_12 ]
/-- A buffer that operation list 6 does not write holds after the list what it held before it. -/
theorem step_6 (c : Dev nD) (b : Ref sig .tc) (hb : b ∉ writes_6) :
    R7 m' c (Proc.devRef .tc b) = R6 m' c (Proc.devRef .tc b) :=
  StableHlo.after_of_writes_sub (W := writes_6) _ _ (by
    simp only [Ops.hostOps0_6, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 6 on. -/
noncomputable def writtenFrom_6 : List (Ref sig .tc) := writes_6 ++ writtenFrom_7
theorem toEnd_6 (c : Dev nD) (b : Ref sig .tc) (hb : b ∉ writtenFrom_6) :
    R6 m' c (Proc.devRef .tc b) = R43 m' c (Proc.devRef .tc b) :=
  (step_6 m' c b fun h => hb (List.mem_append_left _ h)).symm.trans
    (toEnd_7 m' c b fun h => hb (List.mem_append_right _ h))

/-- The buffers operation list 5 writes: the result of each of its 3 operations, in order. -/
noncomputable def writes_5 : List (Ref sig .tc) :=
  [
    main_call2_cst, main_call2_v0, main_v69 ]
/-- A buffer that operation list 5 does not write holds after the list what it held before it. -/
theorem step_5 (c : Dev nD) (b : Ref sig .tc) (hb : b ∉ writes_5) :
    R6 m' c (Proc.devRef .tc b) = R5 m' c (Proc.devRef .tc b) :=
  StableHlo.after_of_writes_sub (W := writes_5) _ _ (by
    simp only [Ops.hostOps0_5, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 5 on. -/
noncomputable def writtenFrom_5 : List (Ref sig .tc) := writes_5 ++ writtenFrom_6
theorem toEnd_5 (c : Dev nD) (b : Ref sig .tc) (hb : b ∉ writtenFrom_5) :
    R5 m' c (Proc.devRef .tc b) = R43 m' c (Proc.devRef .tc b) :=
  (step_5 m' c b fun h => hb (List.mem_append_left _ h)).symm.trans
    (toEnd_6 m' c b fun h => hb (List.mem_append_right _ h))

/-- The buffers operation list 4 writes: the result of each of its 16 operations, in order. -/
noncomputable def writes_4 : List (Ref sig .tc) :=
  [
    main_v54, main_v55, main_v56, main_cst_9, main_v57, main_v58, main_v59, main_v60, main_v61, main_v62, main_v63,
    main_v64, main_v65, main_v66, main_v67, main_v68 ]
/-- A buffer that operation list 4 does not write holds after the list what it held before it. -/
theorem step_4 (c : Dev nD) (b : Ref sig .tc) (hb : b ∉ writes_4) :
    R5 m' c (Proc.devRef .tc b) = R4 m' c (Proc.devRef .tc b) :=
  StableHlo.after_of_writes_sub (W := writes_4) _ _ (by
    simp only [Ops.hostOps0_4, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 4 on. -/
noncomputable def writtenFrom_4 : List (Ref sig .tc) := writes_4 ++ writtenFrom_5
theorem toEnd_4 (c : Dev nD) (b : Ref sig .tc) (hb : b ∉ writtenFrom_4) :
    R4 m' c (Proc.devRef .tc b) = R43 m' c (Proc.devRef .tc b) :=
  (step_4 m' c b fun h => hb (List.mem_append_left _ h)).symm.trans
    (toEnd_5 m' c b fun h => hb (List.mem_append_right _ h))

/-- The buffers operation list 3 writes: the result of each of its 22 operations, in order. -/
noncomputable def writes_3 : List (Ref sig .tc) :=
  [
    main_call1_cst, main_call1_v0, main_call1_v1, main_call1_cst_0, main_call1_v2, main_call1_v3, main_call1_v4,
    main_call1_v5, main_call1_v6, main_call1_v7, main_call1_cst_1, main_call1_v8, main_call1_cst_2, main_call1_v9,
    main_call1_v10, main_call1_v11, main_call1_cst_3, main_call1_v12, main_call1_cst_4, main_call1_call0_v0,
    main_call1_call0_v1, main_v53 ]
/-- A buffer that operation list 3 does not write holds after the list what it held before it. -/
theorem step_3 (c : Dev nD) (b : Ref sig .tc) (hb : b ∉ writes_3) :
    R4 m' c (Proc.devRef .tc b) = R3 m' c (Proc.devRef .tc b) :=
  StableHlo.after_of_writes_sub (W := writes_3) _ _ (by
    simp only [Ops.hostOps0_3, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 3 on. -/
noncomputable def writtenFrom_3 : List (Ref sig .tc) := writes_3 ++ writtenFrom_4
theorem toEnd_3 (c : Dev nD) (b : Ref sig .tc) (hb : b ∉ writtenFrom_3) :
    R3 m' c (Proc.devRef .tc b) = R43 m' c (Proc.devRef .tc b) :=
  (step_3 m' c b fun h => hb (List.mem_append_left _ h)).symm.trans
    (toEnd_4 m' c b fun h => hb (List.mem_append_right _ h))

/-- The buffers operation list 2 writes: the result of each of its 29 operations, in order. -/
noncomputable def writes_2 : List (Ref sig .tc) :=
  [
    main_cst, main_v29, main_v30, main_v31, main_v32, main_v33, main_cst_5, main_v34, main_v35, main_v36, main_v37,
    main_v38, main_v39, main_v40, main_v41, main_v42, main_v43, main_v44, main_v45, main_v46, main_v47, main_v48,
    main_v49, main_cst_6, main_v50, main_cst_7, main_v51, main_v52, main_c_8 ]
/-- A buffer that operation list 2 does not write holds after the list what it held before it. -/
theorem step_2 (c : Dev nD) (b : Ref sig .tc) (hb : b ∉ writes_2) :
    R3 m' c (Proc.devRef .tc b) = R2 m' c (Proc.devRef .tc b) :=
  StableHlo.after_of_writes_sub (W := writes_2) _ _ (by
    simp only [Ops.hostOps0_2, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 2 on. -/
noncomputable def writtenFrom_2 : List (Ref sig .tc) := writes_2 ++ writtenFrom_3
theorem toEnd_2 (c : Dev nD) (b : Ref sig .tc) (hb : b ∉ writtenFrom_2) :
    R2 m' c (Proc.devRef .tc b) = R43 m' c (Proc.devRef .tc b) :=
  (step_2 m' c b fun h => hb (List.mem_append_left _ h)).symm.trans
    (toEnd_3 m' c b fun h => hb (List.mem_append_right _ h))

/-- The buffers operation list 1 writes: the result of each of its 3 operations, in order. -/
noncomputable def writes_1 : List (Ref sig .tc) :=
  [
    main_call0_cst, main_call0_v0, main_v28 ]
/-- A buffer that operation list 1 does not write holds after the list what it held before it. -/
theorem step_1 (c : Dev nD) (b : Ref sig .tc) (hb : b ∉ writes_1) :
    R2 m' c (Proc.devRef .tc b) = R1 m' c (Proc.devRef .tc b) :=
  StableHlo.after_of_writes_sub (W := writes_1) _ _ (by
    simp only [Ops.hostOps0_1, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 1 on. -/
noncomputable def writtenFrom_1 : List (Ref sig .tc) := writes_1 ++ writtenFrom_2
theorem toEnd_1 (c : Dev nD) (b : Ref sig .tc) (hb : b ∉ writtenFrom_1) :
    R1 m' c (Proc.devRef .tc b) = R43 m' c (Proc.devRef .tc b) :=
  (step_1 m' c b fun h => hb (List.mem_append_left _ h)).symm.trans
    (toEnd_2 m' c b fun h => hb (List.mem_append_right _ h))

/-- The buffers operation list 0 writes: the result of each of its 34 operations, in order. -/
noncomputable def writes_0 : List (Ref sig .tc) :=
  [
    main_v0, main_v1, main_v2, main_v3, main_c, main_v4, main_v5, main_c_0, main_v6, main_v7, main_v8, main_v9,
    main_v10, main_c_1, main_v11, main_v12, main_c_2, main_v13, main_v14, main_v15, main_v16, main_v17, main_v18,
    main_v19, main_c_3, main_v20, main_v21, main_c_4, main_v22, main_v23, main_v24, main_v25, main_v26, main_v27 ]
/-- A buffer that operation list 0 does not write holds after the list what it held before it. -/
theorem step_0 (c : Dev nD) (b : Ref sig .tc) (hb : b ∉ writes_0) :
    R1 m' c (Proc.devRef .tc b) = R0 m' c (Proc.devRef .tc b) :=
  StableHlo.after_of_writes_sub (W := writes_0) _ _ (by
    simp only [Ops.hostOps0, List.Forall, StableHlo.nullary_writes, StableHlo.unary_writes, StableHlo.binary_writes,
      StableHlo.ternary_writes, StableHlo.quaternary_writes, StableHlo.reshape_writes]
    repeat' apply And.intro
    all_goals exact single_sub_of_mem (by decide)) hb

/-- The buffers written from boundary 0 on. -/
noncomputable def writtenFrom_0 : List (Ref sig .tc) := writes_0 ++ writtenFrom_1
theorem toEnd_0 (c : Dev nD) (b : Ref sig .tc) (hb : b ∉ writtenFrom_0) :
    R0 m' c (Proc.devRef .tc b) = R43 m' c (Proc.devRef .tc b) :=
  (step_0 m' c b fun h => hb (List.mem_append_left _ h)).symm.trans
    (toEnd_1 m' c b fun h => hb (List.mem_append_right _ h))

/-! ### The arguments end as launched: no operation list writes one -/

theorem arg_kept_0 (c : Dev nD) :
    R43 m' c (Proc.devRef .tc main_arg0) = m' ((c.tc : Thread nD τ).loc main_arg0) :=
  (toEnd_0 m' c main_arg0 (by decide)).symm

theorem arg_kept_1 (c : Dev nD) :
    R43 m' c (Proc.devRef .tc main_arg1) = m' ((c.tc : Thread nD τ).loc main_arg1) :=
  (toEnd_0 m' c main_arg1 (by decide)).symm

theorem arg_kept_2 (c : Dev nD) :
    R43 m' c (Proc.devRef .tc main_arg2) = m' ((c.tc : Thread nD τ).loc main_arg2) :=
  (toEnd_0 m' c main_arg2 (by decide)).symm

theorem arg_kept_3 (c : Dev nD) :
    R43 m' c (Proc.devRef .tc main_arg3) = m' ((c.tc : Thread nD τ).loc main_arg3) :=
  (toEnd_0 m' c main_arg3 (by decide)).symm

theorem arg_kept_4 (c : Dev nD) :
    R43 m' c (Proc.devRef .tc main_arg4) = m' ((c.tc : Thread nD τ).loc main_arg4) :=
  (toEnd_0 m' c main_arg4 (by decide)).symm

theorem arg_kept_5 (c : Dev nD) :
    R43 m' c (Proc.devRef .tc main_arg5) = m' ((c.tc : Thread nD τ).loc main_arg5) :=
  (toEnd_0 m' c main_arg5 (by decide)).symm

theorem arg_kept_6 (c : Dev nD) :
    R43 m' c (Proc.devRef .tc main_arg6) = m' ((c.tc : Thread nD τ).loc main_arg6) :=
  (toEnd_0 m' c main_arg6 (by decide)).symm

theorem arg_kept_7 (c : Dev nD) :
    R43 m' c (Proc.devRef .tc main_arg7) = m' ((c.tc : Thread nD τ).loc main_arg7) :=
  (toEnd_0 m' c main_arg7 (by decide)).symm

theorem arg_kept_8 (c : Dev nD) :
    R43 m' c (Proc.devRef .tc main_arg8) = m' ((c.tc : Thread nD τ).loc main_arg8) :=
  (toEnd_0 m' c main_arg8 (by decide)).symm

theorem arg_kept_9 (c : Dev nD) :
    R43 m' c (Proc.devRef .tc main_arg9) = m' ((c.tc : Thread nD τ).loc main_arg9) :=
  (toEnd_0 m' c main_arg9 (by decide)).symm

theorem arg_kept_10 (c : Dev nD) :
    R43 m' c (Proc.devRef .tc main_arg10) = m' ((c.tc : Thread nD τ).loc main_arg10) :=
  (toEnd_0 m' c main_arg10 (by decide)).symm

theorem arg_kept_11 (c : Dev nD) :
    R43 m' c (Proc.devRef .tc main_arg11) = m' ((c.tc : Thread nD τ).loc main_arg11) :=
  (toEnd_0 m' c main_arg11 (by decide)).symm

theorem arg_kept_12 (c : Dev nD) :
    R43 m' c (Proc.devRef .tc main_arg12) = m' ((c.tc : Thread nD τ).loc main_arg12) :=
  (toEnd_0 m' c main_arg12 (by decide)).symm

theorem arg_kept_13 (c : Dev nD) :
    R43 m' c (Proc.devRef .tc main_arg13) = m' ((c.tc : Thread nD τ).loc main_arg13) :=
  (toEnd_0 m' c main_arg13 (by decide)).symm

theorem arg_kept_14 (c : Dev nD) :
    R43 m' c (Proc.devRef .tc main_arg14) = m' ((c.tc : Thread nD τ).loc main_arg14) :=
  (toEnd_0 m' c main_arg14 (by decide)).symm

theorem arg_kept_15 (c : Dev nD) :
    R43 m' c (Proc.devRef .tc main_arg15) = m' ((c.tc : Thread nD τ).loc main_arg15) :=
  (toEnd_0 m' c main_arg15 (by decide)).symm

theorem arg_kept_16 (c : Dev nD) :
    R43 m' c (Proc.devRef .tc main_arg16) = m' ((c.tc : Thread nD τ).loc main_arg16) :=
  (toEnd_0 m' c main_arg16 (by decide)).symm

theorem arg_kept_17 (c : Dev nD) :
    R43 m' c (Proc.devRef .tc main_arg17) = m' ((c.tc : Thread nD τ).loc main_arg17) :=
  (toEnd_0 m' c main_arg17 (by decide)).symm

theorem arg_kept_18 (c : Dev nD) :
    R43 m' c (Proc.devRef .tc main_arg18) = m' ((c.tc : Thread nD τ).loc main_arg18) :=
  (toEnd_0 m' c main_arg18 (by decide)).symm

end Cert.ReferenceIdeal.Keep

end
-- ==== Proof.PreRanges.lean ====
/- The index ranges read off the precondition.
   The precondition is a printed predicate over the argument arrays whose one word is stated to be 1. It is a
   conjunction (a chain of one-bit `and`s) whose last three conjuncts are, for the node-feature indices, for row 0 of
   the edge-index array and for the edge attributes, an `and`-reduction over all positions of
   "value ≥ lo ∧ value < hi" (signed compares against broadcast constants). A chain of `and`s that is 1 has every
   conjunct 1; an `and`-reduction that is 1 has every element 1; a signed compare that is 1 is the order of the two
   words read as integers. Row 0 of the [2, 1600000] array enters the predicate as a [1, 1600000] slice at offset
   (0, 0) flattened to [1600000]: position q of it is the array at (0, q). -/
import proofs.«417278_j53197464928922_1_alg».proof.Proof.Setup
import proofs.«417278_j53197464928922_1_alg».proof.Defs
import proofs.«417278_j53197464928922_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Bridge.PreDecode

open Idealize.ShloMosaic Idealize.ShloMosaic.ValueIdx
open Cert.Pre_finite_inputs Cert.Pre_finite_inputs.Facts

/-- The scalar shape has one index. -/
local instance : Subsingleton S_.Idx := ⟨fun a b => funext fun d => d.elim0⟩

/-- The four bounds, read as integers. -/
theorem lit0 : (0#32 : BitVec 32).toInt = 0 := by decide
theorem lit4 : (4#32 : BitVec 32).toInt = 4 := by decide
theorem lit21 : (21#32 : BitVec 32).toInt = 21 := by decide
theorem lit100000 : (100000#32 : BitVec 32).toInt = 100000 := by decide

/-- The last part of the predicate: if its word is 1 then the conjunct carried into it is 1, every element of the carried
    lower-bound mask is 1 and the flattened row is below 100000 everywhere, and every edge attribute lies in [0, 4). -/
theorem part5_dec (a2 : IVec S1600000 32) (v80 : IVec S_ 1) (v84 : IVec S1600000 1) (v85 : IVec S1x1600000 32)
    (h : fn_part5 (F := Ideal) a2 v80 v84 v85 ix0 = 1#1) :
    v80 ix0 = 1#1
      ∧ (∀ i : S1600000.Idx, v84 i = 1#1 ∧ (shapeCast S1600000 v85 shapeCasts_S1x1600000_S1600000 i).toInt < 100000)
      ∧ (∀ i : S1600000.Idx, 0 ≤ (a2 i).toInt ∧ (a2 i).toInt < 4) := by
  unfold fn_part5 at h
  obtain ⟨h91, h97⟩ := IntOp.andi_eq_one.1 h
  obtain ⟨h80, h90⟩ := IntOp.andi_eq_one.1 h91
  refine ⟨h80, fun i => ?_, fun i => ?_⟩
  · obtain ⟨h84, h88⟩ := IntOp.andi_eq_one.1 (Host.reduce_andi_all _ _ _ _ _ h90 i)
    refine ⟨h84, ?_⟩
    have e : IntOp.cmpi .slt (shapeCast S1600000 v85 shapeCasts_S1x1600000_S1600000 i) (100000#32) = 1#1 := h88
    rw [IntOp.cmpi_slt, lit100000] at e
    exact e
  · obtain ⟨h93, h95⟩ := IntOp.andi_eq_one.1 (Host.reduce_andi_all _ _ _ _ _ h97 i)
    have e0 : IntOp.cmpi .sge (a2 i) (0#32) = 1#1 := h93
    have e4 : IntOp.cmpi .slt (a2 i) (4#32) = 1#1 := h95
    rw [IntOp.cmpi_sge, lit0] at e0
    rw [IntOp.cmpi_slt, lit4] at e4
    exact ⟨e0, e4⟩

/-- Row 0 of the [2, 1600000] array, sliced out at offset (0, 0) and flattened, read at position q is the array at (0, q):
    both have row-major position q in the [1, 1600000] slice, and the slice adds the offset 0 on each axis. -/
theorem row0_read (a1 : IVec S2x1600000 32) (q : Fin 1600000) :
    shapeCast S1600000 (extractStridedSlice S1x1600000 ![0, 0] a1 slices_S2x1600000_S1x1600000_0_0) shapeCasts_S1x1600000_S1600000 (ix1 q)
      = a1 (ix2 (0 : Fin 2) q) := by
  refine (shapeCast_apply _ shapeCasts_S1x1600000_S1600000 (ix1 q) (ix2 (0 : Fin 1) q) ?_).trans ?_
  · rw [Shape.rowMajor_val_two, Shape.rowMajor_val_one]
    show (0 : Nat) * 1600000 + q.val = q.val
    omega
  · refine extractStridedSlice_apply _ a1 slices_S2x1600000_S1x1600000_0_0 (ix2 (0 : Fin 1) q) (ix2 (0 : Fin 2) q) fun a => ?_
    match a with
    | ⟨0, _⟩ => rfl
    | ⟨1, _⟩ => show q.val = 0 + q.val; omega

/-- The fourth part: the three index ranges. -/
theorem part4_dec (a0 : IVec S100000 32) (a1 : IVec S2x1600000 32) (a2 : IVec S1600000 32) (a18 : FVec Ideal S1 .f32)
    (v63 v67 : IVec S_ 1) (h : fn_part4 (F := Ideal) a0 a1 a2 a18 v63 v67 ix0 = 1#1) :
    (∀ i : S100000.Idx, 0 ≤ (a0 i).toInt ∧ (a0 i).toInt < 21)
      ∧ (∀ q : Fin 1600000, 0 ≤ (a1 (ix2 (0 : Fin 2) q)).toInt ∧ (a1 (ix2 (0 : Fin 2) q)).toInt < 100000)
      ∧ (∀ i : S1600000.Idx, 0 ≤ (a2 i).toInt ∧ (a2 i).toInt < 4) := by
  dsimp only [fn_part4] at h
  obtain ⟨h80, hsrc, hattr⟩ := part5_dec _ _ _ _ h
  obtain ⟨-, h79⟩ := IntOp.andi_eq_one.1 h80
  refine ⟨fun i => ?_, fun q => ?_, hattr⟩
  · obtain ⟨h75, h77⟩ := IntOp.andi_eq_one.1 (Host.reduce_andi_all _ _ _ _ _ h79 i)
    have e0 : IntOp.cmpi .sge (a0 i) (0#32) = 1#1 := h75
    have e21 : IntOp.cmpi .slt (a0 i) (21#32) = 1#1 := h77
    rw [IntOp.cmpi_sge, lit0] at e0
    rw [IntOp.cmpi_slt, lit21] at e21
    exact ⟨e0, e21⟩
  · obtain ⟨h84, h88⟩ := hsrc (ix1 q)
    have e0 : IntOp.cmpi .sge
        (shapeCast S1600000 (extractStridedSlice S1x1600000 ![0, 0] a1 slices_S2x1600000_S1x1600000_0_0) shapeCasts_S1x1600000_S1600000 (ix1 q))
        (0#32) = 1#1 := h84
    rw [row0_read] at e0 h88
    rw [IntOp.cmpi_sge, lit0] at e0
    exact ⟨e0, h88⟩

/-- The whole predicate decoded: the first three parts only carry their conjunct into the fourth. -/
theorem fn_dec (a0 : IVec S100000 32) (a1 : IVec S2x1600000 32) (a2 : IVec S1600000 32) (a3 : IVec S100000 32)
    (a4 : FVec Ideal S21x64 .f32) (a5 : FVec Ideal S4x4x64 .f32) (a6 : FVec Ideal S4 .f32) (a7 : FVec Ideal S4x64x64 .f32)
    (a8 a9 a10 : FVec Ideal S4x64 .f32) (a11 : FVec Ideal S4x64x64 .f32) (a12 a13 a14 : FVec Ideal S4x64 .f32)
    (a15 : FVec Ideal S64x128 .f32) (a16 : FVec Ideal S128 .f32) (a17 : FVec Ideal S128x1 .f32) (a18 : FVec Ideal S1 .f32)
    (h : fn (F := Ideal) a0 a1 a2 a3 a4 a5 a6 a7 a8 a9 a10 a11 a12 a13 a14 a15 a16 a17 a18 = fun _ => 1#1) :
    (∀ i : S100000.Idx, 0 ≤ (a0 i).toInt ∧ (a0 i).toInt < 21)
      ∧ (∀ q : Fin 1600000, 0 ≤ (a1 (ix2 (0 : Fin 2) q)).toInt ∧ (a1 (ix2 (0 : Fin 2) q)).toInt < 100000)
      ∧ (∀ i : S1600000.Idx, 0 ≤ (a2 i).toInt ∧ (a2 i).toInt < 4) := by
  have e := congrFun h ix0
  dsimp only [fn, fn_part1, fn_part2, fn_part3] at e
  exact part4_dec _ _ _ _ _ _ e

end Cert.Bridge.PreDecode

namespace Cert.Bridge

open Idealize.ShloMosaic Idealize.ShloMosaic.TcCoe Idealize.SL.Sem Idealize.ShloMosaic.ValueIdx

/-- Under the precondition the three index arguments lie inside the tables they index. -/
theorem ranges_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) : Cert.Bridge.Ranges m := by
  refine ⟨fun c i => ?_, fun c i hi => ?_, fun c i => ?_⟩
  · exact (PreDecode.fn_dec _ _ _ _ _ _ _ _ _ _ _ _ _ _ _ _ _ _ _ (h c)).1 i
  · obtain ⟨p, q, rfl⟩ : ∃ (p : Fin 2) (q : Fin 1600000), i = ix2 p q := ⟨i 0, i 1, eq_ix2 i⟩
    have hp : p = 0 := Fin.ext hi
    subst hp
    exact (PreDecode.fn_dec _ _ _ _ _ _ _ _ _ _ _ _ _ _ _ _ _ _ _ (h c)).2.1 q
  · exact (PreDecode.fn_dec _ _ _ _ _ _ _ _ _ _ _ _ _ _ _ _ _ _ _ (h c)).2.2 i

end Cert.Bridge

end
-- ==== Proof.KKeep.lean ====
/- Carrying a buffer's contents from a boundary of the kernel program's run to its end: a buffer that no later host
   operation and no later pallas_call writes holds at the end what it held at that boundary. A host operation writes
   its result only; a pallas_call writes its output windows' arrays only. -/
import proofs.«417278_j53197464928922_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Whoever is outside a list of references is written by no operation of a line whose operations, in order, each
    write exactly the buffer of the list's reference at the same place. -/
theorem not_mem_writes {ops : List (HloOp τ sig (Elt F))} {L : List (Ref sig .tc)}
    (h : List.Forall₂ (fun (op : HloOp τ sig (Elt F)) (y : Ref sig .tc) => op.writes = {Proc.devRef (τ := τ) .tc y}) ops L) :
    ∀ b : Ref sig .tc, b ∉ L → ∀ op ∈ ops, Proc.devRef (τ := τ) .tc b ∉ op.writes := by
  induction h with
  | nil => intro b _ op hop; cases hop
  | @cons op₀ y ops' L' hw _ ih =>
    intro b hb op hop
    rcases List.mem_cons.mp hop with he | hop
    · have hw' : op₀.writes = {Proc.devRef (τ := τ) .tc y} := hw
      rw [he, hw', Finset.mem_singleton]
      intro e
      exact hb (by rw [Proc.devRef_injective _ e]; exact List.mem_cons_self)
    · exact ih b (fun hm => hb (List.mem_cons_of_mem _ hm)) op hop

/-! ## One step: what each segment leaves unchanged -/

/-- The references the host operations between boundaries 0 and 1 write, in the operations' order: each
    operation's result. -/
noncomputable def writes_0 : List (Ref sig .tc) :=
  [main_v0, main_v1, main_v2, main_v3]
theorem writes_0_are :
    List.Forall₂ (fun (op : HloOp τ sig (Elt F)) (y : Ref sig .tc) => op.writes = {Proc.devRef (τ := τ) .tc y})
      hostOps0 writes_0 :=
  .cons rfl (.cons rfl (.cons rfl (.cons rfl .nil)))
/-- A reference none of these operations writes holds at boundary 1 what it held at boundary 0. -/
theorem step_0 (c : Dev nD) (b : Ref sig .tc) (hb : b ∉ writes_0) :
    W1 m ρ c (Proc.devRef .tc b) = W0 m ρ c (Proc.devRef .tc b) :=
  StableHlo.after_of_forall_not_mem hostOps0 _ (not_mem_writes writes_0_are b hb)

/-- The references the host operations between boundaries 1 and 2 write, in the operations' order: each
    operation's result. -/
noncomputable def writes_1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14,
   main_call0_cst, main_call0_v15, main_v4]
theorem writes_1_are :
    List.Forall₂ (fun (op : HloOp τ sig (Elt F)) (y : Ref sig .tc) => op.writes = {Proc.devRef (τ := τ) .tc y})
      hostOps0_1 writes_1 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 2 what it held at boundary 1. -/
theorem step_1 (c : Dev nD) (b : Ref sig .tc) (hb : b ∉ writes_1) :
    W2 m ρ c (Proc.devRef .tc b) = W1 m ρ c (Proc.devRef .tc b) :=
  StableHlo.after_of_forall_not_mem hostOps0_1 _ (not_mem_writes writes_1_are b hb)

/-- The references the host operations between boundaries 2 and 3 write, in the operations' order: each
    operation's result. -/
noncomputable def writes_2 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14,
   main_call1_cst, main_call1_v15, main_v5]
theorem writes_2_are :
    List.Forall₂ (fun (op : HloOp τ sig (Elt F)) (y : Ref sig .tc) => op.writes = {Proc.devRef (τ := τ) .tc y})
      hostOps0_2 writes_2 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 3 what it held at boundary 2. -/
theorem step_2 (c : Dev nD) (b : Ref sig .tc) (hb : b ∉ writes_2) :
    W3 m ρ c (Proc.devRef .tc b) = W2 m ρ c (Proc.devRef .tc b) :=
  StableHlo.after_of_forall_not_mem hostOps0_2 _ (not_mem_writes writes_2_are b hb)

/-- The references the host operations between boundaries 3 and 4 write, in the operations' order: each
    operation's result. -/
noncomputable def writes_3 : List (Ref sig .tc) :=
  [main_v6, main_v7]
theorem writes_3_are :
    List.Forall₂ (fun (op : HloOp τ sig (Elt F)) (y : Ref sig .tc) => op.writes = {Proc.devRef (τ := τ) .tc y})
      hostOps0_3 writes_3 :=
  .cons rfl (.cons rfl .nil)
/-- A reference none of these operations writes holds at boundary 4 what it held at boundary 3. -/
theorem step_3 (c : Dev nD) (b : Ref sig .tc) (hb : b ∉ writes_3) :
    W4 m ρ c (Proc.devRef .tc b) = W3 m ρ c (Proc.devRef .tc b) :=
  StableHlo.after_of_forall_not_mem hostOps0_3 _ (not_mem_writes writes_3_are b hb)

/-- The references the host operations between boundaries 4 and 5 write, in the operations' order: each
    operation's result. -/
noncomputable def writes_4 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14,
   main_call2_cst, main_call2_v15, main_v8]
theorem writes_4_are :
    List.Forall₂ (fun (op : HloOp τ sig (Elt F)) (y : Ref sig .tc) => op.writes = {Proc.devRef (τ := τ) .tc y})
      hostOps0_4 writes_4 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 5 what it held at boundary 4. -/
theorem step_4 (c : Dev nD) (b : Ref sig .tc) (hb : b ∉ writes_4) :
    W5 m ρ c (Proc.devRef .tc b) = W4 m ρ c (Proc.devRef .tc b) :=
  StableHlo.after_of_forall_not_mem hostOps0_4 _ (not_mem_writes writes_4_are b hb)

/-- The arrays pallas_call 0 writes: its output windows' (an input window's array is only read). -/
noncomputable def writes_5 : List (Ref sig .tc) :=
  [main_v9]
/-- A reference that is not an output array of pallas_call 0 holds at boundary 6 what it held at boundary 5:
    an input array is left as entered (no write-back folds into it), any other buffer is outside the arrays. -/
theorem step_5 (c : Dev nD) (b : Ref sig .tc) (hb : b ∉ writes_5) :
    W6 m ρ c (Proc.devRef .tc b) = W5 m ρ c (Proc.devRef .tc b) := by
  by_cases h : ∃ w, Pipeline.arrRef spec0 w = b
  · obtain ⟨w, rfl⟩ := h
    have hin : (cfg0.win w).isOut = false :=
      (by decide : ∀ w : Fin cfg0.W, Pipeline.arrRef spec0 w ∉ writes_5 → (cfg0.win w).isOut = false) w hb
    exact (W6_arr m ρ c w).trans
      (((dat0 (V5 m ρ) c).arrAt_in w hin _).trans (A_eq0 (V5 m ρ) c w))
  · exact W6_of_ne m ρ c b fun w e => h ⟨w, e⟩

/-- The references the host operations between boundaries 6 and 7 write, in the operations' order: each
    operation's result. -/
noncomputable def writes_6 : List (Ref sig .tc) :=
  [main_cst, main_v10, main_v11, main_v12, main_v13, main_v14, main_cst_0, main_v15, main_v16, main_v17,
   main_v18, main_v19, main_v20, main_v21, main_v22, main_v23, main_v24, main_v25, main_v26, main_v27,
   main_v28, main_v29, main_v30, main_v31, main_v32, main_v33, main_v34, main_v35, main_v36, main_v37,
   main_v38, main_v39]
theorem writes_6_are :
    List.Forall₂ (fun (op : HloOp τ sig (Elt F)) (y : Ref sig .tc) => op.writes = {Proc.devRef (τ := τ) .tc y})
      hostOps1 writes_6 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil)))))))))))))))))))))))))))))))
/-- A reference none of these operations writes holds at boundary 7 what it held at boundary 6. -/
theorem step_6 (c : Dev nD) (b : Ref sig .tc) (hb : b ∉ writes_6) :
    W7 m ρ c (Proc.devRef .tc b) = W6 m ρ c (Proc.devRef .tc b) :=
  StableHlo.after_of_forall_not_mem hostOps1 _ (not_mem_writes writes_6_are b hb)

/-- The arrays pallas_call 1 writes: its output windows' (an input window's array is only read). -/
noncomputable def writes_7 : List (Ref sig .tc) :=
  [main_v40]
/-- A reference that is not an output array of pallas_call 1 holds at boundary 8 what it held at boundary 7:
    an input array is left as entered (no write-back folds into it), any other buffer is outside the arrays. -/
theorem step_7 (c : Dev nD) (b : Ref sig .tc) (hb : b ∉ writes_7) :
    W8 m ρ c (Proc.devRef .tc b) = W7 m ρ c (Proc.devRef .tc b) := by
  by_cases h : ∃ w, Pipeline.arrRef spec1 w = b
  · obtain ⟨w, rfl⟩ := h
    have hin : (cfg1.win w).isOut = false :=
      (by decide : ∀ w : Fin cfg1.W, Pipeline.arrRef spec1 w ∉ writes_7 → (cfg1.win w).isOut = false) w hb
    exact (W8_arr m ρ c w).trans
      (((dat1 (V7 m ρ) c).arrAt_in w hin _).trans (A_eq1 (V7 m ρ) c w))
  · exact W8_of_ne m ρ c b fun w e => h ⟨w, e⟩

/-- The references the host operations between boundaries 8 and 9 write, in the operations' order: each
    operation's result. -/
noncomputable def writes_8 : List (Ref sig .tc) :=
  [main_cst_1, main_v41, main_v42, main_cst_2, main_v43, main_v44, main_c]
theorem writes_8_are :
    List.Forall₂ (fun (op : HloOp τ sig (Elt F)) (y : Ref sig .tc) => op.writes = {Proc.devRef (τ := τ) .tc y})
      hostOps2 writes_8 :=
  .cons rfl (.cons rfl (.cons rfl (.cons rfl (.cons rfl (.cons rfl (.cons rfl .nil))))))
/-- A reference none of these operations writes holds at boundary 9 what it held at boundary 8. -/
theorem step_8 (c : Dev nD) (b : Ref sig .tc) (hb : b ∉ writes_8) :
    W9 m ρ c (Proc.devRef .tc b) = W8 m ρ c (Proc.devRef .tc b) :=
  StableHlo.after_of_forall_not_mem hostOps2 _ (not_mem_writes writes_8_are b hb)

/-- The references the host operations between boundaries 9 and 10 write, in the operations' order: each
    operation's result. -/
noncomputable def writes_9 : List (Ref sig .tc) :=
  [main_call3_cst, main_call3_v0, main_call3_v1, main_call3_cst_0, main_call3_v2, main_call3_v3,
   main_call3_v4, main_call3_v5, main_call3_v6, main_call3_v7, main_call3_cst_1, main_call3_v8,
   main_call3_cst_2, main_call3_v9, main_call3_v10, main_call3_v11, main_call3_v12, main_call3_cst_3,
   main_call3_v13, main_call3_cst_4, main_call3_call0_v0, main_call3_call0_v1, main_v45]
theorem writes_9_are :
    List.Forall₂ (fun (op : HloOp τ sig (Elt F)) (y : Ref sig .tc) => op.writes = {Proc.devRef (τ := τ) .tc y})
      hostOps2_1 writes_9 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 10 what it held at boundary 9. -/
theorem step_9 (c : Dev nD) (b : Ref sig .tc) (hb : b ∉ writes_9) :
    W10 m ρ c (Proc.devRef .tc b) = W9 m ρ c (Proc.devRef .tc b) :=
  StableHlo.after_of_forall_not_mem hostOps2_1 _ (not_mem_writes writes_9_are b hb)

/-- The arrays pallas_call 2 writes: its output windows' (an input window's array is only read). -/
noncomputable def writes_10 : List (Ref sig .tc) :=
  [main_v46]
/-- A reference that is not an output array of pallas_call 2 holds at boundary 11 what it held at boundary 10:
    an input array is left as entered (no write-back folds into it), any other buffer is outside the arrays. -/
theorem step_10 (c : Dev nD) (b : Ref sig .tc) (hb : b ∉ writes_10) :
    W11 m ρ c (Proc.devRef .tc b) = W10 m ρ c (Proc.devRef .tc b) := by
  by_cases h : ∃ w, Pipeline.arrRef spec2 w = b
  · obtain ⟨w, rfl⟩ := h
    have hin : (cfg2.win w).isOut = false :=
      (by decide : ∀ w : Fin cfg2.W, Pipeline.arrRef spec2 w ∉ writes_10 → (cfg2.win w).isOut = false) w hb
    exact (W11_arr m ρ c w).trans
      (((dat2 (V10 m ρ) c).arrAt_in w hin _).trans (A_eq2 (V10 m ρ) c w))
  · exact W11_of_ne m ρ c b fun w e => h ⟨w, e⟩

/-- The references the host operations between boundaries 11 and 12 write, in the operations' order: each
    operation's result. -/
noncomputable def writes_11 : List (Ref sig .tc) :=
  [main_cst_3, main_v47, main_v48, main_cst_4, main_v49, main_v50, main_c_5]
theorem writes_11_are :
    List.Forall₂ (fun (op : HloOp τ sig (Elt F)) (y : Ref sig .tc) => op.writes = {Proc.devRef (τ := τ) .tc y})
      hostOps3 writes_11 :=
  .cons rfl (.cons rfl (.cons rfl (.cons rfl (.cons rfl (.cons rfl (.cons rfl .nil))))))
/-- A reference none of these operations writes holds at boundary 12 what it held at boundary 11. -/
theorem step_11 (c : Dev nD) (b : Ref sig .tc) (hb : b ∉ writes_11) :
    W12 m ρ c (Proc.devRef .tc b) = W11 m ρ c (Proc.devRef .tc b) :=
  StableHlo.after_of_forall_not_mem hostOps3 _ (not_mem_writes writes_11_are b hb)

/-- The references the host operations between boundaries 12 and 13 write, in the operations' order: each
    operation's result. -/
noncomputable def writes_12 : List (Ref sig .tc) :=
  [main_call4_cst, main_call4_v0, main_call4_v1, main_call4_cst_0, main_call4_v2, main_call4_v3,
   main_call4_v4, main_call4_v5, main_call4_v6, main_call4_v7, main_call4_cst_1, main_call4_v8,
   main_call4_cst_2, main_call4_v9, main_call4_v10, main_call4_v11, main_call4_v12, main_call4_cst_3,
   main_call4_v13, main_call4_cst_4, main_call4_call0_v0, main_call4_call0_v1, main_v51]
theorem writes_12_are :
    List.Forall₂ (fun (op : HloOp τ sig (Elt F)) (y : Ref sig .tc) => op.writes = {Proc.devRef (τ := τ) .tc y})
      hostOps3_1 writes_12 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 13 what it held at boundary 12. -/
theorem step_12 (c : Dev nD) (b : Ref sig .tc) (hb : b ∉ writes_12) :
    W13 m ρ c (Proc.devRef .tc b) = W12 m ρ c (Proc.devRef .tc b) :=
  StableHlo.after_of_forall_not_mem hostOps3_1 _ (not_mem_writes writes_12_are b hb)

/-- The arrays pallas_call 3 writes: its output windows' (an input window's array is only read). -/
noncomputable def writes_13 : List (Ref sig .tc) :=
  [main_v52]
/-- A reference that is not an output array of pallas_call 3 holds at boundary 14 what it held at boundary 13:
    an input array is left as entered (no write-back folds into it), any other buffer is outside the arrays. -/
theorem step_13 (c : Dev nD) (b : Ref sig .tc) (hb : b ∉ writes_13) :
    W14 m ρ c (Proc.devRef .tc b) = W13 m ρ c (Proc.devRef .tc b) := by
  by_cases h : ∃ w, Pipeline.arrRef spec3 w = b
  · obtain ⟨w, rfl⟩ := h
    have hin : (cfg3.win w).isOut = false :=
      (by decide : ∀ w : Fin cfg3.W, Pipeline.arrRef spec3 w ∉ writes_13 → (cfg3.win w).isOut = false) w hb
    exact (W14_arr m ρ c w).trans
      (((dat3 (V13 m ρ) c).arrAt_in w hin _).trans (A_eq3 (V13 m ρ) c w))
  · exact W14_of_ne m ρ c b fun w e => h ⟨w, e⟩

/-- The references the host operations between boundaries 14 and 15 write, in the operations' order: each
    operation's result. -/
noncomputable def writes_14 : List (Ref sig .tc) :=
  [main_call5_c, main_call5_v0, main_call5_v1, main_call5_c_0, main_call5_v2, main_call5_v3, main_call5_v4,
   main_call5_v5, main_call5_c_1, main_call5_c_2, main_call5_v6, main_call5_v7, main_call5_v8, main_call5_v9,
   main_call5_v10, main_call5_v11, main_call5_c_3, main_call5_v12, main_call5_v13, main_call5_v14,
   main_call5_cst, main_call5_v15, main_v53]
theorem writes_14_are :
    List.Forall₂ (fun (op : HloOp τ sig (Elt F)) (y : Ref sig .tc) => op.writes = {Proc.devRef (τ := τ) .tc y})
      hostOps4 writes_14 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 15 what it held at boundary 14. -/
theorem step_14 (c : Dev nD) (b : Ref sig .tc) (hb : b ∉ writes_14) :
    W15 m ρ c (Proc.devRef .tc b) = W14 m ρ c (Proc.devRef .tc b) :=
  StableHlo.after_of_forall_not_mem hostOps4 _ (not_mem_writes writes_14_are b hb)

/-- The references the host operations between boundaries 15 and 16 write, in the operations' order: each
    operation's result. -/
noncomputable def writes_15 : List (Ref sig .tc) :=
  [main_v54, main_v55]
theorem writes_15_are :
    List.Forall₂ (fun (op : HloOp τ sig (Elt F)) (y : Ref sig .tc) => op.writes = {Proc.devRef (τ := τ) .tc y})
      hostOps4_1 writes_15 :=
  .cons rfl (.cons rfl .nil)
/-- A reference none of these operations writes holds at boundary 16 what it held at boundary 15. -/
theorem step_15 (c : Dev nD) (b : Ref sig .tc) (hb : b ∉ writes_15) :
    W16 m ρ c (Proc.devRef .tc b) = W15 m ρ c (Proc.devRef .tc b) :=
  StableHlo.after_of_forall_not_mem hostOps4_1 _ (not_mem_writes writes_15_are b hb)

/-- The references the host operations between boundaries 16 and 17 write, in the operations' order: each
    operation's result. -/
noncomputable def writes_16 : List (Ref sig .tc) :=
  [main_call6_c, main_call6_v0, main_call6_v1, main_call6_c_0, main_call6_v2, main_call6_v3, main_call6_v4,
   main_call6_v5, main_call6_c_1, main_call6_c_2, main_call6_v6, main_call6_v7, main_call6_v8, main_call6_v9,
   main_call6_v10, main_call6_v11, main_call6_c_3, main_call6_v12, main_call6_v13, main_call6_v14,
   main_call6_cst, main_call6_v15, main_v56]
theorem writes_16_are :
    List.Forall₂ (fun (op : HloOp τ sig (Elt F)) (y : Ref sig .tc) => op.writes = {Proc.devRef (τ := τ) .tc y})
      hostOps4_2 writes_16 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 17 what it held at boundary 16. -/
theorem step_16 (c : Dev nD) (b : Ref sig .tc) (hb : b ∉ writes_16) :
    W17 m ρ c (Proc.devRef .tc b) = W16 m ρ c (Proc.devRef .tc b) :=
  StableHlo.after_of_forall_not_mem hostOps4_2 _ (not_mem_writes writes_16_are b hb)

/-- The arrays pallas_call 4 writes: its output windows' (an input window's array is only read). -/
noncomputable def writes_17 : List (Ref sig .tc) :=
  [main_v57]
/-- A reference that is not an output array of pallas_call 4 holds at boundary 18 what it held at boundary 17:
    an input array is left as entered (no write-back folds into it), any other buffer is outside the arrays. -/
theorem step_17 (c : Dev nD) (b : Ref sig .tc) (hb : b ∉ writes_17) :
    W18 m ρ c (Proc.devRef .tc b) = W17 m ρ c (Proc.devRef .tc b) := by
  by_cases h : ∃ w, Pipeline.arrRef spec4 w = b
  · obtain ⟨w, rfl⟩ := h
    have hin : (cfg4.win w).isOut = false :=
      (by decide : ∀ w : Fin cfg4.W, Pipeline.arrRef spec4 w ∉ writes_17 → (cfg4.win w).isOut = false) w hb
    exact (W18_arr m ρ c w).trans
      (((dat4 (V17 m ρ) c).arrAt_in w hin _).trans (A_eq4 (V17 m ρ) c w))
  · exact W18_of_ne m ρ c b fun w e => h ⟨w, e⟩

/-- The references the host operations between boundaries 18 and 19 write, in the operations' order: each
    operation's result. -/
noncomputable def writes_18 : List (Ref sig .tc) :=
  [main_cst_6, main_v58, main_v59, main_v60, main_v61, main_v62, main_cst_7, main_v63, main_v64, main_v65,
   main_v66, main_v67, main_v68, main_v69, main_v70, main_v71, main_v72, main_v73, main_v74, main_v75,
   main_v76, main_v77, main_v78, main_v79, main_v80, main_v81, main_v82, main_v83, main_v84, main_v85,
   main_v86, main_v87]
theorem writes_18_are :
    List.Forall₂ (fun (op : HloOp τ sig (Elt F)) (y : Ref sig .tc) => op.writes = {Proc.devRef (τ := τ) .tc y})
      hostOps5 writes_18 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil)))))))))))))))))))))))))))))))
/-- A reference none of these operations writes holds at boundary 19 what it held at boundary 18. -/
theorem step_18 (c : Dev nD) (b : Ref sig .tc) (hb : b ∉ writes_18) :
    W19 m ρ c (Proc.devRef .tc b) = W18 m ρ c (Proc.devRef .tc b) :=
  StableHlo.after_of_forall_not_mem hostOps5 _ (not_mem_writes writes_18_are b hb)

/-- The arrays pallas_call 5 writes: its output windows' (an input window's array is only read). -/
noncomputable def writes_19 : List (Ref sig .tc) :=
  [main_v88]
/-- A reference that is not an output array of pallas_call 5 holds at boundary 20 what it held at boundary 19:
    an input array is left as entered (no write-back folds into it), any other buffer is outside the arrays. -/
theorem step_19 (c : Dev nD) (b : Ref sig .tc) (hb : b ∉ writes_19) :
    W20 m ρ c (Proc.devRef .tc b) = W19 m ρ c (Proc.devRef .tc b) := by
  by_cases h : ∃ w, Pipeline.arrRef spec5 w = b
  · obtain ⟨w, rfl⟩ := h
    have hin : (cfg5.win w).isOut = false :=
      (by decide : ∀ w : Fin cfg5.W, Pipeline.arrRef spec5 w ∉ writes_19 → (cfg5.win w).isOut = false) w hb
    exact (W20_arr m ρ c w).trans
      (((dat5 (V19 m ρ) c).arrAt_in w hin _).trans (A_eq5 (V19 m ρ) c w))
  · exact W20_of_ne m ρ c b fun w e => h ⟨w, e⟩

/-- The references the host operations between boundaries 20 and 21 write, in the operations' order: each
    operation's result. -/
noncomputable def writes_20 : List (Ref sig .tc) :=
  [main_cst_8, main_v89, main_v90, main_cst_9, main_v91, main_v92, main_c_10]
theorem writes_20_are :
    List.Forall₂ (fun (op : HloOp τ sig (Elt F)) (y : Ref sig .tc) => op.writes = {Proc.devRef (τ := τ) .tc y})
      hostOps6 writes_20 :=
  .cons rfl (.cons rfl (.cons rfl (.cons rfl (.cons rfl (.cons rfl (.cons rfl .nil))))))
/-- A reference none of these operations writes holds at boundary 21 what it held at boundary 20. -/
theorem step_20 (c : Dev nD) (b : Ref sig .tc) (hb : b ∉ writes_20) :
    W21 m ρ c (Proc.devRef .tc b) = W20 m ρ c (Proc.devRef .tc b) :=
  StableHlo.after_of_forall_not_mem hostOps6 _ (not_mem_writes writes_20_are b hb)

/-- The references the host operations between boundaries 21 and 22 write, in the operations' order: each
    operation's result. -/
noncomputable def writes_21 : List (Ref sig .tc) :=
  [main_call7_cst, main_call7_v0, main_call7_v1, main_call7_cst_0, main_call7_v2, main_call7_v3,
   main_call7_v4, main_call7_v5, main_call7_v6, main_call7_v7, main_call7_cst_1, main_call7_v8,
   main_call7_cst_2, main_call7_v9, main_call7_v10, main_call7_v11, main_call7_v12, main_call7_cst_3,
   main_call7_v13, main_call7_cst_4, main_call7_call0_v0, main_call7_call0_v1, main_v93]
theorem writes_21_are :
    List.Forall₂ (fun (op : HloOp τ sig (Elt F)) (y : Ref sig .tc) => op.writes = {Proc.devRef (τ := τ) .tc y})
      hostOps6_1 writes_21 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 22 what it held at boundary 21. -/
theorem step_21 (c : Dev nD) (b : Ref sig .tc) (hb : b ∉ writes_21) :
    W22 m ρ c (Proc.devRef .tc b) = W21 m ρ c (Proc.devRef .tc b) :=
  StableHlo.after_of_forall_not_mem hostOps6_1 _ (not_mem_writes writes_21_are b hb)

/-- The arrays pallas_call 6 writes: its output windows' (an input window's array is only read). -/
noncomputable def writes_22 : List (Ref sig .tc) :=
  [main_v94]
/-- A reference that is not an output array of pallas_call 6 holds at boundary 23 what it held at boundary 22:
    an input array is left as entered (no write-back folds into it), any other buffer is outside the arrays. -/
theorem step_22 (c : Dev nD) (b : Ref sig .tc) (hb : b ∉ writes_22) :
    W23 m ρ c (Proc.devRef .tc b) = W22 m ρ c (Proc.devRef .tc b) := by
  by_cases h : ∃ w, Pipeline.arrRef spec6 w = b
  · obtain ⟨w, rfl⟩ := h
    have hin : (cfg6.win w).isOut = false :=
      (by decide : ∀ w : Fin cfg6.W, Pipeline.arrRef spec6 w ∉ writes_22 → (cfg6.win w).isOut = false) w hb
    exact (W23_arr m ρ c w).trans
      (((dat6 (V22 m ρ) c).arrAt_in w hin _).trans (A_eq6 (V22 m ρ) c w))
  · exact W23_of_ne m ρ c b fun w e => h ⟨w, e⟩

/-- The references the host operations between boundaries 23 and 24 write, in the operations' order: each
    operation's result. -/
noncomputable def writes_23 : List (Ref sig .tc) :=
  [main_cst_11, main_v95, main_v96, main_cst_12, main_v97, main_v98, main_c_13]
theorem writes_23_are :
    List.Forall₂ (fun (op : HloOp τ sig (Elt F)) (y : Ref sig .tc) => op.writes = {Proc.devRef (τ := τ) .tc y})
      hostOps7 writes_23 :=
  .cons rfl (.cons rfl (.cons rfl (.cons rfl (.cons rfl (.cons rfl (.cons rfl .nil))))))
/-- A reference none of these operations writes holds at boundary 24 what it held at boundary 23. -/
theorem step_23 (c : Dev nD) (b : Ref sig .tc) (hb : b ∉ writes_23) :
    W24 m ρ c (Proc.devRef .tc b) = W23 m ρ c (Proc.devRef .tc b) :=
  StableHlo.after_of_forall_not_mem hostOps7 _ (not_mem_writes writes_23_are b hb)

/-- The references the host operations between boundaries 24 and 25 write, in the operations' order: each
    operation's result. -/
noncomputable def writes_24 : List (Ref sig .tc) :=
  [main_call8_cst, main_call8_v0, main_call8_v1, main_call8_cst_0, main_call8_v2, main_call8_v3,
   main_call8_v4, main_call8_v5, main_call8_v6, main_call8_v7, main_call8_cst_1, main_call8_v8,
   main_call8_cst_2, main_call8_v9, main_call8_v10, main_call8_v11, main_call8_v12, main_call8_cst_3,
   main_call8_v13, main_call8_cst_4, main_call8_call0_v0, main_call8_call0_v1, main_v99]
theorem writes_24_are :
    List.Forall₂ (fun (op : HloOp τ sig (Elt F)) (y : Ref sig .tc) => op.writes = {Proc.devRef (τ := τ) .tc y})
      hostOps7_1 writes_24 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 25 what it held at boundary 24. -/
theorem step_24 (c : Dev nD) (b : Ref sig .tc) (hb : b ∉ writes_24) :
    W25 m ρ c (Proc.devRef .tc b) = W24 m ρ c (Proc.devRef .tc b) :=
  StableHlo.after_of_forall_not_mem hostOps7_1 _ (not_mem_writes writes_24_are b hb)

/-- The arrays pallas_call 7 writes: its output windows' (an input window's array is only read). -/
noncomputable def writes_25 : List (Ref sig .tc) :=
  [main_v100]
/-- A reference that is not an output array of pallas_call 7 holds at boundary 26 what it held at boundary 25:
    an input array is left as entered (no write-back folds into it), any other buffer is outside the arrays. -/
theorem step_25 (c : Dev nD) (b : Ref sig .tc) (hb : b ∉ writes_25) :
    W26 m ρ c (Proc.devRef .tc b) = W25 m ρ c (Proc.devRef .tc b) := by
  by_cases h : ∃ w, Pipeline.arrRef spec7 w = b
  · obtain ⟨w, rfl⟩ := h
    have hin : (cfg7.win w).isOut = false :=
      (by decide : ∀ w : Fin cfg7.W, Pipeline.arrRef spec7 w ∉ writes_25 → (cfg7.win w).isOut = false) w hb
    exact (W26_arr m ρ c w).trans
      (((dat7 (V25 m ρ) c).arrAt_in w hin _).trans (A_eq7 (V25 m ρ) c w))
  · exact W26_of_ne m ρ c b fun w e => h ⟨w, e⟩

/-- The references the host operations between boundaries 26 and 27 write, in the operations' order: each
    operation's result. -/
noncomputable def writes_26 : List (Ref sig .tc) :=
  [main_call9_c, main_call9_v0, main_call9_v1, main_call9_c_0, main_call9_v2, main_call9_v3, main_call9_v4,
   main_call9_v5, main_call9_c_1, main_call9_c_2, main_call9_v6, main_call9_v7, main_call9_v8, main_call9_v9,
   main_call9_v10, main_call9_v11, main_call9_c_3, main_call9_v12, main_call9_v13, main_call9_v14,
   main_call9_cst, main_call9_v15, main_v101]
theorem writes_26_are :
    List.Forall₂ (fun (op : HloOp τ sig (Elt F)) (y : Ref sig .tc) => op.writes = {Proc.devRef (τ := τ) .tc y})
      hostOps8 writes_26 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 27 what it held at boundary 26. -/
theorem step_26 (c : Dev nD) (b : Ref sig .tc) (hb : b ∉ writes_26) :
    W27 m ρ c (Proc.devRef .tc b) = W26 m ρ c (Proc.devRef .tc b) :=
  StableHlo.after_of_forall_not_mem hostOps8 _ (not_mem_writes writes_26_are b hb)

/-- The references the host operations between boundaries 27 and 28 write, in the operations' order: each
    operation's result. -/
noncomputable def writes_27 : List (Ref sig .tc) :=
  [main_v102, main_v103]
theorem writes_27_are :
    List.Forall₂ (fun (op : HloOp τ sig (Elt F)) (y : Ref sig .tc) => op.writes = {Proc.devRef (τ := τ) .tc y})
      hostOps8_1 writes_27 :=
  .cons rfl (.cons rfl .nil)
/-- A reference none of these operations writes holds at boundary 28 what it held at boundary 27. -/
theorem step_27 (c : Dev nD) (b : Ref sig .tc) (hb : b ∉ writes_27) :
    W28 m ρ c (Proc.devRef .tc b) = W27 m ρ c (Proc.devRef .tc b) :=
  StableHlo.after_of_forall_not_mem hostOps8_1 _ (not_mem_writes writes_27_are b hb)

/-- The references the host operations between boundaries 28 and 29 write, in the operations' order: each
    operation's result. -/
noncomputable def writes_28 : List (Ref sig .tc) :=
  [main_call10_c, main_call10_v0, main_call10_v1, main_call10_c_0, main_call10_v2, main_call10_v3,
   main_call10_v4, main_call10_v5, main_call10_c_1, main_call10_c_2, main_call10_v6, main_call10_v7,
   main_call10_v8, main_call10_v9, main_call10_v10, main_call10_v11, main_call10_c_3, main_call10_v12,
   main_call10_v13, main_call10_v14, main_call10_cst, main_call10_v15, main_v104]
theorem writes_28_are :
    List.Forall₂ (fun (op : HloOp τ sig (Elt F)) (y : Ref sig .tc) => op.writes = {Proc.devRef (τ := τ) .tc y})
      hostOps8_2 writes_28 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 29 what it held at boundary 28. -/
theorem step_28 (c : Dev nD) (b : Ref sig .tc) (hb : b ∉ writes_28) :
    W29 m ρ c (Proc.devRef .tc b) = W28 m ρ c (Proc.devRef .tc b) :=
  StableHlo.after_of_forall_not_mem hostOps8_2 _ (not_mem_writes writes_28_are b hb)

/-- The arrays pallas_call 8 writes: its output windows' (an input window's array is only read). -/
noncomputable def writes_29 : List (Ref sig .tc) :=
  [main_v105]
/-- A reference that is not an output array of pallas_call 8 holds at boundary 30 what it held at boundary 29:
    an input array is left as entered (no write-back folds into it), any other buffer is outside the arrays. -/
theorem step_29 (c : Dev nD) (b : Ref sig .tc) (hb : b ∉ writes_29) :
    W30 m ρ c (Proc.devRef .tc b) = W29 m ρ c (Proc.devRef .tc b) := by
  by_cases h : ∃ w, Pipeline.arrRef spec8 w = b
  · obtain ⟨w, rfl⟩ := h
    have hin : (cfg8.win w).isOut = false :=
      (by decide : ∀ w : Fin cfg8.W, Pipeline.arrRef spec8 w ∉ writes_29 → (cfg8.win w).isOut = false) w hb
    exact (W30_arr m ρ c w).trans
      (((dat8 (V29 m ρ) c).arrAt_in w hin _).trans (A_eq8 (V29 m ρ) c w))
  · exact W30_of_ne m ρ c b fun w e => h ⟨w, e⟩

/-- The references the host operations between boundaries 30 and 31 write, in the operations' order: each
    operation's result. -/
noncomputable def writes_30 : List (Ref sig .tc) :=
  [main_cst_14, main_v106, main_v107, main_v108, main_v109, main_v110, main_cst_15, main_v111, main_v112,
   main_v113, main_v114, main_v115, main_v116, main_v117, main_v118, main_v119, main_v120, main_v121,
   main_v122, main_v123, main_v124, main_v125, main_v126, main_v127, main_v128, main_v129, main_v130,
   main_v131, main_v132, main_v133, main_v134, main_v135]
theorem writes_30_are :
    List.Forall₂ (fun (op : HloOp τ sig (Elt F)) (y : Ref sig .tc) => op.writes = {Proc.devRef (τ := τ) .tc y})
      hostOps9 writes_30 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil)))))))))))))))))))))))))))))))
/-- A reference none of these operations writes holds at boundary 31 what it held at boundary 30. -/
theorem step_30 (c : Dev nD) (b : Ref sig .tc) (hb : b ∉ writes_30) :
    W31 m ρ c (Proc.devRef .tc b) = W30 m ρ c (Proc.devRef .tc b) :=
  StableHlo.after_of_forall_not_mem hostOps9 _ (not_mem_writes writes_30_are b hb)

/-- The arrays pallas_call 9 writes: its output windows' (an input window's array is only read). -/
noncomputable def writes_31 : List (Ref sig .tc) :=
  [main_v136]
/-- A reference that is not an output array of pallas_call 9 holds at boundary 32 what it held at boundary 31:
    an input array is left as entered (no write-back folds into it), any other buffer is outside the arrays. -/
theorem step_31 (c : Dev nD) (b : Ref sig .tc) (hb : b ∉ writes_31) :
    W32 m ρ c (Proc.devRef .tc b) = W31 m ρ c (Proc.devRef .tc b) := by
  by_cases h : ∃ w, Pipeline.arrRef spec9 w = b
  · obtain ⟨w, rfl⟩ := h
    have hin : (cfg9.win w).isOut = false :=
      (by decide : ∀ w : Fin cfg9.W, Pipeline.arrRef spec9 w ∉ writes_31 → (cfg9.win w).isOut = false) w hb
    exact (W32_arr m ρ c w).trans
      (((dat9 (V31 m ρ) c).arrAt_in w hin _).trans (A_eq9 (V31 m ρ) c w))
  · exact W32_of_ne m ρ c b fun w e => h ⟨w, e⟩

/-- The references the host operations between boundaries 32 and 33 write, in the operations' order: each
    operation's result. -/
noncomputable def writes_32 : List (Ref sig .tc) :=
  [main_cst_16, main_v137, main_v138, main_cst_17, main_v139, main_v140, main_c_18]
theorem writes_32_are :
    List.Forall₂ (fun (op : HloOp τ sig (Elt F)) (y : Ref sig .tc) => op.writes = {Proc.devRef (τ := τ) .tc y})
      hostOps10 writes_32 :=
  .cons rfl (.cons rfl (.cons rfl (.cons rfl (.cons rfl (.cons rfl (.cons rfl .nil))))))
/-- A reference none of these operations writes holds at boundary 33 what it held at boundary 32. -/
theorem step_32 (c : Dev nD) (b : Ref sig .tc) (hb : b ∉ writes_32) :
    W33 m ρ c (Proc.devRef .tc b) = W32 m ρ c (Proc.devRef .tc b) :=
  StableHlo.after_of_forall_not_mem hostOps10 _ (not_mem_writes writes_32_are b hb)

/-- The references the host operations between boundaries 33 and 34 write, in the operations' order: each
    operation's result. -/
noncomputable def writes_33 : List (Ref sig .tc) :=
  [main_call11_cst, main_call11_v0, main_call11_v1, main_call11_cst_0, main_call11_v2, main_call11_v3,
   main_call11_v4, main_call11_v5, main_call11_v6, main_call11_v7, main_call11_cst_1, main_call11_v8,
   main_call11_cst_2, main_call11_v9, main_call11_v10, main_call11_v11, main_call11_v12, main_call11_cst_3,
   main_call11_v13, main_call11_cst_4, main_call11_call0_v0, main_call11_call0_v1, main_v141]
theorem writes_33_are :
    List.Forall₂ (fun (op : HloOp τ sig (Elt F)) (y : Ref sig .tc) => op.writes = {Proc.devRef (τ := τ) .tc y})
      hostOps10_1 writes_33 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 34 what it held at boundary 33. -/
theorem step_33 (c : Dev nD) (b : Ref sig .tc) (hb : b ∉ writes_33) :
    W34 m ρ c (Proc.devRef .tc b) = W33 m ρ c (Proc.devRef .tc b) :=
  StableHlo.after_of_forall_not_mem hostOps10_1 _ (not_mem_writes writes_33_are b hb)

/-- The arrays pallas_call 10 writes: its output windows' (an input window's array is only read). -/
noncomputable def writes_34 : List (Ref sig .tc) :=
  [main_v142]
/-- A reference that is not an output array of pallas_call 10 holds at boundary 35 what it held at boundary 34:
    an input array is left as entered (no write-back folds into it), any other buffer is outside the arrays. -/
theorem step_34 (c : Dev nD) (b : Ref sig .tc) (hb : b ∉ writes_34) :
    W35 m ρ c (Proc.devRef .tc b) = W34 m ρ c (Proc.devRef .tc b) := by
  by_cases h : ∃ w, Pipeline.arrRef spec10 w = b
  · obtain ⟨w, rfl⟩ := h
    have hin : (cfg10.win w).isOut = false :=
      (by decide : ∀ w : Fin cfg10.W, Pipeline.arrRef spec10 w ∉ writes_34 → (cfg10.win w).isOut = false) w hb
    exact (W35_arr m ρ c w).trans
      (((dat10 (V34 m ρ) c).arrAt_in w hin _).trans (A_eq10 (V34 m ρ) c w))
  · exact W35_of_ne m ρ c b fun w e => h ⟨w, e⟩

/-- The references the host operations between boundaries 35 and 36 write, in the operations' order: each
    operation's result. -/
noncomputable def writes_35 : List (Ref sig .tc) :=
  [main_cst_19, main_v143, main_v144, main_cst_20, main_v145, main_v146, main_c_21]
theorem writes_35_are :
    List.Forall₂ (fun (op : HloOp τ sig (Elt F)) (y : Ref sig .tc) => op.writes = {Proc.devRef (τ := τ) .tc y})
      hostOps11 writes_35 :=
  .cons rfl (.cons rfl (.cons rfl (.cons rfl (.cons rfl (.cons rfl (.cons rfl .nil))))))
/-- A reference none of these operations writes holds at boundary 36 what it held at boundary 35. -/
theorem step_35 (c : Dev nD) (b : Ref sig .tc) (hb : b ∉ writes_35) :
    W36 m ρ c (Proc.devRef .tc b) = W35 m ρ c (Proc.devRef .tc b) :=
  StableHlo.after_of_forall_not_mem hostOps11 _ (not_mem_writes writes_35_are b hb)

/-- The references the host operations between boundaries 36 and 37 write, in the operations' order: each
    operation's result. -/
noncomputable def writes_36 : List (Ref sig .tc) :=
  [main_call12_cst, main_call12_v0, main_call12_v1, main_call12_cst_0, main_call12_v2, main_call12_v3,
   main_call12_v4, main_call12_v5, main_call12_v6, main_call12_v7, main_call12_cst_1, main_call12_v8,
   main_call12_cst_2, main_call12_v9, main_call12_v10, main_call12_v11, main_call12_v12, main_call12_cst_3,
   main_call12_v13, main_call12_cst_4, main_call12_call0_v0, main_call12_call0_v1, main_v147]
theorem writes_36_are :
    List.Forall₂ (fun (op : HloOp τ sig (Elt F)) (y : Ref sig .tc) => op.writes = {Proc.devRef (τ := τ) .tc y})
      hostOps11_1 writes_36 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 37 what it held at boundary 36. -/
theorem step_36 (c : Dev nD) (b : Ref sig .tc) (hb : b ∉ writes_36) :
    W37 m ρ c (Proc.devRef .tc b) = W36 m ρ c (Proc.devRef .tc b) :=
  StableHlo.after_of_forall_not_mem hostOps11_1 _ (not_mem_writes writes_36_are b hb)

/-- The arrays pallas_call 11 writes: its output windows' (an input window's array is only read). -/
noncomputable def writes_37 : List (Ref sig .tc) :=
  [main_v148]
/-- A reference that is not an output array of pallas_call 11 holds at boundary 38 what it held at boundary 37:
    an input array is left as entered (no write-back folds into it), any other buffer is outside the arrays. -/
theorem step_37 (c : Dev nD) (b : Ref sig .tc) (hb : b ∉ writes_37) :
    W38 m ρ c (Proc.devRef .tc b) = W37 m ρ c (Proc.devRef .tc b) := by
  by_cases h : ∃ w, Pipeline.arrRef spec11 w = b
  · obtain ⟨w, rfl⟩ := h
    have hin : (cfg11.win w).isOut = false :=
      (by decide : ∀ w : Fin cfg11.W, Pipeline.arrRef spec11 w ∉ writes_37 → (cfg11.win w).isOut = false) w hb
    exact (W38_arr m ρ c w).trans
      (((dat11 (V37 m ρ) c).arrAt_in w hin _).trans (A_eq11 (V37 m ρ) c w))
  · exact W38_of_ne m ρ c b fun w e => h ⟨w, e⟩

/-- The references the host operations between boundaries 38 and 39 write, in the operations' order: each
    operation's result. -/
noncomputable def writes_38 : List (Ref sig .tc) :=
  [main_call13_c, main_call13_v0, main_call13_v1, main_call13_c_0, main_call13_v2, main_call13_v3,
   main_call13_v4, main_call13_v5, main_call13_c_1, main_call13_c_2, main_call13_v6, main_call13_v7,
   main_call13_v8, main_call13_v9, main_call13_v10, main_call13_v11, main_call13_c_3, main_call13_v12,
   main_call13_v13, main_call13_v14, main_call13_cst, main_call13_v15, main_v149]
theorem writes_38_are :
    List.Forall₂ (fun (op : HloOp τ sig (Elt F)) (y : Ref sig .tc) => op.writes = {Proc.devRef (τ := τ) .tc y})
      hostOps12 writes_38 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 39 what it held at boundary 38. -/
theorem step_38 (c : Dev nD) (b : Ref sig .tc) (hb : b ∉ writes_38) :
    W39 m ρ c (Proc.devRef .tc b) = W38 m ρ c (Proc.devRef .tc b) :=
  StableHlo.after_of_forall_not_mem hostOps12 _ (not_mem_writes writes_38_are b hb)

/-- The references the host operations between boundaries 39 and 40 write, in the operations' order: each
    operation's result. -/
noncomputable def writes_39 : List (Ref sig .tc) :=
  [main_v150, main_v151]
theorem writes_39_are :
    List.Forall₂ (fun (op : HloOp τ sig (Elt F)) (y : Ref sig .tc) => op.writes = {Proc.devRef (τ := τ) .tc y})
      hostOps12_1 writes_39 :=
  .cons rfl (.cons rfl .nil)
/-- A reference none of these operations writes holds at boundary 40 what it held at boundary 39. -/
theorem step_39 (c : Dev nD) (b : Ref sig .tc) (hb : b ∉ writes_39) :
    W40 m ρ c (Proc.devRef .tc b) = W39 m ρ c (Proc.devRef .tc b) :=
  StableHlo.after_of_forall_not_mem hostOps12_1 _ (not_mem_writes writes_39_are b hb)

/-- The references the host operations between boundaries 40 and 41 write, in the operations' order: each
    operation's result. -/
noncomputable def writes_40 : List (Ref sig .tc) :=
  [main_call14_c, main_call14_v0, main_call14_v1, main_call14_c_0, main_call14_v2, main_call14_v3,
   main_call14_v4, main_call14_v5, main_call14_c_1, main_call14_c_2, main_call14_v6, main_call14_v7,
   main_call14_v8, main_call14_v9, main_call14_v10, main_call14_v11, main_call14_c_3, main_call14_v12,
   main_call14_v13, main_call14_v14, main_call14_cst, main_call14_v15, main_v152]
theorem writes_40_are :
    List.Forall₂ (fun (op : HloOp τ sig (Elt F)) (y : Ref sig .tc) => op.writes = {Proc.devRef (τ := τ) .tc y})
      hostOps12_2 writes_40 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 41 what it held at boundary 40. -/
theorem step_40 (c : Dev nD) (b : Ref sig .tc) (hb : b ∉ writes_40) :
    W41 m ρ c (Proc.devRef .tc b) = W40 m ρ c (Proc.devRef .tc b) :=
  StableHlo.after_of_forall_not_mem hostOps12_2 _ (not_mem_writes writes_40_are b hb)

/-- The arrays pallas_call 12 writes: its output windows' (an input window's array is only read). -/
noncomputable def writes_41 : List (Ref sig .tc) :=
  [main_v153]
/-- A reference that is not an output array of pallas_call 12 holds at boundary 42 what it held at boundary 41:
    an input array is left as entered (no write-back folds into it), any other buffer is outside the arrays. -/
theorem step_41 (c : Dev nD) (b : Ref sig .tc) (hb : b ∉ writes_41) :
    W42 m ρ c (Proc.devRef .tc b) = W41 m ρ c (Proc.devRef .tc b) := by
  by_cases h : ∃ w, Pipeline.arrRef spec12 w = b
  · obtain ⟨w, rfl⟩ := h
    have hin : (cfg12.win w).isOut = false :=
      (by decide : ∀ w : Fin cfg12.W, Pipeline.arrRef spec12 w ∉ writes_41 → (cfg12.win w).isOut = false) w hb
    exact (W42_arr m ρ c w).trans
      (((dat12 (V41 m ρ) c).arrAt_in w hin _).trans (A_eq12 (V41 m ρ) c w))
  · exact W42_of_ne m ρ c b fun w e => h ⟨w, e⟩

/-- The references the host operations between boundaries 42 and 43 write, in the operations' order: each
    operation's result. -/
noncomputable def writes_42 : List (Ref sig .tc) :=
  [main_cst_22, main_v154, main_v155, main_v156, main_v157, main_v158, main_cst_23, main_v159, main_v160,
   main_v161, main_v162, main_v163, main_v164, main_v165, main_v166, main_v167, main_v168, main_v169,
   main_v170, main_v171, main_v172, main_v173, main_v174, main_v175, main_v176, main_v177, main_v178,
   main_v179, main_v180, main_v181, main_v182, main_v183]
theorem writes_42_are :
    List.Forall₂ (fun (op : HloOp τ sig (Elt F)) (y : Ref sig .tc) => op.writes = {Proc.devRef (τ := τ) .tc y})
      hostOps13 writes_42 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil)))))))))))))))))))))))))))))))
/-- A reference none of these operations writes holds at boundary 43 what it held at boundary 42. -/
theorem step_42 (c : Dev nD) (b : Ref sig .tc) (hb : b ∉ writes_42) :
    W43 m ρ c (Proc.devRef .tc b) = W42 m ρ c (Proc.devRef .tc b) :=
  StableHlo.after_of_forall_not_mem hostOps13 _ (not_mem_writes writes_42_are b hb)

/-- The arrays pallas_call 13 writes: its output windows' (an input window's array is only read). -/
noncomputable def writes_43 : List (Ref sig .tc) :=
  [main_v184]
/-- A reference that is not an output array of pallas_call 13 holds at boundary 44 what it held at boundary 43:
    an input array is left as entered (no write-back folds into it), any other buffer is outside the arrays. -/
theorem step_43 (c : Dev nD) (b : Ref sig .tc) (hb : b ∉ writes_43) :
    W44 m ρ c (Proc.devRef .tc b) = W43 m ρ c (Proc.devRef .tc b) := by
  by_cases h : ∃ w, Pipeline.arrRef spec13 w = b
  · obtain ⟨w, rfl⟩ := h
    have hin : (cfg13.win w).isOut = false :=
      (by decide : ∀ w : Fin cfg13.W, Pipeline.arrRef spec13 w ∉ writes_43 → (cfg13.win w).isOut = false) w hb
    exact (W44_arr m ρ c w).trans
      (((dat13 (V43 m ρ) c).arrAt_in w hin _).trans (A_eq13 (V43 m ρ) c w))
  · exact W44_of_ne m ρ c b fun w e => h ⟨w, e⟩

/-- The references the host operations between boundaries 44 and 45 write, in the operations' order: each
    operation's result. -/
noncomputable def writes_44 : List (Ref sig .tc) :=
  [main_cst_24, main_v185, main_v186, main_cst_25, main_v187, main_v188, main_c_26]
theorem writes_44_are :
    List.Forall₂ (fun (op : HloOp τ sig (Elt F)) (y : Ref sig .tc) => op.writes = {Proc.devRef (τ := τ) .tc y})
      hostOps14 writes_44 :=
  .cons rfl (.cons rfl (.cons rfl (.cons rfl (.cons rfl (.cons rfl (.cons rfl .nil))))))
/-- A reference none of these operations writes holds at boundary 45 what it held at boundary 44. -/
theorem step_44 (c : Dev nD) (b : Ref sig .tc) (hb : b ∉ writes_44) :
    W45 m ρ c (Proc.devRef .tc b) = W44 m ρ c (Proc.devRef .tc b) :=
  StableHlo.after_of_forall_not_mem hostOps14 _ (not_mem_writes writes_44_are b hb)

/-- The references the host operations between boundaries 45 and 46 write, in the operations' order: each
    operation's result. -/
noncomputable def writes_45 : List (Ref sig .tc) :=
  [main_call15_cst, main_call15_v0, main_call15_v1, main_call15_cst_0, main_call15_v2, main_call15_v3,
   main_call15_v4, main_call15_v5, main_call15_v6, main_call15_v7, main_call15_cst_1, main_call15_v8,
   main_call15_cst_2, main_call15_v9, main_call15_v10, main_call15_v11, main_call15_v12, main_call15_cst_3,
   main_call15_v13, main_call15_cst_4, main_call15_call0_v0, main_call15_call0_v1, main_v189]
theorem writes_45_are :
    List.Forall₂ (fun (op : HloOp τ sig (Elt F)) (y : Ref sig .tc) => op.writes = {Proc.devRef (τ := τ) .tc y})
      hostOps14_1 writes_45 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 46 what it held at boundary 45. -/
theorem step_45 (c : Dev nD) (b : Ref sig .tc) (hb : b ∉ writes_45) :
    W46 m ρ c (Proc.devRef .tc b) = W45 m ρ c (Proc.devRef .tc b) :=
  StableHlo.after_of_forall_not_mem hostOps14_1 _ (not_mem_writes writes_45_are b hb)

/-- The arrays pallas_call 14 writes: its output windows' (an input window's array is only read). -/
noncomputable def writes_46 : List (Ref sig .tc) :=
  [main_v190]
/-- A reference that is not an output array of pallas_call 14 holds at boundary 47 what it held at boundary 46:
    an input array is left as entered (no write-back folds into it), any other buffer is outside the arrays. -/
theorem step_46 (c : Dev nD) (b : Ref sig .tc) (hb : b ∉ writes_46) :
    W47 m ρ c (Proc.devRef .tc b) = W46 m ρ c (Proc.devRef .tc b) := by
  by_cases h : ∃ w, Pipeline.arrRef spec14 w = b
  · obtain ⟨w, rfl⟩ := h
    have hin : (cfg14.win w).isOut = false :=
      (by decide : ∀ w : Fin cfg14.W, Pipeline.arrRef spec14 w ∉ writes_46 → (cfg14.win w).isOut = false) w hb
    exact (W47_arr m ρ c w).trans
      (((dat14 (V46 m ρ) c).arrAt_in w hin _).trans (A_eq14 (V46 m ρ) c w))
  · exact W47_of_ne m ρ c b fun w e => h ⟨w, e⟩

/-- The references the host operations between boundaries 47 and 48 write, in the operations' order: each
    operation's result. -/
noncomputable def writes_47 : List (Ref sig .tc) :=
  [main_cst_27, main_v191, main_v192, main_cst_28, main_v193, main_v194, main_c_29]
theorem writes_47_are :
    List.Forall₂ (fun (op : HloOp τ sig (Elt F)) (y : Ref sig .tc) => op.writes = {Proc.devRef (τ := τ) .tc y})
      hostOps15 writes_47 :=
  .cons rfl (.cons rfl (.cons rfl (.cons rfl (.cons rfl (.cons rfl (.cons rfl .nil))))))
/-- A reference none of these operations writes holds at boundary 48 what it held at boundary 47. -/
theorem step_47 (c : Dev nD) (b : Ref sig .tc) (hb : b ∉ writes_47) :
    W48 m ρ c (Proc.devRef .tc b) = W47 m ρ c (Proc.devRef .tc b) :=
  StableHlo.after_of_forall_not_mem hostOps15 _ (not_mem_writes writes_47_are b hb)

/-- The references the host operations between boundaries 48 and 49 write, in the operations' order: each
    operation's result. -/
noncomputable def writes_48 : List (Ref sig .tc) :=
  [main_call16_cst, main_call16_v0, main_call16_v1, main_call16_cst_0, main_call16_v2, main_call16_v3,
   main_call16_v4, main_call16_v5, main_call16_v6, main_call16_v7, main_call16_cst_1, main_call16_v8,
   main_call16_cst_2, main_call16_v9, main_call16_v10, main_call16_v11, main_call16_v12, main_call16_cst_3,
   main_call16_v13, main_call16_cst_4, main_call16_call0_v0, main_call16_call0_v1, main_v195]
theorem writes_48_are :
    List.Forall₂ (fun (op : HloOp τ sig (Elt F)) (y : Ref sig .tc) => op.writes = {Proc.devRef (τ := τ) .tc y})
      hostOps15_1 writes_48 :=
  .cons rfl (.cons rfl (.cons rfl (.cons rfl (.cons rfl (.cons rfl (.cons rfl (.cons rfl (.cons rfl (
    .cons rfl (.cons rfl (.cons rfl (.cons rfl (.cons rfl (.cons rfl (.cons rfl (.cons rfl (.cons rfl (
    .cons rfl (.cons rfl (.cons rfl (.cons rfl (.cons rfl .nil))))))))))))))))))))))
/-- A reference none of these operations writes holds at boundary 49 what it held at boundary 48. -/
theorem step_48 (c : Dev nD) (b : Ref sig .tc) (hb : b ∉ writes_48) :
    W49 m ρ c (Proc.devRef .tc b) = W48 m ρ c (Proc.devRef .tc b) :=
  StableHlo.after_of_forall_not_mem hostOps15_1 _ (not_mem_writes writes_48_are b hb)

/-- The arrays pallas_call 15 writes: its output windows' (an input window's array is only read). -/
noncomputable def writes_49 : List (Ref sig .tc) :=
  [main_v196]
/-- A reference that is not an output array of pallas_call 15 holds at boundary 50 what it held at boundary 49:
    an input array is left as entered (no write-back folds into it), any other buffer is outside the arrays. -/
theorem step_49 (c : Dev nD) (b : Ref sig .tc) (hb : b ∉ writes_49) :
    W50 m ρ c (Proc.devRef .tc b) = W49 m ρ c (Proc.devRef .tc b) := by
  by_cases h : ∃ w, Pipeline.arrRef spec15 w = b
  · obtain ⟨w, rfl⟩ := h
    have hin : (cfg15.win w).isOut = false :=
      (by decide : ∀ w : Fin cfg15.W, Pipeline.arrRef spec15 w ∉ writes_49 → (cfg15.win w).isOut = false) w hb
    exact (W50_arr m ρ c w).trans
      (((dat15 (V49 m ρ) c).arrAt_in w hin _).trans (A_eq15 (V49 m ρ) c w))
  · exact W50_of_ne m ρ c b fun w e => h ⟨w, e⟩

/-- The references the host operations between boundaries 50 and 51 write, in the operations' order: each
    operation's result. -/
noncomputable def writes_50 : List (Ref sig .tc) :=
  [main_cst_30, main_v197, main_v198, main_v199, main_v200, main_v201]
theorem writes_50_are :
    List.Forall₂ (fun (op : HloOp τ sig (Elt F)) (y : Ref sig .tc) => op.writes = {Proc.devRef (τ := τ) .tc y})
      hostOps16 writes_50 :=
  .cons rfl (.cons rfl (.cons rfl (.cons rfl (.cons rfl (.cons rfl .nil)))))
/-- A reference none of these operations writes holds at boundary 51 what it held at boundary 50. -/
theorem step_50 (c : Dev nD) (b : Ref sig .tc) (hb : b ∉ writes_50) :
    W51 m ρ c (Proc.devRef .tc b) = W50 m ρ c (Proc.devRef .tc b) :=
  StableHlo.after_of_forall_not_mem hostOps16 _ (not_mem_writes writes_50_are b hb)

/-- The arrays pallas_call 16 writes: its output windows' (an input window's array is only read). -/
noncomputable def writes_51 : List (Ref sig .tc) :=
  [main_v202]
/-- A reference that is not an output array of pallas_call 16 holds at boundary 52 what it held at boundary 51:
    an input array is left as entered (no write-back folds into it), any other buffer is outside the arrays. -/
theorem step_51 (c : Dev nD) (b : Ref sig .tc) (hb : b ∉ writes_51) :
    W52 m ρ c (Proc.devRef .tc b) = W51 m ρ c (Proc.devRef .tc b) := by
  by_cases h : ∃ w, Pipeline.arrRef spec16 w = b
  · obtain ⟨w, rfl⟩ := h
    have hin : (cfg16.win w).isOut = false :=
      (by decide : ∀ w : Fin cfg16.W, Pipeline.arrRef spec16 w ∉ writes_51 → (cfg16.win w).isOut = false) w hb
    exact (W52_arr m ρ c w).trans
      (((dat16 (V51 m ρ) c).arrAt_in w hin _).trans (A_eq16 (V51 m ρ) c w))
  · exact W52_of_ne m ρ c b fun w e => h ⟨w, e⟩

/-! ## The steps chained from each boundary to the end -/

/-- The buffers written from boundary 51 on. -/
noncomputable def writtenFrom_51 : List (Ref sig .tc) := writes_51
theorem toEnd_51 (c : Dev nD) (b : Ref sig .tc) (hb : b ∉ writtenFrom_51) :
    W51 m ρ c (Proc.devRef .tc b) = W52 m ρ c (Proc.devRef .tc b) :=
  (step_51 m ρ c b hb).symm

/-- The buffers written from boundary 50 on. -/
noncomputable def writtenFrom_50 : List (Ref sig .tc) := writes_50 ++ writtenFrom_51
theorem toEnd_50 (c : Dev nD) (b : Ref sig .tc) (hb : b ∉ writtenFrom_50) :
    W50 m ρ c (Proc.devRef .tc b) = W52 m ρ c (Proc.devRef .tc b) :=
  (step_50 m ρ c b fun h => hb (List.mem_append_left writtenFrom_51 h)).symm.trans
    (toEnd_51 m ρ c b fun h => hb (List.mem_append_right writes_50 h))

/-- The buffers written from boundary 49 on. -/
noncomputable def writtenFrom_49 : List (Ref sig .tc) := writes_49 ++ writtenFrom_50
theorem toEnd_49 (c : Dev nD) (b : Ref sig .tc) (hb : b ∉ writtenFrom_49) :
    W49 m ρ c (Proc.devRef .tc b) = W52 m ρ c (Proc.devRef .tc b) :=
  (step_49 m ρ c b fun h => hb (List.mem_append_left writtenFrom_50 h)).symm.trans
    (toEnd_50 m ρ c b fun h => hb (List.mem_append_right writes_49 h))

/-- The buffers written from boundary 48 on. -/
noncomputable def writtenFrom_48 : List (Ref sig .tc) := writes_48 ++ writtenFrom_49
theorem toEnd_48 (c : Dev nD) (b : Ref sig .tc) (hb : b ∉ writtenFrom_48) :
    W48 m ρ c (Proc.devRef .tc b) = W52 m ρ c (Proc.devRef .tc b) :=
  (step_48 m ρ c b fun h => hb (List.mem_append_left writtenFrom_49 h)).symm.trans
    (toEnd_49 m ρ c b fun h => hb (List.mem_append_right writes_48 h))

/-- The buffers written from boundary 47 on. -/
noncomputable def writtenFrom_47 : List (Ref sig .tc) := writes_47 ++ writtenFrom_48
theorem toEnd_47 (c : Dev nD) (b : Ref sig .tc) (hb : b ∉ writtenFrom_47) :
    W47 m ρ c (Proc.devRef .tc b) = W52 m ρ c (Proc.devRef .tc b) :=
  (step_47 m ρ c b fun h => hb (List.mem_append_left writtenFrom_48 h)).symm.trans
    (toEnd_48 m ρ c b fun h => hb (List.mem_append_right writes_47 h))

/-- The buffers written from boundary 46 on. -/
noncomputable def writtenFrom_46 : List (Ref sig .tc) := writes_46 ++ writtenFrom_47
theorem toEnd_46 (c : Dev nD) (b : Ref sig .tc) (hb : b ∉ writtenFrom_46) :
    W46 m ρ c (Proc.devRef .tc b) = W52 m ρ c (Proc.devRef .tc b) :=
  (step_46 m ρ c b fun h => hb (List.mem_append_left writtenFrom_47 h)).symm.trans
    (toEnd_47 m ρ c b fun h => hb (List.mem_append_right writes_46 h))

/-- The buffers written from boundary 45 on. -/
noncomputable def writtenFrom_45 : List (Ref sig .tc) := writes_45 ++ writtenFrom_46
theorem toEnd_45 (c : Dev nD) (b : Ref sig .tc) (hb : b ∉ writtenFrom_45) :
    W45 m ρ c (Proc.devRef .tc b) = W52 m ρ c (Proc.devRef .tc b) :=
  (step_45 m ρ c b fun h => hb (List.mem_append_left writtenFrom_46 h)).symm.trans
    (toEnd_46 m ρ c b fun h => hb (List.mem_append_right writes_45 h))

/-- The buffers written from boundary 44 on. -/
noncomputable def writtenFrom_44 : List (Ref sig .tc) := writes_44 ++ writtenFrom_45
theorem toEnd_44 (c : Dev nD) (b : Ref sig .tc) (hb : b ∉ writtenFrom_44) :
    W44 m ρ c (Proc.devRef .tc b) = W52 m ρ c (Proc.devRef .tc b) :=
  (step_44 m ρ c b fun h => hb (List.mem_append_left writtenFrom_45 h)).symm.trans
    (toEnd_45 m ρ c b fun h => hb (List.mem_append_right writes_44 h))

/-- The buffers written from boundary 43 on. -/
noncomputable def writtenFrom_43 : List (Ref sig .tc) := writes_43 ++ writtenFrom_44
theorem toEnd_43 (c : Dev nD) (b : Ref sig .tc) (hb : b ∉ writtenFrom_43) :
    W43 m ρ c (Proc.devRef .tc b) = W52 m ρ c (Proc.devRef .tc b) :=
  (step_43 m ρ c b fun h => hb (List.mem_append_left writtenFrom_44 h)).symm.trans
    (toEnd_44 m ρ c b fun h => hb (List.mem_append_right writes_43 h))

/-- The buffers written from boundary 42 on. -/
noncomputable def writtenFrom_42 : List (Ref sig .tc) := writes_42 ++ writtenFrom_43
theorem toEnd_42 (c : Dev nD) (b : Ref sig .tc) (hb : b ∉ writtenFrom_42) :
    W42 m ρ c (Proc.devRef .tc b) = W52 m ρ c (Proc.devRef .tc b) :=
  (step_42 m ρ c b fun h => hb (List.mem_append_left writtenFrom_43 h)).symm.trans
    (toEnd_43 m ρ c b fun h => hb (List.mem_append_right writes_42 h))

/-- The buffers written from boundary 41 on. -/
noncomputable def writtenFrom_41 : List (Ref sig .tc) := writes_41 ++ writtenFrom_42
theorem toEnd_41 (c : Dev nD) (b : Ref sig .tc) (hb : b ∉ writtenFrom_41) :
    W41 m ρ c (Proc.devRef .tc b) = W52 m ρ c (Proc.devRef .tc b) :=
  (step_41 m ρ c b fun h => hb (List.mem_append_left writtenFrom_42 h)).symm.trans
    (toEnd_42 m ρ c b fun h => hb (List.mem_append_right writes_41 h))

/-- The buffers written from boundary 40 on. -/
noncomputable def writtenFrom_40 : List (Ref sig .tc) := writes_40 ++ writtenFrom_41
theorem toEnd_40 (c : Dev nD) (b : Ref sig .tc) (hb : b ∉ writtenFrom_40) :
    W40 m ρ c (Proc.devRef .tc b) = W52 m ρ c (Proc.devRef .tc b) :=
  (step_40 m ρ c b fun h => hb (List.mem_append_left writtenFrom_41 h)).symm.trans
    (toEnd_41 m ρ c b fun h => hb (List.mem_append_right writes_40 h))

/-- The buffers written from boundary 39 on. -/
noncomputable def writtenFrom_39 : List (Ref sig .tc) := writes_39 ++ writtenFrom_40
theorem toEnd_39 (c : Dev nD) (b : Ref sig .tc) (hb : b ∉ writtenFrom_39) :
    W39 m ρ c (Proc.devRef .tc b) = W52 m ρ c (Proc.devRef .tc b) :=
  (step_39 m ρ c b fun h => hb (List.mem_append_left writtenFrom_40 h)).symm.trans
    (toEnd_40 m ρ c b fun h => hb (List.mem_append_right writes_39 h))

/-- The buffers written from boundary 38 on. -/
noncomputable def writtenFrom_38 : List (Ref sig .tc) := writes_38 ++ writtenFrom_39
theorem toEnd_38 (c : Dev nD) (b : Ref sig .tc) (hb : b ∉ writtenFrom_38) :
    W38 m ρ c (Proc.devRef .tc b) = W52 m ρ c (Proc.devRef .tc b) :=
  (step_38 m ρ c b fun h => hb (List.mem_append_left writtenFrom_39 h)).symm.trans
    (toEnd_39 m ρ c b fun h => hb (List.mem_append_right writes_38 h))

/-- The buffers written from boundary 37 on. -/
noncomputable def writtenFrom_37 : List (Ref sig .tc) := writes_37 ++ writtenFrom_38
theorem toEnd_37 (c : Dev nD) (b : Ref sig .tc) (hb : b ∉ writtenFrom_37) :
    W37 m ρ c (Proc.devRef .tc b) = W52 m ρ c (Proc.devRef .tc b) :=
  (step_37 m ρ c b fun h => hb (List.mem_append_left writtenFrom_38 h)).symm.trans
    (toEnd_38 m ρ c b fun h => hb (List.mem_append_right writes_37 h))

/-- The buffers written from boundary 36 on. -/
noncomputable def writtenFrom_36 : List (Ref sig .tc) := writes_36 ++ writtenFrom_37
theorem toEnd_36 (c : Dev nD) (b : Ref sig .tc) (hb : b ∉ writtenFrom_36) :
    W36 m ρ c (Proc.devRef .tc b) = W52 m ρ c (Proc.devRef .tc b) :=
  (step_36 m ρ c b fun h => hb (List.mem_append_left writtenFrom_37 h)).symm.trans
    (toEnd_37 m ρ c b fun h => hb (List.mem_append_right writes_36 h))

/-- The buffers written from boundary 35 on. -/
noncomputable def writtenFrom_35 : List (Ref sig .tc) := writes_35 ++ writtenFrom_36
theorem toEnd_35 (c : Dev nD) (b : Ref sig .tc) (hb : b ∉ writtenFrom_35) :
    W35 m ρ c (Proc.devRef .tc b) = W52 m ρ c (Proc.devRef .tc b) :=
  (step_35 m ρ c b fun h => hb (List.mem_append_left writtenFrom_36 h)).symm.trans
    (toEnd_36 m ρ c b fun h => hb (List.mem_append_right writes_35 h))

/-- The buffers written from boundary 34 on. -/
noncomputable def writtenFrom_34 : List (Ref sig .tc) := writes_34 ++ writtenFrom_35
theorem toEnd_34 (c : Dev nD) (b : Ref sig .tc) (hb : b ∉ writtenFrom_34) :
    W34 m ρ c (Proc.devRef .tc b) = W52 m ρ c (Proc.devRef .tc b) :=
  (step_34 m ρ c b fun h => hb (List.mem_append_left writtenFrom_35 h)).symm.trans
    (toEnd_35 m ρ c b fun h => hb (List.mem_append_right writes_34 h))

/-- The buffers written from boundary 33 on. -/
noncomputable def writtenFrom_33 : List (Ref sig .tc) := writes_33 ++ writtenFrom_34
theorem toEnd_33 (c : Dev nD) (b : Ref sig .tc) (hb : b ∉ writtenFrom_33) :
    W33 m ρ c (Proc.devRef .tc b) = W52 m ρ c (Proc.devRef .tc b) :=
  (step_33 m ρ c b fun h => hb (List.mem_append_left writtenFrom_34 h)).symm.trans
    (toEnd_34 m ρ c b fun h => hb (List.mem_append_right writes_33 h))

/-- The buffers written from boundary 32 on. -/
noncomputable def writtenFrom_32 : List (Ref sig .tc) := writes_32 ++ writtenFrom_33
theorem toEnd_32 (c : Dev nD) (b : Ref sig .tc) (hb : b ∉ writtenFrom_32) :
    W32 m ρ c (Proc.devRef .tc b) = W52 m ρ c (Proc.devRef .tc b) :=
  (step_32 m ρ c b fun h => hb (List.mem_append_left writtenFrom_33 h)).symm.trans
    (toEnd_33 m ρ c b fun h => hb (List.mem_append_right writes_32 h))

/-- The buffers written from boundary 31 on. -/
noncomputable def writtenFrom_31 : List (Ref sig .tc) := writes_31 ++ writtenFrom_32
theorem toEnd_31 (c : Dev nD) (b : Ref sig .tc) (hb : b ∉ writtenFrom_31) :
    W31 m ρ c (Proc.devRef .tc b) = W52 m ρ c (Proc.devRef .tc b) :=
  (step_31 m ρ c b fun h => hb (List.mem_append_left writtenFrom_32 h)).symm.trans
    (toEnd_32 m ρ c b fun h => hb (List.mem_append_right writes_31 h))

/-- The buffers written from boundary 30 on. -/
noncomputable def writtenFrom_30 : List (Ref sig .tc) := writes_30 ++ writtenFrom_31
theorem toEnd_30 (c : Dev nD) (b : Ref sig .tc) (hb : b ∉ writtenFrom_30) :
    W30 m ρ c (Proc.devRef .tc b) = W52 m ρ c (Proc.devRef .tc b) :=
  (step_30 m ρ c b fun h => hb (List.mem_append_left writtenFrom_31 h)).symm.trans
    (toEnd_31 m ρ c b fun h => hb (List.mem_append_right writes_30 h))

/-- The buffers written from boundary 29 on. -/
noncomputable def writtenFrom_29 : List (Ref sig .tc) := writes_29 ++ writtenFrom_30
theorem toEnd_29 (c : Dev nD) (b : Ref sig .tc) (hb : b ∉ writtenFrom_29) :
    W29 m ρ c (Proc.devRef .tc b) = W52 m ρ c (Proc.devRef .tc b) :=
  (step_29 m ρ c b fun h => hb (List.mem_append_left writtenFrom_30 h)).symm.trans
    (toEnd_30 m ρ c b fun h => hb (List.mem_append_right writes_29 h))

/-- The buffers written from boundary 28 on. -/
noncomputable def writtenFrom_28 : List (Ref sig .tc) := writes_28 ++ writtenFrom_29
theorem toEnd_28 (c : Dev nD) (b : Ref sig .tc) (hb : b ∉ writtenFrom_28) :
    W28 m ρ c (Proc.devRef .tc b) = W52 m ρ c (Proc.devRef .tc b) :=
  (step_28 m ρ c b fun h => hb (List.mem_append_left writtenFrom_29 h)).symm.trans
    (toEnd_29 m ρ c b fun h => hb (List.mem_append_right writes_28 h))

/-- The buffers written from boundary 27 on. -/
noncomputable def writtenFrom_27 : List (Ref sig .tc) := writes_27 ++ writtenFrom_28
theorem toEnd_27 (c : Dev nD) (b : Ref sig .tc) (hb : b ∉ writtenFrom_27) :
    W27 m ρ c (Proc.devRef .tc b) = W52 m ρ c (Proc.devRef .tc b) :=
  (step_27 m ρ c b fun h => hb (List.mem_append_left writtenFrom_28 h)).symm.trans
    (toEnd_28 m ρ c b fun h => hb (List.mem_append_right writes_27 h))

/-- The buffers written from boundary 26 on. -/
noncomputable def writtenFrom_26 : List (Ref sig .tc) := writes_26 ++ writtenFrom_27
theorem toEnd_26 (c : Dev nD) (b : Ref sig .tc) (hb : b ∉ writtenFrom_26) :
    W26 m ρ c (Proc.devRef .tc b) = W52 m ρ c (Proc.devRef .tc b) :=
  (step_26 m ρ c b fun h => hb (List.mem_append_left writtenFrom_27 h)).symm.trans
    (toEnd_27 m ρ c b fun h => hb (List.mem_append_right writes_26 h))

/-- The buffers written from boundary 25 on. -/
noncomputable def writtenFrom_25 : List (Ref sig .tc) := writes_25 ++ writtenFrom_26
theorem toEnd_25 (c : Dev nD) (b : Ref sig .tc) (hb : b ∉ writtenFrom_25) :
    W25 m ρ c (Proc.devRef .tc b) = W52 m ρ c (Proc.devRef .tc b) :=
  (step_25 m ρ c b fun h => hb (List.mem_append_left writtenFrom_26 h)).symm.trans
    (toEnd_26 m ρ c b fun h => hb (List.mem_append_right writes_25 h))

/-- The buffers written from boundary 24 on. -/
noncomputable def writtenFrom_24 : List (Ref sig .tc) := writes_24 ++ writtenFrom_25
theorem toEnd_24 (c : Dev nD) (b : Ref sig .tc) (hb : b ∉ writtenFrom_24) :
    W24 m ρ c (Proc.devRef .tc b) = W52 m ρ c (Proc.devRef .tc b) :=
  (step_24 m ρ c b fun h => hb (List.mem_append_left writtenFrom_25 h)).symm.trans
    (toEnd_25 m ρ c b fun h => hb (List.mem_append_right writes_24 h))

/-- The buffers written from boundary 23 on. -/
noncomputable def writtenFrom_23 : List (Ref sig .tc) := writes_23 ++ writtenFrom_24
theorem toEnd_23 (c : Dev nD) (b : Ref sig .tc) (hb : b ∉ writtenFrom_23) :
    W23 m ρ c (Proc.devRef .tc b) = W52 m ρ c (Proc.devRef .tc b) :=
  (step_23 m ρ c b fun h => hb (List.mem_append_left writtenFrom_24 h)).symm.trans
    (toEnd_24 m ρ c b fun h => hb (List.mem_append_right writes_23 h))

/-- The buffers written from boundary 22 on. -/
noncomputable def writtenFrom_22 : List (Ref sig .tc) := writes_22 ++ writtenFrom_23
theorem toEnd_22 (c : Dev nD) (b : Ref sig .tc) (hb : b ∉ writtenFrom_22) :
    W22 m ρ c (Proc.devRef .tc b) = W52 m ρ c (Proc.devRef .tc b) :=
  (step_22 m ρ c b fun h => hb (List.mem_append_left writtenFrom_23 h)).symm.trans
    (toEnd_23 m ρ c b fun h => hb (List.mem_append_right writes_22 h))

/-- The buffers written from boundary 21 on. -/
noncomputable def writtenFrom_21 : List (Ref sig .tc) := writes_21 ++ writtenFrom_22
theorem toEnd_21 (c : Dev nD) (b : Ref sig .tc) (hb : b ∉ writtenFrom_21) :
    W21 m ρ c (Proc.devRef .tc b) = W52 m ρ c (Proc.devRef .tc b) :=
  (step_21 m ρ c b fun h => hb (List.mem_append_left writtenFrom_22 h)).symm.trans
    (toEnd_22 m ρ c b fun h => hb (List.mem_append_right writes_21 h))

/-- The buffers written from boundary 20 on. -/
noncomputable def writtenFrom_20 : List (Ref sig .tc) := writes_20 ++ writtenFrom_21
theorem toEnd_20 (c : Dev nD) (b : Ref sig .tc) (hb : b ∉ writtenFrom_20) :
    W20 m ρ c (Proc.devRef .tc b) = W52 m ρ c (Proc.devRef .tc b) :=
  (step_20 m ρ c b fun h => hb (List.mem_append_left writtenFrom_21 h)).symm.trans
    (toEnd_21 m ρ c b fun h => hb (List.mem_append_right writes_20 h))

/-- The buffers written from boundary 19 on. -/
noncomputable def writtenFrom_19 : List (Ref sig .tc) := writes_19 ++ writtenFrom_20
theorem toEnd_19 (c : Dev nD) (b : Ref sig .tc) (hb : b ∉ writtenFrom_19) :
    W19 m ρ c (Proc.devRef .tc b) = W52 m ρ c (Proc.devRef .tc b) :=
  (step_19 m ρ c b fun h => hb (List.mem_append_left writtenFrom_20 h)).symm.trans
    (toEnd_20 m ρ c b fun h => hb (List.mem_append_right writes_19 h))

/-- The buffers written from boundary 18 on. -/
noncomputable def writtenFrom_18 : List (Ref sig .tc) := writes_18 ++ writtenFrom_19
theorem toEnd_18 (c : Dev nD) (b : Ref sig .tc) (hb : b ∉ writtenFrom_18) :
    W18 m ρ c (Proc.devRef .tc b) = W52 m ρ c (Proc.devRef .tc b) :=
  (step_18 m ρ c b fun h => hb (List.mem_append_left writtenFrom_19 h)).symm.trans
    (toEnd_19 m ρ c b fun h => hb (List.mem_append_right writes_18 h))

/-- The buffers written from boundary 17 on. -/
noncomputable def writtenFrom_17 : List (Ref sig .tc) := writes_17 ++ writtenFrom_18
theorem toEnd_17 (c : Dev nD) (b : Ref sig .tc) (hb : b ∉ writtenFrom_17) :
    W17 m ρ c (Proc.devRef .tc b) = W52 m ρ c (Proc.devRef .tc b) :=
  (step_17 m ρ c b fun h => hb (List.mem_append_left writtenFrom_18 h)).symm.trans
    (toEnd_18 m ρ c b fun h => hb (List.mem_append_right writes_17 h))

/-- The buffers written from boundary 16 on. -/
noncomputable def writtenFrom_16 : List (Ref sig .tc) := writes_16 ++ writtenFrom_17
theorem toEnd_16 (c : Dev nD) (b : Ref sig .tc) (hb : b ∉ writtenFrom_16) :
    W16 m ρ c (Proc.devRef .tc b) = W52 m ρ c (Proc.devRef .tc b) :=
  (step_16 m ρ c b fun h => hb (List.mem_append_left writtenFrom_17 h)).symm.trans
    (toEnd_17 m ρ c b fun h => hb (List.mem_append_right writes_16 h))

/-- The buffers written from boundary 15 on. -/
noncomputable def writtenFrom_15 : List (Ref sig .tc) := writes_15 ++ writtenFrom_16
theorem toEnd_15 (c : Dev nD) (b : Ref sig .tc) (hb : b ∉ writtenFrom_15) :
    W15 m ρ c (Proc.devRef .tc b) = W52 m ρ c (Proc.devRef .tc b) :=
  (step_15 m ρ c b fun h => hb (List.mem_append_left writtenFrom_16 h)).symm.trans
    (toEnd_16 m ρ c b fun h => hb (List.mem_append_right writes_15 h))

/-- The buffers written from boundary 14 on. -/
noncomputable def writtenFrom_14 : List (Ref sig .tc) := writes_14 ++ writtenFrom_15
theorem toEnd_14 (c : Dev nD) (b : Ref sig .tc) (hb : b ∉ writtenFrom_14) :
    W14 m ρ c (Proc.devRef .tc b) = W52 m ρ c (Proc.devRef .tc b) :=
  (step_14 m ρ c b fun h => hb (List.mem_append_left writtenFrom_15 h)).symm.trans
    (toEnd_15 m ρ c b fun h => hb (List.mem_append_right writes_14 h))

/-- The buffers written from boundary 13 on. -/
noncomputable def writtenFrom_13 : List (Ref sig .tc) := writes_13 ++ writtenFrom_14
theorem toEnd_13 (c : Dev nD) (b : Ref sig .tc) (hb : b ∉ writtenFrom_13) :
    W13 m ρ c (Proc.devRef .tc b) = W52 m ρ c (Proc.devRef .tc b) :=
  (step_13 m ρ c b fun h => hb (List.mem_append_left writtenFrom_14 h)).symm.trans
    (toEnd_14 m ρ c b fun h => hb (List.mem_append_right writes_13 h))

/-- The buffers written from boundary 12 on. -/
noncomputable def writtenFrom_12 : List (Ref sig .tc) := writes_12 ++ writtenFrom_13
theorem toEnd_12 (c : Dev nD) (b : Ref sig .tc) (hb : b ∉ writtenFrom_12) :
    W12 m ρ c (Proc.devRef .tc b) = W52 m ρ c (Proc.devRef .tc b) :=
  (step_12 m ρ c b fun h => hb (List.mem_append_left writtenFrom_13 h)).symm.trans
    (toEnd_13 m ρ c b fun h => hb (List.mem_append_right writes_12 h))

/-- The buffers written from boundary 11 on. -/
noncomputable def writtenFrom_11 : List (Ref sig .tc) := writes_11 ++ writtenFrom_12
theorem toEnd_11 (c : Dev nD) (b : Ref sig .tc) (hb : b ∉ writtenFrom_11) :
    W11 m ρ c (Proc.devRef .tc b) = W52 m ρ c (Proc.devRef .tc b) :=
  (step_11 m ρ c b fun h => hb (List.mem_append_left writtenFrom_12 h)).symm.trans
    (toEnd_12 m ρ c b fun h => hb (List.mem_append_right writes_11 h))

/-- The buffers written from boundary 10 on. -/
noncomputable def writtenFrom_10 : List (Ref sig .tc) := writes_10 ++ writtenFrom_11
theorem toEnd_10 (c : Dev nD) (b : Ref sig .tc) (hb : b ∉ writtenFrom_10) :
    W10 m ρ c (Proc.devRef .tc b) = W52 m ρ c (Proc.devRef .tc b) :=
  (step_10 m ρ c b fun h => hb (List.mem_append_left writtenFrom_11 h)).symm.trans
    (toEnd_11 m ρ c b fun h => hb (List.mem_append_right writes_10 h))

/-- The buffers written from boundary 9 on. -/
noncomputable def writtenFrom_9 : List (Ref sig .tc) := writes_9 ++ writtenFrom_10
theorem toEnd_9 (c : Dev nD) (b : Ref sig .tc) (hb : b ∉ writtenFrom_9) :
    W9 m ρ c (Proc.devRef .tc b) = W52 m ρ c (Proc.devRef .tc b) :=
  (step_9 m ρ c b fun h => hb (List.mem_append_left writtenFrom_10 h)).symm.trans
    (toEnd_10 m ρ c b fun h => hb (List.mem_append_right writes_9 h))

/-- The buffers written from boundary 8 on. -/
noncomputable def writtenFrom_8 : List (Ref sig .tc) := writes_8 ++ writtenFrom_9
theorem toEnd_8 (c : Dev nD) (b : Ref sig .tc) (hb : b ∉ writtenFrom_8) :
    W8 m ρ c (Proc.devRef .tc b) = W52 m ρ c (Proc.devRef .tc b) :=
  (step_8 m ρ c b fun h => hb (List.mem_append_left writtenFrom_9 h)).symm.trans
    (toEnd_9 m ρ c b fun h => hb (List.mem_append_right writes_8 h))

/-- The buffers written from boundary 7 on. -/
noncomputable def writtenFrom_7 : List (Ref sig .tc) := writes_7 ++ writtenFrom_8
theorem toEnd_7 (c : Dev nD) (b : Ref sig .tc) (hb : b ∉ writtenFrom_7) :
    W7 m ρ c (Proc.devRef .tc b) = W52 m ρ c (Proc.devRef .tc b) :=
  (step_7 m ρ c b fun h => hb (List.mem_append_left writtenFrom_8 h)).symm.trans
    (toEnd_8 m ρ c b fun h => hb (List.mem_append_right writes_7 h))

/-- The buffers written from boundary 6 on. -/
noncomputable def writtenFrom_6 : List (Ref sig .tc) := writes_6 ++ writtenFrom_7
theorem toEnd_6 (c : Dev nD) (b : Ref sig .tc) (hb : b ∉ writtenFrom_6) :
    W6 m ρ c (Proc.devRef .tc b) = W52 m ρ c (Proc.devRef .tc b) :=
  (step_6 m ρ c b fun h => hb (List.mem_append_left writtenFrom_7 h)).symm.trans
    (toEnd_7 m ρ c b fun h => hb (List.mem_append_right writes_6 h))

/-- The buffers written from boundary 5 on. -/
noncomputable def writtenFrom_5 : List (Ref sig .tc) := writes_5 ++ writtenFrom_6
theorem toEnd_5 (c : Dev nD) (b : Ref sig .tc) (hb : b ∉ writtenFrom_5) :
    W5 m ρ c (Proc.devRef .tc b) = W52 m ρ c (Proc.devRef .tc b) :=
  (step_5 m ρ c b fun h => hb (List.mem_append_left writtenFrom_6 h)).symm.trans
    (toEnd_6 m ρ c b fun h => hb (List.mem_append_right writes_5 h))

/-- The buffers written from boundary 4 on. -/
noncomputable def writtenFrom_4 : List (Ref sig .tc) := writes_4 ++ writtenFrom_5
theorem toEnd_4 (c : Dev nD) (b : Ref sig .tc) (hb : b ∉ writtenFrom_4) :
    W4 m ρ c (Proc.devRef .tc b) = W52 m ρ c (Proc.devRef .tc b) :=
  (step_4 m ρ c b fun h => hb (List.mem_append_left writtenFrom_5 h)).symm.trans
    (toEnd_5 m ρ c b fun h => hb (List.mem_append_right writes_4 h))

/-- The buffers written from boundary 3 on. -/
noncomputable def writtenFrom_3 : List (Ref sig .tc) := writes_3 ++ writtenFrom_4
theorem toEnd_3 (c : Dev nD) (b : Ref sig .tc) (hb : b ∉ writtenFrom_3) :
    W3 m ρ c (Proc.devRef .tc b) = W52 m ρ c (Proc.devRef .tc b) :=
  (step_3 m ρ c b fun h => hb (List.mem_append_left writtenFrom_4 h)).symm.trans
    (toEnd_4 m ρ c b fun h => hb (List.mem_append_right writes_3 h))

/-- The buffers written from boundary 2 on. -/
noncomputable def writtenFrom_2 : List (Ref sig .tc) := writes_2 ++ writtenFrom_3
theorem toEnd_2 (c : Dev nD) (b : Ref sig .tc) (hb : b ∉ writtenFrom_2) :
    W2 m ρ c (Proc.devRef .tc b) = W52 m ρ c (Proc.devRef .tc b) :=
  (step_2 m ρ c b fun h => hb (List.mem_append_left writtenFrom_3 h)).symm.trans
    (toEnd_3 m ρ c b fun h => hb (List.mem_append_right writes_2 h))

/-- The buffers written from boundary 1 on. -/
noncomputable def writtenFrom_1 : List (Ref sig .tc) := writes_1 ++ writtenFrom_2
theorem toEnd_1 (c : Dev nD) (b : Ref sig .tc) (hb : b ∉ writtenFrom_1) :
    W1 m ρ c (Proc.devRef .tc b) = W52 m ρ c (Proc.devRef .tc b) :=
  (step_1 m ρ c b fun h => hb (List.mem_append_left writtenFrom_2 h)).symm.trans
    (toEnd_2 m ρ c b fun h => hb (List.mem_append_right writes_1 h))

/-- The buffers written from boundary 0 on. -/
noncomputable def writtenFrom_0 : List (Ref sig .tc) := writes_0 ++ writtenFrom_1
theorem toEnd_0 (c : Dev nD) (b : Ref sig .tc) (hb : b ∉ writtenFrom_0) :
    W0 m ρ c (Proc.devRef .tc b) = W52 m ρ c (Proc.devRef .tc b) :=
  (step_0 m ρ c b fun h => hb (List.mem_append_left writtenFrom_1 h)).symm.trans
    (toEnd_1 m ρ c b fun h => hb (List.mem_append_right writes_0 h))

end Cert.KernelIdeal.Keep

end
-- ==== Proof.Bridge.Head.lean ====
/- The head of the bridge between the idealized kernel program and the idealized reference: the edge sources and
   destinations (rows 0 and 1 of the edge index, each sliced out and laid flat) and the first node features (the rows
   of the 21-row embedding table taken at the node labels).

   Both programs take table rows at an index vector. The reference gathers at the index, negative indices first moved
   up by the table's height. The kernel program gathers the same way and then puts a fill value wherever the moved
   index falls outside the table. Under the range condition on the labels no index is negative and none falls outside,
   so the move is the identity, the guard is one everywhere, and both leave the plain gather. The general statements
   (any shapes, any table height) come first; the two programs' operation lists are then read at the buffers concerned,
   for every valuation, and joined. -/
import proofs.«417278_j53197464928922_1_alg».proof.Proof.Setup
import proofs.«417278_j53197464928922_1_alg».proof.Proof.KKeep
import proofs.«417278_j53197464928922_1_alg».proof.Proof.RKeep
import Idealize.ShloMosaic.PureOps.Ideal
import Idealize.ShloMosaic.PureOps.Reduce
import Idealize.ShloMosaic.Lib.ValueIdx

set_option maxRecDepth 16384

noncomputable section

namespace Cert.Bridge

open Idealize.ShloMosaic Idealize.ShloMosaic.TcCoe Idealize.SL.Sem

/-! ## The guarded take is the take when every index lies in the table

A take of table rows by an index vector is written two ways. One gathers at the index and keeps the gathered row.
The other gathers the same way and then replaces a row by a fill value unless its index lies between zero and the
last row; the guard is an and-reduction, over a unit axis, of the two comparisons. When every index lies in the
table the guard is one everywhere and the two agree, whatever the gathered rows are. -/

/-- A cast along an equation of a type with itself is the identity. -/
theorem cast_same {α : Sort _} (h : α = α) (a : α) : cast h a = a := eq_of_heq (cast_heq h a)

/-- A left fold by conjunction from one over bits that are all one is one. -/
theorem foldl_andi_all_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a List.mem_cons_self]; rfl
    rw [List.foldl_cons, e]
    exact foldl_andi_all_one f l fun n hn => h n (List.mem_cons_of_mem _ hn)

/-- An and-reduction from one is one at a result index when every operand element reducing into it is one. -/
theorem reduce_andi_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_all_one x _ fun i hi => hx i ?_
  simpa using (List.mem_filter.1 hi).2

/-- A signed word that is not negative is at least the zero word. -/
theorem cmpi_sge_zero {x : BitVec 32} (hx : 0 ≤ x.toInt) : IntOp.cmpi .sge x 0#32 = 1#1 := by
  unfold IntOp.cmpi
  simp only [BitVec.sle, BitVec.toInt_zero, hx, decide_true, BitVec.ofBool_true]; rfl

/-- A signed word at most another is below-or-equal to it. -/
theorem cmpi_sle_of_le {x y : BitVec 32} (h : x.toInt ≤ y.toInt) : IntOp.cmpi .sle x y = 1#1 := by
  unfold IntOp.cmpi
  simp only [BitVec.sle, h, decide_true, BitVec.ofBool_true]; rfl

/-- A signed word that is not negative is not below the zero word. -/
theorem cmpi_slt_zero {x : BitVec 32} (hx : 0 ≤ x.toInt) : IntOp.cmpi .slt x 0#32 = 0#1 := by
  unfold IntOp.cmpi
  have : ¬ x.toInt < 0 := by omega
  simp only [BitVec.slt, BitVec.toInt_zero, this, decide_false, BitVec.ofBool_false]; rfl

/-- THE GUARD IS ONE. With every index between zero and the bound, the select through the guard returns the kept
    branch: at any shapes, any broadcast axes, any reduced axes. -/
theorem select_guard_eq {α : Type} {s t u z z1 z2 zi : Shape} {axes : List (Fin s.rank)}
    {d0 : Fin z.rank → Fin s.rank} (h0 : z.BroadcastsInDim s d0)
    {d1 : Fin z1.rank → Fin z2.rank} (h1 : z1.BroadcastsInDim z2 d1)
    {d2 : Fin z2.rank → Fin s.rank} (h2 : z2.BroadcastsInDim s d2)
    (hr : s.ReducesTo axes t) (hu : 0 < zi.numel)
    {d3 : Fin t.rank → Fin u.rank} (h3 : t.BroadcastsInDim u d3)
    (v : IVec s 32) (hi : BitVec 32) (hv : ∀ i, 0 ≤ (v i).toInt ∧ (v i).toInt ≤ hi.toInt) (G D : u.Idx → α) :
    select (broadcastInDim u d3 h3 (Host.reduce IntOp.andi
        (andi (cmpi .sge v (broadcastInDim s d0 h0 (constantI z 32 0#32)))
          (cmpi .sle v (broadcastInDim s d2 h2 (broadcastInDim z2 d1 h1 (constantI z1 32 hi)))))
        (constantI zi 1 1#1) hr hu)) G D = G := by
  funext j
  rw [ValueIdx.select_apply]
  have hm : broadcastInDim u d3 h3 (Host.reduce IntOp.andi
        (andi (cmpi .sge v (broadcastInDim s d0 h0 (constantI z 32 0#32)))
          (cmpi .sle v (broadcastInDim s d2 h2 (broadcastInDim z2 d1 h1 (constantI z1 32 hi)))))
        (constantI zi 1 1#1) hr hu) j = 1#1 := by
    unfold broadcastInDim
    refine reduce_andi_all_one _ _ hr hu _ rfl fun i _ => ?_
    show IntOp.andi (IntOp.cmpi .sge (v i) 0#32) (IntOp.cmpi .sle (v i) hi) = 1#1
    rw [cmpi_sge_zero (hv i).1, cmpi_sle_of_le (hv i).2]; rfl
  rw [hm]; rfl

/-- THE WRAP IS THE IDENTITY. An index that is not negative is kept by the wrap of negative indices. -/
theorem select_wrap_eq {s z : Shape} {d0 : Fin z.rank → Fin s.rank} (h0 : z.BroadcastsInDim s d0)
    (x y : IVec s 32) (hx : ∀ i, 0 ≤ (x i).toInt) :
    select (cmpi .slt x (broadcastInDim s d0 h0 (constantI z 32 0#32))) y x = x := by
  funext i
  rw [ValueIdx.select_apply]
  show Scalar.select (IntOp.cmpi .slt (x i) 0#32) (y i) (x i) = x i
  rw [cmpi_slt_zero (hx i)]; rfl

/-! ## The two programs' first lists, read at one buffer, for every valuation -/

/-- The gather records of the two programs for the 21-row table are the same record. -/
theorem gather21_eq :
    (Cert.KernelIdeal.gather_S21x64_S100000x1_S100000x64_1_0_n_n_0_1_164 : GatherDims Cert.KernelIdeal.S21x64 Cert.KernelIdeal.S100000x1 Cert.KernelIdeal.S100000x64)
      = Cert.ReferenceIdeal.gather_S21x64_S100000x1_S100000x64_1_0_n_n_0_1_164 := rfl

/-- The gather records of the two programs for the node-feature table are the same record. -/
theorem gather100000_eq :
    (Cert.KernelIdeal.gather_S100000x64_S1600000x1_S1600000x64_1_0_n_n_0_1_164 : GatherDims Cert.KernelIdeal.S100000x64 Cert.KernelIdeal.S1600000x1 Cert.KernelIdeal.S1600000x64)
      = Cert.ReferenceIdeal.gather_S100000x64_S1600000x1_S1600000x64_1_0_n_n_0_1_164 := rfl

/-- The gather records of the two programs for a 4-row table are the same record. -/
theorem gather4_eq :
    (Cert.KernelIdeal.gather_S4x64_S1600000x1_S1600000x64_1_0_n_n_0_1_164 : GatherDims Cert.KernelIdeal.S4x64 Cert.KernelIdeal.S1600000x1 Cert.KernelIdeal.S1600000x64)
      = Cert.ReferenceIdeal.gather_S4x64_S1600000x1_S1600000x64_1_0_n_n_0_1_164 := rfl

set_option maxHeartbeats 1000000 in
/-- The kernel program's edge sources: row 0 of the edge index, laid flat. -/
theorem k_src_read (W : Valuation Cert.KernelIdeal.τ Cert.KernelIdeal.sig (Elt Ideal)) :
    StableHlo.after (Cert.KernelIdeal.Gen.hostOps0 (F := Ideal)) W (Proc.devRef .tc Cert.KernelIdeal.main_v1)
      = shapeCast Cert.KernelIdeal.S1600000 (extractStridedSlice Cert.KernelIdeal.S1x1600000 _ (W (Proc.devRef .tc Cert.KernelIdeal.main_arg1))
          Cert.KernelIdeal.Gen.slices_S2x1600000_S1x1600000_0_0) Cert.KernelIdeal.Gen.shapeCasts_S1x1600000_S1600000 := by
  after_results_simp
  rfl

set_option maxHeartbeats 1000000 in
/-- The kernel program's edge destinations: row 1 of the edge index, laid flat. -/
theorem k_dst_read (W : Valuation Cert.KernelIdeal.τ Cert.KernelIdeal.sig (Elt Ideal)) :
    StableHlo.after (Cert.KernelIdeal.Gen.hostOps0 (F := Ideal)) W (Proc.devRef .tc Cert.KernelIdeal.main_v3)
      = shapeCast Cert.KernelIdeal.S1600000 (extractStridedSlice Cert.KernelIdeal.S1x1600000 _ (W (Proc.devRef .tc Cert.KernelIdeal.main_arg1))
          Cert.KernelIdeal.Gen.slices_S2x1600000_S1x1600000_1_0) Cert.KernelIdeal.Gen.shapeCasts_S1x1600000_S1600000 := by
  after_results_simp
  rfl

set_option maxHeartbeats 1000000 in
/-- The reference's edge sources. -/
theorem r_src_read (W : Valuation Cert.ReferenceIdeal.τ Cert.ReferenceIdeal.sig (Elt Ideal)) :
    StableHlo.after (Cert.ReferenceIdeal.Ops.hostOps0 (F := Ideal)) W (Proc.devRef .tc Cert.ReferenceIdeal.main_v1)
      = shapeCast Cert.ReferenceIdeal.S1600000 (extractStridedSlice Cert.ReferenceIdeal.S1x1600000 _ (W (Proc.devRef .tc Cert.ReferenceIdeal.main_arg1))
          Cert.ReferenceIdeal.Gen.slices_S2x1600000_S1x1600000_0_0) Cert.ReferenceIdeal.Gen.shapeCasts_S1x1600000_S1600000 := by
  after_results_simp
  rfl

set_option maxHeartbeats 1000000 in
/-- The reference's edge destinations. -/
theorem r_dst_read (W : Valuation Cert.ReferenceIdeal.τ Cert.ReferenceIdeal.sig (Elt Ideal)) :
    StableHlo.after (Cert.ReferenceIdeal.Ops.hostOps0 (F := Ideal)) W (Proc.devRef .tc Cert.ReferenceIdeal.main_v3)
      = shapeCast Cert.ReferenceIdeal.S1600000 (extractStridedSlice Cert.ReferenceIdeal.S1x1600000 _ (W (Proc.devRef .tc Cert.ReferenceIdeal.main_arg1))
          Cert.ReferenceIdeal.Gen.slices_S2x1600000_S1x1600000_1_0) Cert.ReferenceIdeal.Gen.shapeCasts_S1x1600000_S1600000 := by
  after_results_simp
  rfl

attribute [local irreducible] Host.reduce Host.gather in
set_option maxHeartbeats 1000000 in
/-- The kernel program's first node features, for a valuation whose node labels lie in the 21-row table: the guarded
    take leaves the plain gather at the labels. -/
theorem k_h0_read (W : Valuation Cert.KernelIdeal.τ Cert.KernelIdeal.sig (Elt Ideal))
    (hx : ∀ i, 0 ≤ ((W (Proc.devRef .tc Cert.KernelIdeal.main_arg0) : IVec Cert.KernelIdeal.S100000 32) i).toInt
      ∧ ((W (Proc.devRef .tc Cert.KernelIdeal.main_arg0) : IVec Cert.KernelIdeal.S100000 32) i).toInt < 21) :
    StableHlo.after (Cert.KernelIdeal.Gen.hostOps0_1 (F := Ideal)) W (Proc.devRef .tc Cert.KernelIdeal.main_v4)
      = Host.gather Cert.KernelIdeal.gather_S21x64_S100000x1_S100000x64_1_0_n_n_0_1_164 (W (Proc.devRef .tc Cert.KernelIdeal.main_arg4))
          (broadcastInDim Cert.KernelIdeal.S100000x1 ![0] Cert.KernelIdeal.Gen.bcast_S100000_S100000x1_0 (W (Proc.devRef .tc Cert.KernelIdeal.main_arg0))) := by
  after_results_simp
  simp only [StableHlo.TRef.ofBuf, StableHlo.TRef.toBuf, cast_same]
  rw [select_wrap_eq Cert.KernelIdeal.Gen.bcast_S_S100000 (W (Proc.devRef .tc Cert.KernelIdeal.main_arg0) : IVec Cert.KernelIdeal.S100000 32) _ fun i => (hx i).1]
  have hv : ∀ i, 0 ≤ ((broadcastInDim Cert.KernelIdeal.S100000x1 ![0] Cert.KernelIdeal.Gen.bcast_S100000_S100000x1_0
        (W (Proc.devRef .tc Cert.KernelIdeal.main_arg0) : IVec Cert.KernelIdeal.S100000 32)) i).toInt
      ∧ ((broadcastInDim Cert.KernelIdeal.S100000x1 ![0] Cert.KernelIdeal.Gen.bcast_S100000_S100000x1_0
        (W (Proc.devRef .tc Cert.KernelIdeal.main_arg0) : IVec Cert.KernelIdeal.S100000 32)) i).toInt ≤ (20#32 : BitVec 32).toInt := by
    intro i
    have e : (20#32 : BitVec 32).toInt = 20 := by decide
    rw [e]
    unfold broadcastInDim
    exact ⟨(hx _).1, Int.le_of_lt_add_one (hx _).2⟩
  rw [select_guard_eq Cert.KernelIdeal.Gen.bcast_S_S100000x1 Cert.KernelIdeal.Gen.bcast_S1_S1x1_1 Cert.KernelIdeal.Gen.bcast_S1x1_S100000x1_0_1
    Cert.KernelIdeal.Gen.reducesTo_S100000x1_S100000_d1 Cert.KernelIdeal.Gen.h_S_ Cert.KernelIdeal.Gen.bcast_S100000_S100000x64_0
    (broadcastInDim Cert.KernelIdeal.S100000x1 ![0] Cert.KernelIdeal.Gen.bcast_S100000_S100000x1_0 (W (Proc.devRef .tc Cert.KernelIdeal.main_arg0) : IVec Cert.KernelIdeal.S100000 32))
    20#32 hv]

attribute [local irreducible] Host.reduce Host.gather in
set_option maxHeartbeats 1000000 in
/-- The reference's first node features, for a valuation whose node labels are not negative: the gather at the
    labels. -/
theorem r_h0_read (W : Valuation Cert.ReferenceIdeal.τ Cert.ReferenceIdeal.sig (Elt Ideal))
    (hx : ∀ i, 0 ≤ ((W (Proc.devRef .tc Cert.ReferenceIdeal.main_arg0) : IVec Cert.ReferenceIdeal.S100000 32) i).toInt) :
    StableHlo.after (Cert.ReferenceIdeal.Ops.hostOps0 (F := Ideal)) W (Proc.devRef .tc Cert.ReferenceIdeal.main_v10)
      = Host.gather Cert.ReferenceIdeal.gather_S21x64_S100000x1_S100000x64_1_0_n_n_0_1_164 (W (Proc.devRef .tc Cert.ReferenceIdeal.main_arg4))
          (broadcastInDim Cert.ReferenceIdeal.S100000x1 ![0] Cert.ReferenceIdeal.Gen.bcast_S100000_S100000x1_0 (W (Proc.devRef .tc Cert.ReferenceIdeal.main_arg0))) := by
  after_results_simp
  rw [select_wrap_eq Cert.ReferenceIdeal.Gen.bcast_S_S100000 (W (Proc.devRef .tc Cert.ReferenceIdeal.main_arg0) : IVec Cert.ReferenceIdeal.S100000 32) _ hx]

/-! ## The correspondences -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The kernel program's edge sources are row 0 of its edge-index argument, laid flat. -/
theorem kv_src (c : Dev Cert.KernelIdeal.nD) :
    KV m ρ c Cert.KernelIdeal.main_v1
      = shapeCast Cert.KernelIdeal.S1600000 (extractStridedSlice Cert.KernelIdeal.S1x1600000 _ (m ((c.tc : Thread Cert.KernelIdeal.nD Cert.KernelIdeal.τ).loc Cert.KernelIdeal.main_arg1))
          Cert.KernelIdeal.Gen.slices_S2x1600000_S1x1600000_0_0) Cert.KernelIdeal.Gen.shapeCasts_S1x1600000_S1600000 :=
  (Cert.KernelIdeal.Keep.toEnd_1 m ρ c Cert.KernelIdeal.main_v1 (by decide)).symm.trans (k_src_read (Cert.KernelIdeal.Gen.W0 m ρ c))

/-- The kernel program's edge destinations are row 1 of its edge-index argument, laid flat. -/
theorem kv_dst (c : Dev Cert.KernelIdeal.nD) :
    KV m ρ c Cert.KernelIdeal.main_v3
      = shapeCast Cert.KernelIdeal.S1600000 (extractStridedSlice Cert.KernelIdeal.S1x1600000 _ (m ((c.tc : Thread Cert.KernelIdeal.nD Cert.KernelIdeal.τ).loc Cert.KernelIdeal.main_arg1))
          Cert.KernelIdeal.Gen.slices_S2x1600000_S1x1600000_1_0) Cert.KernelIdeal.Gen.shapeCasts_S1x1600000_S1600000 :=
  (Cert.KernelIdeal.Keep.toEnd_1 m ρ c Cert.KernelIdeal.main_v3 (by decide)).symm.trans (k_dst_read (Cert.KernelIdeal.Gen.W0 m ρ c))

/-- The reference's edge sources are row 0 of its edge-index argument, laid flat. -/
theorem rv_src (c : Dev Cert.ReferenceIdeal.nD) :
    RV m' c Cert.ReferenceIdeal.main_v1
      = shapeCast Cert.ReferenceIdeal.S1600000 (extractStridedSlice Cert.ReferenceIdeal.S1x1600000 _ (m' ((c.tc : Thread Cert.ReferenceIdeal.nD Cert.ReferenceIdeal.τ).loc Cert.ReferenceIdeal.main_arg1))
          Cert.ReferenceIdeal.Gen.slices_S2x1600000_S1x1600000_0_0) Cert.ReferenceIdeal.Gen.shapeCasts_S1x1600000_S1600000 :=
  (Cert.ReferenceIdeal.Keep.toEnd_1 m' c Cert.ReferenceIdeal.main_v1 (by decide)).symm.trans (r_src_read (R0 m' c))

/-- The reference's edge destinations are row 1 of its edge-index argument, laid flat. -/
theorem rv_dst (c : Dev Cert.ReferenceIdeal.nD) :
    RV m' c Cert.ReferenceIdeal.main_v3
      = shapeCast Cert.ReferenceIdeal.S1600000 (extractStridedSlice Cert.ReferenceIdeal.S1x1600000 _ (m' ((c.tc : Thread Cert.ReferenceIdeal.nD Cert.ReferenceIdeal.τ).loc Cert.ReferenceIdeal.main_arg1))
          Cert.ReferenceIdeal.Gen.slices_S2x1600000_S1x1600000_1_0) Cert.ReferenceIdeal.Gen.shapeCasts_S1x1600000_S1600000 :=
  (Cert.ReferenceIdeal.Keep.toEnd_1 m' c Cert.ReferenceIdeal.main_v3 (by decide)).symm.trans (r_dst_read (R0 m' c))

/-- The reference's edge-attribute argument is never written. -/
theorem rv_arg2 (c : Dev Cert.ReferenceIdeal.nD) :
    RV m' c Cert.ReferenceIdeal.main_arg2 = m' ((c.tc : Thread Cert.ReferenceIdeal.nD Cert.ReferenceIdeal.τ).loc Cert.ReferenceIdeal.main_arg2) :=
  (Cert.ReferenceIdeal.Keep.toEnd_0 m' c Cert.ReferenceIdeal.main_arg2 (by decide)).symm

/-- The reference's edge-embedding argument is never written. -/
theorem rv_arg5 (c : Dev Cert.ReferenceIdeal.nD) :
    RV m' c Cert.ReferenceIdeal.main_arg5 = m' ((c.tc : Thread Cert.ReferenceIdeal.nD Cert.ReferenceIdeal.τ).loc Cert.ReferenceIdeal.main_arg5) :=
  (Cert.ReferenceIdeal.Keep.toEnd_0 m' c Cert.ReferenceIdeal.main_arg5 (by decide)).symm

/-- The kernel program's edge-attribute argument is never written. -/
theorem kv_arg2 (c : Dev Cert.KernelIdeal.nD) :
    KV m ρ c Cert.KernelIdeal.main_arg2 = m ((c.tc : Thread Cert.KernelIdeal.nD Cert.KernelIdeal.τ).loc Cert.KernelIdeal.main_arg2) :=
  Cert.KernelIdeal.Gen.W52_main_arg2 m ρ c

/-- The kernel program's edge-embedding argument is never written. -/
theorem kv_arg5 (c : Dev Cert.KernelIdeal.nD) :
    KV m ρ c Cert.KernelIdeal.main_arg5 = m ((c.tc : Thread Cert.KernelIdeal.nD Cert.KernelIdeal.τ).loc Cert.KernelIdeal.main_arg5) :=
  Cert.KernelIdeal.Gen.W52_main_arg5 m ρ c

/-- Every edge attribute lies in the 4-row tables. -/
theorem attr_range (hr : Ranges m) (c : Dev Cert.KernelIdeal.nD) (i : Cert.KernelIdeal.S1600000.Idx) :
    0 ≤ ((KV m ρ c Cert.KernelIdeal.main_arg2 : IVec Cert.KernelIdeal.S1600000 32) i).toInt
      ∧ ((KV m ρ c Cert.KernelIdeal.main_arg2 : IVec Cert.KernelIdeal.S1600000 32) i).toInt < 4 := by
  rw [kv_arg2 m ρ c]
  exact hr.attr c i

/-- The two programs hold the same edge sources. -/
theorem corr_src (hag : Agree m m') (c : Dev Cert.KernelIdeal.nD) : KV m ρ c Cert.KernelIdeal.main_v1 = RV m' c Cert.ReferenceIdeal.main_v1 := by
  rw [kv_src m ρ c, rv_src m' c, (hag c).2.1]
  all_goals rfl

/-- The two programs hold the same edge destinations. -/
theorem corr_dst (hag : Agree m m') (c : Dev Cert.KernelIdeal.nD) : KV m ρ c Cert.KernelIdeal.main_v3 = RV m' c Cert.ReferenceIdeal.main_v3 := by
  rw [kv_dst m ρ c, rv_dst m' c, (hag c).2.1]
  all_goals rfl

/-- Every edge source lies among the 100000 nodes. -/
theorem src_range (hr : Ranges m) (c : Dev Cert.KernelIdeal.nD) (i : Cert.KernelIdeal.S1600000.Idx) :
    0 ≤ ((KV m ρ c Cert.KernelIdeal.main_v1 : IVec Cert.KernelIdeal.S1600000 32) i).toInt
      ∧ ((KV m ρ c Cert.KernelIdeal.main_v1 : IVec Cert.KernelIdeal.S1600000 32) i).toInt < 100000 := by
  rw [kv_src m ρ c]
  unfold shapeCast extractStridedSlice
  refine hr.src c _ ?_
  exact (Nat.zero_add _).trans (Fin.val_eq_zero _)

/-- The two programs hold the same first node features: the rows of the 21-row table at the node labels. -/
theorem corr_h0 (hag : Agree m m') (hr : Ranges m) (c : Dev Cert.KernelIdeal.nD) : KV m ρ c Cert.KernelIdeal.main_v4 = RV m' c Cert.ReferenceIdeal.main_v10 := by
  have e0 : Cert.KernelIdeal.Gen.W1 m ρ c (Proc.devRef .tc Cert.KernelIdeal.main_arg0) = m ((c.tc : Thread Cert.KernelIdeal.nD Cert.KernelIdeal.τ).loc Cert.KernelIdeal.main_arg0) :=
    (Cert.KernelIdeal.Keep.toEnd_1 m ρ c Cert.KernelIdeal.main_arg0 (by decide)).trans (Cert.KernelIdeal.Gen.W52_main_arg0 m ρ c)
  have e4 : Cert.KernelIdeal.Gen.W1 m ρ c (Proc.devRef .tc Cert.KernelIdeal.main_arg4) = m ((c.tc : Thread Cert.KernelIdeal.nD Cert.KernelIdeal.τ).loc Cert.KernelIdeal.main_arg4) :=
    (Cert.KernelIdeal.Keep.toEnd_1 m ρ c Cert.KernelIdeal.main_arg4 (by decide)).trans (Cert.KernelIdeal.Gen.W52_main_arg4 m ρ c)
  have hk : KV m ρ c Cert.KernelIdeal.main_v4
      = Host.gather Cert.KernelIdeal.gather_S21x64_S100000x1_S100000x64_1_0_n_n_0_1_164 (m ((c.tc : Thread Cert.KernelIdeal.nD Cert.KernelIdeal.τ).loc Cert.KernelIdeal.main_arg4))
          (broadcastInDim Cert.KernelIdeal.S100000x1 ![0] Cert.KernelIdeal.Gen.bcast_S100000_S100000x1_0 (m ((c.tc : Thread Cert.KernelIdeal.nD Cert.KernelIdeal.τ).loc Cert.KernelIdeal.main_arg0))) := by
    refine (Cert.KernelIdeal.Keep.toEnd_2 m ρ c Cert.KernelIdeal.main_v4 (by decide)).symm.trans ?_
    refine (k_h0_read (Cert.KernelIdeal.Gen.W1 m ρ c) ?_).trans ?_
    · rw [e0]; exact hr.x c
    · rw [e0, e4]
  have hR : RV m' c Cert.ReferenceIdeal.main_v10
      = Host.gather Cert.ReferenceIdeal.gather_S21x64_S100000x1_S100000x64_1_0_n_n_0_1_164 (m' ((c.tc : Thread Cert.ReferenceIdeal.nD Cert.ReferenceIdeal.τ).loc Cert.ReferenceIdeal.main_arg4))
          (broadcastInDim Cert.ReferenceIdeal.S100000x1 ![0] Cert.ReferenceIdeal.Gen.bcast_S100000_S100000x1_0 (m' ((c.tc : Thread Cert.ReferenceIdeal.nD Cert.ReferenceIdeal.τ).loc Cert.ReferenceIdeal.main_arg0))) := by
    refine (Cert.ReferenceIdeal.Keep.toEnd_1 m' c Cert.ReferenceIdeal.main_v10 (by decide)).symm.trans ?_
    refine r_h0_read (R0 m' c) ?_
    intro i
    show 0 ≤ ((m' ((c.tc : Thread Cert.ReferenceIdeal.nD Cert.ReferenceIdeal.τ).loc Cert.ReferenceIdeal.main_arg0) : IVec Cert.ReferenceIdeal.S100000 32) i).toInt
    rw [(hag c).1]
    exact (hr.x c i).1
  rw [hk, hR, (hag c).1, (hag c).2.2.2.2.1, gather21_eq]
  all_goals rfl

end Cert.Bridge

end
-- ==== Proof.Bridge.Tail.lean ====
/- The tail of the network, after the last layer: the node features pooled per graph (a scatter-add onto zeros by
   graph id) and the two-layer classifier on the pooled features. Both programs pool by the same host operation of
   equal operands. The classifier the kernel program runs as one pallas_call whose grid has one point and whose six
   windows are whole arrays, so the array it leaves is its body's stored value of the five arrays it reads; the
   reference runs it as host operations. Both are one function, `clsOut`, of the pooled features, the two weight
   matrices and the two biases: each product is the plain sum over its contraction index (a product accumulated
   into zero on one side, the host's product on the other; the two programs print the same contraction records), the
   narrowing casts change nothing at the ideal values, a bias is laid along every row (a one-row matrix broadcast down
   the rows on one side, the vector broadcast along axis 1 then down the rows on the other), and the clamp is the
   maximum with zero. Nothing of real arithmetic is used beyond `0 + x = x`. -/
import proofs.«417278_j53197464928922_1_alg».proof.Proof.Setup
import proofs.«417278_j53197464928922_1_alg».proof.Proof.KKeep
import proofs.«417278_j53197464928922_1_alg».proof.Proof.RKeep
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.ValueIdx
open Idealize.ShloMosaic.Pipeline (Dat)

/-! ## The classifier as one function of its five arrays -/

/-- The classifier's hidden layer at row p and hidden unit c: the sum over the contraction index of
    pooled × first weights, plus the first bias at c, clamped below at zero. -/
def clsHidAt (P : Vec Ideal Cert.KernelIdeal.S512x64 .f32) (A : Vec Ideal Cert.KernelIdeal.S64x128 .f32)
    (b1 : Vec Ideal Cert.KernelIdeal.S1x128 .f32) (p : Fin 512) (c : Fin 128) : EReal :=
  max ((∑ k : Cert.KernelIdeal.dot_S512x64_S64x128_S512x128_1_0_0_1_n_n.contr.Idx,
      P (Cert.KernelIdeal.dot_S512x64_S64x128_S512x128_1_0_0_1_n_n.lhsIdx (ix2 p c) k)
        * A (Cert.KernelIdeal.dot_S512x64_S64x128_S512x128_1_0_0_1_n_n.rhsIdx (ix2 p c) k))
    + b1 (ix2 (0 : Fin 1) c)) 0

/-- The hidden layer as an array. -/
def clsHid (P : Vec Ideal Cert.KernelIdeal.S512x64 .f32) (A : Vec Ideal Cert.KernelIdeal.S64x128 .f32)
    (b1 : Vec Ideal Cert.KernelIdeal.S1x128 .f32) : Vec Ideal Cert.KernelIdeal.S512x128 .f32 :=
  fun i => clsHidAt P A b1 (i 0) (i 1)

theorem clsHid_ix2 (P : Vec Ideal Cert.KernelIdeal.S512x64 .f32) (A : Vec Ideal Cert.KernelIdeal.S64x128 .f32)
    (b1 : Vec Ideal Cert.KernelIdeal.S1x128 .f32) (p : Fin 512) (c : Fin 128) :
    clsHid P A b1 (ix2 p c) = clsHidAt P A b1 p c := rfl

/-- The classifier's output at row p (and the one column q): the sum over the hidden units of hidden layer ×
    second weights, plus the second bias. -/
def clsOutAt (P : Vec Ideal Cert.KernelIdeal.S512x64 .f32) (A : Vec Ideal Cert.KernelIdeal.S64x128 .f32)
    (b1 : Vec Ideal Cert.KernelIdeal.S1x128 .f32) (B : Vec Ideal Cert.KernelIdeal.S128x1 .f32)
    (b2 : Vec Ideal Cert.KernelIdeal.S1x1 .f32) (p : Fin 512) (q : Fin 1) : EReal :=
  (∑ j : Cert.KernelIdeal.dot_S512x128_S128x1_S512x1_1_0_0_1_n_n.contr.Idx,
      clsHid P A b1 (Cert.KernelIdeal.dot_S512x128_S128x1_S512x1_1_0_0_1_n_n.lhsIdx (ix2 p q) j)
        * B (Cert.KernelIdeal.dot_S512x128_S128x1_S512x1_1_0_0_1_n_n.rhsIdx (ix2 p q) j))
    + b2 (ix2 (0 : Fin 1) q)

/-- The classifier's output as an array. -/
def clsOut (P : Vec Ideal Cert.KernelIdeal.S512x64 .f32) (A : Vec Ideal Cert.KernelIdeal.S64x128 .f32)
    (b1 : Vec Ideal Cert.KernelIdeal.S1x128 .f32) (B : Vec Ideal Cert.KernelIdeal.S128x1 .f32)
    (b2 : Vec Ideal Cert.KernelIdeal.S1x1 .f32) : Vec Ideal Cert.KernelIdeal.S512x1 .f32 :=
  fun i => clsOutAt P A b1 B b2 (i 0) (i 1)

theorem clsOut_ix2 (P : Vec Ideal Cert.KernelIdeal.S512x64 .f32) (A : Vec Ideal Cert.KernelIdeal.S64x128 .f32)
    (b1 : Vec Ideal Cert.KernelIdeal.S1x128 .f32) (B : Vec Ideal Cert.KernelIdeal.S128x1 .f32)
    (b2 : Vec Ideal Cert.KernelIdeal.S1x1 .f32) (p : Fin 512) (q : Fin 1) :
    clsOut P A b1 B b2 (ix2 p q) = clsOutAt P A b1 B b2 p q := rfl

/-- The kernel body's hidden layer (a product accumulated into zero, the one-row bias laid along every row,
    the clamp against a zero splat; the narrowing casts change nothing at the ideal values) is `clsHid`. -/
theorem k16_hid_eq (x0 : Vec Ideal Cert.KernelIdeal.S512x64 .f32) (x1 : Vec Ideal Cert.KernelIdeal.S64x128 .f32)
    (x2 : Vec Ideal Cert.KernelIdeal.S1x128 .f32) :
    (truncf .bf16 (maximumf
      (addf (matmul Cert.KernelIdeal.dot_S512x64_S64x128_S512x128_1_0_0_1_n_n none
          (truncf .bf16 x0 Cert.KernelIdeal.Gen.bitsLt_bf16_f32) (truncf .bf16 x1 Cert.KernelIdeal.Gen.bitsLt_bf16_f32)
          (constant (F := Ideal) Cert.KernelIdeal.S512x128 .f32 0x00000000#32))
        (broadcastTo Cert.KernelIdeal.S512x128 x2 Cert.KernelIdeal.Gen.broadcasts_S1x128_S512x128))
      (broadcast Cert.KernelIdeal.S512x128 (FloatOps.ofBits (F := Ideal) .f32 0x00000000#32))) Cert.KernelIdeal.Gen.bitsLt_bf16_f32
      : FVec Ideal Cert.KernelIdeal.S512x128 .bf16)
      = clsHid x0 x1 x2 := by
  funext i
  obtain ⟨p, c, rfl⟩ : ∃ (p : Fin 512) (c : Fin 128), i = ix2 p c := ⟨i 0, i 1, eq_ix2 i⟩
  rw [clsHid_ix2]
  show max (FloatOps.matmul Cert.KernelIdeal.dot_S512x64_S64x128_S512x128_1_0_0_1_n_n none
        (truncf .bf16 x0 Cert.KernelIdeal.Gen.bitsLt_bf16_f32) (truncf .bf16 x1 Cert.KernelIdeal.Gen.bitsLt_bf16_f32)
        (constant (F := Ideal) Cert.KernelIdeal.S512x128 .f32 0x00000000#32) (ix2 p c)
      + broadcastTo Cert.KernelIdeal.S512x128 x2 Cert.KernelIdeal.Gen.broadcasts_S1x128_S512x128 (ix2 p c))
      (Ideal.ofBits .f32 0x00000000#32) = _
  rw [Ideal.matmul_constant_zero_apply, broadcastTo_1b_ab_apply, Ideal.ofBits_zero_f32]
  rfl

/-- The kernel body's stored value is `clsOut` of the five blocks it loads: the second product accumulated into
    zero over the hidden layer, plus the one-entry bias laid along every row. -/
theorem k16_pay1_eq (x0 : Vec Ideal Cert.KernelIdeal.S512x64 .f32) (x1 : Vec Ideal Cert.KernelIdeal.S64x128 .f32)
    (x2 : Vec Ideal Cert.KernelIdeal.S1x128 .f32) (x3 : Vec Ideal Cert.KernelIdeal.S128x1 .f32)
    (x4 : Vec Ideal Cert.KernelIdeal.S1x1 .f32) :
    Cert.KernelIdeal.Gen.k16_pay1 (F := Ideal) x0 x1 x2 x3 x4 = clsOut x0 x1 x2 x3 x4 := by
  funext i
  obtain ⟨p, q, rfl⟩ : ∃ (p : Fin 512) (q : Fin 1), i = ix2 p q := ⟨i 0, i 1, eq_ix2 i⟩
  rw [clsOut_ix2]
  unfold Cert.KernelIdeal.Gen.k16_pay1
  simp only [shapeCast_self]
  rw [k16_hid_eq]
  show FloatOps.matmul Cert.KernelIdeal.dot_S512x128_S128x1_S512x1_1_0_0_1_n_n none
        (clsHid x0 x1 x2) (truncf .bf16 x3 Cert.KernelIdeal.Gen.bitsLt_bf16_f32)
        (constant (F := Ideal) Cert.KernelIdeal.S512x1 .f32 0x00000000#32) (ix2 p q)
      + broadcastTo Cert.KernelIdeal.S512x1 x4 Cert.KernelIdeal.Gen.broadcasts_S1x1_S512x1 (ix2 p q) = _
  rw [Ideal.matmul_constant_zero_apply, broadcastTo_1b_ab_apply]
  rfl

/-- The two programs print the same contraction records. -/
theorem dot1_eq : Cert.ReferenceIdeal.dot_S512x64_S64x128_S512x128_1_0_0_1_n_n = Cert.KernelIdeal.dot_S512x64_S64x128_S512x128_1_0_0_1_n_n := rfl
theorem dot2_eq : Cert.ReferenceIdeal.dot_S512x128_S128x1_S512x1_1_0_0_1_n_n = Cert.KernelIdeal.dot_S512x128_S128x1_S512x1_1_0_0_1_n_n := rfl

/-- A vector of n entries made a one-row matrix and that row laid down m rows reads, at (p, c), the vector at c. -/
theorem rows_of_vector_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α)
    (p : Fin m) (c : Fin n) :
    broadcastInDim ⟨2, ![m, n]⟩ ![0, 1] h2 (broadcastInDim ⟨2, ![1, n]⟩ ![1] h1 x) (ix2 p c) = x (ix1 c) :=
  (broadcastInDim_oneRow_apply h2 _ p c).trans
    (broadcastInDim_apply ![1] h1 x (ix2 (0 : Fin 1) c) (ix1 c) (by
      intro a
      match a with
      | ⟨0, _⟩ =>
        show c.val = if n = 1 then 0 else c.val
        split
        · have := c.isLt; omega
        · rfl))

/-- The reference's hidden layer (the host's product, the bias vector laid along every row, the clamp against a
    broadcast zero) is `clsHid` at the bias vector made a one-row matrix. -/
theorem ref_hid_eq (P : FVec Ideal Cert.ReferenceIdeal.S512x64 .f32) (A : FVec Ideal Cert.ReferenceIdeal.S64x128 .f32)
    (a16 : FVec Ideal Cert.ReferenceIdeal.S128 .f32)
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S512x128 (![0, 1] : Fin 2 → Fin Cert.ReferenceIdeal.S512x128.rank))
    (h0 : Cert.ReferenceIdeal.S_.BroadcastsInDim Cert.ReferenceIdeal.S512x128 (![] : Fin 0 → Fin Cert.ReferenceIdeal.S512x128.rank))
    (c1 : Cert.KernelIdeal.S128.ShapeCasts Cert.KernelIdeal.S1x128) :
    maximumf
      (addf (Host.dotGeneral Cert.ReferenceIdeal.dot_S512x64_S64x128_S512x128_1_0_0_1_n_n none P A)
        (broadcastInDim Cert.ReferenceIdeal.S512x128 ![0, 1] h2 (broadcastInDim Cert.ReferenceIdeal.S1x128 ![1] h1 a16)))
      (broadcastInDim Cert.ReferenceIdeal.S512x128 ![] h0 (constant (F := Ideal) Cert.ReferenceIdeal.S_ .f32 0x00000000#32))
      = clsHid P A (shapeCast Cert.KernelIdeal.S1x128 a16 c1) := by
  funext i
  obtain ⟨p, c, rfl⟩ : ∃ (p : Fin 512) (c : Fin 128), i = ix2 p c := ⟨i 0, i 1, eq_ix2 i⟩
  rw [clsHid_ix2, dot1_eq]
  show max (FloatOps.dotGeneral (F := Ideal) Cert.KernelIdeal.dot_S512x64_S64x128_S512x128_1_0_0_1_n_n none _ P A (ix2 p c)
      + broadcastInDim Cert.ReferenceIdeal.S512x128 ![0, 1] h2 (broadcastInDim Cert.ReferenceIdeal.S1x128 ![1] h1 a16) (ix2 p c))
      (broadcastInDim Cert.ReferenceIdeal.S512x128 ![] h0 (constant (F := Ideal) Cert.ReferenceIdeal.S_ .f32 0x00000000#32) (ix2 p c)) = _
  rw [Ideal.dotGeneral_apply, rows_of_vector_apply, broadcastInDim_scalar_apply, constant_apply, Ideal.ofBits_zero_f32]
  unfold clsHidAt
  rw [shapeCast_a_1a_apply]

/-- The reference's output layer (the host's product of a hidden layer that is `clsHid`, plus the bias vector
    laid along every row) is `clsOut` at the bias vector made a one-row matrix. -/
theorem ref_out_eq (H : FVec Ideal Cert.ReferenceIdeal.S512x128 .f32) (B : FVec Ideal Cert.ReferenceIdeal.S128x1 .f32)
    (a18 : FVec Ideal Cert.ReferenceIdeal.S1 .f32)
    (h3 : Cert.ReferenceIdeal.S1.BroadcastsInDim Cert.ReferenceIdeal.S1x1 (![1] : Fin 1 → Fin Cert.ReferenceIdeal.S1x1.rank))
    (h4 : Cert.ReferenceIdeal.S1x1.BroadcastsInDim Cert.ReferenceIdeal.S512x1 (![0, 1] : Fin 2 → Fin Cert.ReferenceIdeal.S512x1.rank))
    (c2 : Cert.KernelIdeal.S1.ShapeCasts Cert.KernelIdeal.S1x1)
    (P : Vec Ideal Cert.KernelIdeal.S512x64 .f32) (A : Vec Ideal Cert.KernelIdeal.S64x128 .f32)
    (b1 : Vec Ideal Cert.KernelIdeal.S1x128 .f32) (hH : H = clsHid P A b1) :
    addf (Host.dotGeneral Cert.ReferenceIdeal.dot_S512x128_S128x1_S512x1_1_0_0_1_n_n none H B)
        (broadcastInDim Cert.ReferenceIdeal.S512x1 ![0, 1] h4 (broadcastInDim Cert.ReferenceIdeal.S1x1 ![1] h3 a18))
      = clsOut P A b1 B (shapeCast Cert.KernelIdeal.S1x1 a18 c2) := by
  subst hH
  funext i
  obtain ⟨p, q, rfl⟩ : ∃ (p : Fin 512) (q : Fin 1), i = ix2 p q := ⟨i 0, i 1, eq_ix2 i⟩
  rw [clsOut_ix2, dot2_eq]
  show FloatOps.dotGeneral (F := Ideal) Cert.KernelIdeal.dot_S512x128_S128x1_S512x1_1_0_0_1_n_n none _ (clsHid P A b1) B (ix2 p q)
      + broadcastInDim Cert.ReferenceIdeal.S512x1 ![0, 1] h4 (broadcastInDim Cert.ReferenceIdeal.S1x1 ![1] h3 a18) (ix2 p q) = _
  rw [Ideal.dotGeneral_apply, rows_of_vector_apply]
  unfold clsOutAt
  rw [shapeCast_a_1a_apply]

/-- The reference's hidden layer before the clamp: the host's product of pooled features and first weights, plus the
    bias vector made a one-row matrix and laid along every row. -/
def refPre (P : FVec Ideal Cert.ReferenceIdeal.S512x64 .f32) (A : FVec Ideal Cert.ReferenceIdeal.S64x128 .f32)
    (a16 : FVec Ideal Cert.ReferenceIdeal.S128 .f32) : FVec Ideal Cert.ReferenceIdeal.S512x128 .f32 :=
  addf (Host.dotGeneral Cert.ReferenceIdeal.dot_S512x64_S64x128_S512x128_1_0_0_1_n_n none P A)
    (broadcastInDim Cert.ReferenceIdeal.S512x128 ![0, 1] Cert.ReferenceIdeal.Gen.bcast_S1x128_S512x128_0_1
      (broadcastInDim Cert.ReferenceIdeal.S1x128 ![1] Cert.ReferenceIdeal.Gen.bcast_S128_S1x128_1 a16))

/-- The reference's clamp: the maximum with a broadcast zero. -/
def refRelu (X : FVec Ideal Cert.ReferenceIdeal.S512x128 .f32) : FVec Ideal Cert.ReferenceIdeal.S512x128 .f32 :=
  maximumf X (broadcastInDim Cert.ReferenceIdeal.S512x128 ![] Cert.ReferenceIdeal.Gen.bcast_S_S512x128
    (constant (F := Ideal) Cert.ReferenceIdeal.S_ .f32 0x00000000#32))

/-- The reference's output layer: the host's product of the hidden layer and second weights, plus the one-entry bias
    made a one-row matrix and laid along every row. -/
def refOutF (H : FVec Ideal Cert.ReferenceIdeal.S512x128 .f32) (B : FVec Ideal Cert.ReferenceIdeal.S128x1 .f32)
    (a18 : FVec Ideal Cert.ReferenceIdeal.S1 .f32) : FVec Ideal Cert.ReferenceIdeal.S512x1 .f32 :=
  addf (Host.dotGeneral Cert.ReferenceIdeal.dot_S512x128_S128x1_S512x1_1_0_0_1_n_n none H B)
    (broadcastInDim Cert.ReferenceIdeal.S512x1 ![0, 1] Cert.ReferenceIdeal.Gen.bcast_S1x1_S512x1_0_1
      (broadcastInDim Cert.ReferenceIdeal.S1x1 ![1] Cert.ReferenceIdeal.Gen.bcast_S1_S1x1_1 a18))

/-- The reference's hidden layer is `clsHid`, the bias vector read as its one-row cast. -/
theorem refRelu_refPre_eq (P : FVec Ideal Cert.ReferenceIdeal.S512x64 .f32) (A : FVec Ideal Cert.ReferenceIdeal.S64x128 .f32)
    (a16 : FVec Ideal Cert.ReferenceIdeal.S128 .f32) :
    refRelu (refPre P A a16) = clsHid P A (shapeCast Cert.KernelIdeal.S1x128 a16 Cert.KernelIdeal.Gen.shapeCasts_S128_S1x128) :=
  ref_hid_eq P A a16 _ _ _ _

/-- The reference's output is `clsOut` once its hidden layer is `clsHid`. -/
theorem refOutF_eq (H : FVec Ideal Cert.ReferenceIdeal.S512x128 .f32) (B : FVec Ideal Cert.ReferenceIdeal.S128x1 .f32)
    (a18 : FVec Ideal Cert.ReferenceIdeal.S1 .f32) (P : Vec Ideal Cert.KernelIdeal.S512x64 .f32)
    (A : Vec Ideal Cert.KernelIdeal.S64x128 .f32) (b1 : Vec Ideal Cert.KernelIdeal.S1x128 .f32) (hH : H = clsHid P A b1) :
    refOutF H B a18 = clsOut P A b1 B (shapeCast Cert.KernelIdeal.S1x1 a18 Cert.KernelIdeal.Gen.shapeCasts_S1_S1x1) :=
  ref_out_eq H B a18 _ _ _ P A b1 hH

/-! ## The pooled features -/

/-- The node features summed per graph: the rows of `h` scatter-added by graph id onto a zero array. -/
def pooledOf (ids : IVec Cert.KernelIdeal.S100000 32) (h : FVec Ideal Cert.KernelIdeal.S100000x64 .f32) :
    FVec Ideal Cert.KernelIdeal.S512x64 .f32 :=
  Host.scatterAdd Cert.KernelIdeal.scatter_S512x64_S100000x1_S100000x64_1_0_0_1
    (broadcastInDim Cert.KernelIdeal.S512x64 ![] Cert.KernelIdeal.Gen.bcast_S_S512x64 (constant (F := Ideal) Cert.KernelIdeal.S_ .f32 0x00000000#32))
    (broadcastInDim Cert.KernelIdeal.S100000x1 ![0] Cert.KernelIdeal.Gen.bcast_S100000_S100000x1_0 ids) h

/-- What the kernel program's last host stretch leaves in the pooled buffer, over any contents before it. -/
theorem k_read_v199 (W : Valuation Cert.KernelIdeal.τ Cert.KernelIdeal.sig (Elt Ideal)) :
    StableHlo.after (Cert.KernelIdeal.Gen.hostOps16 (F := Ideal)) W (Proc.devRef .tc Cert.KernelIdeal.main_v199)
      = pooledOf (W (Proc.devRef .tc Cert.KernelIdeal.main_arg3)) (W (Proc.devRef .tc Cert.KernelIdeal.main_v196)) := by
  after_results <;> rfl

/-- and in the two bias buffers: the bias vectors cast to one-row matrices. -/
theorem k_read_v200 (W : Valuation Cert.KernelIdeal.τ Cert.KernelIdeal.sig (Elt Ideal)) :
    StableHlo.after (Cert.KernelIdeal.Gen.hostOps16 (F := Ideal)) W (Proc.devRef .tc Cert.KernelIdeal.main_v200)
      = shapeCast Cert.KernelIdeal.S1x128 (W (Proc.devRef .tc Cert.KernelIdeal.main_arg16) : FVec Ideal Cert.KernelIdeal.S128 .f32)
          Cert.KernelIdeal.Gen.shapeCasts_S128_S1x128 := by
  after_results <;> rfl

theorem k_read_v201 (W : Valuation Cert.KernelIdeal.τ Cert.KernelIdeal.sig (Elt Ideal)) :
    StableHlo.after (Cert.KernelIdeal.Gen.hostOps16 (F := Ideal)) W (Proc.devRef .tc Cert.KernelIdeal.main_v201)
      = shapeCast Cert.KernelIdeal.S1x1 (W (Proc.devRef .tc Cert.KernelIdeal.main_arg18) : FVec Ideal Cert.KernelIdeal.S1 .f32)
          Cert.KernelIdeal.Gen.shapeCasts_S1_S1x1 := by
  after_results <;> rfl

/-- What the reference's first tail list leaves in its pooled buffer, over any contents before it: the same function. -/
theorem r_read_v377 (W : Valuation Cert.ReferenceIdeal.τ Cert.ReferenceIdeal.sig (Elt Ideal)) :
    StableHlo.after (Cert.ReferenceIdeal.Ops.hostOps0_40 (F := Ideal)) W (Proc.devRef .tc Cert.ReferenceIdeal.main_v377)
      = pooledOf (W (Proc.devRef .tc Cert.ReferenceIdeal.main_arg3)) (W (Proc.devRef .tc Cert.ReferenceIdeal.main_v374)) := by
  after_results <;> rfl

/-- and in the hidden layer's buffer before the clamp, -/
theorem r_read_v381 (W : Valuation Cert.ReferenceIdeal.τ Cert.ReferenceIdeal.sig (Elt Ideal)) :
    StableHlo.after (Cert.ReferenceIdeal.Ops.hostOps0_40 (F := Ideal)) W (Proc.devRef .tc Cert.ReferenceIdeal.main_v381)
      = refPre (StableHlo.after (Cert.ReferenceIdeal.Ops.hostOps0_40 (F := Ideal)) W (Proc.devRef .tc Cert.ReferenceIdeal.main_v377))
          (W (Proc.devRef .tc Cert.ReferenceIdeal.main_arg15)) (W (Proc.devRef .tc Cert.ReferenceIdeal.main_arg16)) := by
  rw [r_read_v377]
  after_results <;> rfl

/-- what the clamp's list leaves, -/
theorem r_read_v382 (W : Valuation Cert.ReferenceIdeal.τ Cert.ReferenceIdeal.sig (Elt Ideal)) :
    StableHlo.after (Cert.ReferenceIdeal.Ops.hostOps0_41 (F := Ideal)) W (Proc.devRef .tc Cert.ReferenceIdeal.main_v382)
      = refRelu (W (Proc.devRef .tc Cert.ReferenceIdeal.main_v381)) := by
  after_results <;> rfl

/-- and what the last list leaves in the result buffer. -/
theorem r_read_v386 (W : Valuation Cert.ReferenceIdeal.τ Cert.ReferenceIdeal.sig (Elt Ideal)) :
    StableHlo.after (Cert.ReferenceIdeal.Ops.hostOps0_42 (F := Ideal)) W (Proc.devRef .tc Cert.ReferenceIdeal.main_v386)
      = refOutF (W (Proc.devRef .tc Cert.ReferenceIdeal.main_v382)) (W (Proc.devRef .tc Cert.ReferenceIdeal.main_arg17))
          (W (Proc.devRef .tc Cert.ReferenceIdeal.main_arg18)) := by
  after_results <;> rfl

/-! ## The classifier's pallas_call: a grid of one point, every window its whole array -/

section Region16

variable (V : (c : Dev Cert.KernelIdeal.nD) → (b : Ref Cert.KernelIdeal.sig .tc) → Buf (Elt Ideal) ((c : Thread Cert.KernelIdeal.nD Cert.KernelIdeal.τ).loc b))

theorem hz16 : (![0, 0] : Fin 2 → Nat) = fun _ => 0 := funext fun a => by fin_cases a <;> rfl

/-! Every window's block index is (0, 0) at the one point, and its block has the array's sizes: the block read off
    the array is the array. -/

theorem iblk16_0_eq (c : Dev Cert.KernelIdeal.nD) (t : Fin Cert.KernelIdeal.cfg16.N) :
    (Cert.KernelIdeal.Gen.iblk16 V c 0 t : Vec Ideal Cert.KernelIdeal.S512x64 .f32) = (V c Cert.KernelIdeal.main_v199 : Vec Ideal Cert.KernelIdeal.S512x64 .f32) := by
  have hz' : (fun a => Cert.KernelIdeal.win16_0.index t a * Cert.KernelIdeal.main_v199.ty.shape.size a) = fun _ => 0 :=
    funext fun a => by fin_cases a <;> rfl
  exact Memref.read_access_unit_zero (Elt Ideal) Cert.KernelIdeal.main_v199 hz' (fun a => by rw [congrFun hz' a]; simp) (V c Cert.KernelIdeal.main_v199)

theorem iblk16_1_eq (c : Dev Cert.KernelIdeal.nD) (t : Fin Cert.KernelIdeal.cfg16.N) :
    (Cert.KernelIdeal.Gen.iblk16 V c 1 t : Vec Ideal Cert.KernelIdeal.S64x128 .f32) = (V c Cert.KernelIdeal.main_arg15 : Vec Ideal Cert.KernelIdeal.S64x128 .f32) := by
  have hz' : (fun a => Cert.KernelIdeal.win16_1.index t a * Cert.KernelIdeal.main_arg15.ty.shape.size a) = fun _ => 0 :=
    funext fun a => by fin_cases a <;> rfl
  exact Memref.read_access_unit_zero (Elt Ideal) Cert.KernelIdeal.main_arg15 hz' (fun a => by rw [congrFun hz' a]; simp) (V c Cert.KernelIdeal.main_arg15)

theorem iblk16_2_eq (c : Dev Cert.KernelIdeal.nD) (t : Fin Cert.KernelIdeal.cfg16.N) :
    (Cert.KernelIdeal.Gen.iblk16 V c 2 t : Vec Ideal Cert.KernelIdeal.S1x128 .f32) = (V c Cert.KernelIdeal.main_v200 : Vec Ideal Cert.KernelIdeal.S1x128 .f32) := by
  have hz' : (fun a => Cert.KernelIdeal.win16_2.index t a * Cert.KernelIdeal.main_v200.ty.shape.size a) = fun _ => 0 :=
    funext fun a => by fin_cases a <;> rfl
  exact Memref.read_access_unit_zero (Elt Ideal) Cert.KernelIdeal.main_v200 hz' (fun a => by rw [congrFun hz' a]; simp) (V c Cert.KernelIdeal.main_v200)

theorem iblk16_3_eq (c : Dev Cert.KernelIdeal.nD) (t : Fin Cert.KernelIdeal.cfg16.N) :
    (Cert.KernelIdeal.Gen.iblk16 V c 3 t : Vec Ideal Cert.KernelIdeal.S128x1 .f32) = (V c Cert.KernelIdeal.main_arg17 : Vec Ideal Cert.KernelIdeal.S128x1 .f32) := by
  have hz' : (fun a => Cert.KernelIdeal.win16_3.index t a * Cert.KernelIdeal.main_arg17.ty.shape.size a) = fun _ => 0 :=
    funext fun a => by fin_cases a <;> rfl
  exact Memref.read_access_unit_zero (Elt Ideal) Cert.KernelIdeal.main_arg17 hz' (fun a => by rw [congrFun hz' a]; simp) (V c Cert.KernelIdeal.main_arg17)

theorem iblk16_4_eq (c : Dev Cert.KernelIdeal.nD) (t : Fin Cert.KernelIdeal.cfg16.N) :
    (Cert.KernelIdeal.Gen.iblk16 V c 4 t : Vec Ideal Cert.KernelIdeal.S1x1 .f32) = (V c Cert.KernelIdeal.main_v201 : Vec Ideal Cert.KernelIdeal.S1x1 .f32) := by
  have hz' : (fun a => Cert.KernelIdeal.win16_4.index t a * Cert.KernelIdeal.main_v201.ty.shape.size a) = fun _ => 0 :=
    funext fun a => by fin_cases a <;> rfl
  exact Memref.read_access_unit_zero (Elt Ideal) Cert.KernelIdeal.main_v201 hz' (fun a => by rw [congrFun hz' a]; simp) (V c Cert.KernelIdeal.main_v201)

/-- What the one point writes back is the (whole) block of `clsOut` of the five arrays as the region finds them. -/
theorem flushed16_5_eq (c : Dev Cert.KernelIdeal.nD) (t : Fin Cert.KernelIdeal.cfg16.N) :
    (Cert.KernelIdeal.Gen.dat16 (F := Ideal) V c).flushed 5 t = ((Cert.KernelIdeal.cfg16.win 5).blk t).view.read (Elt Ideal)
      (clsOut (V c Cert.KernelIdeal.main_v199) (V c Cert.KernelIdeal.main_arg15) (V c Cert.KernelIdeal.main_v200) (V c Cert.KernelIdeal.main_arg17) (V c Cert.KernelIdeal.main_v201)) := by
  show (Cert.KernelIdeal.cfg16.win 5).cut (Cert.KernelIdeal.grid16.coords t) ((Cert.KernelIdeal.Gen.dat16 (F := Ideal) V c).after 5 t) = _
  rw [Cert.KernelIdeal.Gen.after16_5]
  unfold Cert.KernelIdeal.Gen.out16_5
  rw [View.canon_unit_zero hz16]
  simp only [View.ld_unit_zero (S := Cert.KernelIdeal.S512x64) hz16, View.ld_unit_zero (S := Cert.KernelIdeal.S64x128) hz16,
    View.ld_unit_zero (S := Cert.KernelIdeal.S1x128) hz16, View.ld_unit_zero (S := Cert.KernelIdeal.S128x1) hz16, View.ld_unit_zero (S := Cert.KernelIdeal.S1x1) hz16]
  rw [iblk16_0_eq V c t, iblk16_1_eq V c t, iblk16_2_eq V c t, iblk16_3_eq V c t, iblk16_4_eq V c t, k16_pay1_eq]
  have hz' : (fun a => Cert.KernelIdeal.win16_5.index t a * Cert.KernelIdeal.main_v202.ty.shape.size a) = fun _ => 0 :=
    funext fun a => by fin_cases a <;> rfl
  exact (Memref.read_access_unit_zero (Elt Ideal) Cert.KernelIdeal.main_v202 hz' (fun a => by rw [congrFun hz' a]; simp)
    (clsOut (V c Cert.KernelIdeal.main_v199) (V c Cert.KernelIdeal.main_arg15) (V c Cert.KernelIdeal.main_v200) (V c Cert.KernelIdeal.main_arg17) (V c Cert.KernelIdeal.main_v201))).symm

/-- The result array after the pallas_call: `clsOut` of the five arrays as the region finds them. The one point's
    block is the whole array, so the array read back through that block is the array, and that block of the final
    array is the block the point wrote. -/
theorem cls_value16 (c : Dev Cert.KernelIdeal.nD) :
    (Cert.KernelIdeal.Gen.dat16 (F := Ideal) V c).arrAt 5 Cert.KernelIdeal.cfg16.N
      = clsOut (V c Cert.KernelIdeal.main_v199) (V c Cert.KernelIdeal.main_arg15) (V c Cert.KernelIdeal.main_v200) (V c Cert.KernelIdeal.main_arg17) (V c Cert.KernelIdeal.main_v201) := by
  have hz' : (fun a => Cert.KernelIdeal.win16_5.index ⟨0, by decide⟩ a * Cert.KernelIdeal.main_v202.ty.shape.size a) = fun _ => 0 :=
    funext fun a => by fin_cases a <;> rfl
  have hb := (Cert.KernelIdeal.Gen.dat16 (F := Ideal) V c).read_blk_arrAt 5
    (clsOut (V c Cert.KernelIdeal.main_v199) (V c Cert.KernelIdeal.main_arg15) (V c Cert.KernelIdeal.main_v200) (V c Cert.KernelIdeal.main_arg17) (V c Cert.KernelIdeal.main_v201))
    (fun t _ => flushed16_5_eq V c t) ⟨0, by decide⟩ (Cert.KernelIdeal.Gen.flush16_5 _)
  exact (Memref.read_access_unit_zero (Elt Ideal) Cert.KernelIdeal.main_v202 hz' (fun a => by rw [congrFun hz' a]; simp)
      ((Cert.KernelIdeal.Gen.dat16 (F := Ideal) V c).arrAt 5 Cert.KernelIdeal.cfg16.N)).symm.trans
    (hb.trans (Memref.read_access_unit_zero (Elt Ideal) Cert.KernelIdeal.main_v202 hz' (fun a => by rw [congrFun hz' a]; simp)
      (clsOut (V c Cert.KernelIdeal.main_v199) (V c Cert.KernelIdeal.main_arg15) (V c Cert.KernelIdeal.main_v200) (V c Cert.KernelIdeal.main_arg17) (V c Cert.KernelIdeal.main_v201))))

end Region16

/-! ## The two correspondences -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-! The classifier's pallas_call leaves its input windows' arrays as it found them: what the kernel program ends
    holding in the pooled buffer and the two weight arguments is what the pallas_call's entry held. -/

theorem kv_v199_entry (c : Dev Cert.KernelIdeal.nD) :
    KV m ρ c Cert.KernelIdeal.main_v199 = Cert.KernelIdeal.Gen.V51 (F := Ideal) m ρ c Cert.KernelIdeal.main_v199 :=
  (Cert.KernelIdeal.Gen.W52_arr m ρ c 0).trans
    (((Cert.KernelIdeal.Gen.dat16 (Cert.KernelIdeal.Gen.V51 (F := Ideal) m ρ) c).arrAt_in 0 rfl _).trans (Cert.KernelIdeal.Gen.A_eq16 (Cert.KernelIdeal.Gen.V51 (F := Ideal) m ρ) c 0))

theorem kv_arg15_entry (c : Dev Cert.KernelIdeal.nD) :
    KV m ρ c Cert.KernelIdeal.main_arg15 = Cert.KernelIdeal.Gen.V51 (F := Ideal) m ρ c Cert.KernelIdeal.main_arg15 :=
  (Cert.KernelIdeal.Gen.W52_arr m ρ c 1).trans
    (((Cert.KernelIdeal.Gen.dat16 (Cert.KernelIdeal.Gen.V51 (F := Ideal) m ρ) c).arrAt_in 1 rfl _).trans (Cert.KernelIdeal.Gen.A_eq16 (Cert.KernelIdeal.Gen.V51 (F := Ideal) m ρ) c 1))

theorem kv_arg17_entry (c : Dev Cert.KernelIdeal.nD) :
    KV m ρ c Cert.KernelIdeal.main_arg17 = Cert.KernelIdeal.Gen.V51 (F := Ideal) m ρ c Cert.KernelIdeal.main_arg17 :=
  (Cert.KernelIdeal.Gen.W52_arr m ρ c 3).trans
    (((Cert.KernelIdeal.Gen.dat16 (Cert.KernelIdeal.Gen.V51 (F := Ideal) m ρ) c).arrAt_in 3 rfl _).trans (Cert.KernelIdeal.Gen.A_eq16 (Cert.KernelIdeal.Gen.V51 (F := Ideal) m ρ) c 3))

/-- The pooled features agree when the last layer's node features do: both programs scatter-add them by the same
    graph ids (an argument) onto zeros. -/
theorem corr_pooled (hag : Agree m m') (c : Dev Cert.KernelIdeal.nD)
    (hh : KV m ρ c Cert.KernelIdeal.main_v196 = RV m' c Cert.ReferenceIdeal.main_v374) :
    KV m ρ c Cert.KernelIdeal.main_v199 = RV m' c Cert.ReferenceIdeal.main_v377 := by
  obtain ⟨-, -, -, h3, -⟩ := hag c
  have hK : KV m ρ c Cert.KernelIdeal.main_v199 = pooledOf (m ((c : Thread Cert.KernelIdeal.nD Cert.KernelIdeal.τ).loc Cert.KernelIdeal.main_arg3)) (KV m ρ c Cert.KernelIdeal.main_v196) := by
    have e := k_read_v199 (Cert.KernelIdeal.Gen.W50 (F := Ideal) m ρ c)
    rw [Cert.KernelIdeal.Keep.toEnd_50 m ρ c Cert.KernelIdeal.main_arg3 (by decide), Cert.KernelIdeal.Keep.toEnd_50 m ρ c Cert.KernelIdeal.main_v196 (by decide),
      Cert.KernelIdeal.Gen.W52_main_arg3 m ρ c] at e
    exact (kv_v199_entry m ρ c).trans e
  have hR : RV m' c Cert.ReferenceIdeal.main_v377 = pooledOf (m' ((c.tc : Thread Cert.ReferenceIdeal.nD Cert.ReferenceIdeal.τ).loc Cert.ReferenceIdeal.main_arg3)) (RV m' c Cert.ReferenceIdeal.main_v374) := by
    have e := r_read_v377 (R40 m' c)
    rw [Cert.ReferenceIdeal.Keep.toEnd_40 m' c Cert.ReferenceIdeal.main_arg3 (by decide), Cert.ReferenceIdeal.Keep.toEnd_40 m' c Cert.ReferenceIdeal.main_v374 (by decide),
      Cert.ReferenceIdeal.Keep.arg_kept_3 m' c] at e
    exact (Cert.ReferenceIdeal.Keep.toEnd_41 m' c Cert.ReferenceIdeal.main_v377 (by decide)).symm.trans e
  rw [hK, hR, hh, h3]

/-- The results agree when the pooled features do: the kernel program's result array is `clsOut` of the pooled
    features, the weight arguments and the one-row casts of the bias arguments (the pallas_call's value, its windows'
    arrays read at the region's entry); the reference's three lists compute `clsOut` of the same. -/
theorem corr_out (hag : Agree m m') (c : Dev Cert.KernelIdeal.nD)
    (hp : KV m ρ c Cert.KernelIdeal.main_v199 = RV m' c Cert.ReferenceIdeal.main_v377) :
    KV m ρ c Cert.KernelIdeal.main_v202 = RV m' c Cert.ReferenceIdeal.main_v386 := by
  obtain ⟨-, -, -, -, -, -, -, -, -, -, -, -, -, -, -, h15, h16, h17, h18⟩ := hag c
  have hK : KV m ρ c Cert.KernelIdeal.main_v202
      = clsOut (KV m ρ c Cert.KernelIdeal.main_v199) (m ((c : Thread Cert.KernelIdeal.nD Cert.KernelIdeal.τ).loc Cert.KernelIdeal.main_arg15))
          (shapeCast Cert.KernelIdeal.S1x128 (m ((c : Thread Cert.KernelIdeal.nD Cert.KernelIdeal.τ).loc Cert.KernelIdeal.main_arg16) : FVec Ideal Cert.KernelIdeal.S128 .f32) Cert.KernelIdeal.Gen.shapeCasts_S128_S1x128)
          (m ((c : Thread Cert.KernelIdeal.nD Cert.KernelIdeal.τ).loc Cert.KernelIdeal.main_arg17))
          (shapeCast Cert.KernelIdeal.S1x1 (m ((c : Thread Cert.KernelIdeal.nD Cert.KernelIdeal.τ).loc Cert.KernelIdeal.main_arg18) : FVec Ideal Cert.KernelIdeal.S1 .f32) Cert.KernelIdeal.Gen.shapeCasts_S1_S1x1) := by
    have e := cls_value16 (Cert.KernelIdeal.Gen.V51 (F := Ideal) m ρ) c
    have e200 := k_read_v200 (Cert.KernelIdeal.Gen.W50 (F := Ideal) m ρ c)
    have e201 := k_read_v201 (Cert.KernelIdeal.Gen.W50 (F := Ideal) m ρ c)
    rw [Cert.KernelIdeal.Keep.toEnd_50 m ρ c Cert.KernelIdeal.main_arg16 (by decide), Cert.KernelIdeal.Gen.W52_main_arg16 m ρ c] at e200
    rw [Cert.KernelIdeal.Keep.toEnd_50 m ρ c Cert.KernelIdeal.main_arg18 (by decide), Cert.KernelIdeal.Gen.W52_main_arg18 m ρ c] at e201
    have a0 : Cert.KernelIdeal.Gen.V51 (F := Ideal) m ρ c Cert.KernelIdeal.main_v199 = KV m ρ c Cert.KernelIdeal.main_v199 := (kv_v199_entry m ρ c).symm
    have a1 : Cert.KernelIdeal.Gen.V51 (F := Ideal) m ρ c Cert.KernelIdeal.main_arg15 = m ((c : Thread Cert.KernelIdeal.nD Cert.KernelIdeal.τ).loc Cert.KernelIdeal.main_arg15) :=
      (kv_arg15_entry m ρ c).symm.trans (Cert.KernelIdeal.Gen.W52_main_arg15 m ρ c)
    have a2 : Cert.KernelIdeal.Gen.V51 (F := Ideal) m ρ c Cert.KernelIdeal.main_v200
        = shapeCast Cert.KernelIdeal.S1x128 (m ((c : Thread Cert.KernelIdeal.nD Cert.KernelIdeal.τ).loc Cert.KernelIdeal.main_arg16) : FVec Ideal Cert.KernelIdeal.S128 .f32) Cert.KernelIdeal.Gen.shapeCasts_S128_S1x128 := e200
    have a3 : Cert.KernelIdeal.Gen.V51 (F := Ideal) m ρ c Cert.KernelIdeal.main_arg17 = m ((c : Thread Cert.KernelIdeal.nD Cert.KernelIdeal.τ).loc Cert.KernelIdeal.main_arg17) :=
      (kv_arg17_entry m ρ c).symm.trans (Cert.KernelIdeal.Gen.W52_main_arg17 m ρ c)
    have a4 : Cert.KernelIdeal.Gen.V51 (F := Ideal) m ρ c Cert.KernelIdeal.main_v201
        = shapeCast Cert.KernelIdeal.S1x1 (m ((c : Thread Cert.KernelIdeal.nD Cert.KernelIdeal.τ).loc Cert.KernelIdeal.main_arg18) : FVec Ideal Cert.KernelIdeal.S1 .f32) Cert.KernelIdeal.Gen.shapeCasts_S1_S1x1 := e201
    rw [a0, a1, a2, a3, a4] at e
    exact (Cert.KernelIdeal.Gen.W52_arr m ρ c 5).trans e
  have hR : RV m' c Cert.ReferenceIdeal.main_v386
      = clsOut (RV m' c Cert.ReferenceIdeal.main_v377) (m' ((c.tc : Thread Cert.ReferenceIdeal.nD Cert.ReferenceIdeal.τ).loc Cert.ReferenceIdeal.main_arg15))
          (shapeCast Cert.KernelIdeal.S1x128 (m' ((c.tc : Thread Cert.ReferenceIdeal.nD Cert.ReferenceIdeal.τ).loc Cert.ReferenceIdeal.main_arg16) : FVec Ideal Cert.ReferenceIdeal.S128 .f32) Cert.KernelIdeal.Gen.shapeCasts_S128_S1x128)
          (m' ((c.tc : Thread Cert.ReferenceIdeal.nD Cert.ReferenceIdeal.τ).loc Cert.ReferenceIdeal.main_arg17))
          (shapeCast Cert.KernelIdeal.S1x1 (m' ((c.tc : Thread Cert.ReferenceIdeal.nD Cert.ReferenceIdeal.τ).loc Cert.ReferenceIdeal.main_arg18) : FVec Ideal Cert.ReferenceIdeal.S1 .f32) Cert.KernelIdeal.Gen.shapeCasts_S1_S1x1) := by
    have e386 := r_read_v386 (R42 m' c)
    have e382 := r_read_v382 (R41 m' c)
    have e381 := r_read_v381 (R40 m' c)
    have b377 : StableHlo.after (Cert.ReferenceIdeal.Ops.hostOps0_40 (F := Ideal)) (R40 m' c) (Proc.devRef .tc Cert.ReferenceIdeal.main_v377)
        = RV m' c Cert.ReferenceIdeal.main_v377 := Cert.ReferenceIdeal.Keep.toEnd_41 m' c Cert.ReferenceIdeal.main_v377 (by decide)
    have b15 : R40 m' c (Proc.devRef .tc Cert.ReferenceIdeal.main_arg15) = m' ((c.tc : Thread Cert.ReferenceIdeal.nD Cert.ReferenceIdeal.τ).loc Cert.ReferenceIdeal.main_arg15) :=
      (Cert.ReferenceIdeal.Keep.toEnd_40 m' c Cert.ReferenceIdeal.main_arg15 (by decide)).trans (Cert.ReferenceIdeal.Keep.arg_kept_15 m' c)
    have b16 : R40 m' c (Proc.devRef .tc Cert.ReferenceIdeal.main_arg16) = m' ((c.tc : Thread Cert.ReferenceIdeal.nD Cert.ReferenceIdeal.τ).loc Cert.ReferenceIdeal.main_arg16) :=
      (Cert.ReferenceIdeal.Keep.toEnd_40 m' c Cert.ReferenceIdeal.main_arg16 (by decide)).trans (Cert.ReferenceIdeal.Keep.arg_kept_16 m' c)
    have b17 : R42 m' c (Proc.devRef .tc Cert.ReferenceIdeal.main_arg17) = m' ((c.tc : Thread Cert.ReferenceIdeal.nD Cert.ReferenceIdeal.τ).loc Cert.ReferenceIdeal.main_arg17) :=
      (Cert.ReferenceIdeal.Keep.toEnd_42 m' c Cert.ReferenceIdeal.main_arg17 (by decide)).trans (Cert.ReferenceIdeal.Keep.arg_kept_17 m' c)
    have b18 : R42 m' c (Proc.devRef .tc Cert.ReferenceIdeal.main_arg18) = m' ((c.tc : Thread Cert.ReferenceIdeal.nD Cert.ReferenceIdeal.τ).loc Cert.ReferenceIdeal.main_arg18) :=
      (Cert.ReferenceIdeal.Keep.toEnd_42 m' c Cert.ReferenceIdeal.main_arg18 (by decide)).trans (Cert.ReferenceIdeal.Keep.arg_kept_18 m' c)
    rw [b377, b15, b16] at e381
    have hH : R42 m' c (Proc.devRef .tc Cert.ReferenceIdeal.main_v382)
        = clsHid (RV m' c Cert.ReferenceIdeal.main_v377) (m' ((c.tc : Thread Cert.ReferenceIdeal.nD Cert.ReferenceIdeal.τ).loc Cert.ReferenceIdeal.main_arg15))
            (shapeCast Cert.KernelIdeal.S1x128 (m' ((c.tc : Thread Cert.ReferenceIdeal.nD Cert.ReferenceIdeal.τ).loc Cert.ReferenceIdeal.main_arg16) : FVec Ideal Cert.ReferenceIdeal.S128 .f32) Cert.KernelIdeal.Gen.shapeCasts_S128_S1x128) :=
      e382.trans ((congrArg refRelu e381).trans (refRelu_refPre_eq _ _ _))
    rw [b17, b18] at e386
    exact e386.trans (refOutF_eq _ _ _ _ _ _ hH)
  rw [hK, hR, hp, h15, h16, h17, h18]

end Cert.Bridge

end
-- ==== Proof.Bridge.Gather.lean ====
/- Layer 0 of the bridge between the idealized kernel program and the idealized reference: the node features taken
   at the edge sources, and the rows of the layer's 4-row edge-embedding table taken at the edge attributes.

   Both are takes of table rows at an index vector (Head.lean): the reference gathers at the index with negative
   indices moved up by the table's height, the kernel program gathers the same way and guards each row by the test
   that its index lies in the table. The sources lie among the 100000 nodes and the attributes in the 4 rows, so
   both programs leave the plain gather of the same table at the same index. -/
import proofs.«417278_j53197464928922_1_alg».proof.Proof.Bridge.Head

set_option maxRecDepth 16384

noncomputable section

namespace Cert.Bridge

open Idealize.ShloMosaic Idealize.ShloMosaic.TcCoe Idealize.SL.Sem

/-! ## The operation lists read at one buffer, for every valuation -/

attribute [local irreducible] Host.reduce Host.gather in
set_option maxHeartbeats 1000000 in
/-- The kernel program's node features at the edge sources, for a valuation whose sources lie among the 100000 nodes:
    the guarded take leaves the plain gather. -/
theorem k_hsrc0_read (W : Valuation Cert.KernelIdeal.τ Cert.KernelIdeal.sig (Elt Ideal))
    (hx : ∀ i, 0 ≤ ((W (Proc.devRef .tc Cert.KernelIdeal.main_v1) : IVec Cert.KernelIdeal.S1600000 32) i).toInt
      ∧ ((W (Proc.devRef .tc Cert.KernelIdeal.main_v1) : IVec Cert.KernelIdeal.S1600000 32) i).toInt < 100000) :
    StableHlo.after (Cert.KernelIdeal.Gen.hostOps0_2 (F := Ideal)) W (Proc.devRef .tc Cert.KernelIdeal.main_v5)
      = Host.gather Cert.KernelIdeal.gather_S100000x64_S1600000x1_S1600000x64_1_0_n_n_0_1_164 (W (Proc.devRef .tc Cert.KernelIdeal.main_v4))
          (broadcastInDim Cert.KernelIdeal.S1600000x1 ![0] Cert.KernelIdeal.Gen.bcast_S1600000_S1600000x1_0 (W (Proc.devRef .tc Cert.KernelIdeal.main_v1))) := by
  after_results_simp
  simp only [StableHlo.TRef.ofBuf, StableHlo.TRef.toBuf, cast_same]
  rw [select_wrap_eq Cert.KernelIdeal.Gen.bcast_S_S1600000 (W (Proc.devRef .tc Cert.KernelIdeal.main_v1) : IVec Cert.KernelIdeal.S1600000 32) _ fun i => (hx i).1]
  have hv : ∀ i, 0 ≤ ((broadcastInDim Cert.KernelIdeal.S1600000x1 ![0] Cert.KernelIdeal.Gen.bcast_S1600000_S1600000x1_0
        (W (Proc.devRef .tc Cert.KernelIdeal.main_v1) : IVec Cert.KernelIdeal.S1600000 32)) i).toInt
      ∧ ((broadcastInDim Cert.KernelIdeal.S1600000x1 ![0] Cert.KernelIdeal.Gen.bcast_S1600000_S1600000x1_0
        (W (Proc.devRef .tc Cert.KernelIdeal.main_v1) : IVec Cert.KernelIdeal.S1600000 32)) i).toInt ≤ (99999#32 : BitVec 32).toInt := by
    intro i
    have e : (99999#32 : BitVec 32).toInt = 99999 := by decide
    rw [e]
    unfold broadcastInDim
    exact ⟨(hx _).1, Int.le_of_lt_add_one (hx _).2⟩
  rw [select_guard_eq Cert.KernelIdeal.Gen.bcast_S_S1600000x1 Cert.KernelIdeal.Gen.bcast_S1_S1x1_1 Cert.KernelIdeal.Gen.bcast_S1x1_S1600000x1_0_1
    Cert.KernelIdeal.Gen.reducesTo_S1600000x1_S1600000_d1 Cert.KernelIdeal.Gen.h_S_ Cert.KernelIdeal.Gen.bcast_S1600000_S1600000x64_0
    (broadcastInDim Cert.KernelIdeal.S1600000x1 ![0] Cert.KernelIdeal.Gen.bcast_S1600000_S1600000x1_0 (W (Proc.devRef .tc Cert.KernelIdeal.main_v1) : IVec Cert.KernelIdeal.S1600000 32))
    99999#32 hv]

set_option maxHeartbeats 1000000 in
/-- The kernel program's edge-embedding table of this layer: one slab of the stacked tables, its unit axis dropped. -/
theorem k_etab0_read (W : Valuation Cert.KernelIdeal.τ Cert.KernelIdeal.sig (Elt Ideal)) :
    StableHlo.after (Cert.KernelIdeal.Gen.hostOps0_3 (F := Ideal)) W (Proc.devRef .tc Cert.KernelIdeal.main_v7)
      = shapeCast Cert.KernelIdeal.S4x64 (extractStridedSlice Cert.KernelIdeal.S1x4x64 _ (W (Proc.devRef .tc Cert.KernelIdeal.main_arg5))
          Cert.KernelIdeal.Gen.slices_S4x4x64_S1x4x64_0_0_0) Cert.KernelIdeal.Gen.shapeCasts_S1x4x64_S4x64 := by
  after_results_simp
  rfl

attribute [local irreducible] Host.reduce Host.gather in
set_option maxHeartbeats 1000000 in
/-- The kernel program's edge-embedding rows at the edge attributes, for a valuation whose attributes lie in the 4
    rows: the guarded take leaves the plain gather. -/
theorem k_eattr0_read (W : Valuation Cert.KernelIdeal.τ Cert.KernelIdeal.sig (Elt Ideal))
    (hx : ∀ i, 0 ≤ ((W (Proc.devRef .tc Cert.KernelIdeal.main_arg2) : IVec Cert.KernelIdeal.S1600000 32) i).toInt
      ∧ ((W (Proc.devRef .tc Cert.KernelIdeal.main_arg2) : IVec Cert.KernelIdeal.S1600000 32) i).toInt < 4) :
    StableHlo.after (Cert.KernelIdeal.Gen.hostOps0_4 (F := Ideal)) W (Proc.devRef .tc Cert.KernelIdeal.main_v8)
      = Host.gather Cert.KernelIdeal.gather_S4x64_S1600000x1_S1600000x64_1_0_n_n_0_1_164 (W (Proc.devRef .tc Cert.KernelIdeal.main_v7))
          (broadcastInDim Cert.KernelIdeal.S1600000x1 ![0] Cert.KernelIdeal.Gen.bcast_S1600000_S1600000x1_0 (W (Proc.devRef .tc Cert.KernelIdeal.main_arg2))) := by
  after_results_simp
  simp only [StableHlo.TRef.ofBuf, StableHlo.TRef.toBuf, cast_same]
  rw [select_wrap_eq Cert.KernelIdeal.Gen.bcast_S_S1600000 (W (Proc.devRef .tc Cert.KernelIdeal.main_arg2) : IVec Cert.KernelIdeal.S1600000 32) _ fun i => (hx i).1]
  have hv : ∀ i, 0 ≤ ((broadcastInDim Cert.KernelIdeal.S1600000x1 ![0] Cert.KernelIdeal.Gen.bcast_S1600000_S1600000x1_0
        (W (Proc.devRef .tc Cert.KernelIdeal.main_arg2) : IVec Cert.KernelIdeal.S1600000 32)) i).toInt
      ∧ ((broadcastInDim Cert.KernelIdeal.S1600000x1 ![0] Cert.KernelIdeal.Gen.bcast_S1600000_S1600000x1_0
        (W (Proc.devRef .tc Cert.KernelIdeal.main_arg2) : IVec Cert.KernelIdeal.S1600000 32)) i).toInt ≤ (3#32 : BitVec 32).toInt := by
    intro i
    have e : (3#32 : BitVec 32).toInt = 3 := by decide
    rw [e]
    unfold broadcastInDim
    exact ⟨(hx _).1, Int.le_of_lt_add_one (hx _).2⟩
  rw [select_guard_eq Cert.KernelIdeal.Gen.bcast_S_S1600000x1 Cert.KernelIdeal.Gen.bcast_S1_S1x1_1 Cert.KernelIdeal.Gen.bcast_S1x1_S1600000x1_0_1
    Cert.KernelIdeal.Gen.reducesTo_S1600000x1_S1600000_d1 Cert.KernelIdeal.Gen.h_S_ Cert.KernelIdeal.Gen.bcast_S1600000_S1600000x64_0
    (broadcastInDim Cert.KernelIdeal.S1600000x1 ![0] Cert.KernelIdeal.Gen.bcast_S1600000_S1600000x1_0 (W (Proc.devRef .tc Cert.KernelIdeal.main_arg2) : IVec Cert.KernelIdeal.S1600000 32))
    3#32 hv]

attribute [local irreducible] Host.reduce Host.gather in
set_option maxHeartbeats 2000000 in
/-- The reference's node features at the edge sources, for a valuation that leaves no negative source: the gather of
    what the list leaves as node features at what it leaves as sources. -/
theorem r_hsrc0_read (W : Valuation Cert.ReferenceIdeal.τ Cert.ReferenceIdeal.sig (Elt Ideal))
    (hx : ∀ i, 0 ≤ ((StableHlo.after (Cert.ReferenceIdeal.Ops.hostOps0 (F := Ideal)) W (Proc.devRef .tc Cert.ReferenceIdeal.main_v1) : IVec Cert.ReferenceIdeal.S1600000 32) i).toInt) :
    StableHlo.after (Cert.ReferenceIdeal.Ops.hostOps0 (F := Ideal)) W (Proc.devRef .tc Cert.ReferenceIdeal.main_v17)
      = Host.gather Cert.ReferenceIdeal.gather_S100000x64_S1600000x1_S1600000x64_1_0_n_n_0_1_164
          (StableHlo.after (Cert.ReferenceIdeal.Ops.hostOps0 (F := Ideal)) W (Proc.devRef .tc Cert.ReferenceIdeal.main_v10))
          (broadcastInDim Cert.ReferenceIdeal.S1600000x1 ![0] Cert.ReferenceIdeal.Gen.bcast_S1600000_S1600000x1_0
            (StableHlo.after (Cert.ReferenceIdeal.Ops.hostOps0 (F := Ideal)) W (Proc.devRef .tc Cert.ReferenceIdeal.main_v1))) := by
  have e : StableHlo.after (Cert.ReferenceIdeal.Ops.hostOps0 (F := Ideal)) W (Proc.devRef .tc Cert.ReferenceIdeal.main_v17)
      = Host.gather Cert.ReferenceIdeal.gather_S100000x64_S1600000x1_S1600000x64_1_0_n_n_0_1_164
          (StableHlo.after (Cert.ReferenceIdeal.Ops.hostOps0 (F := Ideal)) W (Proc.devRef .tc Cert.ReferenceIdeal.main_v10))
          (broadcastInDim Cert.ReferenceIdeal.S1600000x1 ![0] Cert.ReferenceIdeal.Gen.bcast_S1600000_S1600000x1_0
            (select
              (cmpi .slt (StableHlo.after (Cert.ReferenceIdeal.Ops.hostOps0 (F := Ideal)) W (Proc.devRef .tc Cert.ReferenceIdeal.main_v1) : IVec Cert.ReferenceIdeal.S1600000 32)
                (broadcastInDim Cert.ReferenceIdeal.S1600000 ![] Cert.ReferenceIdeal.Gen.bcast_S_S1600000 (constantI Cert.ReferenceIdeal.S_ 32 0#32)))
              (addi (StableHlo.after (Cert.ReferenceIdeal.Ops.hostOps0 (F := Ideal)) W (Proc.devRef .tc Cert.ReferenceIdeal.main_v1) : IVec Cert.ReferenceIdeal.S1600000 32)
                (broadcastInDim Cert.ReferenceIdeal.S1600000 ![] Cert.ReferenceIdeal.Gen.bcast_S_S1600000 (constantI Cert.ReferenceIdeal.S_ 32 100000#32)))
              (StableHlo.after (Cert.ReferenceIdeal.Ops.hostOps0 (F := Ideal)) W (Proc.devRef .tc Cert.ReferenceIdeal.main_v1) : IVec Cert.ReferenceIdeal.S1600000 32))) := by
    after_results_simp
  rw [e, select_wrap_eq Cert.ReferenceIdeal.Gen.bcast_S_S1600000
    (StableHlo.after (Cert.ReferenceIdeal.Ops.hostOps0 (F := Ideal)) W (Proc.devRef .tc Cert.ReferenceIdeal.main_v1) : IVec Cert.ReferenceIdeal.S1600000 32) _ hx]

set_option maxHeartbeats 1000000 in
/-- The reference's edge-embedding table of this layer: one slab of the stacked tables, its unit axis dropped. -/
theorem r_etab0_read (W : Valuation Cert.ReferenceIdeal.τ Cert.ReferenceIdeal.sig (Elt Ideal)) :
    StableHlo.after (Cert.ReferenceIdeal.Ops.hostOps0 (F := Ideal)) W (Proc.devRef .tc Cert.ReferenceIdeal.main_v19)
      = shapeCast Cert.ReferenceIdeal.S4x64 (extractStridedSlice Cert.ReferenceIdeal.S1x4x64 _ (W (Proc.devRef .tc Cert.ReferenceIdeal.main_arg5))
          Cert.ReferenceIdeal.Gen.slices_S4x4x64_S1x4x64_0_0_0) Cert.ReferenceIdeal.Gen.shapeCasts_S1x4x64_S4x64 := by
  after_results_simp
  rfl

attribute [local irreducible] Host.reduce Host.gather in
set_option maxHeartbeats 2000000 in
/-- The reference's edge-embedding rows at the edge attributes, for a valuation with no negative attribute: the
    gather of the table the list leaves at the attributes. -/
theorem r_eattr0_read (W : Valuation Cert.ReferenceIdeal.τ Cert.ReferenceIdeal.sig (Elt Ideal))
    (hx : ∀ i, 0 ≤ ((W (Proc.devRef .tc Cert.ReferenceIdeal.main_arg2) : IVec Cert.ReferenceIdeal.S1600000 32) i).toInt) :
    StableHlo.after (Cert.ReferenceIdeal.Ops.hostOps0 (F := Ideal)) W (Proc.devRef .tc Cert.ReferenceIdeal.main_v26)
      = Host.gather Cert.ReferenceIdeal.gather_S4x64_S1600000x1_S1600000x64_1_0_n_n_0_1_164
          (StableHlo.after (Cert.ReferenceIdeal.Ops.hostOps0 (F := Ideal)) W (Proc.devRef .tc Cert.ReferenceIdeal.main_v19))
          (broadcastInDim Cert.ReferenceIdeal.S1600000x1 ![0] Cert.ReferenceIdeal.Gen.bcast_S1600000_S1600000x1_0 (W (Proc.devRef .tc Cert.ReferenceIdeal.main_arg2))) := by
  have e : StableHlo.after (Cert.ReferenceIdeal.Ops.hostOps0 (F := Ideal)) W (Proc.devRef .tc Cert.ReferenceIdeal.main_v26)
      = Host.gather Cert.ReferenceIdeal.gather_S4x64_S1600000x1_S1600000x64_1_0_n_n_0_1_164
          (StableHlo.after (Cert.ReferenceIdeal.Ops.hostOps0 (F := Ideal)) W (Proc.devRef .tc Cert.ReferenceIdeal.main_v19))
          (broadcastInDim Cert.ReferenceIdeal.S1600000x1 ![0] Cert.ReferenceIdeal.Gen.bcast_S1600000_S1600000x1_0
            (select
              (cmpi .slt (W (Proc.devRef .tc Cert.ReferenceIdeal.main_arg2) : IVec Cert.ReferenceIdeal.S1600000 32)
                (broadcastInDim Cert.ReferenceIdeal.S1600000 ![] Cert.ReferenceIdeal.Gen.bcast_S_S1600000 (constantI Cert.ReferenceIdeal.S_ 32 0#32)))
              (addi (W (Proc.devRef .tc Cert.ReferenceIdeal.main_arg2) : IVec Cert.ReferenceIdeal.S1600000 32)
                (broadcastInDim Cert.ReferenceIdeal.S1600000 ![] Cert.ReferenceIdeal.Gen.bcast_S_S1600000 (constantI Cert.ReferenceIdeal.S_ 32 4#32)))
              (W (Proc.devRef .tc Cert.ReferenceIdeal.main_arg2) : IVec Cert.ReferenceIdeal.S1600000 32))) := by
    after_results_simp
  rw [e, select_wrap_eq Cert.ReferenceIdeal.Gen.bcast_S_S1600000 (W (Proc.devRef .tc Cert.ReferenceIdeal.main_arg2) : IVec Cert.ReferenceIdeal.S1600000 32) _ hx]

/-! ## The correspondences -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The two programs hold the same node features at the edge sources, given that they hold the same node features
    and the same sources. -/
theorem corr_hsrc0 (hag : Agree m m') (hr : Ranges m) (c : Dev Cert.KernelIdeal.nD)
    (hh : KV m ρ c Cert.KernelIdeal.main_v4 = RV m' c Cert.ReferenceIdeal.main_v10)
    (hs : KV m ρ c Cert.KernelIdeal.main_v1 = RV m' c Cert.ReferenceIdeal.main_v1) :
    KV m ρ c Cert.KernelIdeal.main_v5 = RV m' c Cert.ReferenceIdeal.main_v17 := by
  have hk : KV m ρ c Cert.KernelIdeal.main_v5
      = Host.gather Cert.KernelIdeal.gather_S100000x64_S1600000x1_S1600000x64_1_0_n_n_0_1_164 (KV m ρ c Cert.KernelIdeal.main_v4)
          (broadcastInDim Cert.KernelIdeal.S1600000x1 ![0] Cert.KernelIdeal.Gen.bcast_S1600000_S1600000x1_0 (KV m ρ c Cert.KernelIdeal.main_v1)) := by
    refine (Cert.KernelIdeal.Keep.toEnd_3 m ρ c Cert.KernelIdeal.main_v5 (by decide)).symm.trans ?_
    refine (k_hsrc0_read (Cert.KernelIdeal.Gen.W2 m ρ c) ?_).trans ?_
    · rw [Cert.KernelIdeal.Keep.toEnd_2 m ρ c Cert.KernelIdeal.main_v1 (by decide)]
      exact src_range m ρ hr c
    · rw [Cert.KernelIdeal.Keep.toEnd_2 m ρ c Cert.KernelIdeal.main_v1 (by decide), Cert.KernelIdeal.Keep.toEnd_2 m ρ c Cert.KernelIdeal.main_v4 (by decide)]
  have hR : RV m' c Cert.ReferenceIdeal.main_v17
      = Host.gather Cert.ReferenceIdeal.gather_S100000x64_S1600000x1_S1600000x64_1_0_n_n_0_1_164 (RV m' c Cert.ReferenceIdeal.main_v10)
          (broadcastInDim Cert.ReferenceIdeal.S1600000x1 ![0] Cert.ReferenceIdeal.Gen.bcast_S1600000_S1600000x1_0 (RV m' c Cert.ReferenceIdeal.main_v1)) := by
    refine (Cert.ReferenceIdeal.Keep.toEnd_1 m' c Cert.ReferenceIdeal.main_v17 (by decide)).symm.trans ?_
    refine (r_hsrc0_read (R0 m' c) ?_).trans ?_
    · intro i
      show 0 ≤ ((R1 m' c (Proc.devRef .tc Cert.ReferenceIdeal.main_v1) : IVec Cert.ReferenceIdeal.S1600000 32) i).toInt
      rw [Cert.ReferenceIdeal.Keep.toEnd_1 m' c Cert.ReferenceIdeal.main_v1 (by decide)]
      have h := (src_range m ρ hr c i).1
      rw [hs] at h
      exact h
    · show Host.gather Cert.ReferenceIdeal.gather_S100000x64_S1600000x1_S1600000x64_1_0_n_n_0_1_164
          (R1 m' c (Proc.devRef .tc Cert.ReferenceIdeal.main_v10))
          (broadcastInDim Cert.ReferenceIdeal.S1600000x1 ![0] Cert.ReferenceIdeal.Gen.bcast_S1600000_S1600000x1_0 (R1 m' c (Proc.devRef .tc Cert.ReferenceIdeal.main_v1))) = _
      rw [Cert.ReferenceIdeal.Keep.toEnd_1 m' c Cert.ReferenceIdeal.main_v10 (by decide), Cert.ReferenceIdeal.Keep.toEnd_1 m' c Cert.ReferenceIdeal.main_v1 (by decide)]
  rw [hk, hR, hh, hs, gather100000_eq]
  all_goals rfl

/-- The two programs hold the same edge-embedding rows at the edge attributes. -/
theorem corr_eattr0 (hag : Agree m m') (hr : Ranges m) (c : Dev Cert.KernelIdeal.nD) :
    KV m ρ c Cert.KernelIdeal.main_v8 = RV m' c Cert.ReferenceIdeal.main_v26 := by
  have hkt : KV m ρ c Cert.KernelIdeal.main_v7
      = shapeCast Cert.KernelIdeal.S4x64 (extractStridedSlice Cert.KernelIdeal.S1x4x64 _ (KV m ρ c Cert.KernelIdeal.main_arg5)
          Cert.KernelIdeal.Gen.slices_S4x4x64_S1x4x64_0_0_0) Cert.KernelIdeal.Gen.shapeCasts_S1x4x64_S4x64 := by
    refine (Cert.KernelIdeal.Keep.toEnd_4 m ρ c Cert.KernelIdeal.main_v7 (by decide)).symm.trans ?_
    refine (k_etab0_read (Cert.KernelIdeal.Gen.W3 m ρ c)).trans ?_
    rw [Cert.KernelIdeal.Keep.toEnd_3 m ρ c Cert.KernelIdeal.main_arg5 (by decide)]
  have hk : KV m ρ c Cert.KernelIdeal.main_v8
      = Host.gather Cert.KernelIdeal.gather_S4x64_S1600000x1_S1600000x64_1_0_n_n_0_1_164 (KV m ρ c Cert.KernelIdeal.main_v7)
          (broadcastInDim Cert.KernelIdeal.S1600000x1 ![0] Cert.KernelIdeal.Gen.bcast_S1600000_S1600000x1_0 (KV m ρ c Cert.KernelIdeal.main_arg2)) := by
    refine (Cert.KernelIdeal.Keep.toEnd_5 m ρ c Cert.KernelIdeal.main_v8 (by decide)).symm.trans ?_
    refine (k_eattr0_read (Cert.KernelIdeal.Gen.W4 m ρ c) ?_).trans ?_
    · rw [Cert.KernelIdeal.Keep.toEnd_4 m ρ c Cert.KernelIdeal.main_arg2 (by decide)]
      exact attr_range m ρ hr c
    · rw [Cert.KernelIdeal.Keep.toEnd_4 m ρ c Cert.KernelIdeal.main_arg2 (by decide), Cert.KernelIdeal.Keep.toEnd_4 m ρ c Cert.KernelIdeal.main_v7 (by decide)]
  have hRt : RV m' c Cert.ReferenceIdeal.main_v19
      = shapeCast Cert.ReferenceIdeal.S4x64 (extractStridedSlice Cert.ReferenceIdeal.S1x4x64 _ (RV m' c Cert.ReferenceIdeal.main_arg5)
          Cert.ReferenceIdeal.Gen.slices_S4x4x64_S1x4x64_0_0_0) Cert.ReferenceIdeal.Gen.shapeCasts_S1x4x64_S4x64 := by
    refine (Cert.ReferenceIdeal.Keep.toEnd_1 m' c Cert.ReferenceIdeal.main_v19 (by decide)).symm.trans ?_
    refine (r_etab0_read (R0 m' c)).trans ?_
    rw [Cert.ReferenceIdeal.Keep.toEnd_0 m' c Cert.ReferenceIdeal.main_arg5 (by decide)]
  have hR : RV m' c Cert.ReferenceIdeal.main_v26
      = Host.gather Cert.ReferenceIdeal.gather_S4x64_S1600000x1_S1600000x64_1_0_n_n_0_1_164 (RV m' c Cert.ReferenceIdeal.main_v19)
          (broadcastInDim Cert.ReferenceIdeal.S1600000x1 ![0] Cert.ReferenceIdeal.Gen.bcast_S1600000_S1600000x1_0 (RV m' c Cert.ReferenceIdeal.main_arg2)) := by
    refine (Cert.ReferenceIdeal.Keep.toEnd_1 m' c Cert.ReferenceIdeal.main_v26 (by decide)).symm.trans ?_
    refine (r_eattr0_read (R0 m' c) ?_).trans ?_
    · intro i
      rw [Cert.ReferenceIdeal.Keep.toEnd_0 m' c Cert.ReferenceIdeal.main_arg2 (by decide)]
      show 0 ≤ ((RV m' c Cert.ReferenceIdeal.main_arg2 : IVec Cert.ReferenceIdeal.S1600000 32) i).toInt
      rw [rv_arg2 m' c, (hag c).2.2.1]
      exact (hr.attr c i).1
    · show Host.gather Cert.ReferenceIdeal.gather_S4x64_S1600000x1_S1600000x64_1_0_n_n_0_1_164
          (R1 m' c (Proc.devRef .tc Cert.ReferenceIdeal.main_v19))
          (broadcastInDim Cert.ReferenceIdeal.S1600000x1 ![0] Cert.ReferenceIdeal.Gen.bcast_S1600000_S1600000x1_0 (R0 m' c (Proc.devRef .tc Cert.ReferenceIdeal.main_arg2))) = _
      rw [Cert.ReferenceIdeal.Keep.toEnd_1 m' c Cert.ReferenceIdeal.main_v19 (by decide), Cert.ReferenceIdeal.Keep.toEnd_0 m' c Cert.ReferenceIdeal.main_arg2 (by decide)]
  rw [hk, hkt, kv_arg5 m ρ c, kv_arg2 m ρ c, hR, hRt, rv_arg5 m' c, rv_arg2 m' c, (hag c).2.2.1, (hag c).2.2.2.2.2.1, gather4_eq]
  all_goals rfl

end Cert.Bridge

end
-- ==== Proof.Bridge.Gather_L1.lean ====
/- Layer 1 of the bridge between the idealized kernel program and the idealized reference: the node features taken
   at the edge sources, and the rows of the layer's 4-row edge-embedding table taken at the edge attributes.

   Both are takes of table rows at an index vector (Head.lean): the reference gathers at the index with negative
   indices moved up by the table's height, the kernel program gathers the same way and guards each row by the test
   that its index lies in the table. The sources lie among the 100000 nodes and the attributes in the 4 rows, so
   both programs leave the plain gather of the same table at the same index. -/
import proofs.«417278_j53197464928922_1_alg».proof.Proof.Bridge.Head

set_option maxRecDepth 16384

noncomputable section

namespace Cert.Bridge

open Idealize.ShloMosaic Idealize.ShloMosaic.TcCoe Idealize.SL.Sem

/-! ## The operation lists read at one buffer, for every valuation -/

attribute [local irreducible] Host.reduce Host.gather in
set_option maxHeartbeats 1000000 in
/-- The kernel program's node features at the edge sources, for a valuation whose sources lie among the 100000 nodes:
    the guarded take leaves the plain gather. -/
theorem k_hsrc1_read (W : Valuation Cert.KernelIdeal.τ Cert.KernelIdeal.sig (Elt Ideal))
    (hx : ∀ i, 0 ≤ ((W (Proc.devRef .tc Cert.KernelIdeal.main_v1) : IVec Cert.KernelIdeal.S1600000 32) i).toInt
      ∧ ((W (Proc.devRef .tc Cert.KernelIdeal.main_v1) : IVec Cert.KernelIdeal.S1600000 32) i).toInt < 100000) :
    StableHlo.after (Cert.KernelIdeal.Gen.hostOps4 (F := Ideal)) W (Proc.devRef .tc Cert.KernelIdeal.main_v53)
      = Host.gather Cert.KernelIdeal.gather_S100000x64_S1600000x1_S1600000x64_1_0_n_n_0_1_164 (W (Proc.devRef .tc Cert.KernelIdeal.main_v52))
          (broadcastInDim Cert.KernelIdeal.S1600000x1 ![0] Cert.KernelIdeal.Gen.bcast_S1600000_S1600000x1_0 (W (Proc.devRef .tc Cert.KernelIdeal.main_v1))) := by
  after_results_simp
  simp only [StableHlo.TRef.ofBuf, StableHlo.TRef.toBuf, cast_same]
  rw [select_wrap_eq Cert.KernelIdeal.Gen.bcast_S_S1600000 (W (Proc.devRef .tc Cert.KernelIdeal.main_v1) : IVec Cert.KernelIdeal.S1600000 32) _ fun i => (hx i).1]
  have hv : ∀ i, 0 ≤ ((broadcastInDim Cert.KernelIdeal.S1600000x1 ![0] Cert.KernelIdeal.Gen.bcast_S1600000_S1600000x1_0
        (W (Proc.devRef .tc Cert.KernelIdeal.main_v1) : IVec Cert.KernelIdeal.S1600000 32)) i).toInt
      ∧ ((broadcastInDim Cert.KernelIdeal.S1600000x1 ![0] Cert.KernelIdeal.Gen.bcast_S1600000_S1600000x1_0
        (W (Proc.devRef .tc Cert.KernelIdeal.main_v1) : IVec Cert.KernelIdeal.S1600000 32)) i).toInt ≤ (99999#32 : BitVec 32).toInt := by
    intro i
    have e : (99999#32 : BitVec 32).toInt = 99999 := by decide
    rw [e]
    unfold broadcastInDim
    exact ⟨(hx _).1, Int.le_of_lt_add_one (hx _).2⟩
  rw [select_guard_eq Cert.KernelIdeal.Gen.bcast_S_S1600000x1 Cert.KernelIdeal.Gen.bcast_S1_S1x1_1 Cert.KernelIdeal.Gen.bcast_S1x1_S1600000x1_0_1
    Cert.KernelIdeal.Gen.reducesTo_S1600000x1_S1600000_d1 Cert.KernelIdeal.Gen.h_S_ Cert.KernelIdeal.Gen.bcast_S1600000_S1600000x64_0
    (broadcastInDim Cert.KernelIdeal.S1600000x1 ![0] Cert.KernelIdeal.Gen.bcast_S1600000_S1600000x1_0 (W (Proc.devRef .tc Cert.KernelIdeal.main_v1) : IVec Cert.KernelIdeal.S1600000 32))
    99999#32 hv]

set_option maxHeartbeats 1000000 in
/-- The kernel program's edge-embedding table of this layer: one slab of the stacked tables, its unit axis dropped. -/
theorem k_etab1_read (W : Valuation Cert.KernelIdeal.τ Cert.KernelIdeal.sig (Elt Ideal)) :
    StableHlo.after (Cert.KernelIdeal.Gen.hostOps4_1 (F := Ideal)) W (Proc.devRef .tc Cert.KernelIdeal.main_v55)
      = shapeCast Cert.KernelIdeal.S4x64 (extractStridedSlice Cert.KernelIdeal.S1x4x64 _ (W (Proc.devRef .tc Cert.KernelIdeal.main_arg5))
          Cert.KernelIdeal.Gen.slices_S4x4x64_S1x4x64_1_0_0) Cert.KernelIdeal.Gen.shapeCasts_S1x4x64_S4x64 := by
  after_results_simp
  rfl

attribute [local irreducible] Host.reduce Host.gather in
set_option maxHeartbeats 1000000 in
/-- The kernel program's edge-embedding rows at the edge attributes, for a valuation whose attributes lie in the 4
    rows: the guarded take leaves the plain gather. -/
theorem k_eattr1_read (W : Valuation Cert.KernelIdeal.τ Cert.KernelIdeal.sig (Elt Ideal))
    (hx : ∀ i, 0 ≤ ((W (Proc.devRef .tc Cert.KernelIdeal.main_arg2) : IVec Cert.KernelIdeal.S1600000 32) i).toInt
      ∧ ((W (Proc.devRef .tc Cert.KernelIdeal.main_arg2) : IVec Cert.KernelIdeal.S1600000 32) i).toInt < 4) :
    StableHlo.after (Cert.KernelIdeal.Gen.hostOps4_2 (F := Ideal)) W (Proc.devRef .tc Cert.KernelIdeal.main_v56)
      = Host.gather Cert.KernelIdeal.gather_S4x64_S1600000x1_S1600000x64_1_0_n_n_0_1_164 (W (Proc.devRef .tc Cert.KernelIdeal.main_v55))
          (broadcastInDim Cert.KernelIdeal.S1600000x1 ![0] Cert.KernelIdeal.Gen.bcast_S1600000_S1600000x1_0 (W (Proc.devRef .tc Cert.KernelIdeal.main_arg2))) := by
  after_results_simp
  simp only [StableHlo.TRef.ofBuf, StableHlo.TRef.toBuf, cast_same]
  rw [select_wrap_eq Cert.KernelIdeal.Gen.bcast_S_S1600000 (W (Proc.devRef .tc Cert.KernelIdeal.main_arg2) : IVec Cert.KernelIdeal.S1600000 32) _ fun i => (hx i).1]
  have hv : ∀ i, 0 ≤ ((broadcastInDim Cert.KernelIdeal.S1600000x1 ![0] Cert.KernelIdeal.Gen.bcast_S1600000_S1600000x1_0
        (W (Proc.devRef .tc Cert.KernelIdeal.main_arg2) : IVec Cert.KernelIdeal.S1600000 32)) i).toInt
      ∧ ((broadcastInDim Cert.KernelIdeal.S1600000x1 ![0] Cert.KernelIdeal.Gen.bcast_S1600000_S1600000x1_0
        (W (Proc.devRef .tc Cert.KernelIdeal.main_arg2) : IVec Cert.KernelIdeal.S1600000 32)) i).toInt ≤ (3#32 : BitVec 32).toInt := by
    intro i
    have e : (3#32 : BitVec 32).toInt = 3 := by decide
    rw [e]
    unfold broadcastInDim
    exact ⟨(hx _).1, Int.le_of_lt_add_one (hx _).2⟩
  rw [select_guard_eq Cert.KernelIdeal.Gen.bcast_S_S1600000x1 Cert.KernelIdeal.Gen.bcast_S1_S1x1_1 Cert.KernelIdeal.Gen.bcast_S1x1_S1600000x1_0_1
    Cert.KernelIdeal.Gen.reducesTo_S1600000x1_S1600000_d1 Cert.KernelIdeal.Gen.h_S_ Cert.KernelIdeal.Gen.bcast_S1600000_S1600000x64_0
    (broadcastInDim Cert.KernelIdeal.S1600000x1 ![0] Cert.KernelIdeal.Gen.bcast_S1600000_S1600000x1_0 (W (Proc.devRef .tc Cert.KernelIdeal.main_arg2) : IVec Cert.KernelIdeal.S1600000 32))
    3#32 hv]

attribute [local irreducible] Host.reduce Host.gather in
set_option maxHeartbeats 2000000 in
/-- The reference's node features at the edge sources, for a valuation that leaves no negative source: the gather of
    what the list leaves as node features at what it leaves as sources. -/
theorem r_hsrc1_read (W : Valuation Cert.ReferenceIdeal.τ Cert.ReferenceIdeal.sig (Elt Ideal))
    (hx : ∀ i, 0 ≤ ((StableHlo.after (Cert.ReferenceIdeal.Ops.hostOps0_10 (F := Ideal)) W (Proc.devRef .tc Cert.ReferenceIdeal.main_v1) : IVec Cert.ReferenceIdeal.S1600000 32) i).toInt) :
    StableHlo.after (Cert.ReferenceIdeal.Ops.hostOps0_10 (F := Ideal)) W (Proc.devRef .tc Cert.ReferenceIdeal.main_v108)
      = Host.gather Cert.ReferenceIdeal.gather_S100000x64_S1600000x1_S1600000x64_1_0_n_n_0_1_164
          (StableHlo.after (Cert.ReferenceIdeal.Ops.hostOps0_10 (F := Ideal)) W (Proc.devRef .tc Cert.ReferenceIdeal.main_v101))
          (broadcastInDim Cert.ReferenceIdeal.S1600000x1 ![0] Cert.ReferenceIdeal.Gen.bcast_S1600000_S1600000x1_0
            (StableHlo.after (Cert.ReferenceIdeal.Ops.hostOps0_10 (F := Ideal)) W (Proc.devRef .tc Cert.ReferenceIdeal.main_v1))) := by
  have e : StableHlo.after (Cert.ReferenceIdeal.Ops.hostOps0_10 (F := Ideal)) W (Proc.devRef .tc Cert.ReferenceIdeal.main_v108)
      = Host.gather Cert.ReferenceIdeal.gather_S100000x64_S1600000x1_S1600000x64_1_0_n_n_0_1_164
          (StableHlo.after (Cert.ReferenceIdeal.Ops.hostOps0_10 (F := Ideal)) W (Proc.devRef .tc Cert.ReferenceIdeal.main_v101))
          (broadcastInDim Cert.ReferenceIdeal.S1600000x1 ![0] Cert.ReferenceIdeal.Gen.bcast_S1600000_S1600000x1_0
            (select
              (cmpi .slt (StableHlo.after (Cert.ReferenceIdeal.Ops.hostOps0_10 (F := Ideal)) W (Proc.devRef .tc Cert.ReferenceIdeal.main_v1) : IVec Cert.ReferenceIdeal.S1600000 32)
                (broadcastInDim Cert.ReferenceIdeal.S1600000 ![] Cert.ReferenceIdeal.Gen.bcast_S_S1600000 (constantI Cert.ReferenceIdeal.S_ 32 0#32)))
              (addi (StableHlo.after (Cert.ReferenceIdeal.Ops.hostOps0_10 (F := Ideal)) W (Proc.devRef .tc Cert.ReferenceIdeal.main_v1) : IVec Cert.ReferenceIdeal.S1600000 32)
                (broadcastInDim Cert.ReferenceIdeal.S1600000 ![] Cert.ReferenceIdeal.Gen.bcast_S_S1600000 (constantI Cert.ReferenceIdeal.S_ 32 100000#32)))
              (StableHlo.after (Cert.ReferenceIdeal.Ops.hostOps0_10 (F := Ideal)) W (Proc.devRef .tc Cert.ReferenceIdeal.main_v1) : IVec Cert.ReferenceIdeal.S1600000 32))) := by
    after_results_simp
  rw [e, select_wrap_eq Cert.ReferenceIdeal.Gen.bcast_S_S1600000
    (StableHlo.after (Cert.ReferenceIdeal.Ops.hostOps0_10 (F := Ideal)) W (Proc.devRef .tc Cert.ReferenceIdeal.main_v1) : IVec Cert.ReferenceIdeal.S1600000 32) _ hx]

set_option maxHeartbeats 1000000 in
/-- The reference's edge-embedding table of this layer: one slab of the stacked tables, its unit axis dropped. -/
theorem r_etab1_read (W : Valuation Cert.ReferenceIdeal.τ Cert.ReferenceIdeal.sig (Elt Ideal)) :
    StableHlo.after (Cert.ReferenceIdeal.Ops.hostOps0_10 (F := Ideal)) W (Proc.devRef .tc Cert.ReferenceIdeal.main_v110)
      = shapeCast Cert.ReferenceIdeal.S4x64 (extractStridedSlice Cert.ReferenceIdeal.S1x4x64 _ (W (Proc.devRef .tc Cert.ReferenceIdeal.main_arg5))
          Cert.ReferenceIdeal.Gen.slices_S4x4x64_S1x4x64_1_0_0) Cert.ReferenceIdeal.Gen.shapeCasts_S1x4x64_S4x64 := by
  after_results_simp
  rfl

attribute [local irreducible] Host.reduce Host.gather in
set_option maxHeartbeats 2000000 in
/-- The reference's edge-embedding rows at the edge attributes, for a valuation with no negative attribute: the
    gather of the table the list leaves at the attributes. -/
theorem r_eattr1_read (W : Valuation Cert.ReferenceIdeal.τ Cert.ReferenceIdeal.sig (Elt Ideal))
    (hx : ∀ i, 0 ≤ ((W (Proc.devRef .tc Cert.ReferenceIdeal.main_arg2) : IVec Cert.ReferenceIdeal.S1600000 32) i).toInt) :
    StableHlo.after (Cert.ReferenceIdeal.Ops.hostOps0_10 (F := Ideal)) W (Proc.devRef .tc Cert.ReferenceIdeal.main_v117)
      = Host.gather Cert.ReferenceIdeal.gather_S4x64_S1600000x1_S1600000x64_1_0_n_n_0_1_164
          (StableHlo.after (Cert.ReferenceIdeal.Ops.hostOps0_10 (F := Ideal)) W (Proc.devRef .tc Cert.ReferenceIdeal.main_v110))
          (broadcastInDim Cert.ReferenceIdeal.S1600000x1 ![0] Cert.ReferenceIdeal.Gen.bcast_S1600000_S1600000x1_0 (W (Proc.devRef .tc Cert.ReferenceIdeal.main_arg2))) := by
  have e : StableHlo.after (Cert.ReferenceIdeal.Ops.hostOps0_10 (F := Ideal)) W (Proc.devRef .tc Cert.ReferenceIdeal.main_v117)
      = Host.gather Cert.ReferenceIdeal.gather_S4x64_S1600000x1_S1600000x64_1_0_n_n_0_1_164
          (StableHlo.after (Cert.ReferenceIdeal.Ops.hostOps0_10 (F := Ideal)) W (Proc.devRef .tc Cert.ReferenceIdeal.main_v110))
          (broadcastInDim Cert.ReferenceIdeal.S1600000x1 ![0] Cert.ReferenceIdeal.Gen.bcast_S1600000_S1600000x1_0
            (select
              (cmpi .slt (W (Proc.devRef .tc Cert.ReferenceIdeal.main_arg2) : IVec Cert.ReferenceIdeal.S1600000 32)
                (broadcastInDim Cert.ReferenceIdeal.S1600000 ![] Cert.ReferenceIdeal.Gen.bcast_S_S1600000 (constantI Cert.ReferenceIdeal.S_ 32 0#32)))
              (addi (W (Proc.devRef .tc Cert.ReferenceIdeal.main_arg2) : IVec Cert.ReferenceIdeal.S1600000 32)
                (broadcastInDim Cert.ReferenceIdeal.S1600000 ![] Cert.ReferenceIdeal.Gen.bcast_S_S1600000 (constantI Cert.ReferenceIdeal.S_ 32 4#32)))
              (W (Proc.devRef .tc Cert.ReferenceIdeal.main_arg2) : IVec Cert.ReferenceIdeal.S1600000 32))) := by
    after_results_simp
  rw [e, select_wrap_eq Cert.ReferenceIdeal.Gen.bcast_S_S1600000 (W (Proc.devRef .tc Cert.ReferenceIdeal.main_arg2) : IVec Cert.ReferenceIdeal.S1600000 32) _ hx]

/-! ## The correspondences -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The two programs hold the same node features at the edge sources, given that they hold the same node features
    and the same sources. -/
theorem corr_hsrc1 (hag : Agree m m') (hr : Ranges m) (c : Dev Cert.KernelIdeal.nD)
    (hh : KV m ρ c Cert.KernelIdeal.main_v52 = RV m' c Cert.ReferenceIdeal.main_v101)
    (hs : KV m ρ c Cert.KernelIdeal.main_v1 = RV m' c Cert.ReferenceIdeal.main_v1) :
    KV m ρ c Cert.KernelIdeal.main_v53 = RV m' c Cert.ReferenceIdeal.main_v108 := by
  have hk : KV m ρ c Cert.KernelIdeal.main_v53
      = Host.gather Cert.KernelIdeal.gather_S100000x64_S1600000x1_S1600000x64_1_0_n_n_0_1_164 (KV m ρ c Cert.KernelIdeal.main_v52)
          (broadcastInDim Cert.KernelIdeal.S1600000x1 ![0] Cert.KernelIdeal.Gen.bcast_S1600000_S1600000x1_0 (KV m ρ c Cert.KernelIdeal.main_v1)) := by
    refine (Cert.KernelIdeal.Keep.toEnd_15 m ρ c Cert.KernelIdeal.main_v53 (by decide)).symm.trans ?_
    refine (k_hsrc1_read (Cert.KernelIdeal.Gen.W14 m ρ c) ?_).trans ?_
    · rw [Cert.KernelIdeal.Keep.toEnd_14 m ρ c Cert.KernelIdeal.main_v1 (by decide)]
      exact src_range m ρ hr c
    · rw [Cert.KernelIdeal.Keep.toEnd_14 m ρ c Cert.KernelIdeal.main_v1 (by decide), Cert.KernelIdeal.Keep.toEnd_14 m ρ c Cert.KernelIdeal.main_v52 (by decide)]
  have hR : RV m' c Cert.ReferenceIdeal.main_v108
      = Host.gather Cert.ReferenceIdeal.gather_S100000x64_S1600000x1_S1600000x64_1_0_n_n_0_1_164 (RV m' c Cert.ReferenceIdeal.main_v101)
          (broadcastInDim Cert.ReferenceIdeal.S1600000x1 ![0] Cert.ReferenceIdeal.Gen.bcast_S1600000_S1600000x1_0 (RV m' c Cert.ReferenceIdeal.main_v1)) := by
    refine (Cert.ReferenceIdeal.Keep.toEnd_11 m' c Cert.ReferenceIdeal.main_v108 (by decide)).symm.trans ?_
    refine (r_hsrc1_read (R10 m' c) ?_).trans ?_
    · intro i
      show 0 ≤ ((R11 m' c (Proc.devRef .tc Cert.ReferenceIdeal.main_v1) : IVec Cert.ReferenceIdeal.S1600000 32) i).toInt
      rw [Cert.ReferenceIdeal.Keep.toEnd_11 m' c Cert.ReferenceIdeal.main_v1 (by decide)]
      have h := (src_range m ρ hr c i).1
      rw [hs] at h
      exact h
    · show Host.gather Cert.ReferenceIdeal.gather_S100000x64_S1600000x1_S1600000x64_1_0_n_n_0_1_164
          (R11 m' c (Proc.devRef .tc Cert.ReferenceIdeal.main_v101))
          (broadcastInDim Cert.ReferenceIdeal.S1600000x1 ![0] Cert.ReferenceIdeal.Gen.bcast_S1600000_S1600000x1_0 (R11 m' c (Proc.devRef .tc Cert.ReferenceIdeal.main_v1))) = _
      rw [Cert.ReferenceIdeal.Keep.toEnd_11 m' c Cert.ReferenceIdeal.main_v101 (by decide), Cert.ReferenceIdeal.Keep.toEnd_11 m' c Cert.ReferenceIdeal.main_v1 (by decide)]
  rw [hk, hR, hh, hs, gather100000_eq]
  all_goals rfl

/-- The two programs hold the same edge-embedding rows at the edge attributes. -/
theorem corr_eattr1 (hag : Agree m m') (hr : Ranges m) (c : Dev Cert.KernelIdeal.nD) :
    KV m ρ c Cert.KernelIdeal.main_v56 = RV m' c Cert.ReferenceIdeal.main_v117 := by
  have hkt : KV m ρ c Cert.KernelIdeal.main_v55
      = shapeCast Cert.KernelIdeal.S4x64 (extractStridedSlice Cert.KernelIdeal.S1x4x64 _ (KV m ρ c Cert.KernelIdeal.main_arg5)
          Cert.KernelIdeal.Gen.slices_S4x4x64_S1x4x64_1_0_0) Cert.KernelIdeal.Gen.shapeCasts_S1x4x64_S4x64 := by
    refine (Cert.KernelIdeal.Keep.toEnd_16 m ρ c Cert.KernelIdeal.main_v55 (by decide)).symm.trans ?_
    refine (k_etab1_read (Cert.KernelIdeal.Gen.W15 m ρ c)).trans ?_
    rw [Cert.KernelIdeal.Keep.toEnd_15 m ρ c Cert.KernelIdeal.main_arg5 (by decide)]
  have hk : KV m ρ c Cert.KernelIdeal.main_v56
      = Host.gather Cert.KernelIdeal.gather_S4x64_S1600000x1_S1600000x64_1_0_n_n_0_1_164 (KV m ρ c Cert.KernelIdeal.main_v55)
          (broadcastInDim Cert.KernelIdeal.S1600000x1 ![0] Cert.KernelIdeal.Gen.bcast_S1600000_S1600000x1_0 (KV m ρ c Cert.KernelIdeal.main_arg2)) := by
    refine (Cert.KernelIdeal.Keep.toEnd_17 m ρ c Cert.KernelIdeal.main_v56 (by decide)).symm.trans ?_
    refine (k_eattr1_read (Cert.KernelIdeal.Gen.W16 m ρ c) ?_).trans ?_
    · rw [Cert.KernelIdeal.Keep.toEnd_16 m ρ c Cert.KernelIdeal.main_arg2 (by decide)]
      exact attr_range m ρ hr c
    · rw [Cert.KernelIdeal.Keep.toEnd_16 m ρ c Cert.KernelIdeal.main_arg2 (by decide), Cert.KernelIdeal.Keep.toEnd_16 m ρ c Cert.KernelIdeal.main_v55 (by decide)]
  have hRt : RV m' c Cert.ReferenceIdeal.main_v110
      = shapeCast Cert.ReferenceIdeal.S4x64 (extractStridedSlice Cert.ReferenceIdeal.S1x4x64 _ (RV m' c Cert.ReferenceIdeal.main_arg5)
          Cert.ReferenceIdeal.Gen.slices_S4x4x64_S1x4x64_1_0_0) Cert.ReferenceIdeal.Gen.shapeCasts_S1x4x64_S4x64 := by
    refine (Cert.ReferenceIdeal.Keep.toEnd_11 m' c Cert.ReferenceIdeal.main_v110 (by decide)).symm.trans ?_
    refine (r_etab1_read (R10 m' c)).trans ?_
    rw [Cert.ReferenceIdeal.Keep.toEnd_10 m' c Cert.ReferenceIdeal.main_arg5 (by decide)]
  have hR : RV m' c Cert.ReferenceIdeal.main_v117
      = Host.gather Cert.ReferenceIdeal.gather_S4x64_S1600000x1_S1600000x64_1_0_n_n_0_1_164 (RV m' c Cert.ReferenceIdeal.main_v110)
          (broadcastInDim Cert.ReferenceIdeal.S1600000x1 ![0] Cert.ReferenceIdeal.Gen.bcast_S1600000_S1600000x1_0 (RV m' c Cert.ReferenceIdeal.main_arg2)) := by
    refine (Cert.ReferenceIdeal.Keep.toEnd_11 m' c Cert.ReferenceIdeal.main_v117 (by decide)).symm.trans ?_
    refine (r_eattr1_read (R10 m' c) ?_).trans ?_
    · intro i
      rw [Cert.ReferenceIdeal.Keep.toEnd_10 m' c Cert.ReferenceIdeal.main_arg2 (by decide)]
      show 0 ≤ ((RV m' c Cert.ReferenceIdeal.main_arg2 : IVec Cert.ReferenceIdeal.S1600000 32) i).toInt
      rw [rv_arg2 m' c, (hag c).2.2.1]
      exact (hr.attr c i).1
    · show Host.gather Cert.ReferenceIdeal.gather_S4x64_S1600000x1_S1600000x64_1_0_n_n_0_1_164
          (R11 m' c (Proc.devRef .tc Cert.ReferenceIdeal.main_v110))
          (broadcastInDim Cert.ReferenceIdeal.S1600000x1 ![0] Cert.ReferenceIdeal.Gen.bcast_S1600000_S1600000x1_0 (R10 m' c (Proc.devRef .tc Cert.ReferenceIdeal.main_arg2))) = _
      rw [Cert.ReferenceIdeal.Keep.toEnd_11 m' c Cert.ReferenceIdeal.main_v110 (by decide), Cert.ReferenceIdeal.Keep.toEnd_10 m' c Cert.ReferenceIdeal.main_arg2 (by decide)]
  rw [hk, hkt, kv_arg5 m ρ c, kv_arg2 m ρ c, hR, hRt, rv_arg5 m' c, rv_arg2 m' c, (hag c).2.2.1, (hag c).2.2.2.2.2.1, gather4_eq]
  all_goals rfl

end Cert.Bridge

end
-- ==== Proof.Bridge.Gather_L2.lean ====
/- Layer 2 of the bridge between the idealized kernel program and the idealized reference: the node features taken
   at the edge sources, and the rows of the layer's 4-row edge-embedding table taken at the edge attributes.

   Both are takes of table rows at an index vector (Head.lean): the reference gathers at the index with negative
   indices moved up by the table's height, the kernel program gathers the same way and guards each row by the test
   that its index lies in the table. The sources lie among the 100000 nodes and the attributes in the 4 rows, so
   both programs leave the plain gather of the same table at the same index. -/
import proofs.«417278_j53197464928922_1_alg».proof.Proof.Bridge.Head

set_option maxRecDepth 16384

noncomputable section

namespace Cert.Bridge

open Idealize.ShloMosaic Idealize.ShloMosaic.TcCoe Idealize.SL.Sem

/-! ## The operation lists read at one buffer, for every valuation -/

attribute [local irreducible] Host.reduce Host.gather in
set_option maxHeartbeats 1000000 in
/-- The kernel program's node features at the edge sources, for a valuation whose sources lie among the 100000 nodes:
    the guarded take leaves the plain gather. -/
theorem k_hsrc2_read (W : Valuation Cert.KernelIdeal.τ Cert.KernelIdeal.sig (Elt Ideal))
    (hx : ∀ i, 0 ≤ ((W (Proc.devRef .tc Cert.KernelIdeal.main_v1) : IVec Cert.KernelIdeal.S1600000 32) i).toInt
      ∧ ((W (Proc.devRef .tc Cert.KernelIdeal.main_v1) : IVec Cert.KernelIdeal.S1600000 32) i).toInt < 100000) :
    StableHlo.after (Cert.KernelIdeal.Gen.hostOps8 (F := Ideal)) W (Proc.devRef .tc Cert.KernelIdeal.main_v101)
      = Host.gather Cert.KernelIdeal.gather_S100000x64_S1600000x1_S1600000x64_1_0_n_n_0_1_164 (W (Proc.devRef .tc Cert.KernelIdeal.main_v100))
          (broadcastInDim Cert.KernelIdeal.S1600000x1 ![0] Cert.KernelIdeal.Gen.bcast_S1600000_S1600000x1_0 (W (Proc.devRef .tc Cert.KernelIdeal.main_v1))) := by
  after_results_simp
  simp only [StableHlo.TRef.ofBuf, StableHlo.TRef.toBuf, cast_same]
  rw [select_wrap_eq Cert.KernelIdeal.Gen.bcast_S_S1600000 (W (Proc.devRef .tc Cert.KernelIdeal.main_v1) : IVec Cert.KernelIdeal.S1600000 32) _ fun i => (hx i).1]
  have hv : ∀ i, 0 ≤ ((broadcastInDim Cert.KernelIdeal.S1600000x1 ![0] Cert.KernelIdeal.Gen.bcast_S1600000_S1600000x1_0
        (W (Proc.devRef .tc Cert.KernelIdeal.main_v1) : IVec Cert.KernelIdeal.S1600000 32)) i).toInt
      ∧ ((broadcastInDim Cert.KernelIdeal.S1600000x1 ![0] Cert.KernelIdeal.Gen.bcast_S1600000_S1600000x1_0
        (W (Proc.devRef .tc Cert.KernelIdeal.main_v1) : IVec Cert.KernelIdeal.S1600000 32)) i).toInt ≤ (99999#32 : BitVec 32).toInt := by
    intro i
    have e : (99999#32 : BitVec 32).toInt = 99999 := by decide
    rw [e]
    unfold broadcastInDim
    exact ⟨(hx _).1, Int.le_of_lt_add_one (hx _).2⟩
  rw [select_guard_eq Cert.KernelIdeal.Gen.bcast_S_S1600000x1 Cert.KernelIdeal.Gen.bcast_S1_S1x1_1 Cert.KernelIdeal.Gen.bcast_S1x1_S1600000x1_0_1
    Cert.KernelIdeal.Gen.reducesTo_S1600000x1_S1600000_d1 Cert.KernelIdeal.Gen.h_S_ Cert.KernelIdeal.Gen.bcast_S1600000_S1600000x64_0
    (broadcastInDim Cert.KernelIdeal.S1600000x1 ![0] Cert.KernelIdeal.Gen.bcast_S1600000_S1600000x1_0 (W (Proc.devRef .tc Cert.KernelIdeal.main_v1) : IVec Cert.KernelIdeal.S1600000 32))
    99999#32 hv]

set_option maxHeartbeats 1000000 in
/-- The kernel program's edge-embedding table of this layer: one slab of the stacked tables, its unit axis dropped. -/
theorem k_etab2_read (W : Valuation Cert.KernelIdeal.τ Cert.KernelIdeal.sig (Elt Ideal)) :
    StableHlo.after (Cert.KernelIdeal.Gen.hostOps8_1 (F := Ideal)) W (Proc.devRef .tc Cert.KernelIdeal.main_v103)
      = shapeCast Cert.KernelIdeal.S4x64 (extractStridedSlice Cert.KernelIdeal.S1x4x64 _ (W (Proc.devRef .tc Cert.KernelIdeal.main_arg5))
          Cert.KernelIdeal.Gen.slices_S4x4x64_S1x4x64_2_0_0) Cert.KernelIdeal.Gen.shapeCasts_S1x4x64_S4x64 := by
  after_results_simp
  rfl

attribute [local irreducible] Host.reduce Host.gather in
set_option maxHeartbeats 1000000 in
/-- The kernel program's edge-embedding rows at the edge attributes, for a valuation whose attributes lie in the 4
    rows: the guarded take leaves the plain gather. -/
theorem k_eattr2_read (W : Valuation Cert.KernelIdeal.τ Cert.KernelIdeal.sig (Elt Ideal))
    (hx : ∀ i, 0 ≤ ((W (Proc.devRef .tc Cert.KernelIdeal.main_arg2) : IVec Cert.KernelIdeal.S1600000 32) i).toInt
      ∧ ((W (Proc.devRef .tc Cert.KernelIdeal.main_arg2) : IVec Cert.KernelIdeal.S1600000 32) i).toInt < 4) :
    StableHlo.after (Cert.KernelIdeal.Gen.hostOps8_2 (F := Ideal)) W (Proc.devRef .tc Cert.KernelIdeal.main_v104)
      = Host.gather Cert.KernelIdeal.gather_S4x64_S1600000x1_S1600000x64_1_0_n_n_0_1_164 (W (Proc.devRef .tc Cert.KernelIdeal.main_v103))
          (broadcastInDim Cert.KernelIdeal.S1600000x1 ![0] Cert.KernelIdeal.Gen.bcast_S1600000_S1600000x1_0 (W (Proc.devRef .tc Cert.KernelIdeal.main_arg2))) := by
  after_results_simp
  simp only [StableHlo.TRef.ofBuf, StableHlo.TRef.toBuf, cast_same]
  rw [select_wrap_eq Cert.KernelIdeal.Gen.bcast_S_S1600000 (W (Proc.devRef .tc Cert.KernelIdeal.main_arg2) : IVec Cert.KernelIdeal.S1600000 32) _ fun i => (hx i).1]
  have hv : ∀ i, 0 ≤ ((broadcastInDim Cert.KernelIdeal.S1600000x1 ![0] Cert.KernelIdeal.Gen.bcast_S1600000_S1600000x1_0
        (W (Proc.devRef .tc Cert.KernelIdeal.main_arg2) : IVec Cert.KernelIdeal.S1600000 32)) i).toInt
      ∧ ((broadcastInDim Cert.KernelIdeal.S1600000x1 ![0] Cert.KernelIdeal.Gen.bcast_S1600000_S1600000x1_0
        (W (Proc.devRef .tc Cert.KernelIdeal.main_arg2) : IVec Cert.KernelIdeal.S1600000 32)) i).toInt ≤ (3#32 : BitVec 32).toInt := by
    intro i
    have e : (3#32 : BitVec 32).toInt = 3 := by decide
    rw [e]
    unfold broadcastInDim
    exact ⟨(hx _).1, Int.le_of_lt_add_one (hx _).2⟩
  rw [select_guard_eq Cert.KernelIdeal.Gen.bcast_S_S1600000x1 Cert.KernelIdeal.Gen.bcast_S1_S1x1_1 Cert.KernelIdeal.Gen.bcast_S1x1_S1600000x1_0_1
    Cert.KernelIdeal.Gen.reducesTo_S1600000x1_S1600000_d1 Cert.KernelIdeal.Gen.h_S_ Cert.KernelIdeal.Gen.bcast_S1600000_S1600000x64_0
    (broadcastInDim Cert.KernelIdeal.S1600000x1 ![0] Cert.KernelIdeal.Gen.bcast_S1600000_S1600000x1_0 (W (Proc.devRef .tc Cert.KernelIdeal.main_arg2) : IVec Cert.KernelIdeal.S1600000 32))
    3#32 hv]

attribute [local irreducible] Host.reduce Host.gather in
set_option maxHeartbeats 2000000 in
/-- The reference's node features at the edge sources, for a valuation that leaves no negative source: the gather of
    what the list leaves as node features at what it leaves as sources. -/
theorem r_hsrc2_read (W : Valuation Cert.ReferenceIdeal.τ Cert.ReferenceIdeal.sig (Elt Ideal))
    (hx : ∀ i, 0 ≤ ((StableHlo.after (Cert.ReferenceIdeal.Ops.hostOps0_20 (F := Ideal)) W (Proc.devRef .tc Cert.ReferenceIdeal.main_v1) : IVec Cert.ReferenceIdeal.S1600000 32) i).toInt) :
    StableHlo.after (Cert.ReferenceIdeal.Ops.hostOps0_20 (F := Ideal)) W (Proc.devRef .tc Cert.ReferenceIdeal.main_v199)
      = Host.gather Cert.ReferenceIdeal.gather_S100000x64_S1600000x1_S1600000x64_1_0_n_n_0_1_164
          (StableHlo.after (Cert.ReferenceIdeal.Ops.hostOps0_20 (F := Ideal)) W (Proc.devRef .tc Cert.ReferenceIdeal.main_v192))
          (broadcastInDim Cert.ReferenceIdeal.S1600000x1 ![0] Cert.ReferenceIdeal.Gen.bcast_S1600000_S1600000x1_0
            (StableHlo.after (Cert.ReferenceIdeal.Ops.hostOps0_20 (F := Ideal)) W (Proc.devRef .tc Cert.ReferenceIdeal.main_v1))) := by
  have e : StableHlo.after (Cert.ReferenceIdeal.Ops.hostOps0_20 (F := Ideal)) W (Proc.devRef .tc Cert.ReferenceIdeal.main_v199)
      = Host.gather Cert.ReferenceIdeal.gather_S100000x64_S1600000x1_S1600000x64_1_0_n_n_0_1_164
          (StableHlo.after (Cert.ReferenceIdeal.Ops.hostOps0_20 (F := Ideal)) W (Proc.devRef .tc Cert.ReferenceIdeal.main_v192))
          (broadcastInDim Cert.ReferenceIdeal.S1600000x1 ![0] Cert.ReferenceIdeal.Gen.bcast_S1600000_S1600000x1_0
            (select
              (cmpi .slt (StableHlo.after (Cert.ReferenceIdeal.Ops.hostOps0_20 (F := Ideal)) W (Proc.devRef .tc Cert.ReferenceIdeal.main_v1) : IVec Cert.ReferenceIdeal.S1600000 32)
                (broadcastInDim Cert.ReferenceIdeal.S1600000 ![] Cert.ReferenceIdeal.Gen.bcast_S_S1600000 (constantI Cert.ReferenceIdeal.S_ 32 0#32)))
              (addi (StableHlo.after (Cert.ReferenceIdeal.Ops.hostOps0_20 (F := Ideal)) W (Proc.devRef .tc Cert.ReferenceIdeal.main_v1) : IVec Cert.ReferenceIdeal.S1600000 32)
                (broadcastInDim Cert.ReferenceIdeal.S1600000 ![] Cert.ReferenceIdeal.Gen.bcast_S_S1600000 (constantI Cert.ReferenceIdeal.S_ 32 100000#32)))
              (StableHlo.after (Cert.ReferenceIdeal.Ops.hostOps0_20 (F := Ideal)) W (Proc.devRef .tc Cert.ReferenceIdeal.main_v1) : IVec Cert.ReferenceIdeal.S1600000 32))) := by
    after_results_simp
  rw [e, select_wrap_eq Cert.ReferenceIdeal.Gen.bcast_S_S1600000
    (StableHlo.after (Cert.ReferenceIdeal.Ops.hostOps0_20 (F := Ideal)) W (Proc.devRef .tc Cert.ReferenceIdeal.main_v1) : IVec Cert.ReferenceIdeal.S1600000 32) _ hx]

set_option maxHeartbeats 1000000 in
/-- The reference's edge-embedding table of this layer: one slab of the stacked tables, its unit axis dropped. -/
theorem r_etab2_read (W : Valuation Cert.ReferenceIdeal.τ Cert.ReferenceIdeal.sig (Elt Ideal)) :
    StableHlo.after (Cert.ReferenceIdeal.Ops.hostOps0_20 (F := Ideal)) W (Proc.devRef .tc Cert.ReferenceIdeal.main_v201)
      = shapeCast Cert.ReferenceIdeal.S4x64 (extractStridedSlice Cert.ReferenceIdeal.S1x4x64 _ (W (Proc.devRef .tc Cert.ReferenceIdeal.main_arg5))
          Cert.ReferenceIdeal.Gen.slices_S4x4x64_S1x4x64_2_0_0) Cert.ReferenceIdeal.Gen.shapeCasts_S1x4x64_S4x64 := by
  after_results_simp
  rfl

attribute [local irreducible] Host.reduce Host.gather in
set_option maxHeartbeats 2000000 in
/-- The reference's edge-embedding rows at the edge attributes, for a valuation with no negative attribute: the
    gather of the table the list leaves at the attributes. -/
theorem r_eattr2_read (W : Valuation Cert.ReferenceIdeal.τ Cert.ReferenceIdeal.sig (Elt Ideal))
    (hx : ∀ i, 0 ≤ ((W (Proc.devRef .tc Cert.ReferenceIdeal.main_arg2) : IVec Cert.ReferenceIdeal.S1600000 32) i).toInt) :
    StableHlo.after (Cert.ReferenceIdeal.Ops.hostOps0_20 (F := Ideal)) W (Proc.devRef .tc Cert.ReferenceIdeal.main_v208)
      = Host.gather Cert.ReferenceIdeal.gather_S4x64_S1600000x1_S1600000x64_1_0_n_n_0_1_164
          (StableHlo.after (Cert.ReferenceIdeal.Ops.hostOps0_20 (F := Ideal)) W (Proc.devRef .tc Cert.ReferenceIdeal.main_v201))
          (broadcastInDim Cert.ReferenceIdeal.S1600000x1 ![0] Cert.ReferenceIdeal.Gen.bcast_S1600000_S1600000x1_0 (W (Proc.devRef .tc Cert.ReferenceIdeal.main_arg2))) := by
  have e : StableHlo.after (Cert.ReferenceIdeal.Ops.hostOps0_20 (F := Ideal)) W (Proc.devRef .tc Cert.ReferenceIdeal.main_v208)
      = Host.gather Cert.ReferenceIdeal.gather_S4x64_S1600000x1_S1600000x64_1_0_n_n_0_1_164
          (StableHlo.after (Cert.ReferenceIdeal.Ops.hostOps0_20 (F := Ideal)) W (Proc.devRef .tc Cert.ReferenceIdeal.main_v201))
          (broadcastInDim Cert.ReferenceIdeal.S1600000x1 ![0] Cert.ReferenceIdeal.Gen.bcast_S1600000_S1600000x1_0
            (select
              (cmpi .slt (W (Proc.devRef .tc Cert.ReferenceIdeal.main_arg2) : IVec Cert.ReferenceIdeal.S1600000 32)
                (broadcastInDim Cert.ReferenceIdeal.S1600000 ![] Cert.ReferenceIdeal.Gen.bcast_S_S1600000 (constantI Cert.ReferenceIdeal.S_ 32 0#32)))
              (addi (W (Proc.devRef .tc Cert.ReferenceIdeal.main_arg2) : IVec Cert.ReferenceIdeal.S1600000 32)
                (broadcastInDim Cert.ReferenceIdeal.S1600000 ![] Cert.ReferenceIdeal.Gen.bcast_S_S1600000 (constantI Cert.ReferenceIdeal.S_ 32 4#32)))
              (W (Proc.devRef .tc Cert.ReferenceIdeal.main_arg2) : IVec Cert.ReferenceIdeal.S1600000 32))) := by
    after_results_simp
  rw [e, select_wrap_eq Cert.ReferenceIdeal.Gen.bcast_S_S1600000 (W (Proc.devRef .tc Cert.ReferenceIdeal.main_arg2) : IVec Cert.ReferenceIdeal.S1600000 32) _ hx]

/-! ## The correspondences -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The two programs hold the same node features at the edge sources, given that they hold the same node features
    and the same sources. -/
theorem corr_hsrc2 (hag : Agree m m') (hr : Ranges m) (c : Dev Cert.KernelIdeal.nD)
    (hh : KV m ρ c Cert.KernelIdeal.main_v100 = RV m' c Cert.ReferenceIdeal.main_v192)
    (hs : KV m ρ c Cert.KernelIdeal.main_v1 = RV m' c Cert.ReferenceIdeal.main_v1) :
    KV m ρ c Cert.KernelIdeal.main_v101 = RV m' c Cert.ReferenceIdeal.main_v199 := by
  have hk : KV m ρ c Cert.KernelIdeal.main_v101
      = Host.gather Cert.KernelIdeal.gather_S100000x64_S1600000x1_S1600000x64_1_0_n_n_0_1_164 (KV m ρ c Cert.KernelIdeal.main_v100)
          (broadcastInDim Cert.KernelIdeal.S1600000x1 ![0] Cert.KernelIdeal.Gen.bcast_S1600000_S1600000x1_0 (KV m ρ c Cert.KernelIdeal.main_v1)) := by
    refine (Cert.KernelIdeal.Keep.toEnd_27 m ρ c Cert.KernelIdeal.main_v101 (by decide)).symm.trans ?_
    refine (k_hsrc2_read (Cert.KernelIdeal.Gen.W26 m ρ c) ?_).trans ?_
    · rw [Cert.KernelIdeal.Keep.toEnd_26 m ρ c Cert.KernelIdeal.main_v1 (by decide)]
      exact src_range m ρ hr c
    · rw [Cert.KernelIdeal.Keep.toEnd_26 m ρ c Cert.KernelIdeal.main_v1 (by decide), Cert.KernelIdeal.Keep.toEnd_26 m ρ c Cert.KernelIdeal.main_v100 (by decide)]
  have hR : RV m' c Cert.ReferenceIdeal.main_v199
      = Host.gather Cert.ReferenceIdeal.gather_S100000x64_S1600000x1_S1600000x64_1_0_n_n_0_1_164 (RV m' c Cert.ReferenceIdeal.main_v192)
          (broadcastInDim Cert.ReferenceIdeal.S1600000x1 ![0] Cert.ReferenceIdeal.Gen.bcast_S1600000_S1600000x1_0 (RV m' c Cert.ReferenceIdeal.main_v1)) := by
    refine (Cert.ReferenceIdeal.Keep.toEnd_21 m' c Cert.ReferenceIdeal.main_v199 (by decide)).symm.trans ?_
    refine (r_hsrc2_read (R20 m' c) ?_).trans ?_
    · intro i
      show 0 ≤ ((R21 m' c (Proc.devRef .tc Cert.ReferenceIdeal.main_v1) : IVec Cert.ReferenceIdeal.S1600000 32) i).toInt
      rw [Cert.ReferenceIdeal.Keep.toEnd_21 m' c Cert.ReferenceIdeal.main_v1 (by decide)]
      have h := (src_range m ρ hr c i).1
      rw [hs] at h
      exact h
    · show Host.gather Cert.ReferenceIdeal.gather_S100000x64_S1600000x1_S1600000x64_1_0_n_n_0_1_164
          (R21 m' c (Proc.devRef .tc Cert.ReferenceIdeal.main_v192))
          (broadcastInDim Cert.ReferenceIdeal.S1600000x1 ![0] Cert.ReferenceIdeal.Gen.bcast_S1600000_S1600000x1_0 (R21 m' c (Proc.devRef .tc Cert.ReferenceIdeal.main_v1))) = _
      rw [Cert.ReferenceIdeal.Keep.toEnd_21 m' c Cert.ReferenceIdeal.main_v192 (by decide), Cert.ReferenceIdeal.Keep.toEnd_21 m' c Cert.ReferenceIdeal.main_v1 (by decide)]
  rw [hk, hR, hh, hs, gather100000_eq]
  all_goals rfl

/-- The two programs hold the same edge-embedding rows at the edge attributes. -/
theorem corr_eattr2 (hag : Agree m m') (hr : Ranges m) (c : Dev Cert.KernelIdeal.nD) :
    KV m ρ c Cert.KernelIdeal.main_v104 = RV m' c Cert.ReferenceIdeal.main_v208 := by
  have hkt : KV m ρ c Cert.KernelIdeal.main_v103
      = shapeCast Cert.KernelIdeal.S4x64 (extractStridedSlice Cert.KernelIdeal.S1x4x64 _ (KV m ρ c Cert.KernelIdeal.main_arg5)
          Cert.KernelIdeal.Gen.slices_S4x4x64_S1x4x64_2_0_0) Cert.KernelIdeal.Gen.shapeCasts_S1x4x64_S4x64 := by
    refine (Cert.KernelIdeal.Keep.toEnd_28 m ρ c Cert.KernelIdeal.main_v103 (by decide)).symm.trans ?_
    refine (k_etab2_read (Cert.KernelIdeal.Gen.W27 m ρ c)).trans ?_
    rw [Cert.KernelIdeal.Keep.toEnd_27 m ρ c Cert.KernelIdeal.main_arg5 (by decide)]
  have hk : KV m ρ c Cert.KernelIdeal.main_v104
      = Host.gather Cert.KernelIdeal.gather_S4x64_S1600000x1_S1600000x64_1_0_n_n_0_1_164 (KV m ρ c Cert.KernelIdeal.main_v103)
          (broadcastInDim Cert.KernelIdeal.S1600000x1 ![0] Cert.KernelIdeal.Gen.bcast_S1600000_S1600000x1_0 (KV m ρ c Cert.KernelIdeal.main_arg2)) := by
    refine (Cert.KernelIdeal.Keep.toEnd_29 m ρ c Cert.KernelIdeal.main_v104 (by decide)).symm.trans ?_
    refine (k_eattr2_read (Cert.KernelIdeal.Gen.W28 m ρ c) ?_).trans ?_
    · rw [Cert.KernelIdeal.Keep.toEnd_28 m ρ c Cert.KernelIdeal.main_arg2 (by decide)]
      exact attr_range m ρ hr c
    · rw [Cert.KernelIdeal.Keep.toEnd_28 m ρ c Cert.KernelIdeal.main_arg2 (by decide), Cert.KernelIdeal.Keep.toEnd_28 m ρ c Cert.KernelIdeal.main_v103 (by decide)]
  have hRt : RV m' c Cert.ReferenceIdeal.main_v201
      = shapeCast Cert.ReferenceIdeal.S4x64 (extractStridedSlice Cert.ReferenceIdeal.S1x4x64 _ (RV m' c Cert.ReferenceIdeal.main_arg5)
          Cert.ReferenceIdeal.Gen.slices_S4x4x64_S1x4x64_2_0_0) Cert.ReferenceIdeal.Gen.shapeCasts_S1x4x64_S4x64 := by
    refine (Cert.ReferenceIdeal.Keep.toEnd_21 m' c Cert.ReferenceIdeal.main_v201 (by decide)).symm.trans ?_
    refine (r_etab2_read (R20 m' c)).trans ?_
    rw [Cert.ReferenceIdeal.Keep.toEnd_20 m' c Cert.ReferenceIdeal.main_arg5 (by decide)]
  have hR : RV m' c Cert.ReferenceIdeal.main_v208
      = Host.gather Cert.ReferenceIdeal.gather_S4x64_S1600000x1_S1600000x64_1_0_n_n_0_1_164 (RV m' c Cert.ReferenceIdeal.main_v201)
          (broadcastInDim Cert.ReferenceIdeal.S1600000x1 ![0] Cert.ReferenceIdeal.Gen.bcast_S1600000_S1600000x1_0 (RV m' c Cert.ReferenceIdeal.main_arg2)) := by
    refine (Cert.ReferenceIdeal.Keep.toEnd_21 m' c Cert.ReferenceIdeal.main_v208 (by decide)).symm.trans ?_
    refine (r_eattr2_read (R20 m' c) ?_).trans ?_
    · intro i
      rw [Cert.ReferenceIdeal.Keep.toEnd_20 m' c Cert.ReferenceIdeal.main_arg2 (by decide)]
      show 0 ≤ ((RV m' c Cert.ReferenceIdeal.main_arg2 : IVec Cert.ReferenceIdeal.S1600000 32) i).toInt
      rw [rv_arg2 m' c, (hag c).2.2.1]
      exact (hr.attr c i).1
    · show Host.gather Cert.ReferenceIdeal.gather_S4x64_S1600000x1_S1600000x64_1_0_n_n_0_1_164
          (R21 m' c (Proc.devRef .tc Cert.ReferenceIdeal.main_v201))
          (broadcastInDim Cert.ReferenceIdeal.S1600000x1 ![0] Cert.ReferenceIdeal.Gen.bcast_S1600000_S1600000x1_0 (R20 m' c (Proc.devRef .tc Cert.ReferenceIdeal.main_arg2))) = _
      rw [Cert.ReferenceIdeal.Keep.toEnd_21 m' c Cert.ReferenceIdeal.main_v201 (by decide), Cert.ReferenceIdeal.Keep.toEnd_20 m' c Cert.ReferenceIdeal.main_arg2 (by decide)]
  rw [hk, hkt, kv_arg5 m ρ c, kv_arg2 m ρ c, hR, hRt, rv_arg5 m' c, rv_arg2 m' c, (hag c).2.2.1, (hag c).2.2.2.2.2.1, gather4_eq]
  all_goals rfl

end Cert.Bridge

end
-- ==== Proof.Bridge.Gather_L3.lean ====
/- Layer 3 of the bridge between the idealized kernel program and the idealized reference: the node features taken
   at the edge sources, and the rows of the layer's 4-row edge-embedding table taken at the edge attributes.

   Both are takes of table rows at an index vector (Head.lean): the reference gathers at the index with negative
   indices moved up by the table's height, the kernel program gathers the same way and guards each row by the test
   that its index lies in the table. The sources lie among the 100000 nodes and the attributes in the 4 rows, so
   both programs leave the plain gather of the same table at the same index. -/
import proofs.«417278_j53197464928922_1_alg».proof.Proof.Bridge.Head

set_option maxRecDepth 16384

noncomputable section

namespace Cert.Bridge

open Idealize.ShloMosaic Idealize.ShloMosaic.TcCoe Idealize.SL.Sem

/-! ## The operation lists read at one buffer, for every valuation -/

attribute [local irreducible] Host.reduce Host.gather in
set_option maxHeartbeats 1000000 in
/-- The kernel program's node features at the edge sources, for a valuation whose sources lie among the 100000 nodes:
    the guarded take leaves the plain gather. -/
theorem k_hsrc3_read (W : Valuation Cert.KernelIdeal.τ Cert.KernelIdeal.sig (Elt Ideal))
    (hx : ∀ i, 0 ≤ ((W (Proc.devRef .tc Cert.KernelIdeal.main_v1) : IVec Cert.KernelIdeal.S1600000 32) i).toInt
      ∧ ((W (Proc.devRef .tc Cert.KernelIdeal.main_v1) : IVec Cert.KernelIdeal.S1600000 32) i).toInt < 100000) :
    StableHlo.after (Cert.KernelIdeal.Gen.hostOps12 (F := Ideal)) W (Proc.devRef .tc Cert.KernelIdeal.main_v149)
      = Host.gather Cert.KernelIdeal.gather_S100000x64_S1600000x1_S1600000x64_1_0_n_n_0_1_164 (W (Proc.devRef .tc Cert.KernelIdeal.main_v148))
          (broadcastInDim Cert.KernelIdeal.S1600000x1 ![0] Cert.KernelIdeal.Gen.bcast_S1600000_S1600000x1_0 (W (Proc.devRef .tc Cert.KernelIdeal.main_v1))) := by
  after_results_simp
  simp only [StableHlo.TRef.ofBuf, StableHlo.TRef.toBuf, cast_same]
  rw [select_wrap_eq Cert.KernelIdeal.Gen.bcast_S_S1600000 (W (Proc.devRef .tc Cert.KernelIdeal.main_v1) : IVec Cert.KernelIdeal.S1600000 32) _ fun i => (hx i).1]
  have hv : ∀ i, 0 ≤ ((broadcastInDim Cert.KernelIdeal.S1600000x1 ![0] Cert.KernelIdeal.Gen.bcast_S1600000_S1600000x1_0
        (W (Proc.devRef .tc Cert.KernelIdeal.main_v1) : IVec Cert.KernelIdeal.S1600000 32)) i).toInt
      ∧ ((broadcastInDim Cert.KernelIdeal.S1600000x1 ![0] Cert.KernelIdeal.Gen.bcast_S1600000_S1600000x1_0
        (W (Proc.devRef .tc Cert.KernelIdeal.main_v1) : IVec Cert.KernelIdeal.S1600000 32)) i).toInt ≤ (99999#32 : BitVec 32).toInt := by
    intro i
    have e : (99999#32 : BitVec 32).toInt = 99999 := by decide
    rw [e]
    unfold broadcastInDim
    exact ⟨(hx _).1, Int.le_of_lt_add_one (hx _).2⟩
  rw [select_guard_eq Cert.KernelIdeal.Gen.bcast_S_S1600000x1 Cert.KernelIdeal.Gen.bcast_S1_S1x1_1 Cert.KernelIdeal.Gen.bcast_S1x1_S1600000x1_0_1
    Cert.KernelIdeal.Gen.reducesTo_S1600000x1_S1600000_d1 Cert.KernelIdeal.Gen.h_S_ Cert.KernelIdeal.Gen.bcast_S1600000_S1600000x64_0
    (broadcastInDim Cert.KernelIdeal.S1600000x1 ![0] Cert.KernelIdeal.Gen.bcast_S1600000_S1600000x1_0 (W (Proc.devRef .tc Cert.KernelIdeal.main_v1) : IVec Cert.KernelIdeal.S1600000 32))
    99999#32 hv]

set_option maxHeartbeats 1000000 in
/-- The kernel program's edge-embedding table of this layer: one slab of the stacked tables, its unit axis dropped. -/
theorem k_etab3_read (W : Valuation Cert.KernelIdeal.τ Cert.KernelIdeal.sig (Elt Ideal)) :
    StableHlo.after (Cert.KernelIdeal.Gen.hostOps12_1 (F := Ideal)) W (Proc.devRef .tc Cert.KernelIdeal.main_v151)
      = shapeCast Cert.KernelIdeal.S4x64 (extractStridedSlice Cert.KernelIdeal.S1x4x64 _ (W (Proc.devRef .tc Cert.KernelIdeal.main_arg5))
          Cert.KernelIdeal.Gen.slices_S4x4x64_S1x4x64_3_0_0) Cert.KernelIdeal.Gen.shapeCasts_S1x4x64_S4x64 := by
  after_results_simp
  rfl

attribute [local irreducible] Host.reduce Host.gather in
set_option maxHeartbeats 1000000 in
/-- The kernel program's edge-embedding rows at the edge attributes, for a valuation whose attributes lie in the 4
    rows: the guarded take leaves the plain gather. -/
theorem k_eattr3_read (W : Valuation Cert.KernelIdeal.τ Cert.KernelIdeal.sig (Elt Ideal))
    (hx : ∀ i, 0 ≤ ((W (Proc.devRef .tc Cert.KernelIdeal.main_arg2) : IVec Cert.KernelIdeal.S1600000 32) i).toInt
      ∧ ((W (Proc.devRef .tc Cert.KernelIdeal.main_arg2) : IVec Cert.KernelIdeal.S1600000 32) i).toInt < 4) :
    StableHlo.after (Cert.KernelIdeal.Gen.hostOps12_2 (F := Ideal)) W (Proc.devRef .tc Cert.KernelIdeal.main_v152)
      = Host.gather Cert.KernelIdeal.gather_S4x64_S1600000x1_S1600000x64_1_0_n_n_0_1_164 (W (Proc.devRef .tc Cert.KernelIdeal.main_v151))
          (broadcastInDim Cert.KernelIdeal.S1600000x1 ![0] Cert.KernelIdeal.Gen.bcast_S1600000_S1600000x1_0 (W (Proc.devRef .tc Cert.KernelIdeal.main_arg2))) := by
  after_results_simp
  simp only [StableHlo.TRef.ofBuf, StableHlo.TRef.toBuf, cast_same]
  rw [select_wrap_eq Cert.KernelIdeal.Gen.bcast_S_S1600000 (W (Proc.devRef .tc Cert.KernelIdeal.main_arg2) : IVec Cert.KernelIdeal.S1600000 32) _ fun i => (hx i).1]
  have hv : ∀ i, 0 ≤ ((broadcastInDim Cert.KernelIdeal.S1600000x1 ![0] Cert.KernelIdeal.Gen.bcast_S1600000_S1600000x1_0
        (W (Proc.devRef .tc Cert.KernelIdeal.main_arg2) : IVec Cert.KernelIdeal.S1600000 32)) i).toInt
      ∧ ((broadcastInDim Cert.KernelIdeal.S1600000x1 ![0] Cert.KernelIdeal.Gen.bcast_S1600000_S1600000x1_0
        (W (Proc.devRef .tc Cert.KernelIdeal.main_arg2) : IVec Cert.KernelIdeal.S1600000 32)) i).toInt ≤ (3#32 : BitVec 32).toInt := by
    intro i
    have e : (3#32 : BitVec 32).toInt = 3 := by decide
    rw [e]
    unfold broadcastInDim
    exact ⟨(hx _).1, Int.le_of_lt_add_one (hx _).2⟩
  rw [select_guard_eq Cert.KernelIdeal.Gen.bcast_S_S1600000x1 Cert.KernelIdeal.Gen.bcast_S1_S1x1_1 Cert.KernelIdeal.Gen.bcast_S1x1_S1600000x1_0_1
    Cert.KernelIdeal.Gen.reducesTo_S1600000x1_S1600000_d1 Cert.KernelIdeal.Gen.h_S_ Cert.KernelIdeal.Gen.bcast_S1600000_S1600000x64_0
    (broadcastInDim Cert.KernelIdeal.S1600000x1 ![0] Cert.KernelIdeal.Gen.bcast_S1600000_S1600000x1_0 (W (Proc.devRef .tc Cert.KernelIdeal.main_arg2) : IVec Cert.KernelIdeal.S1600000 32))
    3#32 hv]

attribute [local irreducible] Host.reduce Host.gather in
set_option maxHeartbeats 2000000 in
/-- The reference's node features at the edge sources, for a valuation that leaves no negative source: the gather of
    what the list leaves as node features at what it leaves as sources. -/
theorem r_hsrc3_read (W : Valuation Cert.ReferenceIdeal.τ Cert.ReferenceIdeal.sig (Elt Ideal))
    (hx : ∀ i, 0 ≤ ((StableHlo.after (Cert.ReferenceIdeal.Ops.hostOps0_30 (F := Ideal)) W (Proc.devRef .tc Cert.ReferenceIdeal.main_v1) : IVec Cert.ReferenceIdeal.S1600000 32) i).toInt) :
    StableHlo.after (Cert.ReferenceIdeal.Ops.hostOps0_30 (F := Ideal)) W (Proc.devRef .tc Cert.ReferenceIdeal.main_v290)
      = Host.gather Cert.ReferenceIdeal.gather_S100000x64_S1600000x1_S1600000x64_1_0_n_n_0_1_164
          (StableHlo.after (Cert.ReferenceIdeal.Ops.hostOps0_30 (F := Ideal)) W (Proc.devRef .tc Cert.ReferenceIdeal.main_v283))
          (broadcastInDim Cert.ReferenceIdeal.S1600000x1 ![0] Cert.ReferenceIdeal.Gen.bcast_S1600000_S1600000x1_0
            (StableHlo.after (Cert.ReferenceIdeal.Ops.hostOps0_30 (F := Ideal)) W (Proc.devRef .tc Cert.ReferenceIdeal.main_v1))) := by
  have e : StableHlo.after (Cert.ReferenceIdeal.Ops.hostOps0_30 (F := Ideal)) W (Proc.devRef .tc Cert.ReferenceIdeal.main_v290)
      = Host.gather Cert.ReferenceIdeal.gather_S100000x64_S1600000x1_S1600000x64_1_0_n_n_0_1_164
          (StableHlo.after (Cert.ReferenceIdeal.Ops.hostOps0_30 (F := Ideal)) W (Proc.devRef .tc Cert.ReferenceIdeal.main_v283))
          (broadcastInDim Cert.ReferenceIdeal.S1600000x1 ![0] Cert.ReferenceIdeal.Gen.bcast_S1600000_S1600000x1_0
            (select
              (cmpi .slt (StableHlo.after (Cert.ReferenceIdeal.Ops.hostOps0_30 (F := Ideal)) W (Proc.devRef .tc Cert.ReferenceIdeal.main_v1) : IVec Cert.ReferenceIdeal.S1600000 32)
                (broadcastInDim Cert.ReferenceIdeal.S1600000 ![] Cert.ReferenceIdeal.Gen.bcast_S_S1600000 (constantI Cert.ReferenceIdeal.S_ 32 0#32)))
              (addi (StableHlo.after (Cert.ReferenceIdeal.Ops.hostOps0_30 (F := Ideal)) W (Proc.devRef .tc Cert.ReferenceIdeal.main_v1) : IVec Cert.ReferenceIdeal.S1600000 32)
                (broadcastInDim Cert.ReferenceIdeal.S1600000 ![] Cert.ReferenceIdeal.Gen.bcast_S_S1600000 (constantI Cert.ReferenceIdeal.S_ 32 100000#32)))
              (StableHlo.after (Cert.ReferenceIdeal.Ops.hostOps0_30 (F := Ideal)) W (Proc.devRef .tc Cert.ReferenceIdeal.main_v1) : IVec Cert.ReferenceIdeal.S1600000 32))) := by
    after_results_simp
  rw [e, select_wrap_eq Cert.ReferenceIdeal.Gen.bcast_S_S1600000
    (StableHlo.after (Cert.ReferenceIdeal.Ops.hostOps0_30 (F := Ideal)) W (Proc.devRef .tc Cert.ReferenceIdeal.main_v1) : IVec Cert.ReferenceIdeal.S1600000 32) _ hx]

set_option maxHeartbeats 1000000 in
/-- The reference's edge-embedding table of this layer: one slab of the stacked tables, its unit axis dropped. -/
theorem r_etab3_read (W : Valuation Cert.ReferenceIdeal.τ Cert.ReferenceIdeal.sig (Elt Ideal)) :
    StableHlo.after (Cert.ReferenceIdeal.Ops.hostOps0_30 (F := Ideal)) W (Proc.devRef .tc Cert.ReferenceIdeal.main_v292)
      = shapeCast Cert.ReferenceIdeal.S4x64 (extractStridedSlice Cert.ReferenceIdeal.S1x4x64 _ (W (Proc.devRef .tc Cert.ReferenceIdeal.main_arg5))
          Cert.ReferenceIdeal.Gen.slices_S4x4x64_S1x4x64_3_0_0) Cert.ReferenceIdeal.Gen.shapeCasts_S1x4x64_S4x64 := by
  after_results_simp
  rfl

attribute [local irreducible] Host.reduce Host.gather in
set_option maxHeartbeats 2000000 in
/-- The reference's edge-embedding rows at the edge attributes, for a valuation with no negative attribute: the
    gather of the table the list leaves at the attributes. -/
theorem r_eattr3_read (W : Valuation Cert.ReferenceIdeal.τ Cert.ReferenceIdeal.sig (Elt Ideal))
    (hx : ∀ i, 0 ≤ ((W (Proc.devRef .tc Cert.ReferenceIdeal.main_arg2) : IVec Cert.ReferenceIdeal.S1600000 32) i).toInt) :
    StableHlo.after (Cert.ReferenceIdeal.Ops.hostOps0_30 (F := Ideal)) W (Proc.devRef .tc Cert.ReferenceIdeal.main_v299)
      = Host.gather Cert.ReferenceIdeal.gather_S4x64_S1600000x1_S1600000x64_1_0_n_n_0_1_164
          (StableHlo.after (Cert.ReferenceIdeal.Ops.hostOps0_30 (F := Ideal)) W (Proc.devRef .tc Cert.ReferenceIdeal.main_v292))
          (broadcastInDim Cert.ReferenceIdeal.S1600000x1 ![0] Cert.ReferenceIdeal.Gen.bcast_S1600000_S1600000x1_0 (W (Proc.devRef .tc Cert.ReferenceIdeal.main_arg2))) := by
  have e : StableHlo.after (Cert.ReferenceIdeal.Ops.hostOps0_30 (F := Ideal)) W (Proc.devRef .tc Cert.ReferenceIdeal.main_v299)
      = Host.gather Cert.ReferenceIdeal.gather_S4x64_S1600000x1_S1600000x64_1_0_n_n_0_1_164
          (StableHlo.after (Cert.ReferenceIdeal.Ops.hostOps0_30 (F := Ideal)) W (Proc.devRef .tc Cert.ReferenceIdeal.main_v292))
          (broadcastInDim Cert.ReferenceIdeal.S1600000x1 ![0] Cert.ReferenceIdeal.Gen.bcast_S1600000_S1600000x1_0
            (select
              (cmpi .slt (W (Proc.devRef .tc Cert.ReferenceIdeal.main_arg2) : IVec Cert.ReferenceIdeal.S1600000 32)
                (broadcastInDim Cert.ReferenceIdeal.S1600000 ![] Cert.ReferenceIdeal.Gen.bcast_S_S1600000 (constantI Cert.ReferenceIdeal.S_ 32 0#32)))
              (addi (W (Proc.devRef .tc Cert.ReferenceIdeal.main_arg2) : IVec Cert.ReferenceIdeal.S1600000 32)
                (broadcastInDim Cert.ReferenceIdeal.S1600000 ![] Cert.ReferenceIdeal.Gen.bcast_S_S1600000 (constantI Cert.ReferenceIdeal.S_ 32 4#32)))
              (W (Proc.devRef .tc Cert.ReferenceIdeal.main_arg2) : IVec Cert.ReferenceIdeal.S1600000 32))) := by
    after_results_simp
  rw [e, select_wrap_eq Cert.ReferenceIdeal.Gen.bcast_S_S1600000 (W (Proc.devRef .tc Cert.ReferenceIdeal.main_arg2) : IVec Cert.ReferenceIdeal.S1600000 32) _ hx]

/-! ## The correspondences -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The two programs hold the same node features at the edge sources, given that they hold the same node features
    and the same sources. -/
theorem corr_hsrc3 (hag : Agree m m') (hr : Ranges m) (c : Dev Cert.KernelIdeal.nD)
    (hh : KV m ρ c Cert.KernelIdeal.main_v148 = RV m' c Cert.ReferenceIdeal.main_v283)
    (hs : KV m ρ c Cert.KernelIdeal.main_v1 = RV m' c Cert.ReferenceIdeal.main_v1) :
    KV m ρ c Cert.KernelIdeal.main_v149 = RV m' c Cert.ReferenceIdeal.main_v290 := by
  have hk : KV m ρ c Cert.KernelIdeal.main_v149
      = Host.gather Cert.KernelIdeal.gather_S100000x64_S1600000x1_S1600000x64_1_0_n_n_0_1_164 (KV m ρ c Cert.KernelIdeal.main_v148)
          (broadcastInDim Cert.KernelIdeal.S1600000x1 ![0] Cert.KernelIdeal.Gen.bcast_S1600000_S1600000x1_0 (KV m ρ c Cert.KernelIdeal.main_v1)) := by
    refine (Cert.KernelIdeal.Keep.toEnd_39 m ρ c Cert.KernelIdeal.main_v149 (by decide)).symm.trans ?_
    refine (k_hsrc3_read (Cert.KernelIdeal.Gen.W38 m ρ c) ?_).trans ?_
    · rw [Cert.KernelIdeal.Keep.toEnd_38 m ρ c Cert.KernelIdeal.main_v1 (by decide)]
      exact src_range m ρ hr c
    · rw [Cert.KernelIdeal.Keep.toEnd_38 m ρ c Cert.KernelIdeal.main_v1 (by decide), Cert.KernelIdeal.Keep.toEnd_38 m ρ c Cert.KernelIdeal.main_v148 (by decide)]
  have hR : RV m' c Cert.ReferenceIdeal.main_v290
      = Host.gather Cert.ReferenceIdeal.gather_S100000x64_S1600000x1_S1600000x64_1_0_n_n_0_1_164 (RV m' c Cert.ReferenceIdeal.main_v283)
          (broadcastInDim Cert.ReferenceIdeal.S1600000x1 ![0] Cert.ReferenceIdeal.Gen.bcast_S1600000_S1600000x1_0 (RV m' c Cert.ReferenceIdeal.main_v1)) := by
    refine (Cert.ReferenceIdeal.Keep.toEnd_31 m' c Cert.ReferenceIdeal.main_v290 (by decide)).symm.trans ?_
    refine (r_hsrc3_read (R30 m' c) ?_).trans ?_
    · intro i
      show 0 ≤ ((R31 m' c (Proc.devRef .tc Cert.ReferenceIdeal.main_v1) : IVec Cert.ReferenceIdeal.S1600000 32) i).toInt
      rw [Cert.ReferenceIdeal.Keep.toEnd_31 m' c Cert.ReferenceIdeal.main_v1 (by decide)]
      have h := (src_range m ρ hr c i).1
      rw [hs] at h
      exact h
    · show Host.gather Cert.ReferenceIdeal.gather_S100000x64_S1600000x1_S1600000x64_1_0_n_n_0_1_164
          (R31 m' c (Proc.devRef .tc Cert.ReferenceIdeal.main_v283))
          (broadcastInDim Cert.ReferenceIdeal.S1600000x1 ![0] Cert.ReferenceIdeal.Gen.bcast_S1600000_S1600000x1_0 (R31 m' c (Proc.devRef .tc Cert.ReferenceIdeal.main_v1))) = _
      rw [Cert.ReferenceIdeal.Keep.toEnd_31 m' c Cert.ReferenceIdeal.main_v283 (by decide), Cert.ReferenceIdeal.Keep.toEnd_31 m' c Cert.ReferenceIdeal.main_v1 (by decide)]
  rw [hk, hR, hh, hs, gather100000_eq]
  all_goals rfl

/-- The two programs hold the same edge-embedding rows at the edge attributes. -/
theorem corr_eattr3 (hag : Agree m m') (hr : Ranges m) (c : Dev Cert.KernelIdeal.nD) :
    KV m ρ c Cert.KernelIdeal.main_v152 = RV m' c Cert.ReferenceIdeal.main_v299 := by
  have hkt : KV m ρ c Cert.KernelIdeal.main_v151
      = shapeCast Cert.KernelIdeal.S4x64 (extractStridedSlice Cert.KernelIdeal.S1x4x64 _ (KV m ρ c Cert.KernelIdeal.main_arg5)
          Cert.KernelIdeal.Gen.slices_S4x4x64_S1x4x64_3_0_0) Cert.KernelIdeal.Gen.shapeCasts_S1x4x64_S4x64 := by
    refine (Cert.KernelIdeal.Keep.toEnd_40 m ρ c Cert.KernelIdeal.main_v151 (by decide)).symm.trans ?_
    refine (k_etab3_read (Cert.KernelIdeal.Gen.W39 m ρ c)).trans ?_
    rw [Cert.KernelIdeal.Keep.toEnd_39 m ρ c Cert.KernelIdeal.main_arg5 (by decide)]
  have hk : KV m ρ c Cert.KernelIdeal.main_v152
      = Host.gather Cert.KernelIdeal.gather_S4x64_S1600000x1_S1600000x64_1_0_n_n_0_1_164 (KV m ρ c Cert.KernelIdeal.main_v151)
          (broadcastInDim Cert.KernelIdeal.S1600000x1 ![0] Cert.KernelIdeal.Gen.bcast_S1600000_S1600000x1_0 (KV m ρ c Cert.KernelIdeal.main_arg2)) := by
    refine (Cert.KernelIdeal.Keep.toEnd_41 m ρ c Cert.KernelIdeal.main_v152 (by decide)).symm.trans ?_
    refine (k_eattr3_read (Cert.KernelIdeal.Gen.W40 m ρ c) ?_).trans ?_
    · rw [Cert.KernelIdeal.Keep.toEnd_40 m ρ c Cert.KernelIdeal.main_arg2 (by decide)]
      exact attr_range m ρ hr c
    · rw [Cert.KernelIdeal.Keep.toEnd_40 m ρ c Cert.KernelIdeal.main_arg2 (by decide), Cert.KernelIdeal.Keep.toEnd_40 m ρ c Cert.KernelIdeal.main_v151 (by decide)]
  have hRt : RV m' c Cert.ReferenceIdeal.main_v292
      = shapeCast Cert.ReferenceIdeal.S4x64 (extractStridedSlice Cert.ReferenceIdeal.S1x4x64 _ (RV m' c Cert.ReferenceIdeal.main_arg5)
          Cert.ReferenceIdeal.Gen.slices_S4x4x64_S1x4x64_3_0_0) Cert.ReferenceIdeal.Gen.shapeCasts_S1x4x64_S4x64 := by
    refine (Cert.ReferenceIdeal.Keep.toEnd_31 m' c Cert.ReferenceIdeal.main_v292 (by decide)).symm.trans ?_
    refine (r_etab3_read (R30 m' c)).trans ?_
    rw [Cert.ReferenceIdeal.Keep.toEnd_30 m' c Cert.ReferenceIdeal.main_arg5 (by decide)]
  have hR : RV m' c Cert.ReferenceIdeal.main_v299
      = Host.gather Cert.ReferenceIdeal.gather_S4x64_S1600000x1_S1600000x64_1_0_n_n_0_1_164 (RV m' c Cert.ReferenceIdeal.main_v292)
          (broadcastInDim Cert.ReferenceIdeal.S1600000x1 ![0] Cert.ReferenceIdeal.Gen.bcast_S1600000_S1600000x1_0 (RV m' c Cert.ReferenceIdeal.main_arg2)) := by
    refine (Cert.ReferenceIdeal.Keep.toEnd_31 m' c Cert.ReferenceIdeal.main_v299 (by decide)).symm.trans ?_
    refine (r_eattr3_read (R30 m' c) ?_).trans ?_
    · intro i
      rw [Cert.ReferenceIdeal.Keep.toEnd_30 m' c Cert.ReferenceIdeal.main_arg2 (by decide)]
      show 0 ≤ ((RV m' c Cert.ReferenceIdeal.main_arg2 : IVec Cert.ReferenceIdeal.S1600000 32) i).toInt
      rw [rv_arg2 m' c, (hag c).2.2.1]
      exact (hr.attr c i).1
    · show Host.gather Cert.ReferenceIdeal.gather_S4x64_S1600000x1_S1600000x64_1_0_n_n_0_1_164
          (R31 m' c (Proc.devRef .tc Cert.ReferenceIdeal.main_v292))
          (broadcastInDim Cert.ReferenceIdeal.S1600000x1 ![0] Cert.ReferenceIdeal.Gen.bcast_S1600000_S1600000x1_0 (R30 m' c (Proc.devRef .tc Cert.ReferenceIdeal.main_arg2))) = _
      rw [Cert.ReferenceIdeal.Keep.toEnd_31 m' c Cert.ReferenceIdeal.main_v292 (by decide), Cert.ReferenceIdeal.Keep.toEnd_30 m' c Cert.ReferenceIdeal.main_arg2 (by decide)]
  rw [hk, hkt, kv_arg5 m ρ c, kv_arg2 m ρ c, hR, hRt, rv_arg5 m' c, rv_arg2 m' c, (hag c).2.2.1, (hag c).2.2.2.2.2.1, gather4_eq]
  all_goals rfl

end Cert.Bridge

end
-- ==== Proof.Bridge.EdgeBase.lean ====
/- The edge message as one function of two whole arrays (their entrywise sum, cut below at zero) and the reference's
   spelling of it (the maximum of the sum with the zero word spread over the edge array): what the four layers' edge
   stages share. -/
import proofs.«417278_j53197464928922_1_alg».proof.Proof.Gen.KernelIdeal
import proofs.«417278_j53197464928922_1_alg».proof.Proof.Gen.ReferenceIdeal
import Idealize.ShloMosaic.PureOps.Ideal
import Idealize.ShloMosaic.PureOps.Ideal.Laws
import Idealize.ShloMosaic.Lib.ValueIdx

noncomputable section

namespace Cert.Bridge

open Idealize.ShloMosaic Idealize.ShloMosaic.TcCoe Idealize.SL.Sem

/-- The edge message of two whole arrays, entry by entry: their sum, cut below at zero. -/
def edge_fn (a b : Vec Ideal Cert.KernelIdeal.S1600000x64 .f32) : Vec Ideal Cert.KernelIdeal.S1600000x64 .f32 :=
  fun i => max (a i + b i) 0

/-- The zero offsets of a whole-block access, however the zeros are spelt. -/
theorem edge_hz : (![0, 0] : Fin 2 → Nat) = fun _ => 0 :=
  funext fun a => by match a with | ⟨0, _⟩ => rfl | ⟨1, _⟩ => rfl

/-- The zero word spread over the edge array reads zero at every entry. -/
theorem edge_zero (i : Cert.ReferenceIdeal.S1600000x64.Idx) :
    broadcastInDim Cert.ReferenceIdeal.S1600000x64 ![] Cert.ReferenceIdeal.Facts₀.bcast_S_S1600000x64 (constant (F := Ideal) Cert.ReferenceIdeal.S_ .f32 0x00000000#32) i = 0 := by
  show Ideal.ofBits .f32 0x00000000#32 = 0
  exact Ideal.ofBits_zero_f32

/-- The reference's spelling of the edge message is that function: the maximum with zero of the sum. -/
theorem edge_join (a b : Vec Ideal Cert.ReferenceIdeal.S1600000x64 .f32) :
    edge_fn a b
      = maximumf (F := Ideal) (s := Cert.ReferenceIdeal.S1600000x64) (φ := .f32) (addf (F := Ideal) (s := Cert.ReferenceIdeal.S1600000x64) (φ := .f32) a b)
          (broadcastInDim Cert.ReferenceIdeal.S1600000x64 ![] Cert.ReferenceIdeal.Facts₀.bcast_S_S1600000x64 (constant (F := Ideal) Cert.ReferenceIdeal.S_ .f32 0x00000000#32)) := by
  funext i
  rw [ValueIdx.maximumf_apply, ValueIdx.addf_apply, edge_zero]
  rfl

end Cert.Bridge

end
-- ==== Proof.Bridge.Edge.lean ====
/- The edge stage of layer 0, on both programs: the result array of the layer's edge-message pallas_call as a function of
   its two operand arrays (their entrywise sum, cut below at zero); the kernel program's message buffer against the
   reference's; and the two aggregates, each the messages scattered by destination onto a zero table. -/
import proofs.«417278_j53197464928922_1_alg».proof.Proof.Setup
import proofs.«417278_j53197464928922_1_alg».proof.Proof.KKeep
import proofs.«417278_j53197464928922_1_alg».proof.Proof.RKeep
import proofs.«417278_j53197464928922_1_alg».proof.Proof.Bridge.EdgeBase
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem
open Idealize.ShloMosaic.Pipeline (Dat)

/-! ## The edge messages of layer 0: what the layer's edge-message pallas_call leaves in its result array

The body adds its two loaded blocks and cuts the sum below at zero, entry by entry; the three windows move together over
the rows, 12800 at a time, so the result array ends holding that function of the two operand arrays. -/

/-- The body's payload at an entry of the block: the sum of the two loaded entries, cut below at zero. -/
theorem edge0_pay (xa xb : Vec Ideal Cert.KernelIdeal.S12800x64 .f32) (j : Cert.KernelIdeal.S12800x64.Idx) :
    Cert.KernelIdeal.Gen.k0_pay1 (F := Ideal) xa xb j = max (xa j + xb j) 0 := by
  unfold Cert.KernelIdeal.Gen.k0_pay1
  simp only [shapeCast_self]
  rw [ValueIdx.maximumf_apply, ValueIdx.addf_apply, ValueIdx.broadcast_apply]
  show max (xa j + xb j) (Ideal.ofBits .f32 0x00000000#32) = _
  rw [Ideal.ofBits_zero_f32]

/-- The same with the loaded entries named as entries of two whole arrays. -/
theorem edge0_point (xa xb : Vec Ideal Cert.KernelIdeal.S12800x64 .f32) (a b : Vec Ideal Cert.KernelIdeal.S1600000x64 .f32)
    (j : Cert.KernelIdeal.S12800x64.Idx) (i : Cert.KernelIdeal.S1600000x64.Idx) (ha : xa j = a i) (hb : xb j = b i) :
    Cert.KernelIdeal.Gen.k0_pay1 (F := Ideal) xa xb j = edge_fn a b i := by
  rw [edge0_pay, ha, hb]; rfl

/-- The three windows' block indices at every point of the grid: the point's number on the rows, zero on the columns. -/
theorem edge0_idx : ∀ t : Fin Cert.KernelIdeal.cfg0.N,
    Cert.KernelIdeal.win0_0.index t (0 : Fin 2) = t.val ∧ Cert.KernelIdeal.win0_0.index t (1 : Fin 2) = 0
    ∧ Cert.KernelIdeal.win0_1.index t (0 : Fin 2) = t.val ∧ Cert.KernelIdeal.win0_1.index t (1 : Fin 2) = 0
    ∧ Cert.KernelIdeal.win0_2.index t (0 : Fin 2) = t.val ∧ Cert.KernelIdeal.win0_2.index t (1 : Fin 2) = 0 :=
  (by decide +kernel : ∀ t : Fin Cert.KernelIdeal.grid0.N, _)

/-- What point `t` writes back is block `t` of the entrywise function of the two operand arrays. -/
theorem edge0_flushed (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (t : Fin Cert.KernelIdeal.cfg0.N) :
    (Cert.KernelIdeal.Gen.dat0 (F := Ideal) V c).flushed 2 t
      = ((Cert.KernelIdeal.cfg0.win 2).blk t).view.read (Elt Ideal)
          (edge_fn (V c (Pipeline.arrRef Cert.KernelIdeal.spec0 0)) (V c (Pipeline.arrRef Cert.KernelIdeal.spec0 1))) := by
  show (Cert.KernelIdeal.cfg0.win 2).cut (Cert.KernelIdeal.grid0.coords t) ((Cert.KernelIdeal.Gen.dat0 V c).after 2 t) = _
  rw [Cert.KernelIdeal.Gen.after0_2]
  unfold Cert.KernelIdeal.Gen.out0_2
  rw [View.canon_unit_zero edge_hz]
  simp only [View.ld_unit_zero (S := Cert.KernelIdeal.S12800x64) edge_hz]
  obtain ⟨ea, eb, ec, ed, ee, ef⟩ := edge0_idx t
  funext j
  have hsrc : ((Cert.KernelIdeal.cfg0.win 0).blk t).view.emb j = ((Cert.KernelIdeal.cfg0.win 2).blk t).view.emb j := by
    funext a; apply Fin.ext
    match a with
    | ⟨0, _⟩ => show Cert.KernelIdeal.win0_0.index t (0 : Fin 2) * 12800 + 1 * (j 0).val = Cert.KernelIdeal.win0_2.index t (0 : Fin 2) * 12800 + 1 * (j 0).val; rw [ea, ee]
    | ⟨1, _⟩ => show Cert.KernelIdeal.win0_0.index t (1 : Fin 2) * 64 + 1 * (j 1).val = Cert.KernelIdeal.win0_2.index t (1 : Fin 2) * 64 + 1 * (j 1).val; rw [eb, ef]
  have hatt : ((Cert.KernelIdeal.cfg0.win 1).blk t).view.emb j = ((Cert.KernelIdeal.cfg0.win 2).blk t).view.emb j := by
    funext a; apply Fin.ext
    match a with
    | ⟨0, _⟩ => show Cert.KernelIdeal.win0_1.index t (0 : Fin 2) * 12800 + 1 * (j 0).val = Cert.KernelIdeal.win0_2.index t (0 : Fin 2) * 12800 + 1 * (j 0).val; rw [ec, ee]
    | ⟨1, _⟩ => show Cert.KernelIdeal.win0_1.index t (1 : Fin 2) * 64 + 1 * (j 1).val = Cert.KernelIdeal.win0_2.index t (1 : Fin 2) * 64 + 1 * (j 1).val; rw [ed, ef]
  show Cert.KernelIdeal.Gen.k0_pay1 (F := Ideal) (Cert.KernelIdeal.Gen.iblk0 V c 0 t) (Cert.KernelIdeal.Gen.iblk0 V c 1 t) j
      = edge_fn (V c (Pipeline.arrRef Cert.KernelIdeal.spec0 0)) (V c (Pipeline.arrRef Cert.KernelIdeal.spec0 1))
          (((Cert.KernelIdeal.cfg0.win 2).blk t).view.emb j)
  refine edge0_point _ _ (V c (Pipeline.arrRef Cert.KernelIdeal.spec0 0)) (V c (Pipeline.arrRef Cert.KernelIdeal.spec0 1)) j
    (((Cert.KernelIdeal.cfg0.win 2).blk t).view.emb j) ?_ ?_
  · show V c (Pipeline.arrRef Cert.KernelIdeal.spec0 0) (((Cert.KernelIdeal.cfg0.win 0).blk t).view.emb j) = _
    rw [hsrc]
  · show V c (Pipeline.arrRef Cert.KernelIdeal.spec0 1) (((Cert.KernelIdeal.cfg0.win 1).blk t).view.emb j) = _
    rw [hatt]

/-- An entry of the result array lies in point `t`'s block iff each coordinate lies in the block's range on its axis. -/
theorem edge0_mem (t : Fin Cert.KernelIdeal.cfg0.N) (i : Cert.KernelIdeal.S1600000x64.Idx) :
    i ∈ ((Cert.KernelIdeal.cfg0.win 2).blk t).view.set
      ↔ ∀ a : Fin 2, Cert.KernelIdeal.win0_2.index t a * Cert.KernelIdeal.S12800x64.size a ≤ (i a).val
          ∧ (i a).val < Cert.KernelIdeal.win0_2.index t a * Cert.KernelIdeal.S12800x64.size a + Cert.KernelIdeal.S12800x64.size a := by
  show i ∈ ((View.whole Cert.KernelIdeal.main_v9).slice (Cert.KernelIdeal.win0_2.rect t)).set ↔ _
  rw [View.set_slice_whole, Rect.mem_set_unit]
  exact Iff.rfl

/-- Every entry of the result array lies in the block of the point numbered by its row divided by 12800. -/
theorem edge0_cover (i : Cert.KernelIdeal.S1600000x64.Idx) :
    ∃ t : Fin Cert.KernelIdeal.cfg0.N, (Cert.KernelIdeal.cfg0.win 2).flush t = true ∧ i ∈ ((Cert.KernelIdeal.cfg0.win 2).blk t).view.set := by
  have hrow : (i 0).val < 1600000 := (i 0).isLt
  have hcol : (i 1).val < 64 := (i 1).isLt
  have hN : Cert.KernelIdeal.cfg0.N = 125 := Cert.KernelIdeal.Gen.N_0
  have ht : (i 0).val / 12800 < Cert.KernelIdeal.cfg0.N := by rw [hN]; omega
  obtain ⟨-, -, -, -, ee, ef⟩ := edge0_idx ⟨(i 0).val / 12800, ht⟩
  refine ⟨⟨(i 0).val / 12800, ht⟩, Cert.KernelIdeal.Gen.flush0_2 _, ?_⟩
  rw [edge0_mem]
  intro a
  match a with
  | ⟨0, _⟩ =>
    show Cert.KernelIdeal.win0_2.index ⟨(i 0).val / 12800, ht⟩ (0 : Fin 2) * 12800 ≤ (i 0).val
      ∧ (i 0).val < Cert.KernelIdeal.win0_2.index ⟨(i 0).val / 12800, ht⟩ (0 : Fin 2) * 12800 + 12800
    rw [ee]; show (i 0).val / 12800 * 12800 ≤ (i 0).val ∧ (i 0).val < (i 0).val / 12800 * 12800 + 12800; omega
  | ⟨1, _⟩ =>
    show Cert.KernelIdeal.win0_2.index ⟨(i 0).val / 12800, ht⟩ (1 : Fin 2) * 64 ≤ (i 1).val
      ∧ (i 1).val < Cert.KernelIdeal.win0_2.index ⟨(i 0).val / 12800, ht⟩ (1 : Fin 2) * 64 + 64
    rw [ef]; omega

/-- REGION 0's result array after the run of the pallas_call, for any contents at its entry: entry by entry the sum of the
    two operand arrays, cut below at zero. -/
theorem edge_value0 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Gen.dat0 (F := Ideal) V c).arrAt 2 Cert.KernelIdeal.cfg0.N
      = edge_fn (V c (Pipeline.arrRef Cert.KernelIdeal.spec0 0)) (V c (Pipeline.arrRef Cert.KernelIdeal.spec0 1)) :=
  (Cert.KernelIdeal.Gen.dat0 (F := Ideal) V c).arrAt_eq_of_cover 2 _ (fun t _ => edge0_flushed V c t) edge0_cover

/-! ## The host operations around it, read off any contents they start from -/

/-- The reference's sum of the gathered node rows and the gathered edge-type rows: the last operation of its list adds
    what the list has left in its two operand buffers. -/
theorem msg0_R_add (W : Valuation Cert.ReferenceIdeal.τ Cert.ReferenceIdeal.sig (Elt Ideal)) :
    StableHlo.after (Cert.ReferenceIdeal.Ops.hostOps0 (F := Ideal)) W (Proc.devRef .tc Cert.ReferenceIdeal.main_v27)
      = addf (F := Ideal) (s := Cert.ReferenceIdeal.S1600000x64) (φ := .f32) (StableHlo.after (Cert.ReferenceIdeal.Ops.hostOps0 (F := Ideal)) W (Proc.devRef .tc Cert.ReferenceIdeal.main_v17) : Vec Ideal Cert.ReferenceIdeal.S1600000x64 .f32)
             (StableHlo.after (Cert.ReferenceIdeal.Ops.hostOps0 (F := Ideal)) W (Proc.devRef .tc Cert.ReferenceIdeal.main_v26) : Vec Ideal Cert.ReferenceIdeal.S1600000x64 .f32) := by
  simp only [StableHlo.after_cons, StableHlo.after_nil]
  rw [StableHlo.binary_result]
  rw [StableHlo.binary_result_ne (y := Cert.ReferenceIdeal.main_v27) (r := Cert.ReferenceIdeal.main_v17)]; rotate_left; decide
  rw [StableHlo.binary_result_ne (y := Cert.ReferenceIdeal.main_v27) (r := Cert.ReferenceIdeal.main_v26)]; rotate_left; decide

/-- The reference's cut below at zero of that sum: the maximum with the zero word spread over the edge array. -/
theorem msg0_R_relu (W : Valuation Cert.ReferenceIdeal.τ Cert.ReferenceIdeal.sig (Elt Ideal)) :
    StableHlo.after (Cert.ReferenceIdeal.Ops.hostOps0_1 (F := Ideal)) W (Proc.devRef .tc Cert.ReferenceIdeal.main_v28)
      = maximumf (F := Ideal) (s := Cert.ReferenceIdeal.S1600000x64) (φ := .f32) (W (Proc.devRef .tc Cert.ReferenceIdeal.main_v27) : Vec Ideal Cert.ReferenceIdeal.S1600000x64 .f32)
          (broadcastInDim Cert.ReferenceIdeal.S1600000x64 ![] Cert.ReferenceIdeal.Facts₀.bcast_S_S1600000x64 (constant (F := Ideal) Cert.ReferenceIdeal.S_ .f32 0x00000000#32)) := by
  after_results
  all_goals rfl

/-- The kernel program's aggregate: the messages scattered by destination onto a zero table. -/
theorem agg0_K (W : Valuation Cert.KernelIdeal.τ Cert.KernelIdeal.sig (Elt Ideal)) :
    StableHlo.after (Cert.KernelIdeal.Gen.hostOps1 (F := Ideal)) W (Proc.devRef .tc Cert.KernelIdeal.main_v12)
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (W (Proc.devRef .tc Cert.KernelIdeal.main_v3)))
          (W (Proc.devRef .tc Cert.KernelIdeal.main_v9)) := by
  after_results
  all_goals rfl

/-- The reference's aggregate: the same scatter of its own messages. -/
theorem agg0_R (W : Valuation Cert.ReferenceIdeal.τ Cert.ReferenceIdeal.sig (Elt Ideal)) :
    StableHlo.after (Cert.ReferenceIdeal.Ops.hostOps0_2 (F := Ideal)) W (Proc.devRef .tc Cert.ReferenceIdeal.main_v31)
      = Host.scatterAdd Cert.ReferenceIdeal.scatter_S100000x64_S1600000x1_S1600000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1600000x1 ![0] Cert.ReferenceIdeal.Facts₀.bcast_S1600000_S1600000x1_0 (W (Proc.devRef .tc Cert.ReferenceIdeal.main_v3)))
          (W (Proc.devRef .tc Cert.ReferenceIdeal.main_v28)) := by
  after_results
  all_goals rfl

/-! ## The two programs' buffers at the end of their runs -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The kernel program's message buffer: entry by entry the sum of its two operand buffers, cut below at zero. -/
theorem msg0_K (c : Dev Cert.KernelIdeal.nD) :
    KV m ρ c Cert.KernelIdeal.main_v9
      = edge_fn (KV m ρ c Cert.KernelIdeal.main_v5) (KV m ρ c Cert.KernelIdeal.main_v8) := by
  have eMsg := Cert.KernelIdeal.Keep.toEnd_6 (F := Ideal) m ρ c Cert.KernelIdeal.main_v9 (by decide)
  have eSrc := Cert.KernelIdeal.Keep.toEnd_5 (F := Ideal) m ρ c Cert.KernelIdeal.main_v5 (by decide)
  have eAtt := Cert.KernelIdeal.Keep.toEnd_5 (F := Ideal) m ρ c Cert.KernelIdeal.main_v8 (by decide)
  have hv : Cert.KernelIdeal.Gen.W6 (F := Ideal) m ρ c (Proc.devRef .tc Cert.KernelIdeal.main_v9)
      = edge_fn (Cert.KernelIdeal.Gen.W5 (F := Ideal) m ρ c (Proc.devRef .tc Cert.KernelIdeal.main_v5))
          (Cert.KernelIdeal.Gen.W5 (F := Ideal) m ρ c (Proc.devRef .tc Cert.KernelIdeal.main_v8)) :=
    (Cert.KernelIdeal.Gen.W6_arr (F := Ideal) m ρ c 2).trans (edge_value0 (Cert.KernelIdeal.Gen.V5 (F := Ideal) m ρ) c)
  rw [eSrc, eAtt] at hv
  exact eMsg.symm.trans hv

/-- The reference's message buffer: the maximum of the sum of its two operand buffers with the spread zero word. -/
theorem msg0_R (c : Dev Cert.ReferenceIdeal.nD) :
    RV m' c Cert.ReferenceIdeal.main_v28
      = maximumf (F := Ideal) (s := Cert.ReferenceIdeal.S1600000x64) (φ := .f32) (addf (F := Ideal) (s := Cert.ReferenceIdeal.S1600000x64) (φ := .f32) (RV m' c Cert.ReferenceIdeal.main_v17 : Vec Ideal Cert.ReferenceIdeal.S1600000x64 .f32)
                       (RV m' c Cert.ReferenceIdeal.main_v26 : Vec Ideal Cert.ReferenceIdeal.S1600000x64 .f32))
          (broadcastInDim Cert.ReferenceIdeal.S1600000x64 ![] Cert.ReferenceIdeal.Facts₀.bcast_S_S1600000x64 (constant (F := Ideal) Cert.ReferenceIdeal.S_ .f32 0x00000000#32)) := by
  have eMsg := Cert.ReferenceIdeal.Keep.toEnd_2 m' c Cert.ReferenceIdeal.main_v28 (by decide)
  have eSrc := Cert.ReferenceIdeal.Keep.toEnd_1 m' c Cert.ReferenceIdeal.main_v17 (by decide)
  have eAtt := Cert.ReferenceIdeal.Keep.toEnd_1 m' c Cert.ReferenceIdeal.main_v26 (by decide)
  have hSum : R1 m' c (Proc.devRef .tc Cert.ReferenceIdeal.main_v27)
      = addf (F := Ideal) (s := Cert.ReferenceIdeal.S1600000x64) (φ := .f32) (R1 m' c (Proc.devRef .tc Cert.ReferenceIdeal.main_v17) : Vec Ideal Cert.ReferenceIdeal.S1600000x64 .f32)
             (R1 m' c (Proc.devRef .tc Cert.ReferenceIdeal.main_v26) : Vec Ideal Cert.ReferenceIdeal.S1600000x64 .f32) :=
    msg0_R_add (R0 m' c)
  have hMax : R2 m' c (Proc.devRef .tc Cert.ReferenceIdeal.main_v28)
      = maximumf (F := Ideal) (s := Cert.ReferenceIdeal.S1600000x64) (φ := .f32) (R1 m' c (Proc.devRef .tc Cert.ReferenceIdeal.main_v27) : Vec Ideal Cert.ReferenceIdeal.S1600000x64 .f32)
          (broadcastInDim Cert.ReferenceIdeal.S1600000x64 ![] Cert.ReferenceIdeal.Facts₀.bcast_S_S1600000x64 (constant (F := Ideal) Cert.ReferenceIdeal.S_ .f32 0x00000000#32)) :=
    msg0_R_relu (R1 m' c)
  rw [hSum, eSrc, eAtt] at hMax
  exact eMsg.symm.trans hMax

/-- THE MESSAGES AGREE: equal operand buffers give equal message buffers. -/
theorem corr_msg0 (c : Dev Cert.KernelIdeal.nD)
    (hsrc : KV m ρ c Cert.KernelIdeal.main_v5 = RV m' c Cert.ReferenceIdeal.main_v17)
    (hatt : KV m ρ c Cert.KernelIdeal.main_v8 = RV m' c Cert.ReferenceIdeal.main_v26) :
    KV m ρ c Cert.KernelIdeal.main_v9 = RV m' c Cert.ReferenceIdeal.main_v28 := by
  refine (msg0_K m ρ c).trans (Eq.trans ?_ (msg0_R m' c).symm)
  rw [hsrc, hatt]
  exact edge_join _ _

/-- The kernel program's aggregate buffer: its messages scattered by its destination buffer onto a zero table. -/
theorem agg0_K_end (c : Dev Cert.KernelIdeal.nD) :
    KV m ρ c Cert.KernelIdeal.main_v12
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (KV m ρ c Cert.KernelIdeal.main_v3))
          (KV m ρ c Cert.KernelIdeal.main_v9) := by
  have eAgg := Cert.KernelIdeal.Keep.toEnd_7 (F := Ideal) m ρ c Cert.KernelIdeal.main_v12 (by decide)
  have eDst := Cert.KernelIdeal.Keep.toEnd_6 (F := Ideal) m ρ c Cert.KernelIdeal.main_v3 (by decide)
  have eMsg := Cert.KernelIdeal.Keep.toEnd_6 (F := Ideal) m ρ c Cert.KernelIdeal.main_v9 (by decide)
  have h : Cert.KernelIdeal.Gen.W7 (F := Ideal) m ρ c (Proc.devRef .tc Cert.KernelIdeal.main_v12)
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (Cert.KernelIdeal.Gen.W6 (F := Ideal) m ρ c (Proc.devRef .tc Cert.KernelIdeal.main_v3)))
          (Cert.KernelIdeal.Gen.W6 (F := Ideal) m ρ c (Proc.devRef .tc Cert.KernelIdeal.main_v9)) :=
    agg0_K (Cert.KernelIdeal.Gen.W6 (F := Ideal) m ρ c)
  rw [eDst, eMsg] at h
  exact eAgg.symm.trans h

/-- The reference's aggregate buffer: its messages scattered by its destination buffer onto a zero table. -/
theorem agg0_R_end (c : Dev Cert.ReferenceIdeal.nD) :
    RV m' c Cert.ReferenceIdeal.main_v31
      = Host.scatterAdd Cert.ReferenceIdeal.scatter_S100000x64_S1600000x1_S1600000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1600000x1 ![0] Cert.ReferenceIdeal.Facts₀.bcast_S1600000_S1600000x1_0 (RV m' c Cert.ReferenceIdeal.main_v3))
          (RV m' c Cert.ReferenceIdeal.main_v28) := by
  have eAgg := Cert.ReferenceIdeal.Keep.toEnd_3 m' c Cert.ReferenceIdeal.main_v31 (by decide)
  have eDst := Cert.ReferenceIdeal.Keep.toEnd_2 m' c Cert.ReferenceIdeal.main_v3 (by decide)
  have eMsg := Cert.ReferenceIdeal.Keep.toEnd_2 m' c Cert.ReferenceIdeal.main_v28 (by decide)
  have h : R3 m' c (Proc.devRef .tc Cert.ReferenceIdeal.main_v31)
      = Host.scatterAdd Cert.ReferenceIdeal.scatter_S100000x64_S1600000x1_S1600000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1600000x1 ![0] Cert.ReferenceIdeal.Facts₀.bcast_S1600000_S1600000x1_0 (R2 m' c (Proc.devRef .tc Cert.ReferenceIdeal.main_v3)))
          (R2 m' c (Proc.devRef .tc Cert.ReferenceIdeal.main_v28)) :=
    agg0_R (R2 m' c)
  rw [eDst, eMsg] at h
  exact eAgg.symm.trans h

/-- THE AGGREGATES AGREE: equal messages and equal destinations give equal aggregates (one scatter, of one shape, on both
    sides). -/
theorem corr_agg0 (c : Dev Cert.KernelIdeal.nD)
    (hm : KV m ρ c Cert.KernelIdeal.main_v9 = RV m' c Cert.ReferenceIdeal.main_v28)
    (hd : KV m ρ c Cert.KernelIdeal.main_v3 = RV m' c Cert.ReferenceIdeal.main_v3) :
    KV m ρ c Cert.KernelIdeal.main_v12 = RV m' c Cert.ReferenceIdeal.main_v31 := by
  refine (agg0_K_end m ρ c).trans (Eq.trans ?_ (agg0_R_end m' c).symm)
  rw [hm, hd]
  rfl

end Cert.Bridge

end
-- ==== Proof.Bridge.Edge_L1.lean ====
/- The edge stage of layer 1, on both programs: the result array of the layer's edge-message pallas_call as a function of
   its two operand arrays (their entrywise sum, cut below at zero); the kernel program's message buffer against the
   reference's; and the two aggregates, each the messages scattered by destination onto a zero table. -/
import proofs.«417278_j53197464928922_1_alg».proof.Proof.Setup
import proofs.«417278_j53197464928922_1_alg».proof.Proof.KKeep
import proofs.«417278_j53197464928922_1_alg».proof.Proof.RKeep
import proofs.«417278_j53197464928922_1_alg».proof.Proof.Bridge.EdgeBase
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem
open Idealize.ShloMosaic.Pipeline (Dat)

/-! ## The edge messages of layer 1: what the layer's edge-message pallas_call leaves in its result array

The body adds its two loaded blocks and cuts the sum below at zero, entry by entry; the three windows move together over
the rows, 12800 at a time, so the result array ends holding that function of the two operand arrays. -/

/-- The body's payload at an entry of the block: the sum of the two loaded entries, cut below at zero. -/
theorem edge1_pay (xa xb : Vec Ideal Cert.KernelIdeal.S12800x64 .f32) (j : Cert.KernelIdeal.S12800x64.Idx) :
    Cert.KernelIdeal.Gen.k4_pay1 (F := Ideal) xa xb j = max (xa j + xb j) 0 := by
  unfold Cert.KernelIdeal.Gen.k4_pay1
  simp only [shapeCast_self]
  rw [ValueIdx.maximumf_apply, ValueIdx.addf_apply, ValueIdx.broadcast_apply]
  show max (xa j + xb j) (Ideal.ofBits .f32 0x00000000#32) = _
  rw [Ideal.ofBits_zero_f32]

/-- The same with the loaded entries named as entries of two whole arrays. -/
theorem edge1_point (xa xb : Vec Ideal Cert.KernelIdeal.S12800x64 .f32) (a b : Vec Ideal Cert.KernelIdeal.S1600000x64 .f32)
    (j : Cert.KernelIdeal.S12800x64.Idx) (i : Cert.KernelIdeal.S1600000x64.Idx) (ha : xa j = a i) (hb : xb j = b i) :
    Cert.KernelIdeal.Gen.k4_pay1 (F := Ideal) xa xb j = edge_fn a b i := by
  rw [edge1_pay, ha, hb]; rfl

/-- The three windows' block indices at every point of the grid: the point's number on the rows, zero on the columns. -/
theorem edge1_idx : ∀ t : Fin Cert.KernelIdeal.cfg4.N,
    Cert.KernelIdeal.win4_0.index t (0 : Fin 2) = t.val ∧ Cert.KernelIdeal.win4_0.index t (1 : Fin 2) = 0
    ∧ Cert.KernelIdeal.win4_1.index t (0 : Fin 2) = t.val ∧ Cert.KernelIdeal.win4_1.index t (1 : Fin 2) = 0
    ∧ Cert.KernelIdeal.win4_2.index t (0 : Fin 2) = t.val ∧ Cert.KernelIdeal.win4_2.index t (1 : Fin 2) = 0 :=
  (by decide +kernel : ∀ t : Fin Cert.KernelIdeal.grid4.N, _)

/-- What point `t` writes back is block `t` of the entrywise function of the two operand arrays. -/
theorem edge1_flushed (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (t : Fin Cert.KernelIdeal.cfg4.N) :
    (Cert.KernelIdeal.Gen.dat4 (F := Ideal) V c).flushed 2 t
      = ((Cert.KernelIdeal.cfg4.win 2).blk t).view.read (Elt Ideal)
          (edge_fn (V c (Pipeline.arrRef Cert.KernelIdeal.spec4 0)) (V c (Pipeline.arrRef Cert.KernelIdeal.spec4 1))) := by
  show (Cert.KernelIdeal.cfg4.win 2).cut (Cert.KernelIdeal.grid4.coords t) ((Cert.KernelIdeal.Gen.dat4 V c).after 2 t) = _
  rw [Cert.KernelIdeal.Gen.after4_2]
  unfold Cert.KernelIdeal.Gen.out4_2
  rw [View.canon_unit_zero edge_hz]
  simp only [View.ld_unit_zero (S := Cert.KernelIdeal.S12800x64) edge_hz]
  obtain ⟨ea, eb, ec, ed, ee, ef⟩ := edge1_idx t
  funext j
  have hsrc : ((Cert.KernelIdeal.cfg4.win 0).blk t).view.emb j = ((Cert.KernelIdeal.cfg4.win 2).blk t).view.emb j := by
    funext a; apply Fin.ext
    match a with
    | ⟨0, _⟩ => show Cert.KernelIdeal.win4_0.index t (0 : Fin 2) * 12800 + 1 * (j 0).val = Cert.KernelIdeal.win4_2.index t (0 : Fin 2) * 12800 + 1 * (j 0).val; rw [ea, ee]
    | ⟨1, _⟩ => show Cert.KernelIdeal.win4_0.index t (1 : Fin 2) * 64 + 1 * (j 1).val = Cert.KernelIdeal.win4_2.index t (1 : Fin 2) * 64 + 1 * (j 1).val; rw [eb, ef]
  have hatt : ((Cert.KernelIdeal.cfg4.win 1).blk t).view.emb j = ((Cert.KernelIdeal.cfg4.win 2).blk t).view.emb j := by
    funext a; apply Fin.ext
    match a with
    | ⟨0, _⟩ => show Cert.KernelIdeal.win4_1.index t (0 : Fin 2) * 12800 + 1 * (j 0).val = Cert.KernelIdeal.win4_2.index t (0 : Fin 2) * 12800 + 1 * (j 0).val; rw [ec, ee]
    | ⟨1, _⟩ => show Cert.KernelIdeal.win4_1.index t (1 : Fin 2) * 64 + 1 * (j 1).val = Cert.KernelIdeal.win4_2.index t (1 : Fin 2) * 64 + 1 * (j 1).val; rw [ed, ef]
  show Cert.KernelIdeal.Gen.k4_pay1 (F := Ideal) (Cert.KernelIdeal.Gen.iblk4 V c 0 t) (Cert.KernelIdeal.Gen.iblk4 V c 1 t) j
      = edge_fn (V c (Pipeline.arrRef Cert.KernelIdeal.spec4 0)) (V c (Pipeline.arrRef Cert.KernelIdeal.spec4 1))
          (((Cert.KernelIdeal.cfg4.win 2).blk t).view.emb j)
  refine edge1_point _ _ (V c (Pipeline.arrRef Cert.KernelIdeal.spec4 0)) (V c (Pipeline.arrRef Cert.KernelIdeal.spec4 1)) j
    (((Cert.KernelIdeal.cfg4.win 2).blk t).view.emb j) ?_ ?_
  · show V c (Pipeline.arrRef Cert.KernelIdeal.spec4 0) (((Cert.KernelIdeal.cfg4.win 0).blk t).view.emb j) = _
    rw [hsrc]
  · show V c (Pipeline.arrRef Cert.KernelIdeal.spec4 1) (((Cert.KernelIdeal.cfg4.win 1).blk t).view.emb j) = _
    rw [hatt]

/-- An entry of the result array lies in point `t`'s block iff each coordinate lies in the block's range on its axis. -/
theorem edge1_mem (t : Fin Cert.KernelIdeal.cfg4.N) (i : Cert.KernelIdeal.S1600000x64.Idx) :
    i ∈ ((Cert.KernelIdeal.cfg4.win 2).blk t).view.set
      ↔ ∀ a : Fin 2, Cert.KernelIdeal.win4_2.index t a * Cert.KernelIdeal.S12800x64.size a ≤ (i a).val
          ∧ (i a).val < Cert.KernelIdeal.win4_2.index t a * Cert.KernelIdeal.S12800x64.size a + Cert.KernelIdeal.S12800x64.size a := by
  show i ∈ ((View.whole Cert.KernelIdeal.main_v57).slice (Cert.KernelIdeal.win4_2.rect t)).set ↔ _
  rw [View.set_slice_whole, Rect.mem_set_unit]
  exact Iff.rfl

/-- Every entry of the result array lies in the block of the point numbered by its row divided by 12800. -/
theorem edge1_cover (i : Cert.KernelIdeal.S1600000x64.Idx) :
    ∃ t : Fin Cert.KernelIdeal.cfg4.N, (Cert.KernelIdeal.cfg4.win 2).flush t = true ∧ i ∈ ((Cert.KernelIdeal.cfg4.win 2).blk t).view.set := by
  have hrow : (i 0).val < 1600000 := (i 0).isLt
  have hcol : (i 1).val < 64 := (i 1).isLt
  have hN : Cert.KernelIdeal.cfg4.N = 125 := Cert.KernelIdeal.Gen.N_4
  have ht : (i 0).val / 12800 < Cert.KernelIdeal.cfg4.N := by rw [hN]; omega
  obtain ⟨-, -, -, -, ee, ef⟩ := edge1_idx ⟨(i 0).val / 12800, ht⟩
  refine ⟨⟨(i 0).val / 12800, ht⟩, Cert.KernelIdeal.Gen.flush4_2 _, ?_⟩
  rw [edge1_mem]
  intro a
  match a with
  | ⟨0, _⟩ =>
    show Cert.KernelIdeal.win4_2.index ⟨(i 0).val / 12800, ht⟩ (0 : Fin 2) * 12800 ≤ (i 0).val
      ∧ (i 0).val < Cert.KernelIdeal.win4_2.index ⟨(i 0).val / 12800, ht⟩ (0 : Fin 2) * 12800 + 12800
    rw [ee]; show (i 0).val / 12800 * 12800 ≤ (i 0).val ∧ (i 0).val < (i 0).val / 12800 * 12800 + 12800; omega
  | ⟨1, _⟩ =>
    show Cert.KernelIdeal.win4_2.index ⟨(i 0).val / 12800, ht⟩ (1 : Fin 2) * 64 ≤ (i 1).val
      ∧ (i 1).val < Cert.KernelIdeal.win4_2.index ⟨(i 0).val / 12800, ht⟩ (1 : Fin 2) * 64 + 64
    rw [ef]; omega

/-- REGION 4's result array after the run of the pallas_call, for any contents at its entry: entry by entry the sum of the
    two operand arrays, cut below at zero. -/
theorem edge_value1 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Gen.dat4 (F := Ideal) V c).arrAt 2 Cert.KernelIdeal.cfg4.N
      = edge_fn (V c (Pipeline.arrRef Cert.KernelIdeal.spec4 0)) (V c (Pipeline.arrRef Cert.KernelIdeal.spec4 1)) :=
  (Cert.KernelIdeal.Gen.dat4 (F := Ideal) V c).arrAt_eq_of_cover 2 _ (fun t _ => edge1_flushed V c t) edge1_cover

/-! ## The host operations around it, read off any contents they start from -/

/-- The reference's sum of the gathered node rows and the gathered edge-type rows: the last operation of its list adds
    what the list has left in its two operand buffers. -/
theorem msg1_R_add (W : Valuation Cert.ReferenceIdeal.τ Cert.ReferenceIdeal.sig (Elt Ideal)) :
    StableHlo.after (Cert.ReferenceIdeal.Ops.hostOps0_10 (F := Ideal)) W (Proc.devRef .tc Cert.ReferenceIdeal.main_v118)
      = addf (F := Ideal) (s := Cert.ReferenceIdeal.S1600000x64) (φ := .f32) (StableHlo.after (Cert.ReferenceIdeal.Ops.hostOps0_10 (F := Ideal)) W (Proc.devRef .tc Cert.ReferenceIdeal.main_v108) : Vec Ideal Cert.ReferenceIdeal.S1600000x64 .f32)
             (StableHlo.after (Cert.ReferenceIdeal.Ops.hostOps0_10 (F := Ideal)) W (Proc.devRef .tc Cert.ReferenceIdeal.main_v117) : Vec Ideal Cert.ReferenceIdeal.S1600000x64 .f32) := by
  simp only [StableHlo.after_cons, StableHlo.after_nil]
  rw [StableHlo.binary_result]
  rw [StableHlo.binary_result_ne (y := Cert.ReferenceIdeal.main_v118) (r := Cert.ReferenceIdeal.main_v108)]; rotate_left; decide
  rw [StableHlo.binary_result_ne (y := Cert.ReferenceIdeal.main_v118) (r := Cert.ReferenceIdeal.main_v117)]; rotate_left; decide

/-- The reference's cut below at zero of that sum: the maximum with the zero word spread over the edge array. -/
theorem msg1_R_relu (W : Valuation Cert.ReferenceIdeal.τ Cert.ReferenceIdeal.sig (Elt Ideal)) :
    StableHlo.after (Cert.ReferenceIdeal.Ops.hostOps0_11 (F := Ideal)) W (Proc.devRef .tc Cert.ReferenceIdeal.main_v119)
      = maximumf (F := Ideal) (s := Cert.ReferenceIdeal.S1600000x64) (φ := .f32) (W (Proc.devRef .tc Cert.ReferenceIdeal.main_v118) : Vec Ideal Cert.ReferenceIdeal.S1600000x64 .f32)
          (broadcastInDim Cert.ReferenceIdeal.S1600000x64 ![] Cert.ReferenceIdeal.Facts₀.bcast_S_S1600000x64 (constant (F := Ideal) Cert.ReferenceIdeal.S_ .f32 0x00000000#32)) := by
  after_results
  all_goals rfl

/-- The kernel program's aggregate: the messages scattered by destination onto a zero table. -/
theorem agg1_K (W : Valuation Cert.KernelIdeal.τ Cert.KernelIdeal.sig (Elt Ideal)) :
    StableHlo.after (Cert.KernelIdeal.Gen.hostOps5 (F := Ideal)) W (Proc.devRef .tc Cert.KernelIdeal.main_v60)
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (W (Proc.devRef .tc Cert.KernelIdeal.main_v3)))
          (W (Proc.devRef .tc Cert.KernelIdeal.main_v57)) := by
  after_results
  all_goals rfl

/-- The reference's aggregate: the same scatter of its own messages. -/
theorem agg1_R (W : Valuation Cert.ReferenceIdeal.τ Cert.ReferenceIdeal.sig (Elt Ideal)) :
    StableHlo.after (Cert.ReferenceIdeal.Ops.hostOps0_12 (F := Ideal)) W (Proc.devRef .tc Cert.ReferenceIdeal.main_v122)
      = Host.scatterAdd Cert.ReferenceIdeal.scatter_S100000x64_S1600000x1_S1600000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1600000x1 ![0] Cert.ReferenceIdeal.Facts₀.bcast_S1600000_S1600000x1_0 (W (Proc.devRef .tc Cert.ReferenceIdeal.main_v3)))
          (W (Proc.devRef .tc Cert.ReferenceIdeal.main_v119)) := by
  after_results
  all_goals rfl

/-! ## The two programs' buffers at the end of their runs -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The kernel program's message buffer: entry by entry the sum of its two operand buffers, cut below at zero. -/
theorem msg1_K (c : Dev Cert.KernelIdeal.nD) :
    KV m ρ c Cert.KernelIdeal.main_v57
      = edge_fn (KV m ρ c Cert.KernelIdeal.main_v53) (KV m ρ c Cert.KernelIdeal.main_v56) := by
  have eMsg := Cert.KernelIdeal.Keep.toEnd_18 (F := Ideal) m ρ c Cert.KernelIdeal.main_v57 (by decide)
  have eSrc := Cert.KernelIdeal.Keep.toEnd_17 (F := Ideal) m ρ c Cert.KernelIdeal.main_v53 (by decide)
  have eAtt := Cert.KernelIdeal.Keep.toEnd_17 (F := Ideal) m ρ c Cert.KernelIdeal.main_v56 (by decide)
  have hv : Cert.KernelIdeal.Gen.W18 (F := Ideal) m ρ c (Proc.devRef .tc Cert.KernelIdeal.main_v57)
      = edge_fn (Cert.KernelIdeal.Gen.W17 (F := Ideal) m ρ c (Proc.devRef .tc Cert.KernelIdeal.main_v53))
          (Cert.KernelIdeal.Gen.W17 (F := Ideal) m ρ c (Proc.devRef .tc Cert.KernelIdeal.main_v56)) :=
    (Cert.KernelIdeal.Gen.W18_arr (F := Ideal) m ρ c 2).trans (edge_value1 (Cert.KernelIdeal.Gen.V17 (F := Ideal) m ρ) c)
  rw [eSrc, eAtt] at hv
  exact eMsg.symm.trans hv

/-- The reference's message buffer: the maximum of the sum of its two operand buffers with the spread zero word. -/
theorem msg1_R (c : Dev Cert.ReferenceIdeal.nD) :
    RV m' c Cert.ReferenceIdeal.main_v119
      = maximumf (F := Ideal) (s := Cert.ReferenceIdeal.S1600000x64) (φ := .f32) (addf (F := Ideal) (s := Cert.ReferenceIdeal.S1600000x64) (φ := .f32) (RV m' c Cert.ReferenceIdeal.main_v108 : Vec Ideal Cert.ReferenceIdeal.S1600000x64 .f32)
                       (RV m' c Cert.ReferenceIdeal.main_v117 : Vec Ideal Cert.ReferenceIdeal.S1600000x64 .f32))
          (broadcastInDim Cert.ReferenceIdeal.S1600000x64 ![] Cert.ReferenceIdeal.Facts₀.bcast_S_S1600000x64 (constant (F := Ideal) Cert.ReferenceIdeal.S_ .f32 0x00000000#32)) := by
  have eMsg := Cert.ReferenceIdeal.Keep.toEnd_12 m' c Cert.ReferenceIdeal.main_v119 (by decide)
  have eSrc := Cert.ReferenceIdeal.Keep.toEnd_11 m' c Cert.ReferenceIdeal.main_v108 (by decide)
  have eAtt := Cert.ReferenceIdeal.Keep.toEnd_11 m' c Cert.ReferenceIdeal.main_v117 (by decide)
  have hSum : R11 m' c (Proc.devRef .tc Cert.ReferenceIdeal.main_v118)
      = addf (F := Ideal) (s := Cert.ReferenceIdeal.S1600000x64) (φ := .f32) (R11 m' c (Proc.devRef .tc Cert.ReferenceIdeal.main_v108) : Vec Ideal Cert.ReferenceIdeal.S1600000x64 .f32)
             (R11 m' c (Proc.devRef .tc Cert.ReferenceIdeal.main_v117) : Vec Ideal Cert.ReferenceIdeal.S1600000x64 .f32) :=
    msg1_R_add (R10 m' c)
  have hMax : R12 m' c (Proc.devRef .tc Cert.ReferenceIdeal.main_v119)
      = maximumf (F := Ideal) (s := Cert.ReferenceIdeal.S1600000x64) (φ := .f32) (R11 m' c (Proc.devRef .tc Cert.ReferenceIdeal.main_v118) : Vec Ideal Cert.ReferenceIdeal.S1600000x64 .f32)
          (broadcastInDim Cert.ReferenceIdeal.S1600000x64 ![] Cert.ReferenceIdeal.Facts₀.bcast_S_S1600000x64 (constant (F := Ideal) Cert.ReferenceIdeal.S_ .f32 0x00000000#32)) :=
    msg1_R_relu (R11 m' c)
  rw [hSum, eSrc, eAtt] at hMax
  exact eMsg.symm.trans hMax

/-- THE MESSAGES AGREE: equal operand buffers give equal message buffers. -/
theorem corr_msg1 (c : Dev Cert.KernelIdeal.nD)
    (hsrc : KV m ρ c Cert.KernelIdeal.main_v53 = RV m' c Cert.ReferenceIdeal.main_v108)
    (hatt : KV m ρ c Cert.KernelIdeal.main_v56 = RV m' c Cert.ReferenceIdeal.main_v117) :
    KV m ρ c Cert.KernelIdeal.main_v57 = RV m' c Cert.ReferenceIdeal.main_v119 := by
  refine (msg1_K m ρ c).trans (Eq.trans ?_ (msg1_R m' c).symm)
  rw [hsrc, hatt]
  exact edge_join _ _

/-- The kernel program's aggregate buffer: its messages scattered by its destination buffer onto a zero table. -/
theorem agg1_K_end (c : Dev Cert.KernelIdeal.nD) :
    KV m ρ c Cert.KernelIdeal.main_v60
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (KV m ρ c Cert.KernelIdeal.main_v3))
          (KV m ρ c Cert.KernelIdeal.main_v57) := by
  have eAgg := Cert.KernelIdeal.Keep.toEnd_19 (F := Ideal) m ρ c Cert.KernelIdeal.main_v60 (by decide)
  have eDst := Cert.KernelIdeal.Keep.toEnd_18 (F := Ideal) m ρ c Cert.KernelIdeal.main_v3 (by decide)
  have eMsg := Cert.KernelIdeal.Keep.toEnd_18 (F := Ideal) m ρ c Cert.KernelIdeal.main_v57 (by decide)
  have h : Cert.KernelIdeal.Gen.W19 (F := Ideal) m ρ c (Proc.devRef .tc Cert.KernelIdeal.main_v60)
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (Cert.KernelIdeal.Gen.W18 (F := Ideal) m ρ c (Proc.devRef .tc Cert.KernelIdeal.main_v3)))
          (Cert.KernelIdeal.Gen.W18 (F := Ideal) m ρ c (Proc.devRef .tc Cert.KernelIdeal.main_v57)) :=
    agg1_K (Cert.KernelIdeal.Gen.W18 (F := Ideal) m ρ c)
  rw [eDst, eMsg] at h
  exact eAgg.symm.trans h

/-- The reference's aggregate buffer: its messages scattered by its destination buffer onto a zero table. -/
theorem agg1_R_end (c : Dev Cert.ReferenceIdeal.nD) :
    RV m' c Cert.ReferenceIdeal.main_v122
      = Host.scatterAdd Cert.ReferenceIdeal.scatter_S100000x64_S1600000x1_S1600000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1600000x1 ![0] Cert.ReferenceIdeal.Facts₀.bcast_S1600000_S1600000x1_0 (RV m' c Cert.ReferenceIdeal.main_v3))
          (RV m' c Cert.ReferenceIdeal.main_v119) := by
  have eAgg := Cert.ReferenceIdeal.Keep.toEnd_13 m' c Cert.ReferenceIdeal.main_v122 (by decide)
  have eDst := Cert.ReferenceIdeal.Keep.toEnd_12 m' c Cert.ReferenceIdeal.main_v3 (by decide)
  have eMsg := Cert.ReferenceIdeal.Keep.toEnd_12 m' c Cert.ReferenceIdeal.main_v119 (by decide)
  have h : R13 m' c (Proc.devRef .tc Cert.ReferenceIdeal.main_v122)
      = Host.scatterAdd Cert.ReferenceIdeal.scatter_S100000x64_S1600000x1_S1600000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1600000x1 ![0] Cert.ReferenceIdeal.Facts₀.bcast_S1600000_S1600000x1_0 (R12 m' c (Proc.devRef .tc Cert.ReferenceIdeal.main_v3)))
          (R12 m' c (Proc.devRef .tc Cert.ReferenceIdeal.main_v119)) :=
    agg1_R (R12 m' c)
  rw [eDst, eMsg] at h
  exact eAgg.symm.trans h

/-- THE AGGREGATES AGREE: equal messages and equal destinations give equal aggregates (one scatter, of one shape, on both
    sides). -/
theorem corr_agg1 (c : Dev Cert.KernelIdeal.nD)
    (hm : KV m ρ c Cert.KernelIdeal.main_v57 = RV m' c Cert.ReferenceIdeal.main_v119)
    (hd : KV m ρ c Cert.KernelIdeal.main_v3 = RV m' c Cert.ReferenceIdeal.main_v3) :
    KV m ρ c Cert.KernelIdeal.main_v60 = RV m' c Cert.ReferenceIdeal.main_v122 := by
  refine (agg1_K_end m ρ c).trans (Eq.trans ?_ (agg1_R_end m' c).symm)
  rw [hm, hd]
  rfl

end Cert.Bridge

end
-- ==== Proof.Bridge.Edge_L2.lean ====
/- The edge stage of layer 2, on both programs: the result array of the layer's edge-message pallas_call as a function of
   its two operand arrays (their entrywise sum, cut below at zero); the kernel program's message buffer against the
   reference's; and the two aggregates, each the messages scattered by destination onto a zero table. -/
import proofs.«417278_j53197464928922_1_alg».proof.Proof.Setup
import proofs.«417278_j53197464928922_1_alg».proof.Proof.KKeep
import proofs.«417278_j53197464928922_1_alg».proof.Proof.RKeep
import proofs.«417278_j53197464928922_1_alg».proof.Proof.Bridge.EdgeBase
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem
open Idealize.ShloMosaic.Pipeline (Dat)

/-! ## The edge messages of layer 2: what the layer's edge-message pallas_call leaves in its result array

The body adds its two loaded blocks and cuts the sum below at zero, entry by entry; the three windows move together over
the rows, 12800 at a time, so the result array ends holding that function of the two operand arrays. -/

/-- The body's payload at an entry of the block: the sum of the two loaded entries, cut below at zero. -/
theorem edge2_pay (xa xb : Vec Ideal Cert.KernelIdeal.S12800x64 .f32) (j : Cert.KernelIdeal.S12800x64.Idx) :
    Cert.KernelIdeal.Gen.k8_pay1 (F := Ideal) xa xb j = max (xa j + xb j) 0 := by
  unfold Cert.KernelIdeal.Gen.k8_pay1
  simp only [shapeCast_self]
  rw [ValueIdx.maximumf_apply, ValueIdx.addf_apply, ValueIdx.broadcast_apply]
  show max (xa j + xb j) (Ideal.ofBits .f32 0x00000000#32) = _
  rw [Ideal.ofBits_zero_f32]

/-- The same with the loaded entries named as entries of two whole arrays. -/
theorem edge2_point (xa xb : Vec Ideal Cert.KernelIdeal.S12800x64 .f32) (a b : Vec Ideal Cert.KernelIdeal.S1600000x64 .f32)
    (j : Cert.KernelIdeal.S12800x64.Idx) (i : Cert.KernelIdeal.S1600000x64.Idx) (ha : xa j = a i) (hb : xb j = b i) :
    Cert.KernelIdeal.Gen.k8_pay1 (F := Ideal) xa xb j = edge_fn a b i := by
  rw [edge2_pay, ha, hb]; rfl

/-- The three windows' block indices at every point of the grid: the point's number on the rows, zero on the columns. -/
theorem edge2_idx : ∀ t : Fin Cert.KernelIdeal.cfg8.N,
    Cert.KernelIdeal.win8_0.index t (0 : Fin 2) = t.val ∧ Cert.KernelIdeal.win8_0.index t (1 : Fin 2) = 0
    ∧ Cert.KernelIdeal.win8_1.index t (0 : Fin 2) = t.val ∧ Cert.KernelIdeal.win8_1.index t (1 : Fin 2) = 0
    ∧ Cert.KernelIdeal.win8_2.index t (0 : Fin 2) = t.val ∧ Cert.KernelIdeal.win8_2.index t (1 : Fin 2) = 0 :=
  (by decide +kernel : ∀ t : Fin Cert.KernelIdeal.grid8.N, _)

/-- What point `t` writes back is block `t` of the entrywise function of the two operand arrays. -/
theorem edge2_flushed (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (t : Fin Cert.KernelIdeal.cfg8.N) :
    (Cert.KernelIdeal.Gen.dat8 (F := Ideal) V c).flushed 2 t
      = ((Cert.KernelIdeal.cfg8.win 2).blk t).view.read (Elt Ideal)
          (edge_fn (V c (Pipeline.arrRef Cert.KernelIdeal.spec8 0)) (V c (Pipeline.arrRef Cert.KernelIdeal.spec8 1))) := by
  show (Cert.KernelIdeal.cfg8.win 2).cut (Cert.KernelIdeal.grid8.coords t) ((Cert.KernelIdeal.Gen.dat8 V c).after 2 t) = _
  rw [Cert.KernelIdeal.Gen.after8_2]
  unfold Cert.KernelIdeal.Gen.out8_2
  rw [View.canon_unit_zero edge_hz]
  simp only [View.ld_unit_zero (S := Cert.KernelIdeal.S12800x64) edge_hz]
  obtain ⟨ea, eb, ec, ed, ee, ef⟩ := edge2_idx t
  funext j
  have hsrc : ((Cert.KernelIdeal.cfg8.win 0).blk t).view.emb j = ((Cert.KernelIdeal.cfg8.win 2).blk t).view.emb j := by
    funext a; apply Fin.ext
    match a with
    | ⟨0, _⟩ => show Cert.KernelIdeal.win8_0.index t (0 : Fin 2) * 12800 + 1 * (j 0).val = Cert.KernelIdeal.win8_2.index t (0 : Fin 2) * 12800 + 1 * (j 0).val; rw [ea, ee]
    | ⟨1, _⟩ => show Cert.KernelIdeal.win8_0.index t (1 : Fin 2) * 64 + 1 * (j 1).val = Cert.KernelIdeal.win8_2.index t (1 : Fin 2) * 64 + 1 * (j 1).val; rw [eb, ef]
  have hatt : ((Cert.KernelIdeal.cfg8.win 1).blk t).view.emb j = ((Cert.KernelIdeal.cfg8.win 2).blk t).view.emb j := by
    funext a; apply Fin.ext
    match a with
    | ⟨0, _⟩ => show Cert.KernelIdeal.win8_1.index t (0 : Fin 2) * 12800 + 1 * (j 0).val = Cert.KernelIdeal.win8_2.index t (0 : Fin 2) * 12800 + 1 * (j 0).val; rw [ec, ee]
    | ⟨1, _⟩ => show Cert.KernelIdeal.win8_1.index t (1 : Fin 2) * 64 + 1 * (j 1).val = Cert.KernelIdeal.win8_2.index t (1 : Fin 2) * 64 + 1 * (j 1).val; rw [ed, ef]
  show Cert.KernelIdeal.Gen.k8_pay1 (F := Ideal) (Cert.KernelIdeal.Gen.iblk8 V c 0 t) (Cert.KernelIdeal.Gen.iblk8 V c 1 t) j
      = edge_fn (V c (Pipeline.arrRef Cert.KernelIdeal.spec8 0)) (V c (Pipeline.arrRef Cert.KernelIdeal.spec8 1))
          (((Cert.KernelIdeal.cfg8.win 2).blk t).view.emb j)
  refine edge2_point _ _ (V c (Pipeline.arrRef Cert.KernelIdeal.spec8 0)) (V c (Pipeline.arrRef Cert.KernelIdeal.spec8 1)) j
    (((Cert.KernelIdeal.cfg8.win 2).blk t).view.emb j) ?_ ?_
  · show V c (Pipeline.arrRef Cert.KernelIdeal.spec8 0) (((Cert.KernelIdeal.cfg8.win 0).blk t).view.emb j) = _
    rw [hsrc]
  · show V c (Pipeline.arrRef Cert.KernelIdeal.spec8 1) (((Cert.KernelIdeal.cfg8.win 1).blk t).view.emb j) = _
    rw [hatt]

/-- An entry of the result array lies in point `t`'s block iff each coordinate lies in the block's range on its axis. -/
theorem edge2_mem (t : Fin Cert.KernelIdeal.cfg8.N) (i : Cert.KernelIdeal.S1600000x64.Idx) :
    i ∈ ((Cert.KernelIdeal.cfg8.win 2).blk t).view.set
      ↔ ∀ a : Fin 2, Cert.KernelIdeal.win8_2.index t a * Cert.KernelIdeal.S12800x64.size a ≤ (i a).val
          ∧ (i a).val < Cert.KernelIdeal.win8_2.index t a * Cert.KernelIdeal.S12800x64.size a + Cert.KernelIdeal.S12800x64.size a := by
  show i ∈ ((View.whole Cert.KernelIdeal.main_v105).slice (Cert.KernelIdeal.win8_2.rect t)).set ↔ _
  rw [View.set_slice_whole, Rect.mem_set_unit]
  exact Iff.rfl

/-- Every entry of the result array lies in the block of the point numbered by its row divided by 12800. -/
theorem edge2_cover (i : Cert.KernelIdeal.S1600000x64.Idx) :
    ∃ t : Fin Cert.KernelIdeal.cfg8.N, (Cert.KernelIdeal.cfg8.win 2).flush t = true ∧ i ∈ ((Cert.KernelIdeal.cfg8.win 2).blk t).view.set := by
  have hrow : (i 0).val < 1600000 := (i 0).isLt
  have hcol : (i 1).val < 64 := (i 1).isLt
  have hN : Cert.KernelIdeal.cfg8.N = 125 := Cert.KernelIdeal.Gen.N_8
  have ht : (i 0).val / 12800 < Cert.KernelIdeal.cfg8.N := by rw [hN]; omega
  obtain ⟨-, -, -, -, ee, ef⟩ := edge2_idx ⟨(i 0).val / 12800, ht⟩
  refine ⟨⟨(i 0).val / 12800, ht⟩, Cert.KernelIdeal.Gen.flush8_2 _, ?_⟩
  rw [edge2_mem]
  intro a
  match a with
  | ⟨0, _⟩ =>
    show Cert.KernelIdeal.win8_2.index ⟨(i 0).val / 12800, ht⟩ (0 : Fin 2) * 12800 ≤ (i 0).val
      ∧ (i 0).val < Cert.KernelIdeal.win8_2.index ⟨(i 0).val / 12800, ht⟩ (0 : Fin 2) * 12800 + 12800
    rw [ee]; show (i 0).val / 12800 * 12800 ≤ (i 0).val ∧ (i 0).val < (i 0).val / 12800 * 12800 + 12800; omega
  | ⟨1, _⟩ =>
    show Cert.KernelIdeal.win8_2.index ⟨(i 0).val / 12800, ht⟩ (1 : Fin 2) * 64 ≤ (i 1).val
      ∧ (i 1).val < Cert.KernelIdeal.win8_2.index ⟨(i 0).val / 12800, ht⟩ (1 : Fin 2) * 64 + 64
    rw [ef]; omega

/-- REGION 8's result array after the run of the pallas_call, for any contents at its entry: entry by entry the sum of the
    two operand arrays, cut below at zero. -/
theorem edge_value2 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Gen.dat8 (F := Ideal) V c).arrAt 2 Cert.KernelIdeal.cfg8.N
      = edge_fn (V c (Pipeline.arrRef Cert.KernelIdeal.spec8 0)) (V c (Pipeline.arrRef Cert.KernelIdeal.spec8 1)) :=
  (Cert.KernelIdeal.Gen.dat8 (F := Ideal) V c).arrAt_eq_of_cover 2 _ (fun t _ => edge2_flushed V c t) edge2_cover

/-! ## The host operations around it, read off any contents they start from -/

/-- The reference's sum of the gathered node rows and the gathered edge-type rows: the last operation of its list adds
    what the list has left in its two operand buffers. -/
theorem msg2_R_add (W : Valuation Cert.ReferenceIdeal.τ Cert.ReferenceIdeal.sig (Elt Ideal)) :
    StableHlo.after (Cert.ReferenceIdeal.Ops.hostOps0_20 (F := Ideal)) W (Proc.devRef .tc Cert.ReferenceIdeal.main_v209)
      = addf (F := Ideal) (s := Cert.ReferenceIdeal.S1600000x64) (φ := .f32) (StableHlo.after (Cert.ReferenceIdeal.Ops.hostOps0_20 (F := Ideal)) W (Proc.devRef .tc Cert.ReferenceIdeal.main_v199) : Vec Ideal Cert.ReferenceIdeal.S1600000x64 .f32)
             (StableHlo.after (Cert.ReferenceIdeal.Ops.hostOps0_20 (F := Ideal)) W (Proc.devRef .tc Cert.ReferenceIdeal.main_v208) : Vec Ideal Cert.ReferenceIdeal.S1600000x64 .f32) := by
  simp only [StableHlo.after_cons, StableHlo.after_nil]
  rw [StableHlo.binary_result]
  rw [StableHlo.binary_result_ne (y := Cert.ReferenceIdeal.main_v209) (r := Cert.ReferenceIdeal.main_v199)]; rotate_left; decide
  rw [StableHlo.binary_result_ne (y := Cert.ReferenceIdeal.main_v209) (r := Cert.ReferenceIdeal.main_v208)]; rotate_left; decide

/-- The reference's cut below at zero of that sum: the maximum with the zero word spread over the edge array. -/
theorem msg2_R_relu (W : Valuation Cert.ReferenceIdeal.τ Cert.ReferenceIdeal.sig (Elt Ideal)) :
    StableHlo.after (Cert.ReferenceIdeal.Ops.hostOps0_21 (F := Ideal)) W (Proc.devRef .tc Cert.ReferenceIdeal.main_v210)
      = maximumf (F := Ideal) (s := Cert.ReferenceIdeal.S1600000x64) (φ := .f32) (W (Proc.devRef .tc Cert.ReferenceIdeal.main_v209) : Vec Ideal Cert.ReferenceIdeal.S1600000x64 .f32)
          (broadcastInDim Cert.ReferenceIdeal.S1600000x64 ![] Cert.ReferenceIdeal.Facts₀.bcast_S_S1600000x64 (constant (F := Ideal) Cert.ReferenceIdeal.S_ .f32 0x00000000#32)) := by
  after_results
  all_goals rfl

/-- The kernel program's aggregate: the messages scattered by destination onto a zero table. -/
theorem agg2_K (W : Valuation Cert.KernelIdeal.τ Cert.KernelIdeal.sig (Elt Ideal)) :
    StableHlo.after (Cert.KernelIdeal.Gen.hostOps9 (F := Ideal)) W (Proc.devRef .tc Cert.KernelIdeal.main_v108)
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (W (Proc.devRef .tc Cert.KernelIdeal.main_v3)))
          (W (Proc.devRef .tc Cert.KernelIdeal.main_v105)) := by
  after_results
  all_goals rfl

/-- The reference's aggregate: the same scatter of its own messages. -/
theorem agg2_R (W : Valuation Cert.ReferenceIdeal.τ Cert.ReferenceIdeal.sig (Elt Ideal)) :
    StableHlo.after (Cert.ReferenceIdeal.Ops.hostOps0_22 (F := Ideal)) W (Proc.devRef .tc Cert.ReferenceIdeal.main_v213)
      = Host.scatterAdd Cert.ReferenceIdeal.scatter_S100000x64_S1600000x1_S1600000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1600000x1 ![0] Cert.ReferenceIdeal.Facts₀.bcast_S1600000_S1600000x1_0 (W (Proc.devRef .tc Cert.ReferenceIdeal.main_v3)))
          (W (Proc.devRef .tc Cert.ReferenceIdeal.main_v210)) := by
  after_results
  all_goals rfl

/-! ## The two programs' buffers at the end of their runs -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The kernel program's message buffer: entry by entry the sum of its two operand buffers, cut below at zero. -/
theorem msg2_K (c : Dev Cert.KernelIdeal.nD) :
    KV m ρ c Cert.KernelIdeal.main_v105
      = edge_fn (KV m ρ c Cert.KernelIdeal.main_v101) (KV m ρ c Cert.KernelIdeal.main_v104) := by
  have eMsg := Cert.KernelIdeal.Keep.toEnd_30 (F := Ideal) m ρ c Cert.KernelIdeal.main_v105 (by decide)
  have eSrc := Cert.KernelIdeal.Keep.toEnd_29 (F := Ideal) m ρ c Cert.KernelIdeal.main_v101 (by decide)
  have eAtt := Cert.KernelIdeal.Keep.toEnd_29 (F := Ideal) m ρ c Cert.KernelIdeal.main_v104 (by decide)
  have hv : Cert.KernelIdeal.Gen.W30 (F := Ideal) m ρ c (Proc.devRef .tc Cert.KernelIdeal.main_v105)
      = edge_fn (Cert.KernelIdeal.Gen.W29 (F := Ideal) m ρ c (Proc.devRef .tc Cert.KernelIdeal.main_v101))
          (Cert.KernelIdeal.Gen.W29 (F := Ideal) m ρ c (Proc.devRef .tc Cert.KernelIdeal.main_v104)) :=
    (Cert.KernelIdeal.Gen.W30_arr (F := Ideal) m ρ c 2).trans (edge_value2 (Cert.KernelIdeal.Gen.V29 (F := Ideal) m ρ) c)
  rw [eSrc, eAtt] at hv
  exact eMsg.symm.trans hv

/-- The reference's message buffer: the maximum of the sum of its two operand buffers with the spread zero word. -/
theorem msg2_R (c : Dev Cert.ReferenceIdeal.nD) :
    RV m' c Cert.ReferenceIdeal.main_v210
      = maximumf (F := Ideal) (s := Cert.ReferenceIdeal.S1600000x64) (φ := .f32) (addf (F := Ideal) (s := Cert.ReferenceIdeal.S1600000x64) (φ := .f32) (RV m' c Cert.ReferenceIdeal.main_v199 : Vec Ideal Cert.ReferenceIdeal.S1600000x64 .f32)
                       (RV m' c Cert.ReferenceIdeal.main_v208 : Vec Ideal Cert.ReferenceIdeal.S1600000x64 .f32))
          (broadcastInDim Cert.ReferenceIdeal.S1600000x64 ![] Cert.ReferenceIdeal.Facts₀.bcast_S_S1600000x64 (constant (F := Ideal) Cert.ReferenceIdeal.S_ .f32 0x00000000#32)) := by
  have eMsg := Cert.ReferenceIdeal.Keep.toEnd_22 m' c Cert.ReferenceIdeal.main_v210 (by decide)
  have eSrc := Cert.ReferenceIdeal.Keep.toEnd_21 m' c Cert.ReferenceIdeal.main_v199 (by decide)
  have eAtt := Cert.ReferenceIdeal.Keep.toEnd_21 m' c Cert.ReferenceIdeal.main_v208 (by decide)
  have hSum : R21 m' c (Proc.devRef .tc Cert.ReferenceIdeal.main_v209)
      = addf (F := Ideal) (s := Cert.ReferenceIdeal.S1600000x64) (φ := .f32) (R21 m' c (Proc.devRef .tc Cert.ReferenceIdeal.main_v199) : Vec Ideal Cert.ReferenceIdeal.S1600000x64 .f32)
             (R21 m' c (Proc.devRef .tc Cert.ReferenceIdeal.main_v208) : Vec Ideal Cert.ReferenceIdeal.S1600000x64 .f32) :=
    msg2_R_add (R20 m' c)
  have hMax : R22 m' c (Proc.devRef .tc Cert.ReferenceIdeal.main_v210)
      = maximumf (F := Ideal) (s := Cert.ReferenceIdeal.S1600000x64) (φ := .f32) (R21 m' c (Proc.devRef .tc Cert.ReferenceIdeal.main_v209) : Vec Ideal Cert.ReferenceIdeal.S1600000x64 .f32)
          (broadcastInDim Cert.ReferenceIdeal.S1600000x64 ![] Cert.ReferenceIdeal.Facts₀.bcast_S_S1600000x64 (constant (F := Ideal) Cert.ReferenceIdeal.S_ .f32 0x00000000#32)) :=
    msg2_R_relu (R21 m' c)
  rw [hSum, eSrc, eAtt] at hMax
  exact eMsg.symm.trans hMax

/-- THE MESSAGES AGREE: equal operand buffers give equal message buffers. -/
theorem corr_msg2 (c : Dev Cert.KernelIdeal.nD)
    (hsrc : KV m ρ c Cert.KernelIdeal.main_v101 = RV m' c Cert.ReferenceIdeal.main_v199)
    (hatt : KV m ρ c Cert.KernelIdeal.main_v104 = RV m' c Cert.ReferenceIdeal.main_v208) :
    KV m ρ c Cert.KernelIdeal.main_v105 = RV m' c Cert.ReferenceIdeal.main_v210 := by
  refine (msg2_K m ρ c).trans (Eq.trans ?_ (msg2_R m' c).symm)
  rw [hsrc, hatt]
  exact edge_join _ _

/-- The kernel program's aggregate buffer: its messages scattered by its destination buffer onto a zero table. -/
theorem agg2_K_end (c : Dev Cert.KernelIdeal.nD) :
    KV m ρ c Cert.KernelIdeal.main_v108
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (KV m ρ c Cert.KernelIdeal.main_v3))
          (KV m ρ c Cert.KernelIdeal.main_v105) := by
  have eAgg := Cert.KernelIdeal.Keep.toEnd_31 (F := Ideal) m ρ c Cert.KernelIdeal.main_v108 (by decide)
  have eDst := Cert.KernelIdeal.Keep.toEnd_30 (F := Ideal) m ρ c Cert.KernelIdeal.main_v3 (by decide)
  have eMsg := Cert.KernelIdeal.Keep.toEnd_30 (F := Ideal) m ρ c Cert.KernelIdeal.main_v105 (by decide)
  have h : Cert.KernelIdeal.Gen.W31 (F := Ideal) m ρ c (Proc.devRef .tc Cert.KernelIdeal.main_v108)
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (Cert.KernelIdeal.Gen.W30 (F := Ideal) m ρ c (Proc.devRef .tc Cert.KernelIdeal.main_v3)))
          (Cert.KernelIdeal.Gen.W30 (F := Ideal) m ρ c (Proc.devRef .tc Cert.KernelIdeal.main_v105)) :=
    agg2_K (Cert.KernelIdeal.Gen.W30 (F := Ideal) m ρ c)
  rw [eDst, eMsg] at h
  exact eAgg.symm.trans h

/-- The reference's aggregate buffer: its messages scattered by its destination buffer onto a zero table. -/
theorem agg2_R_end (c : Dev Cert.ReferenceIdeal.nD) :
    RV m' c Cert.ReferenceIdeal.main_v213
      = Host.scatterAdd Cert.ReferenceIdeal.scatter_S100000x64_S1600000x1_S1600000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1600000x1 ![0] Cert.ReferenceIdeal.Facts₀.bcast_S1600000_S1600000x1_0 (RV m' c Cert.ReferenceIdeal.main_v3))
          (RV m' c Cert.ReferenceIdeal.main_v210) := by
  have eAgg := Cert.ReferenceIdeal.Keep.toEnd_23 m' c Cert.ReferenceIdeal.main_v213 (by decide)
  have eDst := Cert.ReferenceIdeal.Keep.toEnd_22 m' c Cert.ReferenceIdeal.main_v3 (by decide)
  have eMsg := Cert.ReferenceIdeal.Keep.toEnd_22 m' c Cert.ReferenceIdeal.main_v210 (by decide)
  have h : R23 m' c (Proc.devRef .tc Cert.ReferenceIdeal.main_v213)
      = Host.scatterAdd Cert.ReferenceIdeal.scatter_S100000x64_S1600000x1_S1600000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1600000x1 ![0] Cert.ReferenceIdeal.Facts₀.bcast_S1600000_S1600000x1_0 (R22 m' c (Proc.devRef .tc Cert.ReferenceIdeal.main_v3)))
          (R22 m' c (Proc.devRef .tc Cert.ReferenceIdeal.main_v210)) :=
    agg2_R (R22 m' c)
  rw [eDst, eMsg] at h
  exact eAgg.symm.trans h

/-- THE AGGREGATES AGREE: equal messages and equal destinations give equal aggregates (one scatter, of one shape, on both
    sides). -/
theorem corr_agg2 (c : Dev Cert.KernelIdeal.nD)
    (hm : KV m ρ c Cert.KernelIdeal.main_v105 = RV m' c Cert.ReferenceIdeal.main_v210)
    (hd : KV m ρ c Cert.KernelIdeal.main_v3 = RV m' c Cert.ReferenceIdeal.main_v3) :
    KV m ρ c Cert.KernelIdeal.main_v108 = RV m' c Cert.ReferenceIdeal.main_v213 := by
  refine (agg2_K_end m ρ c).trans (Eq.trans ?_ (agg2_R_end m' c).symm)
  rw [hm, hd]
  rfl

end Cert.Bridge

end
-- ==== Proof.Bridge.Edge_L3.lean ====
/- The edge stage of layer 3, on both programs: the result array of the layer's edge-message pallas_call as a function of
   its two operand arrays (their entrywise sum, cut below at zero); the kernel program's message buffer against the
   reference's; and the two aggregates, each the messages scattered by destination onto a zero table. -/
import proofs.«417278_j53197464928922_1_alg».proof.Proof.Setup
import proofs.«417278_j53197464928922_1_alg».proof.Proof.KKeep
import proofs.«417278_j53197464928922_1_alg».proof.Proof.RKeep
import proofs.«417278_j53197464928922_1_alg».proof.Proof.Bridge.EdgeBase
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem
open Idealize.ShloMosaic.Pipeline (Dat)

/-! ## The edge messages of layer 3: what the layer's edge-message pallas_call leaves in its result array

The body adds its two loaded blocks and cuts the sum below at zero, entry by entry; the three windows move together over
the rows, 12800 at a time, so the result array ends holding that function of the two operand arrays. -/

/-- The body's payload at an entry of the block: the sum of the two loaded entries, cut below at zero. -/
theorem edge3_pay (xa xb : Vec Ideal Cert.KernelIdeal.S12800x64 .f32) (j : Cert.KernelIdeal.S12800x64.Idx) :
    Cert.KernelIdeal.Gen.k12_pay1 (F := Ideal) xa xb j = max (xa j + xb j) 0 := by
  unfold Cert.KernelIdeal.Gen.k12_pay1
  simp only [shapeCast_self]
  rw [ValueIdx.maximumf_apply, ValueIdx.addf_apply, ValueIdx.broadcast_apply]
  show max (xa j + xb j) (Ideal.ofBits .f32 0x00000000#32) = _
  rw [Ideal.ofBits_zero_f32]

/-- The same with the loaded entries named as entries of two whole arrays. -/
theorem edge3_point (xa xb : Vec Ideal Cert.KernelIdeal.S12800x64 .f32) (a b : Vec Ideal Cert.KernelIdeal.S1600000x64 .f32)
    (j : Cert.KernelIdeal.S12800x64.Idx) (i : Cert.KernelIdeal.S1600000x64.Idx) (ha : xa j = a i) (hb : xb j = b i) :
    Cert.KernelIdeal.Gen.k12_pay1 (F := Ideal) xa xb j = edge_fn a b i := by
  rw [edge3_pay, ha, hb]; rfl

/-- The three windows' block indices at every point of the grid: the point's number on the rows, zero on the columns. -/
theorem edge3_idx : ∀ t : Fin Cert.KernelIdeal.cfg12.N,
    Cert.KernelIdeal.win12_0.index t (0 : Fin 2) = t.val ∧ Cert.KernelIdeal.win12_0.index t (1 : Fin 2) = 0
    ∧ Cert.KernelIdeal.win12_1.index t (0 : Fin 2) = t.val ∧ Cert.KernelIdeal.win12_1.index t (1 : Fin 2) = 0
    ∧ Cert.KernelIdeal.win12_2.index t (0 : Fin 2) = t.val ∧ Cert.KernelIdeal.win12_2.index t (1 : Fin 2) = 0 :=
  (by decide +kernel : ∀ t : Fin Cert.KernelIdeal.grid12.N, _)

/-- What point `t` writes back is block `t` of the entrywise function of the two operand arrays. -/
theorem edge3_flushed (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (t : Fin Cert.KernelIdeal.cfg12.N) :
    (Cert.KernelIdeal.Gen.dat12 (F := Ideal) V c).flushed 2 t
      = ((Cert.KernelIdeal.cfg12.win 2).blk t).view.read (Elt Ideal)
          (edge_fn (V c (Pipeline.arrRef Cert.KernelIdeal.spec12 0)) (V c (Pipeline.arrRef Cert.KernelIdeal.spec12 1))) := by
  show (Cert.KernelIdeal.cfg12.win 2).cut (Cert.KernelIdeal.grid12.coords t) ((Cert.KernelIdeal.Gen.dat12 V c).after 2 t) = _
  rw [Cert.KernelIdeal.Gen.after12_2]
  unfold Cert.KernelIdeal.Gen.out12_2
  rw [View.canon_unit_zero edge_hz]
  simp only [View.ld_unit_zero (S := Cert.KernelIdeal.S12800x64) edge_hz]
  obtain ⟨ea, eb, ec, ed, ee, ef⟩ := edge3_idx t
  funext j
  have hsrc : ((Cert.KernelIdeal.cfg12.win 0).blk t).view.emb j = ((Cert.KernelIdeal.cfg12.win 2).blk t).view.emb j := by
    funext a; apply Fin.ext
    match a with
    | ⟨0, _⟩ => show Cert.KernelIdeal.win12_0.index t (0 : Fin 2) * 12800 + 1 * (j 0).val = Cert.KernelIdeal.win12_2.index t (0 : Fin 2) * 12800 + 1 * (j 0).val; rw [ea, ee]
    | ⟨1, _⟩ => show Cert.KernelIdeal.win12_0.index t (1 : Fin 2) * 64 + 1 * (j 1).val = Cert.KernelIdeal.win12_2.index t (1 : Fin 2) * 64 + 1 * (j 1).val; rw [eb, ef]
  have hatt : ((Cert.KernelIdeal.cfg12.win 1).blk t).view.emb j = ((Cert.KernelIdeal.cfg12.win 2).blk t).view.emb j := by
    funext a; apply Fin.ext
    match a with
    | ⟨0, _⟩ => show Cert.KernelIdeal.win12_1.index t (0 : Fin 2) * 12800 + 1 * (j 0).val = Cert.KernelIdeal.win12_2.index t (0 : Fin 2) * 12800 + 1 * (j 0).val; rw [ec, ee]
    | ⟨1, _⟩ => show Cert.KernelIdeal.win12_1.index t (1 : Fin 2) * 64 + 1 * (j 1).val = Cert.KernelIdeal.win12_2.index t (1 : Fin 2) * 64 + 1 * (j 1).val; rw [ed, ef]
  show Cert.KernelIdeal.Gen.k12_pay1 (F := Ideal) (Cert.KernelIdeal.Gen.iblk12 V c 0 t) (Cert.KernelIdeal.Gen.iblk12 V c 1 t) j
      = edge_fn (V c (Pipeline.arrRef Cert.KernelIdeal.spec12 0)) (V c (Pipeline.arrRef Cert.KernelIdeal.spec12 1))
          (((Cert.KernelIdeal.cfg12.win 2).blk t).view.emb j)
  refine edge3_point _ _ (V c (Pipeline.arrRef Cert.KernelIdeal.spec12 0)) (V c (Pipeline.arrRef Cert.KernelIdeal.spec12 1)) j
    (((Cert.KernelIdeal.cfg12.win 2).blk t).view.emb j) ?_ ?_
  · show V c (Pipeline.arrRef Cert.KernelIdeal.spec12 0) (((Cert.KernelIdeal.cfg12.win 0).blk t).view.emb j) = _
    rw [hsrc]
  · show V c (Pipeline.arrRef Cert.KernelIdeal.spec12 1) (((Cert.KernelIdeal.cfg12.win 1).blk t).view.emb j) = _
    rw [hatt]

/-- An entry of the result array lies in point `t`'s block iff each coordinate lies in the block's range on its axis. -/
theorem edge3_mem (t : Fin Cert.KernelIdeal.cfg12.N) (i : Cert.KernelIdeal.S1600000x64.Idx) :
    i ∈ ((Cert.KernelIdeal.cfg12.win 2).blk t).view.set
      ↔ ∀ a : Fin 2, Cert.KernelIdeal.win12_2.index t a * Cert.KernelIdeal.S12800x64.size a ≤ (i a).val
          ∧ (i a).val < Cert.KernelIdeal.win12_2.index t a * Cert.KernelIdeal.S12800x64.size a + Cert.KernelIdeal.S12800x64.size a := by
  show i ∈ ((View.whole Cert.KernelIdeal.main_v153).slice (Cert.KernelIdeal.win12_2.rect t)).set ↔ _
  rw [View.set_slice_whole, Rect.mem_set_unit]
  exact Iff.rfl

/-- Every entry of the result array lies in the block of the point numbered by its row divided by 12800. -/
theorem edge3_cover (i : Cert.KernelIdeal.S1600000x64.Idx) :
    ∃ t : Fin Cert.KernelIdeal.cfg12.N, (Cert.KernelIdeal.cfg12.win 2).flush t = true ∧ i ∈ ((Cert.KernelIdeal.cfg12.win 2).blk t).view.set := by
  have hrow : (i 0).val < 1600000 := (i 0).isLt
  have hcol : (i 1).val < 64 := (i 1).isLt
  have hN : Cert.KernelIdeal.cfg12.N = 125 := Cert.KernelIdeal.Gen.N_12
  have ht : (i 0).val / 12800 < Cert.KernelIdeal.cfg12.N := by rw [hN]; omega
  obtain ⟨-, -, -, -, ee, ef⟩ := edge3_idx ⟨(i 0).val / 12800, ht⟩
  refine ⟨⟨(i 0).val / 12800, ht⟩, Cert.KernelIdeal.Gen.flush12_2 _, ?_⟩
  rw [edge3_mem]
  intro a
  match a with
  | ⟨0, _⟩ =>
    show Cert.KernelIdeal.win12_2.index ⟨(i 0).val / 12800, ht⟩ (0 : Fin 2) * 12800 ≤ (i 0).val
      ∧ (i 0).val < Cert.KernelIdeal.win12_2.index ⟨(i 0).val / 12800, ht⟩ (0 : Fin 2) * 12800 + 12800
    rw [ee]; show (i 0).val / 12800 * 12800 ≤ (i 0).val ∧ (i 0).val < (i 0).val / 12800 * 12800 + 12800; omega
  | ⟨1, _⟩ =>
    show Cert.KernelIdeal.win12_2.index ⟨(i 0).val / 12800, ht⟩ (1 : Fin 2) * 64 ≤ (i 1).val
      ∧ (i 1).val < Cert.KernelIdeal.win12_2.index ⟨(i 0).val / 12800, ht⟩ (1 : Fin 2) * 64 + 64
    rw [ef]; omega

/-- REGION 12's result array after the run of the pallas_call, for any contents at its entry: entry by entry the sum of the
    two operand arrays, cut below at zero. -/
theorem edge_value3 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Gen.dat12 (F := Ideal) V c).arrAt 2 Cert.KernelIdeal.cfg12.N
      = edge_fn (V c (Pipeline.arrRef Cert.KernelIdeal.spec12 0)) (V c (Pipeline.arrRef Cert.KernelIdeal.spec12 1)) :=
  (Cert.KernelIdeal.Gen.dat12 (F := Ideal) V c).arrAt_eq_of_cover 2 _ (fun t _ => edge3_flushed V c t) edge3_cover

/-! ## The host operations around it, read off any contents they start from -/

/-- The reference's sum of the gathered node rows and the gathered edge-type rows: the last operation of its list adds
    what the list has left in its two operand buffers. -/
theorem msg3_R_add (W : Valuation Cert.ReferenceIdeal.τ Cert.ReferenceIdeal.sig (Elt Ideal)) :
    StableHlo.after (Cert.ReferenceIdeal.Ops.hostOps0_30 (F := Ideal)) W (Proc.devRef .tc Cert.ReferenceIdeal.main_v300)
      = addf (F := Ideal) (s := Cert.ReferenceIdeal.S1600000x64) (φ := .f32) (StableHlo.after (Cert.ReferenceIdeal.Ops.hostOps0_30 (F := Ideal)) W (Proc.devRef .tc Cert.ReferenceIdeal.main_v290) : Vec Ideal Cert.ReferenceIdeal.S1600000x64 .f32)
             (StableHlo.after (Cert.ReferenceIdeal.Ops.hostOps0_30 (F := Ideal)) W (Proc.devRef .tc Cert.ReferenceIdeal.main_v299) : Vec Ideal Cert.ReferenceIdeal.S1600000x64 .f32) := by
  simp only [StableHlo.after_cons, StableHlo.after_nil]
  rw [StableHlo.binary_result]
  rw [StableHlo.binary_result_ne (y := Cert.ReferenceIdeal.main_v300) (r := Cert.ReferenceIdeal.main_v290)]; rotate_left; decide
  rw [StableHlo.binary_result_ne (y := Cert.ReferenceIdeal.main_v300) (r := Cert.ReferenceIdeal.main_v299)]; rotate_left; decide

/-- The reference's cut below at zero of that sum: the maximum with the zero word spread over the edge array. -/
theorem msg3_R_relu (W : Valuation Cert.ReferenceIdeal.τ Cert.ReferenceIdeal.sig (Elt Ideal)) :
    StableHlo.after (Cert.ReferenceIdeal.Ops.hostOps0_31 (F := Ideal)) W (Proc.devRef .tc Cert.ReferenceIdeal.main_v301)
      = maximumf (F := Ideal) (s := Cert.ReferenceIdeal.S1600000x64) (φ := .f32) (W (Proc.devRef .tc Cert.ReferenceIdeal.main_v300) : Vec Ideal Cert.ReferenceIdeal.S1600000x64 .f32)
          (broadcastInDim Cert.ReferenceIdeal.S1600000x64 ![] Cert.ReferenceIdeal.Facts₀.bcast_S_S1600000x64 (constant (F := Ideal) Cert.ReferenceIdeal.S_ .f32 0x00000000#32)) := by
  after_results
  all_goals rfl

/-- The kernel program's aggregate: the messages scattered by destination onto a zero table. -/
theorem agg3_K (W : Valuation Cert.KernelIdeal.τ Cert.KernelIdeal.sig (Elt Ideal)) :
    StableHlo.after (Cert.KernelIdeal.Gen.hostOps13 (F := Ideal)) W (Proc.devRef .tc Cert.KernelIdeal.main_v156)
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (W (Proc.devRef .tc Cert.KernelIdeal.main_v3)))
          (W (Proc.devRef .tc Cert.KernelIdeal.main_v153)) := by
  after_results
  all_goals rfl

/-- The reference's aggregate: the same scatter of its own messages. -/
theorem agg3_R (W : Valuation Cert.ReferenceIdeal.τ Cert.ReferenceIdeal.sig (Elt Ideal)) :
    StableHlo.after (Cert.ReferenceIdeal.Ops.hostOps0_32 (F := Ideal)) W (Proc.devRef .tc Cert.ReferenceIdeal.main_v304)
      = Host.scatterAdd Cert.ReferenceIdeal.scatter_S100000x64_S1600000x1_S1600000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1600000x1 ![0] Cert.ReferenceIdeal.Facts₀.bcast_S1600000_S1600000x1_0 (W (Proc.devRef .tc Cert.ReferenceIdeal.main_v3)))
          (W (Proc.devRef .tc Cert.ReferenceIdeal.main_v301)) := by
  after_results
  all_goals rfl

/-! ## The two programs' buffers at the end of their runs -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The kernel program's message buffer: entry by entry the sum of its two operand buffers, cut below at zero. -/
theorem msg3_K (c : Dev Cert.KernelIdeal.nD) :
    KV m ρ c Cert.KernelIdeal.main_v153
      = edge_fn (KV m ρ c Cert.KernelIdeal.main_v149) (KV m ρ c Cert.KernelIdeal.main_v152) := by
  have eMsg := Cert.KernelIdeal.Keep.toEnd_42 (F := Ideal) m ρ c Cert.KernelIdeal.main_v153 (by decide)
  have eSrc := Cert.KernelIdeal.Keep.toEnd_41 (F := Ideal) m ρ c Cert.KernelIdeal.main_v149 (by decide)
  have eAtt := Cert.KernelIdeal.Keep.toEnd_41 (F := Ideal) m ρ c Cert.KernelIdeal.main_v152 (by decide)
  have hv : Cert.KernelIdeal.Gen.W42 (F := Ideal) m ρ c (Proc.devRef .tc Cert.KernelIdeal.main_v153)
      = edge_fn (Cert.KernelIdeal.Gen.W41 (F := Ideal) m ρ c (Proc.devRef .tc Cert.KernelIdeal.main_v149))
          (Cert.KernelIdeal.Gen.W41 (F := Ideal) m ρ c (Proc.devRef .tc Cert.KernelIdeal.main_v152)) :=
    (Cert.KernelIdeal.Gen.W42_arr (F := Ideal) m ρ c 2).trans (edge_value3 (Cert.KernelIdeal.Gen.V41 (F := Ideal) m ρ) c)
  rw [eSrc, eAtt] at hv
  exact eMsg.symm.trans hv

/-- The reference's message buffer: the maximum of the sum of its two operand buffers with the spread zero word. -/
theorem msg3_R (c : Dev Cert.ReferenceIdeal.nD) :
    RV m' c Cert.ReferenceIdeal.main_v301
      = maximumf (F := Ideal) (s := Cert.ReferenceIdeal.S1600000x64) (φ := .f32) (addf (F := Ideal) (s := Cert.ReferenceIdeal.S1600000x64) (φ := .f32) (RV m' c Cert.ReferenceIdeal.main_v290 : Vec Ideal Cert.ReferenceIdeal.S1600000x64 .f32)
                       (RV m' c Cert.ReferenceIdeal.main_v299 : Vec Ideal Cert.ReferenceIdeal.S1600000x64 .f32))
          (broadcastInDim Cert.ReferenceIdeal.S1600000x64 ![] Cert.ReferenceIdeal.Facts₀.bcast_S_S1600000x64 (constant (F := Ideal) Cert.ReferenceIdeal.S_ .f32 0x00000000#32)) := by
  have eMsg := Cert.ReferenceIdeal.Keep.toEnd_32 m' c Cert.ReferenceIdeal.main_v301 (by decide)
  have eSrc := Cert.ReferenceIdeal.Keep.toEnd_31 m' c Cert.ReferenceIdeal.main_v290 (by decide)
  have eAtt := Cert.ReferenceIdeal.Keep.toEnd_31 m' c Cert.ReferenceIdeal.main_v299 (by decide)
  have hSum : R31 m' c (Proc.devRef .tc Cert.ReferenceIdeal.main_v300)
      = addf (F := Ideal) (s := Cert.ReferenceIdeal.S1600000x64) (φ := .f32) (R31 m' c (Proc.devRef .tc Cert.ReferenceIdeal.main_v290) : Vec Ideal Cert.ReferenceIdeal.S1600000x64 .f32)
             (R31 m' c (Proc.devRef .tc Cert.ReferenceIdeal.main_v299) : Vec Ideal Cert.ReferenceIdeal.S1600000x64 .f32) :=
    msg3_R_add (R30 m' c)
  have hMax : R32 m' c (Proc.devRef .tc Cert.ReferenceIdeal.main_v301)
      = maximumf (F := Ideal) (s := Cert.ReferenceIdeal.S1600000x64) (φ := .f32) (R31 m' c (Proc.devRef .tc Cert.ReferenceIdeal.main_v300) : Vec Ideal Cert.ReferenceIdeal.S1600000x64 .f32)
          (broadcastInDim Cert.ReferenceIdeal.S1600000x64 ![] Cert.ReferenceIdeal.Facts₀.bcast_S_S1600000x64 (constant (F := Ideal) Cert.ReferenceIdeal.S_ .f32 0x00000000#32)) :=
    msg3_R_relu (R31 m' c)
  rw [hSum, eSrc, eAtt] at hMax
  exact eMsg.symm.trans hMax

/-- THE MESSAGES AGREE: equal operand buffers give equal message buffers. -/
theorem corr_msg3 (c : Dev Cert.KernelIdeal.nD)
    (hsrc : KV m ρ c Cert.KernelIdeal.main_v149 = RV m' c Cert.ReferenceIdeal.main_v290)
    (hatt : KV m ρ c Cert.KernelIdeal.main_v152 = RV m' c Cert.ReferenceIdeal.main_v299) :
    KV m ρ c Cert.KernelIdeal.main_v153 = RV m' c Cert.ReferenceIdeal.main_v301 := by
  refine (msg3_K m ρ c).trans (Eq.trans ?_ (msg3_R m' c).symm)
  rw [hsrc, hatt]
  exact edge_join _ _

/-- The kernel program's aggregate buffer: its messages scattered by its destination buffer onto a zero table. -/
theorem agg3_K_end (c : Dev Cert.KernelIdeal.nD) :
    KV m ρ c Cert.KernelIdeal.main_v156
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (KV m ρ c Cert.KernelIdeal.main_v3))
          (KV m ρ c Cert.KernelIdeal.main_v153) := by
  have eAgg := Cert.KernelIdeal.Keep.toEnd_43 (F := Ideal) m ρ c Cert.KernelIdeal.main_v156 (by decide)
  have eDst := Cert.KernelIdeal.Keep.toEnd_42 (F := Ideal) m ρ c Cert.KernelIdeal.main_v3 (by decide)
  have eMsg := Cert.KernelIdeal.Keep.toEnd_42 (F := Ideal) m ρ c Cert.KernelIdeal.main_v153 (by decide)
  have h : Cert.KernelIdeal.Gen.W43 (F := Ideal) m ρ c (Proc.devRef .tc Cert.KernelIdeal.main_v156)
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (Cert.KernelIdeal.Gen.W42 (F := Ideal) m ρ c (Proc.devRef .tc Cert.KernelIdeal.main_v3)))
          (Cert.KernelIdeal.Gen.W42 (F := Ideal) m ρ c (Proc.devRef .tc Cert.KernelIdeal.main_v153)) :=
    agg3_K (Cert.KernelIdeal.Gen.W42 (F := Ideal) m ρ c)
  rw [eDst, eMsg] at h
  exact eAgg.symm.trans h

/-- The reference's aggregate buffer: its messages scattered by its destination buffer onto a zero table. -/
theorem agg3_R_end (c : Dev Cert.ReferenceIdeal.nD) :
    RV m' c Cert.ReferenceIdeal.main_v304
      = Host.scatterAdd Cert.ReferenceIdeal.scatter_S100000x64_S1600000x1_S1600000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1600000x1 ![0] Cert.ReferenceIdeal.Facts₀.bcast_S1600000_S1600000x1_0 (RV m' c Cert.ReferenceIdeal.main_v3))
          (RV m' c Cert.ReferenceIdeal.main_v301) := by
  have eAgg := Cert.ReferenceIdeal.Keep.toEnd_33 m' c Cert.ReferenceIdeal.main_v304 (by decide)
  have eDst := Cert.ReferenceIdeal.Keep.toEnd_32 m' c Cert.ReferenceIdeal.main_v3 (by decide)
  have eMsg := Cert.ReferenceIdeal.Keep.toEnd_32 m' c Cert.ReferenceIdeal.main_v301 (by decide)
  have h : R33 m' c (Proc.devRef .tc Cert.ReferenceIdeal.main_v304)
      = Host.scatterAdd Cert.ReferenceIdeal.scatter_S100000x64_S1600000x1_S1600000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1600000x1 ![0] Cert.ReferenceIdeal.Facts₀.bcast_S1600000_S1600000x1_0 (R32 m' c (Proc.devRef .tc Cert.ReferenceIdeal.main_v3)))
          (R32 m' c (Proc.devRef .tc Cert.ReferenceIdeal.main_v301)) :=
    agg3_R (R32 m' c)
  rw [eDst, eMsg] at h
  exact eAgg.symm.trans h

/-- THE AGGREGATES AGREE: equal messages and equal destinations give equal aggregates (one scatter, of one shape, on both
    sides). -/
theorem corr_agg3 (c : Dev Cert.KernelIdeal.nD)
    (hm : KV m ρ c Cert.KernelIdeal.main_v153 = RV m' c Cert.ReferenceIdeal.main_v301)
    (hd : KV m ρ c Cert.KernelIdeal.main_v3 = RV m' c Cert.ReferenceIdeal.main_v3) :
    KV m ρ c Cert.KernelIdeal.main_v156 = RV m' c Cert.ReferenceIdeal.main_v304 := by
  refine (agg3_K_end m ρ c).trans (Eq.trans ?_ (agg3_R_end m' c).symm)
  rw [hm, hd]
  rfl

end Cert.Bridge

end
-- ==== Proof.Bridge.Mlp1Spec.lean ====
/- The first linear layer of a GINE layer as one function of whole arrays, and the law that joins the kernel
   program's arrangement of it to the reference's. An entry `(r, q)` of the layer is the sum over `k` of
   (scaled features + aggregated messages) at `(r, k)` times the weights at `(k, q)`, plus the bias at `q`. The
   kernel program scales the features as `h * s`, the reference as `s * h`; the kernel program keeps the bias as one
   row `[1, 64]` and reads it at row 0, the reference lays the bias vector `[64]` along every row; the kernel's row sum
   is the host's `dot_general`. Only commutativity of the product is used; nothing is assumed finite. -/
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

namespace Cert.Bridge

open Idealize.ShloMosaic Idealize.ShloMosaic.TcCoe Idealize.SL.Sem
open Idealize.ShloMosaic.ValueIdx
open scoped BigOperators

/-! ## The layer as a function of whole arrays -/

/-- One entry of the first linear layer: row `r` of the sum of the two inputs against column `q` of the weights,
    plus entry `q` of the one-row bias. -/
def mlp1Entry {n : Nat} (sh agg : (⟨2, ![n, 64]⟩ : Shape).Idx → EReal) (W1 : (⟨2, ![64, 64]⟩ : Shape).Idx → EReal)
    (b1 : (⟨2, ![1, 64]⟩ : Shape).Idx → EReal) (r : Fin n) (q : Fin 64) : EReal :=
  (∑ k : Fin 64, (sh (ix2 r k) + agg (ix2 r k)) * W1 (ix2 k q)) + b1 (ix2 (0 : Fin 1) q)

/-- The first linear layer as one function of the whole arrays. -/
def mlp1G {n : Nat} (sh agg : (⟨2, ![n, 64]⟩ : Shape).Idx → EReal) (W1 : (⟨2, ![64, 64]⟩ : Shape).Idx → EReal)
    (b1 : (⟨2, ![1, 64]⟩ : Shape).Idx → EReal) : (⟨2, ![n, 64]⟩ : Shape).Idx → EReal :=
  fun i => mlp1Entry sh agg W1 b1 (i 0) (i 1)

theorem mlp1G_ix2 {n : Nat} (sh agg : (⟨2, ![n, 64]⟩ : Shape).Idx → EReal) (W1 : (⟨2, ![64, 64]⟩ : Shape).Idx → EReal)
    (b1 : (⟨2, ![1, 64]⟩ : Shape).Idx → EReal) (r : Fin n) (q : Fin 64) :
    mlp1G sh agg W1 b1 (ix2 r q) = mlp1Entry sh agg W1 b1 r q := rfl

/-- Two functions on a rank-2 index set that agree at every pair of coordinates are equal. -/
theorem mlp1_ext_ix2 {n0 n1 : Nat} {α : Type} (f g : (⟨2, ![n0, n1]⟩ : Shape).Idx → α)
    (h : ∀ (p : Fin n0) (q : Fin n1), f (ix2 p q) = g (ix2 p q)) : f = g :=
  funext fun j => by rw [eq_ix2 j]; exact h _ _

/-- The kernel's arrangement against the host's: the features times the scale in either order, the row sum against
    the weights as the host's product, the one-row bias against the bias vector laid along every row. -/
theorem mlp1_join {n : Nat} (h agg s : FVec Ideal ⟨2, ![n, 64]⟩ .f32) (W1 : FVec Ideal ⟨2, ![64, 64]⟩ .f32)
    (b : FVec Ideal ⟨1, ![64]⟩ .f32)
    (hc : (⟨1, ![64]⟩ : Shape).ShapeCasts ⟨2, ![1, 64]⟩)
    (hb1 : (⟨1, ![64]⟩ : Shape).BroadcastsInDim ⟨2, ![1, 64]⟩ ![1])
    (hb2 : (⟨2, ![1, 64]⟩ : Shape).BroadcastsInDim ⟨2, ![n, 64]⟩ ![0, 1]) :
    mlp1G (mulf h s) agg W1 (shapeCast ⟨2, ![1, 64]⟩ b hc)
      = addf (Host.dotGeneral (DotDims.plain n 64 64) none (addf (mulf s h) agg) W1)
          (broadcastInDim ⟨2, ![n, 64]⟩ ![0, 1] hb2 (broadcastInDim ⟨2, ![1, 64]⟩ ![1] hb1 b)) := by
  refine mlp1_ext_ix2 _ _ fun r q => ?_
  rw [mlp1G_ix2, addf_apply, StackMember.dotGeneral_plain_apply, broadcastInDim_oneRow_apply]
  unfold mlp1Entry
  refine congrArg₂ (· + ·) (Finset.sum_congr rfl fun k _ => ?_) ?_
  · rw [addf_apply, mulf_apply, mulf_apply, mul_comm (h (ix2 r k))]
  · rw [shapeCast_a_1a_apply]
    refine (broadcastInDim_apply ![1] hb1 b (ix2 (0 : Fin 1) q) (ix1 q) fun a => ?_).symm
    match a with
    | ⟨0, _⟩ =>
      show q.val = if (64 : Nat) = 1 then 0 else q.val
      rw [if_neg (by decide)]

/-- The zero offsets of a whole-buffer access, however they are spelt. -/
theorem mlp1_hz : (![0, 0] : Fin 2 → Nat) = fun _ => 0 := funext fun a => by fin_cases a <;> rfl

end Cert.Bridge

end
-- ==== Proof.Bridge.Mlp1.lean ====
/- The first linear layer of one GINE layer, on both sides. The kernel program computes it in one pallas_call: row
   block `t` of the result is row block `t` of (scaled features + aggregated messages) times the 64×64 weights, plus
   the one-row bias laid along every row. The reference computes the same entries on the host: the scale times the
   features, plus the aggregate, a `dot_general` with the weights, plus the bias vector broadcast along the rows.
   Here: the pallas_call's result array as the layer's function of the four arrays it reads (`mlp1_value1`: each
   stored entry read at an index, each input block read as rows of its array, the row blocks covering the array); what
   the host operations before it leave on either side, read from any contents; the scale, the weights and the bias
   vector, which both programs cut from the same three arguments by the same operations; and the two results equal
   when the features and the aggregate are (`corr_z1_0`), by the law of Mlp1Spec.lean. -/
import proofs.«417278_j53197464928922_1_alg».proof.Proof.Setup
import proofs.«417278_j53197464928922_1_alg».proof.Proof.KKeep
import proofs.«417278_j53197464928922_1_alg».proof.Proof.RKeep
import proofs.«417278_j53197464928922_1_alg».proof.Proof.Bridge.Mlp1Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.Bridge

open Idealize.ShloMosaic Idealize.ShloMosaic.TcCoe Idealize.SL.Sem
open Idealize.ShloMosaic.ValueIdx
open Idealize.ShloMosaic.Pipeline (Dat)
open scoped BigOperators

/-! ## The pallas_call's result array -/

section Region

open Cert.KernelIdeal Cert.KernelIdeal.Gen

/-- The body's stored value at an entry of its row block: the block's row of the two inputs added, against the
    weights' column, plus the bias row's entry. -/
theorem mlp1_pay_apply_L0 (x0 x1 : Vec Ideal S5000x64 .f32) (x2 : Vec Ideal S64x64 .f32)
    (x3 : Vec Ideal S1x64 .f32) (p : Fin 5000) (q : Fin 64) :
    k1_pay1 (F := Ideal) x0 x1 x2 x3 (ix2 p q) = mlp1Entry x0 x1 x2 x3 p q := by
  unfold k1_pay1 mlp1Entry
  simp only [shapeCast_self]
  rw [addf_apply, matmul_zero_eq_dotGeneral]
  refine congrArg₂ (· + ·) ?_ ?_
  · exact StackMember.dotGeneral_plain_apply none _ _ p q
  · exact broadcastTo_1b_ab_apply _ _ p q

/-- The same with the blocks' entries named: where the two input blocks' row `p` is row `r` of the arrays and the
    weights' and bias's blocks are the arrays, the stored entry is the layer's entry `(r, q)`. -/
theorem mlp1_point_L0 (sh agg : Vec Ideal S100000x64 .f32) (W1 : Vec Ideal S64x64 .f32) (b1 : Vec Ideal S1x64 .f32)
    (x0 x1 : Vec Ideal S5000x64 .f32) (x2 : Vec Ideal S64x64 .f32) (x3 : Vec Ideal S1x64 .f32)
    (p : Fin 5000) (q : Fin 64) (i : S100000x64.Idx) (r : Fin 100000)
    (hr : (i 0).val = r.val) (hq : (i 1).val = q.val)
    (h0 : ∀ k : Fin 64, x0 (ix2 p k) = sh (ix2 r k)) (h1 : ∀ k : Fin 64, x1 (ix2 p k) = agg (ix2 r k))
    (h2 : ∀ k : Fin 64, x2 (ix2 k q) = W1 (ix2 k q)) (h3 : x3 (ix2 (0 : Fin 1) q) = b1 (ix2 (0 : Fin 1) q)) :
    k1_pay1 (F := Ideal) x0 x1 x2 x3 (ix2 p q) = mlp1G sh agg W1 b1 i := by
  have hi : i = ix2 r q := by
    rw [eq_ix2 i]
    funext a
    match a with
    | ⟨0, _⟩ => exact Fin.ext hr
    | ⟨1, _⟩ => exact Fin.ext hq
  rw [hi, mlp1G_ix2, mlp1_pay_apply_L0]
  unfold mlp1Entry
  rw [h3]
  refine congrArg (· + b1 (ix2 (0 : Fin 1) q)) (Finset.sum_congr rfl fun k _ => ?_)
  rw [h0 k, h1 k, h2 k]

/-- The printed index maps over the grid: the two row-blocked inputs move with the output's row block, the weights
    and the bias stay at block (0, 0), the output's row block is the point's number. -/
theorem mlp1_idx_L0 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val ≤ 19 :=
  (by decide +kernel : ∀ t : Fin grid1.N, _)

variable (V : (c : Dev nD) → (b : Ref sig .tc) → Buf (Elt Ideal) ((c : Thread nD τ).loc b))

/-- Entry `(p, k)` of input window 0's block at point `t` is entry `(r, k)` of its array, `r` the block's row offset
    plus `p`. -/
theorem mlp1_iblk_sh_L0 (c : Dev nD) (t : Fin cfg1.N) (p : Fin 5000) (k : Fin 64) (r : Fin 100000)
    (hr : r.val = win1_0.index t (0 : Fin 2) * 5000 + p.val) (h1 : win1_0.index t (1 : Fin 2) = 0) :
    (iblk1 V c 0 t : Vec Ideal S5000x64 .f32) (ix2 p k) = (V c main_v17 : Vec Ideal S100000x64 .f32) (ix2 r k) := by
  unfold iblk1
  rw [View.read_apply]
  show V c main_v17 _ = V c main_v17 _
  refine congrArg (V c main_v17) ?_
  funext a
  apply Fin.ext
  match a with
  | ⟨0, _⟩ => show win1_0.index t (0 : Fin 2) * 5000 + 1 * p.val = r.val; omega
  | ⟨1, _⟩ => show win1_0.index t (1 : Fin 2) * 64 + 1 * k.val = k.val; omega

/-- The same for input window 1. -/
theorem mlp1_iblk_agg_L0 (c : Dev nD) (t : Fin cfg1.N) (p : Fin 5000) (k : Fin 64) (r : Fin 100000)
    (hr : r.val = win1_1.index t (0 : Fin 2) * 5000 + p.val) (h1 : win1_1.index t (1 : Fin 2) = 0) :
    (iblk1 V c 1 t : Vec Ideal S5000x64 .f32) (ix2 p k) = (V c main_v12 : Vec Ideal S100000x64 .f32) (ix2 r k) := by
  unfold iblk1
  rw [View.read_apply]
  show V c main_v12 _ = V c main_v12 _
  refine congrArg (V c main_v12) ?_
  funext a
  apply Fin.ext
  match a with
  | ⟨0, _⟩ => show win1_1.index t (0 : Fin 2) * 5000 + 1 * p.val = r.val; omega
  | ⟨1, _⟩ => show win1_1.index t (1 : Fin 2) * 64 + 1 * k.val = k.val; omega

/-- Input window 2's block is its whole array. -/
theorem mlp1_iblk_w_L0 (c : Dev nD) (t : Fin cfg1.N) (k q : Fin 64)
    (h0 : win1_2.index t (0 : Fin 2) = 0) (h1 : win1_2.index t (1 : Fin 2) = 0) :
    (iblk1 V c 2 t : Vec Ideal S64x64 .f32) (ix2 k q) = (V c main_v19 : Vec Ideal S64x64 .f32) (ix2 k q) := by
  unfold iblk1
  rw [View.read_apply]
  show V c main_v19 _ = V c main_v19 _
  refine congrArg (V c main_v19) ?_
  funext a
  apply Fin.ext
  match a with
  | ⟨0, _⟩ => show win1_2.index t (0 : Fin 2) * 64 + 1 * k.val = k.val; omega
  | ⟨1, _⟩ => show win1_2.index t (1 : Fin 2) * 64 + 1 * q.val = q.val; omega

/-- Input window 3's block is its whole array. -/
theorem mlp1_iblk_b_L0 (c : Dev nD) (t : Fin cfg1.N) (u : Fin 1) (q : Fin 64)
    (h0 : win1_3.index t (0 : Fin 2) = 0) (h1 : win1_3.index t (1 : Fin 2) = 0) :
    (iblk1 V c 3 t : Vec Ideal S1x64 .f32) (ix2 u q) = (V c main_v22 : Vec Ideal S1x64 .f32) (ix2 u q) := by
  unfold iblk1
  rw [View.read_apply]
  show V c main_v22 _ = V c main_v22 _
  refine congrArg (V c main_v22) ?_
  funext a
  apply Fin.ext
  match a with
  | ⟨0, _⟩ => show win1_3.index t (0 : Fin 2) * 1 + 1 * u.val = u.val; omega
  | ⟨1, _⟩ => show win1_3.index t (1 : Fin 2) * 64 + 1 * q.val = q.val; omega

/-- What point `t` writes back is block `t` of the layer's function of the four arrays as the pallas_call finds them. -/
theorem mlp1_flushed_L0 (c : Dev nD) (t : Fin cfg1.N) :
    (dat1 (F := Ideal) V c).flushed 4 t
      = ((cfg1.win 4).blk t).view.read (Elt Ideal) (mlp1G (n := 100000) (V c main_v17) (V c main_v12) (V c main_v19) (V c main_v22)) := by
  show (cfg1.win 4).cut (grid1.coords t) ((dat1 (F := Ideal) V c).after 4 t) = _
  rw [after1_4]
  unfold out1_4
  rw [View.canon_unit_zero mlp1_hz]
  simp only [View.ld_unit_zero (S := S5000x64) mlp1_hz, View.ld_unit_zero (S := S64x64) mlp1_hz, View.ld_unit_zero (S := S1x64) mlp1_hz]
  obtain ⟨e00, e01, e10, e11, e20, e21, e30, e31, e40, e41, e4b⟩ := mlp1_idx_L0 t
  refine mlp1_ext_ix2 (n0 := 5000) (n1 := 64) _ _ fun p q => ?_
  have hp : p.val < 5000 := p.isLt
  show k1_pay1 (F := Ideal) (iblk1 V c 0 t) (iblk1 V c 1 t) (iblk1 V c 2 t) (iblk1 V c 3 t) (ix2 p q)
      = mlp1G (n := 100000) (V c main_v17) (V c main_v12) (V c main_v19) (V c main_v22) (((cfg1.win 4).blk t).view.emb (ix2 p q))
  refine mlp1_point_L0 (V c main_v17) (V c main_v12) (V c main_v19) (V c main_v22)
    (iblk1 V c 0 t) (iblk1 V c 1 t) (iblk1 V c 2 t) (iblk1 V c 3 t) p q
    (((cfg1.win 4).blk t).view.emb (ix2 p q)) ⟨win1_4.index t (0 : Fin 2) * 5000 + p.val, by omega⟩ ?_ ?_ ?_ ?_ ?_ ?_
  · show win1_4.index t (0 : Fin 2) * 5000 + 1 * p.val = win1_4.index t (0 : Fin 2) * 5000 + p.val; omega
  · show win1_4.index t (1 : Fin 2) * 64 + 1 * q.val = q.val; omega
  · exact fun k => mlp1_iblk_sh_L0 V c t p k _
      (by show win1_4.index t (0 : Fin 2) * 5000 + p.val = win1_0.index t (0 : Fin 2) * 5000 + p.val; omega) e01
  · exact fun k => mlp1_iblk_agg_L0 V c t p k _
      (by show win1_4.index t (0 : Fin 2) * 5000 + p.val = win1_1.index t (0 : Fin 2) * 5000 + p.val; omega) e11
  · exact fun k => mlp1_iblk_w_L0 V c t k q e20 e21
  · exact mlp1_iblk_b_L0 V c t 0 q e30 e31

/-- An index of the result array is in point `t`'s block iff each coordinate is in the block's range on its axis. -/
theorem mlp1_mem_blk_L0 (t : Fin cfg1.N) (i : S100000x64.Idx) :
    i ∈ ((cfg1.win 4).blk t).view.set
      ↔ ∀ a : Fin 2, win1_4.index t a * S5000x64.size a ≤ (i a).val ∧ (i a).val < win1_4.index t a * S5000x64.size a + S5000x64.size a := by
  show i ∈ ((View.whole main_v40).slice (win1_4.rect t)).set ↔ _
  rw [View.set_slice_whole, Rect.mem_set_unit]
  exact Iff.rfl

/-- Every row of the result array is in the block of the point numbered by the row's block of 5000. -/
theorem mlp1_cover_L0 (i : S100000x64.Idx) :
    ∃ t : Fin cfg1.N, (cfg1.win 4).flush t = true ∧ i ∈ ((cfg1.win 4).blk t).view.set := by
  have hi0 : (i 0).val < 100000 := idx2_lt0 i
  have hi1 : (i 1).val < 64 := idx2_lt1 i
  obtain ⟨t, ht⟩ : ∃ t : Fin cfg1.N, t.val = (i 0).val / 5000 :=
    ⟨⟨(i 0).val / 5000, by show (i 0).val / 5000 < grid1.N; rw [N_1]; omega⟩, rfl⟩
  obtain ⟨e00, e01, e10, e11, e20, e21, e30, e31, e40, e41, e4b⟩ := mlp1_idx_L0 t
  refine ⟨t, flush1_4 t, ?_⟩
  rw [mlp1_mem_blk_L0]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE RESULT ARRAY of the pallas_call, from any contents `V` at its entry: the layer's function of the four arrays
    it reads. -/
theorem mlp1_value1 (c : Dev nD) :
    (dat1 (F := Ideal) V c).arrAt 4 cfg1.N = mlp1G (n := 100000) (V c main_v17) (V c main_v12) (V c main_v19) (V c main_v22) :=
  (dat1 (F := Ideal) V c).arrAt_eq_of_cover 4 (mlp1G (n := 100000) (V c main_v17) (V c main_v12) (V c main_v19) (V c main_v22))
    (fun t _ => mlp1_flushed_L0 V c t) mlp1_cover_L0

end Region

/-! ## The host operations around the pallas_call, read from any contents -/

/-- The kernel program's scaled features: the features as the operations find them times the scale the same
    operations build. -/
theorem mlp1_readK_sh_L0 (W : Valuation Cert.KernelIdeal.τ Cert.KernelIdeal.sig (Elt Ideal)) :
    (StableHlo.after (Cert.KernelIdeal.Gen.hostOps1 (F := Ideal)) W (Proc.devRef .tc Cert.KernelIdeal.main_v17) : Vec Ideal Cert.KernelIdeal.S100000x64 .f32)
      = mulf (F := Ideal) (s := Cert.KernelIdeal.S100000x64) (φ := .f32) (W (Proc.devRef .tc Cert.KernelIdeal.main_v4))
          (StableHlo.after (Cert.KernelIdeal.Gen.hostOps1 (F := Ideal)) W (Proc.devRef .tc Cert.KernelIdeal.main_v16)) := by
  after_results_simp
  try rfl

/-- The kernel program's one-row bias: the bias vector the same operations cut out, reshaped to one row. -/
theorem mlp1_readK_bias_L0 (W : Valuation Cert.KernelIdeal.τ Cert.KernelIdeal.sig (Elt Ideal)) :
    (StableHlo.after (Cert.KernelIdeal.Gen.hostOps1 (F := Ideal)) W (Proc.devRef .tc Cert.KernelIdeal.main_v22) : Vec Ideal Cert.KernelIdeal.S1x64 .f32)
      = shapeCast Cert.KernelIdeal.S1x64
          (StableHlo.after (Cert.KernelIdeal.Gen.hostOps1 (F := Ideal)) W (Proc.devRef .tc Cert.KernelIdeal.main_v21) : Vec Ideal Cert.KernelIdeal.S64 .f32)
          Cert.KernelIdeal.Facts₀.shapeCasts_S64_S1x64 := by
  after_results_simp
  try rfl

/-- The reference's first linear layer: the scale times the features plus the aggregate, the product with the
    weights, plus the bias vector laid along every row; the scale, the aggregate, the weights and the bias vector as
    the same operations leave them. -/
theorem mlp1_readR_y_L0 (W : Valuation Cert.ReferenceIdeal.τ Cert.ReferenceIdeal.sig (Elt Ideal)) :
    (StableHlo.after (Cert.ReferenceIdeal.Ops.hostOps0_2 (F := Ideal)) W (Proc.devRef .tc Cert.ReferenceIdeal.main_v45) : Vec Ideal Cert.ReferenceIdeal.S100000x64 .f32)
      = addf (F := Ideal) (s := Cert.ReferenceIdeal.S100000x64) (φ := .f32)
          (Host.dotGeneral (F := Ideal) (φ₁ := .f32) (φ₂ := .f32) Cert.ReferenceIdeal.dot_S100000x64_S64x64_S100000x64_1_0_0_1_n_n none
            (addf (F := Ideal) (s := Cert.ReferenceIdeal.S100000x64) (φ := .f32)
              (mulf (F := Ideal) (s := Cert.ReferenceIdeal.S100000x64) (φ := .f32) (StableHlo.after (Cert.ReferenceIdeal.Ops.hostOps0_2 (F := Ideal)) W (Proc.devRef .tc Cert.ReferenceIdeal.main_v35) : Vec Ideal Cert.ReferenceIdeal.S100000x64 .f32)
                (W (Proc.devRef .tc Cert.ReferenceIdeal.main_v10) : Vec Ideal Cert.ReferenceIdeal.S100000x64 .f32))
              (StableHlo.after (Cert.ReferenceIdeal.Ops.hostOps0_2 (F := Ideal)) W (Proc.devRef .tc Cert.ReferenceIdeal.main_v31) : Vec Ideal Cert.ReferenceIdeal.S100000x64 .f32))
            (StableHlo.after (Cert.ReferenceIdeal.Ops.hostOps0_2 (F := Ideal)) W (Proc.devRef .tc Cert.ReferenceIdeal.main_v39) : Vec Ideal Cert.ReferenceIdeal.S64x64 .f32))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1
              (StableHlo.after (Cert.ReferenceIdeal.Ops.hostOps0_2 (F := Ideal)) W (Proc.devRef .tc Cert.ReferenceIdeal.main_v42) : Vec Ideal Cert.ReferenceIdeal.S64 .f32))) := by
  after_results_simp
  try rfl

/-! ## The pieces both programs cut from the same arguments -/

/-- The scale `1 + eps` broadcast over the features: the same operations of the same argument on both sides. -/
theorem mlp1_agree_scale_L0 (WK : Valuation Cert.KernelIdeal.τ Cert.KernelIdeal.sig (Elt Ideal)) (WR : Valuation Cert.ReferenceIdeal.τ Cert.ReferenceIdeal.sig (Elt Ideal))
    (h6 : (WK (Proc.devRef .tc Cert.KernelIdeal.main_arg6) : Vec Ideal Cert.KernelIdeal.S4 .f32) = WR (Proc.devRef .tc Cert.ReferenceIdeal.main_arg6)) :
    (StableHlo.after (Cert.KernelIdeal.Gen.hostOps1 (F := Ideal)) WK (Proc.devRef .tc Cert.KernelIdeal.main_v16) : Vec Ideal Cert.KernelIdeal.S100000x64 .f32)
      = StableHlo.after (Cert.ReferenceIdeal.Ops.hostOps0_2 (F := Ideal)) WR (Proc.devRef .tc Cert.ReferenceIdeal.main_v35) := by
  after_results_simp
  rw [h6]
  try rfl

/-- The layer's 64×64 weights. -/
theorem mlp1_agree_w_L0 (WK : Valuation Cert.KernelIdeal.τ Cert.KernelIdeal.sig (Elt Ideal)) (WR : Valuation Cert.ReferenceIdeal.τ Cert.ReferenceIdeal.sig (Elt Ideal))
    (h7 : (WK (Proc.devRef .tc Cert.KernelIdeal.main_arg7) : Vec Ideal Cert.KernelIdeal.S4x64x64 .f32) = WR (Proc.devRef .tc Cert.ReferenceIdeal.main_arg7)) :
    (StableHlo.after (Cert.KernelIdeal.Gen.hostOps1 (F := Ideal)) WK (Proc.devRef .tc Cert.KernelIdeal.main_v19) : Vec Ideal Cert.KernelIdeal.S64x64 .f32)
      = StableHlo.after (Cert.ReferenceIdeal.Ops.hostOps0_2 (F := Ideal)) WR (Proc.devRef .tc Cert.ReferenceIdeal.main_v39) := by
  after_results_simp
  rw [h7]
  try rfl

/-- The layer's bias vector. -/
theorem mlp1_agree_b_L0 (WK : Valuation Cert.KernelIdeal.τ Cert.KernelIdeal.sig (Elt Ideal)) (WR : Valuation Cert.ReferenceIdeal.τ Cert.ReferenceIdeal.sig (Elt Ideal))
    (h8 : (WK (Proc.devRef .tc Cert.KernelIdeal.main_arg8) : Vec Ideal Cert.KernelIdeal.S4x64 .f32) = WR (Proc.devRef .tc Cert.ReferenceIdeal.main_arg8)) :
    (StableHlo.after (Cert.KernelIdeal.Gen.hostOps1 (F := Ideal)) WK (Proc.devRef .tc Cert.KernelIdeal.main_v21) : Vec Ideal Cert.KernelIdeal.S64 .f32)
      = StableHlo.after (Cert.ReferenceIdeal.Ops.hostOps0_2 (F := Ideal)) WR (Proc.devRef .tc Cert.ReferenceIdeal.main_v42) := by
  after_results_simp
  rw [h8]
  try rfl

/-! ## The correspondence -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The first linear layer's results agree when the features and the aggregated messages do. -/
theorem corr_z1_0 (hag : Agree m m') (c : Dev Cert.KernelIdeal.nD)
    (hh : (KV m ρ c Cert.KernelIdeal.main_v4 : Vec Ideal Cert.KernelIdeal.S100000x64 .f32) = RV m' c Cert.ReferenceIdeal.main_v10)
    (ha : (KV m ρ c Cert.KernelIdeal.main_v12 : Vec Ideal Cert.KernelIdeal.S100000x64 .f32) = RV m' c Cert.ReferenceIdeal.main_v31) :
    (KV m ρ c Cert.KernelIdeal.main_v40 : Vec Ideal Cert.KernelIdeal.S100000x64 .f32) = RV m' c Cert.ReferenceIdeal.main_v45 := by
  -- the three arguments both programs cut their pieces from, as each program finds them
  have a6 : (Cert.KernelIdeal.Gen.W6 (F := Ideal) m ρ c (Proc.devRef .tc Cert.KernelIdeal.main_arg6) : Vec Ideal Cert.KernelIdeal.S4 .f32)
      = R2 m' c (Proc.devRef .tc Cert.ReferenceIdeal.main_arg6) :=
    ((Cert.KernelIdeal.Keep.toEnd_6 m ρ c Cert.KernelIdeal.main_arg6 (by decide +kernel)).trans (Cert.KernelIdeal.Gen.W52_main_arg6 m ρ c)).trans
      ((hag c).2.2.2.2.2.2.1.symm.trans
        ((Cert.ReferenceIdeal.Keep.arg_kept_6 m' c).symm.trans (Cert.ReferenceIdeal.Keep.toEnd_2 m' c Cert.ReferenceIdeal.main_arg6 (by decide +kernel)).symm))
  have a7 : (Cert.KernelIdeal.Gen.W6 (F := Ideal) m ρ c (Proc.devRef .tc Cert.KernelIdeal.main_arg7) : Vec Ideal Cert.KernelIdeal.S4x64x64 .f32)
      = R2 m' c (Proc.devRef .tc Cert.ReferenceIdeal.main_arg7) :=
    ((Cert.KernelIdeal.Keep.toEnd_6 m ρ c Cert.KernelIdeal.main_arg7 (by decide +kernel)).trans (Cert.KernelIdeal.Gen.W52_main_arg7 m ρ c)).trans
      ((hag c).2.2.2.2.2.2.2.1.symm.trans
        ((Cert.ReferenceIdeal.Keep.arg_kept_7 m' c).symm.trans (Cert.ReferenceIdeal.Keep.toEnd_2 m' c Cert.ReferenceIdeal.main_arg7 (by decide +kernel)).symm))
  have a8 : (Cert.KernelIdeal.Gen.W6 (F := Ideal) m ρ c (Proc.devRef .tc Cert.KernelIdeal.main_arg8) : Vec Ideal Cert.KernelIdeal.S4x64 .f32)
      = R2 m' c (Proc.devRef .tc Cert.ReferenceIdeal.main_arg8) :=
    ((Cert.KernelIdeal.Keep.toEnd_6 m ρ c Cert.KernelIdeal.main_arg8 (by decide +kernel)).trans (Cert.KernelIdeal.Gen.W52_main_arg8 m ρ c)).trans
      ((hag c).2.2.2.2.2.2.2.2.1.symm.trans
        ((Cert.ReferenceIdeal.Keep.arg_kept_8 m' c).symm.trans (Cert.ReferenceIdeal.Keep.toEnd_2 m' c Cert.ReferenceIdeal.main_arg8 (by decide +kernel)).symm))
  -- the kernel program's side: the pallas_call's result from the four arrays it reads
  have k40 : (KV m ρ c Cert.KernelIdeal.main_v40 : Vec Ideal Cert.KernelIdeal.S100000x64 .f32)
      = mlp1G (n := 100000) (Cert.KernelIdeal.Gen.V7 (F := Ideal) m ρ c Cert.KernelIdeal.main_v17) (Cert.KernelIdeal.Gen.V7 (F := Ideal) m ρ c Cert.KernelIdeal.main_v12)
          (Cert.KernelIdeal.Gen.V7 (F := Ideal) m ρ c Cert.KernelIdeal.main_v19) (Cert.KernelIdeal.Gen.V7 (F := Ideal) m ρ c Cert.KernelIdeal.main_v22) :=
    (Cert.KernelIdeal.Keep.toEnd_8 m ρ c Cert.KernelIdeal.main_v40 (by decide +kernel)).symm.trans
      ((Cert.KernelIdeal.Gen.W8_arr m ρ c 4).trans (mlp1_value1 (Cert.KernelIdeal.Gen.V7 (F := Ideal) m ρ) c))
  have k17 : (Cert.KernelIdeal.Gen.V7 (F := Ideal) m ρ c Cert.KernelIdeal.main_v17 : Vec Ideal Cert.KernelIdeal.S100000x64 .f32)
      = mulf (F := Ideal) (s := Cert.KernelIdeal.S100000x64) (φ := .f32) (RV m' c Cert.ReferenceIdeal.main_v10) (R3 m' c (Proc.devRef .tc Cert.ReferenceIdeal.main_v35)) :=
    (mlp1_readK_sh_L0 (Cert.KernelIdeal.Gen.W6 (F := Ideal) m ρ c)).trans
      (congrArg₂ (mulf (F := Ideal) (s := Cert.KernelIdeal.S100000x64) (φ := .f32)) ((Cert.KernelIdeal.Keep.toEnd_6 m ρ c Cert.KernelIdeal.main_v4 (by decide +kernel)).trans hh)
        (mlp1_agree_scale_L0 (Cert.KernelIdeal.Gen.W6 (F := Ideal) m ρ c) (R2 m' c) a6))
  have k12 : (Cert.KernelIdeal.Gen.V7 (F := Ideal) m ρ c Cert.KernelIdeal.main_v12 : Vec Ideal Cert.KernelIdeal.S100000x64 .f32) = RV m' c Cert.ReferenceIdeal.main_v31 :=
    (Cert.KernelIdeal.Keep.toEnd_7 m ρ c Cert.KernelIdeal.main_v12 (by decide +kernel)).trans ha
  have k19 : (Cert.KernelIdeal.Gen.V7 (F := Ideal) m ρ c Cert.KernelIdeal.main_v19 : Vec Ideal Cert.KernelIdeal.S64x64 .f32) = R3 m' c (Proc.devRef .tc Cert.ReferenceIdeal.main_v39) :=
    mlp1_agree_w_L0 (Cert.KernelIdeal.Gen.W6 (F := Ideal) m ρ c) (R2 m' c) a7
  have k22 : (Cert.KernelIdeal.Gen.V7 (F := Ideal) m ρ c Cert.KernelIdeal.main_v22 : Vec Ideal Cert.KernelIdeal.S1x64 .f32)
      = shapeCast Cert.KernelIdeal.S1x64 (R3 m' c (Proc.devRef .tc Cert.ReferenceIdeal.main_v42) : Vec Ideal Cert.KernelIdeal.S64 .f32) Cert.KernelIdeal.Facts₀.shapeCasts_S64_S1x64 :=
    (mlp1_readK_bias_L0 (Cert.KernelIdeal.Gen.W6 (F := Ideal) m ρ c)).trans
      (congrArg (fun b : Vec Ideal Cert.KernelIdeal.S64 .f32 => shapeCast Cert.KernelIdeal.S1x64 b Cert.KernelIdeal.Facts₀.shapeCasts_S64_S1x64)
        (mlp1_agree_b_L0 (Cert.KernelIdeal.Gen.W6 (F := Ideal) m ρ c) (R2 m' c) a8))
  -- the reference's side: its operations' result over the same pieces
  have r45 : (RV m' c Cert.ReferenceIdeal.main_v45 : Vec Ideal Cert.ReferenceIdeal.S100000x64 .f32)
      = addf (F := Ideal) (s := Cert.ReferenceIdeal.S100000x64) (φ := .f32)
          (Host.dotGeneral (F := Ideal) (φ₁ := .f32) (φ₂ := .f32) Cert.ReferenceIdeal.dot_S100000x64_S64x64_S100000x64_1_0_0_1_n_n none
            (addf (F := Ideal) (s := Cert.ReferenceIdeal.S100000x64) (φ := .f32)
              (mulf (F := Ideal) (s := Cert.ReferenceIdeal.S100000x64) (φ := .f32) (R3 m' c (Proc.devRef .tc Cert.ReferenceIdeal.main_v35)) (RV m' c Cert.ReferenceIdeal.main_v10))
              (RV m' c Cert.ReferenceIdeal.main_v31))
            (R3 m' c (Proc.devRef .tc Cert.ReferenceIdeal.main_v39) : Vec Ideal Cert.ReferenceIdeal.S64x64 .f32))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1
              (R3 m' c (Proc.devRef .tc Cert.ReferenceIdeal.main_v42) : Vec Ideal Cert.ReferenceIdeal.S64 .f32))) := by
    have e10 : (R2 m' c (Proc.devRef .tc Cert.ReferenceIdeal.main_v10) : Vec Ideal Cert.ReferenceIdeal.S100000x64 .f32) = RV m' c Cert.ReferenceIdeal.main_v10 :=
      Cert.ReferenceIdeal.Keep.toEnd_2 m' c Cert.ReferenceIdeal.main_v10 (by decide +kernel)
    have e31 : (StableHlo.after (Cert.ReferenceIdeal.Ops.hostOps0_2 (F := Ideal)) (R2 m' c) (Proc.devRef .tc Cert.ReferenceIdeal.main_v31) : Vec Ideal Cert.ReferenceIdeal.S100000x64 .f32)
        = RV m' c Cert.ReferenceIdeal.main_v31 :=
      Cert.ReferenceIdeal.Keep.toEnd_3 m' c Cert.ReferenceIdeal.main_v31 (by decide +kernel)
    refine (Cert.ReferenceIdeal.Keep.toEnd_3 m' c Cert.ReferenceIdeal.main_v45 (by decide +kernel)).symm.trans ((mlp1_readR_y_L0 (R2 m' c)).trans ?_)
    rw [e10, e31]
  rw [k40, k17, k12, k19, k22, r45]
  exact mlp1_join _ _ _ _ _ _ _ _

end Cert.Bridge

end
-- ==== Proof.Bridge.Mlp1_L1.lean ====
/- The first linear layer of one GINE layer, on both sides. The kernel program computes it in one pallas_call: row
   block `t` of the result is row block `t` of (scaled features + aggregated messages) times the 64×64 weights, plus
   the one-row bias laid along every row. The reference computes the same entries on the host: the scale times the
   features, plus the aggregate, a `dot_general` with the weights, plus the bias vector broadcast along the rows.
   Here: the pallas_call's result array as the layer's function of the four arrays it reads (`mlp1_value5`: each
   stored entry read at an index, each input block read as rows of its array, the row blocks covering the array); what
   the host operations before it leave on either side, read from any contents; the scale, the weights and the bias
   vector, which both programs cut from the same three arguments by the same operations; and the two results equal
   when the features and the aggregate are (`corr_z1_1`), by the law of Mlp1Spec.lean. -/
import proofs.«417278_j53197464928922_1_alg».proof.Proof.Setup
import proofs.«417278_j53197464928922_1_alg».proof.Proof.KKeep
import proofs.«417278_j53197464928922_1_alg».proof.Proof.RKeep
import proofs.«417278_j53197464928922_1_alg».proof.Proof.Bridge.Mlp1Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.Bridge

open Idealize.ShloMosaic Idealize.ShloMosaic.TcCoe Idealize.SL.Sem
open Idealize.ShloMosaic.ValueIdx
open Idealize.ShloMosaic.Pipeline (Dat)
open scoped BigOperators

/-! ## The pallas_call's result array -/

section Region

open Cert.KernelIdeal Cert.KernelIdeal.Gen

/-- The body's stored value at an entry of its row block: the block's row of the two inputs added, against the
    weights' column, plus the bias row's entry. -/
theorem mlp1_pay_apply_L1 (x0 x1 : Vec Ideal S5000x64 .f32) (x2 : Vec Ideal S64x64 .f32)
    (x3 : Vec Ideal S1x64 .f32) (p : Fin 5000) (q : Fin 64) :
    k5_pay1 (F := Ideal) x0 x1 x2 x3 (ix2 p q) = mlp1Entry x0 x1 x2 x3 p q := by
  unfold k5_pay1 mlp1Entry
  simp only [shapeCast_self]
  rw [addf_apply, matmul_zero_eq_dotGeneral]
  refine congrArg₂ (· + ·) ?_ ?_
  · exact StackMember.dotGeneral_plain_apply none _ _ p q
  · exact broadcastTo_1b_ab_apply _ _ p q

/-- The same with the blocks' entries named: where the two input blocks' row `p` is row `r` of the arrays and the
    weights' and bias's blocks are the arrays, the stored entry is the layer's entry `(r, q)`. -/
theorem mlp1_point_L1 (sh agg : Vec Ideal S100000x64 .f32) (W1 : Vec Ideal S64x64 .f32) (b1 : Vec Ideal S1x64 .f32)
    (x0 x1 : Vec Ideal S5000x64 .f32) (x2 : Vec Ideal S64x64 .f32) (x3 : Vec Ideal S1x64 .f32)
    (p : Fin 5000) (q : Fin 64) (i : S100000x64.Idx) (r : Fin 100000)
    (hr : (i 0).val = r.val) (hq : (i 1).val = q.val)
    (h0 : ∀ k : Fin 64, x0 (ix2 p k) = sh (ix2 r k)) (h1 : ∀ k : Fin 64, x1 (ix2 p k) = agg (ix2 r k))
    (h2 : ∀ k : Fin 64, x2 (ix2 k q) = W1 (ix2 k q)) (h3 : x3 (ix2 (0 : Fin 1) q) = b1 (ix2 (0 : Fin 1) q)) :
    k5_pay1 (F := Ideal) x0 x1 x2 x3 (ix2 p q) = mlp1G sh agg W1 b1 i := by
  have hi : i = ix2 r q := by
    rw [eq_ix2 i]
    funext a
    match a with
    | ⟨0, _⟩ => exact Fin.ext hr
    | ⟨1, _⟩ => exact Fin.ext hq
  rw [hi, mlp1G_ix2, mlp1_pay_apply_L1]
  unfold mlp1Entry
  rw [h3]
  refine congrArg (· + b1 (ix2 (0 : Fin 1) q)) (Finset.sum_congr rfl fun k _ => ?_)
  rw [h0 k, h1 k, h2 k]

/-- The printed index maps over the grid: the two row-blocked inputs move with the output's row block, the weights
    and the bias stay at block (0, 0), the output's row block is the point's number. -/
theorem mlp1_idx_L1 : ∀ t : Fin cfg5.N,
    win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 ∧ t.val ≤ 19 :=
  (by decide +kernel : ∀ t : Fin grid5.N, _)

variable (V : (c : Dev nD) → (b : Ref sig .tc) → Buf (Elt Ideal) ((c : Thread nD τ).loc b))

/-- Entry `(p, k)` of input window 0's block at point `t` is entry `(r, k)` of its array, `r` the block's row offset
    plus `p`. -/
theorem mlp1_iblk_sh_L1 (c : Dev nD) (t : Fin cfg5.N) (p : Fin 5000) (k : Fin 64) (r : Fin 100000)
    (hr : r.val = win5_0.index t (0 : Fin 2) * 5000 + p.val) (h1 : win5_0.index t (1 : Fin 2) = 0) :
    (iblk5 V c 0 t : Vec Ideal S5000x64 .f32) (ix2 p k) = (V c main_v65 : Vec Ideal S100000x64 .f32) (ix2 r k) := by
  unfold iblk5
  rw [View.read_apply]
  show V c main_v65 _ = V c main_v65 _
  refine congrArg (V c main_v65) ?_
  funext a
  apply Fin.ext
  match a with
  | ⟨0, _⟩ => show win5_0.index t (0 : Fin 2) * 5000 + 1 * p.val = r.val; omega
  | ⟨1, _⟩ => show win5_0.index t (1 : Fin 2) * 64 + 1 * k.val = k.val; omega

/-- The same for input window 1. -/
theorem mlp1_iblk_agg_L1 (c : Dev nD) (t : Fin cfg5.N) (p : Fin 5000) (k : Fin 64) (r : Fin 100000)
    (hr : r.val = win5_1.index t (0 : Fin 2) * 5000 + p.val) (h1 : win5_1.index t (1 : Fin 2) = 0) :
    (iblk5 V c 1 t : Vec Ideal S5000x64 .f32) (ix2 p k) = (V c main_v60 : Vec Ideal S100000x64 .f32) (ix2 r k) := by
  unfold iblk5
  rw [View.read_apply]
  show V c main_v60 _ = V c main_v60 _
  refine congrArg (V c main_v60) ?_
  funext a
  apply Fin.ext
  match a with
  | ⟨0, _⟩ => show win5_1.index t (0 : Fin 2) * 5000 + 1 * p.val = r.val; omega
  | ⟨1, _⟩ => show win5_1.index t (1 : Fin 2) * 64 + 1 * k.val = k.val; omega

/-- Input window 2's block is its whole array. -/
theorem mlp1_iblk_w_L1 (c : Dev nD) (t : Fin cfg5.N) (k q : Fin 64)
    (h0 : win5_2.index t (0 : Fin 2) = 0) (h1 : win5_2.index t (1 : Fin 2) = 0) :
    (iblk5 V c 2 t : Vec Ideal S64x64 .f32) (ix2 k q) = (V c main_v67 : Vec Ideal S64x64 .f32) (ix2 k q) := by
  unfold iblk5
  rw [View.read_apply]
  show V c main_v67 _ = V c main_v67 _
  refine congrArg (V c main_v67) ?_
  funext a
  apply Fin.ext
  match a with
  | ⟨0, _⟩ => show win5_2.index t (0 : Fin 2) * 64 + 1 * k.val = k.val; omega
  | ⟨1, _⟩ => show win5_2.index t (1 : Fin 2) * 64 + 1 * q.val = q.val; omega

/-- Input window 3's block is its whole array. -/
theorem mlp1_iblk_b_L1 (c : Dev nD) (t : Fin cfg5.N) (u : Fin 1) (q : Fin 64)
    (h0 : win5_3.index t (0 : Fin 2) = 0) (h1 : win5_3.index t (1 : Fin 2) = 0) :
    (iblk5 V c 3 t : Vec Ideal S1x64 .f32) (ix2 u q) = (V c main_v70 : Vec Ideal S1x64 .f32) (ix2 u q) := by
  unfold iblk5
  rw [View.read_apply]
  show V c main_v70 _ = V c main_v70 _
  refine congrArg (V c main_v70) ?_
  funext a
  apply Fin.ext
  match a with
  | ⟨0, _⟩ => show win5_3.index t (0 : Fin 2) * 1 + 1 * u.val = u.val; omega
  | ⟨1, _⟩ => show win5_3.index t (1 : Fin 2) * 64 + 1 * q.val = q.val; omega

/-- What point `t` writes back is block `t` of the layer's function of the four arrays as the pallas_call finds them. -/
theorem mlp1_flushed_L1 (c : Dev nD) (t : Fin cfg5.N) :
    (dat5 (F := Ideal) V c).flushed 4 t
      = ((cfg5.win 4).blk t).view.read (Elt Ideal) (mlp1G (n := 100000) (V c main_v65) (V c main_v60) (V c main_v67) (V c main_v70)) := by
  show (cfg5.win 4).cut (grid5.coords t) ((dat5 (F := Ideal) V c).after 4 t) = _
  rw [after5_4]
  unfold out5_4
  rw [View.canon_unit_zero mlp1_hz]
  simp only [View.ld_unit_zero (S := S5000x64) mlp1_hz, View.ld_unit_zero (S := S64x64) mlp1_hz, View.ld_unit_zero (S := S1x64) mlp1_hz]
  obtain ⟨e00, e01, e10, e11, e20, e21, e30, e31, e40, e41, e4b⟩ := mlp1_idx_L1 t
  refine mlp1_ext_ix2 (n0 := 5000) (n1 := 64) _ _ fun p q => ?_
  have hp : p.val < 5000 := p.isLt
  show k5_pay1 (F := Ideal) (iblk5 V c 0 t) (iblk5 V c 1 t) (iblk5 V c 2 t) (iblk5 V c 3 t) (ix2 p q)
      = mlp1G (n := 100000) (V c main_v65) (V c main_v60) (V c main_v67) (V c main_v70) (((cfg5.win 4).blk t).view.emb (ix2 p q))
  refine mlp1_point_L1 (V c main_v65) (V c main_v60) (V c main_v67) (V c main_v70)
    (iblk5 V c 0 t) (iblk5 V c 1 t) (iblk5 V c 2 t) (iblk5 V c 3 t) p q
    (((cfg5.win 4).blk t).view.emb (ix2 p q)) ⟨win5_4.index t (0 : Fin 2) * 5000 + p.val, by omega⟩ ?_ ?_ ?_ ?_ ?_ ?_
  · show win5_4.index t (0 : Fin 2) * 5000 + 1 * p.val = win5_4.index t (0 : Fin 2) * 5000 + p.val; omega
  · show win5_4.index t (1 : Fin 2) * 64 + 1 * q.val = q.val; omega
  · exact fun k => mlp1_iblk_sh_L1 V c t p k _
      (by show win5_4.index t (0 : Fin 2) * 5000 + p.val = win5_0.index t (0 : Fin 2) * 5000 + p.val; omega) e01
  · exact fun k => mlp1_iblk_agg_L1 V c t p k _
      (by show win5_4.index t (0 : Fin 2) * 5000 + p.val = win5_1.index t (0 : Fin 2) * 5000 + p.val; omega) e11
  · exact fun k => mlp1_iblk_w_L1 V c t k q e20 e21
  · exact mlp1_iblk_b_L1 V c t 0 q e30 e31

/-- An index of the result array is in point `t`'s block iff each coordinate is in the block's range on its axis. -/
theorem mlp1_mem_blk_L1 (t : Fin cfg5.N) (i : S100000x64.Idx) :
    i ∈ ((cfg5.win 4).blk t).view.set
      ↔ ∀ a : Fin 2, win5_4.index t a * S5000x64.size a ≤ (i a).val ∧ (i a).val < win5_4.index t a * S5000x64.size a + S5000x64.size a := by
  show i ∈ ((View.whole main_v88).slice (win5_4.rect t)).set ↔ _
  rw [View.set_slice_whole, Rect.mem_set_unit]
  exact Iff.rfl

/-- Every row of the result array is in the block of the point numbered by the row's block of 5000. -/
theorem mlp1_cover_L1 (i : S100000x64.Idx) :
    ∃ t : Fin cfg5.N, (cfg5.win 4).flush t = true ∧ i ∈ ((cfg5.win 4).blk t).view.set := by
  have hi0 : (i 0).val < 100000 := idx2_lt0 i
  have hi1 : (i 1).val < 64 := idx2_lt1 i
  obtain ⟨t, ht⟩ : ∃ t : Fin cfg5.N, t.val = (i 0).val / 5000 :=
    ⟨⟨(i 0).val / 5000, by show (i 0).val / 5000 < grid5.N; rw [N_5]; omega⟩, rfl⟩
  obtain ⟨e00, e01, e10, e11, e20, e21, e30, e31, e40, e41, e4b⟩ := mlp1_idx_L1 t
  refine ⟨t, flush5_4 t, ?_⟩
  rw [mlp1_mem_blk_L1]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- THE RESULT ARRAY of the pallas_call, from any contents `V` at its entry: the layer's function of the four arrays
    it reads. -/
theorem mlp1_value5 (c : Dev nD) :
    (dat5 (F := Ideal) V c).arrAt 4 cfg5.N = mlp1G (n := 100000) (V c main_v65) (V c main_v60) (V c main_v67) (V c main_v70) :=
  (dat5 (F := Ideal) V c).arrAt_eq_of_cover 4 (mlp1G (n := 100000) (V c main_v65) (V c main_v60) (V c main_v67) (V c main_v70))
    (fun t _ => mlp1_flushed_L1 V c t) mlp1_cover_L1

end Region

/-! ## The host operations around the pallas_call, read from any contents -/

/-- The kernel program's scaled features: the features as the operations find them times the scale the same
    operations build. -/
theorem mlp1_readK_sh_L1 (W : Valuation Cert.KernelIdeal.τ Cert.KernelIdeal.sig (Elt Ideal)) :
    (StableHlo.after (Cert.KernelIdeal.Gen.hostOps5 (F := Ideal)) W (Proc.devRef .tc Cert.KernelIdeal.main_v65) : Vec Ideal Cert.KernelIdeal.S100000x64 .f32)
      = mulf (F := Ideal) (s := Cert.KernelIdeal.S100000x64) (φ := .f32) (W (Proc.devRef .tc Cert.KernelIdeal.main_v52))
          (StableHlo.after (Cert.KernelIdeal.Gen.hostOps5 (F := Ideal)) W (Proc.devRef .tc Cert.KernelIdeal.main_v64)) := by
  after_results_simp
  try rfl

/-- The kernel program's one-row bias: the bias vector the same operations cut out, reshaped to one row. -/
theorem mlp1_readK_bias_L1 (W : Valuation Cert.KernelIdeal.τ Cert.KernelIdeal.sig (Elt Ideal)) :
    (StableHlo.after (Cert.KernelIdeal.Gen.hostOps5 (F := Ideal)) W (Proc.devRef .tc Cert.KernelIdeal.main_v70) : Vec Ideal Cert.KernelIdeal.S1x64 .f32)
      = shapeCast Cert.KernelIdeal.S1x64
          (StableHlo.after (Cert.KernelIdeal.Gen.hostOps5 (F := Ideal)) W (Proc.devRef .tc Cert.KernelIdeal.main_v69) : Vec Ideal Cert.KernelIdeal.S64 .f32)
          Cert.KernelIdeal.Facts₀.shapeCasts_S64_S1x64 := by
  after_results_simp
  try rfl

/-- The reference's first linear layer: the scale times the features plus the aggregate, the product with the
    weights, plus the bias vector laid along every row; the scale, the aggregate, the weights and the bias vector as
    the same operations leave them. -/
theorem mlp1_readR_y_L1 (W : Valuation Cert.ReferenceIdeal.τ Cert.ReferenceIdeal.sig (Elt Ideal)) :
    (StableHlo.after (Cert.ReferenceIdeal.Ops.hostOps0_12 (F := Ideal)) W (Proc.devRef .tc Cert.ReferenceIdeal.main_v136) : Vec Ideal Cert.ReferenceIdeal.S100000x64 .f32)
      = addf (F := Ideal) (s := Cert.ReferenceIdeal.S100000x64) (φ := .f32)
          (Host.dotGeneral (F := Ideal) (φ₁ := .f32) (φ₂ := .f32) Cert.ReferenceIdeal.dot_S100000x64_S64x64_S100000x64_1_0_0_1_n_n none
            (addf (F := Ideal) (s := Cert.ReferenceIdeal.S100000x64) (φ := .f32)
              (mulf (F := Ideal) (s := Cert.ReferenceIdeal.S100000x64) (φ := .f32) (StableHlo.after (Cert.ReferenceIdeal.Ops.hostOps0_12 (F := Ideal)) W (Proc.devRef .tc Cert.ReferenceIdeal.main_v126) : Vec Ideal Cert.ReferenceIdeal.S100000x64 .f32)
                (W (Proc.devRef .tc Cert.ReferenceIdeal.main_v101) : Vec Ideal Cert.ReferenceIdeal.S100000x64 .f32))
              (StableHlo.after (Cert.ReferenceIdeal.Ops.hostOps0_12 (F := Ideal)) W (Proc.devRef .tc Cert.ReferenceIdeal.main_v122) : Vec Ideal Cert.ReferenceIdeal.S100000x64 .f32))
            (StableHlo.after (Cert.ReferenceIdeal.Ops.hostOps0_12 (F := Ideal)) W (Proc.devRef .tc Cert.ReferenceIdeal.main_v130) : Vec Ideal Cert.ReferenceIdeal.S64x64 .f32))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1
              (StableHlo.after (Cert.ReferenceIdeal.Ops.hostOps0_12 (F := Ideal)) W (Proc.devRef .tc Cert.ReferenceIdeal.main_v133) : Vec Ideal Cert.ReferenceIdeal.S64 .f32))) := by
  after_results_simp
  try rfl

/-! ## The pieces both programs cut from the same arguments -/

/-- The scale `1 + eps` broadcast over the features: the same operations of the same argument on both sides. -/
theorem mlp1_agree_scale_L1 (WK : Valuation Cert.KernelIdeal.τ Cert.KernelIdeal.sig (Elt Ideal)) (WR : Valuation Cert.ReferenceIdeal.τ Cert.ReferenceIdeal.sig (Elt Ideal))
    (h6 : (WK (Proc.devRef .tc Cert.KernelIdeal.main_arg6) : Vec Ideal Cert.KernelIdeal.S4 .f32) = WR (Proc.devRef .tc Cert.ReferenceIdeal.main_arg6)) :
    (StableHlo.after (Cert.KernelIdeal.Gen.hostOps5 (F := Ideal)) WK (Proc.devRef .tc Cert.KernelIdeal.main_v64) : Vec Ideal Cert.KernelIdeal.S100000x64 .f32)
      = StableHlo.after (Cert.ReferenceIdeal.Ops.hostOps0_12 (F := Ideal)) WR (Proc.devRef .tc Cert.ReferenceIdeal.main_v126) := by
  after_results_simp
  rw [h6]
  try rfl

/-- The layer's 64×64 weights. -/
theorem mlp1_agree_w_L1 (WK : Valuation Cert.KernelIdeal.τ Cert.KernelIdeal.sig (Elt Ideal)) (WR : Valuation Cert.ReferenceIdeal.τ Cert.ReferenceIdeal.sig (Elt Ideal))
    (h7 : (WK (Proc.devRef .tc Cert.KernelIdeal.main_arg7) : Vec Ideal Cert.KernelIdeal.S4x64x64 .f32) = WR (Proc.devRef .tc Cert.ReferenceIdeal.main_arg7)) :
    (StableHlo.after (Cert.KernelIdeal.Gen.hostOps5 (F := Ideal)) WK (Proc.devRef .tc Cert.KernelIdeal.main_v67) : Vec Ideal Cert.KernelIdeal.S64x64 .f32)
      = StableHlo.after (Cert.ReferenceIdeal.Ops.hostOps0_12 (F := Ideal)) WR (Proc.devRef .tc Cert.ReferenceIdeal.main_v130) := by
  after_results_simp
  rw [h7]
  try rfl

/-- The layer's bias vector. -/
theorem mlp1_agree_b_L1 (WK : Valuation Cert.KernelIdeal.τ Cert.KernelIdeal.sig (Elt Ideal)) (WR : Valuation Cert.ReferenceIdeal.τ Cert.ReferenceIdeal.sig (Elt Ideal))
    (h8 : (WK (Proc.devRef .tc Cert.KernelIdeal.main_arg8) : Vec Ideal Cert.KernelIdeal.S4x64 .f32) = WR (Proc.devRef .tc Cert.ReferenceIdeal.main_arg8)) :
    (StableHlo.after (Cert.KernelIdeal.Gen.hostOps5 (F := Ideal)) WK (Proc.devRef .tc Cert.KernelIdeal.main_v69) : Vec Ideal Cert.KernelIdeal.S64 .f32)
      = StableHlo.after (Cert.ReferenceIdeal.Ops.hostOps0_12 (F := Ideal)) WR (Proc.devRef .tc Cert.ReferenceIdeal.main_v133) := by
  after_results_simp
  rw [h8]
  try rfl

/-! ## The correspondence -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The first linear layer's results agree when the features and the aggregated messages do. -/
theorem corr_z1_1 (hag : Agree m m') (c : Dev Cert.KernelIdeal.nD)
    (hh : (KV m ρ c Cert.KernelIdeal.main_v52 : Vec Ideal Cert.KernelIdeal.S100000x64 .f32) = RV m' c Cert.ReferenceIdeal.main_v101)
    (ha : (KV m ρ c Cert.KernelIdeal.main_v60 : Vec Ideal Cert.KernelIdeal.S100000x64 .f32) = RV m' c Cert.ReferenceIdeal.main_v122) :
    (KV m ρ c Cert.KernelIdeal.main_v88 : Vec Ideal Cert.KernelIdeal.S100000x64 .f32) = RV m' c Cert.ReferenceIdeal.main_v136 := by
  -- the three arguments both programs cut their pieces from, as each program finds them
  have a6 : (Cert.KernelIdeal.Gen.W18 (F := Ideal) m ρ c (Proc.devRef .tc Cert.KernelIdeal.main_arg6) : Vec Ideal Cert.KernelIdeal.S4 .f32)
      = R12 m' c (Proc.devRef .tc Cert.ReferenceIdeal.main_arg6) :=
    ((Cert.KernelIdeal.Keep.toEnd_18 m ρ c Cert.KernelIdeal.main_arg6 (by decide +kernel)).trans (Cert.KernelIdeal.Gen.W52_main_arg6 m ρ c)).trans
      ((hag c).2.2.2.2.2.2.1.symm.trans
        ((Cert.ReferenceIdeal.Keep.arg_kept_6 m' c).symm.trans (Cert.ReferenceIdeal.Keep.toEnd_12 m' c Cert.ReferenceIdeal.main_arg6 (by decide +kernel)).symm))
  have a7 : (Cert.KernelIdeal.Gen.W18 (F := Ideal) m ρ c (Proc.devRef .tc Cert.KernelIdeal.main_arg7) : Vec Ideal Cert.KernelIdeal.S4x64x64 .f32)
      = R12 m' c (Proc.devRef .tc Cert.ReferenceIdeal.main_arg7) :=
    ((Cert.KernelIdeal.Keep.toEnd_18 m ρ c Cert.KernelIdeal.main_arg7 (by decide +kernel)).trans (Cert.KernelIdeal.Gen.W52_main_arg7 m ρ c)).trans
      ((hag c).2.2.2.2.2.2.2.1.symm.trans
        ((Cert.ReferenceIdeal.Keep.arg_kept_7 m' c).symm.trans (Cert.ReferenceIdeal.Keep.toEnd_12 m' c Cert.ReferenceIdeal.main_arg7 (by decide +kernel)).symm))
  have a8 : (Cert.KernelIdeal.Gen.W18 (F := Ideal) m ρ c (Proc.devRef .tc Cert.KernelIdeal.main_arg8) : Vec Ideal Cert.KernelIdeal.S4x64 .f32)
      = R12 m' c (Proc.devRef .tc Cert.ReferenceIdeal.main_arg8) :=
    ((Cert.KernelIdeal.Keep.toEnd_18 m ρ c Cert.KernelIdeal.main_arg8 (by decide +kernel)).trans (Cert.KernelIdeal.Gen.W52_main_arg8 m ρ c)).trans
      ((hag c).2.2.2.2.2.2.2.2.1.symm.trans
        ((Cert.ReferenceIdeal.Keep.arg_kept_8 m' c).symm.trans (Cert.ReferenceIdeal.Keep.toEnd_12 m' c Cert.ReferenceIdeal.main_arg8 (by decide +kernel)).symm))
  -- the kernel program's side: the pallas_call's result from the four arrays it reads
  have k40 : (KV m ρ c Cert.KernelIdeal.main_v88 : Vec Ideal Cert.KernelIdeal.S100000x64 .f32)
      = mlp1G (n := 100000) (Cert.KernelIdeal.Gen.V19 (F := Ideal) m ρ c Cert.KernelIdeal.main_v65) (Cert.KernelIdeal.Gen.V19 (F := Ideal) m ρ c Cert.KernelIdeal.main_v60)
          (Cert.KernelIdeal.Gen.V19 (F := Ideal) m ρ c Cert.KernelIdeal.main_v67) (Cert.KernelIdeal.Gen.V19 (F := Ideal) m ρ c Cert.KernelIdeal.main_v70) :=
    (Cert.KernelIdeal.Keep.toEnd_20 m ρ c Cert.KernelIdeal.main_v88 (by decide +kernel)).symm.trans
      ((Cert.KernelIdeal.Gen.W20_arr m ρ c 4).trans (mlp1_value5 (Cert.KernelIdeal.Gen.V19 (F := Ideal) m ρ) c))
  have k17 : (Cert.KernelIdeal.Gen.V19 (F := Ideal) m ρ c Cert.KernelIdeal.main_v65 : Vec Ideal Cert.KernelIdeal.S100000x64 .f32)
      = mulf (F := Ideal) (s := Cert.KernelIdeal.S100000x64) (φ := .f32) (RV m' c Cert.ReferenceIdeal.main_v101) (R13 m' c (Proc.devRef .tc Cert.ReferenceIdeal.main_v126)) :=
    (mlp1_readK_sh_L1 (Cert.KernelIdeal.Gen.W18 (F := Ideal) m ρ c)).trans
      (congrArg₂ (mulf (F := Ideal) (s := Cert.KernelIdeal.S100000x64) (φ := .f32)) ((Cert.KernelIdeal.Keep.toEnd_18 m ρ c Cert.KernelIdeal.main_v52 (by decide +kernel)).trans hh)
        (mlp1_agree_scale_L1 (Cert.KernelIdeal.Gen.W18 (F := Ideal) m ρ c) (R12 m' c) a6))
  have k12 : (Cert.KernelIdeal.Gen.V19 (F := Ideal) m ρ c Cert.KernelIdeal.main_v60 : Vec Ideal Cert.KernelIdeal.S100000x64 .f32) = RV m' c Cert.ReferenceIdeal.main_v122 :=
    (Cert.KernelIdeal.Keep.toEnd_19 m ρ c Cert.KernelIdeal.main_v60 (by decide +kernel)).trans ha
  have k19 : (Cert.KernelIdeal.Gen.V19 (F := Ideal) m ρ c Cert.KernelIdeal.main_v67 : Vec Ideal Cert.KernelIdeal.S64x64 .f32) = R13 m' c (Proc.devRef .tc Cert.ReferenceIdeal.main_v130) :=
    mlp1_agree_w_L1 (Cert.KernelIdeal.Gen.W18 (F := Ideal) m ρ c) (R12 m' c) a7
  have k22 : (Cert.KernelIdeal.Gen.V19 (F := Ideal) m ρ c Cert.KernelIdeal.main_v70 : Vec Ideal Cert.KernelIdeal.S1x64 .f32)
      = shapeCast Cert.KernelIdeal.S1x64 (R13 m' c (Proc.devRef .tc Cert.ReferenceIdeal.main_v133) : Vec Ideal Cert.KernelIdeal.S64 .f32) Cert.KernelIdeal.Facts₀.shapeCasts_S64_S1x64 :=
    (mlp1_readK_bias_L1 (Cert.KernelIdeal.Gen.W18 (F := Ideal) m ρ c)).trans
      (congrArg (fun b : Vec Ideal Cert.KernelIdeal.S64 .f32 => shapeCast Cert.KernelIdeal.S1x64 b Cert.KernelIdeal.Facts₀.shapeCasts_S64_S1x64)
        (mlp1_agree_b_L1 (Cert.KernelIdeal.Gen.W18 (F := Ideal) m ρ c) (R12 m' c) a8))
  -- the reference's side: its operations' result over the same pieces
  have r45 : (RV m' c Cert.ReferenceIdeal.main_v136 : Vec Ideal Cert.ReferenceIdeal.S100000x64 .f32)
      = addf (F := Ideal) (s := Cert.ReferenceIdeal.S100000x64) (φ := .f32)
          (Host.dotGeneral (F := Ideal) (φ₁ := .f32) (φ₂ := .f32) Cert.ReferenceIdeal.dot_S100000x64_S64x64_S100000x64_1_0_0_1_n_n none
            (addf (F := Ideal) (s := Cert.ReferenceIdeal.S100000x64) (φ := .f32)
              (mulf (F := Ideal) (s := Cert.ReferenceIdeal.S100000x64) (φ := .f32) (R13 m' c (Proc.devRef .tc Cert.ReferenceIdeal.main_v126)) (RV m' c Cert.ReferenceIdeal.main_v101))
              (RV m' c Cert.ReferenceIdeal.main_v122))
            (R13 m' c (Proc.devRef .tc Cert.ReferenceIdeal.main_v130) : Vec Ideal Cert.ReferenceIdeal.S64x64 .f32))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1
              (R13 m' c (Proc.devRef .tc Cert.ReferenceIdeal.main_v133) : Vec Ideal Cert.ReferenceIdeal.S64 .f32))) := by
    have e10 : (R12 m' c (Proc.devRef .tc Cert.ReferenceIdeal.main_v101) : Vec Ideal Cert.ReferenceIdeal.S100000x64 .f32) = RV m' c Cert.ReferenceIdeal.main_v101 :=
      Cert.ReferenceIdeal.Keep.toEnd_12 m' c Cert.ReferenceIdeal.main_v101 (by decide +kernel)
    have e31 : (StableHlo.after (Cert.ReferenceIdeal.Ops.hostOps0_12 (F := Ideal)) (R12 m' c) (Proc.devRef .tc Cert.ReferenceIdeal.main_v122) : Vec Ideal Cert.ReferenceIdeal.S100000x64 .f32)
        = RV m' c Cert.ReferenceIdeal.main_v122 :=
      Cert.ReferenceIdeal.Keep.toEnd_13 m' c Cert.ReferenceIdeal.main_v122 (by decide +kernel)
    refine (Cert.ReferenceIdeal.Keep.toEnd_13 m' c Cert.ReferenceIdeal.main_v136 (by decide +kernel)).symm.trans ((mlp1_readR_y_L1 (R12 m' c)).trans ?_)
    rw [e10, e31]
  rw [k40, k17, k12, k19, k22, r45]
  exact mlp1_join _ _ _ _ _ _ _ _

end Cert.Bridge

end
-- ==== Proof.Bridge.Mlp1_L2.lean ====
/- The first linear layer of one GINE layer, on both sides. The kernel program computes it in one pallas_call: row
   block `t` of the result is row block `t` of (scaled features + aggregated messages) times the 64×64 weights, plus
   the one-row bias laid along every row. The reference computes the same entries on the host: the scale times the
   features, plus the aggregate, a `dot_general` with the weights, plus the bias vector broadcast along the rows.
   Here: the pallas_call's result array as the layer's function of the four arrays it reads (`mlp1_value9`: each
   stored entry read at an index, each input block read as rows of its array, the row blocks covering the array); what
   the host operations before it leave on either side, read from any contents; the scale, the weights and the bias
   vector, which both programs cut from the same three arguments by the same operations; and the two results equal
   when the features and the aggregate are (`corr_z1_2`), by the law of Mlp1Spec.lean. -/
import proofs.«417278_j53197464928922_1_alg».proof.Proof.Setup
import proofs.«417278_j53197464928922_1_alg».proof.Proof.KKeep
import proofs.«417278_j53197464928922_1_alg».proof.Proof.RKeep
import proofs.«417278_j53197464928922_1_alg».proof.Proof.Bridge.Mlp1Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.Bridge

open Idealize.ShloMosaic Idealize.ShloMosaic.TcCoe Idealize.SL.Sem
open Idealize.ShloMosaic.ValueIdx
open Idealize.ShloMosaic.Pipeline (Dat)
open scoped BigOperators

/-! ## The pallas_call's result array -/

section Region

open Cert.KernelIdeal Cert.KernelIdeal.Gen

/-- The body's stored value at an entry of its row block: the block's row of the two inputs added, against the
    weights' column, plus the bias row's entry. -/
theorem mlp1_pay_apply_L2 (x0 x1 : Vec Ideal S5000x64 .f32) (x2 : Vec Ideal S64x64 .f32)
    (x3 : Vec Ideal S1x64 .f32) (p : Fin 5000) (q : Fin 64) :
    k9_pay1 (F := Ideal) x0 x1 x2 x3 (ix2 p q) = mlp1Entry x0 x1 x2 x3 p q := by
  unfold k9_pay1 mlp1Entry
  simp only [shapeCast_self]
  rw [addf_apply, matmul_zero_eq_dotGeneral]
  refine congrArg₂ (· + ·) ?_ ?_
  · exact StackMember.dotGeneral_plain_apply none _ _ p q
  · exact broadcastTo_1b_ab_apply _ _ p q

/-- The same with the blocks' entries named: where the two input blocks' row `p` is row `r` of the arrays and the
    weights' and bias's blocks are the arrays, the stored entry is the layer's entry `(r, q)`. -/
theorem mlp1_point_L2 (sh agg : Vec Ideal S100000x64 .f32) (W1 : Vec Ideal S64x64 .f32) (b1 : Vec Ideal S1x64 .f32)
    (x0 x1 : Vec Ideal S5000x64 .f32) (x2 : Vec Ideal S64x64 .f32) (x3 : Vec Ideal S1x64 .f32)
    (p : Fin 5000) (q : Fin 64) (i : S100000x64.Idx) (r : Fin 100000)
    (hr : (i 0).val = r.val) (hq : (i 1).val = q.val)
    (h0 : ∀ k : Fin 64, x0 (ix2 p k) = sh (ix2 r k)) (h1 : ∀ k : Fin 64, x1 (ix2 p k) = agg (ix2 r k))
    (h2 : ∀ k : Fin 64, x2 (ix2 k q) = W1 (ix2 k q)) (h3 : x3 (ix2 (0 : Fin 1) q) = b1 (ix2 (0 : Fin 1) q)) :
    k9_pay1 (F := Ideal) x0 x1 x2 x3 (ix2 p q) = mlp1G sh agg W1 b1 i := by
  have hi : i = ix2 r q := by
    rw [eq_ix2 i]
    funext a
    match a with
    | ⟨0, _⟩ => exact Fin.ext hr
    | ⟨1, _⟩ => exact Fin.ext hq
  rw [hi, mlp1G_ix2, mlp1_pay_apply_L2]
  unfold mlp1Entry
  rw [h3]
  refine congrArg (· + b1 (ix2 (0 : Fin 1) q)) (Finset.sum_congr rfl fun k _ => ?_)
  rw [h0 k, h1 k, h2 k]

/-- The printed index maps over the grid: the two row-blocked inputs move with the output's row block, the weights
    and the bias stay at block (0, 0), the output's row block is the point's number. -/
theorem mlp1_idx_L2 : ∀ t : Fin cfg9.N,
    win9_0.index t (0 : Fin 2) = win9_4.index t (0 : Fin 2) ∧ win9_0.index t (1 : Fin 2) = 0
    ∧ win9_1.index t (0 : Fin 2) = win9_4.index t (0 : Fin 2) ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 ∧ t.val ≤ 19 :=
  (by decide +kernel : ∀ t : Fin grid9.N, _)

variable (V : (c : Dev nD) → (b : Ref sig .tc) → Buf (Elt Ideal) ((c : Thread nD τ).loc b))

/-- Entry `(p, k)` of input window 0's block at point `t` is entry `(r, k)` of its array, `r` the block's row offset
    plus `p`. -/
theorem mlp1_iblk_sh_L2 (c : Dev nD) (t : Fin cfg9.N) (p : Fin 5000) (k : Fin 64) (r : Fin 100000)
    (hr : r.val = win9_0.index t (0 : Fin 2) * 5000 + p.val) (h1 : win9_0.index t (1 : Fin 2) = 0) :
    (iblk9 V c 0 t : Vec Ideal S5000x64 .f32) (ix2 p k) = (V c main_v113 : Vec Ideal S100000x64 .f32) (ix2 r k) := by
  unfold iblk9
  rw [View.read_apply]
  show V c main_v113 _ = V c main_v113 _
  refine congrArg (V c main_v113) ?_
  funext a
  apply Fin.ext
  match a with
  | ⟨0, _⟩ => show win9_0.index t (0 : Fin 2) * 5000 + 1 * p.val = r.val; omega
  | ⟨1, _⟩ => show win9_0.index t (1 : Fin 2) * 64 + 1 * k.val = k.val; omega

/-- The same for input window 1. -/
theorem mlp1_iblk_agg_L2 (c : Dev nD) (t : Fin cfg9.N) (p : Fin 5000) (k : Fin 64) (r : Fin 100000)
    (hr : r.val = win9_1.index t (0 : Fin 2) * 5000 + p.val) (h1 : win9_1.index t (1 : Fin 2) = 0) :
    (iblk9 V c 1 t : Vec Ideal S5000x64 .f32) (ix2 p k) = (V c main_v108 : Vec Ideal S100000x64 .f32) (ix2 r k) := by
  unfold iblk9
  rw [View.read_apply]
  show V c main_v108 _ = V c main_v108 _
  refine congrArg (V c main_v108) ?_
  funext a
  apply Fin.ext
  match a with
  | ⟨0, _⟩ => show win9_1.index t (0 : Fin 2) * 5000 + 1 * p.val = r.val; omega
  | ⟨1, _⟩ => show win9_1.index t (1 : Fin 2) * 64 + 1 * k.val = k.val; omega

/-- Input window 2's block is its whole array. -/
theorem mlp1_iblk_w_L2 (c : Dev nD) (t : Fin cfg9.N) (k q : Fin 64)
    (h0 : win9_2.index t (0 : Fin 2) = 0) (h1 : win9_2.index t (1 : Fin 2) = 0) :
    (iblk9 V c 2 t : Vec Ideal S64x64 .f32) (ix2 k q) = (V c main_v115 : Vec Ideal S64x64 .f32) (ix2 k q) := by
  unfold iblk9
  rw [View.read_apply]
  show V c main_v115 _ = V c main_v115 _
  refine congrArg (V c main_v115) ?_
  funext a
  apply Fin.ext
  match a with
  | ⟨0, _⟩ => show win9_2.index t (0 : Fin 2) * 64 + 1 * k.val = k.val; omega
  | ⟨1, _⟩ => show win9_2.index t (1 : Fin 2) * 64 + 1 * q.val = q.val; omega

/-- Input window 3's block is its whole array. -/
theorem mlp1_iblk_b_L2 (c : Dev nD) (t : Fin cfg9.N) (u : Fin 1) (q : Fin 64)
    (h0 : win9_3.index t (0 : Fin 2) = 0) (h1 : win9_3.index t (1 : Fin 2) = 0) :
    (iblk9 V c 3 t : Vec Ideal S1x64 .f32) (ix2 u q) = (V c main_v118 : Vec Ideal S1x64 .f32) (ix2 u q) := by
  unfold iblk9
  rw [View.read_apply]
  show V c main_v118 _ = V c main_v118 _
  refine congrArg (V c main_v118) ?_
  funext a
  apply Fin.ext
  match a with
  | ⟨0, _⟩ => show win9_3.index t (0 : Fin 2) * 1 + 1 * u.val = u.val; omega
  | ⟨1, _⟩ => show win9_3.index t (1 : Fin 2) * 64 + 1 * q.val = q.val; omega

/-- What point `t` writes back is block `t` of the layer's function of the four arrays as the pallas_call finds them. -/
theorem mlp1_flushed_L2 (c : Dev nD) (t : Fin cfg9.N) :
    (dat9 (F := Ideal) V c).flushed 4 t
      = ((cfg9.win 4).blk t).view.read (Elt Ideal) (mlp1G (n := 100000) (V c main_v113) (V c main_v108) (V c main_v115) (V c main_v118)) := by
  show (cfg9.win 4).cut (grid9.coords t) ((dat9 (F := Ideal) V c).after 4 t) = _
  rw [after9_4]
  unfold out9_4
  rw [View.canon_unit_zero mlp1_hz]
  simp only [View.ld_unit_zero (S := S5000x64) mlp1_hz, View.ld_unit_zero (S := S64x64) mlp1_hz, View.ld_unit_zero (S := S1x64) mlp1_hz]
  obtain ⟨e00, e01, e10, e11, e20, e21, e30, e31, e40, e41, e4b⟩ := mlp1_idx_L2 t
  refine mlp1_ext_ix2 (n0 := 5000) (n1 := 64) _ _ fun p q => ?_
  have hp : p.val < 5000 := p.isLt
  show k9_pay1 (F := Ideal) (iblk9 V c 0 t) (iblk9 V c 1 t) (iblk9 V c 2 t) (iblk9 V c 3 t) (ix2 p q)
      = mlp1G (n := 100000) (V c main_v113) (V c main_v108) (V c main_v115) (V c main_v118) (((cfg9.win 4).blk t).view.emb (ix2 p q))
  refine mlp1_point_L2 (V c main_v113) (V c main_v108) (V c main_v115) (V c main_v118)
    (iblk9 V c 0 t) (iblk9 V c 1 t) (iblk9 V c 2 t) (iblk9 V c 3 t) p q
    (((cfg9.win 4).blk t).view.emb (ix2 p q)) ⟨win9_4.index t (0 : Fin 2) * 5000 + p.val, by omega⟩ ?_ ?_ ?_ ?_ ?_ ?_
  · show win9_4.index t (0 : Fin 2) * 5000 + 1 * p.val = win9_4.index t (0 : Fin 2) * 5000 + p.val; omega
  · show win9_4.index t (1 : Fin 2) * 64 + 1 * q.val = q.val; omega
  · exact fun k => mlp1_iblk_sh_L2 V c t p k _
      (by show win9_4.index t (0 : Fin 2) * 5000 + p.val = win9_0.index t (0 : Fin 2) * 5000 + p.val; omega) e01
  · exact fun k => mlp1_iblk_agg_L2 V c t p k _
      (by show win9_4.index t (0 : Fin 2) * 5000 + p.val = win9_1.index t (0 : Fin 2) * 5000 + p.val; omega) e11
  · exact fun k => mlp1_iblk_w_L2 V c t k q e20 e21
  · exact mlp1_iblk_b_L2 V c t 0 q e30 e31

/-- An index of the result array is in point `t`'s block iff each coordinate is in the block's range on its axis. -/
theorem mlp1_mem_blk_L2 (t : Fin cfg9.N) (i : S100000x64.Idx) :
    i ∈ ((cfg9.win 4).blk t).view.set
      ↔ ∀ a : Fin 2, win9_4.index t a * S5000x64.size a ≤ (i a).val ∧ (i a).val < win9_4.index t a * S5000x64.size a + S5000x64.size a := by
  show i ∈ ((View.whole main_v136).slice (win9_4.rect t)).set ↔ _
  rw [View.set_slice_whole, Rect.mem_set_unit]
  exact Iff.rfl

/-- Every row of the result array is in the block of the point numbered by the row's block of 5000. -/
theorem mlp1_cover_L2 (i : S100000x64.Idx) :
    ∃ t : Fin cfg9.N, (cfg9.win 4).flush t = true ∧ i ∈ ((cfg9.win 4).blk t).view.set := by
  have hi0 : (i 0).val < 100000 := idx2_lt0 i
  have hi1 : (i 1).val < 64 := idx2_lt1 i
  obtain ⟨t, ht⟩ : ∃ t : Fin cfg9.N, t.val = (i 0).val / 5000 :=
    ⟨⟨(i 0).val / 5000, by show (i 0).val / 5000 < grid9.N; rw [N_9]; omega⟩, rfl⟩
  obtain ⟨e00, e01, e10, e11, e20, e21, e30, e31, e40, e41, e4b⟩ := mlp1_idx_L2 t
  refine ⟨t, flush9_4 t, ?_⟩
  rw [mlp1_mem_blk_L2]
  intro a
  match a with
  | ⟨0, _⟩ => show win9_4.index t (0 : Fin 2) * 5000 ≤ (i 0).val ∧ (i 0).val < win9_4.index t (0 : Fin 2) * 5000 + 5000; omega
  | ⟨1, _⟩ => show win9_4.index t (1 : Fin 2) * 64 ≤ (i 1).val ∧ (i 1).val < win9_4.index t (1 : Fin 2) * 64 + 64; omega

/-- THE RESULT ARRAY of the pallas_call, from any contents `V` at its entry: the layer's function of the four arrays
    it reads. -/
theorem mlp1_value9 (c : Dev nD) :
    (dat9 (F := Ideal) V c).arrAt 4 cfg9.N = mlp1G (n := 100000) (V c main_v113) (V c main_v108) (V c main_v115) (V c main_v118) :=
  (dat9 (F := Ideal) V c).arrAt_eq_of_cover 4 (mlp1G (n := 100000) (V c main_v113) (V c main_v108) (V c main_v115) (V c main_v118))
    (fun t _ => mlp1_flushed_L2 V c t) mlp1_cover_L2

end Region

/-! ## The host operations around the pallas_call, read from any contents -/

/-- The kernel program's scaled features: the features as the operations find them times the scale the same
    operations build. -/
theorem mlp1_readK_sh_L2 (W : Valuation Cert.KernelIdeal.τ Cert.KernelIdeal.sig (Elt Ideal)) :
    (StableHlo.after (Cert.KernelIdeal.Gen.hostOps9 (F := Ideal)) W (Proc.devRef .tc Cert.KernelIdeal.main_v113) : Vec Ideal Cert.KernelIdeal.S100000x64 .f32)
      = mulf (F := Ideal) (s := Cert.KernelIdeal.S100000x64) (φ := .f32) (W (Proc.devRef .tc Cert.KernelIdeal.main_v100))
          (StableHlo.after (Cert.KernelIdeal.Gen.hostOps9 (F := Ideal)) W (Proc.devRef .tc Cert.KernelIdeal.main_v112)) := by
  after_results_simp
  try rfl

/-- The kernel program's one-row bias: the bias vector the same operations cut out, reshaped to one row. -/
theorem mlp1_readK_bias_L2 (W : Valuation Cert.KernelIdeal.τ Cert.KernelIdeal.sig (Elt Ideal)) :
    (StableHlo.after (Cert.KernelIdeal.Gen.hostOps9 (F := Ideal)) W (Proc.devRef .tc Cert.KernelIdeal.main_v118) : Vec Ideal Cert.KernelIdeal.S1x64 .f32)
      = shapeCast Cert.KernelIdeal.S1x64
          (StableHlo.after (Cert.KernelIdeal.Gen.hostOps9 (F := Ideal)) W (Proc.devRef .tc Cert.KernelIdeal.main_v117) : Vec Ideal Cert.KernelIdeal.S64 .f32)
          Cert.KernelIdeal.Facts₀.shapeCasts_S64_S1x64 := by
  after_results_simp
  try rfl

/-- The reference's first linear layer: the scale times the features plus the aggregate, the product with the
    weights, plus the bias vector laid along every row; the scale, the aggregate, the weights and the bias vector as
    the same operations leave them. -/
theorem mlp1_readR_y_L2 (W : Valuation Cert.ReferenceIdeal.τ Cert.ReferenceIdeal.sig (Elt Ideal)) :
    (StableHlo.after (Cert.ReferenceIdeal.Ops.hostOps0_22 (F := Ideal)) W (Proc.devRef .tc Cert.ReferenceIdeal.main_v227) : Vec Ideal Cert.ReferenceIdeal.S100000x64 .f32)
      = addf (F := Ideal) (s := Cert.ReferenceIdeal.S100000x64) (φ := .f32)
          (Host.dotGeneral (F := Ideal) (φ₁ := .f32) (φ₂ := .f32) Cert.ReferenceIdeal.dot_S100000x64_S64x64_S100000x64_1_0_0_1_n_n none
            (addf (F := Ideal) (s := Cert.ReferenceIdeal.S100000x64) (φ := .f32)
              (mulf (F := Ideal) (s := Cert.ReferenceIdeal.S100000x64) (φ := .f32) (StableHlo.after (Cert.ReferenceIdeal.Ops.hostOps0_22 (F := Ideal)) W (Proc.devRef .tc Cert.ReferenceIdeal.main_v217) : Vec Ideal Cert.ReferenceIdeal.S100000x64 .f32)
                (W (Proc.devRef .tc Cert.ReferenceIdeal.main_v192) : Vec Ideal Cert.ReferenceIdeal.S100000x64 .f32))
              (StableHlo.after (Cert.ReferenceIdeal.Ops.hostOps0_22 (F := Ideal)) W (Proc.devRef .tc Cert.ReferenceIdeal.main_v213) : Vec Ideal Cert.ReferenceIdeal.S100000x64 .f32))
            (StableHlo.after (Cert.ReferenceIdeal.Ops.hostOps0_22 (F := Ideal)) W (Proc.devRef .tc Cert.ReferenceIdeal.main_v221) : Vec Ideal Cert.ReferenceIdeal.S64x64 .f32))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1
              (StableHlo.after (Cert.ReferenceIdeal.Ops.hostOps0_22 (F := Ideal)) W (Proc.devRef .tc Cert.ReferenceIdeal.main_v224) : Vec Ideal Cert.ReferenceIdeal.S64 .f32))) := by
  after_results_simp
  try rfl

/-! ## The pieces both programs cut from the same arguments -/

/-- The scale `1 + eps` broadcast over the features: the same operations of the same argument on both sides. -/
theorem mlp1_agree_scale_L2 (WK : Valuation Cert.KernelIdeal.τ Cert.KernelIdeal.sig (Elt Ideal)) (WR : Valuation Cert.ReferenceIdeal.τ Cert.ReferenceIdeal.sig (Elt Ideal))
    (h6 : (WK (Proc.devRef .tc Cert.KernelIdeal.main_arg6) : Vec Ideal Cert.KernelIdeal.S4 .f32) = WR (Proc.devRef .tc Cert.ReferenceIdeal.main_arg6)) :
    (StableHlo.after (Cert.KernelIdeal.Gen.hostOps9 (F := Ideal)) WK (Proc.devRef .tc Cert.KernelIdeal.main_v112) : Vec Ideal Cert.KernelIdeal.S100000x64 .f32)
      = StableHlo.after (Cert.ReferenceIdeal.Ops.hostOps0_22 (F := Ideal)) WR (Proc.devRef .tc Cert.ReferenceIdeal.main_v217) := by
  after_results_simp
  rw [h6]
  try rfl

/-- The layer's 64×64 weights. -/
theorem mlp1_agree_w_L2 (WK : Valuation Cert.KernelIdeal.τ Cert.KernelIdeal.sig (Elt Ideal)) (WR : Valuation Cert.ReferenceIdeal.τ Cert.ReferenceIdeal.sig (Elt Ideal))
    (h7 : (WK (Proc.devRef .tc Cert.KernelIdeal.main_arg7) : Vec Ideal Cert.KernelIdeal.S4x64x64 .f32) = WR (Proc.devRef .tc Cert.ReferenceIdeal.main_arg7)) :
    (StableHlo.after (Cert.KernelIdeal.Gen.hostOps9 (F := Ideal)) WK (Proc.devRef .tc Cert.KernelIdeal.main_v115) : Vec Ideal Cert.KernelIdeal.S64x64 .f32)
      = StableHlo.after (Cert.ReferenceIdeal.Ops.hostOps0_22 (F := Ideal)) WR (Proc.devRef .tc Cert.ReferenceIdeal.main_v221) := by
  after_results_simp
  rw [h7]
  try rfl

/-- The layer's bias vector. -/
theorem mlp1_agree_b_L2 (WK : Valuation Cert.KernelIdeal.τ Cert.KernelIdeal.sig (Elt Ideal)) (WR : Valuation Cert.ReferenceIdeal.τ Cert.ReferenceIdeal.sig (Elt Ideal))
    (h8 : (WK (Proc.devRef .tc Cert.KernelIdeal.main_arg8) : Vec Ideal Cert.KernelIdeal.S4x64 .f32) = WR (Proc.devRef .tc Cert.ReferenceIdeal.main_arg8)) :
    (StableHlo.after (Cert.KernelIdeal.Gen.hostOps9 (F := Ideal)) WK (Proc.devRef .tc Cert.KernelIdeal.main_v117) : Vec Ideal Cert.KernelIdeal.S64 .f32)
      = StableHlo.after (Cert.ReferenceIdeal.Ops.hostOps0_22 (F := Ideal)) WR (Proc.devRef .tc Cert.ReferenceIdeal.main_v224) := by
  after_results_simp
  rw [h8]
  try rfl

/-! ## The correspondence -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The first linear layer's results agree when the features and the aggregated messages do. -/
theorem corr_z1_2 (hag : Agree m m') (c : Dev Cert.KernelIdeal.nD)
    (hh : (KV m ρ c Cert.KernelIdeal.main_v100 : Vec Ideal Cert.KernelIdeal.S100000x64 .f32) = RV m' c Cert.ReferenceIdeal.main_v192)
    (ha : (KV m ρ c Cert.KernelIdeal.main_v108 : Vec Ideal Cert.KernelIdeal.S100000x64 .f32) = RV m' c Cert.ReferenceIdeal.main_v213) :
    (KV m ρ c Cert.KernelIdeal.main_v136 : Vec Ideal Cert.KernelIdeal.S100000x64 .f32) = RV m' c Cert.ReferenceIdeal.main_v227 := by
  -- the three arguments both programs cut their pieces from, as each program finds them
  have a6 : (Cert.KernelIdeal.Gen.W30 (F := Ideal) m ρ c (Proc.devRef .tc Cert.KernelIdeal.main_arg6) : Vec Ideal Cert.KernelIdeal.S4 .f32)
      = R22 m' c (Proc.devRef .tc Cert.ReferenceIdeal.main_arg6) :=
    ((Cert.KernelIdeal.Keep.toEnd_30 m ρ c Cert.KernelIdeal.main_arg6 (by decide +kernel)).trans (Cert.KernelIdeal.Gen.W52_main_arg6 m ρ c)).trans
      ((hag c).2.2.2.2.2.2.1.symm.trans
        ((Cert.ReferenceIdeal.Keep.arg_kept_6 m' c).symm.trans (Cert.ReferenceIdeal.Keep.toEnd_22 m' c Cert.ReferenceIdeal.main_arg6 (by decide +kernel)).symm))
  have a7 : (Cert.KernelIdeal.Gen.W30 (F := Ideal) m ρ c (Proc.devRef .tc Cert.KernelIdeal.main_arg7) : Vec Ideal Cert.KernelIdeal.S4x64x64 .f32)
      = R22 m' c (Proc.devRef .tc Cert.ReferenceIdeal.main_arg7) :=
    ((Cert.KernelIdeal.Keep.toEnd_30 m ρ c Cert.KernelIdeal.main_arg7 (by decide +kernel)).trans (Cert.KernelIdeal.Gen.W52_main_arg7 m ρ c)).trans
      ((hag c).2.2.2.2.2.2.2.1.symm.trans
        ((Cert.ReferenceIdeal.Keep.arg_kept_7 m' c).symm.trans (Cert.ReferenceIdeal.Keep.toEnd_22 m' c Cert.ReferenceIdeal.main_arg7 (by decide +kernel)).symm))
  have a8 : (Cert.KernelIdeal.Gen.W30 (F := Ideal) m ρ c (Proc.devRef .tc Cert.KernelIdeal.main_arg8) : Vec Ideal Cert.KernelIdeal.S4x64 .f32)
      = R22 m' c (Proc.devRef .tc Cert.ReferenceIdeal.main_arg8) :=
    ((Cert.KernelIdeal.Keep.toEnd_30 m ρ c Cert.KernelIdeal.main_arg8 (by decide +kernel)).trans (Cert.KernelIdeal.Gen.W52_main_arg8 m ρ c)).trans
      ((hag c).2.2.2.2.2.2.2.2.1.symm.trans
        ((Cert.ReferenceIdeal.Keep.arg_kept_8 m' c).symm.trans (Cert.ReferenceIdeal.Keep.toEnd_22 m' c Cert.ReferenceIdeal.main_arg8 (by decide +kernel)).symm))
  -- the kernel program's side: the pallas_call's result from the four arrays it reads
  have k40 : (KV m ρ c Cert.KernelIdeal.main_v136 : Vec Ideal Cert.KernelIdeal.S100000x64 .f32)
      = mlp1G (n := 100000) (Cert.KernelIdeal.Gen.V31 (F := Ideal) m ρ c Cert.KernelIdeal.main_v113) (Cert.KernelIdeal.Gen.V31 (F := Ideal) m ρ c Cert.KernelIdeal.main_v108)
          (Cert.KernelIdeal.Gen.V31 (F := Ideal) m ρ c Cert.KernelIdeal.main_v115) (Cert.KernelIdeal.Gen.V31 (F := Ideal) m ρ c Cert.KernelIdeal.main_v118) :=
    (Cert.KernelIdeal.Keep.toEnd_32 m ρ c Cert.KernelIdeal.main_v136 (by decide +kernel)).symm.trans
      ((Cert.KernelIdeal.Gen.W32_arr m ρ c 4).trans (mlp1_value9 (Cert.KernelIdeal.Gen.V31 (F := Ideal) m ρ) c))
  have k17 : (Cert.KernelIdeal.Gen.V31 (F := Ideal) m ρ c Cert.KernelIdeal.main_v113 : Vec Ideal Cert.KernelIdeal.S100000x64 .f32)
      = mulf (F := Ideal) (s := Cert.KernelIdeal.S100000x64) (φ := .f32) (RV m' c Cert.ReferenceIdeal.main_v192) (R23 m' c (Proc.devRef .tc Cert.ReferenceIdeal.main_v217)) :=
    (mlp1_readK_sh_L2 (Cert.KernelIdeal.Gen.W30 (F := Ideal) m ρ c)).trans
      (congrArg₂ (mulf (F := Ideal) (s := Cert.KernelIdeal.S100000x64) (φ := .f32)) ((Cert.KernelIdeal.Keep.toEnd_30 m ρ c Cert.KernelIdeal.main_v100 (by decide +kernel)).trans hh)
        (mlp1_agree_scale_L2 (Cert.KernelIdeal.Gen.W30 (F := Ideal) m ρ c) (R22 m' c) a6))
  have k12 : (Cert.KernelIdeal.Gen.V31 (F := Ideal) m ρ c Cert.KernelIdeal.main_v108 : Vec Ideal Cert.KernelIdeal.S100000x64 .f32) = RV m' c Cert.ReferenceIdeal.main_v213 :=
    (Cert.KernelIdeal.Keep.toEnd_31 m ρ c Cert.KernelIdeal.main_v108 (by decide +kernel)).trans ha
  have k19 : (Cert.KernelIdeal.Gen.V31 (F := Ideal) m ρ c Cert.KernelIdeal.main_v115 : Vec Ideal Cert.KernelIdeal.S64x64 .f32) = R23 m' c (Proc.devRef .tc Cert.ReferenceIdeal.main_v221) :=
    mlp1_agree_w_L2 (Cert.KernelIdeal.Gen.W30 (F := Ideal) m ρ c) (R22 m' c) a7
  have k22 : (Cert.KernelIdeal.Gen.V31 (F := Ideal) m ρ c Cert.KernelIdeal.main_v118 : Vec Ideal Cert.KernelIdeal.S1x64 .f32)
      = shapeCast Cert.KernelIdeal.S1x64 (R23 m' c (Proc.devRef .tc Cert.ReferenceIdeal.main_v224) : Vec Ideal Cert.KernelIdeal.S64 .f32) Cert.KernelIdeal.Facts₀.shapeCasts_S64_S1x64 :=
    (mlp1_readK_bias_L2 (Cert.KernelIdeal.Gen.W30 (F := Ideal) m ρ c)).trans
      (congrArg (fun b : Vec Ideal Cert.KernelIdeal.S64 .f32 => shapeCast Cert.KernelIdeal.S1x64 b Cert.KernelIdeal.Facts₀.shapeCasts_S64_S1x64)
        (mlp1_agree_b_L2 (Cert.KernelIdeal.Gen.W30 (F := Ideal) m ρ c) (R22 m' c) a8))
  -- the reference's side: its operations' result over the same pieces
  have r45 : (RV m' c Cert.ReferenceIdeal.main_v227 : Vec Ideal Cert.ReferenceIdeal.S100000x64 .f32)
      = addf (F := Ideal) (s := Cert.ReferenceIdeal.S100000x64) (φ := .f32)
          (Host.dotGeneral (F := Ideal) (φ₁ := .f32) (φ₂ := .f32) Cert.ReferenceIdeal.dot_S100000x64_S64x64_S100000x64_1_0_0_1_n_n none
            (addf (F := Ideal) (s := Cert.ReferenceIdeal.S100000x64) (φ := .f32)
              (mulf (F := Ideal) (s := Cert.ReferenceIdeal.S100000x64) (φ := .f32) (R23 m' c (Proc.devRef .tc Cert.ReferenceIdeal.main_v217)) (RV m' c Cert.ReferenceIdeal.main_v192))
              (RV m' c Cert.ReferenceIdeal.main_v213))
            (R23 m' c (Proc.devRef .tc Cert.ReferenceIdeal.main_v221) : Vec Ideal Cert.ReferenceIdeal.S64x64 .f32))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1
              (R23 m' c (Proc.devRef .tc Cert.ReferenceIdeal.main_v224) : Vec Ideal Cert.ReferenceIdeal.S64 .f32))) := by
    have e10 : (R22 m' c (Proc.devRef .tc Cert.ReferenceIdeal.main_v192) : Vec Ideal Cert.ReferenceIdeal.S100000x64 .f32) = RV m' c Cert.ReferenceIdeal.main_v192 :=
      Cert.ReferenceIdeal.Keep.toEnd_22 m' c Cert.ReferenceIdeal.main_v192 (by decide +kernel)
    have e31 : (StableHlo.after (Cert.ReferenceIdeal.Ops.hostOps0_22 (F := Ideal)) (R22 m' c) (Proc.devRef .tc Cert.ReferenceIdeal.main_v213) : Vec Ideal Cert.ReferenceIdeal.S100000x64 .f32)
        = RV m' c Cert.ReferenceIdeal.main_v213 :=
      Cert.ReferenceIdeal.Keep.toEnd_23 m' c Cert.ReferenceIdeal.main_v213 (by decide +kernel)
    refine (Cert.ReferenceIdeal.Keep.toEnd_23 m' c Cert.ReferenceIdeal.main_v227 (by decide +kernel)).symm.trans ((mlp1_readR_y_L2 (R22 m' c)).trans ?_)
    rw [e10, e31]
  rw [k40, k17, k12, k19, k22, r45]
  exact mlp1_join _ _ _ _ _ _ _ _

end Cert.Bridge

end
-- ==== Proof.Bridge.Mlp1_L3.lean ====
/- The first linear layer of one GINE layer, on both sides. The kernel program computes it in one pallas_call: row
   block `t` of the result is row block `t` of (scaled features + aggregated messages) times the 64×64 weights, plus
   the one-row bias laid along every row. The reference computes the same entries on the host: the scale times the
   features, plus the aggregate, a `dot_general` with the weights, plus the bias vector broadcast along the rows.
   Here: the pallas_call's result array as the layer's function of the four arrays it reads (`mlp1_value13`: each
   stored entry read at an index, each input block read as rows of its array, the row blocks covering the array); what
   the host operations before it leave on either side, read from any contents; the scale, the weights and the bias
   vector, which both programs cut from the same three arguments by the same operations; and the two results equal
   when the features and the aggregate are (`corr_z1_3`), by the law of Mlp1Spec.lean. -/
import proofs.«417278_j53197464928922_1_alg».proof.Proof.Setup
import proofs.«417278_j53197464928922_1_alg».proof.Proof.KKeep
import proofs.«417278_j53197464928922_1_alg».proof.Proof.RKeep
import proofs.«417278_j53197464928922_1_alg».proof.Proof.Bridge.Mlp1Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.Bridge

open Idealize.ShloMosaic Idealize.ShloMosaic.TcCoe Idealize.SL.Sem
open Idealize.ShloMosaic.ValueIdx
open Idealize.ShloMosaic.Pipeline (Dat)
open scoped BigOperators

/-! ## The pallas_call's result array -/

section Region

open Cert.KernelIdeal Cert.KernelIdeal.Gen

/-- The body's stored value at an entry of its row block: the block's row of the two inputs added, against the
    weights' column, plus the bias row's entry. -/
theorem mlp1_pay_apply_L3 (x0 x1 : Vec Ideal S5000x64 .f32) (x2 : Vec Ideal S64x64 .f32)
    (x3 : Vec Ideal S1x64 .f32) (p : Fin 5000) (q : Fin 64) :
    k13_pay1 (F := Ideal) x0 x1 x2 x3 (ix2 p q) = mlp1Entry x0 x1 x2 x3 p q := by
  unfold k13_pay1 mlp1Entry
  simp only [shapeCast_self]
  rw [addf_apply, matmul_zero_eq_dotGeneral]
  refine congrArg₂ (· + ·) ?_ ?_
  · exact StackMember.dotGeneral_plain_apply none _ _ p q
  · exact broadcastTo_1b_ab_apply _ _ p q

/-- The same with the blocks' entries named: where the two input blocks' row `p` is row `r` of the arrays and the
    weights' and bias's blocks are the arrays, the stored entry is the layer's entry `(r, q)`. -/
theorem mlp1_point_L3 (sh agg : Vec Ideal S100000x64 .f32) (W1 : Vec Ideal S64x64 .f32) (b1 : Vec Ideal S1x64 .f32)
    (x0 x1 : Vec Ideal S5000x64 .f32) (x2 : Vec Ideal S64x64 .f32) (x3 : Vec Ideal S1x64 .f32)
    (p : Fin 5000) (q : Fin 64) (i : S100000x64.Idx) (r : Fin 100000)
    (hr : (i 0).val = r.val) (hq : (i 1).val = q.val)
    (h0 : ∀ k : Fin 64, x0 (ix2 p k) = sh (ix2 r k)) (h1 : ∀ k : Fin 64, x1 (ix2 p k) = agg (ix2 r k))
    (h2 : ∀ k : Fin 64, x2 (ix2 k q) = W1 (ix2 k q)) (h3 : x3 (ix2 (0 : Fin 1) q) = b1 (ix2 (0 : Fin 1) q)) :
    k13_pay1 (F := Ideal) x0 x1 x2 x3 (ix2 p q) = mlp1G sh agg W1 b1 i := by
  have hi : i = ix2 r q := by
    rw [eq_ix2 i]
    funext a
    match a with
    | ⟨0, _⟩ => exact Fin.ext hr
    | ⟨1, _⟩ => exact Fin.ext hq
  rw [hi, mlp1G_ix2, mlp1_pay_apply_L3]
  unfold mlp1Entry
  rw [h3]
  refine congrArg (· + b1 (ix2 (0 : Fin 1) q)) (Finset.sum_congr rfl fun k _ => ?_)
  rw [h0 k, h1 k, h2 k]

/-- The printed index maps over the grid: the two row-blocked inputs move with the output's row block, the weights
    and the bias stay at block (0, 0), the output's row block is the point's number. -/
theorem mlp1_idx_L3 : ∀ t : Fin cfg13.N,
    win13_0.index t (0 : Fin 2) = win13_4.index t (0 : Fin 2) ∧ win13_0.index t (1 : Fin 2) = 0
    ∧ win13_1.index t (0 : Fin 2) = win13_4.index t (0 : Fin 2) ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0 ∧ t.val ≤ 19 :=
  (by decide +kernel : ∀ t : Fin grid13.N, _)

variable (V : (c : Dev nD) → (b : Ref sig .tc) → Buf (Elt Ideal) ((c : Thread nD τ).loc b))

/-- Entry `(p, k)` of input window 0's block at point `t` is entry `(r, k)` of its array, `r` the block's row offset
    plus `p`. -/
theorem mlp1_iblk_sh_L3 (c : Dev nD) (t : Fin cfg13.N) (p : Fin 5000) (k : Fin 64) (r : Fin 100000)
    (hr : r.val = win13_0.index t (0 : Fin 2) * 5000 + p.val) (h1 : win13_0.index t (1 : Fin 2) = 0) :
    (iblk13 V c 0 t : Vec Ideal S5000x64 .f32) (ix2 p k) = (V c main_v161 : Vec Ideal S100000x64 .f32) (ix2 r k) := by
  unfold iblk13
  rw [View.read_apply]
  show V c main_v161 _ = V c main_v161 _
  refine congrArg (V c main_v161) ?_
  funext a
  apply Fin.ext
  match a with
  | ⟨0, _⟩ => show win13_0.index t (0 : Fin 2) * 5000 + 1 * p.val = r.val; omega
  | ⟨1, _⟩ => show win13_0.index t (1 : Fin 2) * 64 + 1 * k.val = k.val; omega

/-- The same for input window 1. -/
theorem mlp1_iblk_agg_L3 (c : Dev nD) (t : Fin cfg13.N) (p : Fin 5000) (k : Fin 64) (r : Fin 100000)
    (hr : r.val = win13_1.index t (0 : Fin 2) * 5000 + p.val) (h1 : win13_1.index t (1 : Fin 2) = 0) :
    (iblk13 V c 1 t : Vec Ideal S5000x64 .f32) (ix2 p k) = (V c main_v156 : Vec Ideal S100000x64 .f32) (ix2 r k) := by
  unfold iblk13
  rw [View.read_apply]
  show V c main_v156 _ = V c main_v156 _
  refine congrArg (V c main_v156) ?_
  funext a
  apply Fin.ext
  match a with
  | ⟨0, _⟩ => show win13_1.index t (0 : Fin 2) * 5000 + 1 * p.val = r.val; omega
  | ⟨1, _⟩ => show win13_1.index t (1 : Fin 2) * 64 + 1 * k.val = k.val; omega

/-- Input window 2's block is its whole array. -/
theorem mlp1_iblk_w_L3 (c : Dev nD) (t : Fin cfg13.N) (k q : Fin 64)
    (h0 : win13_2.index t (0 : Fin 2) = 0) (h1 : win13_2.index t (1 : Fin 2) = 0) :
    (iblk13 V c 2 t : Vec Ideal S64x64 .f32) (ix2 k q) = (V c main_v163 : Vec Ideal S64x64 .f32) (ix2 k q) := by
  unfold iblk13
  rw [View.read_apply]
  show V c main_v163 _ = V c main_v163 _
  refine congrArg (V c main_v163) ?_
  funext a
  apply Fin.ext
  match a with
  | ⟨0, _⟩ => show win13_2.index t (0 : Fin 2) * 64 + 1 * k.val = k.val; omega
  | ⟨1, _⟩ => show win13_2.index t (1 : Fin 2) * 64 + 1 * q.val = q.val; omega

/-- Input window 3's block is its whole array. -/
theorem mlp1_iblk_b_L3 (c : Dev nD) (t : Fin cfg13.N) (u : Fin 1) (q : Fin 64)
    (h0 : win13_3.index t (0 : Fin 2) = 0) (h1 : win13_3.index t (1 : Fin 2) = 0) :
    (iblk13 V c 3 t : Vec Ideal S1x64 .f32) (ix2 u q) = (V c main_v166 : Vec Ideal S1x64 .f32) (ix2 u q) := by
  unfold iblk13
  rw [View.read_apply]
  show V c main_v166 _ = V c main_v166 _
  refine congrArg (V c main_v166) ?_
  funext a
  apply Fin.ext
  match a with
  | ⟨0, _⟩ => show win13_3.index t (0 : Fin 2) * 1 + 1 * u.val = u.val; omega
  | ⟨1, _⟩ => show win13_3.index t (1 : Fin 2) * 64 + 1 * q.val = q.val; omega

/-- What point `t` writes back is block `t` of the layer's function of the four arrays as the pallas_call finds them. -/
theorem mlp1_flushed_L3 (c : Dev nD) (t : Fin cfg13.N) :
    (dat13 (F := Ideal) V c).flushed 4 t
      = ((cfg13.win 4).blk t).view.read (Elt Ideal) (mlp1G (n := 100000) (V c main_v161) (V c main_v156) (V c main_v163) (V c main_v166)) := by
  show (cfg13.win 4).cut (grid13.coords t) ((dat13 (F := Ideal) V c).after 4 t) = _
  rw [after13_4]
  unfold out13_4
  rw [View.canon_unit_zero mlp1_hz]
  simp only [View.ld_unit_zero (S := S5000x64) mlp1_hz, View.ld_unit_zero (S := S64x64) mlp1_hz, View.ld_unit_zero (S := S1x64) mlp1_hz]
  obtain ⟨e00, e01, e10, e11, e20, e21, e30, e31, e40, e41, e4b⟩ := mlp1_idx_L3 t
  refine mlp1_ext_ix2 (n0 := 5000) (n1 := 64) _ _ fun p q => ?_
  have hp : p.val < 5000 := p.isLt
  show k13_pay1 (F := Ideal) (iblk13 V c 0 t) (iblk13 V c 1 t) (iblk13 V c 2 t) (iblk13 V c 3 t) (ix2 p q)
      = mlp1G (n := 100000) (V c main_v161) (V c main_v156) (V c main_v163) (V c main_v166) (((cfg13.win 4).blk t).view.emb (ix2 p q))
  refine mlp1_point_L3 (V c main_v161) (V c main_v156) (V c main_v163) (V c main_v166)
    (iblk13 V c 0 t) (iblk13 V c 1 t) (iblk13 V c 2 t) (iblk13 V c 3 t) p q
    (((cfg13.win 4).blk t).view.emb (ix2 p q)) ⟨win13_4.index t (0 : Fin 2) * 5000 + p.val, by omega⟩ ?_ ?_ ?_ ?_ ?_ ?_
  · show win13_4.index t (0 : Fin 2) * 5000 + 1 * p.val = win13_4.index t (0 : Fin 2) * 5000 + p.val; omega
  · show win13_4.index t (1 : Fin 2) * 64 + 1 * q.val = q.val; omega
  · exact fun k => mlp1_iblk_sh_L3 V c t p k _
      (by show win13_4.index t (0 : Fin 2) * 5000 + p.val = win13_0.index t (0 : Fin 2) * 5000 + p.val; omega) e01
  · exact fun k => mlp1_iblk_agg_L3 V c t p k _
      (by show win13_4.index t (0 : Fin 2) * 5000 + p.val = win13_1.index t (0 : Fin 2) * 5000 + p.val; omega) e11
  · exact fun k => mlp1_iblk_w_L3 V c t k q e20 e21
  · exact mlp1_iblk_b_L3 V c t 0 q e30 e31

/-- An index of the result array is in point `t`'s block iff each coordinate is in the block's range on its axis. -/
theorem mlp1_mem_blk_L3 (t : Fin cfg13.N) (i : S100000x64.Idx) :
    i ∈ ((cfg13.win 4).blk t).view.set
      ↔ ∀ a : Fin 2, win13_4.index t a * S5000x64.size a ≤ (i a).val ∧ (i a).val < win13_4.index t a * S5000x64.size a + S5000x64.size a := by
  show i ∈ ((View.whole main_v184).slice (win13_4.rect t)).set ↔ _
  rw [View.set_slice_whole, Rect.mem_set_unit]
  exact Iff.rfl

/-- Every row of the result array is in the block of the point numbered by the row's block of 5000. -/
theorem mlp1_cover_L3 (i : S100000x64.Idx) :
    ∃ t : Fin cfg13.N, (cfg13.win 4).flush t = true ∧ i ∈ ((cfg13.win 4).blk t).view.set := by
  have hi0 : (i 0).val < 100000 := idx2_lt0 i
  have hi1 : (i 1).val < 64 := idx2_lt1 i
  obtain ⟨t, ht⟩ : ∃ t : Fin cfg13.N, t.val = (i 0).val / 5000 :=
    ⟨⟨(i 0).val / 5000, by show (i 0).val / 5000 < grid13.N; rw [N_13]; omega⟩, rfl⟩
  obtain ⟨e00, e01, e10, e11, e20, e21, e30, e31, e40, e41, e4b⟩ := mlp1_idx_L3 t
  refine ⟨t, flush13_4 t, ?_⟩
  rw [mlp1_mem_blk_L3]
  intro a
  match a with
  | ⟨0, _⟩ => show win13_4.index t (0 : Fin 2) * 5000 ≤ (i 0).val ∧ (i 0).val < win13_4.index t (0 : Fin 2) * 5000 + 5000; omega
  | ⟨1, _⟩ => show win13_4.index t (1 : Fin 2) * 64 ≤ (i 1).val ∧ (i 1).val < win13_4.index t (1 : Fin 2) * 64 + 64; omega

/-- THE RESULT ARRAY of the pallas_call, from any contents `V` at its entry: the layer's function of the four arrays
    it reads. -/
theorem mlp1_value13 (c : Dev nD) :
    (dat13 (F := Ideal) V c).arrAt 4 cfg13.N = mlp1G (n := 100000) (V c main_v161) (V c main_v156) (V c main_v163) (V c main_v166) :=
  (dat13 (F := Ideal) V c).arrAt_eq_of_cover 4 (mlp1G (n := 100000) (V c main_v161) (V c main_v156) (V c main_v163) (V c main_v166))
    (fun t _ => mlp1_flushed_L3 V c t) mlp1_cover_L3

end Region

/-! ## The host operations around the pallas_call, read from any contents -/

/-- The kernel program's scaled features: the features as the operations find them times the scale the same
    operations build. -/
theorem mlp1_readK_sh_L3 (W : Valuation Cert.KernelIdeal.τ Cert.KernelIdeal.sig (Elt Ideal)) :
    (StableHlo.after (Cert.KernelIdeal.Gen.hostOps13 (F := Ideal)) W (Proc.devRef .tc Cert.KernelIdeal.main_v161) : Vec Ideal Cert.KernelIdeal.S100000x64 .f32)
      = mulf (F := Ideal) (s := Cert.KernelIdeal.S100000x64) (φ := .f32) (W (Proc.devRef .tc Cert.KernelIdeal.main_v148))
          (StableHlo.after (Cert.KernelIdeal.Gen.hostOps13 (F := Ideal)) W (Proc.devRef .tc Cert.KernelIdeal.main_v160)) := by
  after_results_simp
  try rfl

/-- The kernel program's one-row bias: the bias vector the same operations cut out, reshaped to one row. -/
theorem mlp1_readK_bias_L3 (W : Valuation Cert.KernelIdeal.τ Cert.KernelIdeal.sig (Elt Ideal)) :
    (StableHlo.after (Cert.KernelIdeal.Gen.hostOps13 (F := Ideal)) W (Proc.devRef .tc Cert.KernelIdeal.main_v166) : Vec Ideal Cert.KernelIdeal.S1x64 .f32)
      = shapeCast Cert.KernelIdeal.S1x64
          (StableHlo.after (Cert.KernelIdeal.Gen.hostOps13 (F := Ideal)) W (Proc.devRef .tc Cert.KernelIdeal.main_v165) : Vec Ideal Cert.KernelIdeal.S64 .f32)
          Cert.KernelIdeal.Facts₀.shapeCasts_S64_S1x64 := by
  after_results_simp
  try rfl

/-- The reference's first linear layer: the scale times the features plus the aggregate, the product with the
    weights, plus the bias vector laid along every row; the scale, the aggregate, the weights and the bias vector as
    the same operations leave them. -/
theorem mlp1_readR_y_L3 (W : Valuation Cert.ReferenceIdeal.τ Cert.ReferenceIdeal.sig (Elt Ideal)) :
    (StableHlo.after (Cert.ReferenceIdeal.Ops.hostOps0_32 (F := Ideal)) W (Proc.devRef .tc Cert.ReferenceIdeal.main_v318) : Vec Ideal Cert.ReferenceIdeal.S100000x64 .f32)
      = addf (F := Ideal) (s := Cert.ReferenceIdeal.S100000x64) (φ := .f32)
          (Host.dotGeneral (F := Ideal) (φ₁ := .f32) (φ₂ := .f32) Cert.ReferenceIdeal.dot_S100000x64_S64x64_S100000x64_1_0_0_1_n_n none
            (addf (F := Ideal) (s := Cert.ReferenceIdeal.S100000x64) (φ := .f32)
              (mulf (F := Ideal) (s := Cert.ReferenceIdeal.S100000x64) (φ := .f32) (StableHlo.after (Cert.ReferenceIdeal.Ops.hostOps0_32 (F := Ideal)) W (Proc.devRef .tc Cert.ReferenceIdeal.main_v308) : Vec Ideal Cert.ReferenceIdeal.S100000x64 .f32)
                (W (Proc.devRef .tc Cert.ReferenceIdeal.main_v283) : Vec Ideal Cert.ReferenceIdeal.S100000x64 .f32))
              (StableHlo.after (Cert.ReferenceIdeal.Ops.hostOps0_32 (F := Ideal)) W (Proc.devRef .tc Cert.ReferenceIdeal.main_v304) : Vec Ideal Cert.ReferenceIdeal.S100000x64 .f32))
            (StableHlo.after (Cert.ReferenceIdeal.Ops.hostOps0_32 (F := Ideal)) W (Proc.devRef .tc Cert.ReferenceIdeal.main_v312) : Vec Ideal Cert.ReferenceIdeal.S64x64 .f32))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1
              (StableHlo.after (Cert.ReferenceIdeal.Ops.hostOps0_32 (F := Ideal)) W (Proc.devRef .tc Cert.ReferenceIdeal.main_v315) : Vec Ideal Cert.ReferenceIdeal.S64 .f32))) := by
  after_results_simp
  try rfl

/-! ## The pieces both programs cut from the same arguments -/

/-- The scale `1 + eps` broadcast over the features: the same operations of the same argument on both sides. -/
theorem mlp1_agree_scale_L3 (WK : Valuation Cert.KernelIdeal.τ Cert.KernelIdeal.sig (Elt Ideal)) (WR : Valuation Cert.ReferenceIdeal.τ Cert.ReferenceIdeal.sig (Elt Ideal))
    (h6 : (WK (Proc.devRef .tc Cert.KernelIdeal.main_arg6) : Vec Ideal Cert.KernelIdeal.S4 .f32) = WR (Proc.devRef .tc Cert.ReferenceIdeal.main_arg6)) :
    (StableHlo.after (Cert.KernelIdeal.Gen.hostOps13 (F := Ideal)) WK (Proc.devRef .tc Cert.KernelIdeal.main_v160) : Vec Ideal Cert.KernelIdeal.S100000x64 .f32)
      = StableHlo.after (Cert.ReferenceIdeal.Ops.hostOps0_32 (F := Ideal)) WR (Proc.devRef .tc Cert.ReferenceIdeal.main_v308) := by
  after_results_simp
  rw [h6]
  try rfl

/-- The layer's 64×64 weights. -/
theorem mlp1_agree_w_L3 (WK : Valuation Cert.KernelIdeal.τ Cert.KernelIdeal.sig (Elt Ideal)) (WR : Valuation Cert.ReferenceIdeal.τ Cert.ReferenceIdeal.sig (Elt Ideal))
    (h7 : (WK (Proc.devRef .tc Cert.KernelIdeal.main_arg7) : Vec Ideal Cert.KernelIdeal.S4x64x64 .f32) = WR (Proc.devRef .tc Cert.ReferenceIdeal.main_arg7)) :
    (StableHlo.after (Cert.KernelIdeal.Gen.hostOps13 (F := Ideal)) WK (Proc.devRef .tc Cert.KernelIdeal.main_v163) : Vec Ideal Cert.KernelIdeal.S64x64 .f32)
      = StableHlo.after (Cert.ReferenceIdeal.Ops.hostOps0_32 (F := Ideal)) WR (Proc.devRef .tc Cert.ReferenceIdeal.main_v312) := by
  after_results_simp
  rw [h7]
  try rfl

/-- The layer's bias vector. -/
theorem mlp1_agree_b_L3 (WK : Valuation Cert.KernelIdeal.τ Cert.KernelIdeal.sig (Elt Ideal)) (WR : Valuation Cert.ReferenceIdeal.τ Cert.ReferenceIdeal.sig (Elt Ideal))
    (h8 : (WK (Proc.devRef .tc Cert.KernelIdeal.main_arg8) : Vec Ideal Cert.KernelIdeal.S4x64 .f32) = WR (Proc.devRef .tc Cert.ReferenceIdeal.main_arg8)) :
    (StableHlo.after (Cert.KernelIdeal.Gen.hostOps13 (F := Ideal)) WK (Proc.devRef .tc Cert.KernelIdeal.main_v165) : Vec Ideal Cert.KernelIdeal.S64 .f32)
      = StableHlo.after (Cert.ReferenceIdeal.Ops.hostOps0_32 (F := Ideal)) WR (Proc.devRef .tc Cert.ReferenceIdeal.main_v315) := by
  after_results_simp
  rw [h8]
  try rfl

/-! ## The correspondence -/

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The first linear layer's results agree when the features and the aggregated messages do. -/
theorem corr_z1_3 (hag : Agree m m') (c : Dev Cert.KernelIdeal.nD)
    (hh : (KV m ρ c Cert.KernelIdeal.main_v148 : Vec Ideal Cert.KernelIdeal.S100000x64 .f32) = RV m' c Cert.ReferenceIdeal.main_v283)
    (ha : (KV m ρ c Cert.KernelIdeal.main_v156 : Vec Ideal Cert.KernelIdeal.S100000x64 .f32) = RV m' c Cert.ReferenceIdeal.main_v304) :
    (KV m ρ c Cert.KernelIdeal.main_v184 : Vec Ideal Cert.KernelIdeal.S100000x64 .f32) = RV m' c Cert.ReferenceIdeal.main_v318 := by
  -- the three arguments both programs cut their pieces from, as each program finds them
  have a6 : (Cert.KernelIdeal.Gen.W42 (F := Ideal) m ρ c (Proc.devRef .tc Cert.KernelIdeal.main_arg6) : Vec Ideal Cert.KernelIdeal.S4 .f32)
      = R32 m' c (Proc.devRef .tc Cert.ReferenceIdeal.main_arg6) :=
    ((Cert.KernelIdeal.Keep.toEnd_42 m ρ c Cert.KernelIdeal.main_arg6 (by decide +kernel)).trans (Cert.KernelIdeal.Gen.W52_main_arg6 m ρ c)).trans
      ((hag c).2.2.2.2.2.2.1.symm.trans
        ((Cert.ReferenceIdeal.Keep.arg_kept_6 m' c).symm.trans (Cert.ReferenceIdeal.Keep.toEnd_32 m' c Cert.ReferenceIdeal.main_arg6 (by decide +kernel)).symm))
  have a7 : (Cert.KernelIdeal.Gen.W42 (F := Ideal) m ρ c (Proc.devRef .tc Cert.KernelIdeal.main_arg7) : Vec Ideal Cert.KernelIdeal.S4x64x64 .f32)
      = R32 m' c (Proc.devRef .tc Cert.ReferenceIdeal.main_arg7) :=
    ((Cert.KernelIdeal.Keep.toEnd_42 m ρ c Cert.KernelIdeal.main_arg7 (by decide +kernel)).trans (Cert.KernelIdeal.Gen.W52_main_arg7 m ρ c)).trans
      ((hag c).2.2.2.2.2.2.2.1.symm.trans
        ((Cert.ReferenceIdeal.Keep.arg_kept_7 m' c).symm.trans (Cert.ReferenceIdeal.Keep.toEnd_32 m' c Cert.ReferenceIdeal.main_arg7 (by decide +kernel)).symm))
  have a8 : (Cert.KernelIdeal.Gen.W42 (F := Ideal) m ρ c (Proc.devRef .tc Cert.KernelIdeal.main_arg8) : Vec Ideal Cert.KernelIdeal.S4x64 .f32)
      = R32 m' c (Proc.devRef .tc Cert.ReferenceIdeal.main_arg8) :=
    ((Cert.KernelIdeal.Keep.toEnd_42 m ρ c Cert.KernelIdeal.main_arg8 (by decide +kernel)).trans (Cert.KernelIdeal.Gen.W52_main_arg8 m ρ c)).trans
      ((hag c).2.2.2.2.2.2.2.2.1.symm.trans
        ((Cert.ReferenceIdeal.Keep.arg_kept_8 m' c).symm.trans (Cert.ReferenceIdeal.Keep.toEnd_32 m' c Cert.ReferenceIdeal.main_arg8 (by decide +kernel)).symm))
  -- the kernel program's side: the pallas_call's result from the four arrays it reads
  have k40 : (KV m ρ c Cert.KernelIdeal.main_v184 : Vec Ideal Cert.KernelIdeal.S100000x64 .f32)
      = mlp1G (n := 100000) (Cert.KernelIdeal.Gen.V43 (F := Ideal) m ρ c Cert.KernelIdeal.main_v161) (Cert.KernelIdeal.Gen.V43 (F := Ideal) m ρ c Cert.KernelIdeal.main_v156)
          (Cert.KernelIdeal.Gen.V43 (F := Ideal) m ρ c Cert.KernelIdeal.main_v163) (Cert.KernelIdeal.Gen.V43 (F := Ideal) m ρ c Cert.KernelIdeal.main_v166) :=
    (Cert.KernelIdeal.Keep.toEnd_44 m ρ c Cert.KernelIdeal.main_v184 (by decide +kernel)).symm.trans
      ((Cert.KernelIdeal.Gen.W44_arr m ρ c 4).trans (mlp1_value13 (Cert.KernelIdeal.Gen.V43 (F := Ideal) m ρ) c))
  have k17 : (Cert.KernelIdeal.Gen.V43 (F := Ideal) m ρ c Cert.KernelIdeal.main_v161 : Vec Ideal Cert.KernelIdeal.S100000x64 .f32)
      = mulf (F := Ideal) (s := Cert.KernelIdeal.S100000x64) (φ := .f32) (RV m' c Cert.ReferenceIdeal.main_v283) (R33 m' c (Proc.devRef .tc Cert.ReferenceIdeal.main_v308)) :=
    (mlp1_readK_sh_L3 (Cert.KernelIdeal.Gen.W42 (F := Ideal) m ρ c)).trans
      (congrArg₂ (mulf (F := Ideal) (s := Cert.KernelIdeal.S100000x64) (φ := .f32)) ((Cert.KernelIdeal.Keep.toEnd_42 m ρ c Cert.KernelIdeal.main_v148 (by decide +kernel)).trans hh)
        (mlp1_agree_scale_L3 (Cert.KernelIdeal.Gen.W42 (F := Ideal) m ρ c) (R32 m' c) a6))
  have k12 : (Cert.KernelIdeal.Gen.V43 (F := Ideal) m ρ c Cert.KernelIdeal.main_v156 : Vec Ideal Cert.KernelIdeal.S100000x64 .f32) = RV m' c Cert.ReferenceIdeal.main_v304 :=
    (Cert.KernelIdeal.Keep.toEnd_43 m ρ c Cert.KernelIdeal.main_v156 (by decide +kernel)).trans ha
  have k19 : (Cert.KernelIdeal.Gen.V43 (F := Ideal) m ρ c Cert.KernelIdeal.main_v163 : Vec Ideal Cert.KernelIdeal.S64x64 .f32) = R33 m' c (Proc.devRef .tc Cert.ReferenceIdeal.main_v312) :=
    mlp1_agree_w_L3 (Cert.KernelIdeal.Gen.W42 (F := Ideal) m ρ c) (R32 m' c) a7
  have k22 : (Cert.KernelIdeal.Gen.V43 (F := Ideal) m ρ c Cert.KernelIdeal.main_v166 : Vec Ideal Cert.KernelIdeal.S1x64 .f32)
      = shapeCast Cert.KernelIdeal.S1x64 (R33 m' c (Proc.devRef .tc Cert.ReferenceIdeal.main_v315) : Vec Ideal Cert.KernelIdeal.S64 .f32) Cert.KernelIdeal.Facts₀.shapeCasts_S64_S1x64 :=
    (mlp1_readK_bias_L3 (Cert.KernelIdeal.Gen.W42 (F := Ideal) m ρ c)).trans
      (congrArg (fun b : Vec Ideal Cert.KernelIdeal.S64 .f32 => shapeCast Cert.KernelIdeal.S1x64 b Cert.KernelIdeal.Facts₀.shapeCasts_S64_S1x64)
        (mlp1_agree_b_L3 (Cert.KernelIdeal.Gen.W42 (F := Ideal) m ρ c) (R32 m' c) a8))
  -- the reference's side: its operations' result over the same pieces
  have r45 : (RV m' c Cert.ReferenceIdeal.main_v318 : Vec Ideal Cert.ReferenceIdeal.S100000x64 .f32)
      = addf (F := Ideal) (s := Cert.ReferenceIdeal.S100000x64) (φ := .f32)
          (Host.dotGeneral (F := Ideal) (φ₁ := .f32) (φ₂ := .f32) Cert.ReferenceIdeal.dot_S100000x64_S64x64_S100000x64_1_0_0_1_n_n none
            (addf (F := Ideal) (s := Cert.ReferenceIdeal.S100000x64) (φ := .f32)
              (mulf (F := Ideal) (s := Cert.ReferenceIdeal.S100000x64) (φ := .f32) (R33 m' c (Proc.devRef .tc Cert.ReferenceIdeal.main_v308)) (RV m' c Cert.ReferenceIdeal.main_v283))
              (RV m' c Cert.ReferenceIdeal.main_v304))
            (R33 m' c (Proc.devRef .tc Cert.ReferenceIdeal.main_v312) : Vec Ideal Cert.ReferenceIdeal.S64x64 .f32))
          (broadcastInDim Cert.ReferenceIdeal.S100000x64 ![0, 1] Cert.ReferenceIdeal.Facts₀.bcast_S1x64_S100000x64_0_1
            (broadcastInDim Cert.ReferenceIdeal.S1x64 ![1] Cert.ReferenceIdeal.Facts₀.bcast_S64_S1x64_1
              (R33 m' c (Proc.devRef .tc Cert.ReferenceIdeal.main_v315) : Vec Ideal Cert.ReferenceIdeal.S64 .f32))) := by
    have e10 : (R32 m' c (Proc.devRef .tc Cert.ReferenceIdeal.main_v283) : Vec Ideal Cert.ReferenceIdeal.S100000x64 .f32) = RV m' c Cert.ReferenceIdeal.main_v283 :=
      Cert.ReferenceIdeal.Keep.toEnd_32 m' c Cert.ReferenceIdeal.main_v283 (by decide +kernel)
    have e31 : (StableHlo.after (Cert.ReferenceIdeal.Ops.hostOps0_32 (F := Ideal)) (R32 m' c) (Proc.devRef .tc Cert.ReferenceIdeal.main_v304) : Vec Ideal Cert.ReferenceIdeal.S100000x64 .f32)
        = RV m' c Cert.ReferenceIdeal.main_v304 :=
      Cert.ReferenceIdeal.Keep.toEnd_33 m' c Cert.ReferenceIdeal.main_v304 (by decide +kernel)
    refine (Cert.ReferenceIdeal.Keep.toEnd_33 m' c Cert.ReferenceIdeal.main_v318 (by decide +kernel)).symm.trans ((mlp1_readR_y_L3 (R32 m' c)).trans ?_)
    rw [e10, e31]
  rw [k40, k17, k12, k19, k22, r45]
  exact mlp1_join _ _ _ _ _ _ _ _

end Cert.Bridge

end
-- ==== Proof.Bridge.StatsRow.lean ====
/- A vector of 64 entries against the same entries kept as the one row of a [1, 64] matrix, read at an index: the
   quotient by a scalar, and that quotient under a scalar condition's select against a scalar fill, agree entry by
   entry. Both forms of a per-column statistic (a mean, a variance) are instances. -/
import Idealize.ShloMosaic.Lib.IdealHost
import Idealize.ShloMosaic.Lib.Pipeline.Value

noncomputable section

namespace Cert.Bridge

open Idealize.ShloMosaic Idealize.ShloMosaic.ValueIdx

/-- A vector of 64 entries laid as the one row of a [1, 64] matrix, read at (0, j), is its entry j. -/
theorem row64_apply {α : Type} (h : (⟨1, ![64]⟩ : Shape).BroadcastsInDim ⟨2, ![1, 64]⟩ ![1])
    (s : (⟨1, ![64]⟩ : Shape).Idx → α) (j : Fin 64) :
    broadcastInDim ⟨2, ![1, 64]⟩ ![1] h s (ix2 (0 : Fin 1) j) = s (ix1 j) := by
  refine broadcastInDim_apply ![1] h s (ix2 (0 : Fin 1) j) (ix1 j) ?_
  intro a
  match a with
  | ⟨0, _⟩ => rfl

/-- The quotient of the row by a scalar, read at (0, j), is the quotient of the vector by the scalar, read at j. -/
theorem mean_row64_eq (h1 : (⟨1, ![64]⟩ : Shape).BroadcastsInDim ⟨2, ![1, 64]⟩ ![1])
    (h0 : (⟨0, ![]⟩ : Shape).BroadcastsInDim ⟨2, ![1, 64]⟩ ![])
    (h0' : (⟨0, ![]⟩ : Shape).BroadcastsInDim ⟨1, ![64]⟩ ![])
    (s : FVec Ideal ⟨1, ![64]⟩ .f32) (n : FVec Ideal ⟨0, ![]⟩ .f32) (j : Fin 64) :
    Host.divf (broadcastInDim ⟨2, ![1, 64]⟩ ![1] h1 s) (broadcastInDim ⟨2, ![1, 64]⟩ ![] h0 n) (ix2 (0 : Fin 1) j)
      = Host.divf s (broadcastInDim ⟨1, ![64]⟩ ![] h0' n) (ix1 j) := by
  rw [hostDivf_apply, hostDivf_apply, row64_apply, broadcastInDim_scalar_apply, broadcastInDim_scalar_apply]

/-- The same quotient under a scalar condition's select against a scalar fill. -/
theorem var_row64_eq (h1 : (⟨1, ![64]⟩ : Shape).BroadcastsInDim ⟨2, ![1, 64]⟩ ![1])
    (h0 : (⟨0, ![]⟩ : Shape).BroadcastsInDim ⟨2, ![1, 64]⟩ ![])
    (h0' : (⟨0, ![]⟩ : Shape).BroadcastsInDim ⟨1, ![64]⟩ ![])
    (p : IVec ⟨0, ![]⟩ 1) (s : FVec Ideal ⟨1, ![64]⟩ .f32) (d e : FVec Ideal ⟨0, ![]⟩ .f32) (j : Fin 64) :
    select (broadcastInDim ⟨2, ![1, 64]⟩ ![] h0 p)
        (Host.divf (broadcastInDim ⟨2, ![1, 64]⟩ ![1] h1 s) (broadcastInDim ⟨2, ![1, 64]⟩ ![] h0 d))
        (broadcastInDim ⟨2, ![1, 64]⟩ ![] h0 e) (ix2 (0 : Fin 1) j)
      = select (broadcastInDim ⟨1, ![64]⟩ ![] h0' p)
        (Host.divf s (broadcastInDim ⟨1, ![64]⟩ ![] h0' d))
        (broadcastInDim ⟨1, ![64]⟩ ![] h0' e) (ix1 j) := by
  rw [select_apply, select_apply, mean_row64_eq h1 h0 h0']
  rw [broadcastInDim_scalar_apply, broadcastInDim_scalar_apply, broadcastInDim_scalar_apply, broadcastInDim_scalar_apply]

end Cert.Bridge

end
-- ==== Proof.Bridge.Stats.lean ====
/- The batch-norm statistics of a layer, on the two sides. Both programs compute, from the same [100000, 64] array z, the
   per-column mean  Σ_i z[i, j] / 100000  and the per-column variance  Σ_i (z[i, j] − mean[j])² / (100000 − 0)  (guarded
   by "100000 − 0 > 0", else a fill value), the sums being the same host reduction of the same arrays on both sides:
   inside the variance the mean is kept as a [1, 64] row by both. They differ only in the last steps: the kernel program
   lays each sum as a [1, 64] row before dividing (and selecting), the reference divides (and selects) the [64] vector.
   Column j of the row is entry j of the vector (StatsRow.lean), so the statistics agree entry by entry; the sums are
   never opened. Each side's value is first read off its operation list over arbitrary earlier contents, then carried
   to the contents the program leaves at its end. -/
import proofs.«417278_j53197464928922_1_alg».proof.Proof.Setup
import proofs.«417278_j53197464928922_1_alg».proof.Proof.KKeep
import proofs.«417278_j53197464928922_1_alg».proof.Proof.RKeep
import proofs.«417278_j53197464928922_1_alg».proof.Proof.Bridge.StatsRow
import Idealize.ShloMosaic.Lib.IdealHost
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.ValueIdx Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-! ## Layer 0, statistics 1 -/

/-- The kernel program's mean row after the seven operations that make it, over any contents before them: the column
    sums of the input laid as one row, over the row of the count. -/
theorem k_mean1_0_read (W : Valuation Cert.KernelIdeal.τ Cert.KernelIdeal.sig (Elt Ideal)) :
    (StableHlo.after (Cert.KernelIdeal.Gen.hostOps2 (F := Ideal)) W (Proc.devRef .tc Cert.KernelIdeal.main_v44) : (⟨Cert.KernelIdeal.S1x64, .f32⟩ : BufTy).Contents (Elt Ideal))
      = (Host.divf (broadcastInDim Cert.KernelIdeal.S1x64 ![1] Cert.KernelIdeal.Facts₀.bcast_S64_S1x64_1 (Host.reduceAdd (W (Proc.devRef .tc Cert.KernelIdeal.main_v40) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  after_results

/-- Those seven operations end by writing the variance's correction, the integer zero. -/
theorem k_corr1_0_read (W : Valuation Cert.KernelIdeal.τ Cert.KernelIdeal.sig (Elt Ideal)) :
    (StableHlo.after (Cert.KernelIdeal.Gen.hostOps2 (F := Ideal)) W (Proc.devRef .tc Cert.KernelIdeal.main_c) : (⟨Cert.KernelIdeal.S_, .i32⟩ : BufTy).Contents (Elt Ideal))
      = (constantI Cert.KernelIdeal.S_ 32 0#32) := by
  after_results

/-- The kernel program's variance row after the twenty-three operations of its variance function, over any contents
    before them: under the condition "count minus correction is positive", the column sums of the squared deviations
    from the mean laid as one row, over the row of that difference; else the fill. -/
theorem k_var1_0_read (W : Valuation Cert.KernelIdeal.τ Cert.KernelIdeal.sig (Elt Ideal)) :
    (StableHlo.after (Cert.KernelIdeal.Gen.hostOps2_1 (F := Ideal)) W (Proc.devRef .tc Cert.KernelIdeal.main_v45) : (⟨Cert.KernelIdeal.S1x64, .f32⟩ : BufTy).Contents (Elt Ideal))
      = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (W (Proc.devRef .tc Cert.KernelIdeal.main_c) : (⟨Cert.KernelIdeal.S_, .i32⟩ : BufTy).Contents (Elt Ideal)))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (W (Proc.devRef .tc Cert.KernelIdeal.main_v40) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v40) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (W (Proc.devRef .tc Cert.KernelIdeal.main_v40) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v40) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (W (Proc.devRef .tc Cert.KernelIdeal.main_c) : (⟨Cert.KernelIdeal.S_, .i32⟩ : BufTy).Contents (Elt Ideal))))))
          (broadcastInDim Cert.KernelIdeal.S1x64 ![] Cert.KernelIdeal.Facts₀.bcast_S_S1x64 (constant (F := Ideal) Cert.KernelIdeal.S_ .f32 0x7FC00000#32)) := by
  after_results_simp <;> (try simp only [StableHlo.TRef.ofBuf, StableHlo.TRef.toBuf, cast_eq]) <;> rfl

/-- The reference's mean vector after the operations that make it, over any contents before them: the column sums of
    the array those same operations leave as the input, over the vector of the count. -/
theorem r_mean1_0_read (W : Valuation Cert.ReferenceIdeal.τ Cert.ReferenceIdeal.sig (Elt Ideal)) :
    (StableHlo.after (Cert.ReferenceIdeal.Ops.hostOps0_2 (F := Ideal)) W (Proc.devRef .tc Cert.ReferenceIdeal.main_v52) : (⟨Cert.ReferenceIdeal.S64, .f32⟩ : BufTy).Contents (Elt Ideal))
      = Host.divf (Host.reduceAdd (StableHlo.after (Cert.ReferenceIdeal.Ops.hostOps0_2 (F := Ideal)) W (Proc.devRef .tc Cert.ReferenceIdeal.main_v45) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  after_results_simp <;> rfl

/-- Those operations end by writing the variance's correction, the integer zero. -/
theorem r_corr1_0_read (W : Valuation Cert.ReferenceIdeal.τ Cert.ReferenceIdeal.sig (Elt Ideal)) :
    (StableHlo.after (Cert.ReferenceIdeal.Ops.hostOps0_2 (F := Ideal)) W (Proc.devRef .tc Cert.ReferenceIdeal.main_c_8) : (⟨Cert.ReferenceIdeal.S_, .i32⟩ : BufTy).Contents (Elt Ideal))
      = (constantI Cert.ReferenceIdeal.S_ 32 0#32) := by
  after_results

/-- The reference's variance vector after the twenty-two operations of its variance function, over any contents before
    them: under the same condition, the same column sums of squared deviations (the mean inside is kept as a row
    there too), over the vector of the difference; else the fill. -/
theorem r_var1_0_read (W : Valuation Cert.ReferenceIdeal.τ Cert.ReferenceIdeal.sig (Elt Ideal)) :
    (StableHlo.after (Cert.ReferenceIdeal.Ops.hostOps0_3 (F := Ideal)) W (Proc.devRef .tc Cert.ReferenceIdeal.main_v53) : (⟨Cert.ReferenceIdeal.S64, .f32⟩ : BufTy).Contents (Elt Ideal))
      = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (W (Proc.devRef .tc Cert.ReferenceIdeal.main_c_8) : (⟨Cert.ReferenceIdeal.S_, .i32⟩ : BufTy).Contents (Elt Ideal)))) (constant (F := Ideal) Cert.ReferenceIdeal.S_ .f32 0x00000000#32)))
          (Host.divf (Host.reduceAdd (mulf (subf (W (Proc.devRef .tc Cert.ReferenceIdeal.main_v45) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v45) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (W (Proc.devRef .tc Cert.ReferenceIdeal.main_v45) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v45) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (W (Proc.devRef .tc Cert.ReferenceIdeal.main_c_8) : (⟨Cert.ReferenceIdeal.S_, .i32⟩ : BufTy).Contents (Elt Ideal))))))
          (broadcastInDim Cert.ReferenceIdeal.S64 ![] Cert.ReferenceIdeal.Facts₀.bcast_S_S64 (constant (F := Ideal) Cert.ReferenceIdeal.S_ .f32 0x7FC00000#32)) := by
  after_results_simp <;> (try simp only [StableHlo.TRef.ofBuf, StableHlo.TRef.toBuf, cast_eq]) <;> rfl

/-- What the kernel program leaves as the mean row, over what it leaves as the input. -/
theorem k_mean1_0_val (c : Dev Cert.KernelIdeal.nD) :
    (KV m ρ c Cert.KernelIdeal.main_v44 : (⟨Cert.KernelIdeal.S1x64, .f32⟩ : BufTy).Contents (Elt Ideal)) = (Host.divf (broadcastInDim Cert.KernelIdeal.S1x64 ![1] Cert.KernelIdeal.Facts₀.bcast_S64_S1x64_1 (Host.reduceAdd (KV m ρ c Cert.KernelIdeal.main_v40 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  have e := k_mean1_0_read (Cert.KernelIdeal.Gen.W8 (F := Ideal) m ρ c)
  rw [Cert.KernelIdeal.Keep.toEnd_8 m ρ c Cert.KernelIdeal.main_v40 (by decide)] at e
  exact (Cert.KernelIdeal.Keep.toEnd_9 m ρ c Cert.KernelIdeal.main_v44 (by decide)).symm.trans e

/-- What the kernel program leaves as the variance row, over what it leaves as the input. -/
theorem k_var1_0_val (c : Dev Cert.KernelIdeal.nD) :
    (KV m ρ c Cert.KernelIdeal.main_v45 : (⟨Cert.KernelIdeal.S1x64, .f32⟩ : BufTy).Contents (Elt Ideal)) = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (constantI Cert.KernelIdeal.S_ 32 0#32))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (KV m ρ c Cert.KernelIdeal.main_v40 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v40 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (KV m ρ c Cert.KernelIdeal.main_v40 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v40 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (constantI Cert.KernelIdeal.S_ 32 0#32)))))
          (broadcastInDim Cert.KernelIdeal.S1x64 ![] Cert.KernelIdeal.Facts₀.bcast_S_S1x64 (constant (F := Ideal) Cert.KernelIdeal.S_ .f32 0x7FC00000#32)) := by
  have e := k_var1_0_read (Cert.KernelIdeal.Gen.W9 (F := Ideal) m ρ c)
  rw [Cert.KernelIdeal.Keep.toEnd_9 m ρ c Cert.KernelIdeal.main_v40 (by decide)] at e
  rw [show (Cert.KernelIdeal.Gen.W9 (F := Ideal) m ρ c (Proc.devRef .tc Cert.KernelIdeal.main_c) : (⟨Cert.KernelIdeal.S_, .i32⟩ : BufTy).Contents (Elt Ideal)) = (constantI Cert.KernelIdeal.S_ 32 0#32)
        from k_corr1_0_read (Cert.KernelIdeal.Gen.W8 (F := Ideal) m ρ c)] at e
  exact (Cert.KernelIdeal.Keep.toEnd_10 m ρ c Cert.KernelIdeal.main_v45 (by decide)).symm.trans e

/-- What the reference leaves as the mean vector, over what it leaves as the input. -/
theorem r_mean1_0_val (c : Dev Cert.ReferenceIdeal.nD) :
    (RV m' c Cert.ReferenceIdeal.main_v52 : (⟨Cert.ReferenceIdeal.S64, .f32⟩ : BufTy).Contents (Elt Ideal)) = Host.divf (Host.reduceAdd (RV m' c Cert.ReferenceIdeal.main_v45 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  have e := r_mean1_0_read (R2 m' c)
  rw [show (StableHlo.after (Cert.ReferenceIdeal.Ops.hostOps0_2 (F := Ideal)) (R2 m' c) (Proc.devRef .tc Cert.ReferenceIdeal.main_v45) : (⟨Cert.ReferenceIdeal.S100000x64, .f32⟩ : BufTy).Contents (Elt Ideal))
          = RV m' c Cert.ReferenceIdeal.main_v45
        from Cert.ReferenceIdeal.Keep.toEnd_3 m' c Cert.ReferenceIdeal.main_v45 (by decide)] at e
  exact (Cert.ReferenceIdeal.Keep.toEnd_3 m' c Cert.ReferenceIdeal.main_v52 (by decide)).symm.trans e

/-- What the reference leaves as the variance vector, over what it leaves as the input. -/
theorem r_var1_0_val (c : Dev Cert.ReferenceIdeal.nD) :
    (RV m' c Cert.ReferenceIdeal.main_v53 : (⟨Cert.ReferenceIdeal.S64, .f32⟩ : BufTy).Contents (Elt Ideal)) = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (constantI Cert.ReferenceIdeal.S_ 32 0#32))) (constant (F := Ideal) Cert.ReferenceIdeal.S_ .f32 0x00000000#32)))
          (Host.divf (Host.reduceAdd (mulf (subf (RV m' c Cert.ReferenceIdeal.main_v45 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v45 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (RV m' c Cert.ReferenceIdeal.main_v45 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v45 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (constantI Cert.ReferenceIdeal.S_ 32 0#32)))))
          (broadcastInDim Cert.ReferenceIdeal.S64 ![] Cert.ReferenceIdeal.Facts₀.bcast_S_S64 (constant (F := Ideal) Cert.ReferenceIdeal.S_ .f32 0x7FC00000#32)) := by
  have e := r_var1_0_read (R3 m' c)
  rw [Cert.ReferenceIdeal.Keep.toEnd_3 m' c Cert.ReferenceIdeal.main_v45 (by decide)] at e
  rw [show (R3 m' c (Proc.devRef .tc Cert.ReferenceIdeal.main_c_8) : (⟨Cert.ReferenceIdeal.S_, .i32⟩ : BufTy).Contents (Elt Ideal)) = (constantI Cert.ReferenceIdeal.S_ 32 0#32)
        from r_corr1_0_read (R2 m' c)] at e
  exact (Cert.ReferenceIdeal.Keep.toEnd_4 m' c Cert.ReferenceIdeal.main_v53 (by decide)).symm.trans e

/-- STATISTICS 1 OF LAYER 0. Where the two programs leave the same input array, the kernel program's mean row and
    variance row hold, in column j of their one row, what the reference's mean vector and variance vector hold at j. -/
theorem corr_stats1_0 (c : Dev Cert.KernelIdeal.nD)
    (hz : KV m ρ c Cert.KernelIdeal.main_v40 = RV m' c Cert.ReferenceIdeal.main_v45) :
    (∀ j : Fin 64, (KV m ρ c Cert.KernelIdeal.main_v44 : Vec Ideal Cert.KernelIdeal.S1x64 .f32) (ix2 (0 : Fin 1) j)
        = (RV m' c Cert.ReferenceIdeal.main_v52 : Vec Ideal Cert.ReferenceIdeal.S64 .f32) (ix1 j))
    ∧ (∀ j : Fin 64, (KV m ρ c Cert.KernelIdeal.main_v45 : Vec Ideal Cert.KernelIdeal.S1x64 .f32) (ix2 (0 : Fin 1) j)
        = (RV m' c Cert.ReferenceIdeal.main_v53 : Vec Ideal Cert.ReferenceIdeal.S64 .f32) (ix1 j)) := by
  refine ⟨fun j => ?_, fun j => ?_⟩
  · rw [k_mean1_0_val m ρ c, r_mean1_0_val m' c, hz]
    generalize RV m' c Cert.ReferenceIdeal.main_v45 = z
    exact mean_row64_eq _ _ _ _ _ j
  · rw [k_var1_0_val m ρ c, r_var1_0_val m' c, hz]
    generalize RV m' c Cert.ReferenceIdeal.main_v45 = z
    exact var_row64_eq _ _ _ _ _ _ _ j

/-! ## Layer 0, statistics 2 -/

/-- The kernel program's mean row after the seven operations that make it, over any contents before them: the column
    sums of the input laid as one row, over the row of the count. -/
theorem k_mean2_0_read (W : Valuation Cert.KernelIdeal.τ Cert.KernelIdeal.sig (Elt Ideal)) :
    (StableHlo.after (Cert.KernelIdeal.Gen.hostOps3 (F := Ideal)) W (Proc.devRef .tc Cert.KernelIdeal.main_v50) : (⟨Cert.KernelIdeal.S1x64, .f32⟩ : BufTy).Contents (Elt Ideal))
      = (Host.divf (broadcastInDim Cert.KernelIdeal.S1x64 ![1] Cert.KernelIdeal.Facts₀.bcast_S64_S1x64_1 (Host.reduceAdd (W (Proc.devRef .tc Cert.KernelIdeal.main_v46) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  after_results

/-- Those seven operations end by writing the variance's correction, the integer zero. -/
theorem k_corr2_0_read (W : Valuation Cert.KernelIdeal.τ Cert.KernelIdeal.sig (Elt Ideal)) :
    (StableHlo.after (Cert.KernelIdeal.Gen.hostOps3 (F := Ideal)) W (Proc.devRef .tc Cert.KernelIdeal.main_c_5) : (⟨Cert.KernelIdeal.S_, .i32⟩ : BufTy).Contents (Elt Ideal))
      = (constantI Cert.KernelIdeal.S_ 32 0#32) := by
  after_results

/-- The kernel program's variance row after the twenty-three operations of its variance function, over any contents
    before them: under the condition "count minus correction is positive", the column sums of the squared deviations
    from the mean laid as one row, over the row of that difference; else the fill. -/
theorem k_var2_0_read (W : Valuation Cert.KernelIdeal.τ Cert.KernelIdeal.sig (Elt Ideal)) :
    (StableHlo.after (Cert.KernelIdeal.Gen.hostOps3_1 (F := Ideal)) W (Proc.devRef .tc Cert.KernelIdeal.main_v51) : (⟨Cert.KernelIdeal.S1x64, .f32⟩ : BufTy).Contents (Elt Ideal))
      = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (W (Proc.devRef .tc Cert.KernelIdeal.main_c_5) : (⟨Cert.KernelIdeal.S_, .i32⟩ : BufTy).Contents (Elt Ideal)))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (W (Proc.devRef .tc Cert.KernelIdeal.main_v46) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v46) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (W (Proc.devRef .tc Cert.KernelIdeal.main_v46) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v46) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (W (Proc.devRef .tc Cert.KernelIdeal.main_c_5) : (⟨Cert.KernelIdeal.S_, .i32⟩ : BufTy).Contents (Elt Ideal))))))
          (broadcastInDim Cert.KernelIdeal.S1x64 ![] Cert.KernelIdeal.Facts₀.bcast_S_S1x64 (constant (F := Ideal) Cert.KernelIdeal.S_ .f32 0x7FC00000#32)) := by
  after_results_simp <;> (try simp only [StableHlo.TRef.ofBuf, StableHlo.TRef.toBuf, cast_eq]) <;> rfl

/-- The reference's mean vector after the operations that make it, over any contents before them: the column sums of
    the array those same operations leave as the input, over the vector of the count. -/
theorem r_mean2_0_read (W : Valuation Cert.ReferenceIdeal.τ Cert.ReferenceIdeal.sig (Elt Ideal)) :
    (StableHlo.after (Cert.ReferenceIdeal.Ops.hostOps0_6 (F := Ideal)) W (Proc.devRef .tc Cert.ReferenceIdeal.main_v84) : (⟨Cert.ReferenceIdeal.S64, .f32⟩ : BufTy).Contents (Elt Ideal))
      = Host.divf (Host.reduceAdd (StableHlo.after (Cert.ReferenceIdeal.Ops.hostOps0_6 (F := Ideal)) W (Proc.devRef .tc Cert.ReferenceIdeal.main_v77) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  after_results_simp <;> rfl

/-- Those operations end by writing the variance's correction, the integer zero. -/
theorem r_corr2_0_read (W : Valuation Cert.ReferenceIdeal.τ Cert.ReferenceIdeal.sig (Elt Ideal)) :
    (StableHlo.after (Cert.ReferenceIdeal.Ops.hostOps0_6 (F := Ideal)) W (Proc.devRef .tc Cert.ReferenceIdeal.main_c_12) : (⟨Cert.ReferenceIdeal.S_, .i32⟩ : BufTy).Contents (Elt Ideal))
      = (constantI Cert.ReferenceIdeal.S_ 32 0#32) := by
  after_results

/-- The reference's variance vector after the twenty-two operations of its variance function, over any contents before
    them: under the same condition, the same column sums of squared deviations (the mean inside is kept as a row
    there too), over the vector of the difference; else the fill. -/
theorem r_var2_0_read (W : Valuation Cert.ReferenceIdeal.τ Cert.ReferenceIdeal.sig (Elt Ideal)) :
    (StableHlo.after (Cert.ReferenceIdeal.Ops.hostOps0_7 (F := Ideal)) W (Proc.devRef .tc Cert.ReferenceIdeal.main_v85) : (⟨Cert.ReferenceIdeal.S64, .f32⟩ : BufTy).Contents (Elt Ideal))
      = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (W (Proc.devRef .tc Cert.ReferenceIdeal.main_c_12) : (⟨Cert.ReferenceIdeal.S_, .i32⟩ : BufTy).Contents (Elt Ideal)))) (constant (F := Ideal) Cert.ReferenceIdeal.S_ .f32 0x00000000#32)))
          (Host.divf (Host.reduceAdd (mulf (subf (W (Proc.devRef .tc Cert.ReferenceIdeal.main_v77) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v77) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (W (Proc.devRef .tc Cert.ReferenceIdeal.main_v77) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v77) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (W (Proc.devRef .tc Cert.ReferenceIdeal.main_c_12) : (⟨Cert.ReferenceIdeal.S_, .i32⟩ : BufTy).Contents (Elt Ideal))))))
          (broadcastInDim Cert.ReferenceIdeal.S64 ![] Cert.ReferenceIdeal.Facts₀.bcast_S_S64 (constant (F := Ideal) Cert.ReferenceIdeal.S_ .f32 0x7FC00000#32)) := by
  after_results_simp <;> (try simp only [StableHlo.TRef.ofBuf, StableHlo.TRef.toBuf, cast_eq]) <;> rfl

/-- What the kernel program leaves as the mean row, over what it leaves as the input. -/
theorem k_mean2_0_val (c : Dev Cert.KernelIdeal.nD) :
    (KV m ρ c Cert.KernelIdeal.main_v50 : (⟨Cert.KernelIdeal.S1x64, .f32⟩ : BufTy).Contents (Elt Ideal)) = (Host.divf (broadcastInDim Cert.KernelIdeal.S1x64 ![1] Cert.KernelIdeal.Facts₀.bcast_S64_S1x64_1 (Host.reduceAdd (KV m ρ c Cert.KernelIdeal.main_v46 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  have e := k_mean2_0_read (Cert.KernelIdeal.Gen.W11 (F := Ideal) m ρ c)
  rw [Cert.KernelIdeal.Keep.toEnd_11 m ρ c Cert.KernelIdeal.main_v46 (by decide)] at e
  exact (Cert.KernelIdeal.Keep.toEnd_12 m ρ c Cert.KernelIdeal.main_v50 (by decide)).symm.trans e

/-- What the kernel program leaves as the variance row, over what it leaves as the input. -/
theorem k_var2_0_val (c : Dev Cert.KernelIdeal.nD) :
    (KV m ρ c Cert.KernelIdeal.main_v51 : (⟨Cert.KernelIdeal.S1x64, .f32⟩ : BufTy).Contents (Elt Ideal)) = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (constantI Cert.KernelIdeal.S_ 32 0#32))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (KV m ρ c Cert.KernelIdeal.main_v46 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v46 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (KV m ρ c Cert.KernelIdeal.main_v46 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v46 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (constantI Cert.KernelIdeal.S_ 32 0#32)))))
          (broadcastInDim Cert.KernelIdeal.S1x64 ![] Cert.KernelIdeal.Facts₀.bcast_S_S1x64 (constant (F := Ideal) Cert.KernelIdeal.S_ .f32 0x7FC00000#32)) := by
  have e := k_var2_0_read (Cert.KernelIdeal.Gen.W12 (F := Ideal) m ρ c)
  rw [Cert.KernelIdeal.Keep.toEnd_12 m ρ c Cert.KernelIdeal.main_v46 (by decide)] at e
  rw [show (Cert.KernelIdeal.Gen.W12 (F := Ideal) m ρ c (Proc.devRef .tc Cert.KernelIdeal.main_c_5) : (⟨Cert.KernelIdeal.S_, .i32⟩ : BufTy).Contents (Elt Ideal)) = (constantI Cert.KernelIdeal.S_ 32 0#32)
        from k_corr2_0_read (Cert.KernelIdeal.Gen.W11 (F := Ideal) m ρ c)] at e
  exact (Cert.KernelIdeal.Keep.toEnd_13 m ρ c Cert.KernelIdeal.main_v51 (by decide)).symm.trans e

/-- What the reference leaves as the mean vector, over what it leaves as the input. -/
theorem r_mean2_0_val (c : Dev Cert.ReferenceIdeal.nD) :
    (RV m' c Cert.ReferenceIdeal.main_v84 : (⟨Cert.ReferenceIdeal.S64, .f32⟩ : BufTy).Contents (Elt Ideal)) = Host.divf (Host.reduceAdd (RV m' c Cert.ReferenceIdeal.main_v77 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  have e := r_mean2_0_read (R6 m' c)
  rw [show (StableHlo.after (Cert.ReferenceIdeal.Ops.hostOps0_6 (F := Ideal)) (R6 m' c) (Proc.devRef .tc Cert.ReferenceIdeal.main_v77) : (⟨Cert.ReferenceIdeal.S100000x64, .f32⟩ : BufTy).Contents (Elt Ideal))
          = RV m' c Cert.ReferenceIdeal.main_v77
        from Cert.ReferenceIdeal.Keep.toEnd_7 m' c Cert.ReferenceIdeal.main_v77 (by decide)] at e
  exact (Cert.ReferenceIdeal.Keep.toEnd_7 m' c Cert.ReferenceIdeal.main_v84 (by decide)).symm.trans e

/-- What the reference leaves as the variance vector, over what it leaves as the input. -/
theorem r_var2_0_val (c : Dev Cert.ReferenceIdeal.nD) :
    (RV m' c Cert.ReferenceIdeal.main_v85 : (⟨Cert.ReferenceIdeal.S64, .f32⟩ : BufTy).Contents (Elt Ideal)) = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (constantI Cert.ReferenceIdeal.S_ 32 0#32))) (constant (F := Ideal) Cert.ReferenceIdeal.S_ .f32 0x00000000#32)))
          (Host.divf (Host.reduceAdd (mulf (subf (RV m' c Cert.ReferenceIdeal.main_v77 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v77 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (RV m' c Cert.ReferenceIdeal.main_v77 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v77 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (constantI Cert.ReferenceIdeal.S_ 32 0#32)))))
          (broadcastInDim Cert.ReferenceIdeal.S64 ![] Cert.ReferenceIdeal.Facts₀.bcast_S_S64 (constant (F := Ideal) Cert.ReferenceIdeal.S_ .f32 0x7FC00000#32)) := by
  have e := r_var2_0_read (R7 m' c)
  rw [Cert.ReferenceIdeal.Keep.toEnd_7 m' c Cert.ReferenceIdeal.main_v77 (by decide)] at e
  rw [show (R7 m' c (Proc.devRef .tc Cert.ReferenceIdeal.main_c_12) : (⟨Cert.ReferenceIdeal.S_, .i32⟩ : BufTy).Contents (Elt Ideal)) = (constantI Cert.ReferenceIdeal.S_ 32 0#32)
        from r_corr2_0_read (R6 m' c)] at e
  exact (Cert.ReferenceIdeal.Keep.toEnd_8 m' c Cert.ReferenceIdeal.main_v85 (by decide)).symm.trans e

/-- STATISTICS 2 OF LAYER 0. Where the two programs leave the same input array, the kernel program's mean row and
    variance row hold, in column j of their one row, what the reference's mean vector and variance vector hold at j. -/
theorem corr_stats2_0 (c : Dev Cert.KernelIdeal.nD)
    (hz : KV m ρ c Cert.KernelIdeal.main_v46 = RV m' c Cert.ReferenceIdeal.main_v77) :
    (∀ j : Fin 64, (KV m ρ c Cert.KernelIdeal.main_v50 : Vec Ideal Cert.KernelIdeal.S1x64 .f32) (ix2 (0 : Fin 1) j)
        = (RV m' c Cert.ReferenceIdeal.main_v84 : Vec Ideal Cert.ReferenceIdeal.S64 .f32) (ix1 j))
    ∧ (∀ j : Fin 64, (KV m ρ c Cert.KernelIdeal.main_v51 : Vec Ideal Cert.KernelIdeal.S1x64 .f32) (ix2 (0 : Fin 1) j)
        = (RV m' c Cert.ReferenceIdeal.main_v85 : Vec Ideal Cert.ReferenceIdeal.S64 .f32) (ix1 j)) := by
  refine ⟨fun j => ?_, fun j => ?_⟩
  · rw [k_mean2_0_val m ρ c, r_mean2_0_val m' c, hz]
    generalize RV m' c Cert.ReferenceIdeal.main_v77 = z
    exact mean_row64_eq _ _ _ _ _ j
  · rw [k_var2_0_val m ρ c, r_var2_0_val m' c, hz]
    generalize RV m' c Cert.ReferenceIdeal.main_v77 = z
    exact var_row64_eq _ _ _ _ _ _ _ j

end Cert.Bridge

end
-- ==== Proof.Bridge.Stats_L1.lean ====
/- The batch-norm statistics of a layer, on the two sides. Both programs compute, from the same [100000, 64] array z, the
   per-column mean  Σ_i z[i, j] / 100000  and the per-column variance  Σ_i (z[i, j] − mean[j])² / (100000 − 0)  (guarded
   by "100000 − 0 > 0", else a fill value), the sums being the same host reduction of the same arrays on both sides:
   inside the variance the mean is kept as a [1, 64] row by both. They differ only in the last steps: the kernel program
   lays each sum as a [1, 64] row before dividing (and selecting), the reference divides (and selects) the [64] vector.
   Column j of the row is entry j of the vector (StatsRow.lean), so the statistics agree entry by entry; the sums are
   never opened. Each side's value is first read off its operation list over arbitrary earlier contents, then carried
   to the contents the program leaves at its end. -/
import proofs.«417278_j53197464928922_1_alg».proof.Proof.Setup
import proofs.«417278_j53197464928922_1_alg».proof.Proof.KKeep
import proofs.«417278_j53197464928922_1_alg».proof.Proof.RKeep
import proofs.«417278_j53197464928922_1_alg».proof.Proof.Bridge.StatsRow
import Idealize.ShloMosaic.Lib.IdealHost
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.ValueIdx Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-! ## Layer 1, statistics 1 -/

/-- The kernel program's mean row after the seven operations that make it, over any contents before them: the column
    sums of the input laid as one row, over the row of the count. -/
theorem k_mean1_1_read (W : Valuation Cert.KernelIdeal.τ Cert.KernelIdeal.sig (Elt Ideal)) :
    (StableHlo.after (Cert.KernelIdeal.Gen.hostOps6 (F := Ideal)) W (Proc.devRef .tc Cert.KernelIdeal.main_v92) : (⟨Cert.KernelIdeal.S1x64, .f32⟩ : BufTy).Contents (Elt Ideal))
      = (Host.divf (broadcastInDim Cert.KernelIdeal.S1x64 ![1] Cert.KernelIdeal.Facts₀.bcast_S64_S1x64_1 (Host.reduceAdd (W (Proc.devRef .tc Cert.KernelIdeal.main_v88) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  after_results

/-- Those seven operations end by writing the variance's correction, the integer zero. -/
theorem k_corr1_1_read (W : Valuation Cert.KernelIdeal.τ Cert.KernelIdeal.sig (Elt Ideal)) :
    (StableHlo.after (Cert.KernelIdeal.Gen.hostOps6 (F := Ideal)) W (Proc.devRef .tc Cert.KernelIdeal.main_c_10) : (⟨Cert.KernelIdeal.S_, .i32⟩ : BufTy).Contents (Elt Ideal))
      = (constantI Cert.KernelIdeal.S_ 32 0#32) := by
  after_results

/-- The kernel program's variance row after the twenty-three operations of its variance function, over any contents
    before them: under the condition "count minus correction is positive", the column sums of the squared deviations
    from the mean laid as one row, over the row of that difference; else the fill. -/
theorem k_var1_1_read (W : Valuation Cert.KernelIdeal.τ Cert.KernelIdeal.sig (Elt Ideal)) :
    (StableHlo.after (Cert.KernelIdeal.Gen.hostOps6_1 (F := Ideal)) W (Proc.devRef .tc Cert.KernelIdeal.main_v93) : (⟨Cert.KernelIdeal.S1x64, .f32⟩ : BufTy).Contents (Elt Ideal))
      = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (W (Proc.devRef .tc Cert.KernelIdeal.main_c_10) : (⟨Cert.KernelIdeal.S_, .i32⟩ : BufTy).Contents (Elt Ideal)))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (W (Proc.devRef .tc Cert.KernelIdeal.main_v88) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v88) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (W (Proc.devRef .tc Cert.KernelIdeal.main_v88) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v88) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (W (Proc.devRef .tc Cert.KernelIdeal.main_c_10) : (⟨Cert.KernelIdeal.S_, .i32⟩ : BufTy).Contents (Elt Ideal))))))
          (broadcastInDim Cert.KernelIdeal.S1x64 ![] Cert.KernelIdeal.Facts₀.bcast_S_S1x64 (constant (F := Ideal) Cert.KernelIdeal.S_ .f32 0x7FC00000#32)) := by
  after_results_simp <;> (try simp only [StableHlo.TRef.ofBuf, StableHlo.TRef.toBuf, cast_eq]) <;> rfl

/-- The reference's mean vector after the operations that make it, over any contents before them: the column sums of
    the array those same operations leave as the input, over the vector of the count. -/
theorem r_mean1_1_read (W : Valuation Cert.ReferenceIdeal.τ Cert.ReferenceIdeal.sig (Elt Ideal)) :
    (StableHlo.after (Cert.ReferenceIdeal.Ops.hostOps0_12 (F := Ideal)) W (Proc.devRef .tc Cert.ReferenceIdeal.main_v143) : (⟨Cert.ReferenceIdeal.S64, .f32⟩ : BufTy).Contents (Elt Ideal))
      = Host.divf (Host.reduceAdd (StableHlo.after (Cert.ReferenceIdeal.Ops.hostOps0_12 (F := Ideal)) W (Proc.devRef .tc Cert.ReferenceIdeal.main_v136) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  after_results_simp <;> rfl

/-- Those operations end by writing the variance's correction, the integer zero. -/
theorem r_corr1_1_read (W : Valuation Cert.ReferenceIdeal.τ Cert.ReferenceIdeal.sig (Elt Ideal)) :
    (StableHlo.after (Cert.ReferenceIdeal.Ops.hostOps0_12 (F := Ideal)) W (Proc.devRef .tc Cert.ReferenceIdeal.main_c_22) : (⟨Cert.ReferenceIdeal.S_, .i32⟩ : BufTy).Contents (Elt Ideal))
      = (constantI Cert.ReferenceIdeal.S_ 32 0#32) := by
  after_results

/-- The reference's variance vector after the twenty-two operations of its variance function, over any contents before
    them: under the same condition, the same column sums of squared deviations (the mean inside is kept as a row
    there too), over the vector of the difference; else the fill. -/
theorem r_var1_1_read (W : Valuation Cert.ReferenceIdeal.τ Cert.ReferenceIdeal.sig (Elt Ideal)) :
    (StableHlo.after (Cert.ReferenceIdeal.Ops.hostOps0_13 (F := Ideal)) W (Proc.devRef .tc Cert.ReferenceIdeal.main_v144) : (⟨Cert.ReferenceIdeal.S64, .f32⟩ : BufTy).Contents (Elt Ideal))
      = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (W (Proc.devRef .tc Cert.ReferenceIdeal.main_c_22) : (⟨Cert.ReferenceIdeal.S_, .i32⟩ : BufTy).Contents (Elt Ideal)))) (constant (F := Ideal) Cert.ReferenceIdeal.S_ .f32 0x00000000#32)))
          (Host.divf (Host.reduceAdd (mulf (subf (W (Proc.devRef .tc Cert.ReferenceIdeal.main_v136) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v136) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (W (Proc.devRef .tc Cert.ReferenceIdeal.main_v136) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v136) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (W (Proc.devRef .tc Cert.ReferenceIdeal.main_c_22) : (⟨Cert.ReferenceIdeal.S_, .i32⟩ : BufTy).Contents (Elt Ideal))))))
          (broadcastInDim Cert.ReferenceIdeal.S64 ![] Cert.ReferenceIdeal.Facts₀.bcast_S_S64 (constant (F := Ideal) Cert.ReferenceIdeal.S_ .f32 0x7FC00000#32)) := by
  after_results_simp <;> (try simp only [StableHlo.TRef.ofBuf, StableHlo.TRef.toBuf, cast_eq]) <;> rfl

/-- What the kernel program leaves as the mean row, over what it leaves as the input. -/
theorem k_mean1_1_val (c : Dev Cert.KernelIdeal.nD) :
    (KV m ρ c Cert.KernelIdeal.main_v92 : (⟨Cert.KernelIdeal.S1x64, .f32⟩ : BufTy).Contents (Elt Ideal)) = (Host.divf (broadcastInDim Cert.KernelIdeal.S1x64 ![1] Cert.KernelIdeal.Facts₀.bcast_S64_S1x64_1 (Host.reduceAdd (KV m ρ c Cert.KernelIdeal.main_v88 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  have e := k_mean1_1_read (Cert.KernelIdeal.Gen.W20 (F := Ideal) m ρ c)
  rw [Cert.KernelIdeal.Keep.toEnd_20 m ρ c Cert.KernelIdeal.main_v88 (by decide)] at e
  exact (Cert.KernelIdeal.Keep.toEnd_21 m ρ c Cert.KernelIdeal.main_v92 (by decide)).symm.trans e

/-- What the kernel program leaves as the variance row, over what it leaves as the input. -/
theorem k_var1_1_val (c : Dev Cert.KernelIdeal.nD) :
    (KV m ρ c Cert.KernelIdeal.main_v93 : (⟨Cert.KernelIdeal.S1x64, .f32⟩ : BufTy).Contents (Elt Ideal)) = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (constantI Cert.KernelIdeal.S_ 32 0#32))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (KV m ρ c Cert.KernelIdeal.main_v88 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v88 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (KV m ρ c Cert.KernelIdeal.main_v88 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v88 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (constantI Cert.KernelIdeal.S_ 32 0#32)))))
          (broadcastInDim Cert.KernelIdeal.S1x64 ![] Cert.KernelIdeal.Facts₀.bcast_S_S1x64 (constant (F := Ideal) Cert.KernelIdeal.S_ .f32 0x7FC00000#32)) := by
  have e := k_var1_1_read (Cert.KernelIdeal.Gen.W21 (F := Ideal) m ρ c)
  rw [Cert.KernelIdeal.Keep.toEnd_21 m ρ c Cert.KernelIdeal.main_v88 (by decide)] at e
  rw [show (Cert.KernelIdeal.Gen.W21 (F := Ideal) m ρ c (Proc.devRef .tc Cert.KernelIdeal.main_c_10) : (⟨Cert.KernelIdeal.S_, .i32⟩ : BufTy).Contents (Elt Ideal)) = (constantI Cert.KernelIdeal.S_ 32 0#32)
        from k_corr1_1_read (Cert.KernelIdeal.Gen.W20 (F := Ideal) m ρ c)] at e
  exact (Cert.KernelIdeal.Keep.toEnd_22 m ρ c Cert.KernelIdeal.main_v93 (by decide)).symm.trans e

/-- What the reference leaves as the mean vector, over what it leaves as the input. -/
theorem r_mean1_1_val (c : Dev Cert.ReferenceIdeal.nD) :
    (RV m' c Cert.ReferenceIdeal.main_v143 : (⟨Cert.ReferenceIdeal.S64, .f32⟩ : BufTy).Contents (Elt Ideal)) = Host.divf (Host.reduceAdd (RV m' c Cert.ReferenceIdeal.main_v136 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  have e := r_mean1_1_read (R12 m' c)
  rw [show (StableHlo.after (Cert.ReferenceIdeal.Ops.hostOps0_12 (F := Ideal)) (R12 m' c) (Proc.devRef .tc Cert.ReferenceIdeal.main_v136) : (⟨Cert.ReferenceIdeal.S100000x64, .f32⟩ : BufTy).Contents (Elt Ideal))
          = RV m' c Cert.ReferenceIdeal.main_v136
        from Cert.ReferenceIdeal.Keep.toEnd_13 m' c Cert.ReferenceIdeal.main_v136 (by decide)] at e
  exact (Cert.ReferenceIdeal.Keep.toEnd_13 m' c Cert.ReferenceIdeal.main_v143 (by decide)).symm.trans e

/-- What the reference leaves as the variance vector, over what it leaves as the input. -/
theorem r_var1_1_val (c : Dev Cert.ReferenceIdeal.nD) :
    (RV m' c Cert.ReferenceIdeal.main_v144 : (⟨Cert.ReferenceIdeal.S64, .f32⟩ : BufTy).Contents (Elt Ideal)) = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (constantI Cert.ReferenceIdeal.S_ 32 0#32))) (constant (F := Ideal) Cert.ReferenceIdeal.S_ .f32 0x00000000#32)))
          (Host.divf (Host.reduceAdd (mulf (subf (RV m' c Cert.ReferenceIdeal.main_v136 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v136 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (RV m' c Cert.ReferenceIdeal.main_v136 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v136 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (constantI Cert.ReferenceIdeal.S_ 32 0#32)))))
          (broadcastInDim Cert.ReferenceIdeal.S64 ![] Cert.ReferenceIdeal.Facts₀.bcast_S_S64 (constant (F := Ideal) Cert.ReferenceIdeal.S_ .f32 0x7FC00000#32)) := by
  have e := r_var1_1_read (R13 m' c)
  rw [Cert.ReferenceIdeal.Keep.toEnd_13 m' c Cert.ReferenceIdeal.main_v136 (by decide)] at e
  rw [show (R13 m' c (Proc.devRef .tc Cert.ReferenceIdeal.main_c_22) : (⟨Cert.ReferenceIdeal.S_, .i32⟩ : BufTy).Contents (Elt Ideal)) = (constantI Cert.ReferenceIdeal.S_ 32 0#32)
        from r_corr1_1_read (R12 m' c)] at e
  exact (Cert.ReferenceIdeal.Keep.toEnd_14 m' c Cert.ReferenceIdeal.main_v144 (by decide)).symm.trans e

/-- STATISTICS 1 OF LAYER 1. Where the two programs leave the same input array, the kernel program's mean row and
    variance row hold, in column j of their one row, what the reference's mean vector and variance vector hold at j. -/
theorem corr_stats1_1 (c : Dev Cert.KernelIdeal.nD)
    (hz : KV m ρ c Cert.KernelIdeal.main_v88 = RV m' c Cert.ReferenceIdeal.main_v136) :
    (∀ j : Fin 64, (KV m ρ c Cert.KernelIdeal.main_v92 : Vec Ideal Cert.KernelIdeal.S1x64 .f32) (ix2 (0 : Fin 1) j)
        = (RV m' c Cert.ReferenceIdeal.main_v143 : Vec Ideal Cert.ReferenceIdeal.S64 .f32) (ix1 j))
    ∧ (∀ j : Fin 64, (KV m ρ c Cert.KernelIdeal.main_v93 : Vec Ideal Cert.KernelIdeal.S1x64 .f32) (ix2 (0 : Fin 1) j)
        = (RV m' c Cert.ReferenceIdeal.main_v144 : Vec Ideal Cert.ReferenceIdeal.S64 .f32) (ix1 j)) := by
  refine ⟨fun j => ?_, fun j => ?_⟩
  · rw [k_mean1_1_val m ρ c, r_mean1_1_val m' c, hz]
    generalize RV m' c Cert.ReferenceIdeal.main_v136 = z
    exact mean_row64_eq _ _ _ _ _ j
  · rw [k_var1_1_val m ρ c, r_var1_1_val m' c, hz]
    generalize RV m' c Cert.ReferenceIdeal.main_v136 = z
    exact var_row64_eq _ _ _ _ _ _ _ j

/-! ## Layer 1, statistics 2 -/

/-- The kernel program's mean row after the seven operations that make it, over any contents before them: the column
    sums of the input laid as one row, over the row of the count. -/
theorem k_mean2_1_read (W : Valuation Cert.KernelIdeal.τ Cert.KernelIdeal.sig (Elt Ideal)) :
    (StableHlo.after (Cert.KernelIdeal.Gen.hostOps7 (F := Ideal)) W (Proc.devRef .tc Cert.KernelIdeal.main_v98) : (⟨Cert.KernelIdeal.S1x64, .f32⟩ : BufTy).Contents (Elt Ideal))
      = (Host.divf (broadcastInDim Cert.KernelIdeal.S1x64 ![1] Cert.KernelIdeal.Facts₀.bcast_S64_S1x64_1 (Host.reduceAdd (W (Proc.devRef .tc Cert.KernelIdeal.main_v94) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  after_results

/-- Those seven operations end by writing the variance's correction, the integer zero. -/
theorem k_corr2_1_read (W : Valuation Cert.KernelIdeal.τ Cert.KernelIdeal.sig (Elt Ideal)) :
    (StableHlo.after (Cert.KernelIdeal.Gen.hostOps7 (F := Ideal)) W (Proc.devRef .tc Cert.KernelIdeal.main_c_13) : (⟨Cert.KernelIdeal.S_, .i32⟩ : BufTy).Contents (Elt Ideal))
      = (constantI Cert.KernelIdeal.S_ 32 0#32) := by
  after_results

/-- The kernel program's variance row after the twenty-three operations of its variance function, over any contents
    before them: under the condition "count minus correction is positive", the column sums of the squared deviations
    from the mean laid as one row, over the row of that difference; else the fill. -/
theorem k_var2_1_read (W : Valuation Cert.KernelIdeal.τ Cert.KernelIdeal.sig (Elt Ideal)) :
    (StableHlo.after (Cert.KernelIdeal.Gen.hostOps7_1 (F := Ideal)) W (Proc.devRef .tc Cert.KernelIdeal.main_v99) : (⟨Cert.KernelIdeal.S1x64, .f32⟩ : BufTy).Contents (Elt Ideal))
      = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (W (Proc.devRef .tc Cert.KernelIdeal.main_c_13) : (⟨Cert.KernelIdeal.S_, .i32⟩ : BufTy).Contents (Elt Ideal)))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (W (Proc.devRef .tc Cert.KernelIdeal.main_v94) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v94) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (W (Proc.devRef .tc Cert.KernelIdeal.main_v94) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v94) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (W (Proc.devRef .tc Cert.KernelIdeal.main_c_13) : (⟨Cert.KernelIdeal.S_, .i32⟩ : BufTy).Contents (Elt Ideal))))))
          (broadcastInDim Cert.KernelIdeal.S1x64 ![] Cert.KernelIdeal.Facts₀.bcast_S_S1x64 (constant (F := Ideal) Cert.KernelIdeal.S_ .f32 0x7FC00000#32)) := by
  after_results_simp <;> (try simp only [StableHlo.TRef.ofBuf, StableHlo.TRef.toBuf, cast_eq]) <;> rfl

/-- The reference's mean vector after the operations that make it, over any contents before them: the column sums of
    the array those same operations leave as the input, over the vector of the count. -/
theorem r_mean2_1_read (W : Valuation Cert.ReferenceIdeal.τ Cert.ReferenceIdeal.sig (Elt Ideal)) :
    (StableHlo.after (Cert.ReferenceIdeal.Ops.hostOps0_16 (F := Ideal)) W (Proc.devRef .tc Cert.ReferenceIdeal.main_v175) : (⟨Cert.ReferenceIdeal.S64, .f32⟩ : BufTy).Contents (Elt Ideal))
      = Host.divf (Host.reduceAdd (StableHlo.after (Cert.ReferenceIdeal.Ops.hostOps0_16 (F := Ideal)) W (Proc.devRef .tc Cert.ReferenceIdeal.main_v168) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  after_results_simp <;> rfl

/-- Those operations end by writing the variance's correction, the integer zero. -/
theorem r_corr2_1_read (W : Valuation Cert.ReferenceIdeal.τ Cert.ReferenceIdeal.sig (Elt Ideal)) :
    (StableHlo.after (Cert.ReferenceIdeal.Ops.hostOps0_16 (F := Ideal)) W (Proc.devRef .tc Cert.ReferenceIdeal.main_c_26) : (⟨Cert.ReferenceIdeal.S_, .i32⟩ : BufTy).Contents (Elt Ideal))
      = (constantI Cert.ReferenceIdeal.S_ 32 0#32) := by
  after_results

/-- The reference's variance vector after the twenty-two operations of its variance function, over any contents before
    them: under the same condition, the same column sums of squared deviations (the mean inside is kept as a row
    there too), over the vector of the difference; else the fill. -/
theorem r_var2_1_read (W : Valuation Cert.ReferenceIdeal.τ Cert.ReferenceIdeal.sig (Elt Ideal)) :
    (StableHlo.after (Cert.ReferenceIdeal.Ops.hostOps0_17 (F := Ideal)) W (Proc.devRef .tc Cert.ReferenceIdeal.main_v176) : (⟨Cert.ReferenceIdeal.S64, .f32⟩ : BufTy).Contents (Elt Ideal))
      = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (W (Proc.devRef .tc Cert.ReferenceIdeal.main_c_26) : (⟨Cert.ReferenceIdeal.S_, .i32⟩ : BufTy).Contents (Elt Ideal)))) (constant (F := Ideal) Cert.ReferenceIdeal.S_ .f32 0x00000000#32)))
          (Host.divf (Host.reduceAdd (mulf (subf (W (Proc.devRef .tc Cert.ReferenceIdeal.main_v168) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v168) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (W (Proc.devRef .tc Cert.ReferenceIdeal.main_v168) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v168) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (W (Proc.devRef .tc Cert.ReferenceIdeal.main_c_26) : (⟨Cert.ReferenceIdeal.S_, .i32⟩ : BufTy).Contents (Elt Ideal))))))
          (broadcastInDim Cert.ReferenceIdeal.S64 ![] Cert.ReferenceIdeal.Facts₀.bcast_S_S64 (constant (F := Ideal) Cert.ReferenceIdeal.S_ .f32 0x7FC00000#32)) := by
  after_results_simp <;> (try simp only [StableHlo.TRef.ofBuf, StableHlo.TRef.toBuf, cast_eq]) <;> rfl

/-- What the kernel program leaves as the mean row, over what it leaves as the input. -/
theorem k_mean2_1_val (c : Dev Cert.KernelIdeal.nD) :
    (KV m ρ c Cert.KernelIdeal.main_v98 : (⟨Cert.KernelIdeal.S1x64, .f32⟩ : BufTy).Contents (Elt Ideal)) = (Host.divf (broadcastInDim Cert.KernelIdeal.S1x64 ![1] Cert.KernelIdeal.Facts₀.bcast_S64_S1x64_1 (Host.reduceAdd (KV m ρ c Cert.KernelIdeal.main_v94 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  have e := k_mean2_1_read (Cert.KernelIdeal.Gen.W23 (F := Ideal) m ρ c)
  rw [Cert.KernelIdeal.Keep.toEnd_23 m ρ c Cert.KernelIdeal.main_v94 (by decide)] at e
  exact (Cert.KernelIdeal.Keep.toEnd_24 m ρ c Cert.KernelIdeal.main_v98 (by decide)).symm.trans e

/-- What the kernel program leaves as the variance row, over what it leaves as the input. -/
theorem k_var2_1_val (c : Dev Cert.KernelIdeal.nD) :
    (KV m ρ c Cert.KernelIdeal.main_v99 : (⟨Cert.KernelIdeal.S1x64, .f32⟩ : BufTy).Contents (Elt Ideal)) = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (constantI Cert.KernelIdeal.S_ 32 0#32))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (KV m ρ c Cert.KernelIdeal.main_v94 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v94 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (KV m ρ c Cert.KernelIdeal.main_v94 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v94 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (constantI Cert.KernelIdeal.S_ 32 0#32)))))
          (broadcastInDim Cert.KernelIdeal.S1x64 ![] Cert.KernelIdeal.Facts₀.bcast_S_S1x64 (constant (F := Ideal) Cert.KernelIdeal.S_ .f32 0x7FC00000#32)) := by
  have e := k_var2_1_read (Cert.KernelIdeal.Gen.W24 (F := Ideal) m ρ c)
  rw [Cert.KernelIdeal.Keep.toEnd_24 m ρ c Cert.KernelIdeal.main_v94 (by decide)] at e
  rw [show (Cert.KernelIdeal.Gen.W24 (F := Ideal) m ρ c (Proc.devRef .tc Cert.KernelIdeal.main_c_13) : (⟨Cert.KernelIdeal.S_, .i32⟩ : BufTy).Contents (Elt Ideal)) = (constantI Cert.KernelIdeal.S_ 32 0#32)
        from k_corr2_1_read (Cert.KernelIdeal.Gen.W23 (F := Ideal) m ρ c)] at e
  exact (Cert.KernelIdeal.Keep.toEnd_25 m ρ c Cert.KernelIdeal.main_v99 (by decide)).symm.trans e

/-- What the reference leaves as the mean vector, over what it leaves as the input. -/
theorem r_mean2_1_val (c : Dev Cert.ReferenceIdeal.nD) :
    (RV m' c Cert.ReferenceIdeal.main_v175 : (⟨Cert.ReferenceIdeal.S64, .f32⟩ : BufTy).Contents (Elt Ideal)) = Host.divf (Host.reduceAdd (RV m' c Cert.ReferenceIdeal.main_v168 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  have e := r_mean2_1_read (R16 m' c)
  rw [show (StableHlo.after (Cert.ReferenceIdeal.Ops.hostOps0_16 (F := Ideal)) (R16 m' c) (Proc.devRef .tc Cert.ReferenceIdeal.main_v168) : (⟨Cert.ReferenceIdeal.S100000x64, .f32⟩ : BufTy).Contents (Elt Ideal))
          = RV m' c Cert.ReferenceIdeal.main_v168
        from Cert.ReferenceIdeal.Keep.toEnd_17 m' c Cert.ReferenceIdeal.main_v168 (by decide)] at e
  exact (Cert.ReferenceIdeal.Keep.toEnd_17 m' c Cert.ReferenceIdeal.main_v175 (by decide)).symm.trans e

/-- What the reference leaves as the variance vector, over what it leaves as the input. -/
theorem r_var2_1_val (c : Dev Cert.ReferenceIdeal.nD) :
    (RV m' c Cert.ReferenceIdeal.main_v176 : (⟨Cert.ReferenceIdeal.S64, .f32⟩ : BufTy).Contents (Elt Ideal)) = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (constantI Cert.ReferenceIdeal.S_ 32 0#32))) (constant (F := Ideal) Cert.ReferenceIdeal.S_ .f32 0x00000000#32)))
          (Host.divf (Host.reduceAdd (mulf (subf (RV m' c Cert.ReferenceIdeal.main_v168 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v168 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (RV m' c Cert.ReferenceIdeal.main_v168 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v168 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (constantI Cert.ReferenceIdeal.S_ 32 0#32)))))
          (broadcastInDim Cert.ReferenceIdeal.S64 ![] Cert.ReferenceIdeal.Facts₀.bcast_S_S64 (constant (F := Ideal) Cert.ReferenceIdeal.S_ .f32 0x7FC00000#32)) := by
  have e := r_var2_1_read (R17 m' c)
  rw [Cert.ReferenceIdeal.Keep.toEnd_17 m' c Cert.ReferenceIdeal.main_v168 (by decide)] at e
  rw [show (R17 m' c (Proc.devRef .tc Cert.ReferenceIdeal.main_c_26) : (⟨Cert.ReferenceIdeal.S_, .i32⟩ : BufTy).Contents (Elt Ideal)) = (constantI Cert.ReferenceIdeal.S_ 32 0#32)
        from r_corr2_1_read (R16 m' c)] at e
  exact (Cert.ReferenceIdeal.Keep.toEnd_18 m' c Cert.ReferenceIdeal.main_v176 (by decide)).symm.trans e

/-- STATISTICS 2 OF LAYER 1. Where the two programs leave the same input array, the kernel program's mean row and
    variance row hold, in column j of their one row, what the reference's mean vector and variance vector hold at j. -/
theorem corr_stats2_1 (c : Dev Cert.KernelIdeal.nD)
    (hz : KV m ρ c Cert.KernelIdeal.main_v94 = RV m' c Cert.ReferenceIdeal.main_v168) :
    (∀ j : Fin 64, (KV m ρ c Cert.KernelIdeal.main_v98 : Vec Ideal Cert.KernelIdeal.S1x64 .f32) (ix2 (0 : Fin 1) j)
        = (RV m' c Cert.ReferenceIdeal.main_v175 : Vec Ideal Cert.ReferenceIdeal.S64 .f32) (ix1 j))
    ∧ (∀ j : Fin 64, (KV m ρ c Cert.KernelIdeal.main_v99 : Vec Ideal Cert.KernelIdeal.S1x64 .f32) (ix2 (0 : Fin 1) j)
        = (RV m' c Cert.ReferenceIdeal.main_v176 : Vec Ideal Cert.ReferenceIdeal.S64 .f32) (ix1 j)) := by
  refine ⟨fun j => ?_, fun j => ?_⟩
  · rw [k_mean2_1_val m ρ c, r_mean2_1_val m' c, hz]
    generalize RV m' c Cert.ReferenceIdeal.main_v168 = z
    exact mean_row64_eq _ _ _ _ _ j
  · rw [k_var2_1_val m ρ c, r_var2_1_val m' c, hz]
    generalize RV m' c Cert.ReferenceIdeal.main_v168 = z
    exact var_row64_eq _ _ _ _ _ _ _ j

end Cert.Bridge

end
-- ==== Proof.Bridge.Stats_L2.lean ====
/- The batch-norm statistics of a layer, on the two sides. Both programs compute, from the same [100000, 64] array z, the
   per-column mean  Σ_i z[i, j] / 100000  and the per-column variance  Σ_i (z[i, j] − mean[j])² / (100000 − 0)  (guarded
   by "100000 − 0 > 0", else a fill value), the sums being the same host reduction of the same arrays on both sides:
   inside the variance the mean is kept as a [1, 64] row by both. They differ only in the last steps: the kernel program
   lays each sum as a [1, 64] row before dividing (and selecting), the reference divides (and selects) the [64] vector.
   Column j of the row is entry j of the vector (StatsRow.lean), so the statistics agree entry by entry; the sums are
   never opened. Each side's value is first read off its operation list over arbitrary earlier contents, then carried
   to the contents the program leaves at its end. -/
import proofs.«417278_j53197464928922_1_alg».proof.Proof.Setup
import proofs.«417278_j53197464928922_1_alg».proof.Proof.KKeep
import proofs.«417278_j53197464928922_1_alg».proof.Proof.RKeep
import proofs.«417278_j53197464928922_1_alg».proof.Proof.Bridge.StatsRow
import Idealize.ShloMosaic.Lib.IdealHost
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.ValueIdx Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-! ## Layer 2, statistics 1 -/

/-- The kernel program's mean row after the seven operations that make it, over any contents before them: the column
    sums of the input laid as one row, over the row of the count. -/
theorem k_mean1_2_read (W : Valuation Cert.KernelIdeal.τ Cert.KernelIdeal.sig (Elt Ideal)) :
    (StableHlo.after (Cert.KernelIdeal.Gen.hostOps10 (F := Ideal)) W (Proc.devRef .tc Cert.KernelIdeal.main_v140) : (⟨Cert.KernelIdeal.S1x64, .f32⟩ : BufTy).Contents (Elt Ideal))
      = (Host.divf (broadcastInDim Cert.KernelIdeal.S1x64 ![1] Cert.KernelIdeal.Facts₀.bcast_S64_S1x64_1 (Host.reduceAdd (W (Proc.devRef .tc Cert.KernelIdeal.main_v136) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  after_results

/-- Those seven operations end by writing the variance's correction, the integer zero. -/
theorem k_corr1_2_read (W : Valuation Cert.KernelIdeal.τ Cert.KernelIdeal.sig (Elt Ideal)) :
    (StableHlo.after (Cert.KernelIdeal.Gen.hostOps10 (F := Ideal)) W (Proc.devRef .tc Cert.KernelIdeal.main_c_18) : (⟨Cert.KernelIdeal.S_, .i32⟩ : BufTy).Contents (Elt Ideal))
      = (constantI Cert.KernelIdeal.S_ 32 0#32) := by
  after_results

/-- The kernel program's variance row after the twenty-three operations of its variance function, over any contents
    before them: under the condition "count minus correction is positive", the column sums of the squared deviations
    from the mean laid as one row, over the row of that difference; else the fill. -/
theorem k_var1_2_read (W : Valuation Cert.KernelIdeal.τ Cert.KernelIdeal.sig (Elt Ideal)) :
    (StableHlo.after (Cert.KernelIdeal.Gen.hostOps10_1 (F := Ideal)) W (Proc.devRef .tc Cert.KernelIdeal.main_v141) : (⟨Cert.KernelIdeal.S1x64, .f32⟩ : BufTy).Contents (Elt Ideal))
      = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (W (Proc.devRef .tc Cert.KernelIdeal.main_c_18) : (⟨Cert.KernelIdeal.S_, .i32⟩ : BufTy).Contents (Elt Ideal)))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (W (Proc.devRef .tc Cert.KernelIdeal.main_v136) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v136) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (W (Proc.devRef .tc Cert.KernelIdeal.main_v136) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v136) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (W (Proc.devRef .tc Cert.KernelIdeal.main_c_18) : (⟨Cert.KernelIdeal.S_, .i32⟩ : BufTy).Contents (Elt Ideal))))))
          (broadcastInDim Cert.KernelIdeal.S1x64 ![] Cert.KernelIdeal.Facts₀.bcast_S_S1x64 (constant (F := Ideal) Cert.KernelIdeal.S_ .f32 0x7FC00000#32)) := by
  after_results_simp <;> (try simp only [StableHlo.TRef.ofBuf, StableHlo.TRef.toBuf, cast_eq]) <;> rfl

/-- The reference's mean vector after the operations that make it, over any contents before them: the column sums of
    the array those same operations leave as the input, over the vector of the count. -/
theorem r_mean1_2_read (W : Valuation Cert.ReferenceIdeal.τ Cert.ReferenceIdeal.sig (Elt Ideal)) :
    (StableHlo.after (Cert.ReferenceIdeal.Ops.hostOps0_22 (F := Ideal)) W (Proc.devRef .tc Cert.ReferenceIdeal.main_v234) : (⟨Cert.ReferenceIdeal.S64, .f32⟩ : BufTy).Contents (Elt Ideal))
      = Host.divf (Host.reduceAdd (StableHlo.after (Cert.ReferenceIdeal.Ops.hostOps0_22 (F := Ideal)) W (Proc.devRef .tc Cert.ReferenceIdeal.main_v227) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  after_results_simp <;> rfl

/-- Those operations end by writing the variance's correction, the integer zero. -/
theorem r_corr1_2_read (W : Valuation Cert.ReferenceIdeal.τ Cert.ReferenceIdeal.sig (Elt Ideal)) :
    (StableHlo.after (Cert.ReferenceIdeal.Ops.hostOps0_22 (F := Ideal)) W (Proc.devRef .tc Cert.ReferenceIdeal.main_c_36) : (⟨Cert.ReferenceIdeal.S_, .i32⟩ : BufTy).Contents (Elt Ideal))
      = (constantI Cert.ReferenceIdeal.S_ 32 0#32) := by
  after_results

/-- The reference's variance vector after the twenty-two operations of its variance function, over any contents before
    them: under the same condition, the same column sums of squared deviations (the mean inside is kept as a row
    there too), over the vector of the difference; else the fill. -/
theorem r_var1_2_read (W : Valuation Cert.ReferenceIdeal.τ Cert.ReferenceIdeal.sig (Elt Ideal)) :
    (StableHlo.after (Cert.ReferenceIdeal.Ops.hostOps0_23 (F := Ideal)) W (Proc.devRef .tc Cert.ReferenceIdeal.main_v235) : (⟨Cert.ReferenceIdeal.S64, .f32⟩ : BufTy).Contents (Elt Ideal))
      = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (W (Proc.devRef .tc Cert.ReferenceIdeal.main_c_36) : (⟨Cert.ReferenceIdeal.S_, .i32⟩ : BufTy).Contents (Elt Ideal)))) (constant (F := Ideal) Cert.ReferenceIdeal.S_ .f32 0x00000000#32)))
          (Host.divf (Host.reduceAdd (mulf (subf (W (Proc.devRef .tc Cert.ReferenceIdeal.main_v227) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v227) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (W (Proc.devRef .tc Cert.ReferenceIdeal.main_v227) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v227) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (W (Proc.devRef .tc Cert.ReferenceIdeal.main_c_36) : (⟨Cert.ReferenceIdeal.S_, .i32⟩ : BufTy).Contents (Elt Ideal))))))
          (broadcastInDim Cert.ReferenceIdeal.S64 ![] Cert.ReferenceIdeal.Facts₀.bcast_S_S64 (constant (F := Ideal) Cert.ReferenceIdeal.S_ .f32 0x7FC00000#32)) := by
  after_results_simp <;> (try simp only [StableHlo.TRef.ofBuf, StableHlo.TRef.toBuf, cast_eq]) <;> rfl

/-- What the kernel program leaves as the mean row, over what it leaves as the input. -/
theorem k_mean1_2_val (c : Dev Cert.KernelIdeal.nD) :
    (KV m ρ c Cert.KernelIdeal.main_v140 : (⟨Cert.KernelIdeal.S1x64, .f32⟩ : BufTy).Contents (Elt Ideal)) = (Host.divf (broadcastInDim Cert.KernelIdeal.S1x64 ![1] Cert.KernelIdeal.Facts₀.bcast_S64_S1x64_1 (Host.reduceAdd (KV m ρ c Cert.KernelIdeal.main_v136 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  have e := k_mean1_2_read (Cert.KernelIdeal.Gen.W32 (F := Ideal) m ρ c)
  rw [Cert.KernelIdeal.Keep.toEnd_32 m ρ c Cert.KernelIdeal.main_v136 (by decide)] at e
  exact (Cert.KernelIdeal.Keep.toEnd_33 m ρ c Cert.KernelIdeal.main_v140 (by decide)).symm.trans e

/-- What the kernel program leaves as the variance row, over what it leaves as the input. -/
theorem k_var1_2_val (c : Dev Cert.KernelIdeal.nD) :
    (KV m ρ c Cert.KernelIdeal.main_v141 : (⟨Cert.KernelIdeal.S1x64, .f32⟩ : BufTy).Contents (Elt Ideal)) = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (constantI Cert.KernelIdeal.S_ 32 0#32))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (KV m ρ c Cert.KernelIdeal.main_v136 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v136 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (KV m ρ c Cert.KernelIdeal.main_v136 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v136 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (constantI Cert.KernelIdeal.S_ 32 0#32)))))
          (broadcastInDim Cert.KernelIdeal.S1x64 ![] Cert.KernelIdeal.Facts₀.bcast_S_S1x64 (constant (F := Ideal) Cert.KernelIdeal.S_ .f32 0x7FC00000#32)) := by
  have e := k_var1_2_read (Cert.KernelIdeal.Gen.W33 (F := Ideal) m ρ c)
  rw [Cert.KernelIdeal.Keep.toEnd_33 m ρ c Cert.KernelIdeal.main_v136 (by decide)] at e
  rw [show (Cert.KernelIdeal.Gen.W33 (F := Ideal) m ρ c (Proc.devRef .tc Cert.KernelIdeal.main_c_18) : (⟨Cert.KernelIdeal.S_, .i32⟩ : BufTy).Contents (Elt Ideal)) = (constantI Cert.KernelIdeal.S_ 32 0#32)
        from k_corr1_2_read (Cert.KernelIdeal.Gen.W32 (F := Ideal) m ρ c)] at e
  exact (Cert.KernelIdeal.Keep.toEnd_34 m ρ c Cert.KernelIdeal.main_v141 (by decide)).symm.trans e

/-- What the reference leaves as the mean vector, over what it leaves as the input. -/
theorem r_mean1_2_val (c : Dev Cert.ReferenceIdeal.nD) :
    (RV m' c Cert.ReferenceIdeal.main_v234 : (⟨Cert.ReferenceIdeal.S64, .f32⟩ : BufTy).Contents (Elt Ideal)) = Host.divf (Host.reduceAdd (RV m' c Cert.ReferenceIdeal.main_v227 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  have e := r_mean1_2_read (R22 m' c)
  rw [show (StableHlo.after (Cert.ReferenceIdeal.Ops.hostOps0_22 (F := Ideal)) (R22 m' c) (Proc.devRef .tc Cert.ReferenceIdeal.main_v227) : (⟨Cert.ReferenceIdeal.S100000x64, .f32⟩ : BufTy).Contents (Elt Ideal))
          = RV m' c Cert.ReferenceIdeal.main_v227
        from Cert.ReferenceIdeal.Keep.toEnd_23 m' c Cert.ReferenceIdeal.main_v227 (by decide)] at e
  exact (Cert.ReferenceIdeal.Keep.toEnd_23 m' c Cert.ReferenceIdeal.main_v234 (by decide)).symm.trans e

/-- What the reference leaves as the variance vector, over what it leaves as the input. -/
theorem r_var1_2_val (c : Dev Cert.ReferenceIdeal.nD) :
    (RV m' c Cert.ReferenceIdeal.main_v235 : (⟨Cert.ReferenceIdeal.S64, .f32⟩ : BufTy).Contents (Elt Ideal)) = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (constantI Cert.ReferenceIdeal.S_ 32 0#32))) (constant (F := Ideal) Cert.ReferenceIdeal.S_ .f32 0x00000000#32)))
          (Host.divf (Host.reduceAdd (mulf (subf (RV m' c Cert.ReferenceIdeal.main_v227 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v227 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (RV m' c Cert.ReferenceIdeal.main_v227 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v227 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (constantI Cert.ReferenceIdeal.S_ 32 0#32)))))
          (broadcastInDim Cert.ReferenceIdeal.S64 ![] Cert.ReferenceIdeal.Facts₀.bcast_S_S64 (constant (F := Ideal) Cert.ReferenceIdeal.S_ .f32 0x7FC00000#32)) := by
  have e := r_var1_2_read (R23 m' c)
  rw [Cert.ReferenceIdeal.Keep.toEnd_23 m' c Cert.ReferenceIdeal.main_v227 (by decide)] at e
  rw [show (R23 m' c (Proc.devRef .tc Cert.ReferenceIdeal.main_c_36) : (⟨Cert.ReferenceIdeal.S_, .i32⟩ : BufTy).Contents (Elt Ideal)) = (constantI Cert.ReferenceIdeal.S_ 32 0#32)
        from r_corr1_2_read (R22 m' c)] at e
  exact (Cert.ReferenceIdeal.Keep.toEnd_24 m' c Cert.ReferenceIdeal.main_v235 (by decide)).symm.trans e

/-- STATISTICS 1 OF LAYER 2. Where the two programs leave the same input array, the kernel program's mean row and
    variance row hold, in column j of their one row, what the reference's mean vector and variance vector hold at j. -/
theorem corr_stats1_2 (c : Dev Cert.KernelIdeal.nD)
    (hz : KV m ρ c Cert.KernelIdeal.main_v136 = RV m' c Cert.ReferenceIdeal.main_v227) :
    (∀ j : Fin 64, (KV m ρ c Cert.KernelIdeal.main_v140 : Vec Ideal Cert.KernelIdeal.S1x64 .f32) (ix2 (0 : Fin 1) j)
        = (RV m' c Cert.ReferenceIdeal.main_v234 : Vec Ideal Cert.ReferenceIdeal.S64 .f32) (ix1 j))
    ∧ (∀ j : Fin 64, (KV m ρ c Cert.KernelIdeal.main_v141 : Vec Ideal Cert.KernelIdeal.S1x64 .f32) (ix2 (0 : Fin 1) j)
        = (RV m' c Cert.ReferenceIdeal.main_v235 : Vec Ideal Cert.ReferenceIdeal.S64 .f32) (ix1 j)) := by
  refine ⟨fun j => ?_, fun j => ?_⟩
  · rw [k_mean1_2_val m ρ c, r_mean1_2_val m' c, hz]
    generalize RV m' c Cert.ReferenceIdeal.main_v227 = z
    exact mean_row64_eq _ _ _ _ _ j
  · rw [k_var1_2_val m ρ c, r_var1_2_val m' c, hz]
    generalize RV m' c Cert.ReferenceIdeal.main_v227 = z
    exact var_row64_eq _ _ _ _ _ _ _ j

/-! ## Layer 2, statistics 2 -/

/-- The kernel program's mean row after the seven operations that make it, over any contents before them: the column
    sums of the input laid as one row, over the row of the count. -/
theorem k_mean2_2_read (W : Valuation Cert.KernelIdeal.τ Cert.KernelIdeal.sig (Elt Ideal)) :
    (StableHlo.after (Cert.KernelIdeal.Gen.hostOps11 (F := Ideal)) W (Proc.devRef .tc Cert.KernelIdeal.main_v146) : (⟨Cert.KernelIdeal.S1x64, .f32⟩ : BufTy).Contents (Elt Ideal))
      = (Host.divf (broadcastInDim Cert.KernelIdeal.S1x64 ![1] Cert.KernelIdeal.Facts₀.bcast_S64_S1x64_1 (Host.reduceAdd (W (Proc.devRef .tc Cert.KernelIdeal.main_v142) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  after_results

/-- Those seven operations end by writing the variance's correction, the integer zero. -/
theorem k_corr2_2_read (W : Valuation Cert.KernelIdeal.τ Cert.KernelIdeal.sig (Elt Ideal)) :
    (StableHlo.after (Cert.KernelIdeal.Gen.hostOps11 (F := Ideal)) W (Proc.devRef .tc Cert.KernelIdeal.main_c_21) : (⟨Cert.KernelIdeal.S_, .i32⟩ : BufTy).Contents (Elt Ideal))
      = (constantI Cert.KernelIdeal.S_ 32 0#32) := by
  after_results

/-- The kernel program's variance row after the twenty-three operations of its variance function, over any contents
    before them: under the condition "count minus correction is positive", the column sums of the squared deviations
    from the mean laid as one row, over the row of that difference; else the fill. -/
theorem k_var2_2_read (W : Valuation Cert.KernelIdeal.τ Cert.KernelIdeal.sig (Elt Ideal)) :
    (StableHlo.after (Cert.KernelIdeal.Gen.hostOps11_1 (F := Ideal)) W (Proc.devRef .tc Cert.KernelIdeal.main_v147) : (⟨Cert.KernelIdeal.S1x64, .f32⟩ : BufTy).Contents (Elt Ideal))
      = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (W (Proc.devRef .tc Cert.KernelIdeal.main_c_21) : (⟨Cert.KernelIdeal.S_, .i32⟩ : BufTy).Contents (Elt Ideal)))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (W (Proc.devRef .tc Cert.KernelIdeal.main_v142) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v142) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (W (Proc.devRef .tc Cert.KernelIdeal.main_v142) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v142) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (W (Proc.devRef .tc Cert.KernelIdeal.main_c_21) : (⟨Cert.KernelIdeal.S_, .i32⟩ : BufTy).Contents (Elt Ideal))))))
          (broadcastInDim Cert.KernelIdeal.S1x64 ![] Cert.KernelIdeal.Facts₀.bcast_S_S1x64 (constant (F := Ideal) Cert.KernelIdeal.S_ .f32 0x7FC00000#32)) := by
  after_results_simp <;> (try simp only [StableHlo.TRef.ofBuf, StableHlo.TRef.toBuf, cast_eq]) <;> rfl

/-- The reference's mean vector after the operations that make it, over any contents before them: the column sums of
    the array those same operations leave as the input, over the vector of the count. -/
theorem r_mean2_2_read (W : Valuation Cert.ReferenceIdeal.τ Cert.ReferenceIdeal.sig (Elt Ideal)) :
    (StableHlo.after (Cert.ReferenceIdeal.Ops.hostOps0_26 (F := Ideal)) W (Proc.devRef .tc Cert.ReferenceIdeal.main_v266) : (⟨Cert.ReferenceIdeal.S64, .f32⟩ : BufTy).Contents (Elt Ideal))
      = Host.divf (Host.reduceAdd (StableHlo.after (Cert.ReferenceIdeal.Ops.hostOps0_26 (F := Ideal)) W (Proc.devRef .tc Cert.ReferenceIdeal.main_v259) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  after_results_simp <;> rfl

/-- Those operations end by writing the variance's correction, the integer zero. -/
theorem r_corr2_2_read (W : Valuation Cert.ReferenceIdeal.τ Cert.ReferenceIdeal.sig (Elt Ideal)) :
    (StableHlo.after (Cert.ReferenceIdeal.Ops.hostOps0_26 (F := Ideal)) W (Proc.devRef .tc Cert.ReferenceIdeal.main_c_40) : (⟨Cert.ReferenceIdeal.S_, .i32⟩ : BufTy).Contents (Elt Ideal))
      = (constantI Cert.ReferenceIdeal.S_ 32 0#32) := by
  after_results

/-- The reference's variance vector after the twenty-two operations of its variance function, over any contents before
    them: under the same condition, the same column sums of squared deviations (the mean inside is kept as a row
    there too), over the vector of the difference; else the fill. -/
theorem r_var2_2_read (W : Valuation Cert.ReferenceIdeal.τ Cert.ReferenceIdeal.sig (Elt Ideal)) :
    (StableHlo.after (Cert.ReferenceIdeal.Ops.hostOps0_27 (F := Ideal)) W (Proc.devRef .tc Cert.ReferenceIdeal.main_v267) : (⟨Cert.ReferenceIdeal.S64, .f32⟩ : BufTy).Contents (Elt Ideal))
      = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (W (Proc.devRef .tc Cert.ReferenceIdeal.main_c_40) : (⟨Cert.ReferenceIdeal.S_, .i32⟩ : BufTy).Contents (Elt Ideal)))) (constant (F := Ideal) Cert.ReferenceIdeal.S_ .f32 0x00000000#32)))
          (Host.divf (Host.reduceAdd (mulf (subf (W (Proc.devRef .tc Cert.ReferenceIdeal.main_v259) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v259) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (W (Proc.devRef .tc Cert.ReferenceIdeal.main_v259) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v259) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (W (Proc.devRef .tc Cert.ReferenceIdeal.main_c_40) : (⟨Cert.ReferenceIdeal.S_, .i32⟩ : BufTy).Contents (Elt Ideal))))))
          (broadcastInDim Cert.ReferenceIdeal.S64 ![] Cert.ReferenceIdeal.Facts₀.bcast_S_S64 (constant (F := Ideal) Cert.ReferenceIdeal.S_ .f32 0x7FC00000#32)) := by
  after_results_simp <;> (try simp only [StableHlo.TRef.ofBuf, StableHlo.TRef.toBuf, cast_eq]) <;> rfl

/-- What the kernel program leaves as the mean row, over what it leaves as the input. -/
theorem k_mean2_2_val (c : Dev Cert.KernelIdeal.nD) :
    (KV m ρ c Cert.KernelIdeal.main_v146 : (⟨Cert.KernelIdeal.S1x64, .f32⟩ : BufTy).Contents (Elt Ideal)) = (Host.divf (broadcastInDim Cert.KernelIdeal.S1x64 ![1] Cert.KernelIdeal.Facts₀.bcast_S64_S1x64_1 (Host.reduceAdd (KV m ρ c Cert.KernelIdeal.main_v142 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  have e := k_mean2_2_read (Cert.KernelIdeal.Gen.W35 (F := Ideal) m ρ c)
  rw [Cert.KernelIdeal.Keep.toEnd_35 m ρ c Cert.KernelIdeal.main_v142 (by decide)] at e
  exact (Cert.KernelIdeal.Keep.toEnd_36 m ρ c Cert.KernelIdeal.main_v146 (by decide)).symm.trans e

/-- What the kernel program leaves as the variance row, over what it leaves as the input. -/
theorem k_var2_2_val (c : Dev Cert.KernelIdeal.nD) :
    (KV m ρ c Cert.KernelIdeal.main_v147 : (⟨Cert.KernelIdeal.S1x64, .f32⟩ : BufTy).Contents (Elt Ideal)) = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (constantI Cert.KernelIdeal.S_ 32 0#32))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (KV m ρ c Cert.KernelIdeal.main_v142 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v142 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (KV m ρ c Cert.KernelIdeal.main_v142 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v142 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (constantI Cert.KernelIdeal.S_ 32 0#32)))))
          (broadcastInDim Cert.KernelIdeal.S1x64 ![] Cert.KernelIdeal.Facts₀.bcast_S_S1x64 (constant (F := Ideal) Cert.KernelIdeal.S_ .f32 0x7FC00000#32)) := by
  have e := k_var2_2_read (Cert.KernelIdeal.Gen.W36 (F := Ideal) m ρ c)
  rw [Cert.KernelIdeal.Keep.toEnd_36 m ρ c Cert.KernelIdeal.main_v142 (by decide)] at e
  rw [show (Cert.KernelIdeal.Gen.W36 (F := Ideal) m ρ c (Proc.devRef .tc Cert.KernelIdeal.main_c_21) : (⟨Cert.KernelIdeal.S_, .i32⟩ : BufTy).Contents (Elt Ideal)) = (constantI Cert.KernelIdeal.S_ 32 0#32)
        from k_corr2_2_read (Cert.KernelIdeal.Gen.W35 (F := Ideal) m ρ c)] at e
  exact (Cert.KernelIdeal.Keep.toEnd_37 m ρ c Cert.KernelIdeal.main_v147 (by decide)).symm.trans e

/-- What the reference leaves as the mean vector, over what it leaves as the input. -/
theorem r_mean2_2_val (c : Dev Cert.ReferenceIdeal.nD) :
    (RV m' c Cert.ReferenceIdeal.main_v266 : (⟨Cert.ReferenceIdeal.S64, .f32⟩ : BufTy).Contents (Elt Ideal)) = Host.divf (Host.reduceAdd (RV m' c Cert.ReferenceIdeal.main_v259 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  have e := r_mean2_2_read (R26 m' c)
  rw [show (StableHlo.after (Cert.ReferenceIdeal.Ops.hostOps0_26 (F := Ideal)) (R26 m' c) (Proc.devRef .tc Cert.ReferenceIdeal.main_v259) : (⟨Cert.ReferenceIdeal.S100000x64, .f32⟩ : BufTy).Contents (Elt Ideal))
          = RV m' c Cert.ReferenceIdeal.main_v259
        from Cert.ReferenceIdeal.Keep.toEnd_27 m' c Cert.ReferenceIdeal.main_v259 (by decide)] at e
  exact (Cert.ReferenceIdeal.Keep.toEnd_27 m' c Cert.ReferenceIdeal.main_v266 (by decide)).symm.trans e

/-- What the reference leaves as the variance vector, over what it leaves as the input. -/
theorem r_var2_2_val (c : Dev Cert.ReferenceIdeal.nD) :
    (RV m' c Cert.ReferenceIdeal.main_v267 : (⟨Cert.ReferenceIdeal.S64, .f32⟩ : BufTy).Contents (Elt Ideal)) = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (constantI Cert.ReferenceIdeal.S_ 32 0#32))) (constant (F := Ideal) Cert.ReferenceIdeal.S_ .f32 0x00000000#32)))
          (Host.divf (Host.reduceAdd (mulf (subf (RV m' c Cert.ReferenceIdeal.main_v259 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v259 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (RV m' c Cert.ReferenceIdeal.main_v259 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v259 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (constantI Cert.ReferenceIdeal.S_ 32 0#32)))))
          (broadcastInDim Cert.ReferenceIdeal.S64 ![] Cert.ReferenceIdeal.Facts₀.bcast_S_S64 (constant (F := Ideal) Cert.ReferenceIdeal.S_ .f32 0x7FC00000#32)) := by
  have e := r_var2_2_read (R27 m' c)
  rw [Cert.ReferenceIdeal.Keep.toEnd_27 m' c Cert.ReferenceIdeal.main_v259 (by decide)] at e
  rw [show (R27 m' c (Proc.devRef .tc Cert.ReferenceIdeal.main_c_40) : (⟨Cert.ReferenceIdeal.S_, .i32⟩ : BufTy).Contents (Elt Ideal)) = (constantI Cert.ReferenceIdeal.S_ 32 0#32)
        from r_corr2_2_read (R26 m' c)] at e
  exact (Cert.ReferenceIdeal.Keep.toEnd_28 m' c Cert.ReferenceIdeal.main_v267 (by decide)).symm.trans e

/-- STATISTICS 2 OF LAYER 2. Where the two programs leave the same input array, the kernel program's mean row and
    variance row hold, in column j of their one row, what the reference's mean vector and variance vector hold at j. -/
theorem corr_stats2_2 (c : Dev Cert.KernelIdeal.nD)
    (hz : KV m ρ c Cert.KernelIdeal.main_v142 = RV m' c Cert.ReferenceIdeal.main_v259) :
    (∀ j : Fin 64, (KV m ρ c Cert.KernelIdeal.main_v146 : Vec Ideal Cert.KernelIdeal.S1x64 .f32) (ix2 (0 : Fin 1) j)
        = (RV m' c Cert.ReferenceIdeal.main_v266 : Vec Ideal Cert.ReferenceIdeal.S64 .f32) (ix1 j))
    ∧ (∀ j : Fin 64, (KV m ρ c Cert.KernelIdeal.main_v147 : Vec Ideal Cert.KernelIdeal.S1x64 .f32) (ix2 (0 : Fin 1) j)
        = (RV m' c Cert.ReferenceIdeal.main_v267 : Vec Ideal Cert.ReferenceIdeal.S64 .f32) (ix1 j)) := by
  refine ⟨fun j => ?_, fun j => ?_⟩
  · rw [k_mean2_2_val m ρ c, r_mean2_2_val m' c, hz]
    generalize RV m' c Cert.ReferenceIdeal.main_v259 = z
    exact mean_row64_eq _ _ _ _ _ j
  · rw [k_var2_2_val m ρ c, r_var2_2_val m' c, hz]
    generalize RV m' c Cert.ReferenceIdeal.main_v259 = z
    exact var_row64_eq _ _ _ _ _ _ _ j

end Cert.Bridge

end
-- ==== Proof.Bridge.Stats_L3.lean ====
/- The batch-norm statistics of a layer, on the two sides. Both programs compute, from the same [100000, 64] array z, the
   per-column mean  Σ_i z[i, j] / 100000  and the per-column variance  Σ_i (z[i, j] − mean[j])² / (100000 − 0)  (guarded
   by "100000 − 0 > 0", else a fill value), the sums being the same host reduction of the same arrays on both sides:
   inside the variance the mean is kept as a [1, 64] row by both. They differ only in the last steps: the kernel program
   lays each sum as a [1, 64] row before dividing (and selecting), the reference divides (and selects) the [64] vector.
   Column j of the row is entry j of the vector (StatsRow.lean), so the statistics agree entry by entry; the sums are
   never opened. Each side's value is first read off its operation list over arbitrary earlier contents, then carried
   to the contents the program leaves at its end. -/
import proofs.«417278_j53197464928922_1_alg».proof.Proof.Setup
import proofs.«417278_j53197464928922_1_alg».proof.Proof.KKeep
import proofs.«417278_j53197464928922_1_alg».proof.Proof.RKeep
import proofs.«417278_j53197464928922_1_alg».proof.Proof.Bridge.StatsRow
import Idealize.ShloMosaic.Lib.IdealHost
import Idealize.ShloMosaic.Lib.Pipeline.Value
import Idealize.ShloMosaic.Lib.StableHlo.Run

set_option maxRecDepth 16384

noncomputable section

namespace Cert.Bridge

open Idealize.ShloMosaic Idealize.ShloMosaic.TcCoe Idealize.SL.Sem Idealize.ShloMosaic.ValueIdx Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-! ## Layer 3, statistics 1 -/

/-- The kernel program's mean row after the seven operations that make it, over any contents before them: the column
    sums of the input laid as one row, over the row of the count. -/
theorem k_mean1_3_read (W : Valuation Cert.KernelIdeal.τ Cert.KernelIdeal.sig (Elt Ideal)) :
    (StableHlo.after (Cert.KernelIdeal.Gen.hostOps14 (F := Ideal)) W (Proc.devRef .tc Cert.KernelIdeal.main_v188) : (⟨Cert.KernelIdeal.S1x64, .f32⟩ : BufTy).Contents (Elt Ideal))
      = (Host.divf (broadcastInDim Cert.KernelIdeal.S1x64 ![1] Cert.KernelIdeal.Facts₀.bcast_S64_S1x64_1 (Host.reduceAdd (W (Proc.devRef .tc Cert.KernelIdeal.main_v184) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  after_results

/-- Those seven operations end by writing the variance's correction, the integer zero. -/
theorem k_corr1_3_read (W : Valuation Cert.KernelIdeal.τ Cert.KernelIdeal.sig (Elt Ideal)) :
    (StableHlo.after (Cert.KernelIdeal.Gen.hostOps14 (F := Ideal)) W (Proc.devRef .tc Cert.KernelIdeal.main_c_26) : (⟨Cert.KernelIdeal.S_, .i32⟩ : BufTy).Contents (Elt Ideal))
      = (constantI Cert.KernelIdeal.S_ 32 0#32) := by
  after_results

/-- The kernel program's variance row after the twenty-three operations of its variance function, over any contents
    before them: under the condition "count minus correction is positive", the column sums of the squared deviations
    from the mean laid as one row, over the row of that difference; else the fill. -/
theorem k_var1_3_read (W : Valuation Cert.KernelIdeal.τ Cert.KernelIdeal.sig (Elt Ideal)) :
    (StableHlo.after (Cert.KernelIdeal.Gen.hostOps14_1 (F := Ideal)) W (Proc.devRef .tc Cert.KernelIdeal.main_v189) : (⟨Cert.KernelIdeal.S1x64, .f32⟩ : BufTy).Contents (Elt Ideal))
      = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (W (Proc.devRef .tc Cert.KernelIdeal.main_c_26) : (⟨Cert.KernelIdeal.S_, .i32⟩ : BufTy).Contents (Elt Ideal)))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (W (Proc.devRef .tc Cert.KernelIdeal.main_v184) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v184) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (W (Proc.devRef .tc Cert.KernelIdeal.main_v184) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v184) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (W (Proc.devRef .tc Cert.KernelIdeal.main_c_26) : (⟨Cert.KernelIdeal.S_, .i32⟩ : BufTy).Contents (Elt Ideal))))))
          (broadcastInDim Cert.KernelIdeal.S1x64 ![] Cert.KernelIdeal.Facts₀.bcast_S_S1x64 (constant (F := Ideal) Cert.KernelIdeal.S_ .f32 0x7FC00000#32)) := by
  after_results_simp <;> (try simp only [StableHlo.TRef.ofBuf, StableHlo.TRef.toBuf, cast_eq]) <;> rfl

/-- The reference's mean vector after the operations that make it, over any contents before them: the column sums of
    the array those same operations leave as the input, over the vector of the count. -/
theorem r_mean1_3_read (W : Valuation Cert.ReferenceIdeal.τ Cert.ReferenceIdeal.sig (Elt Ideal)) :
    (StableHlo.after (Cert.ReferenceIdeal.Ops.hostOps0_32 (F := Ideal)) W (Proc.devRef .tc Cert.ReferenceIdeal.main_v325) : (⟨Cert.ReferenceIdeal.S64, .f32⟩ : BufTy).Contents (Elt Ideal))
      = Host.divf (Host.reduceAdd (StableHlo.after (Cert.ReferenceIdeal.Ops.hostOps0_32 (F := Ideal)) W (Proc.devRef .tc Cert.ReferenceIdeal.main_v318) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  after_results_simp <;> rfl

/-- Those operations end by writing the variance's correction, the integer zero. -/
theorem r_corr1_3_read (W : Valuation Cert.ReferenceIdeal.τ Cert.ReferenceIdeal.sig (Elt Ideal)) :
    (StableHlo.after (Cert.ReferenceIdeal.Ops.hostOps0_32 (F := Ideal)) W (Proc.devRef .tc Cert.ReferenceIdeal.main_c_50) : (⟨Cert.ReferenceIdeal.S_, .i32⟩ : BufTy).Contents (Elt Ideal))
      = (constantI Cert.ReferenceIdeal.S_ 32 0#32) := by
  after_results

/-- The reference's variance vector after the twenty-two operations of its variance function, over any contents before
    them: under the same condition, the same column sums of squared deviations (the mean inside is kept as a row
    there too), over the vector of the difference; else the fill. -/
theorem r_var1_3_read (W : Valuation Cert.ReferenceIdeal.τ Cert.ReferenceIdeal.sig (Elt Ideal)) :
    (StableHlo.after (Cert.ReferenceIdeal.Ops.hostOps0_33 (F := Ideal)) W (Proc.devRef .tc Cert.ReferenceIdeal.main_v326) : (⟨Cert.ReferenceIdeal.S64, .f32⟩ : BufTy).Contents (Elt Ideal))
      = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (W (Proc.devRef .tc Cert.ReferenceIdeal.main_c_50) : (⟨Cert.ReferenceIdeal.S_, .i32⟩ : BufTy).Contents (Elt Ideal)))) (constant (F := Ideal) Cert.ReferenceIdeal.S_ .f32 0x00000000#32)))
          (Host.divf (Host.reduceAdd (mulf (subf (W (Proc.devRef .tc Cert.ReferenceIdeal.main_v318) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v318) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (W (Proc.devRef .tc Cert.ReferenceIdeal.main_v318) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v318) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (W (Proc.devRef .tc Cert.ReferenceIdeal.main_c_50) : (⟨Cert.ReferenceIdeal.S_, .i32⟩ : BufTy).Contents (Elt Ideal))))))
          (broadcastInDim Cert.ReferenceIdeal.S64 ![] Cert.ReferenceIdeal.Facts₀.bcast_S_S64 (constant (F := Ideal) Cert.ReferenceIdeal.S_ .f32 0x7FC00000#32)) := by
  after_results_simp <;> (try simp only [StableHlo.TRef.ofBuf, StableHlo.TRef.toBuf, cast_eq]) <;> rfl

/-- What the kernel program leaves as the mean row, over what it leaves as the input. -/
theorem k_mean1_3_val (c : Dev Cert.KernelIdeal.nD) :
    (KV m ρ c Cert.KernelIdeal.main_v188 : (⟨Cert.KernelIdeal.S1x64, .f32⟩ : BufTy).Contents (Elt Ideal)) = (Host.divf (broadcastInDim Cert.KernelIdeal.S1x64 ![1] Cert.KernelIdeal.Facts₀.bcast_S64_S1x64_1 (Host.reduceAdd (KV m ρ c Cert.KernelIdeal.main_v184 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  have e := k_mean1_3_read (Cert.KernelIdeal.Gen.W44 (F := Ideal) m ρ c)
  rw [Cert.KernelIdeal.Keep.toEnd_44 m ρ c Cert.KernelIdeal.main_v184 (by decide)] at e
  exact (Cert.KernelIdeal.Keep.toEnd_45 m ρ c Cert.KernelIdeal.main_v188 (by decide)).symm.trans e

/-- What the kernel program leaves as the variance row, over what it leaves as the input. -/
theorem k_var1_3_val (c : Dev Cert.KernelIdeal.nD) :
    (KV m ρ c Cert.KernelIdeal.main_v189 : (⟨Cert.KernelIdeal.S1x64, .f32⟩ : BufTy).Contents (Elt Ideal)) = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (constantI Cert.KernelIdeal.S_ 32 0#32))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (KV m ρ c Cert.KernelIdeal.main_v184 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v184 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (KV m ρ c Cert.KernelIdeal.main_v184 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v184 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (constantI Cert.KernelIdeal.S_ 32 0#32)))))
          (broadcastInDim Cert.KernelIdeal.S1x64 ![] Cert.KernelIdeal.Facts₀.bcast_S_S1x64 (constant (F := Ideal) Cert.KernelIdeal.S_ .f32 0x7FC00000#32)) := by
  have e := k_var1_3_read (Cert.KernelIdeal.Gen.W45 (F := Ideal) m ρ c)
  rw [Cert.KernelIdeal.Keep.toEnd_45 m ρ c Cert.KernelIdeal.main_v184 (by decide)] at e
  rw [show (Cert.KernelIdeal.Gen.W45 (F := Ideal) m ρ c (Proc.devRef .tc Cert.KernelIdeal.main_c_26) : (⟨Cert.KernelIdeal.S_, .i32⟩ : BufTy).Contents (Elt Ideal)) = (constantI Cert.KernelIdeal.S_ 32 0#32)
        from k_corr1_3_read (Cert.KernelIdeal.Gen.W44 (F := Ideal) m ρ c)] at e
  exact (Cert.KernelIdeal.Keep.toEnd_46 m ρ c Cert.KernelIdeal.main_v189 (by decide)).symm.trans e

/-- What the reference leaves as the mean vector, over what it leaves as the input. -/
theorem r_mean1_3_val (c : Dev Cert.ReferenceIdeal.nD) :
    (RV m' c Cert.ReferenceIdeal.main_v325 : (⟨Cert.ReferenceIdeal.S64, .f32⟩ : BufTy).Contents (Elt Ideal)) = Host.divf (Host.reduceAdd (RV m' c Cert.ReferenceIdeal.main_v318 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  have e := r_mean1_3_read (R32 m' c)
  rw [show (StableHlo.after (Cert.ReferenceIdeal.Ops.hostOps0_32 (F := Ideal)) (R32 m' c) (Proc.devRef .tc Cert.ReferenceIdeal.main_v318) : (⟨Cert.ReferenceIdeal.S100000x64, .f32⟩ : BufTy).Contents (Elt Ideal))
          = RV m' c Cert.ReferenceIdeal.main_v318
        from Cert.ReferenceIdeal.Keep.toEnd_33 m' c Cert.ReferenceIdeal.main_v318 (by decide)] at e
  exact (Cert.ReferenceIdeal.Keep.toEnd_33 m' c Cert.ReferenceIdeal.main_v325 (by decide)).symm.trans e

/-- What the reference leaves as the variance vector, over what it leaves as the input. -/
theorem r_var1_3_val (c : Dev Cert.ReferenceIdeal.nD) :
    (RV m' c Cert.ReferenceIdeal.main_v326 : (⟨Cert.ReferenceIdeal.S64, .f32⟩ : BufTy).Contents (Elt Ideal)) = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (constantI Cert.ReferenceIdeal.S_ 32 0#32))) (constant (F := Ideal) Cert.ReferenceIdeal.S_ .f32 0x00000000#32)))
          (Host.divf (Host.reduceAdd (mulf (subf (RV m' c Cert.ReferenceIdeal.main_v318 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v318 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (RV m' c Cert.ReferenceIdeal.main_v318 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v318 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (constantI Cert.ReferenceIdeal.S_ 32 0#32)))))
          (broadcastInDim Cert.ReferenceIdeal.S64 ![] Cert.ReferenceIdeal.Facts₀.bcast_S_S64 (constant (F := Ideal) Cert.ReferenceIdeal.S_ .f32 0x7FC00000#32)) := by
  have e := r_var1_3_read (R33 m' c)
  rw [Cert.ReferenceIdeal.Keep.toEnd_33 m' c Cert.ReferenceIdeal.main_v318 (by decide)] at e
  rw [show (R33 m' c (Proc.devRef .tc Cert.ReferenceIdeal.main_c_50) : (⟨Cert.ReferenceIdeal.S_, .i32⟩ : BufTy).Contents (Elt Ideal)) = (constantI Cert.ReferenceIdeal.S_ 32 0#32)
        from r_corr1_3_read (R32 m' c)] at e
  exact (Cert.ReferenceIdeal.Keep.toEnd_34 m' c Cert.ReferenceIdeal.main_v326 (by decide)).symm.trans e

/-- STATISTICS 1 OF LAYER 3. Where the two programs leave the same input array, the kernel program's mean row and
    variance row hold, in column j of their one row, what the reference's mean vector and variance vector hold at j. -/
theorem corr_stats1_3 (c : Dev Cert.KernelIdeal.nD)
    (hz : KV m ρ c Cert.KernelIdeal.main_v184 = RV m' c Cert.ReferenceIdeal.main_v318) :
    (∀ j : Fin 64, (KV m ρ c Cert.KernelIdeal.main_v188 : Vec Ideal Cert.KernelIdeal.S1x64 .f32) (ix2 (0 : Fin 1) j)
        = (RV m' c Cert.ReferenceIdeal.main_v325 : Vec Ideal Cert.ReferenceIdeal.S64 .f32) (ix1 j))
    ∧ (∀ j : Fin 64, (KV m ρ c Cert.KernelIdeal.main_v189 : Vec Ideal Cert.KernelIdeal.S1x64 .f32) (ix2 (0 : Fin 1) j)
        = (RV m' c Cert.ReferenceIdeal.main_v326 : Vec Ideal Cert.ReferenceIdeal.S64 .f32) (ix1 j)) := by
  refine ⟨fun j => ?_, fun j => ?_⟩
  · rw [k_mean1_3_val m ρ c, r_mean1_3_val m' c, hz]
    generalize RV m' c Cert.ReferenceIdeal.main_v318 = z
    exact mean_row64_eq _ _ _ _ _ j
  · rw [k_var1_3_val m ρ c, r_var1_3_val m' c, hz]
    generalize RV m' c Cert.ReferenceIdeal.main_v318 = z
    exact var_row64_eq _ _ _ _ _ _ _ j

/-! ## Layer 3, statistics 2 -/

/-- The kernel program's mean row after the seven operations that make it, over any contents before them: the column
    sums of the input laid as one row, over the row of the count. -/
theorem k_mean2_3_read (W : Valuation Cert.KernelIdeal.τ Cert.KernelIdeal.sig (Elt Ideal)) :
    (StableHlo.after (Cert.KernelIdeal.Gen.hostOps15 (F := Ideal)) W (Proc.devRef .tc Cert.KernelIdeal.main_v194) : (⟨Cert.KernelIdeal.S1x64, .f32⟩ : BufTy).Contents (Elt Ideal))
      = (Host.divf (broadcastInDim Cert.KernelIdeal.S1x64 ![1] Cert.KernelIdeal.Facts₀.bcast_S64_S1x64_1 (Host.reduceAdd (W (Proc.devRef .tc Cert.KernelIdeal.main_v190) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  after_results

/-- Those seven operations end by writing the variance's correction, the integer zero. -/
theorem k_corr2_3_read (W : Valuation Cert.KernelIdeal.τ Cert.KernelIdeal.sig (Elt Ideal)) :
    (StableHlo.after (Cert.KernelIdeal.Gen.hostOps15 (F := Ideal)) W (Proc.devRef .tc Cert.KernelIdeal.main_c_29) : (⟨Cert.KernelIdeal.S_, .i32⟩ : BufTy).Contents (Elt Ideal))
      = (constantI Cert.KernelIdeal.S_ 32 0#32) := by
  after_results

/-- The kernel program's variance row after the twenty-three operations of its variance function, over any contents
    before them: under the condition "count minus correction is positive", the column sums of the squared deviations
    from the mean laid as one row, over the row of that difference; else the fill. -/
theorem k_var2_3_read (W : Valuation Cert.KernelIdeal.τ Cert.KernelIdeal.sig (Elt Ideal)) :
    (StableHlo.after (Cert.KernelIdeal.Gen.hostOps15_1 (F := Ideal)) W (Proc.devRef .tc Cert.KernelIdeal.main_v195) : (⟨Cert.KernelIdeal.S1x64, .f32⟩ : BufTy).Contents (Elt Ideal))
      = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (W (Proc.devRef .tc Cert.KernelIdeal.main_c_29) : (⟨Cert.KernelIdeal.S_, .i32⟩ : BufTy).Contents (Elt Ideal)))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (W (Proc.devRef .tc Cert.KernelIdeal.main_v190) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v190) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (W (Proc.devRef .tc Cert.KernelIdeal.main_v190) : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (W (Proc.devRef .tc Cert.KernelIdeal.main_v190) : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (W (Proc.devRef .tc Cert.KernelIdeal.main_c_29) : (⟨Cert.KernelIdeal.S_, .i32⟩ : BufTy).Contents (Elt Ideal))))))
          (broadcastInDim Cert.KernelIdeal.S1x64 ![] Cert.KernelIdeal.Facts₀.bcast_S_S1x64 (constant (F := Ideal) Cert.KernelIdeal.S_ .f32 0x7FC00000#32)) := by
  after_results_simp <;> (try simp only [StableHlo.TRef.ofBuf, StableHlo.TRef.toBuf, cast_eq]) <;> rfl

/-- The reference's mean vector after the operations that make it, over any contents before them: the column sums of
    the array those same operations leave as the input, over the vector of the count. -/
theorem r_mean2_3_read (W : Valuation Cert.ReferenceIdeal.τ Cert.ReferenceIdeal.sig (Elt Ideal)) :
    (StableHlo.after (Cert.ReferenceIdeal.Ops.hostOps0_36 (F := Ideal)) W (Proc.devRef .tc Cert.ReferenceIdeal.main_v357) : (⟨Cert.ReferenceIdeal.S64, .f32⟩ : BufTy).Contents (Elt Ideal))
      = Host.divf (Host.reduceAdd (StableHlo.after (Cert.ReferenceIdeal.Ops.hostOps0_36 (F := Ideal)) W (Proc.devRef .tc Cert.ReferenceIdeal.main_v350) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  after_results_simp <;> rfl

/-- Those operations end by writing the variance's correction, the integer zero. -/
theorem r_corr2_3_read (W : Valuation Cert.ReferenceIdeal.τ Cert.ReferenceIdeal.sig (Elt Ideal)) :
    (StableHlo.after (Cert.ReferenceIdeal.Ops.hostOps0_36 (F := Ideal)) W (Proc.devRef .tc Cert.ReferenceIdeal.main_c_54) : (⟨Cert.ReferenceIdeal.S_, .i32⟩ : BufTy).Contents (Elt Ideal))
      = (constantI Cert.ReferenceIdeal.S_ 32 0#32) := by
  after_results

/-- The reference's variance vector after the twenty-two operations of its variance function, over any contents before
    them: under the same condition, the same column sums of squared deviations (the mean inside is kept as a row
    there too), over the vector of the difference; else the fill. -/
theorem r_var2_3_read (W : Valuation Cert.ReferenceIdeal.τ Cert.ReferenceIdeal.sig (Elt Ideal)) :
    (StableHlo.after (Cert.ReferenceIdeal.Ops.hostOps0_37 (F := Ideal)) W (Proc.devRef .tc Cert.ReferenceIdeal.main_v358) : (⟨Cert.ReferenceIdeal.S64, .f32⟩ : BufTy).Contents (Elt Ideal))
      = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (W (Proc.devRef .tc Cert.ReferenceIdeal.main_c_54) : (⟨Cert.ReferenceIdeal.S_, .i32⟩ : BufTy).Contents (Elt Ideal)))) (constant (F := Ideal) Cert.ReferenceIdeal.S_ .f32 0x00000000#32)))
          (Host.divf (Host.reduceAdd (mulf (subf (W (Proc.devRef .tc Cert.ReferenceIdeal.main_v350) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v350) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (W (Proc.devRef .tc Cert.ReferenceIdeal.main_v350) : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (W (Proc.devRef .tc Cert.ReferenceIdeal.main_v350) : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (W (Proc.devRef .tc Cert.ReferenceIdeal.main_c_54) : (⟨Cert.ReferenceIdeal.S_, .i32⟩ : BufTy).Contents (Elt Ideal))))))
          (broadcastInDim Cert.ReferenceIdeal.S64 ![] Cert.ReferenceIdeal.Facts₀.bcast_S_S64 (constant (F := Ideal) Cert.ReferenceIdeal.S_ .f32 0x7FC00000#32)) := by
  after_results_simp <;> (try simp only [StableHlo.TRef.ofBuf, StableHlo.TRef.toBuf, cast_eq]) <;> rfl

/-- What the kernel program leaves as the mean row, over what it leaves as the input. -/
theorem k_mean2_3_val (c : Dev Cert.KernelIdeal.nD) :
    (KV m ρ c Cert.KernelIdeal.main_v194 : (⟨Cert.KernelIdeal.S1x64, .f32⟩ : BufTy).Contents (Elt Ideal)) = (Host.divf (broadcastInDim Cert.KernelIdeal.S1x64 ![1] Cert.KernelIdeal.Facts₀.bcast_S64_S1x64_1 (Host.reduceAdd (KV m ρ c Cert.KernelIdeal.main_v190 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))) := by
  have e := k_mean2_3_read (Cert.KernelIdeal.Gen.W47 (F := Ideal) m ρ c)
  rw [Cert.KernelIdeal.Keep.toEnd_47 m ρ c Cert.KernelIdeal.main_v190 (by decide)] at e
  exact (Cert.KernelIdeal.Keep.toEnd_48 m ρ c Cert.KernelIdeal.main_v194 (by decide)).symm.trans e

/-- What the kernel program leaves as the variance row, over what it leaves as the input. -/
theorem k_var2_3_val (c : Dev Cert.KernelIdeal.nD) :
    (KV m ρ c Cert.KernelIdeal.main_v195 : (⟨Cert.KernelIdeal.S1x64, .f32⟩ : BufTy).Contents (Elt Ideal)) = select
          (broadcastInDim Cert.KernelIdeal.S1x64 ![] Cert.KernelIdeal.Facts₀.bcast_S_S1x64 (cmpf .ogt (subf (constant (F := Ideal) Cert.KernelIdeal.S_ .f32 0x47C35000#32) (sitofp (F := Ideal) .f32 (constantI Cert.KernelIdeal.S_ 32 0#32))) (constant (F := Ideal) Cert.KernelIdeal.S_ .f32 0x00000000#32)))
          (Host.divf
            (broadcastInDim Cert.KernelIdeal.S1x64 ![1] Cert.KernelIdeal.Facts₀.bcast_S64_S1x64_1 (Host.reduceAdd (mulf (subf (KV m ρ c Cert.KernelIdeal.main_v190 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v190 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32))))) (subf (KV m ρ c Cert.KernelIdeal.main_v190 : (⟨Cert.KernelIdeal.S100000x64, .f32⟩ : BufTy).Contents (Elt Ideal)) (broadcastInDim Cert.KernelIdeal.S100000x64 ![0, 1] Cert.KernelIdeal.Facts₀.bcast_S1x64_S100000x64_0_1 (Host.divf (broadcastInDim Cert.KernelIdeal.S1x64 ![1] Cert.KernelIdeal.Facts₀.bcast_S64_S1x64_1 (Host.reduceAdd (KV m ρ c Cert.KernelIdeal.main_v190 : (⟨Cert.KernelIdeal.S100000x64, .f32⟩ : BufTy).Contents (Elt Ideal)) (constant (F := Ideal) Cert.KernelIdeal.S_ .f32 0x00000000#32) Cert.KernelIdeal.Facts₀.reducesTo_S100000x64_S64_d0 Cert.KernelIdeal.Facts₀.h_S_)) (broadcastInDim Cert.KernelIdeal.S1x64 ![] Cert.KernelIdeal.Facts₀.bcast_S_S1x64 (constant (F := Ideal) Cert.KernelIdeal.S_ .f32 0x47C35000#32)))))) (constant (F := Ideal) Cert.KernelIdeal.S_ .f32 0x00000000#32) Cert.KernelIdeal.Facts₀.reducesTo_S100000x64_S64_d0 Cert.KernelIdeal.Facts₀.h_S_))
            (broadcastInDim Cert.KernelIdeal.S1x64 ![] Cert.KernelIdeal.Facts₀.bcast_S_S1x64 (subf (constant (F := Ideal) Cert.KernelIdeal.S_ .f32 0x47C35000#32) (sitofp (F := Ideal) .f32 (constantI Cert.KernelIdeal.S_ 32 0#32)))))
          (broadcastInDim Cert.KernelIdeal.S1x64 ![] Cert.KernelIdeal.Facts₀.bcast_S_S1x64 (constant (F := Ideal) Cert.KernelIdeal.S_ .f32 0x7FC00000#32)) := by
  have e := k_var2_3_read (Cert.KernelIdeal.Gen.W48 (F := Ideal) m ρ c)
  rw [Cert.KernelIdeal.Keep.toEnd_48 m ρ c Cert.KernelIdeal.main_v190 (by decide)] at e
  rw [show (Cert.KernelIdeal.Gen.W48 (F := Ideal) m ρ c (Proc.devRef .tc Cert.KernelIdeal.main_c_29) : (⟨Cert.KernelIdeal.S_, .i32⟩ : BufTy).Contents (Elt Ideal)) = (constantI Cert.KernelIdeal.S_ 32 0#32)
        from k_corr2_3_read (Cert.KernelIdeal.Gen.W47 (F := Ideal) m ρ c)] at e
  exact (Cert.KernelIdeal.Keep.toEnd_49 m ρ c Cert.KernelIdeal.main_v195 (by decide)).symm.trans e

/-- What the reference leaves as the mean vector, over what it leaves as the input. -/
theorem r_mean2_3_val (c : Dev Cert.ReferenceIdeal.nD) :
    (RV m' c Cert.ReferenceIdeal.main_v357 : (⟨Cert.ReferenceIdeal.S64, .f32⟩ : BufTy).Contents (Elt Ideal)) = Host.divf (Host.reduceAdd (RV m' c Cert.ReferenceIdeal.main_v350 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_) (broadcastInDim Cert.ReferenceIdeal.S64 ![] Cert.ReferenceIdeal.Facts₀.bcast_S_S64 (constant (F := Ideal) Cert.ReferenceIdeal.S_ .f32 0x47C35000#32)) := by
  have e := r_mean2_3_read (R36 m' c)
  rw [show (StableHlo.after (Cert.ReferenceIdeal.Ops.hostOps0_36 (F := Ideal)) (R36 m' c) (Proc.devRef .tc Cert.ReferenceIdeal.main_v350) : (⟨Cert.ReferenceIdeal.S100000x64, .f32⟩ : BufTy).Contents (Elt Ideal))
          = RV m' c Cert.ReferenceIdeal.main_v350
        from Cert.ReferenceIdeal.Keep.toEnd_37 m' c Cert.ReferenceIdeal.main_v350 (by decide)] at e
  exact (Cert.ReferenceIdeal.Keep.toEnd_37 m' c Cert.ReferenceIdeal.main_v357 (by decide)).symm.trans e

/-- What the reference leaves as the variance vector, over what it leaves as the input. -/
theorem r_var2_3_val (c : Dev Cert.ReferenceIdeal.nD) :
    (RV m' c Cert.ReferenceIdeal.main_v358 : (⟨Cert.ReferenceIdeal.S64, .f32⟩ : BufTy).Contents (Elt Ideal)) = select
          (broadcastInDim Cert.ReferenceIdeal.S64 ![] Cert.ReferenceIdeal.Facts₀.bcast_S_S64 (cmpf .ogt (subf (constant (F := Ideal) Cert.ReferenceIdeal.S_ .f32 0x47C35000#32) (sitofp (F := Ideal) .f32 (constantI Cert.ReferenceIdeal.S_ 32 0#32))) (constant (F := Ideal) Cert.ReferenceIdeal.S_ .f32 0x00000000#32)))
          (Host.divf (Host.reduceAdd (mulf (subf (RV m' c Cert.ReferenceIdeal.main_v350 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v350 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32))))) (subf (RV m' c Cert.ReferenceIdeal.main_v350 : (⟨Cert.ReferenceIdeal.S100000x64, .f32⟩ : BufTy).Contents (Elt Ideal)) (broadcastInDim Cert.ReferenceIdeal.S100000x64 ![0, 1] Cert.ReferenceIdeal.Facts₀.bcast_S1x64_S100000x64_0_1 (Host.divf (broadcastInDim Cert.ReferenceIdeal.S1x64 ![1] Cert.ReferenceIdeal.Facts₀.bcast_S64_S1x64_1 (Host.reduceAdd (RV m' c Cert.ReferenceIdeal.main_v350 : (⟨Cert.ReferenceIdeal.S100000x64, .f32⟩ : BufTy).Contents (Elt Ideal)) (constant (F := Ideal) Cert.ReferenceIdeal.S_ .f32 0x00000000#32) Cert.ReferenceIdeal.Facts₀.reducesTo_S100000x64_S64_d0 Cert.ReferenceIdeal.Facts₀.h_S_)) (broadcastInDim Cert.ReferenceIdeal.S1x64 ![] Cert.ReferenceIdeal.Facts₀.bcast_S_S1x64 (constant (F := Ideal) Cert.ReferenceIdeal.S_ .f32 0x47C35000#32)))))) (constant (F := Ideal) Cert.ReferenceIdeal.S_ .f32 0x00000000#32) Cert.ReferenceIdeal.Facts₀.reducesTo_S100000x64_S64_d0 Cert.ReferenceIdeal.Facts₀.h_S_)
            (broadcastInDim Cert.ReferenceIdeal.S64 ![] Cert.ReferenceIdeal.Facts₀.bcast_S_S64 (subf (constant (F := Ideal) Cert.ReferenceIdeal.S_ .f32 0x47C35000#32) (sitofp (F := Ideal) .f32 (constantI Cert.ReferenceIdeal.S_ 32 0#32)))))
          (broadcastInDim Cert.ReferenceIdeal.S64 ![] Cert.ReferenceIdeal.Facts₀.bcast_S_S64 (constant (F := Ideal) Cert.ReferenceIdeal.S_ .f32 0x7FC00000#32)) := by
  have e := r_var2_3_read (R37 m' c)
  rw [Cert.ReferenceIdeal.Keep.toEnd_37 m' c Cert.ReferenceIdeal.main_v350 (by decide)] at e
  rw [show (R37 m' c (Proc.devRef .tc Cert.ReferenceIdeal.main_c_54) : (⟨Cert.ReferenceIdeal.S_, .i32⟩ : BufTy).Contents (Elt Ideal)) = (constantI Cert.ReferenceIdeal.S_ 32 0#32)
        from r_corr2_3_read (R36 m' c)] at e
  exact (Cert.ReferenceIdeal.Keep.toEnd_38 m' c Cert.ReferenceIdeal.main_v358 (by decide)).symm.trans e

/-- STATISTICS 2 OF LAYER 3. Where the two programs leave the same input array, the kernel program's mean row and
    variance row hold, in column j of their one row, what the reference's mean vector and variance vector hold at j. -/
theorem corr_stats2_3 (c : Dev Cert.KernelIdeal.nD)
    (hz : KV m ρ c Cert.KernelIdeal.main_v190 = RV m' c Cert.ReferenceIdeal.main_v350) :
    (∀ j : Fin 64, (KV m ρ c Cert.KernelIdeal.main_v194 : Vec Ideal Cert.KernelIdeal.S1x64 .f32) (ix2 (0 : Fin 1) j)
        = (RV m' c Cert.ReferenceIdeal.main_v357 : Vec Ideal Cert.ReferenceIdeal.S64 .f32) (ix1 j))
    ∧ (∀ j : Fin 64, (KV m ρ c Cert.KernelIdeal.main_v195 : Vec Ideal Cert.KernelIdeal.S1x64 .f32) (ix2 (0 : Fin 1) j)
        = (RV m' c Cert.ReferenceIdeal.main_v358 : Vec Ideal Cert.ReferenceIdeal.S64 .f32) (ix1 j)) := by
  refine ⟨fun j => ?_, fun j => ?_⟩
  · rw [k_mean2_3_val m ρ c, r_mean2_3_val m' c, hz]
    generalize RV m' c Cert.ReferenceIdeal.main_v350 = z
    exact mean_row64_eq _ _ _ _ _ j
  · rw [k_var2_3_val m ρ c, r_var2_3_val m' c, hz]
    generalize RV m' c Cert.ReferenceIdeal.main_v350 = z
    exact var_row64_eq _ _ _ _ _ _ _ j

end Cert.Bridge

end
-- ==== Proof.Bridge.Mlp2Shared.lean ====
/- The second perceptron layer of a graph layer (batch normalisation with the first statistics, the positive part, the
   product with the second weight matrix, the second bias), as a function, and the arithmetic both programs use for it,
   read at an index: what is the same in all four graph layers.

   Entry (p, q) of the result is
     (∑ k, max (((z (p,k) - mean k) · rsqrt (var k + ε)) · g k + be k) 0 · W (k,q)) + b q,
   with ε and 0 kept as the words both programs carry. The kernel computes the product as a matrix unit's sum into a zero
   accumulator over operands whose change of format is the identity on extended reals; the reference as the host's
   dot_general. Both are the same sum over k. The four parameter arguments (scales, shifts, weights, biases of all
   layers) are never written, and the two launch memories agree on them. -/
import proofs.«417278_j53197464928922_1_alg».proof.Proof.Setup
import proofs.«417278_j53197464928922_1_alg».proof.Proof.KKeep
import proofs.«417278_j53197464928922_1_alg».proof.Proof.RKeep
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.Bridge

open Idealize.ShloMosaic Idealize.ShloMosaic.TcCoe Idealize.SL.Sem
open Idealize.ShloMosaic.ValueIdx
open scoped BigOperators

/-! ## The function -/

/-- One entry of the layer: from row `z` of the input, the statistics `mu`, `var`, the scale `g` and shift `be`, column
    `W` of the weight matrix and the bias entry `b`. -/
def mlp2Val (z mu var g be W : Fin 64 → EReal) (b : EReal) : EReal :=
  (∑ k : Fin 64,
      max (((z k - mu k) * Ideal.rsqrt (var k + Ideal.ofBits .f32 0x3727C5AC#32)) * g k + be k) (Ideal.ofBits .f32 0x00000000#32)
        * W k)
    + b

/-- The layer on an array of `n` rows, its parameters given as [1,64] rows and a [64,64] matrix. -/
def mlp2Arr (n : Nat) (z : (⟨2, ![n, 64]⟩ : Shape).Idx → EReal) (mu var g be : (⟨2, ![1, 64]⟩ : Shape).Idx → EReal)
    (W : (⟨2, ![64, 64]⟩ : Shape).Idx → EReal) (b : (⟨2, ![1, 64]⟩ : Shape).Idx → EReal) :
    (⟨2, ![n, 64]⟩ : Shape).Idx → EReal :=
  fun i => mlp2Val (fun k => z (ix2 (i 0) k)) (fun k => mu (ix2 (0 : Fin 1) k)) (fun k => var (ix2 (0 : Fin 1) k))
    (fun k => g (ix2 (0 : Fin 1) k)) (fun k => be (ix2 (0 : Fin 1) k)) (fun k => W (ix2 k (i 1))) (b (ix2 (0 : Fin 1) (i 1)))

/-- The layer's entry depends on its seven inputs only through their values. -/
theorem mlp2Val_congr {z z' mu mu' var var' g g' be be' W W' : Fin 64 → EReal} {b b' : EReal}
    (hz : ∀ k, z k = z' k) (hmu : ∀ k, mu k = mu' k) (hvar : ∀ k, var k = var' k) (hg : ∀ k, g k = g' k)
    (hbe : ∀ k, be k = be' k) (hW : ∀ k, W k = W' k) (hb : b = b') :
    mlp2Val z mu var g be W b = mlp2Val z' mu' var' g' be' W' b' := by
  rw [funext hz, funext hmu, funext hvar, funext hg, funext hbe, funext hW, hb]

theorem mlp2_hz : (![0, 0] : Fin 2 → Nat) = fun _ => 0 := funext fun a => by fin_cases a <;> rfl

/-! ## The kernel's arithmetic at an index -/

/-- The matrix unit's operand indices at result index `i` and contraction index `q`: the left operand is read at row
    `i 0`, column `q`; the right at row `q`, column `i 1`. -/
theorem mlp2_klhs_ax0 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx i q 0).val = (i 0).val := by
  unfold DotDims.lhsIdx
  rw [dif_neg (show ¬(0 : Fin Cert.KernelIdeal.S5000x64.rank) ∈ Cert.KernelIdeal.dot_S5000x64_S64x64_S5000x64_1_0_0_1_n_n.lhsBatch by decide),
    dif_pos (show (0 : Fin Cert.KernelIdeal.S5000x64.rank) ∈ Cert.KernelIdeal.dot_S5000x64_S64x64_S5000x64_1_0_0_1_n_n.lhsNonContracting by decide)]
  rfl
theorem mlp2_klhs_ax1 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx i q 1).val = (q ⟨0, by decide⟩).val :=
  Cert.KernelIdeal.dot_S5000x64_S64x64_S5000x64_1_0_0_1_n_n.lhsIdx_val_of_single rfl i q
theorem mlp2_krhs_ax0 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx i q 0).val = (q ⟨0, by decide⟩).val :=
  Cert.KernelIdeal.dot_S5000x64_S64x64_S5000x64_1_0_0_1_n_n.rhsIdx_val_of_single rfl i q
theorem mlp2_krhs_ax1 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx i q 1).val = (i 1).val := by
  unfold DotDims.rhsIdx
  rw [dif_neg (show ¬(1 : Fin Cert.KernelIdeal.S64x64.rank) ∈ Cert.KernelIdeal.dot_S5000x64_S64x64_S5000x64_1_0_0_1_n_n.rhsBatch by decide),
    dif_pos (show (1 : Fin Cert.KernelIdeal.S64x64.rank) ∈ Cert.KernelIdeal.dot_S5000x64_S64x64_S5000x64_1_0_0_1_n_n.rhsNonContracting by decide)]
  rfl

/-- The matrix unit's product into a zero accumulator, at (p, q): the sum over k of row p of the left operand times
    column q of the right. -/
theorem mlp2_matmul_apply (l : FVec Ideal Cert.KernelIdeal.S5000x64 .bf16) (r : FVec Ideal Cert.KernelIdeal.S64x64 .bf16) (p : Fin 5000) (q : Fin 64) :
    matmul Cert.KernelIdeal.dot_S5000x64_S64x64_S5000x64_1_0_0_1_n_n none l r (constant (F := Ideal) Cert.KernelIdeal.S5000x64 .f32 0x00000000#32) (ix2 p q)
      = ∑ k : Fin 64, l (ix2 p k) * r (ix2 k q) := by
  simp only [matmul]
  rw [Ideal.matmul_constant_zero_apply, ← Equiv.sum_comp (contrEquiv1 Cert.KernelIdeal.dot_S5000x64_S64x64_S5000x64_1_0_0_1_n_n 64 rfl rfl).symm]
  refine Finset.sum_congr rfl fun k _ => ?_
  have hk := contrEquiv1_symm_val Cert.KernelIdeal.dot_S5000x64_S64x64_S5000x64_1_0_0_1_n_n 64 rfl rfl k
  have el : Cert.KernelIdeal.dot_S5000x64_S64x64_S5000x64_1_0_0_1_n_n.lhsIdx (ix2 p q) ((contrEquiv1 Cert.KernelIdeal.dot_S5000x64_S64x64_S5000x64_1_0_0_1_n_n 64 rfl rfl).symm k) = ix2 p k :=
    funext fun a => Fin.ext (by
      match a with
      | ⟨0, _⟩ => exact mlp2_klhs_ax0 _ _
      | ⟨1, _⟩ => exact (mlp2_klhs_ax1 _ _).trans hk)
  have er : Cert.KernelIdeal.dot_S5000x64_S64x64_S5000x64_1_0_0_1_n_n.rhsIdx (ix2 p q) ((contrEquiv1 Cert.KernelIdeal.dot_S5000x64_S64x64_S5000x64_1_0_0_1_n_n 64 rfl rfl).symm k) = ix2 k q :=
    funext fun a => Fin.ext (by
      match a with
      | ⟨0, _⟩ => exact (mlp2_krhs_ax0 _ _).trans hk
      | ⟨1, _⟩ => exact mlp2_krhs_ax1 _ _)
  rw [el, er]

/-! ## The reference's arithmetic at an index -/

/-- A vector of 64 entries laid as the one row of a [1,64] array reads, at column k, its entry k. -/
theorem mlp2_bid_row {α : Type} (x : (⟨1, ![64]⟩ : Shape).Idx → α)
    (h : (⟨1, ![64]⟩ : Shape).BroadcastsInDim ⟨2, ![1, 64]⟩ (![1] : Fin 1 → Fin 2)) (u : Fin 1) (k : Fin 64) :
    broadcastInDim ⟨2, ![1, 64]⟩ (![1] : Fin 1 → Fin 2) h x (ix2 u k) = x (ix1 k) := by
  refine broadcastInDim_apply _ h x (ix2 u k) (ix1 k) fun a => ?_
  match a with
  | ⟨0, _⟩ => rfl

/-- One row repeated down n rows reads, at (p, k), the row at k. -/
theorem mlp2_bid_rows {α : Type} {n : Nat} (x : (⟨2, ![1, 64]⟩ : Shape).Idx → α)
    (h : (⟨2, ![1, 64]⟩ : Shape).BroadcastsInDim ⟨2, ![n, 64]⟩ (![0, 1] : Fin 2 → Fin 2)) (p : Fin n) (k : Fin 64) :
    broadcastInDim ⟨2, ![n, 64]⟩ (![0, 1] : Fin 2 → Fin 2) h x (ix2 p k) = x (ix2 (0 : Fin 1) k) := by
  refine broadcastInDim_apply _ h x (ix2 p k) (ix2 (0 : Fin 1) k) fun a => ?_
  match a with
  | ⟨0, _⟩ => rfl
  | ⟨1, _⟩ => rfl

/-- A scalar repeated over any shape reads the scalar everywhere. -/
theorem mlp2_bid_scalar {α : Type} {s : Shape} (x : (⟨0, ![]⟩ : Shape).Idx → α)
    (h : (⟨0, ![]⟩ : Shape).BroadcastsInDim s (![] : Fin 0 → Fin s.rank)) (j : s.Idx) :
    broadcastInDim s (![] : Fin 0 → Fin s.rank) h x j = x ix0 := by
  refine broadcastInDim_apply _ h x j ix0 fun a => a.elim0

theorem mlp2_rlhs_ax0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide),
    dif_pos (show (0 : Fin Cert.ReferenceIdeal.S100000x64.rank) ∈ Cert.ReferenceIdeal.dot_S100000x64_S64x64_S100000x64_1_0_0_1_n_n.lhsNonContracting by decide)]
  rfl
theorem mlp2_rlhs_ax1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem mlp2_rrhs_ax0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem mlp2_rrhs_ax1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide),
    dif_pos (show (1 : Fin Cert.ReferenceIdeal.S64x64.rank) ∈ Cert.ReferenceIdeal.dot_S100000x64_S64x64_S100000x64_1_0_0_1_n_n.rhsNonContracting by decide)]
  rfl

/-- The host's product of a [100000,64] array with a [64,64] matrix, at (p, q): the sum over k of row p times column q. -/
theorem mlp2_dot_apply (l : FVec Ideal Cert.ReferenceIdeal.S100000x64 .f32) (r : FVec Ideal Cert.ReferenceIdeal.S64x64 .f32) (p : Fin 100000) (q : Fin 64) :
    Host.dotGeneral Cert.ReferenceIdeal.dot_S100000x64_S64x64_S100000x64_1_0_0_1_n_n none l r (ix2 p q)
      = ∑ k : Fin 64, l (ix2 p k) * r (ix2 k q) := by
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx (ix2 p q) ((contrEquiv1 Cert.ReferenceIdeal.dot_S100000x64_S64x64_S100000x64_1_0_0_1_n_n 64 rfl rfl).symm k) = ix2 p k :=
    funext fun a => Fin.ext (by
      match a with
      | ⟨0, _⟩ => exact mlp2_rlhs_ax0 _ _
      | ⟨1, _⟩ => exact (mlp2_rlhs_ax1 _ _).trans hk)
  have er : Cert.ReferenceIdeal.dot_S100000x64_S64x64_S100000x64_1_0_0_1_n_n.rhsIdx (ix2 p q) ((contrEquiv1 Cert.ReferenceIdeal.dot_S100000x64_S64x64_S100000x64_1_0_0_1_n_n 64 rfl rfl).symm k) = ix2 k q :=
    funext fun a => Fin.ext (by
      match a with
      | ⟨0, _⟩ => exact (mlp2_rrhs_ax0 _ _).trans hk
      | ⟨1, _⟩ => exact mlp2_rrhs_ax1 _ _)
  rw [el, er]

/-! ## The parameter arguments -/

section Args

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The two runs leave the arguments as launched, and the launch memories agree on them. -/
theorem mlp2_args (hag : Agree m m') (c : Dev Cert.KernelIdeal.nD) :
    (RV m' c Cert.ReferenceIdeal.main_arg9 : Vec Ideal Cert.ReferenceIdeal.S4x64 .f32) = KV m ρ c Cert.KernelIdeal.main_arg9
    ∧ (RV m' c Cert.ReferenceIdeal.main_arg10 : Vec Ideal Cert.ReferenceIdeal.S4x64 .f32) = KV m ρ c Cert.KernelIdeal.main_arg10
    ∧ (RV m' c Cert.ReferenceIdeal.main_arg11 : Vec Ideal Cert.ReferenceIdeal.S4x64x64 .f32) = KV m ρ c Cert.KernelIdeal.main_arg11
    ∧ (RV m' c Cert.ReferenceIdeal.main_arg12 : Vec Ideal Cert.ReferenceIdeal.S4x64 .f32) = KV m ρ c Cert.KernelIdeal.main_arg12 :=
  ⟨((Cert.ReferenceIdeal.Keep.arg_kept_9 m' c).trans ((hag c).2.2.2.2.2.2.2.2.2.1)).trans (Cert.KernelIdeal.Gen.W52_main_arg9 m ρ c).symm,
   ((Cert.ReferenceIdeal.Keep.arg_kept_10 m' c).trans ((hag c).2.2.2.2.2.2.2.2.2.2.1)).trans (Cert.KernelIdeal.Gen.W52_main_arg10 m ρ c).symm,
   ((Cert.ReferenceIdeal.Keep.arg_kept_11 m' c).trans ((hag c).2.2.2.2.2.2.2.2.2.2.2.1)).trans (Cert.KernelIdeal.Gen.W52_main_arg11 m ρ c).symm,
   ((Cert.ReferenceIdeal.Keep.arg_kept_12 m' c).trans ((hag c).2.2.2.2.2.2.2.2.2.2.2.2.1)).trans (Cert.KernelIdeal.Gen.W52_main_arg12 m ρ c).symm⟩

end Args

end Cert.Bridge

end
-- ==== Proof.Bridge.Mlp2.lean ====
/- The second perceptron layer of graph layer 0: what the kernel program's third pallas_call leaves in its output array,
   as one function of the arrays it reads, and that this is what the reference's host operations leave in the
   corresponding buffer.

   The kernel computes the layer block of 5000 rows by block; the reference on whole arrays. Both do the same operations
   in the same order, so nothing beyond reading each side at an index is used: the body's stored block at an index, the
   blocks tiling the array, each program's parameters as the same rows of the same arguments, and the reference's three
   stretches of host operations read one after the other. -/
import proofs.«417278_j53197464928922_1_alg».proof.Proof.Bridge.Mlp2Shared

set_option maxRecDepth 16384

noncomputable section

namespace Cert.Bridge

open Idealize.ShloMosaic Idealize.ShloMosaic.TcCoe Idealize.SL.Sem
open Idealize.ShloMosaic.ValueIdx
open Idealize.ShloMosaic.Pipeline (Dat)
open scoped BigOperators

/-! ## The kernel's stored block at an index -/

/-- The body's stored value at (p, q) of its block, from the blocks it loads: the layer's entry from row p of the
    input block. -/
theorem mlp2_pay_apply_0 (x0 : Vec Ideal Cert.KernelIdeal.S5000x64 .f32) (x1 x2 x3 x4 : Vec Ideal Cert.KernelIdeal.S1x64 .f32)
    (x5 : Vec Ideal Cert.KernelIdeal.S64x64 .f32) (x6 : Vec Ideal Cert.KernelIdeal.S1x64 .f32) (p : Fin 5000) (q : Fin 64) :
    Cert.KernelIdeal.Gen.k2_pay1 (F := Ideal) x0 x1 x2 x3 x4 x5 x6 (ix2 p q)
      = mlp2Val (fun k => x0 (ix2 p k)) (fun k => x1 (ix2 (0 : Fin 1) k)) (fun k => x2 (ix2 (0 : Fin 1) k))
          (fun k => x3 (ix2 (0 : Fin 1) k)) (fun k => x4 (ix2 (0 : Fin 1) k)) (fun k => x5 (ix2 k q)) (x6 (ix2 (0 : Fin 1) q)) := by
  unfold Cert.KernelIdeal.Gen.k2_pay1 mlp2Val
  simp only [shapeCast_self]
  rw [addf_apply, mlp2_matmul_apply, broadcastTo_1b_ab_apply]
  refine congrArg (· + x6 (ix2 (0 : Fin 1) q)) (Finset.sum_congr rfl fun k _ => ?_)
  simp only [truncf_apply, maximumf_apply, addf_apply, mulf_apply, subf_apply, broadcastTo_1b_ab_apply, broadcast_apply]
  rfl

/-- As arrays: the body's stored block is the layer on the 5000 rows of the input block. -/
theorem mlp2_pay_eq_0 (x0 : Vec Ideal Cert.KernelIdeal.S5000x64 .f32) (x1 x2 x3 x4 : Vec Ideal Cert.KernelIdeal.S1x64 .f32)
    (x5 : Vec Ideal Cert.KernelIdeal.S64x64 .f32) (x6 : Vec Ideal Cert.KernelIdeal.S1x64 .f32) :
    Cert.KernelIdeal.Gen.k2_pay1 (F := Ideal) x0 x1 x2 x3 x4 x5 x6 = mlp2Arr 5000 x0 x1 x2 x3 x4 x5 x6 := by
  funext j
  rw [eq_ix2 j]
  exact mlp2_pay_apply_0 x0 x1 x2 x3 x4 x5 x6 (j 0) (j 1)

/-! ## What the pallas_call leaves in its output array -/

section Region

variable (V : (c : Dev Cert.KernelIdeal.nD) → (b : Ref Cert.KernelIdeal.sig .tc) → Buf (Elt Ideal) ((c : Thread Cert.KernelIdeal.nD Cert.KernelIdeal.τ).loc b))

/-- The printed index maps over the 20 grid points: the input and the output move together down the rows, block t at
    point t; every other window stays at its one block. -/
theorem mlp2_idx_facts_0 : ∀ t : Fin Cert.KernelIdeal.cfg2.N,
    Cert.KernelIdeal.win2_0.index t (0 : Fin 2) = Cert.KernelIdeal.win2_7.index t (0 : Fin 2) ∧ Cert.KernelIdeal.win2_0.index t (1 : Fin 2) = 0
    ∧ Cert.KernelIdeal.win2_7.index t (1 : Fin 2) = 0
    ∧ Cert.KernelIdeal.win2_1.index t (0 : Fin 2) = 0 ∧ Cert.KernelIdeal.win2_1.index t (1 : Fin 2) = 0
    ∧ Cert.KernelIdeal.win2_2.index t (0 : Fin 2) = 0 ∧ Cert.KernelIdeal.win2_2.index t (1 : Fin 2) = 0
    ∧ Cert.KernelIdeal.win2_3.index t (0 : Fin 2) = 0 ∧ Cert.KernelIdeal.win2_3.index t (1 : Fin 2) = 0
    ∧ Cert.KernelIdeal.win2_4.index t (0 : Fin 2) = 0 ∧ Cert.KernelIdeal.win2_4.index t (1 : Fin 2) = 0
    ∧ Cert.KernelIdeal.win2_5.index t (0 : Fin 2) = 0 ∧ Cert.KernelIdeal.win2_5.index t (1 : Fin 2) = 0
    ∧ Cert.KernelIdeal.win2_6.index t (0 : Fin 2) = 0 ∧ Cert.KernelIdeal.win2_6.index t (1 : Fin 2) = 0 :=
  (by decide +kernel : ∀ t : Fin Cert.KernelIdeal.grid2.N, _)

/-- Every block of 5000 rows is some point's. -/
theorem mlp2_idx_onto_0 : ∀ q0 : Fin 20, ∃ t : Fin Cert.KernelIdeal.cfg2.N,
    Cert.KernelIdeal.win2_7.index t (0 : Fin 2) = q0.val ∧ Cert.KernelIdeal.win2_7.index t (1 : Fin 2) = 0 :=
  (by decide +kernel : ∀ q0 : Fin 20, ∃ t : Fin Cert.KernelIdeal.grid2.N,
    Cert.KernelIdeal.win2_7.index t (0 : Fin 2) = q0.val ∧ Cert.KernelIdeal.win2_7.index t (1 : Fin 2) = 0)

/-- A window whose one block is its whole [1,64] array holds that array at every point. -/
theorem mlp2_iblk_row_0 (c : Dev Cert.KernelIdeal.nD) (t : Fin Cert.KernelIdeal.cfg2.N) :
    (Cert.KernelIdeal.Gen.iblk2 (F := Ideal) V c 1 t : Vec Ideal Cert.KernelIdeal.S1x64 .f32) = V c Cert.KernelIdeal.main_v44
    ∧ (Cert.KernelIdeal.Gen.iblk2 (F := Ideal) V c 2 t : Vec Ideal Cert.KernelIdeal.S1x64 .f32) = V c Cert.KernelIdeal.main_v45
    ∧ (Cert.KernelIdeal.Gen.iblk2 (F := Ideal) V c 3 t : Vec Ideal Cert.KernelIdeal.S1x64 .f32) = V c Cert.KernelIdeal.main_v25
    ∧ (Cert.KernelIdeal.Gen.iblk2 (F := Ideal) V c 4 t : Vec Ideal Cert.KernelIdeal.S1x64 .f32) = V c Cert.KernelIdeal.main_v28
    ∧ (Cert.KernelIdeal.Gen.iblk2 (F := Ideal) V c 5 t : Vec Ideal Cert.KernelIdeal.S64x64 .f32) = V c Cert.KernelIdeal.main_v30
    ∧ (Cert.KernelIdeal.Gen.iblk2 (F := Ideal) V c 6 t : Vec Ideal Cert.KernelIdeal.S1x64 .f32) = V c Cert.KernelIdeal.main_v33 := by
  obtain ⟨-, -, -, e10, e11, e20, e21, e30, e31, e40, e41, e50, e51, e60, e61⟩ := mlp2_idx_facts_0 t
  refine ⟨funext fun y => ?_, funext fun y => ?_, funext fun y => ?_, funext fun y => ?_, funext fun y => ?_, funext fun y => ?_⟩
  · show V c Cert.KernelIdeal.main_v44 (((Cert.KernelIdeal.cfg2.win 1).blk t).view.emb y) = V c Cert.KernelIdeal.main_v44 y
    refine congrArg (V c Cert.KernelIdeal.main_v44) (funext fun a => Fin.ext ?_)
    match a with
    | ⟨0, _⟩ => show Cert.KernelIdeal.win2_1.index t (0 : Fin 2) * 1 + 1 * (y 0).val = (y 0).val; omega
    | ⟨1, _⟩ => show Cert.KernelIdeal.win2_1.index t (1 : Fin 2) * 64 + 1 * (y 1).val = (y 1).val; omega
  · show V c Cert.KernelIdeal.main_v45 (((Cert.KernelIdeal.cfg2.win 2).blk t).view.emb y) = V c Cert.KernelIdeal.main_v45 y
    refine congrArg (V c Cert.KernelIdeal.main_v45) (funext fun a => Fin.ext ?_)
    match a with
    | ⟨0, _⟩ => show Cert.KernelIdeal.win2_2.index t (0 : Fin 2) * 1 + 1 * (y 0).val = (y 0).val; omega
    | ⟨1, _⟩ => show Cert.KernelIdeal.win2_2.index t (1 : Fin 2) * 64 + 1 * (y 1).val = (y 1).val; omega
  · show V c Cert.KernelIdeal.main_v25 (((Cert.KernelIdeal.cfg2.win 3).blk t).view.emb y) = V c Cert.KernelIdeal.main_v25 y
    refine congrArg (V c Cert.KernelIdeal.main_v25) (funext fun a => Fin.ext ?_)
    match a with
    | ⟨0, _⟩ => show Cert.KernelIdeal.win2_3.index t (0 : Fin 2) * 1 + 1 * (y 0).val = (y 0).val; omega
    | ⟨1, _⟩ => show Cert.KernelIdeal.win2_3.index t (1 : Fin 2) * 64 + 1 * (y 1).val = (y 1).val; omega
  · show V c Cert.KernelIdeal.main_v28 (((Cert.KernelIdeal.cfg2.win 4).blk t).view.emb y) = V c Cert.KernelIdeal.main_v28 y
    refine congrArg (V c Cert.KernelIdeal.main_v28) (funext fun a => Fin.ext ?_)
    match a with
    | ⟨0, _⟩ => show Cert.KernelIdeal.win2_4.index t (0 : Fin 2) * 1 + 1 * (y 0).val = (y 0).val; omega
    | ⟨1, _⟩ => show Cert.KernelIdeal.win2_4.index t (1 : Fin 2) * 64 + 1 * (y 1).val = (y 1).val; omega
  · show V c Cert.KernelIdeal.main_v30 (((Cert.KernelIdeal.cfg2.win 5).blk t).view.emb y) = V c Cert.KernelIdeal.main_v30 y
    refine congrArg (V c Cert.KernelIdeal.main_v30) (funext fun a => Fin.ext ?_)
    match a with
    | ⟨0, _⟩ => show Cert.KernelIdeal.win2_5.index t (0 : Fin 2) * 64 + 1 * (y 0).val = (y 0).val; omega
    | ⟨1, _⟩ => show Cert.KernelIdeal.win2_5.index t (1 : Fin 2) * 64 + 1 * (y 1).val = (y 1).val; omega
  · show V c Cert.KernelIdeal.main_v33 (((Cert.KernelIdeal.cfg2.win 6).blk t).view.emb y) = V c Cert.KernelIdeal.main_v33 y
    refine congrArg (V c Cert.KernelIdeal.main_v33) (funext fun a => Fin.ext ?_)
    match a with
    | ⟨0, _⟩ => show Cert.KernelIdeal.win2_6.index t (0 : Fin 2) * 1 + 1 * (y 0).val = (y 0).val; omega
    | ⟨1, _⟩ => show Cert.KernelIdeal.win2_6.index t (1 : Fin 2) * 64 + 1 * (y 1).val = (y 1).val; omega

/-- What point t writes back is block t of the layer on the whole input array. -/
theorem mlp2_flushed_eq_0 (c : Dev Cert.KernelIdeal.nD) (t : Fin Cert.KernelIdeal.cfg2.N) :
    (Cert.KernelIdeal.Gen.dat2 (F := Ideal) V c).flushed 7 t
      = ((Cert.KernelIdeal.cfg2.win 7).blk t).view.read (Elt Ideal)
          (mlp2Arr 100000 (V c Cert.KernelIdeal.main_v40) (V c Cert.KernelIdeal.main_v44) (V c Cert.KernelIdeal.main_v45) (V c Cert.KernelIdeal.main_v25) (V c Cert.KernelIdeal.main_v28)
            (V c Cert.KernelIdeal.main_v30) (V c Cert.KernelIdeal.main_v33)) := by
  show (Cert.KernelIdeal.cfg2.win 7).cut (Cert.KernelIdeal.grid2.coords t) ((Cert.KernelIdeal.Gen.dat2 (F := Ideal) V c).after 7 t) = _
  rw [Cert.KernelIdeal.Gen.after2_7]
  unfold Cert.KernelIdeal.Gen.out2_7
  rw [View.canon_unit_zero mlp2_hz]
  simp only [View.ld_unit_zero (S := Cert.KernelIdeal.S5000x64) mlp2_hz, View.ld_unit_zero (S := Cert.KernelIdeal.S1x64) mlp2_hz,
    View.ld_unit_zero (S := Cert.KernelIdeal.S64x64) mlp2_hz]
  obtain ⟨h1, h2, h3, h4, h5, h6⟩ := mlp2_iblk_row_0 V c t
  rw [mlp2_pay_eq_0, h1, h2, h3, h4, h5, h6]
  obtain ⟨e00, e01, e71, -⟩ := mlp2_idx_facts_0 t
  funext j
  show mlp2Arr 5000 (Cert.KernelIdeal.Gen.iblk2 (F := Ideal) V c 0 t) (V c Cert.KernelIdeal.main_v44) (V c Cert.KernelIdeal.main_v45) (V c Cert.KernelIdeal.main_v25) (V c Cert.KernelIdeal.main_v28)
        (V c Cert.KernelIdeal.main_v30) (V c Cert.KernelIdeal.main_v33) j
      = mlp2Arr 100000 (V c Cert.KernelIdeal.main_v40) (V c Cert.KernelIdeal.main_v44) (V c Cert.KernelIdeal.main_v45) (V c Cert.KernelIdeal.main_v25) (V c Cert.KernelIdeal.main_v28)
        (V c Cert.KernelIdeal.main_v30) (V c Cert.KernelIdeal.main_v33) (((Cert.KernelIdeal.cfg2.win 7).blk t).view.emb j)
  unfold mlp2Arr
  have hq : (((Cert.KernelIdeal.cfg2.win 7).blk t).view.emb j 1 : Fin 64) = (j 1 : Fin 64) := Fin.ext (by
    show Cert.KernelIdeal.win2_7.index t (1 : Fin 2) * 64 + 1 * (j 1).val = (j 1).val; omega)
  have hz : ∀ k : Fin 64, (Cert.KernelIdeal.Gen.iblk2 (F := Ideal) V c 0 t : Vec Ideal Cert.KernelIdeal.S5000x64 .f32) (ix2 (j 0) k)
      = V c Cert.KernelIdeal.main_v40 (ix2 (((Cert.KernelIdeal.cfg2.win 7).blk t).view.emb j 0) k) := fun k => by
    show V c Cert.KernelIdeal.main_v40 (((Cert.KernelIdeal.cfg2.win 0).blk t).view.emb (ix2 (j 0) k)) = _
    refine congrArg (V c Cert.KernelIdeal.main_v40) (funext fun a => Fin.ext ?_)
    match a with
    | ⟨0, _⟩ => show Cert.KernelIdeal.win2_0.index t (0 : Fin 2) * 5000 + 1 * (j 0).val = Cert.KernelIdeal.win2_7.index t (0 : Fin 2) * 5000 + 1 * (j 0).val; omega
    | ⟨1, _⟩ => show Cert.KernelIdeal.win2_0.index t (1 : Fin 2) * 64 + 1 * k.val = k.val; omega
  show mlp2Val (fun k => (Cert.KernelIdeal.Gen.iblk2 (F := Ideal) V c 0 t : Vec Ideal Cert.KernelIdeal.S5000x64 .f32) (ix2 (j 0) k)) _ _ _ _
      (fun k => V c Cert.KernelIdeal.main_v30 (ix2 k (j 1))) (V c Cert.KernelIdeal.main_v33 (ix2 (0 : Fin 1) (j 1))) = _
  rw [funext hz]
  show _ = mlp2Val _ _ _ _ _ (fun k => V c Cert.KernelIdeal.main_v30 (ix2 k (((Cert.KernelIdeal.cfg2.win 7).blk t).view.emb j 1)))
      (V c Cert.KernelIdeal.main_v33 (ix2 (0 : Fin 1) (((Cert.KernelIdeal.cfg2.win 7).blk t).view.emb j 1)))
  rw [hq]

/-- An index of the output array is in point t's block iff each coordinate is in the block's range on its axis. -/
theorem mlp2_mem_blk_0 (t : Fin Cert.KernelIdeal.cfg2.N) (i : Cert.KernelIdeal.S100000x64.Idx) :
    i ∈ ((Cert.KernelIdeal.cfg2.win 7).blk t).view.set ↔ ∀ a : Fin 2, Cert.KernelIdeal.win2_7.index t a * Cert.KernelIdeal.S5000x64.size a ≤ (i a).val
      ∧ (i a).val < Cert.KernelIdeal.win2_7.index t a * Cert.KernelIdeal.S5000x64.size a + Cert.KernelIdeal.S5000x64.size a := by
  show i ∈ ((View.whole Cert.KernelIdeal.main_v46).slice (Cert.KernelIdeal.win2_7.rect t)).set ↔ _
  rw [View.set_slice_whole, Rect.mem_set_unit]
  exact Iff.rfl

/-- THE OUTPUT ARRAY after the pallas_call: the layer on the arrays the call finds in its seven input buffers. -/
theorem mlp2_value2_0 (c : Dev Cert.KernelIdeal.nD) :
    (Cert.KernelIdeal.Gen.dat2 (F := Ideal) V c).arrAt 7 Cert.KernelIdeal.cfg2.N
      = mlp2Arr 100000 (V c Cert.KernelIdeal.main_v40) (V c Cert.KernelIdeal.main_v44) (V c Cert.KernelIdeal.main_v45) (V c Cert.KernelIdeal.main_v25) (V c Cert.KernelIdeal.main_v28)
          (V c Cert.KernelIdeal.main_v30) (V c Cert.KernelIdeal.main_v33) :=
  (Cert.KernelIdeal.Gen.dat2 (F := Ideal) V c).arrAt_eq_of_cover 7 _ (fun t _ => mlp2_flushed_eq_0 V c t) fun i => by
    have hi0 : (i 0).val < 100000 := (i 0).isLt
    have hi1 : (i 1).val < 64 := (i 1).isLt
    obtain ⟨t, ht0, ht1⟩ := mlp2_idx_onto_0 ⟨(i 0).val / 5000, by omega⟩
    refine ⟨t, Cert.KernelIdeal.Gen.flush2_7 t, ?_⟩
    rw [mlp2_mem_blk_0]
    intro a
    match a with
    | ⟨0, _⟩ =>
      show Cert.KernelIdeal.win2_7.index t (0 : Fin 2) * 5000 ≤ (i 0).val ∧ (i 0).val < Cert.KernelIdeal.win2_7.index t (0 : Fin 2) * 5000 + 5000
      rw [ht0]; show (i 0).val / 5000 * 5000 ≤ (i 0).val ∧ (i 0).val < (i 0).val / 5000 * 5000 + 5000; omega
    | ⟨1, _⟩ =>
      show Cert.KernelIdeal.win2_7.index t (1 : Fin 2) * 64 ≤ (i 1).val ∧ (i 1).val < Cert.KernelIdeal.win2_7.index t (1 : Fin 2) * 64 + 64
      omega

end Region

/-! ## The two programs' parameters: slices of the same arguments -/

section Reads

/-- The kernel program's scale row `g`: two reshapes of row 0 of its argument 9. -/
theorem mlp2_K_g_read_0 (W : Valuation Cert.KernelIdeal.τ Cert.KernelIdeal.sig (Elt Ideal)) (a : Vec Ideal Cert.KernelIdeal.S4x64 .f32) (g : Vec Ideal Cert.KernelIdeal.S1x64 .f32)
    (ha : W (Proc.devRef .tc Cert.KernelIdeal.main_arg9) = a) (hg : StableHlo.after (Cert.KernelIdeal.Gen.hostOps1 (F := Ideal)) W (Proc.devRef .tc Cert.KernelIdeal.main_v25) = g) (k : Fin 64) :
    g (ix2 (0 : Fin 1) k) = extractStridedSlice Cert.KernelIdeal.S1x64 _ a Cert.KernelIdeal.Gen.slices_S4x64_S1x64_0_0 (ix2 (0 : Fin 1) k) := by
  subst hg ha
  after_results
  show shapeCast Cert.KernelIdeal.S1x64 (shapeCast Cert.KernelIdeal.S64 (extractStridedSlice Cert.KernelIdeal.S1x64 _ (W (Proc.devRef .tc Cert.KernelIdeal.main_arg9) : Vec Ideal Cert.KernelIdeal.S4x64 .f32) Cert.KernelIdeal.Gen.slices_S4x64_S1x64_0_0) Cert.KernelIdeal.Gen.shapeCasts_S1x64_S64) Cert.KernelIdeal.Gen.shapeCasts_S64_S1x64 (ix2 (0 : Fin 1) k) = _
  rw [shapeCast_a_1a_apply, shapeCast_1a_a_apply]

/-- The kernel program's shift row: two reshapes of row 0 of its argument 10. -/
theorem mlp2_K_be_read_0 (W : Valuation Cert.KernelIdeal.τ Cert.KernelIdeal.sig (Elt Ideal)) (a : Vec Ideal Cert.KernelIdeal.S4x64 .f32) (g : Vec Ideal Cert.KernelIdeal.S1x64 .f32)
    (ha : W (Proc.devRef .tc Cert.KernelIdeal.main_arg10) = a) (hg : StableHlo.after (Cert.KernelIdeal.Gen.hostOps1 (F := Ideal)) W (Proc.devRef .tc Cert.KernelIdeal.main_v28) = g) (k : Fin 64) :
    g (ix2 (0 : Fin 1) k) = extractStridedSlice Cert.KernelIdeal.S1x64 _ a Cert.KernelIdeal.Gen.slices_S4x64_S1x64_0_0 (ix2 (0 : Fin 1) k) := by
  subst hg ha
  after_results
  show shapeCast Cert.KernelIdeal.S1x64 (shapeCast Cert.KernelIdeal.S64 (extractStridedSlice Cert.KernelIdeal.S1x64 _ (W (Proc.devRef .tc Cert.KernelIdeal.main_arg10) : Vec Ideal Cert.KernelIdeal.S4x64 .f32) Cert.KernelIdeal.Gen.slices_S4x64_S1x64_0_0) Cert.KernelIdeal.Gen.shapeCasts_S1x64_S64) Cert.KernelIdeal.Gen.shapeCasts_S64_S1x64 (ix2 (0 : Fin 1) k) = _
  rw [shapeCast_a_1a_apply, shapeCast_1a_a_apply]

/-- The kernel program's weight matrix: the reshape of slab 0 of its argument 11. -/
theorem mlp2_K_W_read_0 (W : Valuation Cert.KernelIdeal.τ Cert.KernelIdeal.sig (Elt Ideal)) (a : Vec Ideal Cert.KernelIdeal.S4x64x64 .f32) (g : Vec Ideal Cert.KernelIdeal.S64x64 .f32)
    (ha : W (Proc.devRef .tc Cert.KernelIdeal.main_arg11) = a) (hg : StableHlo.after (Cert.KernelIdeal.Gen.hostOps1 (F := Ideal)) W (Proc.devRef .tc Cert.KernelIdeal.main_v30) = g) (k q : Fin 64) :
    g (ix2 k q) = extractStridedSlice Cert.KernelIdeal.S1x64x64 _ a Cert.KernelIdeal.Gen.slices_S4x64x64_S1x64x64_0_0_0 (ix3 (0 : Fin 1) k q) := by
  subst hg ha
  after_results
  show shapeCast Cert.KernelIdeal.S64x64 (extractStridedSlice Cert.KernelIdeal.S1x64x64 _ (W (Proc.devRef .tc Cert.KernelIdeal.main_arg11) : Vec Ideal Cert.KernelIdeal.S4x64x64 .f32) Cert.KernelIdeal.Gen.slices_S4x64x64_S1x64x64_0_0_0) Cert.KernelIdeal.Gen.shapeCasts_S1x64x64_S64x64 (ix2 k q) = _
  rw [shapeCast_1ab_ab_apply]

/-- The kernel program's bias row: two reshapes of row 0 of its argument 12. -/
theorem mlp2_K_b_read_0 (W : Valuation Cert.KernelIdeal.τ Cert.KernelIdeal.sig (Elt Ideal)) (a : Vec Ideal Cert.KernelIdeal.S4x64 .f32) (g : Vec Ideal Cert.KernelIdeal.S1x64 .f32)
    (ha : W (Proc.devRef .tc Cert.KernelIdeal.main_arg12) = a) (hg : StableHlo.after (Cert.KernelIdeal.Gen.hostOps1 (F := Ideal)) W (Proc.devRef .tc Cert.KernelIdeal.main_v33) = g) (q : Fin 64) :
    g (ix2 (0 : Fin 1) q) = extractStridedSlice Cert.KernelIdeal.S1x64 _ a Cert.KernelIdeal.Gen.slices_S4x64_S1x64_0_0 (ix2 (0 : Fin 1) q) := by
  subst hg ha
  after_results
  show shapeCast Cert.KernelIdeal.S1x64 (shapeCast Cert.KernelIdeal.S64 (extractStridedSlice Cert.KernelIdeal.S1x64 _ (W (Proc.devRef .tc Cert.KernelIdeal.main_arg12) : Vec Ideal Cert.KernelIdeal.S4x64 .f32) Cert.KernelIdeal.Gen.slices_S4x64_S1x64_0_0) Cert.KernelIdeal.Gen.shapeCasts_S1x64_S64) Cert.KernelIdeal.Gen.shapeCasts_S64_S1x64 (ix2 (0 : Fin 1) q) = _
  rw [shapeCast_a_1a_apply, shapeCast_1a_a_apply]

end Reads

section RefReads

/-- The reference's scale vector: the reshape of row 0 of its argument 9. -/
theorem mlp2_R_g_read_0 (W : Valuation Cert.ReferenceIdeal.τ Cert.ReferenceIdeal.sig (Elt Ideal)) (a : Vec Ideal Cert.ReferenceIdeal.S4x64 .f32) (g : Vec Ideal Cert.ReferenceIdeal.S64 .f32)
    (ha : W (Proc.devRef .tc Cert.ReferenceIdeal.main_arg9) = a) (hg : StableHlo.after (Cert.ReferenceIdeal.Ops.hostOps0_2 (F := Ideal)) W (Proc.devRef .tc Cert.ReferenceIdeal.main_v47) = g) (k : Fin 64) :
    g (ix1 k) = extractStridedSlice Cert.ReferenceIdeal.S1x64 _ a Cert.ReferenceIdeal.Gen.slices_S4x64_S1x64_0_0 (ix2 (0 : Fin 1) k) := by
  subst hg ha
  after_results
  show shapeCast Cert.ReferenceIdeal.S64 (extractStridedSlice Cert.ReferenceIdeal.S1x64 _ (W (Proc.devRef .tc Cert.ReferenceIdeal.main_arg9) : Vec Ideal Cert.ReferenceIdeal.S4x64 .f32) Cert.ReferenceIdeal.Gen.slices_S4x64_S1x64_0_0) Cert.ReferenceIdeal.Gen.shapeCasts_S1x64_S64 (ix1 k) = _
  rw [shapeCast_1a_a_apply]

/-- The reference's shift vector: the reshape of row 0 of its argument 10. -/
theorem mlp2_R_be_read_0 (W : Valuation Cert.ReferenceIdeal.τ Cert.ReferenceIdeal.sig (Elt Ideal)) (a : Vec Ideal Cert.ReferenceIdeal.S4x64 .f32) (g : Vec Ideal Cert.ReferenceIdeal.S64 .f32)
    (ha : W (Proc.devRef .tc Cert.ReferenceIdeal.main_arg10) = a) (hg : StableHlo.after (Cert.ReferenceIdeal.Ops.hostOps0_2 (F := Ideal)) W (Proc.devRef .tc Cert.ReferenceIdeal.main_v49) = g) (k : Fin 64) :
    g (ix1 k) = extractStridedSlice Cert.ReferenceIdeal.S1x64 _ a Cert.ReferenceIdeal.Gen.slices_S4x64_S1x64_0_0 (ix2 (0 : Fin 1) k) := by
  subst hg ha
  after_results
  show shapeCast Cert.ReferenceIdeal.S64 (extractStridedSlice Cert.ReferenceIdeal.S1x64 _ (W (Proc.devRef .tc Cert.ReferenceIdeal.main_arg10) : Vec Ideal Cert.ReferenceIdeal.S4x64 .f32) Cert.ReferenceIdeal.Gen.slices_S4x64_S1x64_0_0) Cert.ReferenceIdeal.Gen.shapeCasts_S1x64_S64 (ix1 k) = _
  rw [shapeCast_1a_a_apply]

/-- The reference's weight matrix: the reshape of slab 0 of its argument 11. -/
theorem mlp2_R_W_read_0 (W : Valuation Cert.ReferenceIdeal.τ Cert.ReferenceIdeal.sig (Elt Ideal)) (a : Vec Ideal Cert.ReferenceIdeal.S4x64x64 .f32) (g : Vec Ideal Cert.ReferenceIdeal.S64x64 .f32)
    (ha : W (Proc.devRef .tc Cert.ReferenceIdeal.main_arg11) = a) (hg : StableHlo.after (Cert.ReferenceIdeal.Ops.hostOps0_6 (F := Ideal)) W (Proc.devRef .tc Cert.ReferenceIdeal.main_v71) = g) (k q : Fin 64) :
    g (ix2 k q) = extractStridedSlice Cert.ReferenceIdeal.S1x64x64 _ a Cert.ReferenceIdeal.Gen.slices_S4x64x64_S1x64x64_0_0_0 (ix3 (0 : Fin 1) k q) := by
  subst hg ha
  after_results
  show shapeCast Cert.ReferenceIdeal.S64x64 (extractStridedSlice Cert.ReferenceIdeal.S1x64x64 _ (W (Proc.devRef .tc Cert.ReferenceIdeal.main_arg11) : Vec Ideal Cert.ReferenceIdeal.S4x64x64 .f32) Cert.ReferenceIdeal.Gen.slices_S4x64x64_S1x64x64_0_0_0) Cert.ReferenceIdeal.Gen.shapeCasts_S1x64x64_S64x64 (ix2 k q) = _
  rw [shapeCast_1ab_ab_apply]

/-- The reference's bias vector: the reshape of row 0 of its argument 12. -/
theorem mlp2_R_b_read_0 (W : Valuation Cert.ReferenceIdeal.τ Cert.ReferenceIdeal.sig (Elt Ideal)) (a : Vec Ideal Cert.ReferenceIdeal.S4x64 .f32) (g : Vec Ideal Cert.ReferenceIdeal.S64 .f32)
    (ha : W (Proc.devRef .tc Cert.ReferenceIdeal.main_arg12) = a) (hg : StableHlo.after (Cert.ReferenceIdeal.Ops.hostOps0_6 (F := Ideal)) W (Proc.devRef .tc Cert.ReferenceIdeal.main_v74) = g) (q : Fin 64) :
    g (ix1 q) = extractStridedSlice Cert.ReferenceIdeal.S1x64 _ a Cert.ReferenceIdeal.Gen.slices_S4x64_S1x64_0_0 (ix2 (0 : Fin 1) q) := by
  subst hg ha
  after_results
  show shapeCast Cert.ReferenceIdeal.S64 (extractStridedSlice Cert.ReferenceIdeal.S1x64 _ (W (Proc.devRef .tc Cert.ReferenceIdeal.main_arg12) : Vec Ideal Cert.ReferenceIdeal.S4x64 .f32) Cert.ReferenceIdeal.Gen.slices_S4x64_S1x64_0_0) Cert.ReferenceIdeal.Gen.shapeCasts_S1x64_S64 (ix1 q) = _
  rw [shapeCast_1a_a_apply]

/-- The reference's normalised, scaled and shifted input at (p, k), from the input `y`, the statistics `mu`, `var` and
    the parameters `g`, `be` the stretch finds. -/
theorem mlp2_R_bn_read_0 (W : Valuation Cert.ReferenceIdeal.τ Cert.ReferenceIdeal.sig (Elt Ideal)) (y : Vec Ideal Cert.ReferenceIdeal.S100000x64 .f32) (mu var g be : Vec Ideal Cert.ReferenceIdeal.S64 .f32)
    (x : Vec Ideal Cert.ReferenceIdeal.S100000x64 .f32)
    (hy : W (Proc.devRef .tc Cert.ReferenceIdeal.main_v45) = y) (hmu : W (Proc.devRef .tc Cert.ReferenceIdeal.main_v52) = mu) (hvar : W (Proc.devRef .tc Cert.ReferenceIdeal.main_v53) = var)
    (hg : W (Proc.devRef .tc Cert.ReferenceIdeal.main_v47) = g) (hbe : W (Proc.devRef .tc Cert.ReferenceIdeal.main_v49) = be)
    (hx : StableHlo.after (Cert.ReferenceIdeal.Ops.hostOps0_4 (F := Ideal)) W (Proc.devRef .tc Cert.ReferenceIdeal.main_v68) = x) (p : Fin 100000) (k : Fin 64) :
    x (ix2 p k) = ((y (ix2 p k) - mu (ix1 k)) * Ideal.rsqrt (var (ix1 k) + Ideal.ofBits .f32 0x3727C5AC#32)) * g (ix1 k) + be (ix1 k) := by
  subst hx
  after_results_simp
  rw [hy, hmu, hvar, hg, hbe]
  simp only [Host.rsqrt, addf_apply, mulf_apply, subf_apply, mlp2_bid_rows, mlp2_bid_row, mlp2_bid_scalar, constant_apply,
    Ideal.hostUnary_rsqrt_def]
  rfl

/-- Its positive part at (p, k). -/
theorem mlp2_R_relu_read_0 (W : Valuation Cert.ReferenceIdeal.τ Cert.ReferenceIdeal.sig (Elt Ideal)) (x r : Vec Ideal Cert.ReferenceIdeal.S100000x64 .f32)
    (hx : W (Proc.devRef .tc Cert.ReferenceIdeal.main_v68) = x) (hr : StableHlo.after (Cert.ReferenceIdeal.Ops.hostOps0_5 (F := Ideal)) W (Proc.devRef .tc Cert.ReferenceIdeal.main_v69) = r)
    (p : Fin 100000) (k : Fin 64) :
    r (ix2 p k) = max (x (ix2 p k)) (Ideal.ofBits .f32 0x00000000#32) := by
  subst hr
  after_results
  show maximumf (W (Proc.devRef .tc Cert.ReferenceIdeal.main_v68) : Vec Ideal Cert.ReferenceIdeal.S100000x64 .f32)
      (broadcastInDim Cert.ReferenceIdeal.S100000x64 _ Cert.ReferenceIdeal.Gen.bcast_S_S100000x64 (constant (F := Ideal) Cert.ReferenceIdeal.S_ .f32 0x00000000#32)) (ix2 p k) = _
  rw [hx, maximumf_apply, mlp2_bid_scalar, constant_apply]

/-- The reference's linear layer at (p, q): the sum over k of row p of the positive part `r` times column q of the weight
    matrix `Wm`, plus entry q of the bias `b`. -/
theorem mlp2_R_lin_read_0 (W : Valuation Cert.ReferenceIdeal.τ Cert.ReferenceIdeal.sig (Elt Ideal)) (r z : Vec Ideal Cert.ReferenceIdeal.S100000x64 .f32) (Wm : Vec Ideal Cert.ReferenceIdeal.S64x64 .f32) (b : Vec Ideal Cert.ReferenceIdeal.S64 .f32)
    (hr : W (Proc.devRef .tc Cert.ReferenceIdeal.main_v69) = r)
    (hWm : StableHlo.after (Cert.ReferenceIdeal.Ops.hostOps0_6 (F := Ideal)) W (Proc.devRef .tc Cert.ReferenceIdeal.main_v71) = Wm)
    (hb : StableHlo.after (Cert.ReferenceIdeal.Ops.hostOps0_6 (F := Ideal)) W (Proc.devRef .tc Cert.ReferenceIdeal.main_v74) = b)
    (hz : StableHlo.after (Cert.ReferenceIdeal.Ops.hostOps0_6 (F := Ideal)) W (Proc.devRef .tc Cert.ReferenceIdeal.main_v77) = z) (p : Fin 100000) (q : Fin 64) :
    z (ix2 p q) = (∑ k : Fin 64, r (ix2 p k) * Wm (ix2 k q)) + b (ix1 q) := by
  subst hz
  revert hWm hb
  after_results
  intro hWm hb
  rw [hr, hWm, hb, addf_apply, mlp2_dot_apply, mlp2_bid_rows, mlp2_bid_row]

end RefReads

/-! ## The bridge -/

section Bridge

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- THE KERNEL PROGRAM'S SIDE: the output buffer ends holding the layer on what the seven input buffers end holding (each
    is written once, before the pallas_call, and never again). -/
theorem mlp2_K_z2_0 (c : Dev Cert.KernelIdeal.nD) :
    KV m ρ c Cert.KernelIdeal.main_v46
      = mlp2Arr 100000 (KV m ρ c Cert.KernelIdeal.main_v40) (KV m ρ c Cert.KernelIdeal.main_v44) (KV m ρ c Cert.KernelIdeal.main_v45) (KV m ρ c Cert.KernelIdeal.main_v25)
          (KV m ρ c Cert.KernelIdeal.main_v28) (KV m ρ c Cert.KernelIdeal.main_v30) (KV m ρ c Cert.KernelIdeal.main_v33) := by
  have h40 := (Cert.KernelIdeal.Keep.toEnd_10 m ρ c Cert.KernelIdeal.main_v40 (by decide +kernel))
  have h44 := (Cert.KernelIdeal.Keep.toEnd_10 m ρ c Cert.KernelIdeal.main_v44 (by decide +kernel))
  have h45 := (Cert.KernelIdeal.Keep.toEnd_10 m ρ c Cert.KernelIdeal.main_v45 (by decide +kernel))
  have h25 := (Cert.KernelIdeal.Keep.toEnd_10 m ρ c Cert.KernelIdeal.main_v25 (by decide +kernel))
  have h28 := (Cert.KernelIdeal.Keep.toEnd_10 m ρ c Cert.KernelIdeal.main_v28 (by decide +kernel))
  have h30 := (Cert.KernelIdeal.Keep.toEnd_10 m ρ c Cert.KernelIdeal.main_v30 (by decide +kernel))
  have h33 := (Cert.KernelIdeal.Keep.toEnd_10 m ρ c Cert.KernelIdeal.main_v33 (by decide +kernel))
  have e := (Cert.KernelIdeal.Gen.W11_arr (F := Ideal) m ρ c 7).trans (mlp2_value2_0 (Cert.KernelIdeal.Gen.V10 (F := Ideal) m ρ) c)
  calc KV m ρ c Cert.KernelIdeal.main_v46
      = Cert.KernelIdeal.Gen.W11 m ρ c (Proc.devRef .tc Cert.KernelIdeal.main_v46) := (Cert.KernelIdeal.Keep.toEnd_11 m ρ c Cert.KernelIdeal.main_v46 (by decide +kernel)).symm
    _ = mlp2Arr 100000 (Cert.KernelIdeal.Gen.W10 m ρ c (Proc.devRef .tc Cert.KernelIdeal.main_v40)) (Cert.KernelIdeal.Gen.W10 m ρ c (Proc.devRef .tc Cert.KernelIdeal.main_v44))
          (Cert.KernelIdeal.Gen.W10 m ρ c (Proc.devRef .tc Cert.KernelIdeal.main_v45)) (Cert.KernelIdeal.Gen.W10 m ρ c (Proc.devRef .tc Cert.KernelIdeal.main_v25)) (Cert.KernelIdeal.Gen.W10 m ρ c (Proc.devRef .tc Cert.KernelIdeal.main_v28))
          (Cert.KernelIdeal.Gen.W10 m ρ c (Proc.devRef .tc Cert.KernelIdeal.main_v30)) (Cert.KernelIdeal.Gen.W10 m ρ c (Proc.devRef .tc Cert.KernelIdeal.main_v33)) := e
    _ = _ := by rw [h40, h44, h45, h25, h28, h30, h33]

/-- The scale: column k of the kernel program's row is entry k of the reference's vector. -/
theorem mlp2_param_g_0 (hag : Agree m m') (c : Dev Cert.KernelIdeal.nD) (k : Fin 64) :
    (KV m ρ c Cert.KernelIdeal.main_v25 : Vec Ideal Cert.KernelIdeal.S1x64 .f32) (ix2 (0 : Fin 1) k) = (RV m' c Cert.ReferenceIdeal.main_v47 : Vec Ideal Cert.ReferenceIdeal.S64 .f32) (ix1 k) := by
  have hK := mlp2_K_g_read_0 (Cert.KernelIdeal.Gen.W6 m ρ c) (KV m ρ c Cert.KernelIdeal.main_arg9) (KV m ρ c Cert.KernelIdeal.main_v25)
    (Cert.KernelIdeal.Keep.toEnd_6 m ρ c Cert.KernelIdeal.main_arg9 (by decide +kernel)) (Cert.KernelIdeal.Keep.toEnd_7 m ρ c Cert.KernelIdeal.main_v25 (by decide +kernel)) k
  have hR := mlp2_R_g_read_0 (R2 m' c) (RV m' c Cert.ReferenceIdeal.main_arg9) (RV m' c Cert.ReferenceIdeal.main_v47)
    (Cert.ReferenceIdeal.Keep.toEnd_2 m' c Cert.ReferenceIdeal.main_arg9 (by decide +kernel)) (Cert.ReferenceIdeal.Keep.toEnd_3 m' c Cert.ReferenceIdeal.main_v47 (by decide +kernel)) k
  rw [(mlp2_args m ρ m' hag c).1] at hR
  exact hK.trans hR.symm

/-- The shift likewise. -/
theorem mlp2_param_be_0 (hag : Agree m m') (c : Dev Cert.KernelIdeal.nD) (k : Fin 64) :
    (KV m ρ c Cert.KernelIdeal.main_v28 : Vec Ideal Cert.KernelIdeal.S1x64 .f32) (ix2 (0 : Fin 1) k) = (RV m' c Cert.ReferenceIdeal.main_v49 : Vec Ideal Cert.ReferenceIdeal.S64 .f32) (ix1 k) := by
  have hK := mlp2_K_be_read_0 (Cert.KernelIdeal.Gen.W6 m ρ c) (KV m ρ c Cert.KernelIdeal.main_arg10) (KV m ρ c Cert.KernelIdeal.main_v28)
    (Cert.KernelIdeal.Keep.toEnd_6 m ρ c Cert.KernelIdeal.main_arg10 (by decide +kernel)) (Cert.KernelIdeal.Keep.toEnd_7 m ρ c Cert.KernelIdeal.main_v28 (by decide +kernel)) k
  have hR := mlp2_R_be_read_0 (R2 m' c) (RV m' c Cert.ReferenceIdeal.main_arg10) (RV m' c Cert.ReferenceIdeal.main_v49)
    (Cert.ReferenceIdeal.Keep.toEnd_2 m' c Cert.ReferenceIdeal.main_arg10 (by decide +kernel)) (Cert.ReferenceIdeal.Keep.toEnd_3 m' c Cert.ReferenceIdeal.main_v49 (by decide +kernel)) k
  rw [(mlp2_args m ρ m' hag c).2.1] at hR
  exact hK.trans hR.symm

/-- The weight matrices agree entry by entry. -/
theorem mlp2_param_W_0 (hag : Agree m m') (c : Dev Cert.KernelIdeal.nD) (k q : Fin 64) :
    (KV m ρ c Cert.KernelIdeal.main_v30 : Vec Ideal Cert.KernelIdeal.S64x64 .f32) (ix2 k q) = (RV m' c Cert.ReferenceIdeal.main_v71 : Vec Ideal Cert.ReferenceIdeal.S64x64 .f32) (ix2 k q) := by
  have hK := mlp2_K_W_read_0 (Cert.KernelIdeal.Gen.W6 m ρ c) (KV m ρ c Cert.KernelIdeal.main_arg11) (KV m ρ c Cert.KernelIdeal.main_v30)
    (Cert.KernelIdeal.Keep.toEnd_6 m ρ c Cert.KernelIdeal.main_arg11 (by decide +kernel)) (Cert.KernelIdeal.Keep.toEnd_7 m ρ c Cert.KernelIdeal.main_v30 (by decide +kernel)) k q
  have hR := mlp2_R_W_read_0 (R6 m' c) (RV m' c Cert.ReferenceIdeal.main_arg11) (RV m' c Cert.ReferenceIdeal.main_v71)
    (Cert.ReferenceIdeal.Keep.toEnd_6 m' c Cert.ReferenceIdeal.main_arg11 (by decide +kernel)) (Cert.ReferenceIdeal.Keep.toEnd_7 m' c Cert.ReferenceIdeal.main_v71 (by decide +kernel)) k q
  rw [(mlp2_args m ρ m' hag c).2.2.1] at hR
  exact hK.trans hR.symm

/-- The bias: column q of the kernel program's row is entry q of the reference's vector. -/
theorem mlp2_param_b_0 (hag : Agree m m') (c : Dev Cert.KernelIdeal.nD) (q : Fin 64) :
    (KV m ρ c Cert.KernelIdeal.main_v33 : Vec Ideal Cert.KernelIdeal.S1x64 .f32) (ix2 (0 : Fin 1) q) = (RV m' c Cert.ReferenceIdeal.main_v74 : Vec Ideal Cert.ReferenceIdeal.S64 .f32) (ix1 q) := by
  have hK := mlp2_K_b_read_0 (Cert.KernelIdeal.Gen.W6 m ρ c) (KV m ρ c Cert.KernelIdeal.main_arg12) (KV m ρ c Cert.KernelIdeal.main_v33)
    (Cert.KernelIdeal.Keep.toEnd_6 m ρ c Cert.KernelIdeal.main_arg12 (by decide +kernel)) (Cert.KernelIdeal.Keep.toEnd_7 m ρ c Cert.KernelIdeal.main_v33 (by decide +kernel)) q
  have hR := mlp2_R_b_read_0 (R6 m' c) (RV m' c Cert.ReferenceIdeal.main_arg12) (RV m' c Cert.ReferenceIdeal.main_v74)
    (Cert.ReferenceIdeal.Keep.toEnd_6 m' c Cert.ReferenceIdeal.main_arg12 (by decide +kernel)) (Cert.ReferenceIdeal.Keep.toEnd_7 m' c Cert.ReferenceIdeal.main_v74 (by decide +kernel)) q
  rw [(mlp2_args m ρ m' hag c).2.2.2] at hR
  exact hK.trans hR.symm

/-- THE REFERENCE'S SIDE: entry (p, q) of its second linear layer's result, from what its buffers end holding. -/
theorem mlp2_R_z2_0 (c : Dev Cert.ReferenceIdeal.nD) (p : Fin 100000) (q : Fin 64) :
    (RV m' c Cert.ReferenceIdeal.main_v77 : Vec Ideal Cert.ReferenceIdeal.S100000x64 .f32) (ix2 p q)
      = mlp2Val (fun k => (RV m' c Cert.ReferenceIdeal.main_v45 : Vec Ideal Cert.ReferenceIdeal.S100000x64 .f32) (ix2 p k)) (fun k => (RV m' c Cert.ReferenceIdeal.main_v52 : Vec Ideal Cert.ReferenceIdeal.S64 .f32) (ix1 k))
          (fun k => (RV m' c Cert.ReferenceIdeal.main_v53 : Vec Ideal Cert.ReferenceIdeal.S64 .f32) (ix1 k)) (fun k => (RV m' c Cert.ReferenceIdeal.main_v47 : Vec Ideal Cert.ReferenceIdeal.S64 .f32) (ix1 k))
          (fun k => (RV m' c Cert.ReferenceIdeal.main_v49 : Vec Ideal Cert.ReferenceIdeal.S64 .f32) (ix1 k)) (fun k => (RV m' c Cert.ReferenceIdeal.main_v71 : Vec Ideal Cert.ReferenceIdeal.S64x64 .f32) (ix2 k q))
          ((RV m' c Cert.ReferenceIdeal.main_v74 : Vec Ideal Cert.ReferenceIdeal.S64 .f32) (ix1 q)) := by
  have e7 := mlp2_R_lin_read_0 (R6 m' c) (R6 m' c (Proc.devRef .tc Cert.ReferenceIdeal.main_v69)) (RV m' c Cert.ReferenceIdeal.main_v77) (RV m' c Cert.ReferenceIdeal.main_v71) (RV m' c Cert.ReferenceIdeal.main_v74)
    rfl (Cert.ReferenceIdeal.Keep.toEnd_7 m' c Cert.ReferenceIdeal.main_v71 (by decide +kernel)) (Cert.ReferenceIdeal.Keep.toEnd_7 m' c Cert.ReferenceIdeal.main_v74 (by decide +kernel)) (Cert.ReferenceIdeal.Keep.toEnd_7 m' c Cert.ReferenceIdeal.main_v77 (by decide +kernel)) p q
  have e6 := fun k : Fin 64 => mlp2_R_relu_read_0 (R5 m' c) (R5 m' c (Proc.devRef .tc Cert.ReferenceIdeal.main_v68)) (R6 m' c (Proc.devRef .tc Cert.ReferenceIdeal.main_v69)) rfl rfl p k
  have e5 := fun k : Fin 64 => mlp2_R_bn_read_0 (R4 m' c) (RV m' c Cert.ReferenceIdeal.main_v45) (RV m' c Cert.ReferenceIdeal.main_v52) (RV m' c Cert.ReferenceIdeal.main_v53)
    (RV m' c Cert.ReferenceIdeal.main_v47) (RV m' c Cert.ReferenceIdeal.main_v49) (R5 m' c (Proc.devRef .tc Cert.ReferenceIdeal.main_v68))
    (Cert.ReferenceIdeal.Keep.toEnd_4 m' c Cert.ReferenceIdeal.main_v45 (by decide +kernel)) (Cert.ReferenceIdeal.Keep.toEnd_4 m' c Cert.ReferenceIdeal.main_v52 (by decide +kernel)) (Cert.ReferenceIdeal.Keep.toEnd_4 m' c Cert.ReferenceIdeal.main_v53 (by decide +kernel)) (Cert.ReferenceIdeal.Keep.toEnd_4 m' c Cert.ReferenceIdeal.main_v47 (by decide +kernel)) (Cert.ReferenceIdeal.Keep.toEnd_4 m' c Cert.ReferenceIdeal.main_v49 (by decide +kernel)) rfl p k
  refine e7.trans ?_
  unfold mlp2Val
  refine congrFun (congrArg HAdd.hAdd ?_) _
  exact Finset.sum_congr rfl fun k _ => by rw [e6 k, e5 k]

/-- SECOND LINEAR LAYER OF GRAPH LAYER 0. Where the two programs leave the same first linear layer's result and
    corresponding first statistics, they leave the same second linear layer's result. -/
theorem corr_z2_0 (hag : Agree m m') (c : Dev Cert.KernelIdeal.nD)
    (hz : KV m ρ c Cert.KernelIdeal.main_v40 = RV m' c Cert.ReferenceIdeal.main_v45)
    (hst : (∀ j : Fin 64, (KV m ρ c Cert.KernelIdeal.main_v44 : Vec Ideal Cert.KernelIdeal.S1x64 .f32) (ix2 (0 : Fin 1) j) = (RV m' c Cert.ReferenceIdeal.main_v52 : Vec Ideal Cert.ReferenceIdeal.S64 .f32) (ix1 j))
      ∧ (∀ j : Fin 64, (KV m ρ c Cert.KernelIdeal.main_v45 : Vec Ideal Cert.KernelIdeal.S1x64 .f32) (ix2 (0 : Fin 1) j) = (RV m' c Cert.ReferenceIdeal.main_v53 : Vec Ideal Cert.ReferenceIdeal.S64 .f32) (ix1 j))) :
    KV m ρ c Cert.KernelIdeal.main_v46 = RV m' c Cert.ReferenceIdeal.main_v77 := by
  rw [mlp2_K_z2_0 m ρ c]
  funext i
  rw [eq_ix2 (n0 := 100000) (n1 := 64) i]
  refine Eq.trans ?_ (mlp2_R_z2_0 m' c (i 0) (i 1)).symm
  refine mlp2Val_congr (fun k => ?_) hst.1 hst.2 (fun k => mlp2_param_g_0 m ρ m' hag c k)
    (fun k => mlp2_param_be_0 m ρ m' hag c k) (fun k => mlp2_param_W_0 m ρ m' hag c k (i 1)) (mlp2_param_b_0 m ρ m' hag c (i 1))
  show KV m ρ c Cert.KernelIdeal.main_v40 (ix2 (i 0) k) = RV m' c Cert.ReferenceIdeal.main_v45 (ix2 (i 0) k)
  rw [hz]

end Bridge

end Cert.Bridge

end
-- ==== Proof.Bridge.Mlp2_L1.lean ====
/- The second perceptron layer of graph layer 1: what the kernel program's seventh pallas_call leaves in its output array,
   as one function of the arrays it reads, and that this is what the reference's host operations leave in the
   corresponding buffer.

   The kernel computes the layer block of 5000 rows by block; the reference on whole arrays. Both do the same operations
   in the same order, so nothing beyond reading each side at an index is used: the body's stored block at an index, the
   blocks tiling the array, each program's parameters as the same rows of the same arguments, and the reference's three
   stretches of host operations read one after the other. -/
import proofs.«417278_j53197464928922_1_alg».proof.Proof.Bridge.Mlp2Shared

set_option maxRecDepth 16384

noncomputable section

namespace Cert.Bridge

open Idealize.ShloMosaic Idealize.ShloMosaic.TcCoe Idealize.SL.Sem
open Idealize.ShloMosaic.ValueIdx
open Idealize.ShloMosaic.Pipeline (Dat)
open scoped BigOperators

/-! ## The kernel's stored block at an index -/

/-- The body's stored value at (p, q) of its block, from the blocks it loads: the layer's entry from row p of the
    input block. -/
theorem mlp2_pay_apply_1 (x0 : Vec Ideal Cert.KernelIdeal.S5000x64 .f32) (x1 x2 x3 x4 : Vec Ideal Cert.KernelIdeal.S1x64 .f32)
    (x5 : Vec Ideal Cert.KernelIdeal.S64x64 .f32) (x6 : Vec Ideal Cert.KernelIdeal.S1x64 .f32) (p : Fin 5000) (q : Fin 64) :
    Cert.KernelIdeal.Gen.k6_pay1 (F := Ideal) x0 x1 x2 x3 x4 x5 x6 (ix2 p q)
      = mlp2Val (fun k => x0 (ix2 p k)) (fun k => x1 (ix2 (0 : Fin 1) k)) (fun k => x2 (ix2 (0 : Fin 1) k))
          (fun k => x3 (ix2 (0 : Fin 1) k)) (fun k => x4 (ix2 (0 : Fin 1) k)) (fun k => x5 (ix2 k q)) (x6 (ix2 (0 : Fin 1) q)) := by
  unfold Cert.KernelIdeal.Gen.k6_pay1 mlp2Val
  simp only [shapeCast_self]
  rw [addf_apply, mlp2_matmul_apply, broadcastTo_1b_ab_apply]
  refine congrArg (· + x6 (ix2 (0 : Fin 1) q)) (Finset.sum_congr rfl fun k _ => ?_)
  simp only [truncf_apply, maximumf_apply, addf_apply, mulf_apply, subf_apply, broadcastTo_1b_ab_apply, broadcast_apply]
  rfl

/-- As arrays: the body's stored block is the layer on the 5000 rows of the input block. -/
theorem mlp2_pay_eq_1 (x0 : Vec Ideal Cert.KernelIdeal.S5000x64 .f32) (x1 x2 x3 x4 : Vec Ideal Cert.KernelIdeal.S1x64 .f32)
    (x5 : Vec Ideal Cert.KernelIdeal.S64x64 .f32) (x6 : Vec Ideal Cert.KernelIdeal.S1x64 .f32) :
    Cert.KernelIdeal.Gen.k6_pay1 (F := Ideal) x0 x1 x2 x3 x4 x5 x6 = mlp2Arr 5000 x0 x1 x2 x3 x4 x5 x6 := by
  funext j
  rw [eq_ix2 j]
  exact mlp2_pay_apply_1 x0 x1 x2 x3 x4 x5 x6 (j 0) (j 1)

/-! ## What the pallas_call leaves in its output array -/

section Region

variable (V : (c : Dev Cert.KernelIdeal.nD) → (b : Ref Cert.KernelIdeal.sig .tc) → Buf (Elt Ideal) ((c : Thread Cert.KernelIdeal.nD Cert.KernelIdeal.τ).loc b))

/-- The printed index maps over the 20 grid points: the input and the output move together down the rows, block t at
    point t; every other window stays at its one block. -/
theorem mlp2_idx_facts_1 : ∀ t : Fin Cert.KernelIdeal.cfg6.N,
    Cert.KernelIdeal.win6_0.index t (0 : Fin 2) = Cert.KernelIdeal.win6_7.index t (0 : Fin 2) ∧ Cert.KernelIdeal.win6_0.index t (1 : Fin 2) = 0
    ∧ Cert.KernelIdeal.win6_7.index t (1 : Fin 2) = 0
    ∧ Cert.KernelIdeal.win6_1.index t (0 : Fin 2) = 0 ∧ Cert.KernelIdeal.win6_1.index t (1 : Fin 2) = 0
    ∧ Cert.KernelIdeal.win6_2.index t (0 : Fin 2) = 0 ∧ Cert.KernelIdeal.win6_2.index t (1 : Fin 2) = 0
    ∧ Cert.KernelIdeal.win6_3.index t (0 : Fin 2) = 0 ∧ Cert.KernelIdeal.win6_3.index t (1 : Fin 2) = 0
    ∧ Cert.KernelIdeal.win6_4.index t (0 : Fin 2) = 0 ∧ Cert.KernelIdeal.win6_4.index t (1 : Fin 2) = 0
    ∧ Cert.KernelIdeal.win6_5.index t (0 : Fin 2) = 0 ∧ Cert.KernelIdeal.win6_5.index t (1 : Fin 2) = 0
    ∧ Cert.KernelIdeal.win6_6.index t (0 : Fin 2) = 0 ∧ Cert.KernelIdeal.win6_6.index t (1 : Fin 2) = 0 :=
  (by decide +kernel : ∀ t : Fin Cert.KernelIdeal.grid6.N, _)

/-- Every block of 5000 rows is some point's. -/
theorem mlp2_idx_onto_1 : ∀ q0 : Fin 20, ∃ t : Fin Cert.KernelIdeal.cfg6.N,
    Cert.KernelIdeal.win6_7.index t (0 : Fin 2) = q0.val ∧ Cert.KernelIdeal.win6_7.index t (1 : Fin 2) = 0 :=
  (by decide +kernel : ∀ q0 : Fin 20, ∃ t : Fin Cert.KernelIdeal.grid6.N,
    Cert.KernelIdeal.win6_7.index t (0 : Fin 2) = q0.val ∧ Cert.KernelIdeal.win6_7.index t (1 : Fin 2) = 0)

/-- A window whose one block is its whole [1,64] array holds that array at every point. -/
theorem mlp2_iblk_row_1 (c : Dev Cert.KernelIdeal.nD) (t : Fin Cert.KernelIdeal.cfg6.N) :
    (Cert.KernelIdeal.Gen.iblk6 (F := Ideal) V c 1 t : Vec Ideal Cert.KernelIdeal.S1x64 .f32) = V c Cert.KernelIdeal.main_v92
    ∧ (Cert.KernelIdeal.Gen.iblk6 (F := Ideal) V c 2 t : Vec Ideal Cert.KernelIdeal.S1x64 .f32) = V c Cert.KernelIdeal.main_v93
    ∧ (Cert.KernelIdeal.Gen.iblk6 (F := Ideal) V c 3 t : Vec Ideal Cert.KernelIdeal.S1x64 .f32) = V c Cert.KernelIdeal.main_v73
    ∧ (Cert.KernelIdeal.Gen.iblk6 (F := Ideal) V c 4 t : Vec Ideal Cert.KernelIdeal.S1x64 .f32) = V c Cert.KernelIdeal.main_v76
    ∧ (Cert.KernelIdeal.Gen.iblk6 (F := Ideal) V c 5 t : Vec Ideal Cert.KernelIdeal.S64x64 .f32) = V c Cert.KernelIdeal.main_v78
    ∧ (Cert.KernelIdeal.Gen.iblk6 (F := Ideal) V c 6 t : Vec Ideal Cert.KernelIdeal.S1x64 .f32) = V c Cert.KernelIdeal.main_v81 := by
  obtain ⟨-, -, -, e10, e11, e20, e21, e30, e31, e40, e41, e50, e51, e60, e61⟩ := mlp2_idx_facts_1 t
  refine ⟨funext fun y => ?_, funext fun y => ?_, funext fun y => ?_, funext fun y => ?_, funext fun y => ?_, funext fun y => ?_⟩
  · show V c Cert.KernelIdeal.main_v92 (((Cert.KernelIdeal.cfg6.win 1).blk t).view.emb y) = V c Cert.KernelIdeal.main_v92 y
    refine congrArg (V c Cert.KernelIdeal.main_v92) (funext fun a => Fin.ext ?_)
    match a with
    | ⟨0, _⟩ => show Cert.KernelIdeal.win6_1.index t (0 : Fin 2) * 1 + 1 * (y 0).val = (y 0).val; omega
    | ⟨1, _⟩ => show Cert.KernelIdeal.win6_1.index t (1 : Fin 2) * 64 + 1 * (y 1).val = (y 1).val; omega
  · show V c Cert.KernelIdeal.main_v93 (((Cert.KernelIdeal.cfg6.win 2).blk t).view.emb y) = V c Cert.KernelIdeal.main_v93 y
    refine congrArg (V c Cert.KernelIdeal.main_v93) (funext fun a => Fin.ext ?_)
    match a with
    | ⟨0, _⟩ => show Cert.KernelIdeal.win6_2.index t (0 : Fin 2) * 1 + 1 * (y 0).val = (y 0).val; omega
    | ⟨1, _⟩ => show Cert.KernelIdeal.win6_2.index t (1 : Fin 2) * 64 + 1 * (y 1).val = (y 1).val; omega
  · show V c Cert.KernelIdeal.main_v73 (((Cert.KernelIdeal.cfg6.win 3).blk t).view.emb y) = V c Cert.KernelIdeal.main_v73 y
    refine congrArg (V c Cert.KernelIdeal.main_v73) (funext fun a => Fin.ext ?_)
    match a with
    | ⟨0, _⟩ => show Cert.KernelIdeal.win6_3.index t (0 : Fin 2) * 1 + 1 * (y 0).val = (y 0).val; omega
    | ⟨1, _⟩ => show Cert.KernelIdeal.win6_3.index t (1 : Fin 2) * 64 + 1 * (y 1).val = (y 1).val; omega
  · show V c Cert.KernelIdeal.main_v76 (((Cert.KernelIdeal.cfg6.win 4).blk t).view.emb y) = V c Cert.KernelIdeal.main_v76 y
    refine congrArg (V c Cert.KernelIdeal.main_v76) (funext fun a => Fin.ext ?_)
    match a with
    | ⟨0, _⟩ => show Cert.KernelIdeal.win6_4.index t (0 : Fin 2) * 1 + 1 * (y 0).val = (y 0).val; omega
    | ⟨1, _⟩ => show Cert.KernelIdeal.win6_4.index t (1 : Fin 2) * 64 + 1 * (y 1).val = (y 1).val; omega
  · show V c Cert.KernelIdeal.main_v78 (((Cert.KernelIdeal.cfg6.win 5).blk t).view.emb y) = V c Cert.KernelIdeal.main_v78 y
    refine congrArg (V c Cert.KernelIdeal.main_v78) (funext fun a => Fin.ext ?_)
    match a with
    | ⟨0, _⟩ => show Cert.KernelIdeal.win6_5.index t (0 : Fin 2) * 64 + 1 * (y 0).val = (y 0).val; omega
    | ⟨1, _⟩ => show Cert.KernelIdeal.win6_5.index t (1 : Fin 2) * 64 + 1 * (y 1).val = (y 1).val; omega
  · show V c Cert.KernelIdeal.main_v81 (((Cert.KernelIdeal.cfg6.win 6).blk t).view.emb y) = V c Cert.KernelIdeal.main_v81 y
    refine congrArg (V c Cert.KernelIdeal.main_v81) (funext fun a => Fin.ext ?_)
    match a with
    | ⟨0, _⟩ => show Cert.KernelIdeal.win6_6.index t (0 : Fin 2) * 1 + 1 * (y 0).val = (y 0).val; omega
    | ⟨1, _⟩ => show Cert.KernelIdeal.win6_6.index t (1 : Fin 2) * 64 + 1 * (y 1).val = (y 1).val; omega

/-- What point t writes back is block t of the layer on the whole input array. -/
theorem mlp2_flushed_eq_1 (c : Dev Cert.KernelIdeal.nD) (t : Fin Cert.KernelIdeal.cfg6.N) :
    (Cert.KernelIdeal.Gen.dat6 (F := Ideal) V c).flushed 7 t
      = ((Cert.KernelIdeal.cfg6.win 7).blk t).view.read (Elt Ideal)
          (mlp2Arr 100000 (V c Cert.KernelIdeal.main_v88) (V c Cert.KernelIdeal.main_v92) (V c Cert.KernelIdeal.main_v93) (V c Cert.KernelIdeal.main_v73) (V c Cert.KernelIdeal.main_v76)
            (V c Cert.KernelIdeal.main_v78) (V c Cert.KernelIdeal.main_v81)) := by
  show (Cert.KernelIdeal.cfg6.win 7).cut (Cert.KernelIdeal.grid6.coords t) ((Cert.KernelIdeal.Gen.dat6 (F := Ideal) V c).after 7 t) = _
  rw [Cert.KernelIdeal.Gen.after6_7]
  unfold Cert.KernelIdeal.Gen.out6_7
  rw [View.canon_unit_zero mlp2_hz]
  simp only [View.ld_unit_zero (S := Cert.KernelIdeal.S5000x64) mlp2_hz, View.ld_unit_zero (S := Cert.KernelIdeal.S1x64) mlp2_hz,
    View.ld_unit_zero (S := Cert.KernelIdeal.S64x64) mlp2_hz]
  obtain ⟨h1, h2, h3, h4, h5, h6⟩ := mlp2_iblk_row_1 V c t
  rw [mlp2_pay_eq_1, h1, h2, h3, h4, h5, h6]
  obtain ⟨e00, e01, e71, -⟩ := mlp2_idx_facts_1 t
  funext j
  show mlp2Arr 5000 (Cert.KernelIdeal.Gen.iblk6 (F := Ideal) V c 0 t) (V c Cert.KernelIdeal.main_v92) (V c Cert.KernelIdeal.main_v93) (V c Cert.KernelIdeal.main_v73) (V c Cert.KernelIdeal.main_v76)
        (V c Cert.KernelIdeal.main_v78) (V c Cert.KernelIdeal.main_v81) j
      = mlp2Arr 100000 (V c Cert.KernelIdeal.main_v88) (V c Cert.KernelIdeal.main_v92) (V c Cert.KernelIdeal.main_v93) (V c Cert.KernelIdeal.main_v73) (V c Cert.KernelIdeal.main_v76)
        (V c Cert.KernelIdeal.main_v78) (V c Cert.KernelIdeal.main_v81) (((Cert.KernelIdeal.cfg6.win 7).blk t).view.emb j)
  unfold mlp2Arr
  have hq : (((Cert.KernelIdeal.cfg6.win 7).blk t).view.emb j 1 : Fin 64) = (j 1 : Fin 64) := Fin.ext (by
    show Cert.KernelIdeal.win6_7.index t (1 : Fin 2) * 64 + 1 * (j 1).val = (j 1).val; omega)
  have hz : ∀ k : Fin 64, (Cert.KernelIdeal.Gen.iblk6 (F := Ideal) V c 0 t : Vec Ideal Cert.KernelIdeal.S5000x64 .f32) (ix2 (j 0) k)
      = V c Cert.KernelIdeal.main_v88 (ix2 (((Cert.KernelIdeal.cfg6.win 7).blk t).view.emb j 0) k) := fun k => by
    show V c Cert.KernelIdeal.main_v88 (((Cert.KernelIdeal.cfg6.win 0).blk t).view.emb (ix2 (j 0) k)) = _
    refine congrArg (V c Cert.KernelIdeal.main_v88) (funext fun a => Fin.ext ?_)
    match a with
    | ⟨0, _⟩ => show Cert.KernelIdeal.win6_0.index t (0 : Fin 2) * 5000 + 1 * (j 0).val = Cert.KernelIdeal.win6_7.index t (0 : Fin 2) * 5000 + 1 * (j 0).val; omega
    | ⟨1, _⟩ => show Cert.KernelIdeal.win6_0.index t (1 : Fin 2) * 64 + 1 * k.val = k.val; omega
  show mlp2Val (fun k => (Cert.KernelIdeal.Gen.iblk6 (F := Ideal) V c 0 t : Vec Ideal Cert.KernelIdeal.S5000x64 .f32) (ix2 (j 0) k)) _ _ _ _
      (fun k => V c Cert.KernelIdeal.main_v78 (ix2 k (j 1))) (V c Cert.KernelIdeal.main_v81 (ix2 (0 : Fin 1) (j 1))) = _
  rw [funext hz]
  show _ = mlp2Val _ _ _ _ _ (fun k => V c Cert.KernelIdeal.main_v78 (ix2 k (((Cert.KernelIdeal.cfg6.win 7).blk t).view.emb j 1)))
      (V c Cert.KernelIdeal.main_v81 (ix2 (0 : Fin 1) (((Cert.KernelIdeal.cfg6.win 7).blk t).view.emb j 1)))
  rw [hq]

/-- An index of the output array is in point t's block iff each coordinate is in the block's range on its axis. -/
theorem mlp2_mem_blk_1 (t : Fin Cert.KernelIdeal.cfg6.N) (i : Cert.KernelIdeal.S100000x64.Idx) :
    i ∈ ((Cert.KernelIdeal.cfg6.win 7).blk t).view.set ↔ ∀ a : Fin 2, Cert.KernelIdeal.win6_7.index t a * Cert.KernelIdeal.S5000x64.size a ≤ (i a).val
      ∧ (i a).val < Cert.KernelIdeal.win6_7.index t a * Cert.KernelIdeal.S5000x64.size a + Cert.KernelIdeal.S5000x64.size a := by
  show i ∈ ((View.whole Cert.KernelIdeal.main_v94).slice (Cert.KernelIdeal.win6_7.rect t)).set ↔ _
  rw [View.set_slice_whole, Rect.mem_set_unit]
  exact Iff.rfl

/-- THE OUTPUT ARRAY after the pallas_call: the layer on the arrays the call finds in its seven input buffers. -/
theorem mlp2_value2_1 (c : Dev Cert.KernelIdeal.nD) :
    (Cert.KernelIdeal.Gen.dat6 (F := Ideal) V c).arrAt 7 Cert.KernelIdeal.cfg6.N
      = mlp2Arr 100000 (V c Cert.KernelIdeal.main_v88) (V c Cert.KernelIdeal.main_v92) (V c Cert.KernelIdeal.main_v93) (V c Cert.KernelIdeal.main_v73) (V c Cert.KernelIdeal.main_v76)
          (V c Cert.KernelIdeal.main_v78) (V c Cert.KernelIdeal.main_v81) :=
  (Cert.KernelIdeal.Gen.dat6 (F := Ideal) V c).arrAt_eq_of_cover 7 _ (fun t _ => mlp2_flushed_eq_1 V c t) fun i => by
    have hi0 : (i 0).val < 100000 := (i 0).isLt
    have hi1 : (i 1).val < 64 := (i 1).isLt
    obtain ⟨t, ht0, ht1⟩ := mlp2_idx_onto_1 ⟨(i 0).val / 5000, by omega⟩
    refine ⟨t, Cert.KernelIdeal.Gen.flush6_7 t, ?_⟩
    rw [mlp2_mem_blk_1]
    intro a
    match a with
    | ⟨0, _⟩ =>
      show Cert.KernelIdeal.win6_7.index t (0 : Fin 2) * 5000 ≤ (i 0).val ∧ (i 0).val < Cert.KernelIdeal.win6_7.index t (0 : Fin 2) * 5000 + 5000
      rw [ht0]; show (i 0).val / 5000 * 5000 ≤ (i 0).val ∧ (i 0).val < (i 0).val / 5000 * 5000 + 5000; omega
    | ⟨1, _⟩ =>
      show Cert.KernelIdeal.win6_7.index t (1 : Fin 2) * 64 ≤ (i 1).val ∧ (i 1).val < Cert.KernelIdeal.win6_7.index t (1 : Fin 2) * 64 + 64
      omega

end Region

/-! ## The two programs' parameters: slices of the same arguments -/

section Reads

/-- The kernel program's scale row `g`: two reshapes of row 0 of its argument 9. -/
theorem mlp2_K_g_read_1 (W : Valuation Cert.KernelIdeal.τ Cert.KernelIdeal.sig (Elt Ideal)) (a : Vec Ideal Cert.KernelIdeal.S4x64 .f32) (g : Vec Ideal Cert.KernelIdeal.S1x64 .f32)
    (ha : W (Proc.devRef .tc Cert.KernelIdeal.main_arg9) = a) (hg : StableHlo.after (Cert.KernelIdeal.Gen.hostOps5 (F := Ideal)) W (Proc.devRef .tc Cert.KernelIdeal.main_v73) = g) (k : Fin 64) :
    g (ix2 (0 : Fin 1) k) = extractStridedSlice Cert.KernelIdeal.S1x64 _ a Cert.KernelIdeal.Gen.slices_S4x64_S1x64_1_0 (ix2 (0 : Fin 1) k) := by
  subst hg ha
  after_results
  show shapeCast Cert.KernelIdeal.S1x64 (shapeCast Cert.KernelIdeal.S64 (extractStridedSlice Cert.KernelIdeal.S1x64 _ (W (Proc.devRef .tc Cert.KernelIdeal.main_arg9) : Vec Ideal Cert.KernelIdeal.S4x64 .f32) Cert.KernelIdeal.Gen.slices_S4x64_S1x64_1_0) Cert.KernelIdeal.Gen.shapeCasts_S1x64_S64) Cert.KernelIdeal.Gen.shapeCasts_S64_S1x64 (ix2 (0 : Fin 1) k) = _
  rw [shapeCast_a_1a_apply, shapeCast_1a_a_apply]

/-- The kernel program's shift row: two reshapes of row 0 of its argument 10. -/
theorem mlp2_K_be_read_1 (W : Valuation Cert.KernelIdeal.τ Cert.KernelIdeal.sig (Elt Ideal)) (a : Vec Ideal Cert.KernelIdeal.S4x64 .f32) (g : Vec Ideal Cert.KernelIdeal.S1x64 .f32)
    (ha : W (Proc.devRef .tc Cert.KernelIdeal.main_arg10) = a) (hg : StableHlo.after (Cert.KernelIdeal.Gen.hostOps5 (F := Ideal)) W (Proc.devRef .tc Cert.KernelIdeal.main_v76) = g) (k : Fin 64) :
    g (ix2 (0 : Fin 1) k) = extractStridedSlice Cert.KernelIdeal.S1x64 _ a Cert.KernelIdeal.Gen.slices_S4x64_S1x64_1_0 (ix2 (0 : Fin 1) k) := by
  subst hg ha
  after_results
  show shapeCast Cert.KernelIdeal.S1x64 (shapeCast Cert.KernelIdeal.S64 (extractStridedSlice Cert.KernelIdeal.S1x64 _ (W (Proc.devRef .tc Cert.KernelIdeal.main_arg10) : Vec Ideal Cert.KernelIdeal.S4x64 .f32) Cert.KernelIdeal.Gen.slices_S4x64_S1x64_1_0) Cert.KernelIdeal.Gen.shapeCasts_S1x64_S64) Cert.KernelIdeal.Gen.shapeCasts_S64_S1x64 (ix2 (0 : Fin 1) k) = _
  rw [shapeCast_a_1a_apply, shapeCast_1a_a_apply]

/-- The kernel program's weight matrix: the reshape of slab 0 of its argument 11. -/
theorem mlp2_K_W_read_1 (W : Valuation Cert.KernelIdeal.τ Cert.KernelIdeal.sig (Elt Ideal)) (a : Vec Ideal Cert.KernelIdeal.S4x64x64 .f32) (g : Vec Ideal Cert.KernelIdeal.S64x64 .f32)
    (ha : W (Proc.devRef .tc Cert.KernelIdeal.main_arg11) = a) (hg : StableHlo.after (Cert.KernelIdeal.Gen.hostOps5 (F := Ideal)) W (Proc.devRef .tc Cert.KernelIdeal.main_v78) = g) (k q : Fin 64) :
    g (ix2 k q) = extractStridedSlice Cert.KernelIdeal.S1x64x64 _ a Cert.KernelIdeal.Gen.slices_S4x64x64_S1x64x64_1_0_0 (ix3 (0 : Fin 1) k q) := by
  subst hg ha
  after_results
  show shapeCast Cert.KernelIdeal.S64x64 (extractStridedSlice Cert.KernelIdeal.S1x64x64 _ (W (Proc.devRef .tc Cert.KernelIdeal.main_arg11) : Vec Ideal Cert.KernelIdeal.S4x64x64 .f32) Cert.KernelIdeal.Gen.slices_S4x64x64_S1x64x64_1_0_0) Cert.KernelIdeal.Gen.shapeCasts_S1x64x64_S64x64 (ix2 k q) = _
  rw [shapeCast_1ab_ab_apply]

/-- The kernel program's bias row: two reshapes of row 0 of its argument 12. -/
theorem mlp2_K_b_read_1 (W : Valuation Cert.KernelIdeal.τ Cert.KernelIdeal.sig (Elt Ideal)) (a : Vec Ideal Cert.KernelIdeal.S4x64 .f32) (g : Vec Ideal Cert.KernelIdeal.S1x64 .f32)
    (ha : W (Proc.devRef .tc Cert.KernelIdeal.main_arg12) = a) (hg : StableHlo.after (Cert.KernelIdeal.Gen.hostOps5 (F := Ideal)) W (Proc.devRef .tc Cert.KernelIdeal.main_v81) = g) (q : Fin 64) :
    g (ix2 (0 : Fin 1) q) = extractStridedSlice Cert.KernelIdeal.S1x64 _ a Cert.KernelIdeal.Gen.slices_S4x64_S1x64_1_0 (ix2 (0 : Fin 1) q) := by
  subst hg ha
  after_results
  show shapeCast Cert.KernelIdeal.S1x64 (shapeCast Cert.KernelIdeal.S64 (extractStridedSlice Cert.KernelIdeal.S1x64 _ (W (Proc.devRef .tc Cert.KernelIdeal.main_arg12) : Vec Ideal Cert.KernelIdeal.S4x64 .f32) Cert.KernelIdeal.Gen.slices_S4x64_S1x64_1_0) Cert.KernelIdeal.Gen.shapeCasts_S1x64_S64) Cert.KernelIdeal.Gen.shapeCasts_S64_S1x64 (ix2 (0 : Fin 1) q) = _
  rw [shapeCast_a_1a_apply, shapeCast_1a_a_apply]

end Reads

section RefReads

/-- The reference's scale vector: the reshape of row 0 of its argument 9. -/
theorem mlp2_R_g_read_1 (W : Valuation Cert.ReferenceIdeal.τ Cert.ReferenceIdeal.sig (Elt Ideal)) (a : Vec Ideal Cert.ReferenceIdeal.S4x64 .f32) (g : Vec Ideal Cert.ReferenceIdeal.S64 .f32)
    (ha : W (Proc.devRef .tc Cert.ReferenceIdeal.main_arg9) = a) (hg : StableHlo.after (Cert.ReferenceIdeal.Ops.hostOps0_12 (F := Ideal)) W (Proc.devRef .tc Cert.ReferenceIdeal.main_v138) = g) (k : Fin 64) :
    g (ix1 k) = extractStridedSlice Cert.ReferenceIdeal.S1x64 _ a Cert.ReferenceIdeal.Gen.slices_S4x64_S1x64_1_0 (ix2 (0 : Fin 1) k) := by
  subst hg ha
  after_results
  show shapeCast Cert.ReferenceIdeal.S64 (extractStridedSlice Cert.ReferenceIdeal.S1x64 _ (W (Proc.devRef .tc Cert.ReferenceIdeal.main_arg9) : Vec Ideal Cert.ReferenceIdeal.S4x64 .f32) Cert.ReferenceIdeal.Gen.slices_S4x64_S1x64_1_0) Cert.ReferenceIdeal.Gen.shapeCasts_S1x64_S64 (ix1 k) = _
  rw [shapeCast_1a_a_apply]

/-- The reference's shift vector: the reshape of row 0 of its argument 10. -/
theorem mlp2_R_be_read_1 (W : Valuation Cert.ReferenceIdeal.τ Cert.ReferenceIdeal.sig (Elt Ideal)) (a : Vec Ideal Cert.ReferenceIdeal.S4x64 .f32) (g : Vec Ideal Cert.ReferenceIdeal.S64 .f32)
    (ha : W (Proc.devRef .tc Cert.ReferenceIdeal.main_arg10) = a) (hg : StableHlo.after (Cert.ReferenceIdeal.Ops.hostOps0_12 (F := Ideal)) W (Proc.devRef .tc Cert.ReferenceIdeal.main_v140) = g) (k : Fin 64) :
    g (ix1 k) = extractStridedSlice Cert.ReferenceIdeal.S1x64 _ a Cert.ReferenceIdeal.Gen.slices_S4x64_S1x64_1_0 (ix2 (0 : Fin 1) k) := by
  subst hg ha
  after_results
  show shapeCast Cert.ReferenceIdeal.S64 (extractStridedSlice Cert.ReferenceIdeal.S1x64 _ (W (Proc.devRef .tc Cert.ReferenceIdeal.main_arg10) : Vec Ideal Cert.ReferenceIdeal.S4x64 .f32) Cert.ReferenceIdeal.Gen.slices_S4x64_S1x64_1_0) Cert.ReferenceIdeal.Gen.shapeCasts_S1x64_S64 (ix1 k) = _
  rw [shapeCast_1a_a_apply]

/-- The reference's weight matrix: the reshape of slab 0 of its argument 11. -/
theorem mlp2_R_W_read_1 (W : Valuation Cert.ReferenceIdeal.τ Cert.ReferenceIdeal.sig (Elt Ideal)) (a : Vec Ideal Cert.ReferenceIdeal.S4x64x64 .f32) (g : Vec Ideal Cert.ReferenceIdeal.S64x64 .f32)
    (ha : W (Proc.devRef .tc Cert.ReferenceIdeal.main_arg11) = a) (hg : StableHlo.after (Cert.ReferenceIdeal.Ops.hostOps0_16 (F := Ideal)) W (Proc.devRef .tc Cert.ReferenceIdeal.main_v162) = g) (k q : Fin 64) :
    g (ix2 k q) = extractStridedSlice Cert.ReferenceIdeal.S1x64x64 _ a Cert.ReferenceIdeal.Gen.slices_S4x64x64_S1x64x64_1_0_0 (ix3 (0 : Fin 1) k q) := by
  subst hg ha
  after_results
  show shapeCast Cert.ReferenceIdeal.S64x64 (extractStridedSlice Cert.ReferenceIdeal.S1x64x64 _ (W (Proc.devRef .tc Cert.ReferenceIdeal.main_arg11) : Vec Ideal Cert.ReferenceIdeal.S4x64x64 .f32) Cert.ReferenceIdeal.Gen.slices_S4x64x64_S1x64x64_1_0_0) Cert.ReferenceIdeal.Gen.shapeCasts_S1x64x64_S64x64 (ix2 k q) = _
  rw [shapeCast_1ab_ab_apply]

/-- The reference's bias vector: the reshape of row 0 of its argument 12. -/
theorem mlp2_R_b_read_1 (W : Valuation Cert.ReferenceIdeal.τ Cert.ReferenceIdeal.sig (Elt Ideal)) (a : Vec Ideal Cert.ReferenceIdeal.S4x64 .f32) (g : Vec Ideal Cert.ReferenceIdeal.S64 .f32)
    (ha : W (Proc.devRef .tc Cert.ReferenceIdeal.main_arg12) = a) (hg : StableHlo.after (Cert.ReferenceIdeal.Ops.hostOps0_16 (F := Ideal)) W (Proc.devRef .tc Cert.ReferenceIdeal.main_v165) = g) (q : Fin 64) :
    g (ix1 q) = extractStridedSlice Cert.ReferenceIdeal.S1x64 _ a Cert.ReferenceIdeal.Gen.slices_S4x64_S1x64_1_0 (ix2 (0 : Fin 1) q) := by
  subst hg ha
  after_results
  show shapeCast Cert.ReferenceIdeal.S64 (extractStridedSlice Cert.ReferenceIdeal.S1x64 _ (W (Proc.devRef .tc Cert.ReferenceIdeal.main_arg12) : Vec Ideal Cert.ReferenceIdeal.S4x64 .f32) Cert.ReferenceIdeal.Gen.slices_S4x64_S1x64_1_0) Cert.ReferenceIdeal.Gen.shapeCasts_S1x64_S64 (ix1 q) = _
  rw [shapeCast_1a_a_apply]

/-- The reference's normalised, scaled and shifted input at (p, k), from the input `y`, the statistics `mu`, `var` and
    the parameters `g`, `be` the stretch finds. -/
theorem mlp2_R_bn_read_1 (W : Valuation Cert.ReferenceIdeal.τ Cert.ReferenceIdeal.sig (Elt Ideal)) (y : Vec Ideal Cert.ReferenceIdeal.S100000x64 .f32) (mu var g be : Vec Ideal Cert.ReferenceIdeal.S64 .f32)
    (x : Vec Ideal Cert.ReferenceIdeal.S100000x64 .f32)
    (hy : W (Proc.devRef .tc Cert.ReferenceIdeal.main_v136) = y) (hmu : W (Proc.devRef .tc Cert.ReferenceIdeal.main_v143) = mu) (hvar : W (Proc.devRef .tc Cert.ReferenceIdeal.main_v144) = var)
    (hg : W (Proc.devRef .tc Cert.ReferenceIdeal.main_v138) = g) (hbe : W (Proc.devRef .tc Cert.ReferenceIdeal.main_v140) = be)
    (hx : StableHlo.after (Cert.ReferenceIdeal.Ops.hostOps0_14 (F := Ideal)) W (Proc.devRef .tc Cert.ReferenceIdeal.main_v159) = x) (p : Fin 100000) (k : Fin 64) :
    x (ix2 p k) = ((y (ix2 p k) - mu (ix1 k)) * Ideal.rsqrt (var (ix1 k) + Ideal.ofBits .f32 0x3727C5AC#32)) * g (ix1 k) + be (ix1 k) := by
  subst hx
  after_results_simp
  rw [hy, hmu, hvar, hg, hbe]
  simp only [Host.rsqrt, addf_apply, mulf_apply, subf_apply, mlp2_bid_rows, mlp2_bid_row, mlp2_bid_scalar, constant_apply,
    Ideal.hostUnary_rsqrt_def]
  rfl

/-- Its positive part at (p, k). -/
theorem mlp2_R_relu_read_1 (W : Valuation Cert.ReferenceIdeal.τ Cert.ReferenceIdeal.sig (Elt Ideal)) (x r : Vec Ideal Cert.ReferenceIdeal.S100000x64 .f32)
    (hx : W (Proc.devRef .tc Cert.ReferenceIdeal.main_v159) = x) (hr : StableHlo.after (Cert.ReferenceIdeal.Ops.hostOps0_15 (F := Ideal)) W (Proc.devRef .tc Cert.ReferenceIdeal.main_v160) = r)
    (p : Fin 100000) (k : Fin 64) :
    r (ix2 p k) = max (x (ix2 p k)) (Ideal.ofBits .f32 0x00000000#32) := by
  subst hr
  after_results
  show maximumf (W (Proc.devRef .tc Cert.ReferenceIdeal.main_v159) : Vec Ideal Cert.ReferenceIdeal.S100000x64 .f32)
      (broadcastInDim Cert.ReferenceIdeal.S100000x64 _ Cert.ReferenceIdeal.Gen.bcast_S_S100000x64 (constant (F := Ideal) Cert.ReferenceIdeal.S_ .f32 0x00000000#32)) (ix2 p k) = _
  rw [hx, maximumf_apply, mlp2_bid_scalar, constant_apply]

/-- The reference's linear layer at (p, q): the sum over k of row p of the positive part `r` times column q of the weight
    matrix `Wm`, plus entry q of the bias `b`. -/
theorem mlp2_R_lin_read_1 (W : Valuation Cert.ReferenceIdeal.τ Cert.ReferenceIdeal.sig (Elt Ideal)) (r z : Vec Ideal Cert.ReferenceIdeal.S100000x64 .f32) (Wm : Vec Ideal Cert.ReferenceIdeal.S64x64 .f32) (b : Vec Ideal Cert.ReferenceIdeal.S64 .f32)
    (hr : W (Proc.devRef .tc Cert.ReferenceIdeal.main_v160) = r)
    (hWm : StableHlo.after (Cert.ReferenceIdeal.Ops.hostOps0_16 (F := Ideal)) W (Proc.devRef .tc Cert.ReferenceIdeal.main_v162) = Wm)
    (hb : StableHlo.after (Cert.ReferenceIdeal.Ops.hostOps0_16 (F := Ideal)) W (Proc.devRef .tc Cert.ReferenceIdeal.main_v165) = b)
    (hz : StableHlo.after (Cert.ReferenceIdeal.Ops.hostOps0_16 (F := Ideal)) W (Proc.devRef .tc Cert.ReferenceIdeal.main_v168) = z) (p : Fin 100000) (q : Fin 64) :
    z (ix2 p q) = (∑ k : Fin 64, r (ix2 p k) * Wm (ix2 k q)) + b (ix1 q) := by
  subst hz
  revert hWm hb
  after_results
  intro hWm hb
  rw [hr, hWm, hb, addf_apply, mlp2_dot_apply, mlp2_bid_rows, mlp2_bid_row]

end RefReads

/-! ## The bridge -/

section Bridge

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- THE KERNEL PROGRAM'S SIDE: the output buffer ends holding the layer on what the seven input buffers end holding (each
    is written once, before the pallas_call, and never again). -/
theorem mlp2_K_z2_1 (c : Dev Cert.KernelIdeal.nD) :
    KV m ρ c Cert.KernelIdeal.main_v94
      = mlp2Arr 100000 (KV m ρ c Cert.KernelIdeal.main_v88) (KV m ρ c Cert.KernelIdeal.main_v92) (KV m ρ c Cert.KernelIdeal.main_v93) (KV m ρ c Cert.KernelIdeal.main_v73)
          (KV m ρ c Cert.KernelIdeal.main_v76) (KV m ρ c Cert.KernelIdeal.main_v78) (KV m ρ c Cert.KernelIdeal.main_v81) := by
  have h40 := (Cert.KernelIdeal.Keep.toEnd_22 m ρ c Cert.KernelIdeal.main_v88 (by decide +kernel))
  have h44 := (Cert.KernelIdeal.Keep.toEnd_22 m ρ c Cert.KernelIdeal.main_v92 (by decide +kernel))
  have h45 := (Cert.KernelIdeal.Keep.toEnd_22 m ρ c Cert.KernelIdeal.main_v93 (by decide +kernel))
  have h25 := (Cert.KernelIdeal.Keep.toEnd_22 m ρ c Cert.KernelIdeal.main_v73 (by decide +kernel))
  have h28 := (Cert.KernelIdeal.Keep.toEnd_22 m ρ c Cert.KernelIdeal.main_v76 (by decide +kernel))
  have h30 := (Cert.KernelIdeal.Keep.toEnd_22 m ρ c Cert.KernelIdeal.main_v78 (by decide +kernel))
  have h33 := (Cert.KernelIdeal.Keep.toEnd_22 m ρ c Cert.KernelIdeal.main_v81 (by decide +kernel))
  have e := (Cert.KernelIdeal.Gen.W23_arr (F := Ideal) m ρ c 7).trans (mlp2_value2_1 (Cert.KernelIdeal.Gen.V22 (F := Ideal) m ρ) c)
  calc KV m ρ c Cert.KernelIdeal.main_v94
      = Cert.KernelIdeal.Gen.W23 m ρ c (Proc.devRef .tc Cert.KernelIdeal.main_v94) := (Cert.KernelIdeal.Keep.toEnd_23 m ρ c Cert.KernelIdeal.main_v94 (by decide +kernel)).symm
    _ = mlp2Arr 100000 (Cert.KernelIdeal.Gen.W22 m ρ c (Proc.devRef .tc Cert.KernelIdeal.main_v88)) (Cert.KernelIdeal.Gen.W22 m ρ c (Proc.devRef .tc Cert.KernelIdeal.main_v92))
          (Cert.KernelIdeal.Gen.W22 m ρ c (Proc.devRef .tc Cert.KernelIdeal.main_v93)) (Cert.KernelIdeal.Gen.W22 m ρ c (Proc.devRef .tc Cert.KernelIdeal.main_v73)) (Cert.KernelIdeal.Gen.W22 m ρ c (Proc.devRef .tc Cert.KernelIdeal.main_v76))
          (Cert.KernelIdeal.Gen.W22 m ρ c (Proc.devRef .tc Cert.KernelIdeal.main_v78)) (Cert.KernelIdeal.Gen.W22 m ρ c (Proc.devRef .tc Cert.KernelIdeal.main_v81)) := e
    _ = _ := by rw [h40, h44, h45, h25, h28, h30, h33]

/-- The scale: column k of the kernel program's row is entry k of the reference's vector. -/
theorem mlp2_param_g_1 (hag : Agree m m') (c : Dev Cert.KernelIdeal.nD) (k : Fin 64) :
    (KV m ρ c Cert.KernelIdeal.main_v73 : Vec Ideal Cert.KernelIdeal.S1x64 .f32) (ix2 (0 : Fin 1) k) = (RV m' c Cert.ReferenceIdeal.main_v138 : Vec Ideal Cert.ReferenceIdeal.S64 .f32) (ix1 k) := by
  have hK := mlp2_K_g_read_1 (Cert.KernelIdeal.Gen.W18 m ρ c) (KV m ρ c Cert.KernelIdeal.main_arg9) (KV m ρ c Cert.KernelIdeal.main_v73)
    (Cert.KernelIdeal.Keep.toEnd_18 m ρ c Cert.KernelIdeal.main_arg9 (by decide +kernel)) (Cert.KernelIdeal.Keep.toEnd_19 m ρ c Cert.KernelIdeal.main_v73 (by decide +kernel)) k
  have hR := mlp2_R_g_read_1 (R12 m' c) (RV m' c Cert.ReferenceIdeal.main_arg9) (RV m' c Cert.ReferenceIdeal.main_v138)
    (Cert.ReferenceIdeal.Keep.toEnd_12 m' c Cert.ReferenceIdeal.main_arg9 (by decide +kernel)) (Cert.ReferenceIdeal.Keep.toEnd_13 m' c Cert.ReferenceIdeal.main_v138 (by decide +kernel)) k
  rw [(mlp2_args m ρ m' hag c).1] at hR
  exact hK.trans hR.symm

/-- The shift likewise. -/
theorem mlp2_param_be_1 (hag : Agree m m') (c : Dev Cert.KernelIdeal.nD) (k : Fin 64) :
    (KV m ρ c Cert.KernelIdeal.main_v76 : Vec Ideal Cert.KernelIdeal.S1x64 .f32) (ix2 (0 : Fin 1) k) = (RV m' c Cert.ReferenceIdeal.main_v140 : Vec Ideal Cert.ReferenceIdeal.S64 .f32) (ix1 k) := by
  have hK := mlp2_K_be_read_1 (Cert.KernelIdeal.Gen.W18 m ρ c) (KV m ρ c Cert.KernelIdeal.main_arg10) (KV m ρ c Cert.KernelIdeal.main_v76)
    (Cert.KernelIdeal.Keep.toEnd_18 m ρ c Cert.KernelIdeal.main_arg10 (by decide +kernel)) (Cert.KernelIdeal.Keep.toEnd_19 m ρ c Cert.KernelIdeal.main_v76 (by decide +kernel)) k
  have hR := mlp2_R_be_read_1 (R12 m' c) (RV m' c Cert.ReferenceIdeal.main_arg10) (RV m' c Cert.ReferenceIdeal.main_v140)
    (Cert.ReferenceIdeal.Keep.toEnd_12 m' c Cert.ReferenceIdeal.main_arg10 (by decide +kernel)) (Cert.ReferenceIdeal.Keep.toEnd_13 m' c Cert.ReferenceIdeal.main_v140 (by decide +kernel)) k
  rw [(mlp2_args m ρ m' hag c).2.1] at hR
  exact hK.trans hR.symm

/-- The weight matrices agree entry by entry. -/
theorem mlp2_param_W_1 (hag : Agree m m') (c : Dev Cert.KernelIdeal.nD) (k q : Fin 64) :
    (KV m ρ c Cert.KernelIdeal.main_v78 : Vec Ideal Cert.KernelIdeal.S64x64 .f32) (ix2 k q) = (RV m' c Cert.ReferenceIdeal.main_v162 : Vec Ideal Cert.ReferenceIdeal.S64x64 .f32) (ix2 k q) := by
  have hK := mlp2_K_W_read_1 (Cert.KernelIdeal.Gen.W18 m ρ c) (KV m ρ c Cert.KernelIdeal.main_arg11) (KV m ρ c Cert.KernelIdeal.main_v78)
    (Cert.KernelIdeal.Keep.toEnd_18 m ρ c Cert.KernelIdeal.main_arg11 (by decide +kernel)) (Cert.KernelIdeal.Keep.toEnd_19 m ρ c Cert.KernelIdeal.main_v78 (by decide +kernel)) k q
  have hR := mlp2_R_W_read_1 (R16 m' c) (RV m' c Cert.ReferenceIdeal.main_arg11) (RV m' c Cert.ReferenceIdeal.main_v162)
    (Cert.ReferenceIdeal.Keep.toEnd_16 m' c Cert.ReferenceIdeal.main_arg11 (by decide +kernel)) (Cert.ReferenceIdeal.Keep.toEnd_17 m' c Cert.ReferenceIdeal.main_v162 (by decide +kernel)) k q
  rw [(mlp2_args m ρ m' hag c).2.2.1] at hR
  exact hK.trans hR.symm

/-- The bias: column q of the kernel program's row is entry q of the reference's vector. -/
theorem mlp2_param_b_1 (hag : Agree m m') (c : Dev Cert.KernelIdeal.nD) (q : Fin 64) :
    (KV m ρ c Cert.KernelIdeal.main_v81 : Vec Ideal Cert.KernelIdeal.S1x64 .f32) (ix2 (0 : Fin 1) q) = (RV m' c Cert.ReferenceIdeal.main_v165 : Vec Ideal Cert.ReferenceIdeal.S64 .f32) (ix1 q) := by
  have hK := mlp2_K_b_read_1 (Cert.KernelIdeal.Gen.W18 m ρ c) (KV m ρ c Cert.KernelIdeal.main_arg12) (KV m ρ c Cert.KernelIdeal.main_v81)
    (Cert.KernelIdeal.Keep.toEnd_18 m ρ c Cert.KernelIdeal.main_arg12 (by decide +kernel)) (Cert.KernelIdeal.Keep.toEnd_19 m ρ c Cert.KernelIdeal.main_v81 (by decide +kernel)) q
  have hR := mlp2_R_b_read_1 (R16 m' c) (RV m' c Cert.ReferenceIdeal.main_arg12) (RV m' c Cert.ReferenceIdeal.main_v165)
    (Cert.ReferenceIdeal.Keep.toEnd_16 m' c Cert.ReferenceIdeal.main_arg12 (by decide +kernel)) (Cert.ReferenceIdeal.Keep.toEnd_17 m' c Cert.ReferenceIdeal.main_v165 (by decide +kernel)) q
  rw [(mlp2_args m ρ m' hag c).2.2.2] at hR
  exact hK.trans hR.symm

/-- THE REFERENCE'S SIDE: entry (p, q) of its second linear layer's result, from what its buffers end holding. -/
theorem mlp2_R_z2_1 (c : Dev Cert.ReferenceIdeal.nD) (p : Fin 100000) (q : Fin 64) :
    (RV m' c Cert.ReferenceIdeal.main_v168 : Vec Ideal Cert.ReferenceIdeal.S100000x64 .f32) (ix2 p q)
      = mlp2Val (fun k => (RV m' c Cert.ReferenceIdeal.main_v136 : Vec Ideal Cert.ReferenceIdeal.S100000x64 .f32) (ix2 p k)) (fun k => (RV m' c Cert.ReferenceIdeal.main_v143 : Vec Ideal Cert.ReferenceIdeal.S64 .f32) (ix1 k))
          (fun k => (RV m' c Cert.ReferenceIdeal.main_v144 : Vec Ideal Cert.ReferenceIdeal.S64 .f32) (ix1 k)) (fun k => (RV m' c Cert.ReferenceIdeal.main_v138 : Vec Ideal Cert.ReferenceIdeal.S64 .f32) (ix1 k))
          (fun k => (RV m' c Cert.ReferenceIdeal.main_v140 : Vec Ideal Cert.ReferenceIdeal.S64 .f32) (ix1 k)) (fun k => (RV m' c Cert.ReferenceIdeal.main_v162 : Vec Ideal Cert.ReferenceIdeal.S64x64 .f32) (ix2 k q))
          ((RV m' c Cert.ReferenceIdeal.main_v165 : Vec Ideal Cert.ReferenceIdeal.S64 .f32) (ix1 q)) := by
  have e7 := mlp2_R_lin_read_1 (R16 m' c) (R16 m' c (Proc.devRef .tc Cert.ReferenceIdeal.main_v160)) (RV m' c Cert.ReferenceIdeal.main_v168) (RV m' c Cert.ReferenceIdeal.main_v162) (RV m' c Cert.ReferenceIdeal.main_v165)
    rfl (Cert.ReferenceIdeal.Keep.toEnd_17 m' c Cert.ReferenceIdeal.main_v162 (by decide +kernel)) (Cert.ReferenceIdeal.Keep.toEnd_17 m' c Cert.ReferenceIdeal.main_v165 (by decide +kernel)) (Cert.ReferenceIdeal.Keep.toEnd_17 m' c Cert.ReferenceIdeal.main_v168 (by decide +kernel)) p q
  have e6 := fun k : Fin 64 => mlp2_R_relu_read_1 (R15 m' c) (R15 m' c (Proc.devRef .tc Cert.ReferenceIdeal.main_v159)) (R16 m' c (Proc.devRef .tc Cert.ReferenceIdeal.main_v160)) rfl rfl p k
  have e5 := fun k : Fin 64 => mlp2_R_bn_read_1 (R14 m' c) (RV m' c Cert.ReferenceIdeal.main_v136) (RV m' c Cert.ReferenceIdeal.main_v143) (RV m' c Cert.ReferenceIdeal.main_v144)
    (RV m' c Cert.ReferenceIdeal.main_v138) (RV m' c Cert.ReferenceIdeal.main_v140) (R15 m' c (Proc.devRef .tc Cert.ReferenceIdeal.main_v159))
    (Cert.ReferenceIdeal.Keep.toEnd_14 m' c Cert.ReferenceIdeal.main_v136 (by decide +kernel)) (Cert.ReferenceIdeal.Keep.toEnd_14 m' c Cert.ReferenceIdeal.main_v143 (by decide +kernel)) (Cert.ReferenceIdeal.Keep.toEnd_14 m' c Cert.ReferenceIdeal.main_v144 (by decide +kernel)) (Cert.ReferenceIdeal.Keep.toEnd_14 m' c Cert.ReferenceIdeal.main_v138 (by decide +kernel)) (Cert.ReferenceIdeal.Keep.toEnd_14 m' c Cert.ReferenceIdeal.main_v140 (by decide +kernel)) rfl p k
  refine e7.trans ?_
  unfold mlp2Val
  refine congrFun (congrArg HAdd.hAdd ?_) _
  exact Finset.sum_congr rfl fun k _ => by rw [e6 k, e5 k]

/-- SECOND LINEAR LAYER OF GRAPH LAYER 1. Where the two programs leave the same first linear layer's result and
    corresponding first statistics, they leave the same second linear layer's result. -/
theorem corr_z2_1 (hag : Agree m m') (c : Dev Cert.KernelIdeal.nD)
    (hz : KV m ρ c Cert.KernelIdeal.main_v88 = RV m' c Cert.ReferenceIdeal.main_v136)
    (hst : (∀ j : Fin 64, (KV m ρ c Cert.KernelIdeal.main_v92 : Vec Ideal Cert.KernelIdeal.S1x64 .f32) (ix2 (0 : Fin 1) j) = (RV m' c Cert.ReferenceIdeal.main_v143 : Vec Ideal Cert.ReferenceIdeal.S64 .f32) (ix1 j))
      ∧ (∀ j : Fin 64, (KV m ρ c Cert.KernelIdeal.main_v93 : Vec Ideal Cert.KernelIdeal.S1x64 .f32) (ix2 (0 : Fin 1) j) = (RV m' c Cert.ReferenceIdeal.main_v144 : Vec Ideal Cert.ReferenceIdeal.S64 .f32) (ix1 j))) :
    KV m ρ c Cert.KernelIdeal.main_v94 = RV m' c Cert.ReferenceIdeal.main_v168 := by
  rw [mlp2_K_z2_1 m ρ c]
  funext i
  rw [eq_ix2 (n0 := 100000) (n1 := 64) i]
  refine Eq.trans ?_ (mlp2_R_z2_1 m' c (i 0) (i 1)).symm
  refine mlp2Val_congr (fun k => ?_) hst.1 hst.2 (fun k => mlp2_param_g_1 m ρ m' hag c k)
    (fun k => mlp2_param_be_1 m ρ m' hag c k) (fun k => mlp2_param_W_1 m ρ m' hag c k (i 1)) (mlp2_param_b_1 m ρ m' hag c (i 1))
  show KV m ρ c Cert.KernelIdeal.main_v88 (ix2 (i 0) k) = RV m' c Cert.ReferenceIdeal.main_v136 (ix2 (i 0) k)
  rw [hz]

end Bridge

end Cert.Bridge

end
-- ==== Proof.Bridge.Mlp2_L2.lean ====
/- The second perceptron layer of graph layer 2: what the kernel program's eleventh pallas_call leaves in its output array,
   as one function of the arrays it reads, and that this is what the reference's host operations leave in the
   corresponding buffer.

   The kernel computes the layer block of 5000 rows by block; the reference on whole arrays. Both do the same operations
   in the same order, so nothing beyond reading each side at an index is used: the body's stored block at an index, the
   blocks tiling the array, each program's parameters as the same rows of the same arguments, and the reference's three
   stretches of host operations read one after the other. -/
import proofs.«417278_j53197464928922_1_alg».proof.Proof.Bridge.Mlp2Shared

set_option maxRecDepth 16384

noncomputable section

namespace Cert.Bridge

open Idealize.ShloMosaic Idealize.ShloMosaic.TcCoe Idealize.SL.Sem
open Idealize.ShloMosaic.ValueIdx
open Idealize.ShloMosaic.Pipeline (Dat)
open scoped BigOperators

/-! ## The kernel's stored block at an index -/

/-- The body's stored value at (p, q) of its block, from the blocks it loads: the layer's entry from row p of the
    input block. -/
theorem mlp2_pay_apply_2 (x0 : Vec Ideal Cert.KernelIdeal.S5000x64 .f32) (x1 x2 x3 x4 : Vec Ideal Cert.KernelIdeal.S1x64 .f32)
    (x5 : Vec Ideal Cert.KernelIdeal.S64x64 .f32) (x6 : Vec Ideal Cert.KernelIdeal.S1x64 .f32) (p : Fin 5000) (q : Fin 64) :
    Cert.KernelIdeal.Gen.k10_pay1 (F := Ideal) x0 x1 x2 x3 x4 x5 x6 (ix2 p q)
      = mlp2Val (fun k => x0 (ix2 p k)) (fun k => x1 (ix2 (0 : Fin 1) k)) (fun k => x2 (ix2 (0 : Fin 1) k))
          (fun k => x3 (ix2 (0 : Fin 1) k)) (fun k => x4 (ix2 (0 : Fin 1) k)) (fun k => x5 (ix2 k q)) (x6 (ix2 (0 : Fin 1) q)) := by
  unfold Cert.KernelIdeal.Gen.k10_pay1 mlp2Val
  simp only [shapeCast_self]
  rw [addf_apply, mlp2_matmul_apply, broadcastTo_1b_ab_apply]
  refine congrArg (· + x6 (ix2 (0 : Fin 1) q)) (Finset.sum_congr rfl fun k _ => ?_)
  simp only [truncf_apply, maximumf_apply, addf_apply, mulf_apply, subf_apply, broadcastTo_1b_ab_apply, broadcast_apply]
  rfl

/-- As arrays: the body's stored block is the layer on the 5000 rows of the input block. -/
theorem mlp2_pay_eq_2 (x0 : Vec Ideal Cert.KernelIdeal.S5000x64 .f32) (x1 x2 x3 x4 : Vec Ideal Cert.KernelIdeal.S1x64 .f32)
    (x5 : Vec Ideal Cert.KernelIdeal.S64x64 .f32) (x6 : Vec Ideal Cert.KernelIdeal.S1x64 .f32) :
    Cert.KernelIdeal.Gen.k10_pay1 (F := Ideal) x0 x1 x2 x3 x4 x5 x6 = mlp2Arr 5000 x0 x1 x2 x3 x4 x5 x6 := by
  funext j
  rw [eq_ix2 j]
  exact mlp2_pay_apply_2 x0 x1 x2 x3 x4 x5 x6 (j 0) (j 1)

/-! ## What the pallas_call leaves in its output array -/

section Region

variable (V : (c : Dev Cert.KernelIdeal.nD) → (b : Ref Cert.KernelIdeal.sig .tc) → Buf (Elt Ideal) ((c : Thread Cert.KernelIdeal.nD Cert.KernelIdeal.τ).loc b))

/-- The printed index maps over the 20 grid points: the input and the output move together down the rows, block t at
    point t; every other window stays at its one block. -/
theorem mlp2_idx_facts_2 : ∀ t : Fin Cert.KernelIdeal.cfg10.N,
    Cert.KernelIdeal.win10_0.index t (0 : Fin 2) = Cert.KernelIdeal.win10_7.index t (0 : Fin 2) ∧ Cert.KernelIdeal.win10_0.index t (1 : Fin 2) = 0
    ∧ Cert.KernelIdeal.win10_7.index t (1 : Fin 2) = 0
    ∧ Cert.KernelIdeal.win10_1.index t (0 : Fin 2) = 0 ∧ Cert.KernelIdeal.win10_1.index t (1 : Fin 2) = 0
    ∧ Cert.KernelIdeal.win10_2.index t (0 : Fin 2) = 0 ∧ Cert.KernelIdeal.win10_2.index t (1 : Fin 2) = 0
    ∧ Cert.KernelIdeal.win10_3.index t (0 : Fin 2) = 0 ∧ Cert.KernelIdeal.win10_3.index t (1 : Fin 2) = 0
    ∧ Cert.KernelIdeal.win10_4.index t (0 : Fin 2) = 0 ∧ Cert.KernelIdeal.win10_4.index t (1 : Fin 2) = 0
    ∧ Cert.KernelIdeal.win10_5.index t (0 : Fin 2) = 0 ∧ Cert.KernelIdeal.win10_5.index t (1 : Fin 2) = 0
    ∧ Cert.KernelIdeal.win10_6.index t (0 : Fin 2) = 0 ∧ Cert.KernelIdeal.win10_6.index t (1 : Fin 2) = 0 :=
  (by decide +kernel : ∀ t : Fin Cert.KernelIdeal.grid10.N, _)

/-- Every block of 5000 rows is some point's. -/
theorem mlp2_idx_onto_2 : ∀ q0 : Fin 20, ∃ t : Fin Cert.KernelIdeal.cfg10.N,
    Cert.KernelIdeal.win10_7.index t (0 : Fin 2) = q0.val ∧ Cert.KernelIdeal.win10_7.index t (1 : Fin 2) = 0 :=
  (by decide +kernel : ∀ q0 : Fin 20, ∃ t : Fin Cert.KernelIdeal.grid10.N,
    Cert.KernelIdeal.win10_7.index t (0 : Fin 2) = q0.val ∧ Cert.KernelIdeal.win10_7.index t (1 : Fin 2) = 0)

/-- A window whose one block is its whole [1,64] array holds that array at every point. -/
theorem mlp2_iblk_row_2 (c : Dev Cert.KernelIdeal.nD) (t : Fin Cert.KernelIdeal.cfg10.N) :
    (Cert.KernelIdeal.Gen.iblk10 (F := Ideal) V c 1 t : Vec Ideal Cert.KernelIdeal.S1x64 .f32) = V c Cert.KernelIdeal.main_v140
    ∧ (Cert.KernelIdeal.Gen.iblk10 (F := Ideal) V c 2 t : Vec Ideal Cert.KernelIdeal.S1x64 .f32) = V c Cert.KernelIdeal.main_v141
    ∧ (Cert.KernelIdeal.Gen.iblk10 (F := Ideal) V c 3 t : Vec Ideal Cert.KernelIdeal.S1x64 .f32) = V c Cert.KernelIdeal.main_v121
    ∧ (Cert.KernelIdeal.Gen.iblk10 (F := Ideal) V c 4 t : Vec Ideal Cert.KernelIdeal.S1x64 .f32) = V c Cert.KernelIdeal.main_v124
    ∧ (Cert.KernelIdeal.Gen.iblk10 (F := Ideal) V c 5 t : Vec Ideal Cert.KernelIdeal.S64x64 .f32) = V c Cert.KernelIdeal.main_v126
    ∧ (Cert.KernelIdeal.Gen.iblk10 (F := Ideal) V c 6 t : Vec Ideal Cert.KernelIdeal.S1x64 .f32) = V c Cert.KernelIdeal.main_v129 := by
  obtain ⟨-, -, -, e10, e11, e20, e21, e30, e31, e40, e41, e50, e51, e60, e61⟩ := mlp2_idx_facts_2 t
  refine ⟨funext fun y => ?_, funext fun y => ?_, funext fun y => ?_, funext fun y => ?_, funext fun y => ?_, funext fun y => ?_⟩
  · show V c Cert.KernelIdeal.main_v140 (((Cert.KernelIdeal.cfg10.win 1).blk t).view.emb y) = V c Cert.KernelIdeal.main_v140 y
    refine congrArg (V c Cert.KernelIdeal.main_v140) (funext fun a => Fin.ext ?_)
    match a with
    | ⟨0, _⟩ => show Cert.KernelIdeal.win10_1.index t (0 : Fin 2) * 1 + 1 * (y 0).val = (y 0).val; omega
    | ⟨1, _⟩ => show Cert.KernelIdeal.win10_1.index t (1 : Fin 2) * 64 + 1 * (y 1).val = (y 1).val; omega
  · show V c Cert.KernelIdeal.main_v141 (((Cert.KernelIdeal.cfg10.win 2).blk t).view.emb y) = V c Cert.KernelIdeal.main_v141 y
    refine congrArg (V c Cert.KernelIdeal.main_v141) (funext fun a => Fin.ext ?_)
    match a with
    | ⟨0, _⟩ => show Cert.KernelIdeal.win10_2.index t (0 : Fin 2) * 1 + 1 * (y 0).val = (y 0).val; omega
    | ⟨1, _⟩ => show Cert.KernelIdeal.win10_2.index t (1 : Fin 2) * 64 + 1 * (y 1).val = (y 1).val; omega
  · show V c Cert.KernelIdeal.main_v121 (((Cert.KernelIdeal.cfg10.win 3).blk t).view.emb y) = V c Cert.KernelIdeal.main_v121 y
    refine congrArg (V c Cert.KernelIdeal.main_v121) (funext fun a => Fin.ext ?_)
    match a with
    | ⟨0, _⟩ => show Cert.KernelIdeal.win10_3.index t (0 : Fin 2) * 1 + 1 * (y 0).val = (y 0).val; omega
    | ⟨1, _⟩ => show Cert.KernelIdeal.win10_3.index t (1 : Fin 2) * 64 + 1 * (y 1).val = (y 1).val; omega
  · show V c Cert.KernelIdeal.main_v124 (((Cert.KernelIdeal.cfg10.win 4).blk t).view.emb y) = V c Cert.KernelIdeal.main_v124 y
    refine congrArg (V c Cert.KernelIdeal.main_v124) (funext fun a => Fin.ext ?_)
    match a with
    | ⟨0, _⟩ => show Cert.KernelIdeal.win10_4.index t (0 : Fin 2) * 1 + 1 * (y 0).val = (y 0).val; omega
    | ⟨1, _⟩ => show Cert.KernelIdeal.win10_4.index t (1 : Fin 2) * 64 + 1 * (y 1).val = (y 1).val; omega
  · show V c Cert.KernelIdeal.main_v126 (((Cert.KernelIdeal.cfg10.win 5).blk t).view.emb y) = V c Cert.KernelIdeal.main_v126 y
    refine congrArg (V c Cert.KernelIdeal.main_v126) (funext fun a => Fin.ext ?_)
    match a with
    | ⟨0, _⟩ => show Cert.KernelIdeal.win10_5.index t (0 : Fin 2) * 64 + 1 * (y 0).val = (y 0).val; omega
    | ⟨1, _⟩ => show Cert.KernelIdeal.win10_5.index t (1 : Fin 2) * 64 + 1 * (y 1).val = (y 1).val; omega
  · show V c Cert.KernelIdeal.main_v129 (((Cert.KernelIdeal.cfg10.win 6).blk t).view.emb y) = V c Cert.KernelIdeal.main_v129 y
    refine congrArg (V c Cert.KernelIdeal.main_v129) (funext fun a => Fin.ext ?_)
    match a with
    | ⟨0, _⟩ => show Cert.KernelIdeal.win10_6.index t (0 : Fin 2) * 1 + 1 * (y 0).val = (y 0).val; omega
    | ⟨1, _⟩ => show Cert.KernelIdeal.win10_6.index t (1 : Fin 2) * 64 + 1 * (y 1).val = (y 1).val; omega

/-- What point t writes back is block t of the layer on the whole input array. -/
theorem mlp2_flushed_eq_2 (c : Dev Cert.KernelIdeal.nD) (t : Fin Cert.KernelIdeal.cfg10.N) :
    (Cert.KernelIdeal.Gen.dat10 (F := Ideal) V c).flushed 7 t
      = ((Cert.KernelIdeal.cfg10.win 7).blk t).view.read (Elt Ideal)
          (mlp2Arr 100000 (V c Cert.KernelIdeal.main_v136) (V c Cert.KernelIdeal.main_v140) (V c Cert.KernelIdeal.main_v141) (V c Cert.KernelIdeal.main_v121) (V c Cert.KernelIdeal.main_v124)
            (V c Cert.KernelIdeal.main_v126) (V c Cert.KernelIdeal.main_v129)) := by
  show (Cert.KernelIdeal.cfg10.win 7).cut (Cert.KernelIdeal.grid10.coords t) ((Cert.KernelIdeal.Gen.dat10 (F := Ideal) V c).after 7 t) = _
  rw [Cert.KernelIdeal.Gen.after10_7]
  unfold Cert.KernelIdeal.Gen.out10_7
  rw [View.canon_unit_zero mlp2_hz]
  simp only [View.ld_unit_zero (S := Cert.KernelIdeal.S5000x64) mlp2_hz, View.ld_unit_zero (S := Cert.KernelIdeal.S1x64) mlp2_hz,
    View.ld_unit_zero (S := Cert.KernelIdeal.S64x64) mlp2_hz]
  obtain ⟨h1, h2, h3, h4, h5, h6⟩ := mlp2_iblk_row_2 V c t
  rw [mlp2_pay_eq_2, h1, h2, h3, h4, h5, h6]
  obtain ⟨e00, e01, e71, -⟩ := mlp2_idx_facts_2 t
  funext j
  show mlp2Arr 5000 (Cert.KernelIdeal.Gen.iblk10 (F := Ideal) V c 0 t) (V c Cert.KernelIdeal.main_v140) (V c Cert.KernelIdeal.main_v141) (V c Cert.KernelIdeal.main_v121) (V c Cert.KernelIdeal.main_v124)
        (V c Cert.KernelIdeal.main_v126) (V c Cert.KernelIdeal.main_v129) j
      = mlp2Arr 100000 (V c Cert.KernelIdeal.main_v136) (V c Cert.KernelIdeal.main_v140) (V c Cert.KernelIdeal.main_v141) (V c Cert.KernelIdeal.main_v121) (V c Cert.KernelIdeal.main_v124)
        (V c Cert.KernelIdeal.main_v126) (V c Cert.KernelIdeal.main_v129) (((Cert.KernelIdeal.cfg10.win 7).blk t).view.emb j)
  unfold mlp2Arr
  have hq : (((Cert.KernelIdeal.cfg10.win 7).blk t).view.emb j 1 : Fin 64) = (j 1 : Fin 64) := Fin.ext (by
    show Cert.KernelIdeal.win10_7.index t (1 : Fin 2) * 64 + 1 * (j 1).val = (j 1).val; omega)
  have hz : ∀ k : Fin 64, (Cert.KernelIdeal.Gen.iblk10 (F := Ideal) V c 0 t : Vec Ideal Cert.KernelIdeal.S5000x64 .f32) (ix2 (j 0) k)
      = V c Cert.KernelIdeal.main_v136 (ix2 (((Cert.KernelIdeal.cfg10.win 7).blk t).view.emb j 0) k) := fun k => by
    show V c Cert.KernelIdeal.main_v136 (((Cert.KernelIdeal.cfg10.win 0).blk t).view.emb (ix2 (j 0) k)) = _
    refine congrArg (V c Cert.KernelIdeal.main_v136) (funext fun a => Fin.ext ?_)
    match a with
    | ⟨0, _⟩ => show Cert.KernelIdeal.win10_0.index t (0 : Fin 2) * 5000 + 1 * (j 0).val = Cert.KernelIdeal.win10_7.index t (0 : Fin 2) * 5000 + 1 * (j 0).val; omega
    | ⟨1, _⟩ => show Cert.KernelIdeal.win10_0.index t (1 : Fin 2) * 64 + 1 * k.val = k.val; omega
  show mlp2Val (fun k => (Cert.KernelIdeal.Gen.iblk10 (F := Ideal) V c 0 t : Vec Ideal Cert.KernelIdeal.S5000x64 .f32) (ix2 (j 0) k)) _ _ _ _
      (fun k => V c Cert.KernelIdeal.main_v126 (ix2 k (j 1))) (V c Cert.KernelIdeal.main_v129 (ix2 (0 : Fin 1) (j 1))) = _
  rw [funext hz]
  show _ = mlp2Val _ _ _ _ _ (fun k => V c Cert.KernelIdeal.main_v126 (ix2 k (((Cert.KernelIdeal.cfg10.win 7).blk t).view.emb j 1)))
      (V c Cert.KernelIdeal.main_v129 (ix2 (0 : Fin 1) (((Cert.KernelIdeal.cfg10.win 7).blk t).view.emb j 1)))
  rw [hq]

/-- An index of the output array is in point t's block iff each coordinate is in the block's range on its axis. -/
theorem mlp2_mem_blk_2 (t : Fin Cert.KernelIdeal.cfg10.N) (i : Cert.KernelIdeal.S100000x64.Idx) :
    i ∈ ((Cert.KernelIdeal.cfg10.win 7).blk t).view.set ↔ ∀ a : Fin 2, Cert.KernelIdeal.win10_7.index t a * Cert.KernelIdeal.S5000x64.size a ≤ (i a).val
      ∧ (i a).val < Cert.KernelIdeal.win10_7.index t a * Cert.KernelIdeal.S5000x64.size a + Cert.KernelIdeal.S5000x64.size a := by
  show i ∈ ((View.whole Cert.KernelIdeal.main_v142).slice (Cert.KernelIdeal.win10_7.rect t)).set ↔ _
  rw [View.set_slice_whole, Rect.mem_set_unit]
  exact Iff.rfl

/-- THE OUTPUT ARRAY after the pallas_call: the layer on the arrays the call finds in its seven input buffers. -/
theorem mlp2_value2_2 (c : Dev Cert.KernelIdeal.nD) :
    (Cert.KernelIdeal.Gen.dat10 (F := Ideal) V c).arrAt 7 Cert.KernelIdeal.cfg10.N
      = mlp2Arr 100000 (V c Cert.KernelIdeal.main_v136) (V c Cert.KernelIdeal.main_v140) (V c Cert.KernelIdeal.main_v141) (V c Cert.KernelIdeal.main_v121) (V c Cert.KernelIdeal.main_v124)
          (V c Cert.KernelIdeal.main_v126) (V c Cert.KernelIdeal.main_v129) :=
  (Cert.KernelIdeal.Gen.dat10 (F := Ideal) V c).arrAt_eq_of_cover 7 _ (fun t _ => mlp2_flushed_eq_2 V c t) fun i => by
    have hi0 : (i 0).val < 100000 := (i 0).isLt
    have hi1 : (i 1).val < 64 := (i 1).isLt
    obtain ⟨t, ht0, ht1⟩ := mlp2_idx_onto_2 ⟨(i 0).val / 5000, by omega⟩
    refine ⟨t, Cert.KernelIdeal.Gen.flush10_7 t, ?_⟩
    rw [mlp2_mem_blk_2]
    intro a
    match a with
    | ⟨0, _⟩ =>
      show Cert.KernelIdeal.win10_7.index t (0 : Fin 2) * 5000 ≤ (i 0).val ∧ (i 0).val < Cert.KernelIdeal.win10_7.index t (0 : Fin 2) * 5000 + 5000
      rw [ht0]; show (i 0).val / 5000 * 5000 ≤ (i 0).val ∧ (i 0).val < (i 0).val / 5000 * 5000 + 5000; omega
    | ⟨1, _⟩ =>
      show Cert.KernelIdeal.win10_7.index t (1 : Fin 2) * 64 ≤ (i 1).val ∧ (i 1).val < Cert.KernelIdeal.win10_7.index t (1 : Fin 2) * 64 + 64
      omega

end Region

/-! ## The two programs' parameters: slices of the same arguments -/

section Reads

/-- The kernel program's scale row `g`: two reshapes of row 0 of its argument 9. -/
theorem mlp2_K_g_read_2 (W : Valuation Cert.KernelIdeal.τ Cert.KernelIdeal.sig (Elt Ideal)) (a : Vec Ideal Cert.KernelIdeal.S4x64 .f32) (g : Vec Ideal Cert.KernelIdeal.S1x64 .f32)
    (ha : W (Proc.devRef .tc Cert.KernelIdeal.main_arg9) = a) (hg : StableHlo.after (Cert.KernelIdeal.Gen.hostOps9 (F := Ideal)) W (Proc.devRef .tc Cert.KernelIdeal.main_v121) = g) (k : Fin 64) :
    g (ix2 (0 : Fin 1) k) = extractStridedSlice Cert.KernelIdeal.S1x64 _ a Cert.KernelIdeal.Gen.slices_S4x64_S1x64_2_0 (ix2 (0 : Fin 1) k) := by
  subst hg ha
  after_results
  show shapeCast Cert.KernelIdeal.S1x64 (shapeCast Cert.KernelIdeal.S64 (extractStridedSlice Cert.KernelIdeal.S1x64 _ (W (Proc.devRef .tc Cert.KernelIdeal.main_arg9) : Vec Ideal Cert.KernelIdeal.S4x64 .f32) Cert.KernelIdeal.Gen.slices_S4x64_S1x64_2_0) Cert.KernelIdeal.Gen.shapeCasts_S1x64_S64) Cert.KernelIdeal.Gen.shapeCasts_S64_S1x64 (ix2 (0 : Fin 1) k) = _
  rw [shapeCast_a_1a_apply, shapeCast_1a_a_apply]

/-- The kernel program's shift row: two reshapes of row 0 of its argument 10. -/
theorem mlp2_K_be_read_2 (W : Valuation Cert.KernelIdeal.τ Cert.KernelIdeal.sig (Elt Ideal)) (a : Vec Ideal Cert.KernelIdeal.S4x64 .f32) (g : Vec Ideal Cert.KernelIdeal.S1x64 .f32)
    (ha : W (Proc.devRef .tc Cert.KernelIdeal.main_arg10) = a) (hg : StableHlo.after (Cert.KernelIdeal.Gen.hostOps9 (F := Ideal)) W (Proc.devRef .tc Cert.KernelIdeal.main_v124) = g) (k : Fin 64) :
    g (ix2 (0 : Fin 1) k) = extractStridedSlice Cert.KernelIdeal.S1x64 _ a Cert.KernelIdeal.Gen.slices_S4x64_S1x64_2_0 (ix2 (0 : Fin 1) k) := by
  subst hg ha
  after_results
  show shapeCast Cert.KernelIdeal.S1x64 (shapeCast Cert.KernelIdeal.S64 (extractStridedSlice Cert.KernelIdeal.S1x64 _ (W (Proc.devRef .tc Cert.KernelIdeal.main_arg10) : Vec Ideal Cert.KernelIdeal.S4x64 .f32) Cert.KernelIdeal.Gen.slices_S4x64_S1x64_2_0) Cert.KernelIdeal.Gen.shapeCasts_S1x64_S64) Cert.KernelIdeal.Gen.shapeCasts_S64_S1x64 (ix2 (0 : Fin 1) k) = _
  rw [shapeCast_a_1a_apply, shapeCast_1a_a_apply]

/-- The kernel program's weight matrix: the reshape of slab 0 of its argument 11. -/
theorem mlp2_K_W_read_2 (W : Valuation Cert.KernelIdeal.τ Cert.KernelIdeal.sig (Elt Ideal)) (a : Vec Ideal Cert.KernelIdeal.S4x64x64 .f32) (g : Vec Ideal Cert.KernelIdeal.S64x64 .f32)
    (ha : W (Proc.devRef .tc Cert.KernelIdeal.main_arg11) = a) (hg : StableHlo.after (Cert.KernelIdeal.Gen.hostOps9 (F := Ideal)) W (Proc.devRef .tc Cert.KernelIdeal.main_v126) = g) (k q : Fin 64) :
    g (ix2 k q) = extractStridedSlice Cert.KernelIdeal.S1x64x64 _ a Cert.KernelIdeal.Gen.slices_S4x64x64_S1x64x64_2_0_0 (ix3 (0 : Fin 1) k q) := by
  subst hg ha
  after_results
  show shapeCast Cert.KernelIdeal.S64x64 (extractStridedSlice Cert.KernelIdeal.S1x64x64 _ (W (Proc.devRef .tc Cert.KernelIdeal.main_arg11) : Vec Ideal Cert.KernelIdeal.S4x64x64 .f32) Cert.KernelIdeal.Gen.slices_S4x64x64_S1x64x64_2_0_0) Cert.KernelIdeal.Gen.shapeCasts_S1x64x64_S64x64 (ix2 k q) = _
  rw [shapeCast_1ab_ab_apply]

/-- The kernel program's bias row: two reshapes of row 0 of its argument 12. -/
theorem mlp2_K_b_read_2 (W : Valuation Cert.KernelIdeal.τ Cert.KernelIdeal.sig (Elt Ideal)) (a : Vec Ideal Cert.KernelIdeal.S4x64 .f32) (g : Vec Ideal Cert.KernelIdeal.S1x64 .f32)
    (ha : W (Proc.devRef .tc Cert.KernelIdeal.main_arg12) = a) (hg : StableHlo.after (Cert.KernelIdeal.Gen.hostOps9 (F := Ideal)) W (Proc.devRef .tc Cert.KernelIdeal.main_v129) = g) (q : Fin 64) :
    g (ix2 (0 : Fin 1) q) = extractStridedSlice Cert.KernelIdeal.S1x64 _ a Cert.KernelIdeal.Gen.slices_S4x64_S1x64_2_0 (ix2 (0 : Fin 1) q) := by
  subst hg ha
  after_results
  show shapeCast Cert.KernelIdeal.S1x64 (shapeCast Cert.KernelIdeal.S64 (extractStridedSlice Cert.KernelIdeal.S1x64 _ (W (Proc.devRef .tc Cert.KernelIdeal.main_arg12) : Vec Ideal Cert.KernelIdeal.S4x64 .f32) Cert.KernelIdeal.Gen.slices_S4x64_S1x64_2_0) Cert.KernelIdeal.Gen.shapeCasts_S1x64_S64) Cert.KernelIdeal.Gen.shapeCasts_S64_S1x64 (ix2 (0 : Fin 1) q) = _
  rw [shapeCast_a_1a_apply, shapeCast_1a_a_apply]

end Reads

section RefReads

/-- The reference's scale vector: the reshape of row 0 of its argument 9. -/
theorem mlp2_R_g_read_2 (W : Valuation Cert.ReferenceIdeal.τ Cert.ReferenceIdeal.sig (Elt Ideal)) (a : Vec Ideal Cert.ReferenceIdeal.S4x64 .f32) (g : Vec Ideal Cert.ReferenceIdeal.S64 .f32)
    (ha : W (Proc.devRef .tc Cert.ReferenceIdeal.main_arg9) = a) (hg : StableHlo.after (Cert.ReferenceIdeal.Ops.hostOps0_22 (F := Ideal)) W (Proc.devRef .tc Cert.ReferenceIdeal.main_v229) = g) (k : Fin 64) :
    g (ix1 k) = extractStridedSlice Cert.ReferenceIdeal.S1x64 _ a Cert.ReferenceIdeal.Gen.slices_S4x64_S1x64_2_0 (ix2 (0 : Fin 1) k) := by
  subst hg ha
  after_results
  show shapeCast Cert.ReferenceIdeal.S64 (extractStridedSlice Cert.ReferenceIdeal.S1x64 _ (W (Proc.devRef .tc Cert.ReferenceIdeal.main_arg9) : Vec Ideal Cert.ReferenceIdeal.S4x64 .f32) Cert.ReferenceIdeal.Gen.slices_S4x64_S1x64_2_0) Cert.ReferenceIdeal.Gen.shapeCasts_S1x64_S64 (ix1 k) = _
  rw [shapeCast_1a_a_apply]

/-- The reference's shift vector: the reshape of row 0 of its argument 10. -/
theorem mlp2_R_be_read_2 (W : Valuation Cert.ReferenceIdeal.τ Cert.ReferenceIdeal.sig (Elt Ideal)) (a : Vec Ideal Cert.ReferenceIdeal.S4x64 .f32) (g : Vec Ideal Cert.ReferenceIdeal.S64 .f32)
    (ha : W (Proc.devRef .tc Cert.ReferenceIdeal.main_arg10) = a) (hg : StableHlo.after (Cert.ReferenceIdeal.Ops.hostOps0_22 (F := Ideal)) W (Proc.devRef .tc Cert.ReferenceIdeal.main_v231) = g) (k : Fin 64) :
    g (ix1 k) = extractStridedSlice Cert.ReferenceIdeal.S1x64 _ a Cert.ReferenceIdeal.Gen.slices_S4x64_S1x64_2_0 (ix2 (0 : Fin 1) k) := by
  subst hg ha
  after_results
  show shapeCast Cert.ReferenceIdeal.S64 (extractStridedSlice Cert.ReferenceIdeal.S1x64 _ (W (Proc.devRef .tc Cert.ReferenceIdeal.main_arg10) : Vec Ideal Cert.ReferenceIdeal.S4x64 .f32) Cert.ReferenceIdeal.Gen.slices_S4x64_S1x64_2_0) Cert.ReferenceIdeal.Gen.shapeCasts_S1x64_S64 (ix1 k) = _
  rw [shapeCast_1a_a_apply]

/-- The reference's weight matrix: the reshape of slab 0 of its argument 11. -/
theorem mlp2_R_W_read_2 (W : Valuation Cert.ReferenceIdeal.τ Cert.ReferenceIdeal.sig (Elt Ideal)) (a : Vec Ideal Cert.ReferenceIdeal.S4x64x64 .f32) (g : Vec Ideal Cert.ReferenceIdeal.S64x64 .f32)
    (ha : W (Proc.devRef .tc Cert.ReferenceIdeal.main_arg11) = a) (hg : StableHlo.after (Cert.ReferenceIdeal.Ops.hostOps0_26 (F := Ideal)) W (Proc.devRef .tc Cert.ReferenceIdeal.main_v253) = g) (k q : Fin 64) :
    g (ix2 k q) = extractStridedSlice Cert.ReferenceIdeal.S1x64x64 _ a Cert.ReferenceIdeal.Gen.slices_S4x64x64_S1x64x64_2_0_0 (ix3 (0 : Fin 1) k q) := by
  subst hg ha
  after_results
  show shapeCast Cert.ReferenceIdeal.S64x64 (extractStridedSlice Cert.ReferenceIdeal.S1x64x64 _ (W (Proc.devRef .tc Cert.ReferenceIdeal.main_arg11) : Vec Ideal Cert.ReferenceIdeal.S4x64x64 .f32) Cert.ReferenceIdeal.Gen.slices_S4x64x64_S1x64x64_2_0_0) Cert.ReferenceIdeal.Gen.shapeCasts_S1x64x64_S64x64 (ix2 k q) = _
  rw [shapeCast_1ab_ab_apply]

/-- The reference's bias vector: the reshape of row 0 of its argument 12. -/
theorem mlp2_R_b_read_2 (W : Valuation Cert.ReferenceIdeal.τ Cert.ReferenceIdeal.sig (Elt Ideal)) (a : Vec Ideal Cert.ReferenceIdeal.S4x64 .f32) (g : Vec Ideal Cert.ReferenceIdeal.S64 .f32)
    (ha : W (Proc.devRef .tc Cert.ReferenceIdeal.main_arg12) = a) (hg : StableHlo.after (Cert.ReferenceIdeal.Ops.hostOps0_26 (F := Ideal)) W (Proc.devRef .tc Cert.ReferenceIdeal.main_v256) = g) (q : Fin 64) :
    g (ix1 q) = extractStridedSlice Cert.ReferenceIdeal.S1x64 _ a Cert.ReferenceIdeal.Gen.slices_S4x64_S1x64_2_0 (ix2 (0 : Fin 1) q) := by
  subst hg ha
  after_results
  show shapeCast Cert.ReferenceIdeal.S64 (extractStridedSlice Cert.ReferenceIdeal.S1x64 _ (W (Proc.devRef .tc Cert.ReferenceIdeal.main_arg12) : Vec Ideal Cert.ReferenceIdeal.S4x64 .f32) Cert.ReferenceIdeal.Gen.slices_S4x64_S1x64_2_0) Cert.ReferenceIdeal.Gen.shapeCasts_S1x64_S64 (ix1 q) = _
  rw [shapeCast_1a_a_apply]

/-- The reference's normalised, scaled and shifted input at (p, k), from the input `y`, the statistics `mu`, `var` and
    the parameters `g`, `be` the stretch finds. -/
theorem mlp2_R_bn_read_2 (W : Valuation Cert.ReferenceIdeal.τ Cert.ReferenceIdeal.sig (Elt Ideal)) (y : Vec Ideal Cert.ReferenceIdeal.S100000x64 .f32) (mu var g be : Vec Ideal Cert.ReferenceIdeal.S64 .f32)
    (x : Vec Ideal Cert.ReferenceIdeal.S100000x64 .f32)
    (hy : W (Proc.devRef .tc Cert.ReferenceIdeal.main_v227) = y) (hmu : W (Proc.devRef .tc Cert.ReferenceIdeal.main_v234) = mu) (hvar : W (Proc.devRef .tc Cert.ReferenceIdeal.main_v235) = var)
    (hg : W (Proc.devRef .tc Cert.ReferenceIdeal.main_v229) = g) (hbe : W (Proc.devRef .tc Cert.ReferenceIdeal.main_v231) = be)
    (hx : StableHlo.after (Cert.ReferenceIdeal.Ops.hostOps0_24 (F := Ideal)) W (Proc.devRef .tc Cert.ReferenceIdeal.main_v250) = x) (p : Fin 100000) (k : Fin 64) :
    x (ix2 p k) = ((y (ix2 p k) - mu (ix1 k)) * Ideal.rsqrt (var (ix1 k) + Ideal.ofBits .f32 0x3727C5AC#32)) * g (ix1 k) + be (ix1 k) := by
  subst hx
  after_results_simp
  rw [hy, hmu, hvar, hg, hbe]
  simp only [Host.rsqrt, addf_apply, mulf_apply, subf_apply, mlp2_bid_rows, mlp2_bid_row, mlp2_bid_scalar, constant_apply,
    Ideal.hostUnary_rsqrt_def]
  rfl

/-- Its positive part at (p, k). -/
theorem mlp2_R_relu_read_2 (W : Valuation Cert.ReferenceIdeal.τ Cert.ReferenceIdeal.sig (Elt Ideal)) (x r : Vec Ideal Cert.ReferenceIdeal.S100000x64 .f32)
    (hx : W (Proc.devRef .tc Cert.ReferenceIdeal.main_v250) = x) (hr : StableHlo.after (Cert.ReferenceIdeal.Ops.hostOps0_25 (F := Ideal)) W (Proc.devRef .tc Cert.ReferenceIdeal.main_v251) = r)
    (p : Fin 100000) (k : Fin 64) :
    r (ix2 p k) = max (x (ix2 p k)) (Ideal.ofBits .f32 0x00000000#32) := by
  subst hr
  after_results
  show maximumf (W (Proc.devRef .tc Cert.ReferenceIdeal.main_v250) : Vec Ideal Cert.ReferenceIdeal.S100000x64 .f32)
      (broadcastInDim Cert.ReferenceIdeal.S100000x64 _ Cert.ReferenceIdeal.Gen.bcast_S_S100000x64 (constant (F := Ideal) Cert.ReferenceIdeal.S_ .f32 0x00000000#32)) (ix2 p k) = _
  rw [hx, maximumf_apply, mlp2_bid_scalar, constant_apply]

/-- The reference's linear layer at (p, q): the sum over k of row p of the positive part `r` times column q of the weight
    matrix `Wm`, plus entry q of the bias `b`. -/
theorem mlp2_R_lin_read_2 (W : Valuation Cert.ReferenceIdeal.τ Cert.ReferenceIdeal.sig (Elt Ideal)) (r z : Vec Ideal Cert.ReferenceIdeal.S100000x64 .f32) (Wm : Vec Ideal Cert.ReferenceIdeal.S64x64 .f32) (b : Vec Ideal Cert.ReferenceIdeal.S64 .f32)
    (hr : W (Proc.devRef .tc Cert.ReferenceIdeal.main_v251) = r)
    (hWm : StableHlo.after (Cert.ReferenceIdeal.Ops.hostOps0_26 (F := Ideal)) W (Proc.devRef .tc Cert.ReferenceIdeal.main_v253) = Wm)
    (hb : StableHlo.after (Cert.ReferenceIdeal.Ops.hostOps0_26 (F := Ideal)) W (Proc.devRef .tc Cert.ReferenceIdeal.main_v256) = b)
    (hz : StableHlo.after (Cert.ReferenceIdeal.Ops.hostOps0_26 (F := Ideal)) W (Proc.devRef .tc Cert.ReferenceIdeal.main_v259) = z) (p : Fin 100000) (q : Fin 64) :
    z (ix2 p q) = (∑ k : Fin 64, r (ix2 p k) * Wm (ix2 k q)) + b (ix1 q) := by
  subst hz
  revert hWm hb
  after_results
  intro hWm hb
  rw [hr, hWm, hb, addf_apply, mlp2_dot_apply, mlp2_bid_rows, mlp2_bid_row]

end RefReads

/-! ## The bridge -/

section Bridge

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- THE KERNEL PROGRAM'S SIDE: the output buffer ends holding the layer on what the seven input buffers end holding (each
    is written once, before the pallas_call, and never again). -/
theorem mlp2_K_z2_2 (c : Dev Cert.KernelIdeal.nD) :
    KV m ρ c Cert.KernelIdeal.main_v142
      = mlp2Arr 100000 (KV m ρ c Cert.KernelIdeal.main_v136) (KV m ρ c Cert.KernelIdeal.main_v140) (KV m ρ c Cert.KernelIdeal.main_v141) (KV m ρ c Cert.KernelIdeal.main_v121)
          (KV m ρ c Cert.KernelIdeal.main_v124) (KV m ρ c Cert.KernelIdeal.main_v126) (KV m ρ c Cert.KernelIdeal.main_v129) := by
  have h40 := (Cert.KernelIdeal.Keep.toEnd_34 m ρ c Cert.KernelIdeal.main_v136 (by decide +kernel))
  have h44 := (Cert.KernelIdeal.Keep.toEnd_34 m ρ c Cert.KernelIdeal.main_v140 (by decide +kernel))
  have h45 := (Cert.KernelIdeal.Keep.toEnd_34 m ρ c Cert.KernelIdeal.main_v141 (by decide +kernel))
  have h25 := (Cert.KernelIdeal.Keep.toEnd_34 m ρ c Cert.KernelIdeal.main_v121 (by decide +kernel))
  have h28 := (Cert.KernelIdeal.Keep.toEnd_34 m ρ c Cert.KernelIdeal.main_v124 (by decide +kernel))
  have h30 := (Cert.KernelIdeal.Keep.toEnd_34 m ρ c Cert.KernelIdeal.main_v126 (by decide +kernel))
  have h33 := (Cert.KernelIdeal.Keep.toEnd_34 m ρ c Cert.KernelIdeal.main_v129 (by decide +kernel))
  have e := (Cert.KernelIdeal.Gen.W35_arr (F := Ideal) m ρ c 7).trans (mlp2_value2_2 (Cert.KernelIdeal.Gen.V34 (F := Ideal) m ρ) c)
  calc KV m ρ c Cert.KernelIdeal.main_v142
      = Cert.KernelIdeal.Gen.W35 m ρ c (Proc.devRef .tc Cert.KernelIdeal.main_v142) := (Cert.KernelIdeal.Keep.toEnd_35 m ρ c Cert.KernelIdeal.main_v142 (by decide +kernel)).symm
    _ = mlp2Arr 100000 (Cert.KernelIdeal.Gen.W34 m ρ c (Proc.devRef .tc Cert.KernelIdeal.main_v136)) (Cert.KernelIdeal.Gen.W34 m ρ c (Proc.devRef .tc Cert.KernelIdeal.main_v140))
          (Cert.KernelIdeal.Gen.W34 m ρ c (Proc.devRef .tc Cert.KernelIdeal.main_v141)) (Cert.KernelIdeal.Gen.W34 m ρ c (Proc.devRef .tc Cert.KernelIdeal.main_v121)) (Cert.KernelIdeal.Gen.W34 m ρ c (Proc.devRef .tc Cert.KernelIdeal.main_v124))
          (Cert.KernelIdeal.Gen.W34 m ρ c (Proc.devRef .tc Cert.KernelIdeal.main_v126)) (Cert.KernelIdeal.Gen.W34 m ρ c (Proc.devRef .tc Cert.KernelIdeal.main_v129)) := e
    _ = _ := by rw [h40, h44, h45, h25, h28, h30, h33]

/-- The scale: column k of the kernel program's row is entry k of the reference's vector. -/
theorem mlp2_param_g_2 (hag : Agree m m') (c : Dev Cert.KernelIdeal.nD) (k : Fin 64) :
    (KV m ρ c Cert.KernelIdeal.main_v121 : Vec Ideal Cert.KernelIdeal.S1x64 .f32) (ix2 (0 : Fin 1) k) = (RV m' c Cert.ReferenceIdeal.main_v229 : Vec Ideal Cert.ReferenceIdeal.S64 .f32) (ix1 k) := by
  have hK := mlp2_K_g_read_2 (Cert.KernelIdeal.Gen.W30 m ρ c) (KV m ρ c Cert.KernelIdeal.main_arg9) (KV m ρ c Cert.KernelIdeal.main_v121)
    (Cert.KernelIdeal.Keep.toEnd_30 m ρ c Cert.KernelIdeal.main_arg9 (by decide +kernel)) (Cert.KernelIdeal.Keep.toEnd_31 m ρ c Cert.KernelIdeal.main_v121 (by decide +kernel)) k
  have hR := mlp2_R_g_read_2 (R22 m' c) (RV m' c Cert.ReferenceIdeal.main_arg9) (RV m' c Cert.ReferenceIdeal.main_v229)
    (Cert.ReferenceIdeal.Keep.toEnd_22 m' c Cert.ReferenceIdeal.main_arg9 (by decide +kernel)) (Cert.ReferenceIdeal.Keep.toEnd_23 m' c Cert.ReferenceIdeal.main_v229 (by decide +kernel)) k
  rw [(mlp2_args m ρ m' hag c).1] at hR
  exact hK.trans hR.symm

/-- The shift likewise. -/
theorem mlp2_param_be_2 (hag : Agree m m') (c : Dev Cert.KernelIdeal.nD) (k : Fin 64) :
    (KV m ρ c Cert.KernelIdeal.main_v124 : Vec Ideal Cert.KernelIdeal.S1x64 .f32) (ix2 (0 : Fin 1) k) = (RV m' c Cert.ReferenceIdeal.main_v231 : Vec Ideal Cert.ReferenceIdeal.S64 .f32) (ix1 k) := by
  have hK := mlp2_K_be_read_2 (Cert.KernelIdeal.Gen.W30 m ρ c) (KV m ρ c Cert.KernelIdeal.main_arg10) (KV m ρ c Cert.KernelIdeal.main_v124)
    (Cert.KernelIdeal.Keep.toEnd_30 m ρ c Cert.KernelIdeal.main_arg10 (by decide +kernel)) (Cert.KernelIdeal.Keep.toEnd_31 m ρ c Cert.KernelIdeal.main_v124 (by decide +kernel)) k
  have hR := mlp2_R_be_read_2 (R22 m' c) (RV m' c Cert.ReferenceIdeal.main_arg10) (RV m' c Cert.ReferenceIdeal.main_v231)
    (Cert.ReferenceIdeal.Keep.toEnd_22 m' c Cert.ReferenceIdeal.main_arg10 (by decide +kernel)) (Cert.ReferenceIdeal.Keep.toEnd_23 m' c Cert.ReferenceIdeal.main_v231 (by decide +kernel)) k
  rw [(mlp2_args m ρ m' hag c).2.1] at hR
  exact hK.trans hR.symm

/-- The weight matrices agree entry by entry. -/
theorem mlp2_param_W_2 (hag : Agree m m') (c : Dev Cert.KernelIdeal.nD) (k q : Fin 64) :
    (KV m ρ c Cert.KernelIdeal.main_v126 : Vec Ideal Cert.KernelIdeal.S64x64 .f32) (ix2 k q) = (RV m' c Cert.ReferenceIdeal.main_v253 : Vec Ideal Cert.ReferenceIdeal.S64x64 .f32) (ix2 k q) := by
  have hK := mlp2_K_W_read_2 (Cert.KernelIdeal.Gen.W30 m ρ c) (KV m ρ c Cert.KernelIdeal.main_arg11) (KV m ρ c Cert.KernelIdeal.main_v126)
    (Cert.KernelIdeal.Keep.toEnd_30 m ρ c Cert.KernelIdeal.main_arg11 (by decide +kernel)) (Cert.KernelIdeal.Keep.toEnd_31 m ρ c Cert.KernelIdeal.main_v126 (by decide +kernel)) k q
  have hR := mlp2_R_W_read_2 (R26 m' c) (RV m' c Cert.ReferenceIdeal.main_arg11) (RV m' c Cert.ReferenceIdeal.main_v253)
    (Cert.ReferenceIdeal.Keep.toEnd_26 m' c Cert.ReferenceIdeal.main_arg11 (by decide +kernel)) (Cert.ReferenceIdeal.Keep.toEnd_27 m' c Cert.ReferenceIdeal.main_v253 (by decide +kernel)) k q
  rw [(mlp2_args m ρ m' hag c).2.2.1] at hR
  exact hK.trans hR.symm

/-- The bias: column q of the kernel program's row is entry q of the reference's vector. -/
theorem mlp2_param_b_2 (hag : Agree m m') (c : Dev Cert.KernelIdeal.nD) (q : Fin 64) :
    (KV m ρ c Cert.KernelIdeal.main_v129 : Vec Ideal Cert.KernelIdeal.S1x64 .f32) (ix2 (0 : Fin 1) q) = (RV m' c Cert.ReferenceIdeal.main_v256 : Vec Ideal Cert.ReferenceIdeal.S64 .f32) (ix1 q) := by
  have hK := mlp2_K_b_read_2 (Cert.KernelIdeal.Gen.W30 m ρ c) (KV m ρ c Cert.KernelIdeal.main_arg12) (KV m ρ c Cert.KernelIdeal.main_v129)
    (Cert.KernelIdeal.Keep.toEnd_30 m ρ c Cert.KernelIdeal.main_arg12 (by decide +kernel)) (Cert.KernelIdeal.Keep.toEnd_31 m ρ c Cert.KernelIdeal.main_v129 (by decide +kernel)) q
  have hR := mlp2_R_b_read_2 (R26 m' c) (RV m' c Cert.ReferenceIdeal.main_arg12) (RV m' c Cert.ReferenceIdeal.main_v256)
    (Cert.ReferenceIdeal.Keep.toEnd_26 m' c Cert.ReferenceIdeal.main_arg12 (by decide +kernel)) (Cert.ReferenceIdeal.Keep.toEnd_27 m' c Cert.ReferenceIdeal.main_v256 (by decide +kernel)) q
  rw [(mlp2_args m ρ m' hag c).2.2.2] at hR
  exact hK.trans hR.symm

/-- THE REFERENCE'S SIDE: entry (p, q) of its second linear layer's result, from what its buffers end holding. -/
theorem mlp2_R_z2_2 (c : Dev Cert.ReferenceIdeal.nD) (p : Fin 100000) (q : Fin 64) :
    (RV m' c Cert.ReferenceIdeal.main_v259 : Vec Ideal Cert.ReferenceIdeal.S100000x64 .f32) (ix2 p q)
      = mlp2Val (fun k => (RV m' c Cert.ReferenceIdeal.main_v227 : Vec Ideal Cert.ReferenceIdeal.S100000x64 .f32) (ix2 p k)) (fun k => (RV m' c Cert.ReferenceIdeal.main_v234 : Vec Ideal Cert.ReferenceIdeal.S64 .f32) (ix1 k))
          (fun k => (RV m' c Cert.ReferenceIdeal.main_v235 : Vec Ideal Cert.ReferenceIdeal.S64 .f32) (ix1 k)) (fun k => (RV m' c Cert.ReferenceIdeal.main_v229 : Vec Ideal Cert.ReferenceIdeal.S64 .f32) (ix1 k))
          (fun k => (RV m' c Cert.ReferenceIdeal.main_v231 : Vec Ideal Cert.ReferenceIdeal.S64 .f32) (ix1 k)) (fun k => (RV m' c Cert.ReferenceIdeal.main_v253 : Vec Ideal Cert.ReferenceIdeal.S64x64 .f32) (ix2 k q))
          ((RV m' c Cert.ReferenceIdeal.main_v256 : Vec Ideal Cert.ReferenceIdeal.S64 .f32) (ix1 q)) := by
  have e7 := mlp2_R_lin_read_2 (R26 m' c) (R26 m' c (Proc.devRef .tc Cert.ReferenceIdeal.main_v251)) (RV m' c Cert.ReferenceIdeal.main_v259) (RV m' c Cert.ReferenceIdeal.main_v253) (RV m' c Cert.ReferenceIdeal.main_v256)
    rfl (Cert.ReferenceIdeal.Keep.toEnd_27 m' c Cert.ReferenceIdeal.main_v253 (by decide +kernel)) (Cert.ReferenceIdeal.Keep.toEnd_27 m' c Cert.ReferenceIdeal.main_v256 (by decide +kernel)) (Cert.ReferenceIdeal.Keep.toEnd_27 m' c Cert.ReferenceIdeal.main_v259 (by decide +kernel)) p q
  have e6 := fun k : Fin 64 => mlp2_R_relu_read_2 (R25 m' c) (R25 m' c (Proc.devRef .tc Cert.ReferenceIdeal.main_v250)) (R26 m' c (Proc.devRef .tc Cert.ReferenceIdeal.main_v251)) rfl rfl p k
  have e5 := fun k : Fin 64 => mlp2_R_bn_read_2 (R24 m' c) (RV m' c Cert.ReferenceIdeal.main_v227) (RV m' c Cert.ReferenceIdeal.main_v234) (RV m' c Cert.ReferenceIdeal.main_v235)
    (RV m' c Cert.ReferenceIdeal.main_v229) (RV m' c Cert.ReferenceIdeal.main_v231) (R25 m' c (Proc.devRef .tc Cert.ReferenceIdeal.main_v250))
    (Cert.ReferenceIdeal.Keep.toEnd_24 m' c Cert.ReferenceIdeal.main_v227 (by decide +kernel)) (Cert.ReferenceIdeal.Keep.toEnd_24 m' c Cert.ReferenceIdeal.main_v234 (by decide +kernel)) (Cert.ReferenceIdeal.Keep.toEnd_24 m' c Cert.ReferenceIdeal.main_v235 (by decide +kernel)) (Cert.ReferenceIdeal.Keep.toEnd_24 m' c Cert.ReferenceIdeal.main_v229 (by decide +kernel)) (Cert.ReferenceIdeal.Keep.toEnd_24 m' c Cert.ReferenceIdeal.main_v231 (by decide +kernel)) rfl p k
  refine e7.trans ?_
  unfold mlp2Val
  refine congrFun (congrArg HAdd.hAdd ?_) _
  exact Finset.sum_congr rfl fun k _ => by rw [e6 k, e5 k]

/-- SECOND LINEAR LAYER OF GRAPH LAYER 2. Where the two programs leave the same first linear layer's result and
    corresponding first statistics, they leave the same second linear layer's result. -/
theorem corr_z2_2 (hag : Agree m m') (c : Dev Cert.KernelIdeal.nD)
    (hz : KV m ρ c Cert.KernelIdeal.main_v136 = RV m' c Cert.ReferenceIdeal.main_v227)
    (hst : (∀ j : Fin 64, (KV m ρ c Cert.KernelIdeal.main_v140 : Vec Ideal Cert.KernelIdeal.S1x64 .f32) (ix2 (0 : Fin 1) j) = (RV m' c Cert.ReferenceIdeal.main_v234 : Vec Ideal Cert.ReferenceIdeal.S64 .f32) (ix1 j))
      ∧ (∀ j : Fin 64, (KV m ρ c Cert.KernelIdeal.main_v141 : Vec Ideal Cert.KernelIdeal.S1x64 .f32) (ix2 (0 : Fin 1) j) = (RV m' c Cert.ReferenceIdeal.main_v235 : Vec Ideal Cert.ReferenceIdeal.S64 .f32) (ix1 j))) :
    KV m ρ c Cert.KernelIdeal.main_v142 = RV m' c Cert.ReferenceIdeal.main_v259 := by
  rw [mlp2_K_z2_2 m ρ c]
  funext i
  rw [eq_ix2 (n0 := 100000) (n1 := 64) i]
  refine Eq.trans ?_ (mlp2_R_z2_2 m' c (i 0) (i 1)).symm
  refine mlp2Val_congr (fun k => ?_) hst.1 hst.2 (fun k => mlp2_param_g_2 m ρ m' hag c k)
    (fun k => mlp2_param_be_2 m ρ m' hag c k) (fun k => mlp2_param_W_2 m ρ m' hag c k (i 1)) (mlp2_param_b_2 m ρ m' hag c (i 1))
  show KV m ρ c Cert.KernelIdeal.main_v136 (ix2 (i 0) k) = RV m' c Cert.ReferenceIdeal.main_v227 (ix2 (i 0) k)
  rw [hz]

end Bridge

end Cert.Bridge

end
-- ==== Proof.Bridge.Mlp2_L3.lean ====
/- The second perceptron layer of graph layer 3: what the kernel program's fifteenth pallas_call leaves in its output array,
   as one function of the arrays it reads, and that this is what the reference's host operations leave in the
   corresponding buffer.

   The kernel computes the layer block of 5000 rows by block; the reference on whole arrays. Both do the same operations
   in the same order, so nothing beyond reading each side at an index is used: the body's stored block at an index, the
   blocks tiling the array, each program's parameters as the same rows of the same arguments, and the reference's three
   stretches of host operations read one after the other. -/
import proofs.«417278_j53197464928922_1_alg».proof.Proof.Bridge.Mlp2Shared

set_option maxRecDepth 16384

noncomputable section

namespace Cert.Bridge

open Idealize.ShloMosaic Idealize.ShloMosaic.TcCoe Idealize.SL.Sem
open Idealize.ShloMosaic.ValueIdx
open Idealize.ShloMosaic.Pipeline (Dat)
open scoped BigOperators

/-! ## The kernel's stored block at an index -/

/-- The body's stored value at (p, q) of its block, from the blocks it loads: the layer's entry from row p of the
    input block. -/
theorem mlp2_pay_apply_3 (x0 : Vec Ideal Cert.KernelIdeal.S5000x64 .f32) (x1 x2 x3 x4 : Vec Ideal Cert.KernelIdeal.S1x64 .f32)
    (x5 : Vec Ideal Cert.KernelIdeal.S64x64 .f32) (x6 : Vec Ideal Cert.KernelIdeal.S1x64 .f32) (p : Fin 5000) (q : Fin 64) :
    Cert.KernelIdeal.Gen.k14_pay1 (F := Ideal) x0 x1 x2 x3 x4 x5 x6 (ix2 p q)
      = mlp2Val (fun k => x0 (ix2 p k)) (fun k => x1 (ix2 (0 : Fin 1) k)) (fun k => x2 (ix2 (0 : Fin 1) k))
          (fun k => x3 (ix2 (0 : Fin 1) k)) (fun k => x4 (ix2 (0 : Fin 1) k)) (fun k => x5 (ix2 k q)) (x6 (ix2 (0 : Fin 1) q)) := by
  unfold Cert.KernelIdeal.Gen.k14_pay1 mlp2Val
  simp only [shapeCast_self]
  rw [addf_apply, mlp2_matmul_apply, broadcastTo_1b_ab_apply]
  refine congrArg (· + x6 (ix2 (0 : Fin 1) q)) (Finset.sum_congr rfl fun k _ => ?_)
  simp only [truncf_apply, maximumf_apply, addf_apply, mulf_apply, subf_apply, broadcastTo_1b_ab_apply, broadcast_apply]
  rfl

/-- As arrays: the body's stored block is the layer on the 5000 rows of the input block. -/
theorem mlp2_pay_eq_3 (x0 : Vec Ideal Cert.KernelIdeal.S5000x64 .f32) (x1 x2 x3 x4 : Vec Ideal Cert.KernelIdeal.S1x64 .f32)
    (x5 : Vec Ideal Cert.KernelIdeal.S64x64 .f32) (x6 : Vec Ideal Cert.KernelIdeal.S1x64 .f32) :
    Cert.KernelIdeal.Gen.k14_pay1 (F := Ideal) x0 x1 x2 x3 x4 x5 x6 = mlp2Arr 5000 x0 x1 x2 x3 x4 x5 x6 := by
  funext j
  rw [eq_ix2 j]
  exact mlp2_pay_apply_3 x0 x1 x2 x3 x4 x5 x6 (j 0) (j 1)

/-! ## What the pallas_call leaves in its output array -/

section Region

variable (V : (c : Dev Cert.KernelIdeal.nD) → (b : Ref Cert.KernelIdeal.sig .tc) → Buf (Elt Ideal) ((c : Thread Cert.KernelIdeal.nD Cert.KernelIdeal.τ).loc b))

/-- The printed index maps over the 20 grid points: the input and the output move together down the rows, block t at
    point t; every other window stays at its one block. -/
theorem mlp2_idx_facts_3 : ∀ t : Fin Cert.KernelIdeal.cfg14.N,
    Cert.KernelIdeal.win14_0.index t (0 : Fin 2) = Cert.KernelIdeal.win14_7.index t (0 : Fin 2) ∧ Cert.KernelIdeal.win14_0.index t (1 : Fin 2) = 0
    ∧ Cert.KernelIdeal.win14_7.index t (1 : Fin 2) = 0
    ∧ Cert.KernelIdeal.win14_1.index t (0 : Fin 2) = 0 ∧ Cert.KernelIdeal.win14_1.index t (1 : Fin 2) = 0
    ∧ Cert.KernelIdeal.win14_2.index t (0 : Fin 2) = 0 ∧ Cert.KernelIdeal.win14_2.index t (1 : Fin 2) = 0
    ∧ Cert.KernelIdeal.win14_3.index t (0 : Fin 2) = 0 ∧ Cert.KernelIdeal.win14_3.index t (1 : Fin 2) = 0
    ∧ Cert.KernelIdeal.win14_4.index t (0 : Fin 2) = 0 ∧ Cert.KernelIdeal.win14_4.index t (1 : Fin 2) = 0
    ∧ Cert.KernelIdeal.win14_5.index t (0 : Fin 2) = 0 ∧ Cert.KernelIdeal.win14_5.index t (1 : Fin 2) = 0
    ∧ Cert.KernelIdeal.win14_6.index t (0 : Fin 2) = 0 ∧ Cert.KernelIdeal.win14_6.index t (1 : Fin 2) = 0 :=
  (by decide +kernel : ∀ t : Fin Cert.KernelIdeal.grid14.N, _)

/-- Every block of 5000 rows is some point's. -/
theorem mlp2_idx_onto_3 : ∀ q0 : Fin 20, ∃ t : Fin Cert.KernelIdeal.cfg14.N,
    Cert.KernelIdeal.win14_7.index t (0 : Fin 2) = q0.val ∧ Cert.KernelIdeal.win14_7.index t (1 : Fin 2) = 0 :=
  (by decide +kernel : ∀ q0 : Fin 20, ∃ t : Fin Cert.KernelIdeal.grid14.N,
    Cert.KernelIdeal.win14_7.index t (0 : Fin 2) = q0.val ∧ Cert.KernelIdeal.win14_7.index t (1 : Fin 2) = 0)

/-- A window whose one block is its whole [1,64] array holds that array at every point. -/
theorem mlp2_iblk_row_3 (c : Dev Cert.KernelIdeal.nD) (t : Fin Cert.KernelIdeal.cfg14.N) :
    (Cert.KernelIdeal.Gen.iblk14 (F := Ideal) V c 1 t : Vec Ideal Cert.KernelIdeal.S1x64 .f32) = V c Cert.KernelIdeal.main_v188
    ∧ (Cert.KernelIdeal.Gen.iblk14 (F := Ideal) V c 2 t : Vec Ideal Cert.KernelIdeal.S1x64 .f32) = V c Cert.KernelIdeal.main_v189
    ∧ (Cert.KernelIdeal.Gen.iblk14 (F := Ideal) V c 3 t : Vec Ideal Cert.KernelIdeal.S1x64 .f32) = V c Cert.KernelIdeal.main_v169
    ∧ (Cert.KernelIdeal.Gen.iblk14 (F := Ideal) V c 4 t : Vec Ideal Cert.KernelIdeal.S1x64 .f32) = V c Cert.KernelIdeal.main_v172
    ∧ (Cert.KernelIdeal.Gen.iblk14 (F := Ideal) V c 5 t : Vec Ideal Cert.KernelIdeal.S64x64 .f32) = V c Cert.KernelIdeal.main_v174
    ∧ (Cert.KernelIdeal.Gen.iblk14 (F := Ideal) V c 6 t : Vec Ideal Cert.KernelIdeal.S1x64 .f32) = V c Cert.KernelIdeal.main_v177 := by
  obtain ⟨-, -, -, e10, e11, e20, e21, e30, e31, e40, e41, e50, e51, e60, e61⟩ := mlp2_idx_facts_3 t
  refine ⟨funext fun y => ?_, funext fun y => ?_, funext fun y => ?_, funext fun y => ?_, funext fun y => ?_, funext fun y => ?_⟩
  · show V c Cert.KernelIdeal.main_v188 (((Cert.KernelIdeal.cfg14.win 1).blk t).view.emb y) = V c Cert.KernelIdeal.main_v188 y
    refine congrArg (V c Cert.KernelIdeal.main_v188) (funext fun a => Fin.ext ?_)
    match a with
    | ⟨0, _⟩ => show Cert.KernelIdeal.win14_1.index t (0 : Fin 2) * 1 + 1 * (y 0).val = (y 0).val; omega
    | ⟨1, _⟩ => show Cert.KernelIdeal.win14_1.index t (1 : Fin 2) * 64 + 1 * (y 1).val = (y 1).val; omega
  · show V c Cert.KernelIdeal.main_v189 (((Cert.KernelIdeal.cfg14.win 2).blk t).view.emb y) = V c Cert.KernelIdeal.main_v189 y
    refine congrArg (V c Cert.KernelIdeal.main_v189) (funext fun a => Fin.ext ?_)
    match a with
    | ⟨0, _⟩ => show Cert.KernelIdeal.win14_2.index t (0 : Fin 2) * 1 + 1 * (y 0).val = (y 0).val; omega
    | ⟨1, _⟩ => show Cert.KernelIdeal.win14_2.index t (1 : Fin 2) * 64 + 1 * (y 1).val = (y 1).val; omega
  · show V c Cert.KernelIdeal.main_v169 (((Cert.KernelIdeal.cfg14.win 3).blk t).view.emb y) = V c Cert.KernelIdeal.main_v169 y
    refine congrArg (V c Cert.KernelIdeal.main_v169) (funext fun a => Fin.ext ?_)
    match a with
    | ⟨0, _⟩ => show Cert.KernelIdeal.win14_3.index t (0 : Fin 2) * 1 + 1 * (y 0).val = (y 0).val; omega
    | ⟨1, _⟩ => show Cert.KernelIdeal.win14_3.index t (1 : Fin 2) * 64 + 1 * (y 1).val = (y 1).val; omega
  · show V c Cert.KernelIdeal.main_v172 (((Cert.KernelIdeal.cfg14.win 4).blk t).view.emb y) = V c Cert.KernelIdeal.main_v172 y
    refine congrArg (V c Cert.KernelIdeal.main_v172) (funext fun a => Fin.ext ?_)
    match a with
    | ⟨0, _⟩ => show Cert.KernelIdeal.win14_4.index t (0 : Fin 2) * 1 + 1 * (y 0).val = (y 0).val; omega
    | ⟨1, _⟩ => show Cert.KernelIdeal.win14_4.index t (1 : Fin 2) * 64 + 1 * (y 1).val = (y 1).val; omega
  · show V c Cert.KernelIdeal.main_v174 (((Cert.KernelIdeal.cfg14.win 5).blk t).view.emb y) = V c Cert.KernelIdeal.main_v174 y
    refine congrArg (V c Cert.KernelIdeal.main_v174) (funext fun a => Fin.ext ?_)
    match a with
    | ⟨0, _⟩ => show Cert.KernelIdeal.win14_5.index t (0 : Fin 2) * 64 + 1 * (y 0).val = (y 0).val; omega
    | ⟨1, _⟩ => show Cert.KernelIdeal.win14_5.index t (1 : Fin 2) * 64 + 1 * (y 1).val = (y 1).val; omega
  · show V c Cert.KernelIdeal.main_v177 (((Cert.KernelIdeal.cfg14.win 6).blk t).view.emb y) = V c Cert.KernelIdeal.main_v177 y
    refine congrArg (V c Cert.KernelIdeal.main_v177) (funext fun a => Fin.ext ?_)
    match a with
    | ⟨0, _⟩ => show Cert.KernelIdeal.win14_6.index t (0 : Fin 2) * 1 + 1 * (y 0).val = (y 0).val; omega
    | ⟨1, _⟩ => show Cert.KernelIdeal.win14_6.index t (1 : Fin 2) * 64 + 1 * (y 1).val = (y 1).val; omega

/-- What point t writes back is block t of the layer on the whole input array. -/
theorem mlp2_flushed_eq_3 (c : Dev Cert.KernelIdeal.nD) (t : Fin Cert.KernelIdeal.cfg14.N) :
    (Cert.KernelIdeal.Gen.dat14 (F := Ideal) V c).flushed 7 t
      = ((Cert.KernelIdeal.cfg14.win 7).blk t).view.read (Elt Ideal)
          (mlp2Arr 100000 (V c Cert.KernelIdeal.main_v184) (V c Cert.KernelIdeal.main_v188) (V c Cert.KernelIdeal.main_v189) (V c Cert.KernelIdeal.main_v169) (V c Cert.KernelIdeal.main_v172)
            (V c Cert.KernelIdeal.main_v174) (V c Cert.KernelIdeal.main_v177)) := by
  show (Cert.KernelIdeal.cfg14.win 7).cut (Cert.KernelIdeal.grid14.coords t) ((Cert.KernelIdeal.Gen.dat14 (F := Ideal) V c).after 7 t) = _
  rw [Cert.KernelIdeal.Gen.after14_7]
  unfold Cert.KernelIdeal.Gen.out14_7
  rw [View.canon_unit_zero mlp2_hz]
  simp only [View.ld_unit_zero (S := Cert.KernelIdeal.S5000x64) mlp2_hz, View.ld_unit_zero (S := Cert.KernelIdeal.S1x64) mlp2_hz,
    View.ld_unit_zero (S := Cert.KernelIdeal.S64x64) mlp2_hz]
  obtain ⟨h1, h2, h3, h4, h5, h6⟩ := mlp2_iblk_row_3 V c t
  rw [mlp2_pay_eq_3, h1, h2, h3, h4, h5, h6]
  obtain ⟨e00, e01, e71, -⟩ := mlp2_idx_facts_3 t
  funext j
  show mlp2Arr 5000 (Cert.KernelIdeal.Gen.iblk14 (F := Ideal) V c 0 t) (V c Cert.KernelIdeal.main_v188) (V c Cert.KernelIdeal.main_v189) (V c Cert.KernelIdeal.main_v169) (V c Cert.KernelIdeal.main_v172)
        (V c Cert.KernelIdeal.main_v174) (V c Cert.KernelIdeal.main_v177) j
      = mlp2Arr 100000 (V c Cert.KernelIdeal.main_v184) (V c Cert.KernelIdeal.main_v188) (V c Cert.KernelIdeal.main_v189) (V c Cert.KernelIdeal.main_v169) (V c Cert.KernelIdeal.main_v172)
        (V c Cert.KernelIdeal.main_v174) (V c Cert.KernelIdeal.main_v177) (((Cert.KernelIdeal.cfg14.win 7).blk t).view.emb j)
  unfold mlp2Arr
  have hq : (((Cert.KernelIdeal.cfg14.win 7).blk t).view.emb j 1 : Fin 64) = (j 1 : Fin 64) := Fin.ext (by
    show Cert.KernelIdeal.win14_7.index t (1 : Fin 2) * 64 + 1 * (j 1).val = (j 1).val; omega)
  have hz : ∀ k : Fin 64, (Cert.KernelIdeal.Gen.iblk14 (F := Ideal) V c 0 t : Vec Ideal Cert.KernelIdeal.S5000x64 .f32) (ix2 (j 0) k)
      = V c Cert.KernelIdeal.main_v184 (ix2 (((Cert.KernelIdeal.cfg14.win 7).blk t).view.emb j 0) k) := fun k => by
    show V c Cert.KernelIdeal.main_v184 (((Cert.KernelIdeal.cfg14.win 0).blk t).view.emb (ix2 (j 0) k)) = _
    refine congrArg (V c Cert.KernelIdeal.main_v184) (funext fun a => Fin.ext ?_)
    match a with
    | ⟨0, _⟩ => show Cert.KernelIdeal.win14_0.index t (0 : Fin 2) * 5000 + 1 * (j 0).val = Cert.KernelIdeal.win14_7.index t (0 : Fin 2) * 5000 + 1 * (j 0).val; omega
    | ⟨1, _⟩ => show Cert.KernelIdeal.win14_0.index t (1 : Fin 2) * 64 + 1 * k.val = k.val; omega
  show mlp2Val (fun k => (Cert.KernelIdeal.Gen.iblk14 (F := Ideal) V c 0 t : Vec Ideal Cert.KernelIdeal.S5000x64 .f32) (ix2 (j 0) k)) _ _ _ _
      (fun k => V c Cert.KernelIdeal.main_v174 (ix2 k (j 1))) (V c Cert.KernelIdeal.main_v177 (ix2 (0 : Fin 1) (j 1))) = _
  rw [funext hz]
  show _ = mlp2Val _ _ _ _ _ (fun k => V c Cert.KernelIdeal.main_v174 (ix2 k (((Cert.KernelIdeal.cfg14.win 7).blk t).view.emb j 1)))
      (V c Cert.KernelIdeal.main_v177 (ix2 (0 : Fin 1) (((Cert.KernelIdeal.cfg14.win 7).blk t).view.emb j 1)))
  rw [hq]

/-- An index of the output array is in point t's block iff each coordinate is in the block's range on its axis. -/
theorem mlp2_mem_blk_3 (t : Fin Cert.KernelIdeal.cfg14.N) (i : Cert.KernelIdeal.S100000x64.Idx) :
    i ∈ ((Cert.KernelIdeal.cfg14.win 7).blk t).view.set ↔ ∀ a : Fin 2, Cert.KernelIdeal.win14_7.index t a * Cert.KernelIdeal.S5000x64.size a ≤ (i a).val
      ∧ (i a).val < Cert.KernelIdeal.win14_7.index t a * Cert.KernelIdeal.S5000x64.size a + Cert.KernelIdeal.S5000x64.size a := by
  show i ∈ ((View.whole Cert.KernelIdeal.main_v190).slice (Cert.KernelIdeal.win14_7.rect t)).set ↔ _
  rw [View.set_slice_whole, Rect.mem_set_unit]
  exact Iff.rfl

/-- THE OUTPUT ARRAY after the pallas_call: the layer on the arrays the call finds in its seven input buffers. -/
theorem mlp2_value2_3 (c : Dev Cert.KernelIdeal.nD) :
    (Cert.KernelIdeal.Gen.dat14 (F := Ideal) V c).arrAt 7 Cert.KernelIdeal.cfg14.N
      = mlp2Arr 100000 (V c Cert.KernelIdeal.main_v184) (V c Cert.KernelIdeal.main_v188) (V c Cert.KernelIdeal.main_v189) (V c Cert.KernelIdeal.main_v169) (V c Cert.KernelIdeal.main_v172)
          (V c Cert.KernelIdeal.main_v174) (V c Cert.KernelIdeal.main_v177) :=
  (Cert.KernelIdeal.Gen.dat14 (F := Ideal) V c).arrAt_eq_of_cover 7 _ (fun t _ => mlp2_flushed_eq_3 V c t) fun i => by
    have hi0 : (i 0).val < 100000 := (i 0).isLt
    have hi1 : (i 1).val < 64 := (i 1).isLt
    obtain ⟨t, ht0, ht1⟩ := mlp2_idx_onto_3 ⟨(i 0).val / 5000, by omega⟩
    refine ⟨t, Cert.KernelIdeal.Gen.flush14_7 t, ?_⟩
    rw [mlp2_mem_blk_3]
    intro a
    match a with
    | ⟨0, _⟩ =>
      show Cert.KernelIdeal.win14_7.index t (0 : Fin 2) * 5000 ≤ (i 0).val ∧ (i 0).val < Cert.KernelIdeal.win14_7.index t (0 : Fin 2) * 5000 + 5000
      rw [ht0]; show (i 0).val / 5000 * 5000 ≤ (i 0).val ∧ (i 0).val < (i 0).val / 5000 * 5000 + 5000; omega
    | ⟨1, _⟩ =>
      show Cert.KernelIdeal.win14_7.index t (1 : Fin 2) * 64 ≤ (i 1).val ∧ (i 1).val < Cert.KernelIdeal.win14_7.index t (1 : Fin 2) * 64 + 64
      omega

end Region

/-! ## The two programs' parameters: slices of the same arguments -/

section Reads

/-- The kernel program's scale row `g`: two reshapes of row 0 of its argument 9. -/
theorem mlp2_K_g_read_3 (W : Valuation Cert.KernelIdeal.τ Cert.KernelIdeal.sig (Elt Ideal)) (a : Vec Ideal Cert.KernelIdeal.S4x64 .f32) (g : Vec Ideal Cert.KernelIdeal.S1x64 .f32)
    (ha : W (Proc.devRef .tc Cert.KernelIdeal.main_arg9) = a) (hg : StableHlo.after (Cert.KernelIdeal.Gen.hostOps13 (F := Ideal)) W (Proc.devRef .tc Cert.KernelIdeal.main_v169) = g) (k : Fin 64) :
    g (ix2 (0 : Fin 1) k) = extractStridedSlice Cert.KernelIdeal.S1x64 _ a Cert.KernelIdeal.Gen.slices_S4x64_S1x64_3_0 (ix2 (0 : Fin 1) k) := by
  subst hg ha
  after_results
  show shapeCast Cert.KernelIdeal.S1x64 (shapeCast Cert.KernelIdeal.S64 (extractStridedSlice Cert.KernelIdeal.S1x64 _ (W (Proc.devRef .tc Cert.KernelIdeal.main_arg9) : Vec Ideal Cert.KernelIdeal.S4x64 .f32) Cert.KernelIdeal.Gen.slices_S4x64_S1x64_3_0) Cert.KernelIdeal.Gen.shapeCasts_S1x64_S64) Cert.KernelIdeal.Gen.shapeCasts_S64_S1x64 (ix2 (0 : Fin 1) k) = _
  rw [shapeCast_a_1a_apply, shapeCast_1a_a_apply]

/-- The kernel program's shift row: two reshapes of row 0 of its argument 10. -/
theorem mlp2_K_be_read_3 (W : Valuation Cert.KernelIdeal.τ Cert.KernelIdeal.sig (Elt Ideal)) (a : Vec Ideal Cert.KernelIdeal.S4x64 .f32) (g : Vec Ideal Cert.KernelIdeal.S1x64 .f32)
    (ha : W (Proc.devRef .tc Cert.KernelIdeal.main_arg10) = a) (hg : StableHlo.after (Cert.KernelIdeal.Gen.hostOps13 (F := Ideal)) W (Proc.devRef .tc Cert.KernelIdeal.main_v172) = g) (k : Fin 64) :
    g (ix2 (0 : Fin 1) k) = extractStridedSlice Cert.KernelIdeal.S1x64 _ a Cert.KernelIdeal.Gen.slices_S4x64_S1x64_3_0 (ix2 (0 : Fin 1) k) := by
  subst hg ha
  after_results
  show shapeCast Cert.KernelIdeal.S1x64 (shapeCast Cert.KernelIdeal.S64 (extractStridedSlice Cert.KernelIdeal.S1x64 _ (W (Proc.devRef .tc Cert.KernelIdeal.main_arg10) : Vec Ideal Cert.KernelIdeal.S4x64 .f32) Cert.KernelIdeal.Gen.slices_S4x64_S1x64_3_0) Cert.KernelIdeal.Gen.shapeCasts_S1x64_S64) Cert.KernelIdeal.Gen.shapeCasts_S64_S1x64 (ix2 (0 : Fin 1) k) = _
  rw [shapeCast_a_1a_apply, shapeCast_1a_a_apply]

/-- The kernel program's weight matrix: the reshape of slab 0 of its argument 11. -/
theorem mlp2_K_W_read_3 (W : Valuation Cert.KernelIdeal.τ Cert.KernelIdeal.sig (Elt Ideal)) (a : Vec Ideal Cert.KernelIdeal.S4x64x64 .f32) (g : Vec Ideal Cert.KernelIdeal.S64x64 .f32)
    (ha : W (Proc.devRef .tc Cert.KernelIdeal.main_arg11) = a) (hg : StableHlo.after (Cert.KernelIdeal.Gen.hostOps13 (F := Ideal)) W (Proc.devRef .tc Cert.KernelIdeal.main_v174) = g) (k q : Fin 64) :
    g (ix2 k q) = extractStridedSlice Cert.KernelIdeal.S1x64x64 _ a Cert.KernelIdeal.Gen.slices_S4x64x64_S1x64x64_3_0_0 (ix3 (0 : Fin 1) k q) := by
  subst hg ha
  after_results
  show shapeCast Cert.KernelIdeal.S64x64 (extractStridedSlice Cert.KernelIdeal.S1x64x64 _ (W (Proc.devRef .tc Cert.KernelIdeal.main_arg11) : Vec Ideal Cert.KernelIdeal.S4x64x64 .f32) Cert.KernelIdeal.Gen.slices_S4x64x64_S1x64x64_3_0_0) Cert.KernelIdeal.Gen.shapeCasts_S1x64x64_S64x64 (ix2 k q) = _
  rw [shapeCast_1ab_ab_apply]

/-- The kernel program's bias row: two reshapes of row 0 of its argument 12. -/
theorem mlp2_K_b_read_3 (W : Valuation Cert.KernelIdeal.τ Cert.KernelIdeal.sig (Elt Ideal)) (a : Vec Ideal Cert.KernelIdeal.S4x64 .f32) (g : Vec Ideal Cert.KernelIdeal.S1x64 .f32)
    (ha : W (Proc.devRef .tc Cert.KernelIdeal.main_arg12) = a) (hg : StableHlo.after (Cert.KernelIdeal.Gen.hostOps13 (F := Ideal)) W (Proc.devRef .tc Cert.KernelIdeal.main_v177) = g) (q : Fin 64) :
    g (ix2 (0 : Fin 1) q) = extractStridedSlice Cert.KernelIdeal.S1x64 _ a Cert.KernelIdeal.Gen.slices_S4x64_S1x64_3_0 (ix2 (0 : Fin 1) q) := by
  subst hg ha
  after_results
  show shapeCast Cert.KernelIdeal.S1x64 (shapeCast Cert.KernelIdeal.S64 (extractStridedSlice Cert.KernelIdeal.S1x64 _ (W (Proc.devRef .tc Cert.KernelIdeal.main_arg12) : Vec Ideal Cert.KernelIdeal.S4x64 .f32) Cert.KernelIdeal.Gen.slices_S4x64_S1x64_3_0) Cert.KernelIdeal.Gen.shapeCasts_S1x64_S64) Cert.KernelIdeal.Gen.shapeCasts_S64_S1x64 (ix2 (0 : Fin 1) q) = _
  rw [shapeCast_a_1a_apply, shapeCast_1a_a_apply]

end Reads

section RefReads

/-- The reference's scale vector: the reshape of row 0 of its argument 9. -/
theorem mlp2_R_g_read_3 (W : Valuation Cert.ReferenceIdeal.τ Cert.ReferenceIdeal.sig (Elt Ideal)) (a : Vec Ideal Cert.ReferenceIdeal.S4x64 .f32) (g : Vec Ideal Cert.ReferenceIdeal.S64 .f32)
    (ha : W (Proc.devRef .tc Cert.ReferenceIdeal.main_arg9) = a) (hg : StableHlo.after (Cert.ReferenceIdeal.Ops.hostOps0_32 (F := Ideal)) W (Proc.devRef .tc Cert.ReferenceIdeal.main_v320) = g) (k : Fin 64) :
    g (ix1 k) = extractStridedSlice Cert.ReferenceIdeal.S1x64 _ a Cert.ReferenceIdeal.Gen.slices_S4x64_S1x64_3_0 (ix2 (0 : Fin 1) k) := by
  subst hg ha
  after_results
  show shapeCast Cert.ReferenceIdeal.S64 (extractStridedSlice Cert.ReferenceIdeal.S1x64 _ (W (Proc.devRef .tc Cert.ReferenceIdeal.main_arg9) : Vec Ideal Cert.ReferenceIdeal.S4x64 .f32) Cert.ReferenceIdeal.Gen.slices_S4x64_S1x64_3_0) Cert.ReferenceIdeal.Gen.shapeCasts_S1x64_S64 (ix1 k) = _
  rw [shapeCast_1a_a_apply]

/-- The reference's shift vector: the reshape of row 0 of its argument 10. -/
theorem mlp2_R_be_read_3 (W : Valuation Cert.ReferenceIdeal.τ Cert.ReferenceIdeal.sig (Elt Ideal)) (a : Vec Ideal Cert.ReferenceIdeal.S4x64 .f32) (g : Vec Ideal Cert.ReferenceIdeal.S64 .f32)
    (ha : W (Proc.devRef .tc Cert.ReferenceIdeal.main_arg10) = a) (hg : StableHlo.after (Cert.ReferenceIdeal.Ops.hostOps0_32 (F := Ideal)) W (Proc.devRef .tc Cert.ReferenceIdeal.main_v322) = g) (k : Fin 64) :
    g (ix1 k) = extractStridedSlice Cert.ReferenceIdeal.S1x64 _ a Cert.ReferenceIdeal.Gen.slices_S4x64_S1x64_3_0 (ix2 (0 : Fin 1) k) := by
  subst hg ha
  after_results
  show shapeCast Cert.ReferenceIdeal.S64 (extractStridedSlice Cert.ReferenceIdeal.S1x64 _ (W (Proc.devRef .tc Cert.ReferenceIdeal.main_arg10) : Vec Ideal Cert.ReferenceIdeal.S4x64 .f32) Cert.ReferenceIdeal.Gen.slices_S4x64_S1x64_3_0) Cert.ReferenceIdeal.Gen.shapeCasts_S1x64_S64 (ix1 k) = _
  rw [shapeCast_1a_a_apply]

/-- The reference's weight matrix: the reshape of slab 0 of its argument 11. -/
theorem mlp2_R_W_read_3 (W : Valuation Cert.ReferenceIdeal.τ Cert.ReferenceIdeal.sig (Elt Ideal)) (a : Vec Ideal Cert.ReferenceIdeal.S4x64x64 .f32) (g : Vec Ideal Cert.ReferenceIdeal.S64x64 .f32)
    (ha : W (Proc.devRef .tc Cert.ReferenceIdeal.main_arg11) = a) (hg : StableHlo.after (Cert.ReferenceIdeal.Ops.hostOps0_36 (F := Ideal)) W (Proc.devRef .tc Cert.ReferenceIdeal.main_v344) = g) (k q : Fin 64) :
    g (ix2 k q) = extractStridedSlice Cert.ReferenceIdeal.S1x64x64 _ a Cert.ReferenceIdeal.Gen.slices_S4x64x64_S1x64x64_3_0_0 (ix3 (0 : Fin 1) k q) := by
  subst hg ha
  after_results
  show shapeCast Cert.ReferenceIdeal.S64x64 (extractStridedSlice Cert.ReferenceIdeal.S1x64x64 _ (W (Proc.devRef .tc Cert.ReferenceIdeal.main_arg11) : Vec Ideal Cert.ReferenceIdeal.S4x64x64 .f32) Cert.ReferenceIdeal.Gen.slices_S4x64x64_S1x64x64_3_0_0) Cert.ReferenceIdeal.Gen.shapeCasts_S1x64x64_S64x64 (ix2 k q) = _
  rw [shapeCast_1ab_ab_apply]

/-- The reference's bias vector: the reshape of row 0 of its argument 12. -/
theorem mlp2_R_b_read_3 (W : Valuation Cert.ReferenceIdeal.τ Cert.ReferenceIdeal.sig (Elt Ideal)) (a : Vec Ideal Cert.ReferenceIdeal.S4x64 .f32) (g : Vec Ideal Cert.ReferenceIdeal.S64 .f32)
    (ha : W (Proc.devRef .tc Cert.ReferenceIdeal.main_arg12) = a) (hg : StableHlo.after (Cert.ReferenceIdeal.Ops.hostOps0_36 (F := Ideal)) W (Proc.devRef .tc Cert.ReferenceIdeal.main_v347) = g) (q : Fin 64) :
    g (ix1 q) = extractStridedSlice Cert.ReferenceIdeal.S1x64 _ a Cert.ReferenceIdeal.Gen.slices_S4x64_S1x64_3_0 (ix2 (0 : Fin 1) q) := by
  subst hg ha
  after_results
  show shapeCast Cert.ReferenceIdeal.S64 (extractStridedSlice Cert.ReferenceIdeal.S1x64 _ (W (Proc.devRef .tc Cert.ReferenceIdeal.main_arg12) : Vec Ideal Cert.ReferenceIdeal.S4x64 .f32) Cert.ReferenceIdeal.Gen.slices_S4x64_S1x64_3_0) Cert.ReferenceIdeal.Gen.shapeCasts_S1x64_S64 (ix1 q) = _
  rw [shapeCast_1a_a_apply]

/-- The reference's normalised, scaled and shifted input at (p, k), from the input `y`, the statistics `mu`, `var` and
    the parameters `g`, `be` the stretch finds. -/
theorem mlp2_R_bn_read_3 (W : Valuation Cert.ReferenceIdeal.τ Cert.ReferenceIdeal.sig (Elt Ideal)) (y : Vec Ideal Cert.ReferenceIdeal.S100000x64 .f32) (mu var g be : Vec Ideal Cert.ReferenceIdeal.S64 .f32)
    (x : Vec Ideal Cert.ReferenceIdeal.S100000x64 .f32)
    (hy : W (Proc.devRef .tc Cert.ReferenceIdeal.main_v318) = y) (hmu : W (Proc.devRef .tc Cert.ReferenceIdeal.main_v325) = mu) (hvar : W (Proc.devRef .tc Cert.ReferenceIdeal.main_v326) = var)
    (hg : W (Proc.devRef .tc Cert.ReferenceIdeal.main_v320) = g) (hbe : W (Proc.devRef .tc Cert.ReferenceIdeal.main_v322) = be)
    (hx : StableHlo.after (Cert.ReferenceIdeal.Ops.hostOps0_34 (F := Ideal)) W (Proc.devRef .tc Cert.ReferenceIdeal.main_v341) = x) (p : Fin 100000) (k : Fin 64) :
    x (ix2 p k) = ((y (ix2 p k) - mu (ix1 k)) * Ideal.rsqrt (var (ix1 k) + Ideal.ofBits .f32 0x3727C5AC#32)) * g (ix1 k) + be (ix1 k) := by
  subst hx
  after_results_simp
  rw [hy, hmu, hvar, hg, hbe]
  simp only [Host.rsqrt, addf_apply, mulf_apply, subf_apply, mlp2_bid_rows, mlp2_bid_row, mlp2_bid_scalar, constant_apply,
    Ideal.hostUnary_rsqrt_def]
  rfl

/-- Its positive part at (p, k). -/
theorem mlp2_R_relu_read_3 (W : Valuation Cert.ReferenceIdeal.τ Cert.ReferenceIdeal.sig (Elt Ideal)) (x r : Vec Ideal Cert.ReferenceIdeal.S100000x64 .f32)
    (hx : W (Proc.devRef .tc Cert.ReferenceIdeal.main_v341) = x) (hr : StableHlo.after (Cert.ReferenceIdeal.Ops.hostOps0_35 (F := Ideal)) W (Proc.devRef .tc Cert.ReferenceIdeal.main_v342) = r)
    (p : Fin 100000) (k : Fin 64) :
    r (ix2 p k) = max (x (ix2 p k)) (Ideal.ofBits .f32 0x00000000#32) := by
  subst hr
  after_results
  show maximumf (W (Proc.devRef .tc Cert.ReferenceIdeal.main_v341) : Vec Ideal Cert.ReferenceIdeal.S100000x64 .f32)
      (broadcastInDim Cert.ReferenceIdeal.S100000x64 _ Cert.ReferenceIdeal.Gen.bcast_S_S100000x64 (constant (F := Ideal) Cert.ReferenceIdeal.S_ .f32 0x00000000#32)) (ix2 p k) = _
  rw [hx, maximumf_apply, mlp2_bid_scalar, constant_apply]

/-- The reference's linear layer at (p, q): the sum over k of row p of the positive part `r` times column q of the weight
    matrix `Wm`, plus entry q of the bias `b`. -/
theorem mlp2_R_lin_read_3 (W : Valuation Cert.ReferenceIdeal.τ Cert.ReferenceIdeal.sig (Elt Ideal)) (r z : Vec Ideal Cert.ReferenceIdeal.S100000x64 .f32) (Wm : Vec Ideal Cert.ReferenceIdeal.S64x64 .f32) (b : Vec Ideal Cert.ReferenceIdeal.S64 .f32)
    (hr : W (Proc.devRef .tc Cert.ReferenceIdeal.main_v342) = r)
    (hWm : StableHlo.after (Cert.ReferenceIdeal.Ops.hostOps0_36 (F := Ideal)) W (Proc.devRef .tc Cert.ReferenceIdeal.main_v344) = Wm)
    (hb : StableHlo.after (Cert.ReferenceIdeal.Ops.hostOps0_36 (F := Ideal)) W (Proc.devRef .tc Cert.ReferenceIdeal.main_v347) = b)
    (hz : StableHlo.after (Cert.ReferenceIdeal.Ops.hostOps0_36 (F := Ideal)) W (Proc.devRef .tc Cert.ReferenceIdeal.main_v350) = z) (p : Fin 100000) (q : Fin 64) :
    z (ix2 p q) = (∑ k : Fin 64, r (ix2 p k) * Wm (ix2 k q)) + b (ix1 q) := by
  subst hz
  revert hWm hb
  after_results
  intro hWm hb
  rw [hr, hWm, hb, addf_apply, mlp2_dot_apply, mlp2_bid_rows, mlp2_bid_row]

end RefReads

/-! ## The bridge -/

section Bridge

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- THE KERNEL PROGRAM'S SIDE: the output buffer ends holding the layer on what the seven input buffers end holding (each
    is written once, before the pallas_call, and never again). -/
theorem mlp2_K_z2_3 (c : Dev Cert.KernelIdeal.nD) :
    KV m ρ c Cert.KernelIdeal.main_v190
      = mlp2Arr 100000 (KV m ρ c Cert.KernelIdeal.main_v184) (KV m ρ c Cert.KernelIdeal.main_v188) (KV m ρ c Cert.KernelIdeal.main_v189) (KV m ρ c Cert.KernelIdeal.main_v169)
          (KV m ρ c Cert.KernelIdeal.main_v172) (KV m ρ c Cert.KernelIdeal.main_v174) (KV m ρ c Cert.KernelIdeal.main_v177) := by
  have h40 := (Cert.KernelIdeal.Keep.toEnd_46 m ρ c Cert.KernelIdeal.main_v184 (by decide +kernel))
  have h44 := (Cert.KernelIdeal.Keep.toEnd_46 m ρ c Cert.KernelIdeal.main_v188 (by decide +kernel))
  have h45 := (Cert.KernelIdeal.Keep.toEnd_46 m ρ c Cert.KernelIdeal.main_v189 (by decide +kernel))
  have h25 := (Cert.KernelIdeal.Keep.toEnd_46 m ρ c Cert.KernelIdeal.main_v169 (by decide +kernel))
  have h28 := (Cert.KernelIdeal.Keep.toEnd_46 m ρ c Cert.KernelIdeal.main_v172 (by decide +kernel))
  have h30 := (Cert.KernelIdeal.Keep.toEnd_46 m ρ c Cert.KernelIdeal.main_v174 (by decide +kernel))
  have h33 := (Cert.KernelIdeal.Keep.toEnd_46 m ρ c Cert.KernelIdeal.main_v177 (by decide +kernel))
  have e := (Cert.KernelIdeal.Gen.W47_arr (F := Ideal) m ρ c 7).trans (mlp2_value2_3 (Cert.KernelIdeal.Gen.V46 (F := Ideal) m ρ) c)
  calc KV m ρ c Cert.KernelIdeal.main_v190
      = Cert.KernelIdeal.Gen.W47 m ρ c (Proc.devRef .tc Cert.KernelIdeal.main_v190) := (Cert.KernelIdeal.Keep.toEnd_47 m ρ c Cert.KernelIdeal.main_v190 (by decide +kernel)).symm
    _ = mlp2Arr 100000 (Cert.KernelIdeal.Gen.W46 m ρ c (Proc.devRef .tc Cert.KernelIdeal.main_v184)) (Cert.KernelIdeal.Gen.W46 m ρ c (Proc.devRef .tc Cert.KernelIdeal.main_v188))
          (Cert.KernelIdeal.Gen.W46 m ρ c (Proc.devRef .tc Cert.KernelIdeal.main_v189)) (Cert.KernelIdeal.Gen.W46 m ρ c (Proc.devRef .tc Cert.KernelIdeal.main_v169)) (Cert.KernelIdeal.Gen.W46 m ρ c (Proc.devRef .tc Cert.KernelIdeal.main_v172))
          (Cert.KernelIdeal.Gen.W46 m ρ c (Proc.devRef .tc Cert.KernelIdeal.main_v174)) (Cert.KernelIdeal.Gen.W46 m ρ c (Proc.devRef .tc Cert.KernelIdeal.main_v177)) := e
    _ = _ := by rw [h40, h44, h45, h25, h28, h30, h33]

/-- The scale: column k of the kernel program's row is entry k of the reference's vector. -/
theorem mlp2_param_g_3 (hag : Agree m m') (c : Dev Cert.KernelIdeal.nD) (k : Fin 64) :
    (KV m ρ c Cert.KernelIdeal.main_v169 : Vec Ideal Cert.KernelIdeal.S1x64 .f32) (ix2 (0 : Fin 1) k) = (RV m' c Cert.ReferenceIdeal.main_v320 : Vec Ideal Cert.ReferenceIdeal.S64 .f32) (ix1 k) := by
  have hK := mlp2_K_g_read_3 (Cert.KernelIdeal.Gen.W42 m ρ c) (KV m ρ c Cert.KernelIdeal.main_arg9) (KV m ρ c Cert.KernelIdeal.main_v169)
    (Cert.KernelIdeal.Keep.toEnd_42 m ρ c Cert.KernelIdeal.main_arg9 (by decide +kernel)) (Cert.KernelIdeal.Keep.toEnd_43 m ρ c Cert.KernelIdeal.main_v169 (by decide +kernel)) k
  have hR := mlp2_R_g_read_3 (R32 m' c) (RV m' c Cert.ReferenceIdeal.main_arg9) (RV m' c Cert.ReferenceIdeal.main_v320)
    (Cert.ReferenceIdeal.Keep.toEnd_32 m' c Cert.ReferenceIdeal.main_arg9 (by decide +kernel)) (Cert.ReferenceIdeal.Keep.toEnd_33 m' c Cert.ReferenceIdeal.main_v320 (by decide +kernel)) k
  rw [(mlp2_args m ρ m' hag c).1] at hR
  exact hK.trans hR.symm

/-- The shift likewise. -/
theorem mlp2_param_be_3 (hag : Agree m m') (c : Dev Cert.KernelIdeal.nD) (k : Fin 64) :
    (KV m ρ c Cert.KernelIdeal.main_v172 : Vec Ideal Cert.KernelIdeal.S1x64 .f32) (ix2 (0 : Fin 1) k) = (RV m' c Cert.ReferenceIdeal.main_v322 : Vec Ideal Cert.ReferenceIdeal.S64 .f32) (ix1 k) := by
  have hK := mlp2_K_be_read_3 (Cert.KernelIdeal.Gen.W42 m ρ c) (KV m ρ c Cert.KernelIdeal.main_arg10) (KV m ρ c Cert.KernelIdeal.main_v172)
    (Cert.KernelIdeal.Keep.toEnd_42 m ρ c Cert.KernelIdeal.main_arg10 (by decide +kernel)) (Cert.KernelIdeal.Keep.toEnd_43 m ρ c Cert.KernelIdeal.main_v172 (by decide +kernel)) k
  have hR := mlp2_R_be_read_3 (R32 m' c) (RV m' c Cert.ReferenceIdeal.main_arg10) (RV m' c Cert.ReferenceIdeal.main_v322)
    (Cert.ReferenceIdeal.Keep.toEnd_32 m' c Cert.ReferenceIdeal.main_arg10 (by decide +kernel)) (Cert.ReferenceIdeal.Keep.toEnd_33 m' c Cert.ReferenceIdeal.main_v322 (by decide +kernel)) k
  rw [(mlp2_args m ρ m' hag c).2.1] at hR
  exact hK.trans hR.symm

/-- The weight matrices agree entry by entry. -/
theorem mlp2_param_W_3 (hag : Agree m m') (c : Dev Cert.KernelIdeal.nD) (k q : Fin 64) :
    (KV m ρ c Cert.KernelIdeal.main_v174 : Vec Ideal Cert.KernelIdeal.S64x64 .f32) (ix2 k q) = (RV m' c Cert.ReferenceIdeal.main_v344 : Vec Ideal Cert.ReferenceIdeal.S64x64 .f32) (ix2 k q) := by
  have hK := mlp2_K_W_read_3 (Cert.KernelIdeal.Gen.W42 m ρ c) (KV m ρ c Cert.KernelIdeal.main_arg11) (KV m ρ c Cert.KernelIdeal.main_v174)
    (Cert.KernelIdeal.Keep.toEnd_42 m ρ c Cert.KernelIdeal.main_arg11 (by decide +kernel)) (Cert.KernelIdeal.Keep.toEnd_43 m ρ c Cert.KernelIdeal.main_v174 (by decide +kernel)) k q
  have hR := mlp2_R_W_read_3 (R36 m' c) (RV m' c Cert.ReferenceIdeal.main_arg11) (RV m' c Cert.ReferenceIdeal.main_v344)
    (Cert.ReferenceIdeal.Keep.toEnd_36 m' c Cert.ReferenceIdeal.main_arg11 (by decide +kernel)) (Cert.ReferenceIdeal.Keep.toEnd_37 m' c Cert.ReferenceIdeal.main_v344 (by decide +kernel)) k q
  rw [(mlp2_args m ρ m' hag c).2.2.1] at hR
  exact hK.trans hR.symm

/-- The bias: column q of the kernel program's row is entry q of the reference's vector. -/
theorem mlp2_param_b_3 (hag : Agree m m') (c : Dev Cert.KernelIdeal.nD) (q : Fin 64) :
    (KV m ρ c Cert.KernelIdeal.main_v177 : Vec Ideal Cert.KernelIdeal.S1x64 .f32) (ix2 (0 : Fin 1) q) = (RV m' c Cert.ReferenceIdeal.main_v347 : Vec Ideal Cert.ReferenceIdeal.S64 .f32) (ix1 q) := by
  have hK := mlp2_K_b_read_3 (Cert.KernelIdeal.Gen.W42 m ρ c) (KV m ρ c Cert.KernelIdeal.main_arg12) (KV m ρ c Cert.KernelIdeal.main_v177)
    (Cert.KernelIdeal.Keep.toEnd_42 m ρ c Cert.KernelIdeal.main_arg12 (by decide +kernel)) (Cert.KernelIdeal.Keep.toEnd_43 m ρ c Cert.KernelIdeal.main_v177 (by decide +kernel)) q
  have hR := mlp2_R_b_read_3 (R36 m' c) (RV m' c Cert.ReferenceIdeal.main_arg12) (RV m' c Cert.ReferenceIdeal.main_v347)
    (Cert.ReferenceIdeal.Keep.toEnd_36 m' c Cert.ReferenceIdeal.main_arg12 (by decide +kernel)) (Cert.ReferenceIdeal.Keep.toEnd_37 m' c Cert.ReferenceIdeal.main_v347 (by decide +kernel)) q
  rw [(mlp2_args m ρ m' hag c).2.2.2] at hR
  exact hK.trans hR.symm

/-- THE REFERENCE'S SIDE: entry (p, q) of its second linear layer's result, from what its buffers end holding. -/
theorem mlp2_R_z2_3 (c : Dev Cert.ReferenceIdeal.nD) (p : Fin 100000) (q : Fin 64) :
    (RV m' c Cert.ReferenceIdeal.main_v350 : Vec Ideal Cert.ReferenceIdeal.S100000x64 .f32) (ix2 p q)
      = mlp2Val (fun k => (RV m' c Cert.ReferenceIdeal.main_v318 : Vec Ideal Cert.ReferenceIdeal.S100000x64 .f32) (ix2 p k)) (fun k => (RV m' c Cert.ReferenceIdeal.main_v325 : Vec Ideal Cert.ReferenceIdeal.S64 .f32) (ix1 k))
          (fun k => (RV m' c Cert.ReferenceIdeal.main_v326 : Vec Ideal Cert.ReferenceIdeal.S64 .f32) (ix1 k)) (fun k => (RV m' c Cert.ReferenceIdeal.main_v320 : Vec Ideal Cert.ReferenceIdeal.S64 .f32) (ix1 k))
          (fun k => (RV m' c Cert.ReferenceIdeal.main_v322 : Vec Ideal Cert.ReferenceIdeal.S64 .f32) (ix1 k)) (fun k => (RV m' c Cert.ReferenceIdeal.main_v344 : Vec Ideal Cert.ReferenceIdeal.S64x64 .f32) (ix2 k q))
          ((RV m' c Cert.ReferenceIdeal.main_v347 : Vec Ideal Cert.ReferenceIdeal.S64 .f32) (ix1 q)) := by
  have e7 := mlp2_R_lin_read_3 (R36 m' c) (R36 m' c (Proc.devRef .tc Cert.ReferenceIdeal.main_v342)) (RV m' c Cert.ReferenceIdeal.main_v350) (RV m' c Cert.ReferenceIdeal.main_v344) (RV m' c Cert.ReferenceIdeal.main_v347)
    rfl (Cert.ReferenceIdeal.Keep.toEnd_37 m' c Cert.ReferenceIdeal.main_v344 (by decide +kernel)) (Cert.ReferenceIdeal.Keep.toEnd_37 m' c Cert.ReferenceIdeal.main_v347 (by decide +kernel)) (Cert.ReferenceIdeal.Keep.toEnd_37 m' c Cert.ReferenceIdeal.main_v350 (by decide +kernel)) p q
  have e6 := fun k : Fin 64 => mlp2_R_relu_read_3 (R35 m' c) (R35 m' c (Proc.devRef .tc Cert.ReferenceIdeal.main_v341)) (R36 m' c (Proc.devRef .tc Cert.ReferenceIdeal.main_v342)) rfl rfl p k
  have e5 := fun k : Fin 64 => mlp2_R_bn_read_3 (R34 m' c) (RV m' c Cert.ReferenceIdeal.main_v318) (RV m' c Cert.ReferenceIdeal.main_v325) (RV m' c Cert.ReferenceIdeal.main_v326)
    (RV m' c Cert.ReferenceIdeal.main_v320) (RV m' c Cert.ReferenceIdeal.main_v322) (R35 m' c (Proc.devRef .tc Cert.ReferenceIdeal.main_v341))
    (Cert.ReferenceIdeal.Keep.toEnd_34 m' c Cert.ReferenceIdeal.main_v318 (by decide +kernel)) (Cert.ReferenceIdeal.Keep.toEnd_34 m' c Cert.ReferenceIdeal.main_v325 (by decide +kernel)) (Cert.ReferenceIdeal.Keep.toEnd_34 m' c Cert.ReferenceIdeal.main_v326 (by decide +kernel)) (Cert.ReferenceIdeal.Keep.toEnd_34 m' c Cert.ReferenceIdeal.main_v320 (by decide +kernel)) (Cert.ReferenceIdeal.Keep.toEnd_34 m' c Cert.ReferenceIdeal.main_v322 (by decide +kernel)) rfl p k
  refine e7.trans ?_
  unfold mlp2Val
  refine congrFun (congrArg HAdd.hAdd ?_) _
  exact Finset.sum_congr rfl fun k _ => by rw [e6 k, e5 k]

/-- SECOND LINEAR LAYER OF GRAPH LAYER 3. Where the two programs leave the same first linear layer's result and
    corresponding first statistics, they leave the same second linear layer's result. -/
theorem corr_z2_3 (hag : Agree m m') (c : Dev Cert.KernelIdeal.nD)
    (hz : KV m ρ c Cert.KernelIdeal.main_v184 = RV m' c Cert.ReferenceIdeal.main_v318)
    (hst : (∀ j : Fin 64, (KV m ρ c Cert.KernelIdeal.main_v188 : Vec Ideal Cert.KernelIdeal.S1x64 .f32) (ix2 (0 : Fin 1) j) = (RV m' c Cert.ReferenceIdeal.main_v325 : Vec Ideal Cert.ReferenceIdeal.S64 .f32) (ix1 j))
      ∧ (∀ j : Fin 64, (KV m ρ c Cert.KernelIdeal.main_v189 : Vec Ideal Cert.KernelIdeal.S1x64 .f32) (ix2 (0 : Fin 1) j) = (RV m' c Cert.ReferenceIdeal.main_v326 : Vec Ideal Cert.ReferenceIdeal.S64 .f32) (ix1 j))) :
    KV m ρ c Cert.KernelIdeal.main_v190 = RV m' c Cert.ReferenceIdeal.main_v350 := by
  rw [mlp2_K_z2_3 m ρ c]
  funext i
  rw [eq_ix2 (n0 := 100000) (n1 := 64) i]
  refine Eq.trans ?_ (mlp2_R_z2_3 m' c (i 0) (i 1)).symm
  refine mlp2Val_congr (fun k => ?_) hst.1 hst.2 (fun k => mlp2_param_g_3 m ρ m' hag c k)
    (fun k => mlp2_param_be_3 m ρ m' hag c k) (fun k => mlp2_param_W_3 m ρ m' hag c k (i 1)) (mlp2_param_b_3 m ρ m' hag c (i 1))
  show KV m ρ c Cert.KernelIdeal.main_v184 (ix2 (i 0) k) = RV m' c Cert.ReferenceIdeal.main_v318 (ix2 (i 0) k)
  rw [hz]

end Bridge

end Cert.Bridge

end
-- ==== Proof.Bridge.Bn2Shared.lean ====
/- Batch normalisation by column statistics followed by the positive part, as one function of an array of entries and four
   column data; the two layouts of the column data the two programs use (one-row arrays, vectors); two broadcasts read at
   an index; and the two stacked parameter tables the scale and shift rows are cut from, which both programs hold
   unchanged from launch to the end and which agree between the two launch memories. Shared by the four layers. -/
import proofs.«417278_j53197464928922_1_alg».proof.Proof.Setup
import proofs.«417278_j53197464928922_1_alg».proof.Proof.KKeep
import proofs.«417278_j53197464928922_1_alg».proof.Proof.RKeep
import Idealize.ShloMosaic.Lib.ValueLayout
import Idealize.ShloMosaic.PureOps.Ideal.Laws

set_option maxRecDepth 16384

noncomputable section

namespace Cert.Bridge.Bn2

open Idealize.ShloMosaic Idealize.ShloMosaic.TcCoe Idealize.SL.Sem Idealize.ShloMosaic.ValueIdx

/-! ## The function both programs compute -/

/-- Batch normalisation of an n-by-64 array by per-column statistics, then the positive part: from each entry subtract
    its column's mean, multiply by the reciprocal square root of the column's variance plus a small constant, multiply by
    the column's scale, add the column's shift, and take the maximum with zero. The small constant and zero are kept as
    the 32-bit words both programs print. -/
def bnRelu {n : Nat} (z : FVec Ideal ⟨2, ![n, 64]⟩ .f32) (mu var g be : Fin 64 → Ideal .f32) : FVec Ideal ⟨2, ![n, 64]⟩ .f32 :=
  fun i => max ((((z i - mu ⟨(i 1).val, idx2_lt1 i⟩) * Ideal.rsqrt (var ⟨(i 1).val, idx2_lt1 i⟩ + Ideal.ofBits .f32 0x3727C5AC#32))
      * g ⟨(i 1).val, idx2_lt1 i⟩) + be ⟨(i 1).val, idx2_lt1 i⟩) (Ideal.ofBits .f32 0x00000000#32)

/-- The function at row p and column q. -/
theorem bnRelu_apply {n : Nat} (z : FVec Ideal ⟨2, ![n, 64]⟩ .f32) (mu var g be : Fin 64 → Ideal .f32) (p : Fin n) (q : Fin 64) :
    bnRelu z mu var g be (ix2 p q)
      = max ((((z (ix2 p q) - mu q) * Ideal.rsqrt (var q + Ideal.ofBits .f32 0x3727C5AC#32)) * g q) + be q) (Ideal.ofBits .f32 0x00000000#32) := rfl

/-- Equal entries at two places in the same column, and equal column data, give equal values, whatever the two row
    counts. -/
theorem bnRelu_congr {n n' : Nat} (z : FVec Ideal ⟨2, ![n, 64]⟩ .f32) (z' : FVec Ideal ⟨2, ![n', 64]⟩ .f32)
    (mu var g be mu' var' g' be' : Fin 64 → Ideal .f32) (i : (⟨2, ![n, 64]⟩ : Shape).Idx) (i' : (⟨2, ![n', 64]⟩ : Shape).Idx)
    (hcol : (i 1).val = (i' 1).val) (hz : z i = z' i') (hmu : ∀ q, mu q = mu' q) (hvar : ∀ q, var q = var' q)
    (hg : ∀ q, g q = g' q) (hbe : ∀ q, be q = be' q) :
    bnRelu z mu var g be i = bnRelu z' mu' var' g' be' i' := by
  have hq : (⟨(i 1).val, idx2_lt1 i⟩ : Fin 64) = ⟨(i' 1).val, idx2_lt1 i'⟩ := Fin.ext hcol
  simp only [bnRelu, hz, hq, hmu, hvar, hg, hbe]

/-- The same with the four column data given as one-row arrays (the kernel program's layout). -/
def bnReluRows {n : Nat} (z : FVec Ideal ⟨2, ![n, 64]⟩ .f32) (mu var g be : FVec Ideal ⟨2, ![1, 64]⟩ .f32) : FVec Ideal ⟨2, ![n, 64]⟩ .f32 :=
  bnRelu z (fun q => mu (ix2 (0 : Fin 1) q)) (fun q => var (ix2 (0 : Fin 1) q)) (fun q => g (ix2 (0 : Fin 1) q)) (fun q => be (ix2 (0 : Fin 1) q))

/-- The same with the four column data given as length-64 vectors (the reference's layout). -/
def bnReluVecs {n : Nat} (z : FVec Ideal ⟨2, ![n, 64]⟩ .f32) (mu var g be : FVec Ideal ⟨1, ![64]⟩ .f32) : FVec Ideal ⟨2, ![n, 64]⟩ .f32 :=
  bnRelu z (fun q => mu (ix1 q)) (fun q => var (ix1 q)) (fun q => g (ix1 q)) (fun q => be (ix1 q))

/-! ## Broadcasts read at an index -/

/-- A length-64 vector broadcast to one row of 64 reads the vector at the column. -/
theorem bcast_64_1x64_apply {α : Type} (h : (⟨1, ![64]⟩ : Shape).BroadcastsInDim ⟨2, ![1, 64]⟩ ![1]) (x : (⟨1, ![64]⟩ : Shape).Idx → α)
    (u : Fin 1) (q : Fin 64) : broadcastInDim ⟨2, ![1, 64]⟩ ![1] h x (ix2 u q) = x (ix1 q) :=
  broadcastInDim_apply ![1] h x (ix2 u q) (ix1 q) fun a => by
    match a with
    | ⟨0, _⟩ => rfl

/-- One row of 64 broadcast down n rows reads the row at the column. -/
theorem bcast_1x64_nx64_apply {α : Type} {n : Nat} (h : (⟨2, ![1, 64]⟩ : Shape).BroadcastsInDim ⟨2, ![n, 64]⟩ ![0, 1])
    (x : (⟨2, ![1, 64]⟩ : Shape).Idx → α) (p : Fin n) (q : Fin 64) :
    broadcastInDim ⟨2, ![n, 64]⟩ ![0, 1] h x (ix2 p q) = x (ix2 (0 : Fin 1) q) :=
  broadcastInDim_apply ![0, 1] h x (ix2 p q) (ix2 (0 : Fin 1) q) fun a => by
    match a with
    | ⟨0, _⟩ => rfl
    | ⟨1, _⟩ => rfl

/-- The pair of zero offsets is the constant zero. -/
theorem hz : (![0, 0] : Fin 2 → Nat) = fun _ => 0 := funext fun a => by fin_cases a <;> rfl

/-! ## The stacked scale and shift tables: unchanged from launch, and the same in both launch memories -/

section Tables

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The kernel program ends with its scale table as launched. -/
theorem KV_scale (c : Dev Cert.KernelIdeal.nD) :
    KV m ρ c Cert.KernelIdeal.main_arg13 = m ((c.tc : Thread Cert.KernelIdeal.nD Cert.KernelIdeal.τ).loc Cert.KernelIdeal.main_arg13) :=
  Cert.KernelIdeal.Gen.W52_main_arg13 m ρ c

/-- The kernel program ends with its shift table as launched. -/
theorem KV_shift (c : Dev Cert.KernelIdeal.nD) :
    KV m ρ c Cert.KernelIdeal.main_arg14 = m ((c.tc : Thread Cert.KernelIdeal.nD Cert.KernelIdeal.τ).loc Cert.KernelIdeal.main_arg14) :=
  Cert.KernelIdeal.Gen.W52_main_arg14 m ρ c

/-- The reference ends with its scale table as launched. -/
theorem RV_scale (c : Dev Cert.ReferenceIdeal.nD) :
    RV m' c Cert.ReferenceIdeal.main_arg13 = m' ((c.tc : Thread Cert.ReferenceIdeal.nD Cert.ReferenceIdeal.τ).loc Cert.ReferenceIdeal.main_arg13) :=
  Cert.ReferenceIdeal.Keep.arg_kept_13 m' c

/-- The reference ends with its shift table as launched. -/
theorem RV_shift (c : Dev Cert.ReferenceIdeal.nD) :
    RV m' c Cert.ReferenceIdeal.main_arg14 = m' ((c.tc : Thread Cert.ReferenceIdeal.nD Cert.ReferenceIdeal.τ).loc Cert.ReferenceIdeal.main_arg14) :=
  Cert.ReferenceIdeal.Keep.arg_kept_14 m' c

/-- The two launch memories hold the same scale table. -/
theorem agree_scale (hag : Agree m m') (c : Dev Cert.KernelIdeal.nD) :
    m' ((c.tc : Thread Cert.ReferenceIdeal.nD Cert.ReferenceIdeal.τ).loc Cert.ReferenceIdeal.main_arg13)
      = m ((c.tc : Thread Cert.KernelIdeal.nD Cert.KernelIdeal.τ).loc Cert.KernelIdeal.main_arg13) :=
  (hag c).2.2.2.2.2.2.2.2.2.2.2.2.2.1

/-- The two launch memories hold the same shift table. -/
theorem agree_shift (hag : Agree m m') (c : Dev Cert.KernelIdeal.nD) :
    m' ((c.tc : Thread Cert.ReferenceIdeal.nD Cert.ReferenceIdeal.τ).loc Cert.ReferenceIdeal.main_arg14)
      = m ((c.tc : Thread Cert.KernelIdeal.nD Cert.KernelIdeal.τ).loc Cert.KernelIdeal.main_arg14) :=
  (hag c).2.2.2.2.2.2.2.2.2.2.2.2.2.2.1

end Tables

end Cert.Bridge.Bn2

end
-- ==== Proof.Bridge.Bn2.lean ====
/- The last stage of a layer: batch normalisation of the second linear layer's output by its column means and variances
   and the layer's scale and shift parameters, followed by the positive part.

   In the kernel program a grid of 20 steps computes it, each step on a block of 5000 of the 100000 rows with the four
   column data held as one-row arrays; the 20 blocks tile the array, so the output array ends holding one function of the
   five arrays the steps read (bn2_value3). In the reference a chain of broadcasts and entrywise operations computes it
   from the same entries with the four column data held as vectors. Both are the one function of the shared module, so
   the two outputs agree once the entries, the means and the variances agree (corr_h1_0); the scales and the shifts agree
   because both programs cut them from the same row of the same argument tables. -/
import proofs.«417278_j53197464928922_1_alg».proof.Proof.Bridge.Bn2Shared
import Idealize.ShloMosaic.Lib.StableHlo.Run
import Idealize.ShloMosaic.Lib.Pipeline.Value
import Idealize.ShloMosaic.Lib.Tactic

set_option maxRecDepth 16384

noncomputable section

namespace Cert.Bridge

open Idealize.ShloMosaic Idealize.ShloMosaic.TcCoe Idealize.SL.Sem Idealize.ShloMosaic.ValueIdx
open Idealize.ShloMosaic.Pipeline (Dat)
open Idealize.ShloMosaic.StableHlo
open Cert.Bridge.Bn2

namespace Bn2L0

/-! ## What the region's output array holds when the region is left

The grid has 20 steps; step t reads rows 5000 t to 5000 t + 4999 of the array of entries and the whole of each of the
four one-row arrays, and writes the same rows of the output array. -/

section Region
open Cert.KernelIdeal Cert.KernelIdeal.Gen

variable (V : (c : Dev Cert.KernelIdeal.nD) → (b : Ref Cert.KernelIdeal.sig .tc) → Buf (Elt Ideal) ((c : Thread Cert.KernelIdeal.nD Cert.KernelIdeal.τ).loc b))

/-- The block one grid step stores is the function of the block of entries and the four rows it loads. -/
theorem pay3 (x0 : FVec Ideal S5000x64 .f32) (x1 x2 x3 x4 : FVec Ideal S1x64 .f32) :
    k3_pay1 (F := Ideal) x0 x1 x2 x3 x4 = bnReluRows (n := 5000) x0 x1 x2 x3 x4 := by
  funext j
  obtain ⟨p, q, rfl⟩ : ∃ (p : Fin 5000) (q : Fin 64), j = ix2 p q := ⟨j 0, j 1, eq_ix2 j⟩
  unfold bnReluRows
  rw [bnRelu_apply]
  unfold k3_pay1
  simp only [maximumf_apply, addf_apply, mulf_apply, subf_apply, broadcast_apply, shapeCast_self, broadcastTo_1b_ab_apply]
  rfl

/-- The block indices over the grid: the entries' window moves with the output's window down the rows, neither moves
    along the columns, and the four one-row windows stay at the origin. -/
theorem idx3 : ∀ t : Fin cfg3.N, win3_0.index t (0 : Fin 2) = win3_5.index t (0 : Fin 2)
    ∧ win3_0.index t (1 : Fin 2) = 0 ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Every block of 5000 rows is some grid step's output block. -/
theorem onto3 : ∀ q0 : Fin 20, ∃ t : Fin cfg3.N, win3_5.index t = ![q0.val, 0] :=
  (by decide +kernel : ∀ q0 : Fin 20, ∃ t : Fin grid3.N, win3_5.index t = ![q0.val, 0])

/-- The entries' block at step t, at (p, q), is the array of entries at the place of (p, q) in the output's block. -/
theorem blk3_0 (c : Dev nD) (t : Fin cfg3.N) (p : Fin 5000) (q : Fin 64) :
    (iblk3 V c 0 t : FVec Ideal S5000x64 .f32) (ix2 p q)
      = (V c Cert.KernelIdeal.main_v46 : FVec Ideal S100000x64 .f32) (((cfg3.win 5).blk t).view.emb (ix2 p q)) := by
  have e := idx3 t
  show V c Cert.KernelIdeal.main_v46 (((cfg3.win 0).blk t).view.emb (ix2 p q)) = V c Cert.KernelIdeal.main_v46 (((cfg3.win 5).blk t).view.emb (ix2 p q))
  refine congrArg (V c Cert.KernelIdeal.main_v46) (funext fun a => Fin.ext ?_)
  match a with
  | ⟨0, _⟩ => show win3_0.index t (0 : Fin 2) * 5000 + 1 * p.val = win3_5.index t (0 : Fin 2) * 5000 + 1 * p.val; omega
  | ⟨1, _⟩ => show win3_0.index t (1 : Fin 2) * 64 + 1 * q.val = win3_5.index t (1 : Fin 2) * 64 + 1 * q.val; omega

/-- The mean's block at every step is the whole one-row array. -/
theorem blk3_1 (c : Dev nD) (t : Fin cfg3.N) (q : Fin 64) :
    (iblk3 V c 1 t : FVec Ideal S1x64 .f32) (ix2 (0 : Fin 1) q) = (V c Cert.KernelIdeal.main_v50 : FVec Ideal S1x64 .f32) (ix2 (0 : Fin 1) q) := by
  have e := idx3 t
  show V c Cert.KernelIdeal.main_v50 (((cfg3.win 1).blk t).view.emb (ix2 (0 : Fin 1) q)) = V c Cert.KernelIdeal.main_v50 (ix2 (0 : Fin 1) q)
  refine congrArg (V c Cert.KernelIdeal.main_v50) (funext fun a => Fin.ext ?_)
  match a with
  | ⟨0, _⟩ => show win3_1.index t (0 : Fin 2) * 1 + 1 * 0 = 0; omega
  | ⟨1, _⟩ => show win3_1.index t (1 : Fin 2) * 64 + 1 * q.val = q.val; omega

/-- The variance's block at every step is the whole one-row array. -/
theorem blk3_2 (c : Dev nD) (t : Fin cfg3.N) (q : Fin 64) :
    (iblk3 V c 2 t : FVec Ideal S1x64 .f32) (ix2 (0 : Fin 1) q) = (V c Cert.KernelIdeal.main_v51 : FVec Ideal S1x64 .f32) (ix2 (0 : Fin 1) q) := by
  have e := idx3 t
  show V c Cert.KernelIdeal.main_v51 (((cfg3.win 2).blk t).view.emb (ix2 (0 : Fin 1) q)) = V c Cert.KernelIdeal.main_v51 (ix2 (0 : Fin 1) q)
  refine congrArg (V c Cert.KernelIdeal.main_v51) (funext fun a => Fin.ext ?_)
  match a with
  | ⟨0, _⟩ => show win3_2.index t (0 : Fin 2) * 1 + 1 * 0 = 0; omega
  | ⟨1, _⟩ => show win3_2.index t (1 : Fin 2) * 64 + 1 * q.val = q.val; omega

/-- The scale's block at every step is the whole one-row array. -/
theorem blk3_3 (c : Dev nD) (t : Fin cfg3.N) (q : Fin 64) :
    (iblk3 V c 3 t : FVec Ideal S1x64 .f32) (ix2 (0 : Fin 1) q) = (V c Cert.KernelIdeal.main_v36 : FVec Ideal S1x64 .f32) (ix2 (0 : Fin 1) q) := by
  have e := idx3 t
  show V c Cert.KernelIdeal.main_v36 (((cfg3.win 3).blk t).view.emb (ix2 (0 : Fin 1) q)) = V c Cert.KernelIdeal.main_v36 (ix2 (0 : Fin 1) q)
  refine congrArg (V c Cert.KernelIdeal.main_v36) (funext fun a => Fin.ext ?_)
  match a with
  | ⟨0, _⟩ => show win3_3.index t (0 : Fin 2) * 1 + 1 * 0 = 0; omega
  | ⟨1, _⟩ => show win3_3.index t (1 : Fin 2) * 64 + 1 * q.val = q.val; omega

/-- The shift's block at every step is the whole one-row array. -/
theorem blk3_4 (c : Dev nD) (t : Fin cfg3.N) (q : Fin 64) :
    (iblk3 V c 4 t : FVec Ideal S1x64 .f32) (ix2 (0 : Fin 1) q) = (V c Cert.KernelIdeal.main_v39 : FVec Ideal S1x64 .f32) (ix2 (0 : Fin 1) q) := by
  have e := idx3 t
  show V c Cert.KernelIdeal.main_v39 (((cfg3.win 4).blk t).view.emb (ix2 (0 : Fin 1) q)) = V c Cert.KernelIdeal.main_v39 (ix2 (0 : Fin 1) q)
  refine congrArg (V c Cert.KernelIdeal.main_v39) (funext fun a => Fin.ext ?_)
  match a with
  | ⟨0, _⟩ => show win3_4.index t (0 : Fin 2) * 1 + 1 * 0 = 0; omega
  | ⟨1, _⟩ => show win3_4.index t (1 : Fin 2) * 64 + 1 * q.val = q.val; omega

/-- What step t writes back is its block of rows of the one function of the five arrays as the region finds them. -/
theorem flushed3 (c : Dev nD) (t : Fin cfg3.N) :
    (dat3 (F := Ideal) V c).flushed 5 t = ((cfg3.win 5).blk t).view.read (Elt Ideal)
      (bnReluRows (n := 100000) (V c Cert.KernelIdeal.main_v46) (V c Cert.KernelIdeal.main_v50) (V c Cert.KernelIdeal.main_v51) (V c Cert.KernelIdeal.main_v36) (V c Cert.KernelIdeal.main_v39)) := by
  show (cfg3.win 5).cut (grid3.coords t) ((dat3 V c).after 5 t) = _
  rw [after3_5]
  unfold out3_5
  rw [View.canon_unit_zero hz]
  simp only [View.ld_unit_zero (S := S5000x64) hz, View.ld_unit_zero (S := S1x64) hz]
  rw [pay3]
  funext j
  obtain ⟨p, q, rfl⟩ : ∃ (p : Fin 5000) (q : Fin 64), j = ix2 p q := ⟨j 0, j 1, eq_ix2 j⟩
  have e := idx3 t
  show bnReluRows (n := 5000) (iblk3 V c 0 t) (iblk3 V c 1 t) (iblk3 V c 2 t) (iblk3 V c 3 t) (iblk3 V c 4 t) (ix2 p q)
    = bnReluRows (n := 100000) (V c Cert.KernelIdeal.main_v46) (V c Cert.KernelIdeal.main_v50) (V c Cert.KernelIdeal.main_v51) (V c Cert.KernelIdeal.main_v36) (V c Cert.KernelIdeal.main_v39)
        (((cfg3.win 5).blk t).view.emb (ix2 p q))
  unfold bnReluRows
  refine bnRelu_congr (n := 5000) (n' := 100000) (iblk3 V c 0 t) (V c Cert.KernelIdeal.main_v46) _ _ _ _ _ _ _ _ (ix2 p q)
    (((cfg3.win 5).blk t).view.emb (ix2 p q)) ?_ (blk3_0 V c t p q) (blk3_1 V c t) (blk3_2 V c t) (blk3_3 V c t) (blk3_4 V c t)
  show q.val = win3_5.index t (1 : Fin 2) * 64 + 1 * q.val
  omega

/-- An index of the output array is in step t's block iff each coordinate is in the block's range on its axis. -/
theorem mem3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole Cert.KernelIdeal.main_v52).slice (win3_5.rect t)).set ↔ _
  rw [View.set_slice_whole, Rect.mem_set_unit]
  exact Iff.rfl

/-- The 20 blocks of 5000 rows cover the 100000 rows: row r is in the block of step r / 5000. -/
theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := onto3 ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

end Region

end Bn2L0

/-- The region's output array, when the region is left, is the batch normalisation and positive part of the array of
    entries by the four one-row arrays, all five as the region finds them. -/
theorem bn2_value3 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Gen.dat3 (F := Ideal) V c).arrAt 5 Cert.KernelIdeal.cfg3.N
      = bnReluRows (n := 100000) (V c Cert.KernelIdeal.main_v46) (V c Cert.KernelIdeal.main_v50) (V c Cert.KernelIdeal.main_v51) (V c Cert.KernelIdeal.main_v36) (V c Cert.KernelIdeal.main_v39) :=
  (Cert.KernelIdeal.Gen.dat3 (F := Ideal) V c).arrAt_eq_of_cover 5 _ (fun t _ => Bn2L0.flushed3 V c t) Bn2L0.cover3

namespace Bn2L0

/-! ## The reference's chain read at an index -/

section RRead
open Cert.ReferenceIdeal

/-- The last list takes the maximum with zero, entry by entry. -/
theorem R_relu_0 (W : Valuation τ sig (Elt Ideal)) (p : Fin 100000) (q : Fin 64)
    (y bn : FVec Ideal S100000x64 .f32)
    (hy : StableHlo.after (Cert.ReferenceIdeal.Ops.hostOps0_9 (F := Ideal)) W (Proc.devRef .tc Cert.ReferenceIdeal.main_v101) = y)
    (hbn : W (Proc.devRef .tc Cert.ReferenceIdeal.main_v100) = bn) :
    y (ix2 p q) = max (bn (ix2 p q)) (Ideal.ofBits .f32 0x00000000#32) := by
  subst hy hbn
  after_results
  rfl

/-- The list before it subtracts the mean, multiplies by the reciprocal square root of the variance plus the small
    constant, multiplies by the scale and adds the shift, each of the four read at the entry's column. -/
theorem R_bn_0 (W : Valuation τ sig (Elt Ideal)) (p : Fin 100000) (q : Fin 64)
    (bn z : FVec Ideal S100000x64 .f32) (mu var g be : FVec Ideal S64 .f32)
    (hbn : StableHlo.after (Cert.ReferenceIdeal.Ops.hostOps0_8 (F := Ideal)) W (Proc.devRef .tc Cert.ReferenceIdeal.main_v100) = bn)
    (hz : W (Proc.devRef .tc Cert.ReferenceIdeal.main_v77) = z) (hmu : W (Proc.devRef .tc Cert.ReferenceIdeal.main_v84) = mu)
    (hvar : W (Proc.devRef .tc Cert.ReferenceIdeal.main_v85) = var)
    (hg : W (Proc.devRef .tc Cert.ReferenceIdeal.main_v79) = g) (hbe : W (Proc.devRef .tc Cert.ReferenceIdeal.main_v81) = be) :
    bn (ix2 p q) = (((z (ix2 p q) - mu (ix1 q)) * Ideal.rsqrt (var (ix1 q) + Ideal.ofBits .f32 0x3727C5AC#32)) * g (ix1 q)) + be (ix1 q) := by
  subst hbn hz hmu hvar hg hbe
  after_results
  simp only [addf_apply, mulf_apply, subf_apply]
  rw [bcast_1x64_nx64_apply, bcast_1x64_nx64_apply, bcast_1x64_nx64_apply, bcast_1x64_nx64_apply,
    bcast_64_1x64_apply, bcast_64_1x64_apply, bcast_64_1x64_apply, bcast_64_1x64_apply]
  rfl

end RRead

/-! ## The scale and shift rows: one row of the stacked parameter tables in both programs -/

section KParam
open Cert.KernelIdeal

/-- The kernel program's scale row is the layer's row of the scale table: a slice, flattened and made a row again. -/
theorem K_g_0 (W : Valuation τ sig (Elt Ideal)) (q : Fin 64) (g : FVec Ideal S1x64 .f32) (a : FVec Ideal S4x64 .f32)
    (hg : StableHlo.after (Cert.KernelIdeal.Gen.hostOps1 (F := Ideal)) W (Proc.devRef .tc Cert.KernelIdeal.main_v36) = g)
    (ha : W (Proc.devRef .tc Cert.KernelIdeal.main_arg13) = a) :
    g (ix2 (0 : Fin 1) q) = extractStridedSlice S1x64 _ a Cert.KernelIdeal.Gen.slices_S4x64_S1x64_0_0 (ix2 (0 : Fin 1) q) := by
  subst hg ha
  after_results_simp
  refine (shapeCast_a_1a_apply (a := 64) _ Gen.shapeCasts_S64_S1x64 (0 : Fin 1) q).trans ?_
  exact shapeCast_1a_a_apply (a := 64) _ Gen.shapeCasts_S1x64_S64 q

/-- The kernel program's shift row is the layer's row of the shift table, in the same way. -/
theorem K_be_0 (W : Valuation τ sig (Elt Ideal)) (q : Fin 64) (be : FVec Ideal S1x64 .f32) (a : FVec Ideal S4x64 .f32)
    (hbe : StableHlo.after (Cert.KernelIdeal.Gen.hostOps1 (F := Ideal)) W (Proc.devRef .tc Cert.KernelIdeal.main_v39) = be)
    (ha : W (Proc.devRef .tc Cert.KernelIdeal.main_arg14) = a) :
    be (ix2 (0 : Fin 1) q) = extractStridedSlice S1x64 _ a Cert.KernelIdeal.Gen.slices_S4x64_S1x64_0_0 (ix2 (0 : Fin 1) q) := by
  subst hbe ha
  after_results_simp
  refine (shapeCast_a_1a_apply (a := 64) _ Gen.shapeCasts_S64_S1x64 (0 : Fin 1) q).trans ?_
  exact shapeCast_1a_a_apply (a := 64) _ Gen.shapeCasts_S1x64_S64 q

end KParam

section RParam
open Cert.ReferenceIdeal

/-- The reference's scale vector is the layer's row of the scale table, flattened. -/
theorem R_g_0 (W : Valuation τ sig (Elt Ideal)) (q : Fin 64) (g : FVec Ideal S64 .f32) (a : FVec Ideal S4x64 .f32)
    (hg : StableHlo.after (Cert.ReferenceIdeal.Ops.hostOps0_6 (F := Ideal)) W (Proc.devRef .tc Cert.ReferenceIdeal.main_v79) = g)
    (ha : W (Proc.devRef .tc Cert.ReferenceIdeal.main_arg13) = a) :
    g (ix1 q) = extractStridedSlice S1x64 _ a Cert.ReferenceIdeal.Gen.slices_S4x64_S1x64_0_0 (ix2 (0 : Fin 1) q) := by
  subst hg ha
  after_results_simp
  exact shapeCast_1a_a_apply (a := 64) _ Gen.shapeCasts_S1x64_S64 q

/-- The reference's shift vector is the layer's row of the shift table, flattened. -/
theorem R_be_0 (W : Valuation τ sig (Elt Ideal)) (q : Fin 64) (be : FVec Ideal S64 .f32) (a : FVec Ideal S4x64 .f32)
    (hbe : StableHlo.after (Cert.ReferenceIdeal.Ops.hostOps0_6 (F := Ideal)) W (Proc.devRef .tc Cert.ReferenceIdeal.main_v81) = be)
    (ha : W (Proc.devRef .tc Cert.ReferenceIdeal.main_arg14) = a) :
    be (ix1 q) = extractStridedSlice S1x64 _ a Cert.ReferenceIdeal.Gen.slices_S4x64_S1x64_0_0 (ix2 (0 : Fin 1) q) := by
  subst hbe ha
  after_results_simp
  exact shapeCast_1a_a_apply (a := 64) _ Gen.shapeCasts_S1x64_S64 q

end RParam

/-! ## Each program's value of the layer's output, from the values it was computed from -/

section Assemble

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The kernel program's output of the layer is the batch normalisation and positive part of its second linear layer's
    output by its own mean, variance, scale and shift rows. -/
theorem K_h1_0 (c : Dev Cert.KernelIdeal.nD) :
    KV m ρ c Cert.KernelIdeal.main_v52
      = bnReluRows (n := 100000) (KV m ρ c Cert.KernelIdeal.main_v46) (KV m ρ c Cert.KernelIdeal.main_v50) (KV m ρ c Cert.KernelIdeal.main_v51)
          (KV m ρ c Cert.KernelIdeal.main_v36) (KV m ρ c Cert.KernelIdeal.main_v39) := by
  have h46 : Cert.KernelIdeal.Gen.V13 m ρ c Cert.KernelIdeal.main_v46 = KV m ρ c Cert.KernelIdeal.main_v46 := Cert.KernelIdeal.Keep.toEnd_13 m ρ c Cert.KernelIdeal.main_v46 (by decide)
  have h50 : Cert.KernelIdeal.Gen.V13 m ρ c Cert.KernelIdeal.main_v50 = KV m ρ c Cert.KernelIdeal.main_v50 := Cert.KernelIdeal.Keep.toEnd_13 m ρ c Cert.KernelIdeal.main_v50 (by decide)
  have h51 : Cert.KernelIdeal.Gen.V13 m ρ c Cert.KernelIdeal.main_v51 = KV m ρ c Cert.KernelIdeal.main_v51 := Cert.KernelIdeal.Keep.toEnd_13 m ρ c Cert.KernelIdeal.main_v51 (by decide)
  have h36 : Cert.KernelIdeal.Gen.V13 m ρ c Cert.KernelIdeal.main_v36 = KV m ρ c Cert.KernelIdeal.main_v36 := Cert.KernelIdeal.Keep.toEnd_13 m ρ c Cert.KernelIdeal.main_v36 (by decide)
  have h39 : Cert.KernelIdeal.Gen.V13 m ρ c Cert.KernelIdeal.main_v39 = KV m ρ c Cert.KernelIdeal.main_v39 := Cert.KernelIdeal.Keep.toEnd_13 m ρ c Cert.KernelIdeal.main_v39 (by decide)
  refine (Cert.KernelIdeal.Keep.toEnd_14 m ρ c Cert.KernelIdeal.main_v52 (by decide)).symm.trans ?_
  refine (Cert.KernelIdeal.Gen.W14_arr m ρ c 5).trans ?_
  refine (bn2_value3 (Cert.KernelIdeal.Gen.V13 m ρ) c).trans ?_
  rw [h46, h50, h51, h36, h39]

/-- The reference's output of the layer is the same function of its second linear layer's output and its mean,
    variance, scale and shift vectors. -/
theorem R_h1_0 (c : Dev Cert.ReferenceIdeal.nD) :
    RV m' c Cert.ReferenceIdeal.main_v101
      = bnReluVecs (n := 100000) (RV m' c Cert.ReferenceIdeal.main_v77) (RV m' c Cert.ReferenceIdeal.main_v84) (RV m' c Cert.ReferenceIdeal.main_v85)
          (RV m' c Cert.ReferenceIdeal.main_v79) (RV m' c Cert.ReferenceIdeal.main_v81) := by
  funext i
  obtain ⟨p, q, rfl⟩ : ∃ (p : Fin 100000) (q : Fin 64), i = ix2 p q := ⟨i 0, i 1, eq_ix2 i⟩
  have h1 := R_relu_0 (Cert.Bridge.R9 m' c) p q (RV m' c Cert.ReferenceIdeal.main_v101) (RV m' c Cert.ReferenceIdeal.main_v100)
    (Cert.ReferenceIdeal.Keep.toEnd_10 m' c Cert.ReferenceIdeal.main_v101 (by decide))
    (Cert.ReferenceIdeal.Keep.toEnd_9 m' c Cert.ReferenceIdeal.main_v100 (by decide))
  have h2 := R_bn_0 (Cert.Bridge.R8 m' c) p q (RV m' c Cert.ReferenceIdeal.main_v100) (RV m' c Cert.ReferenceIdeal.main_v77)
    (RV m' c Cert.ReferenceIdeal.main_v84) (RV m' c Cert.ReferenceIdeal.main_v85) (RV m' c Cert.ReferenceIdeal.main_v79) (RV m' c Cert.ReferenceIdeal.main_v81)
    (Cert.ReferenceIdeal.Keep.toEnd_9 m' c Cert.ReferenceIdeal.main_v100 (by decide))
    (Cert.ReferenceIdeal.Keep.toEnd_8 m' c Cert.ReferenceIdeal.main_v77 (by decide))
    (Cert.ReferenceIdeal.Keep.toEnd_8 m' c Cert.ReferenceIdeal.main_v84 (by decide))
    (Cert.ReferenceIdeal.Keep.toEnd_8 m' c Cert.ReferenceIdeal.main_v85 (by decide))
    (Cert.ReferenceIdeal.Keep.toEnd_8 m' c Cert.ReferenceIdeal.main_v79 (by decide))
    (Cert.ReferenceIdeal.Keep.toEnd_8 m' c Cert.ReferenceIdeal.main_v81 (by decide))
  refine h1.trans ?_
  rw [h2]
  unfold bnReluVecs
  rw [bnRelu_apply]

/-- The two programs' scale data agree column by column: both are the layer's row of the one scale table. -/
theorem g_corr_0 (hag : Agree m m') (c : Dev Cert.KernelIdeal.nD) (q : Fin 64) :
    (KV m ρ c Cert.KernelIdeal.main_v36 : FVec Ideal Cert.KernelIdeal.S1x64 .f32) (ix2 (0 : Fin 1) q)
      = (RV m' c Cert.ReferenceIdeal.main_v79 : FVec Ideal Cert.ReferenceIdeal.S64 .f32) (ix1 q) := by
  have hk := K_g_0 (Cert.KernelIdeal.Gen.W6 m ρ c) q (KV m ρ c Cert.KernelIdeal.main_v36)
    (m ((c.tc : Thread Cert.KernelIdeal.nD Cert.KernelIdeal.τ).loc Cert.KernelIdeal.main_arg13))
    (Cert.KernelIdeal.Keep.toEnd_7 m ρ c Cert.KernelIdeal.main_v36 (by decide))
    ((Cert.KernelIdeal.Keep.toEnd_6 m ρ c Cert.KernelIdeal.main_arg13 (by decide)).trans (KV_scale m ρ c))
  have hr := R_g_0 (Cert.Bridge.R6 m' c) q (RV m' c Cert.ReferenceIdeal.main_v79)
    (m' ((c.tc : Thread Cert.ReferenceIdeal.nD Cert.ReferenceIdeal.τ).loc Cert.ReferenceIdeal.main_arg13))
    (Cert.ReferenceIdeal.Keep.toEnd_7 m' c Cert.ReferenceIdeal.main_v79 (by decide))
    ((Cert.ReferenceIdeal.Keep.toEnd_6 m' c Cert.ReferenceIdeal.main_arg13 (by decide)).trans (RV_scale m' c))
  refine hk.trans (Eq.trans ?_ hr.symm)
  rw [agree_scale m m' hag c]

/-- The two programs' shift data agree column by column: both are the layer's row of the one shift table. -/
theorem be_corr_0 (hag : Agree m m') (c : Dev Cert.KernelIdeal.nD) (q : Fin 64) :
    (KV m ρ c Cert.KernelIdeal.main_v39 : FVec Ideal Cert.KernelIdeal.S1x64 .f32) (ix2 (0 : Fin 1) q)
      = (RV m' c Cert.ReferenceIdeal.main_v81 : FVec Ideal Cert.ReferenceIdeal.S64 .f32) (ix1 q) := by
  have hk := K_be_0 (Cert.KernelIdeal.Gen.W6 m ρ c) q (KV m ρ c Cert.KernelIdeal.main_v39)
    (m ((c.tc : Thread Cert.KernelIdeal.nD Cert.KernelIdeal.τ).loc Cert.KernelIdeal.main_arg14))
    (Cert.KernelIdeal.Keep.toEnd_7 m ρ c Cert.KernelIdeal.main_v39 (by decide))
    ((Cert.KernelIdeal.Keep.toEnd_6 m ρ c Cert.KernelIdeal.main_arg14 (by decide)).trans (KV_shift m ρ c))
  have hr := R_be_0 (Cert.Bridge.R6 m' c) q (RV m' c Cert.ReferenceIdeal.main_v81)
    (m' ((c.tc : Thread Cert.ReferenceIdeal.nD Cert.ReferenceIdeal.τ).loc Cert.ReferenceIdeal.main_arg14))
    (Cert.ReferenceIdeal.Keep.toEnd_7 m' c Cert.ReferenceIdeal.main_v81 (by decide))
    ((Cert.ReferenceIdeal.Keep.toEnd_6 m' c Cert.ReferenceIdeal.main_arg14 (by decide)).trans (RV_shift m' c))
  refine hk.trans (Eq.trans ?_ hr.symm)
  rw [agree_shift m m' hag c]

end Assemble

end Bn2L0

/-- The layer's output agrees between the two programs, given that the second linear layer's outputs agree and that
    the two means and the two variances agree column by column (the kernel program keeps each as one row of 64, the
    reference as a vector of 64). -/
theorem corr_h1_0
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hag : Agree m m')
    (hz : KV m ρ c Cert.KernelIdeal.main_v46 = RV m' c Cert.ReferenceIdeal.main_v77)
    (hmu : ∀ j : Fin 64, (KV m ρ c Cert.KernelIdeal.main_v50 : FVec Ideal Cert.KernelIdeal.S1x64 .f32) (ix2 (0 : Fin 1) j)
      = (RV m' c Cert.ReferenceIdeal.main_v84 : FVec Ideal Cert.ReferenceIdeal.S64 .f32) (ix1 j))
    (hvar : ∀ j : Fin 64, (KV m ρ c Cert.KernelIdeal.main_v51 : FVec Ideal Cert.KernelIdeal.S1x64 .f32) (ix2 (0 : Fin 1) j)
      = (RV m' c Cert.ReferenceIdeal.main_v85 : FVec Ideal Cert.ReferenceIdeal.S64 .f32) (ix1 j)) :
    KV m ρ c Cert.KernelIdeal.main_v52 = RV m' c Cert.ReferenceIdeal.main_v101 := by
  refine (Bn2L0.K_h1_0 m ρ c).trans (Eq.trans ?_ (Bn2L0.R_h1_0 m' c).symm)
  funext i
  obtain ⟨p, q, rfl⟩ : ∃ (p : Fin 100000) (q : Fin 64), i = ix2 p q := ⟨i 0, i 1, eq_ix2 i⟩
  unfold bnReluRows bnReluVecs
  refine bnRelu_congr (n := 100000) (n' := 100000) (KV m ρ c Cert.KernelIdeal.main_v46) (RV m' c Cert.ReferenceIdeal.main_v77)
    _ _ _ _ _ _ _ _ (ix2 p q) (ix2 p q) rfl ?_ hmu hvar (Bn2L0.g_corr_0 m ρ m' hag c) (Bn2L0.be_corr_0 m ρ m' hag c)
  rw [hz]

end Cert.Bridge

end
-- ==== Proof.Bridge.Bn2_L1.lean ====
/- The last stage of a layer: batch normalisation of the second linear layer's output by its column means and variances
   and the layer's scale and shift parameters, followed by the positive part.

   In the kernel program a grid of 20 steps computes it, each step on a block of 5000 of the 100000 rows with the four
   column data held as one-row arrays; the 20 blocks tile the array, so the output array ends holding one function of the
   five arrays the steps read (bn2_value7). In the reference a chain of broadcasts and entrywise operations computes it
   from the same entries with the four column data held as vectors. Both are the one function of the shared module, so
   the two outputs agree once the entries, the means and the variances agree (corr_h1_1); the scales and the shifts agree
   because both programs cut them from the same row of the same argument tables. -/
import proofs.«417278_j53197464928922_1_alg».proof.Proof.Bridge.Bn2Shared
import Idealize.ShloMosaic.Lib.StableHlo.Run
import Idealize.ShloMosaic.Lib.Pipeline.Value
import Idealize.ShloMosaic.Lib.Tactic

set_option maxRecDepth 16384

noncomputable section

namespace Cert.Bridge

open Idealize.ShloMosaic Idealize.ShloMosaic.TcCoe Idealize.SL.Sem Idealize.ShloMosaic.ValueIdx
open Idealize.ShloMosaic.Pipeline (Dat)
open Idealize.ShloMosaic.StableHlo
open Cert.Bridge.Bn2

namespace Bn2L1

/-! ## What the region's output array holds when the region is left

The grid has 20 steps; step t reads rows 5000 t to 5000 t + 4999 of the array of entries and the whole of each of the
four one-row arrays, and writes the same rows of the output array. -/

section Region
open Cert.KernelIdeal Cert.KernelIdeal.Gen

variable (V : (c : Dev Cert.KernelIdeal.nD) → (b : Ref Cert.KernelIdeal.sig .tc) → Buf (Elt Ideal) ((c : Thread Cert.KernelIdeal.nD Cert.KernelIdeal.τ).loc b))

/-- The block one grid step stores is the function of the block of entries and the four rows it loads. -/
theorem pay7 (x0 : FVec Ideal S5000x64 .f32) (x1 x2 x3 x4 : FVec Ideal S1x64 .f32) :
    k7_pay1 (F := Ideal) x0 x1 x2 x3 x4 = bnReluRows (n := 5000) x0 x1 x2 x3 x4 := by
  funext j
  obtain ⟨p, q, rfl⟩ : ∃ (p : Fin 5000) (q : Fin 64), j = ix2 p q := ⟨j 0, j 1, eq_ix2 j⟩
  unfold bnReluRows
  rw [bnRelu_apply]
  unfold k7_pay1
  simp only [maximumf_apply, addf_apply, mulf_apply, subf_apply, broadcast_apply, shapeCast_self, broadcastTo_1b_ab_apply]
  rfl

/-- The block indices over the grid: the entries' window moves with the output's window down the rows, neither moves
    along the columns, and the four one-row windows stay at the origin. -/
theorem idx7 : ∀ t : Fin cfg7.N, win7_0.index t (0 : Fin 2) = win7_5.index t (0 : Fin 2)
    ∧ win7_0.index t (1 : Fin 2) = 0 ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, _)

/-- Every block of 5000 rows is some grid step's output block. -/
theorem onto7 : ∀ q0 : Fin 20, ∃ t : Fin cfg7.N, win7_5.index t = ![q0.val, 0] :=
  (by decide +kernel : ∀ q0 : Fin 20, ∃ t : Fin grid7.N, win7_5.index t = ![q0.val, 0])

/-- The entries' block at step t, at (p, q), is the array of entries at the place of (p, q) in the output's block. -/
theorem blk7_0 (c : Dev nD) (t : Fin cfg7.N) (p : Fin 5000) (q : Fin 64) :
    (iblk7 V c 0 t : FVec Ideal S5000x64 .f32) (ix2 p q)
      = (V c Cert.KernelIdeal.main_v94 : FVec Ideal S100000x64 .f32) (((cfg7.win 5).blk t).view.emb (ix2 p q)) := by
  have e := idx7 t
  show V c Cert.KernelIdeal.main_v94 (((cfg7.win 0).blk t).view.emb (ix2 p q)) = V c Cert.KernelIdeal.main_v94 (((cfg7.win 5).blk t).view.emb (ix2 p q))
  refine congrArg (V c Cert.KernelIdeal.main_v94) (funext fun a => Fin.ext ?_)
  match a with
  | ⟨0, _⟩ => show win7_0.index t (0 : Fin 2) * 5000 + 1 * p.val = win7_5.index t (0 : Fin 2) * 5000 + 1 * p.val; omega
  | ⟨1, _⟩ => show win7_0.index t (1 : Fin 2) * 64 + 1 * q.val = win7_5.index t (1 : Fin 2) * 64 + 1 * q.val; omega

/-- The mean's block at every step is the whole one-row array. -/
theorem blk7_1 (c : Dev nD) (t : Fin cfg7.N) (q : Fin 64) :
    (iblk7 V c 1 t : FVec Ideal S1x64 .f32) (ix2 (0 : Fin 1) q) = (V c Cert.KernelIdeal.main_v98 : FVec Ideal S1x64 .f32) (ix2 (0 : Fin 1) q) := by
  have e := idx7 t
  show V c Cert.KernelIdeal.main_v98 (((cfg7.win 1).blk t).view.emb (ix2 (0 : Fin 1) q)) = V c Cert.KernelIdeal.main_v98 (ix2 (0 : Fin 1) q)
  refine congrArg (V c Cert.KernelIdeal.main_v98) (funext fun a => Fin.ext ?_)
  match a with
  | ⟨0, _⟩ => show win7_1.index t (0 : Fin 2) * 1 + 1 * 0 = 0; omega
  | ⟨1, _⟩ => show win7_1.index t (1 : Fin 2) * 64 + 1 * q.val = q.val; omega

/-- The variance's block at every step is the whole one-row array. -/
theorem blk7_2 (c : Dev nD) (t : Fin cfg7.N) (q : Fin 64) :
    (iblk7 V c 2 t : FVec Ideal S1x64 .f32) (ix2 (0 : Fin 1) q) = (V c Cert.KernelIdeal.main_v99 : FVec Ideal S1x64 .f32) (ix2 (0 : Fin 1) q) := by
  have e := idx7 t
  show V c Cert.KernelIdeal.main_v99 (((cfg7.win 2).blk t).view.emb (ix2 (0 : Fin 1) q)) = V c Cert.KernelIdeal.main_v99 (ix2 (0 : Fin 1) q)
  refine congrArg (V c Cert.KernelIdeal.main_v99) (funext fun a => Fin.ext ?_)
  match a with
  | ⟨0, _⟩ => show win7_2.index t (0 : Fin 2) * 1 + 1 * 0 = 0; omega
  | ⟨1, _⟩ => show win7_2.index t (1 : Fin 2) * 64 + 1 * q.val = q.val; omega

/-- The scale's block at every step is the whole one-row array. -/
theorem blk7_3 (c : Dev nD) (t : Fin cfg7.N) (q : Fin 64) :
    (iblk7 V c 3 t : FVec Ideal S1x64 .f32) (ix2 (0 : Fin 1) q) = (V c Cert.KernelIdeal.main_v84 : FVec Ideal S1x64 .f32) (ix2 (0 : Fin 1) q) := by
  have e := idx7 t
  show V c Cert.KernelIdeal.main_v84 (((cfg7.win 3).blk t).view.emb (ix2 (0 : Fin 1) q)) = V c Cert.KernelIdeal.main_v84 (ix2 (0 : Fin 1) q)
  refine congrArg (V c Cert.KernelIdeal.main_v84) (funext fun a => Fin.ext ?_)
  match a with
  | ⟨0, _⟩ => show win7_3.index t (0 : Fin 2) * 1 + 1 * 0 = 0; omega
  | ⟨1, _⟩ => show win7_3.index t (1 : Fin 2) * 64 + 1 * q.val = q.val; omega

/-- The shift's block at every step is the whole one-row array. -/
theorem blk7_4 (c : Dev nD) (t : Fin cfg7.N) (q : Fin 64) :
    (iblk7 V c 4 t : FVec Ideal S1x64 .f32) (ix2 (0 : Fin 1) q) = (V c Cert.KernelIdeal.main_v87 : FVec Ideal S1x64 .f32) (ix2 (0 : Fin 1) q) := by
  have e := idx7 t
  show V c Cert.KernelIdeal.main_v87 (((cfg7.win 4).blk t).view.emb (ix2 (0 : Fin 1) q)) = V c Cert.KernelIdeal.main_v87 (ix2 (0 : Fin 1) q)
  refine congrArg (V c Cert.KernelIdeal.main_v87) (funext fun a => Fin.ext ?_)
  match a with
  | ⟨0, _⟩ => show win7_4.index t (0 : Fin 2) * 1 + 1 * 0 = 0; omega
  | ⟨1, _⟩ => show win7_4.index t (1 : Fin 2) * 64 + 1 * q.val = q.val; omega

/-- What step t writes back is its block of rows of the one function of the five arrays as the region finds them. -/
theorem flushed7 (c : Dev nD) (t : Fin cfg7.N) :
    (dat7 (F := Ideal) V c).flushed 5 t = ((cfg7.win 5).blk t).view.read (Elt Ideal)
      (bnReluRows (n := 100000) (V c Cert.KernelIdeal.main_v94) (V c Cert.KernelIdeal.main_v98) (V c Cert.KernelIdeal.main_v99) (V c Cert.KernelIdeal.main_v84) (V c Cert.KernelIdeal.main_v87)) := by
  show (cfg7.win 5).cut (grid7.coords t) ((dat7 V c).after 5 t) = _
  rw [after7_5]
  unfold out7_5
  rw [View.canon_unit_zero hz]
  simp only [View.ld_unit_zero (S := S5000x64) hz, View.ld_unit_zero (S := S1x64) hz]
  rw [pay7]
  funext j
  obtain ⟨p, q, rfl⟩ : ∃ (p : Fin 5000) (q : Fin 64), j = ix2 p q := ⟨j 0, j 1, eq_ix2 j⟩
  have e := idx7 t
  show bnReluRows (n := 5000) (iblk7 V c 0 t) (iblk7 V c 1 t) (iblk7 V c 2 t) (iblk7 V c 3 t) (iblk7 V c 4 t) (ix2 p q)
    = bnReluRows (n := 100000) (V c Cert.KernelIdeal.main_v94) (V c Cert.KernelIdeal.main_v98) (V c Cert.KernelIdeal.main_v99) (V c Cert.KernelIdeal.main_v84) (V c Cert.KernelIdeal.main_v87)
        (((cfg7.win 5).blk t).view.emb (ix2 p q))
  unfold bnReluRows
  refine bnRelu_congr (n := 5000) (n' := 100000) (iblk7 V c 0 t) (V c Cert.KernelIdeal.main_v94) _ _ _ _ _ _ _ _ (ix2 p q)
    (((cfg7.win 5).blk t).view.emb (ix2 p q)) ?_ (blk7_0 V c t p q) (blk7_1 V c t) (blk7_2 V c t) (blk7_3 V c t) (blk7_4 V c t)
  show q.val = win7_5.index t (1 : Fin 2) * 64 + 1 * q.val
  omega

/-- An index of the output array is in step t's block iff each coordinate is in the block's range on its axis. -/
theorem mem7 (t : Fin cfg7.N) (i : S100000x64.Idx) :
    i ∈ ((cfg7.win 5).blk t).view.set ↔ ∀ a : Fin 2, win7_5.index t a * S5000x64.size a ≤ (i a).val ∧ (i a).val < win7_5.index t a * S5000x64.size a + S5000x64.size a := by
  show i ∈ ((View.whole Cert.KernelIdeal.main_v100).slice (win7_5.rect t)).set ↔ _
  rw [View.set_slice_whole, Rect.mem_set_unit]
  exact Iff.rfl

/-- The 20 blocks of 5000 rows cover the 100000 rows: row r is in the block of step r / 5000. -/
theorem cover7 (i : S100000x64.Idx) : ∃ t : Fin cfg7.N, (cfg7.win 5).flush t = true ∧ i ∈ ((cfg7.win 5).blk t).view.set := by
  have hi0 : (i 0).val < 100000 := (i 0).isLt
  have hi1 : (i 1).val < 64 := (i 1).isLt
  obtain ⟨t, ht⟩ := onto7 ⟨(i 0).val / 5000, by omega⟩
  have q0 : win7_5.index t (0 : Fin 2) = (i 0).val / 5000 := congrFun ht 0
  have q1 : win7_5.index t (1 : Fin 2) = 0 := congrFun ht 1
  refine ⟨t, flush7_5 t, ?_⟩
  rw [mem7]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 64 ≤ (i 1).val ∧ (i 1).val < win7_5.index t (1 : Fin 2) * 64 + 64; omega

end Region

end Bn2L1

/-- The region's output array, when the region is left, is the batch normalisation and positive part of the array of
    entries by the four one-row arrays, all five as the region finds them. -/
theorem bn2_value7 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Gen.dat7 (F := Ideal) V c).arrAt 5 Cert.KernelIdeal.cfg7.N
      = bnReluRows (n := 100000) (V c Cert.KernelIdeal.main_v94) (V c Cert.KernelIdeal.main_v98) (V c Cert.KernelIdeal.main_v99) (V c Cert.KernelIdeal.main_v84) (V c Cert.KernelIdeal.main_v87) :=
  (Cert.KernelIdeal.Gen.dat7 (F := Ideal) V c).arrAt_eq_of_cover 5 _ (fun t _ => Bn2L1.flushed7 V c t) Bn2L1.cover7

namespace Bn2L1

/-! ## The reference's chain read at an index -/

section RRead
open Cert.ReferenceIdeal

/-- The last list takes the maximum with zero, entry by entry. -/
theorem R_relu_1 (W : Valuation τ sig (Elt Ideal)) (p : Fin 100000) (q : Fin 64)
    (y bn : FVec Ideal S100000x64 .f32)
    (hy : StableHlo.after (Cert.ReferenceIdeal.Ops.hostOps0_19 (F := Ideal)) W (Proc.devRef .tc Cert.ReferenceIdeal.main_v192) = y)
    (hbn : W (Proc.devRef .tc Cert.ReferenceIdeal.main_v191) = bn) :
    y (ix2 p q) = max (bn (ix2 p q)) (Ideal.ofBits .f32 0x00000000#32) := by
  subst hy hbn
  after_results
  rfl

/-- The list before it subtracts the mean, multiplies by the reciprocal square root of the variance plus the small
    constant, multiplies by the scale and adds the shift, each of the four read at the entry's column. -/
theorem R_bn_1 (W : Valuation τ sig (Elt Ideal)) (p : Fin 100000) (q : Fin 64)
    (bn z : FVec Ideal S100000x64 .f32) (mu var g be : FVec Ideal S64 .f32)
    (hbn : StableHlo.after (Cert.ReferenceIdeal.Ops.hostOps0_18 (F := Ideal)) W (Proc.devRef .tc Cert.ReferenceIdeal.main_v191) = bn)
    (hz : W (Proc.devRef .tc Cert.ReferenceIdeal.main_v168) = z) (hmu : W (Proc.devRef .tc Cert.ReferenceIdeal.main_v175) = mu)
    (hvar : W (Proc.devRef .tc Cert.ReferenceIdeal.main_v176) = var)
    (hg : W (Proc.devRef .tc Cert.ReferenceIdeal.main_v170) = g) (hbe : W (Proc.devRef .tc Cert.ReferenceIdeal.main_v172) = be) :
    bn (ix2 p q) = (((z (ix2 p q) - mu (ix1 q)) * Ideal.rsqrt (var (ix1 q) + Ideal.ofBits .f32 0x3727C5AC#32)) * g (ix1 q)) + be (ix1 q) := by
  subst hbn hz hmu hvar hg hbe
  after_results
  simp only [addf_apply, mulf_apply, subf_apply]
  rw [bcast_1x64_nx64_apply, bcast_1x64_nx64_apply, bcast_1x64_nx64_apply, bcast_1x64_nx64_apply,
    bcast_64_1x64_apply, bcast_64_1x64_apply, bcast_64_1x64_apply, bcast_64_1x64_apply]
  rfl

end RRead

/-! ## The scale and shift rows: one row of the stacked parameter tables in both programs -/

section KParam
open Cert.KernelIdeal

/-- The kernel program's scale row is the layer's row of the scale table: a slice, flattened and made a row again. -/
theorem K_g_1 (W : Valuation τ sig (Elt Ideal)) (q : Fin 64) (g : FVec Ideal S1x64 .f32) (a : FVec Ideal S4x64 .f32)
    (hg : StableHlo.after (Cert.KernelIdeal.Gen.hostOps5 (F := Ideal)) W (Proc.devRef .tc Cert.KernelIdeal.main_v84) = g)
    (ha : W (Proc.devRef .tc Cert.KernelIdeal.main_arg13) = a) :
    g (ix2 (0 : Fin 1) q) = extractStridedSlice S1x64 _ a Cert.KernelIdeal.Gen.slices_S4x64_S1x64_1_0 (ix2 (0 : Fin 1) q) := by
  subst hg ha
  after_results_simp
  refine (shapeCast_a_1a_apply (a := 64) _ Gen.shapeCasts_S64_S1x64 (0 : Fin 1) q).trans ?_
  exact shapeCast_1a_a_apply (a := 64) _ Gen.shapeCasts_S1x64_S64 q

/-- The kernel program's shift row is the layer's row of the shift table, in the same way. -/
theorem K_be_1 (W : Valuation τ sig (Elt Ideal)) (q : Fin 64) (be : FVec Ideal S1x64 .f32) (a : FVec Ideal S4x64 .f32)
    (hbe : StableHlo.after (Cert.KernelIdeal.Gen.hostOps5 (F := Ideal)) W (Proc.devRef .tc Cert.KernelIdeal.main_v87) = be)
    (ha : W (Proc.devRef .tc Cert.KernelIdeal.main_arg14) = a) :
    be (ix2 (0 : Fin 1) q) = extractStridedSlice S1x64 _ a Cert.KernelIdeal.Gen.slices_S4x64_S1x64_1_0 (ix2 (0 : Fin 1) q) := by
  subst hbe ha
  after_results_simp
  refine (shapeCast_a_1a_apply (a := 64) _ Gen.shapeCasts_S64_S1x64 (0 : Fin 1) q).trans ?_
  exact shapeCast_1a_a_apply (a := 64) _ Gen.shapeCasts_S1x64_S64 q

end KParam

section RParam
open Cert.ReferenceIdeal

/-- The reference's scale vector is the layer's row of the scale table, flattened. -/
theorem R_g_1 (W : Valuation τ sig (Elt Ideal)) (q : Fin 64) (g : FVec Ideal S64 .f32) (a : FVec Ideal S4x64 .f32)
    (hg : StableHlo.after (Cert.ReferenceIdeal.Ops.hostOps0_16 (F := Ideal)) W (Proc.devRef .tc Cert.ReferenceIdeal.main_v170) = g)
    (ha : W (Proc.devRef .tc Cert.ReferenceIdeal.main_arg13) = a) :
    g (ix1 q) = extractStridedSlice S1x64 _ a Cert.ReferenceIdeal.Gen.slices_S4x64_S1x64_1_0 (ix2 (0 : Fin 1) q) := by
  subst hg ha
  after_results_simp
  exact shapeCast_1a_a_apply (a := 64) _ Gen.shapeCasts_S1x64_S64 q

/-- The reference's shift vector is the layer's row of the shift table, flattened. -/
theorem R_be_1 (W : Valuation τ sig (Elt Ideal)) (q : Fin 64) (be : FVec Ideal S64 .f32) (a : FVec Ideal S4x64 .f32)
    (hbe : StableHlo.after (Cert.ReferenceIdeal.Ops.hostOps0_16 (F := Ideal)) W (Proc.devRef .tc Cert.ReferenceIdeal.main_v172) = be)
    (ha : W (Proc.devRef .tc Cert.ReferenceIdeal.main_arg14) = a) :
    be (ix1 q) = extractStridedSlice S1x64 _ a Cert.ReferenceIdeal.Gen.slices_S4x64_S1x64_1_0 (ix2 (0 : Fin 1) q) := by
  subst hbe ha
  after_results_simp
  exact shapeCast_1a_a_apply (a := 64) _ Gen.shapeCasts_S1x64_S64 q

end RParam

/-! ## Each program's value of the layer's output, from the values it was computed from -/

section Assemble

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The kernel program's output of the layer is the batch normalisation and positive part of its second linear layer's
    output by its own mean, variance, scale and shift rows. -/
theorem K_h1_1 (c : Dev Cert.KernelIdeal.nD) :
    KV m ρ c Cert.KernelIdeal.main_v100
      = bnReluRows (n := 100000) (KV m ρ c Cert.KernelIdeal.main_v94) (KV m ρ c Cert.KernelIdeal.main_v98) (KV m ρ c Cert.KernelIdeal.main_v99)
          (KV m ρ c Cert.KernelIdeal.main_v84) (KV m ρ c Cert.KernelIdeal.main_v87) := by
  have h46 : Cert.KernelIdeal.Gen.V25 m ρ c Cert.KernelIdeal.main_v94 = KV m ρ c Cert.KernelIdeal.main_v94 := Cert.KernelIdeal.Keep.toEnd_25 m ρ c Cert.KernelIdeal.main_v94 (by decide)
  have h50 : Cert.KernelIdeal.Gen.V25 m ρ c Cert.KernelIdeal.main_v98 = KV m ρ c Cert.KernelIdeal.main_v98 := Cert.KernelIdeal.Keep.toEnd_25 m ρ c Cert.KernelIdeal.main_v98 (by decide)
  have h51 : Cert.KernelIdeal.Gen.V25 m ρ c Cert.KernelIdeal.main_v99 = KV m ρ c Cert.KernelIdeal.main_v99 := Cert.KernelIdeal.Keep.toEnd_25 m ρ c Cert.KernelIdeal.main_v99 (by decide)
  have h36 : Cert.KernelIdeal.Gen.V25 m ρ c Cert.KernelIdeal.main_v84 = KV m ρ c Cert.KernelIdeal.main_v84 := Cert.KernelIdeal.Keep.toEnd_25 m ρ c Cert.KernelIdeal.main_v84 (by decide)
  have h39 : Cert.KernelIdeal.Gen.V25 m ρ c Cert.KernelIdeal.main_v87 = KV m ρ c Cert.KernelIdeal.main_v87 := Cert.KernelIdeal.Keep.toEnd_25 m ρ c Cert.KernelIdeal.main_v87 (by decide)
  refine (Cert.KernelIdeal.Keep.toEnd_26 m ρ c Cert.KernelIdeal.main_v100 (by decide)).symm.trans ?_
  refine (Cert.KernelIdeal.Gen.W26_arr m ρ c 5).trans ?_
  refine (bn2_value7 (Cert.KernelIdeal.Gen.V25 m ρ) c).trans ?_
  rw [h46, h50, h51, h36, h39]

/-- The reference's output of the layer is the same function of its second linear layer's output and its mean,
    variance, scale and shift vectors. -/
theorem R_h1_1 (c : Dev Cert.ReferenceIdeal.nD) :
    RV m' c Cert.ReferenceIdeal.main_v192
      = bnReluVecs (n := 100000) (RV m' c Cert.ReferenceIdeal.main_v168) (RV m' c Cert.ReferenceIdeal.main_v175) (RV m' c Cert.ReferenceIdeal.main_v176)
          (RV m' c Cert.ReferenceIdeal.main_v170) (RV m' c Cert.ReferenceIdeal.main_v172) := by
  funext i
  obtain ⟨p, q, rfl⟩ : ∃ (p : Fin 100000) (q : Fin 64), i = ix2 p q := ⟨i 0, i 1, eq_ix2 i⟩
  have h1 := R_relu_1 (Cert.Bridge.R19 m' c) p q (RV m' c Cert.ReferenceIdeal.main_v192) (RV m' c Cert.ReferenceIdeal.main_v191)
    (Cert.ReferenceIdeal.Keep.toEnd_20 m' c Cert.ReferenceIdeal.main_v192 (by decide))
    (Cert.ReferenceIdeal.Keep.toEnd_19 m' c Cert.ReferenceIdeal.main_v191 (by decide))
  have h2 := R_bn_1 (Cert.Bridge.R18 m' c) p q (RV m' c Cert.ReferenceIdeal.main_v191) (RV m' c Cert.ReferenceIdeal.main_v168)
    (RV m' c Cert.ReferenceIdeal.main_v175) (RV m' c Cert.ReferenceIdeal.main_v176) (RV m' c Cert.ReferenceIdeal.main_v170) (RV m' c Cert.ReferenceIdeal.main_v172)
    (Cert.ReferenceIdeal.Keep.toEnd_19 m' c Cert.ReferenceIdeal.main_v191 (by decide))
    (Cert.ReferenceIdeal.Keep.toEnd_18 m' c Cert.ReferenceIdeal.main_v168 (by decide))
    (Cert.ReferenceIdeal.Keep.toEnd_18 m' c Cert.ReferenceIdeal.main_v175 (by decide))
    (Cert.ReferenceIdeal.Keep.toEnd_18 m' c Cert.ReferenceIdeal.main_v176 (by decide))
    (Cert.ReferenceIdeal.Keep.toEnd_18 m' c Cert.ReferenceIdeal.main_v170 (by decide))
    (Cert.ReferenceIdeal.Keep.toEnd_18 m' c Cert.ReferenceIdeal.main_v172 (by decide))
  refine h1.trans ?_
  rw [h2]
  unfold bnReluVecs
  rw [bnRelu_apply]

/-- The two programs' scale data agree column by column: both are the layer's row of the one scale table. -/
theorem g_corr_1 (hag : Agree m m') (c : Dev Cert.KernelIdeal.nD) (q : Fin 64) :
    (KV m ρ c Cert.KernelIdeal.main_v84 : FVec Ideal Cert.KernelIdeal.S1x64 .f32) (ix2 (0 : Fin 1) q)
      = (RV m' c Cert.ReferenceIdeal.main_v170 : FVec Ideal Cert.ReferenceIdeal.S64 .f32) (ix1 q) := by
  have hk := K_g_1 (Cert.KernelIdeal.Gen.W18 m ρ c) q (KV m ρ c Cert.KernelIdeal.main_v84)
    (m ((c.tc : Thread Cert.KernelIdeal.nD Cert.KernelIdeal.τ).loc Cert.KernelIdeal.main_arg13))
    (Cert.KernelIdeal.Keep.toEnd_19 m ρ c Cert.KernelIdeal.main_v84 (by decide))
    ((Cert.KernelIdeal.Keep.toEnd_18 m ρ c Cert.KernelIdeal.main_arg13 (by decide)).trans (KV_scale m ρ c))
  have hr := R_g_1 (Cert.Bridge.R16 m' c) q (RV m' c Cert.ReferenceIdeal.main_v170)
    (m' ((c.tc : Thread Cert.ReferenceIdeal.nD Cert.ReferenceIdeal.τ).loc Cert.ReferenceIdeal.main_arg13))
    (Cert.ReferenceIdeal.Keep.toEnd_17 m' c Cert.ReferenceIdeal.main_v170 (by decide))
    ((Cert.ReferenceIdeal.Keep.toEnd_16 m' c Cert.ReferenceIdeal.main_arg13 (by decide)).trans (RV_scale m' c))
  refine hk.trans (Eq.trans ?_ hr.symm)
  rw [agree_scale m m' hag c]

/-- The two programs' shift data agree column by column: both are the layer's row of the one shift table. -/
theorem be_corr_1 (hag : Agree m m') (c : Dev Cert.KernelIdeal.nD) (q : Fin 64) :
    (KV m ρ c Cert.KernelIdeal.main_v87 : FVec Ideal Cert.KernelIdeal.S1x64 .f32) (ix2 (0 : Fin 1) q)
      = (RV m' c Cert.ReferenceIdeal.main_v172 : FVec Ideal Cert.ReferenceIdeal.S64 .f32) (ix1 q) := by
  have hk := K_be_1 (Cert.KernelIdeal.Gen.W18 m ρ c) q (KV m ρ c Cert.KernelIdeal.main_v87)
    (m ((c.tc : Thread Cert.KernelIdeal.nD Cert.KernelIdeal.τ).loc Cert.KernelIdeal.main_arg14))
    (Cert.KernelIdeal.Keep.toEnd_19 m ρ c Cert.KernelIdeal.main_v87 (by decide))
    ((Cert.KernelIdeal.Keep.toEnd_18 m ρ c Cert.KernelIdeal.main_arg14 (by decide)).trans (KV_shift m ρ c))
  have hr := R_be_1 (Cert.Bridge.R16 m' c) q (RV m' c Cert.ReferenceIdeal.main_v172)
    (m' ((c.tc : Thread Cert.ReferenceIdeal.nD Cert.ReferenceIdeal.τ).loc Cert.ReferenceIdeal.main_arg14))
    (Cert.ReferenceIdeal.Keep.toEnd_17 m' c Cert.ReferenceIdeal.main_v172 (by decide))
    ((Cert.ReferenceIdeal.Keep.toEnd_16 m' c Cert.ReferenceIdeal.main_arg14 (by decide)).trans (RV_shift m' c))
  refine hk.trans (Eq.trans ?_ hr.symm)
  rw [agree_shift m m' hag c]

end Assemble

end Bn2L1

/-- The layer's output agrees between the two programs, given that the second linear layer's outputs agree and that
    the two means and the two variances agree column by column (the kernel program keeps each as one row of 64, the
    reference as a vector of 64). -/
theorem corr_h1_1
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hag : Agree m m')
    (hz : KV m ρ c Cert.KernelIdeal.main_v94 = RV m' c Cert.ReferenceIdeal.main_v168)
    (hmu : ∀ j : Fin 64, (KV m ρ c Cert.KernelIdeal.main_v98 : FVec Ideal Cert.KernelIdeal.S1x64 .f32) (ix2 (0 : Fin 1) j)
      = (RV m' c Cert.ReferenceIdeal.main_v175 : FVec Ideal Cert.ReferenceIdeal.S64 .f32) (ix1 j))
    (hvar : ∀ j : Fin 64, (KV m ρ c Cert.KernelIdeal.main_v99 : FVec Ideal Cert.KernelIdeal.S1x64 .f32) (ix2 (0 : Fin 1) j)
      = (RV m' c Cert.ReferenceIdeal.main_v176 : FVec Ideal Cert.ReferenceIdeal.S64 .f32) (ix1 j)) :
    KV m ρ c Cert.KernelIdeal.main_v100 = RV m' c Cert.ReferenceIdeal.main_v192 := by
  refine (Bn2L1.K_h1_1 m ρ c).trans (Eq.trans ?_ (Bn2L1.R_h1_1 m' c).symm)
  funext i
  obtain ⟨p, q, rfl⟩ : ∃ (p : Fin 100000) (q : Fin 64), i = ix2 p q := ⟨i 0, i 1, eq_ix2 i⟩
  unfold bnReluRows bnReluVecs
  refine bnRelu_congr (n := 100000) (n' := 100000) (KV m ρ c Cert.KernelIdeal.main_v94) (RV m' c Cert.ReferenceIdeal.main_v168)
    _ _ _ _ _ _ _ _ (ix2 p q) (ix2 p q) rfl ?_ hmu hvar (Bn2L1.g_corr_1 m ρ m' hag c) (Bn2L1.be_corr_1 m ρ m' hag c)
  rw [hz]

end Cert.Bridge

end
-- ==== Proof.Bridge.Bn2_L2.lean ====
/- The last stage of a layer: batch normalisation of the second linear layer's output by its column means and variances
   and the layer's scale and shift parameters, followed by the positive part.

   In the kernel program a grid of 20 steps computes it, each step on a block of 5000 of the 100000 rows with the four
   column data held as one-row arrays; the 20 blocks tile the array, so the output array ends holding one function of the
   five arrays the steps read (bn2_value11). In the reference a chain of broadcasts and entrywise operations computes it
   from the same entries with the four column data held as vectors. Both are the one function of the shared module, so
   the two outputs agree once the entries, the means and the variances agree (corr_h1_2); the scales and the shifts agree
   because both programs cut them from the same row of the same argument tables. -/
import proofs.«417278_j53197464928922_1_alg».proof.Proof.Bridge.Bn2Shared
import Idealize.ShloMosaic.Lib.StableHlo.Run
import Idealize.ShloMosaic.Lib.Pipeline.Value
import Idealize.ShloMosaic.Lib.Tactic

set_option maxRecDepth 16384

noncomputable section

namespace Cert.Bridge

open Idealize.ShloMosaic Idealize.ShloMosaic.TcCoe Idealize.SL.Sem Idealize.ShloMosaic.ValueIdx
open Idealize.ShloMosaic.Pipeline (Dat)
open Idealize.ShloMosaic.StableHlo
open Cert.Bridge.Bn2

namespace Bn2L2

/-! ## What the region's output array holds when the region is left

The grid has 20 steps; step t reads rows 5000 t to 5000 t + 4999 of the array of entries and the whole of each of the
four one-row arrays, and writes the same rows of the output array. -/

section Region
open Cert.KernelIdeal Cert.KernelIdeal.Gen

variable (V : (c : Dev Cert.KernelIdeal.nD) → (b : Ref Cert.KernelIdeal.sig .tc) → Buf (Elt Ideal) ((c : Thread Cert.KernelIdeal.nD Cert.KernelIdeal.τ).loc b))

/-- The block one grid step stores is the function of the block of entries and the four rows it loads. -/
theorem pay11 (x0 : FVec Ideal S5000x64 .f32) (x1 x2 x3 x4 : FVec Ideal S1x64 .f32) :
    k11_pay1 (F := Ideal) x0 x1 x2 x3 x4 = bnReluRows (n := 5000) x0 x1 x2 x3 x4 := by
  funext j
  obtain ⟨p, q, rfl⟩ : ∃ (p : Fin 5000) (q : Fin 64), j = ix2 p q := ⟨j 0, j 1, eq_ix2 j⟩
  unfold bnReluRows
  rw [bnRelu_apply]
  unfold k11_pay1
  simp only [maximumf_apply, addf_apply, mulf_apply, subf_apply, broadcast_apply, shapeCast_self, broadcastTo_1b_ab_apply]
  rfl

/-- The block indices over the grid: the entries' window moves with the output's window down the rows, neither moves
    along the columns, and the four one-row windows stay at the origin. -/
theorem idx11 : ∀ t : Fin cfg11.N, win11_0.index t (0 : Fin 2) = win11_5.index t (0 : Fin 2)
    ∧ win11_0.index t (1 : Fin 2) = 0 ∧ win11_5.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

/-- Every block of 5000 rows is some grid step's output block. -/
theorem onto11 : ∀ q0 : Fin 20, ∃ t : Fin cfg11.N, win11_5.index t = ![q0.val, 0] :=
  (by decide +kernel : ∀ q0 : Fin 20, ∃ t : Fin grid11.N, win11_5.index t = ![q0.val, 0])

/-- The entries' block at step t, at (p, q), is the array of entries at the place of (p, q) in the output's block. -/
theorem blk11_0 (c : Dev nD) (t : Fin cfg11.N) (p : Fin 5000) (q : Fin 64) :
    (iblk11 V c 0 t : FVec Ideal S5000x64 .f32) (ix2 p q)
      = (V c Cert.KernelIdeal.main_v142 : FVec Ideal S100000x64 .f32) (((cfg11.win 5).blk t).view.emb (ix2 p q)) := by
  have e := idx11 t
  show V c Cert.KernelIdeal.main_v142 (((cfg11.win 0).blk t).view.emb (ix2 p q)) = V c Cert.KernelIdeal.main_v142 (((cfg11.win 5).blk t).view.emb (ix2 p q))
  refine congrArg (V c Cert.KernelIdeal.main_v142) (funext fun a => Fin.ext ?_)
  match a with
  | ⟨0, _⟩ => show win11_0.index t (0 : Fin 2) * 5000 + 1 * p.val = win11_5.index t (0 : Fin 2) * 5000 + 1 * p.val; omega
  | ⟨1, _⟩ => show win11_0.index t (1 : Fin 2) * 64 + 1 * q.val = win11_5.index t (1 : Fin 2) * 64 + 1 * q.val; omega

/-- The mean's block at every step is the whole one-row array. -/
theorem blk11_1 (c : Dev nD) (t : Fin cfg11.N) (q : Fin 64) :
    (iblk11 V c 1 t : FVec Ideal S1x64 .f32) (ix2 (0 : Fin 1) q) = (V c Cert.KernelIdeal.main_v146 : FVec Ideal S1x64 .f32) (ix2 (0 : Fin 1) q) := by
  have e := idx11 t
  show V c Cert.KernelIdeal.main_v146 (((cfg11.win 1).blk t).view.emb (ix2 (0 : Fin 1) q)) = V c Cert.KernelIdeal.main_v146 (ix2 (0 : Fin 1) q)
  refine congrArg (V c Cert.KernelIdeal.main_v146) (funext fun a => Fin.ext ?_)
  match a with
  | ⟨0, _⟩ => show win11_1.index t (0 : Fin 2) * 1 + 1 * 0 = 0; omega
  | ⟨1, _⟩ => show win11_1.index t (1 : Fin 2) * 64 + 1 * q.val = q.val; omega

/-- The variance's block at every step is the whole one-row array. -/
theorem blk11_2 (c : Dev nD) (t : Fin cfg11.N) (q : Fin 64) :
    (iblk11 V c 2 t : FVec Ideal S1x64 .f32) (ix2 (0 : Fin 1) q) = (V c Cert.KernelIdeal.main_v147 : FVec Ideal S1x64 .f32) (ix2 (0 : Fin 1) q) := by
  have e := idx11 t
  show V c Cert.KernelIdeal.main_v147 (((cfg11.win 2).blk t).view.emb (ix2 (0 : Fin 1) q)) = V c Cert.KernelIdeal.main_v147 (ix2 (0 : Fin 1) q)
  refine congrArg (V c Cert.KernelIdeal.main_v147) (funext fun a => Fin.ext ?_)
  match a with
  | ⟨0, _⟩ => show win11_2.index t (0 : Fin 2) * 1 + 1 * 0 = 0; omega
  | ⟨1, _⟩ => show win11_2.index t (1 : Fin 2) * 64 + 1 * q.val = q.val; omega

/-- The scale's block at every step is the whole one-row array. -/
theorem blk11_3 (c : Dev nD) (t : Fin cfg11.N) (q : Fin 64) :
    (iblk11 V c 3 t : FVec Ideal S1x64 .f32) (ix2 (0 : Fin 1) q) = (V c Cert.KernelIdeal.main_v132 : FVec Ideal S1x64 .f32) (ix2 (0 : Fin 1) q) := by
  have e := idx11 t
  show V c Cert.KernelIdeal.main_v132 (((cfg11.win 3).blk t).view.emb (ix2 (0 : Fin 1) q)) = V c Cert.KernelIdeal.main_v132 (ix2 (0 : Fin 1) q)
  refine congrArg (V c Cert.KernelIdeal.main_v132) (funext fun a => Fin.ext ?_)
  match a with
  | ⟨0, _⟩ => show win11_3.index t (0 : Fin 2) * 1 + 1 * 0 = 0; omega
  | ⟨1, _⟩ => show win11_3.index t (1 : Fin 2) * 64 + 1 * q.val = q.val; omega

/-- The shift's block at every step is the whole one-row array. -/
theorem blk11_4 (c : Dev nD) (t : Fin cfg11.N) (q : Fin 64) :
    (iblk11 V c 4 t : FVec Ideal S1x64 .f32) (ix2 (0 : Fin 1) q) = (V c Cert.KernelIdeal.main_v135 : FVec Ideal S1x64 .f32) (ix2 (0 : Fin 1) q) := by
  have e := idx11 t
  show V c Cert.KernelIdeal.main_v135 (((cfg11.win 4).blk t).view.emb (ix2 (0 : Fin 1) q)) = V c Cert.KernelIdeal.main_v135 (ix2 (0 : Fin 1) q)
  refine congrArg (V c Cert.KernelIdeal.main_v135) (funext fun a => Fin.ext ?_)
  match a with
  | ⟨0, _⟩ => show win11_4.index t (0 : Fin 2) * 1 + 1 * 0 = 0; omega
  | ⟨1, _⟩ => show win11_4.index t (1 : Fin 2) * 64 + 1 * q.val = q.val; omega

/-- What step t writes back is its block of rows of the one function of the five arrays as the region finds them. -/
theorem flushed11 (c : Dev nD) (t : Fin cfg11.N) :
    (dat11 (F := Ideal) V c).flushed 5 t = ((cfg11.win 5).blk t).view.read (Elt Ideal)
      (bnReluRows (n := 100000) (V c Cert.KernelIdeal.main_v142) (V c Cert.KernelIdeal.main_v146) (V c Cert.KernelIdeal.main_v147) (V c Cert.KernelIdeal.main_v132) (V c Cert.KernelIdeal.main_v135)) := by
  show (cfg11.win 5).cut (grid11.coords t) ((dat11 V c).after 5 t) = _
  rw [after11_5]
  unfold out11_5
  rw [View.canon_unit_zero hz]
  simp only [View.ld_unit_zero (S := S5000x64) hz, View.ld_unit_zero (S := S1x64) hz]
  rw [pay11]
  funext j
  obtain ⟨p, q, rfl⟩ : ∃ (p : Fin 5000) (q : Fin 64), j = ix2 p q := ⟨j 0, j 1, eq_ix2 j⟩
  have e := idx11 t
  show bnReluRows (n := 5000) (iblk11 V c 0 t) (iblk11 V c 1 t) (iblk11 V c 2 t) (iblk11 V c 3 t) (iblk11 V c 4 t) (ix2 p q)
    = bnReluRows (n := 100000) (V c Cert.KernelIdeal.main_v142) (V c Cert.KernelIdeal.main_v146) (V c Cert.KernelIdeal.main_v147) (V c Cert.KernelIdeal.main_v132) (V c Cert.KernelIdeal.main_v135)
        (((cfg11.win 5).blk t).view.emb (ix2 p q))
  unfold bnReluRows
  refine bnRelu_congr (n := 5000) (n' := 100000) (iblk11 V c 0 t) (V c Cert.KernelIdeal.main_v142) _ _ _ _ _ _ _ _ (ix2 p q)
    (((cfg11.win 5).blk t).view.emb (ix2 p q)) ?_ (blk11_0 V c t p q) (blk11_1 V c t) (blk11_2 V c t) (blk11_3 V c t) (blk11_4 V c t)
  show q.val = win11_5.index t (1 : Fin 2) * 64 + 1 * q.val
  omega

/-- An index of the output array is in step t's block iff each coordinate is in the block's range on its axis. -/
theorem mem11 (t : Fin cfg11.N) (i : S100000x64.Idx) :
    i ∈ ((cfg11.win 5).blk t).view.set ↔ ∀ a : Fin 2, win11_5.index t a * S5000x64.size a ≤ (i a).val ∧ (i a).val < win11_5.index t a * S5000x64.size a + S5000x64.size a := by
  show i ∈ ((View.whole Cert.KernelIdeal.main_v148).slice (win11_5.rect t)).set ↔ _
  rw [View.set_slice_whole, Rect.mem_set_unit]
  exact Iff.rfl

/-- The 20 blocks of 5000 rows cover the 100000 rows: row r is in the block of step r / 5000. -/
theorem cover11 (i : S100000x64.Idx) : ∃ t : Fin cfg11.N, (cfg11.win 5).flush t = true ∧ i ∈ ((cfg11.win 5).blk t).view.set := by
  have hi0 : (i 0).val < 100000 := (i 0).isLt
  have hi1 : (i 1).val < 64 := (i 1).isLt
  obtain ⟨t, ht⟩ := onto11 ⟨(i 0).val / 5000, by omega⟩
  have q0 : win11_5.index t (0 : Fin 2) = (i 0).val / 5000 := congrFun ht 0
  have q1 : win11_5.index t (1 : Fin 2) = 0 := congrFun ht 1
  refine ⟨t, flush11_5 t, ?_⟩
  rw [mem11]
  intro a
  match a with
  | ⟨0, _⟩ => show win11_5.index t (0 : Fin 2) * 5000 ≤ (i 0).val ∧ (i 0).val < win11_5.index t (0 : Fin 2) * 5000 + 5000; omega
  | ⟨1, _⟩ => show win11_5.index t (1 : Fin 2) * 64 ≤ (i 1).val ∧ (i 1).val < win11_5.index t (1 : Fin 2) * 64 + 64; omega

end Region

end Bn2L2

/-- The region's output array, when the region is left, is the batch normalisation and positive part of the array of
    entries by the four one-row arrays, all five as the region finds them. -/
theorem bn2_value11 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Gen.dat11 (F := Ideal) V c).arrAt 5 Cert.KernelIdeal.cfg11.N
      = bnReluRows (n := 100000) (V c Cert.KernelIdeal.main_v142) (V c Cert.KernelIdeal.main_v146) (V c Cert.KernelIdeal.main_v147) (V c Cert.KernelIdeal.main_v132) (V c Cert.KernelIdeal.main_v135) :=
  (Cert.KernelIdeal.Gen.dat11 (F := Ideal) V c).arrAt_eq_of_cover 5 _ (fun t _ => Bn2L2.flushed11 V c t) Bn2L2.cover11

namespace Bn2L2

/-! ## The reference's chain read at an index -/

section RRead
open Cert.ReferenceIdeal

/-- The last list takes the maximum with zero, entry by entry. -/
theorem R_relu_2 (W : Valuation τ sig (Elt Ideal)) (p : Fin 100000) (q : Fin 64)
    (y bn : FVec Ideal S100000x64 .f32)
    (hy : StableHlo.after (Cert.ReferenceIdeal.Ops.hostOps0_29 (F := Ideal)) W (Proc.devRef .tc Cert.ReferenceIdeal.main_v283) = y)
    (hbn : W (Proc.devRef .tc Cert.ReferenceIdeal.main_v282) = bn) :
    y (ix2 p q) = max (bn (ix2 p q)) (Ideal.ofBits .f32 0x00000000#32) := by
  subst hy hbn
  after_results
  rfl

/-- The list before it subtracts the mean, multiplies by the reciprocal square root of the variance plus the small
    constant, multiplies by the scale and adds the shift, each of the four read at the entry's column. -/
theorem R_bn_2 (W : Valuation τ sig (Elt Ideal)) (p : Fin 100000) (q : Fin 64)
    (bn z : FVec Ideal S100000x64 .f32) (mu var g be : FVec Ideal S64 .f32)
    (hbn : StableHlo.after (Cert.ReferenceIdeal.Ops.hostOps0_28 (F := Ideal)) W (Proc.devRef .tc Cert.ReferenceIdeal.main_v282) = bn)
    (hz : W (Proc.devRef .tc Cert.ReferenceIdeal.main_v259) = z) (hmu : W (Proc.devRef .tc Cert.ReferenceIdeal.main_v266) = mu)
    (hvar : W (Proc.devRef .tc Cert.ReferenceIdeal.main_v267) = var)
    (hg : W (Proc.devRef .tc Cert.ReferenceIdeal.main_v261) = g) (hbe : W (Proc.devRef .tc Cert.ReferenceIdeal.main_v263) = be) :
    bn (ix2 p q) = (((z (ix2 p q) - mu (ix1 q)) * Ideal.rsqrt (var (ix1 q) + Ideal.ofBits .f32 0x3727C5AC#32)) * g (ix1 q)) + be (ix1 q) := by
  subst hbn hz hmu hvar hg hbe
  after_results
  simp only [addf_apply, mulf_apply, subf_apply]
  rw [bcast_1x64_nx64_apply, bcast_1x64_nx64_apply, bcast_1x64_nx64_apply, bcast_1x64_nx64_apply,
    bcast_64_1x64_apply, bcast_64_1x64_apply, bcast_64_1x64_apply, bcast_64_1x64_apply]
  rfl

end RRead

/-! ## The scale and shift rows: one row of the stacked parameter tables in both programs -/

section KParam
open Cert.KernelIdeal

/-- The kernel program's scale row is the layer's row of the scale table: a slice, flattened and made a row again. -/
theorem K_g_2 (W : Valuation τ sig (Elt Ideal)) (q : Fin 64) (g : FVec Ideal S1x64 .f32) (a : FVec Ideal S4x64 .f32)
    (hg : StableHlo.after (Cert.KernelIdeal.Gen.hostOps9 (F := Ideal)) W (Proc.devRef .tc Cert.KernelIdeal.main_v132) = g)
    (ha : W (Proc.devRef .tc Cert.KernelIdeal.main_arg13) = a) :
    g (ix2 (0 : Fin 1) q) = extractStridedSlice S1x64 _ a Cert.KernelIdeal.Gen.slices_S4x64_S1x64_2_0 (ix2 (0 : Fin 1) q) := by
  subst hg ha
  after_results_simp
  refine (shapeCast_a_1a_apply (a := 64) _ Gen.shapeCasts_S64_S1x64 (0 : Fin 1) q).trans ?_
  exact shapeCast_1a_a_apply (a := 64) _ Gen.shapeCasts_S1x64_S64 q

/-- The kernel program's shift row is the layer's row of the shift table, in the same way. -/
theorem K_be_2 (W : Valuation τ sig (Elt Ideal)) (q : Fin 64) (be : FVec Ideal S1x64 .f32) (a : FVec Ideal S4x64 .f32)
    (hbe : StableHlo.after (Cert.KernelIdeal.Gen.hostOps9 (F := Ideal)) W (Proc.devRef .tc Cert.KernelIdeal.main_v135) = be)
    (ha : W (Proc.devRef .tc Cert.KernelIdeal.main_arg14) = a) :
    be (ix2 (0 : Fin 1) q) = extractStridedSlice S1x64 _ a Cert.KernelIdeal.Gen.slices_S4x64_S1x64_2_0 (ix2 (0 : Fin 1) q) := by
  subst hbe ha
  after_results_simp
  refine (shapeCast_a_1a_apply (a := 64) _ Gen.shapeCasts_S64_S1x64 (0 : Fin 1) q).trans ?_
  exact shapeCast_1a_a_apply (a := 64) _ Gen.shapeCasts_S1x64_S64 q

end KParam

section RParam
open Cert.ReferenceIdeal

/-- The reference's scale vector is the layer's row of the scale table, flattened. -/
theorem R_g_2 (W : Valuation τ sig (Elt Ideal)) (q : Fin 64) (g : FVec Ideal S64 .f32) (a : FVec Ideal S4x64 .f32)
    (hg : StableHlo.after (Cert.ReferenceIdeal.Ops.hostOps0_26 (F := Ideal)) W (Proc.devRef .tc Cert.ReferenceIdeal.main_v261) = g)
    (ha : W (Proc.devRef .tc Cert.ReferenceIdeal.main_arg13) = a) :
    g (ix1 q) = extractStridedSlice S1x64 _ a Cert.ReferenceIdeal.Gen.slices_S4x64_S1x64_2_0 (ix2 (0 : Fin 1) q) := by
  subst hg ha
  after_results_simp
  exact shapeCast_1a_a_apply (a := 64) _ Gen.shapeCasts_S1x64_S64 q

/-- The reference's shift vector is the layer's row of the shift table, flattened. -/
theorem R_be_2 (W : Valuation τ sig (Elt Ideal)) (q : Fin 64) (be : FVec Ideal S64 .f32) (a : FVec Ideal S4x64 .f32)
    (hbe : StableHlo.after (Cert.ReferenceIdeal.Ops.hostOps0_26 (F := Ideal)) W (Proc.devRef .tc Cert.ReferenceIdeal.main_v263) = be)
    (ha : W (Proc.devRef .tc Cert.ReferenceIdeal.main_arg14) = a) :
    be (ix1 q) = extractStridedSlice S1x64 _ a Cert.ReferenceIdeal.Gen.slices_S4x64_S1x64_2_0 (ix2 (0 : Fin 1) q) := by
  subst hbe ha
  after_results_simp
  exact shapeCast_1a_a_apply (a := 64) _ Gen.shapeCasts_S1x64_S64 q

end RParam

/-! ## Each program's value of the layer's output, from the values it was computed from -/

section Assemble

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The kernel program's output of the layer is the batch normalisation and positive part of its second linear layer's
    output by its own mean, variance, scale and shift rows. -/
theorem K_h1_2 (c : Dev Cert.KernelIdeal.nD) :
    KV m ρ c Cert.KernelIdeal.main_v148
      = bnReluRows (n := 100000) (KV m ρ c Cert.KernelIdeal.main_v142) (KV m ρ c Cert.KernelIdeal.main_v146) (KV m ρ c Cert.KernelIdeal.main_v147)
          (KV m ρ c Cert.KernelIdeal.main_v132) (KV m ρ c Cert.KernelIdeal.main_v135) := by
  have h46 : Cert.KernelIdeal.Gen.V37 m ρ c Cert.KernelIdeal.main_v142 = KV m ρ c Cert.KernelIdeal.main_v142 := Cert.KernelIdeal.Keep.toEnd_37 m ρ c Cert.KernelIdeal.main_v142 (by decide)
  have h50 : Cert.KernelIdeal.Gen.V37 m ρ c Cert.KernelIdeal.main_v146 = KV m ρ c Cert.KernelIdeal.main_v146 := Cert.KernelIdeal.Keep.toEnd_37 m ρ c Cert.KernelIdeal.main_v146 (by decide)
  have h51 : Cert.KernelIdeal.Gen.V37 m ρ c Cert.KernelIdeal.main_v147 = KV m ρ c Cert.KernelIdeal.main_v147 := Cert.KernelIdeal.Keep.toEnd_37 m ρ c Cert.KernelIdeal.main_v147 (by decide)
  have h36 : Cert.KernelIdeal.Gen.V37 m ρ c Cert.KernelIdeal.main_v132 = KV m ρ c Cert.KernelIdeal.main_v132 := Cert.KernelIdeal.Keep.toEnd_37 m ρ c Cert.KernelIdeal.main_v132 (by decide)
  have h39 : Cert.KernelIdeal.Gen.V37 m ρ c Cert.KernelIdeal.main_v135 = KV m ρ c Cert.KernelIdeal.main_v135 := Cert.KernelIdeal.Keep.toEnd_37 m ρ c Cert.KernelIdeal.main_v135 (by decide)
  refine (Cert.KernelIdeal.Keep.toEnd_38 m ρ c Cert.KernelIdeal.main_v148 (by decide)).symm.trans ?_
  refine (Cert.KernelIdeal.Gen.W38_arr m ρ c 5).trans ?_
  refine (bn2_value11 (Cert.KernelIdeal.Gen.V37 m ρ) c).trans ?_
  rw [h46, h50, h51, h36, h39]

/-- The reference's output of the layer is the same function of its second linear layer's output and its mean,
    variance, scale and shift vectors. -/
theorem R_h1_2 (c : Dev Cert.ReferenceIdeal.nD) :
    RV m' c Cert.ReferenceIdeal.main_v283
      = bnReluVecs (n := 100000) (RV m' c Cert.ReferenceIdeal.main_v259) (RV m' c Cert.ReferenceIdeal.main_v266) (RV m' c Cert.ReferenceIdeal.main_v267)
          (RV m' c Cert.ReferenceIdeal.main_v261) (RV m' c Cert.ReferenceIdeal.main_v263) := by
  funext i
  obtain ⟨p, q, rfl⟩ : ∃ (p : Fin 100000) (q : Fin 64), i = ix2 p q := ⟨i 0, i 1, eq_ix2 i⟩
  have h1 := R_relu_2 (Cert.Bridge.R29 m' c) p q (RV m' c Cert.ReferenceIdeal.main_v283) (RV m' c Cert.ReferenceIdeal.main_v282)
    (Cert.ReferenceIdeal.Keep.toEnd_30 m' c Cert.ReferenceIdeal.main_v283 (by decide))
    (Cert.ReferenceIdeal.Keep.toEnd_29 m' c Cert.ReferenceIdeal.main_v282 (by decide))
  have h2 := R_bn_2 (Cert.Bridge.R28 m' c) p q (RV m' c Cert.ReferenceIdeal.main_v282) (RV m' c Cert.ReferenceIdeal.main_v259)
    (RV m' c Cert.ReferenceIdeal.main_v266) (RV m' c Cert.ReferenceIdeal.main_v267) (RV m' c Cert.ReferenceIdeal.main_v261) (RV m' c Cert.ReferenceIdeal.main_v263)
    (Cert.ReferenceIdeal.Keep.toEnd_29 m' c Cert.ReferenceIdeal.main_v282 (by decide))
    (Cert.ReferenceIdeal.Keep.toEnd_28 m' c Cert.ReferenceIdeal.main_v259 (by decide))
    (Cert.ReferenceIdeal.Keep.toEnd_28 m' c Cert.ReferenceIdeal.main_v266 (by decide))
    (Cert.ReferenceIdeal.Keep.toEnd_28 m' c Cert.ReferenceIdeal.main_v267 (by decide))
    (Cert.ReferenceIdeal.Keep.toEnd_28 m' c Cert.ReferenceIdeal.main_v261 (by decide))
    (Cert.ReferenceIdeal.Keep.toEnd_28 m' c Cert.ReferenceIdeal.main_v263 (by decide))
  refine h1.trans ?_
  rw [h2]
  unfold bnReluVecs
  rw [bnRelu_apply]

/-- The two programs' scale data agree column by column: both are the layer's row of the one scale table. -/
theorem g_corr_2 (hag : Agree m m') (c : Dev Cert.KernelIdeal.nD) (q : Fin 64) :
    (KV m ρ c Cert.KernelIdeal.main_v132 : FVec Ideal Cert.KernelIdeal.S1x64 .f32) (ix2 (0 : Fin 1) q)
      = (RV m' c Cert.ReferenceIdeal.main_v261 : FVec Ideal Cert.ReferenceIdeal.S64 .f32) (ix1 q) := by
  have hk := K_g_2 (Cert.KernelIdeal.Gen.W30 m ρ c) q (KV m ρ c Cert.KernelIdeal.main_v132)
    (m ((c.tc : Thread Cert.KernelIdeal.nD Cert.KernelIdeal.τ).loc Cert.KernelIdeal.main_arg13))
    (Cert.KernelIdeal.Keep.toEnd_31 m ρ c Cert.KernelIdeal.main_v132 (by decide))
    ((Cert.KernelIdeal.Keep.toEnd_30 m ρ c Cert.KernelIdeal.main_arg13 (by decide)).trans (KV_scale m ρ c))
  have hr := R_g_2 (Cert.Bridge.R26 m' c) q (RV m' c Cert.ReferenceIdeal.main_v261)
    (m' ((c.tc : Thread Cert.ReferenceIdeal.nD Cert.ReferenceIdeal.τ).loc Cert.ReferenceIdeal.main_arg13))
    (Cert.ReferenceIdeal.Keep.toEnd_27 m' c Cert.ReferenceIdeal.main_v261 (by decide))
    ((Cert.ReferenceIdeal.Keep.toEnd_26 m' c Cert.ReferenceIdeal.main_arg13 (by decide)).trans (RV_scale m' c))
  refine hk.trans (Eq.trans ?_ hr.symm)
  rw [agree_scale m m' hag c]

/-- The two programs' shift data agree column by column: both are the layer's row of the one shift table. -/
theorem be_corr_2 (hag : Agree m m') (c : Dev Cert.KernelIdeal.nD) (q : Fin 64) :
    (KV m ρ c Cert.KernelIdeal.main_v135 : FVec Ideal Cert.KernelIdeal.S1x64 .f32) (ix2 (0 : Fin 1) q)
      = (RV m' c Cert.ReferenceIdeal.main_v263 : FVec Ideal Cert.ReferenceIdeal.S64 .f32) (ix1 q) := by
  have hk := K_be_2 (Cert.KernelIdeal.Gen.W30 m ρ c) q (KV m ρ c Cert.KernelIdeal.main_v135)
    (m ((c.tc : Thread Cert.KernelIdeal.nD Cert.KernelIdeal.τ).loc Cert.KernelIdeal.main_arg14))
    (Cert.KernelIdeal.Keep.toEnd_31 m ρ c Cert.KernelIdeal.main_v135 (by decide))
    ((Cert.KernelIdeal.Keep.toEnd_30 m ρ c Cert.KernelIdeal.main_arg14 (by decide)).trans (KV_shift m ρ c))
  have hr := R_be_2 (Cert.Bridge.R26 m' c) q (RV m' c Cert.ReferenceIdeal.main_v263)
    (m' ((c.tc : Thread Cert.ReferenceIdeal.nD Cert.ReferenceIdeal.τ).loc Cert.ReferenceIdeal.main_arg14))
    (Cert.ReferenceIdeal.Keep.toEnd_27 m' c Cert.ReferenceIdeal.main_v263 (by decide))
    ((Cert.ReferenceIdeal.Keep.toEnd_26 m' c Cert.ReferenceIdeal.main_arg14 (by decide)).trans (RV_shift m' c))
  refine hk.trans (Eq.trans ?_ hr.symm)
  rw [agree_shift m m' hag c]

end Assemble

end Bn2L2

/-- The layer's output agrees between the two programs, given that the second linear layer's outputs agree and that
    the two means and the two variances agree column by column (the kernel program keeps each as one row of 64, the
    reference as a vector of 64). -/
theorem corr_h1_2
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hag : Agree m m')
    (hz : KV m ρ c Cert.KernelIdeal.main_v142 = RV m' c Cert.ReferenceIdeal.main_v259)
    (hmu : ∀ j : Fin 64, (KV m ρ c Cert.KernelIdeal.main_v146 : FVec Ideal Cert.KernelIdeal.S1x64 .f32) (ix2 (0 : Fin 1) j)
      = (RV m' c Cert.ReferenceIdeal.main_v266 : FVec Ideal Cert.ReferenceIdeal.S64 .f32) (ix1 j))
    (hvar : ∀ j : Fin 64, (KV m ρ c Cert.KernelIdeal.main_v147 : FVec Ideal Cert.KernelIdeal.S1x64 .f32) (ix2 (0 : Fin 1) j)
      = (RV m' c Cert.ReferenceIdeal.main_v267 : FVec Ideal Cert.ReferenceIdeal.S64 .f32) (ix1 j)) :
    KV m ρ c Cert.KernelIdeal.main_v148 = RV m' c Cert.ReferenceIdeal.main_v283 := by
  refine (Bn2L2.K_h1_2 m ρ c).trans (Eq.trans ?_ (Bn2L2.R_h1_2 m' c).symm)
  funext i
  obtain ⟨p, q, rfl⟩ : ∃ (p : Fin 100000) (q : Fin 64), i = ix2 p q := ⟨i 0, i 1, eq_ix2 i⟩
  unfold bnReluRows bnReluVecs
  refine bnRelu_congr (n := 100000) (n' := 100000) (KV m ρ c Cert.KernelIdeal.main_v142) (RV m' c Cert.ReferenceIdeal.main_v259)
    _ _ _ _ _ _ _ _ (ix2 p q) (ix2 p q) rfl ?_ hmu hvar (Bn2L2.g_corr_2 m ρ m' hag c) (Bn2L2.be_corr_2 m ρ m' hag c)
  rw [hz]

end Cert.Bridge

end
-- ==== Proof.Bridge.Bn2_L3.lean ====
/- The last stage of a layer: batch normalisation of the second linear layer's output by its column means and variances
   and the layer's scale and shift parameters, followed by the positive part.

   In the kernel program a grid of 20 steps computes it, each step on a block of 5000 of the 100000 rows with the four
   column data held as one-row arrays; the 20 blocks tile the array, so the output array ends holding one function of the
   five arrays the steps read (bn2_value15). In the reference a chain of broadcasts and entrywise operations computes it
   from the same entries with the four column data held as vectors. Both are the one function of the shared module, so
   the two outputs agree once the entries, the means and the variances agree (corr_h1_3); the scales and the shifts agree
   because both programs cut them from the same row of the same argument tables. -/
import proofs.«417278_j53197464928922_1_alg».proof.Proof.Bridge.Bn2Shared
import Idealize.ShloMosaic.Lib.StableHlo.Run
import Idealize.ShloMosaic.Lib.Pipeline.Value
import Idealize.ShloMosaic.Lib.Tactic

set_option maxRecDepth 16384

noncomputable section

namespace Cert.Bridge

open Idealize.ShloMosaic Idealize.ShloMosaic.TcCoe Idealize.SL.Sem Idealize.ShloMosaic.ValueIdx
open Idealize.ShloMosaic.Pipeline (Dat)
open Idealize.ShloMosaic.StableHlo
open Cert.Bridge.Bn2

namespace Bn2L3

/-! ## What the region's output array holds when the region is left

The grid has 20 steps; step t reads rows 5000 t to 5000 t + 4999 of the array of entries and the whole of each of the
four one-row arrays, and writes the same rows of the output array. -/

section Region
open Cert.KernelIdeal Cert.KernelIdeal.Gen

variable (V : (c : Dev Cert.KernelIdeal.nD) → (b : Ref Cert.KernelIdeal.sig .tc) → Buf (Elt Ideal) ((c : Thread Cert.KernelIdeal.nD Cert.KernelIdeal.τ).loc b))

/-- The block one grid step stores is the function of the block of entries and the four rows it loads. -/
theorem pay15 (x0 : FVec Ideal S5000x64 .f32) (x1 x2 x3 x4 : FVec Ideal S1x64 .f32) :
    k15_pay1 (F := Ideal) x0 x1 x2 x3 x4 = bnReluRows (n := 5000) x0 x1 x2 x3 x4 := by
  funext j
  obtain ⟨p, q, rfl⟩ : ∃ (p : Fin 5000) (q : Fin 64), j = ix2 p q := ⟨j 0, j 1, eq_ix2 j⟩
  unfold bnReluRows
  rw [bnRelu_apply]
  unfold k15_pay1
  simp only [maximumf_apply, addf_apply, mulf_apply, subf_apply, broadcast_apply, shapeCast_self, broadcastTo_1b_ab_apply]
  rfl

/-- The block indices over the grid: the entries' window moves with the output's window down the rows, neither moves
    along the columns, and the four one-row windows stay at the origin. -/
theorem idx15 : ∀ t : Fin cfg15.N, win15_0.index t (0 : Fin 2) = win15_5.index t (0 : Fin 2)
    ∧ win15_0.index t (1 : Fin 2) = 0 ∧ win15_5.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0 :=
  (by decide +kernel : ∀ t : Fin grid15.N, _)

/-- Every block of 5000 rows is some grid step's output block. -/
theorem onto15 : ∀ q0 : Fin 20, ∃ t : Fin cfg15.N, win15_5.index t = ![q0.val, 0] :=
  (by decide +kernel : ∀ q0 : Fin 20, ∃ t : Fin grid15.N, win15_5.index t = ![q0.val, 0])

/-- The entries' block at step t, at (p, q), is the array of entries at the place of (p, q) in the output's block. -/
theorem blk15_0 (c : Dev nD) (t : Fin cfg15.N) (p : Fin 5000) (q : Fin 64) :
    (iblk15 V c 0 t : FVec Ideal S5000x64 .f32) (ix2 p q)
      = (V c Cert.KernelIdeal.main_v190 : FVec Ideal S100000x64 .f32) (((cfg15.win 5).blk t).view.emb (ix2 p q)) := by
  have e := idx15 t
  show V c Cert.KernelIdeal.main_v190 (((cfg15.win 0).blk t).view.emb (ix2 p q)) = V c Cert.KernelIdeal.main_v190 (((cfg15.win 5).blk t).view.emb (ix2 p q))
  refine congrArg (V c Cert.KernelIdeal.main_v190) (funext fun a => Fin.ext ?_)
  match a with
  | ⟨0, _⟩ => show win15_0.index t (0 : Fin 2) * 5000 + 1 * p.val = win15_5.index t (0 : Fin 2) * 5000 + 1 * p.val; omega
  | ⟨1, _⟩ => show win15_0.index t (1 : Fin 2) * 64 + 1 * q.val = win15_5.index t (1 : Fin 2) * 64 + 1 * q.val; omega

/-- The mean's block at every step is the whole one-row array. -/
theorem blk15_1 (c : Dev nD) (t : Fin cfg15.N) (q : Fin 64) :
    (iblk15 V c 1 t : FVec Ideal S1x64 .f32) (ix2 (0 : Fin 1) q) = (V c Cert.KernelIdeal.main_v194 : FVec Ideal S1x64 .f32) (ix2 (0 : Fin 1) q) := by
  have e := idx15 t
  show V c Cert.KernelIdeal.main_v194 (((cfg15.win 1).blk t).view.emb (ix2 (0 : Fin 1) q)) = V c Cert.KernelIdeal.main_v194 (ix2 (0 : Fin 1) q)
  refine congrArg (V c Cert.KernelIdeal.main_v194) (funext fun a => Fin.ext ?_)
  match a with
  | ⟨0, _⟩ => show win15_1.index t (0 : Fin 2) * 1 + 1 * 0 = 0; omega
  | ⟨1, _⟩ => show win15_1.index t (1 : Fin 2) * 64 + 1 * q.val = q.val; omega

/-- The variance's block at every step is the whole one-row array. -/
theorem blk15_2 (c : Dev nD) (t : Fin cfg15.N) (q : Fin 64) :
    (iblk15 V c 2 t : FVec Ideal S1x64 .f32) (ix2 (0 : Fin 1) q) = (V c Cert.KernelIdeal.main_v195 : FVec Ideal S1x64 .f32) (ix2 (0 : Fin 1) q) := by
  have e := idx15 t
  show V c Cert.KernelIdeal.main_v195 (((cfg15.win 2).blk t).view.emb (ix2 (0 : Fin 1) q)) = V c Cert.KernelIdeal.main_v195 (ix2 (0 : Fin 1) q)
  refine congrArg (V c Cert.KernelIdeal.main_v195) (funext fun a => Fin.ext ?_)
  match a with
  | ⟨0, _⟩ => show win15_2.index t (0 : Fin 2) * 1 + 1 * 0 = 0; omega
  | ⟨1, _⟩ => show win15_2.index t (1 : Fin 2) * 64 + 1 * q.val = q.val; omega

/-- The scale's block at every step is the whole one-row array. -/
theorem blk15_3 (c : Dev nD) (t : Fin cfg15.N) (q : Fin 64) :
    (iblk15 V c 3 t : FVec Ideal S1x64 .f32) (ix2 (0 : Fin 1) q) = (V c Cert.KernelIdeal.main_v180 : FVec Ideal S1x64 .f32) (ix2 (0 : Fin 1) q) := by
  have e := idx15 t
  show V c Cert.KernelIdeal.main_v180 (((cfg15.win 3).blk t).view.emb (ix2 (0 : Fin 1) q)) = V c Cert.KernelIdeal.main_v180 (ix2 (0 : Fin 1) q)
  refine congrArg (V c Cert.KernelIdeal.main_v180) (funext fun a => Fin.ext ?_)
  match a with
  | ⟨0, _⟩ => show win15_3.index t (0 : Fin 2) * 1 + 1 * 0 = 0; omega
  | ⟨1, _⟩ => show win15_3.index t (1 : Fin 2) * 64 + 1 * q.val = q.val; omega

/-- The shift's block at every step is the whole one-row array. -/
theorem blk15_4 (c : Dev nD) (t : Fin cfg15.N) (q : Fin 64) :
    (iblk15 V c 4 t : FVec Ideal S1x64 .f32) (ix2 (0 : Fin 1) q) = (V c Cert.KernelIdeal.main_v183 : FVec Ideal S1x64 .f32) (ix2 (0 : Fin 1) q) := by
  have e := idx15 t
  show V c Cert.KernelIdeal.main_v183 (((cfg15.win 4).blk t).view.emb (ix2 (0 : Fin 1) q)) = V c Cert.KernelIdeal.main_v183 (ix2 (0 : Fin 1) q)
  refine congrArg (V c Cert.KernelIdeal.main_v183) (funext fun a => Fin.ext ?_)
  match a with
  | ⟨0, _⟩ => show win15_4.index t (0 : Fin 2) * 1 + 1 * 0 = 0; omega
  | ⟨1, _⟩ => show win15_4.index t (1 : Fin 2) * 64 + 1 * q.val = q.val; omega

/-- What step t writes back is its block of rows of the one function of the five arrays as the region finds them. -/
theorem flushed15 (c : Dev nD) (t : Fin cfg15.N) :
    (dat15 (F := Ideal) V c).flushed 5 t = ((cfg15.win 5).blk t).view.read (Elt Ideal)
      (bnReluRows (n := 100000) (V c Cert.KernelIdeal.main_v190) (V c Cert.KernelIdeal.main_v194) (V c Cert.KernelIdeal.main_v195) (V c Cert.KernelIdeal.main_v180) (V c Cert.KernelIdeal.main_v183)) := by
  show (cfg15.win 5).cut (grid15.coords t) ((dat15 V c).after 5 t) = _
  rw [after15_5]
  unfold out15_5
  rw [View.canon_unit_zero hz]
  simp only [View.ld_unit_zero (S := S5000x64) hz, View.ld_unit_zero (S := S1x64) hz]
  rw [pay15]
  funext j
  obtain ⟨p, q, rfl⟩ : ∃ (p : Fin 5000) (q : Fin 64), j = ix2 p q := ⟨j 0, j 1, eq_ix2 j⟩
  have e := idx15 t
  show bnReluRows (n := 5000) (iblk15 V c 0 t) (iblk15 V c 1 t) (iblk15 V c 2 t) (iblk15 V c 3 t) (iblk15 V c 4 t) (ix2 p q)
    = bnReluRows (n := 100000) (V c Cert.KernelIdeal.main_v190) (V c Cert.KernelIdeal.main_v194) (V c Cert.KernelIdeal.main_v195) (V c Cert.KernelIdeal.main_v180) (V c Cert.KernelIdeal.main_v183)
        (((cfg15.win 5).blk t).view.emb (ix2 p q))
  unfold bnReluRows
  refine bnRelu_congr (n := 5000) (n' := 100000) (iblk15 V c 0 t) (V c Cert.KernelIdeal.main_v190) _ _ _ _ _ _ _ _ (ix2 p q)
    (((cfg15.win 5).blk t).view.emb (ix2 p q)) ?_ (blk15_0 V c t p q) (blk15_1 V c t) (blk15_2 V c t) (blk15_3 V c t) (blk15_4 V c t)
  show q.val = win15_5.index t (1 : Fin 2) * 64 + 1 * q.val
  omega

/-- An index of the output array is in step t's block iff each coordinate is in the block's range on its axis. -/
theorem mem15 (t : Fin cfg15.N) (i : S100000x64.Idx) :
    i ∈ ((cfg15.win 5).blk t).view.set ↔ ∀ a : Fin 2, win15_5.index t a * S5000x64.size a ≤ (i a).val ∧ (i a).val < win15_5.index t a * S5000x64.size a + S5000x64.size a := by
  show i ∈ ((View.whole Cert.KernelIdeal.main_v196).slice (win15_5.rect t)).set ↔ _
  rw [View.set_slice_whole, Rect.mem_set_unit]
  exact Iff.rfl

/-- The 20 blocks of 5000 rows cover the 100000 rows: row r is in the block of step r / 5000. -/
theorem cover15 (i : S100000x64.Idx) : ∃ t : Fin cfg15.N, (cfg15.win 5).flush t = true ∧ i ∈ ((cfg15.win 5).blk t).view.set := by
  have hi0 : (i 0).val < 100000 := (i 0).isLt
  have hi1 : (i 1).val < 64 := (i 1).isLt
  obtain ⟨t, ht⟩ := onto15 ⟨(i 0).val / 5000, by omega⟩
  have q0 : win15_5.index t (0 : Fin 2) = (i 0).val / 5000 := congrFun ht 0
  have q1 : win15_5.index t (1 : Fin 2) = 0 := congrFun ht 1
  refine ⟨t, flush15_5 t, ?_⟩
  rw [mem15]
  intro a
  match a with
  | ⟨0, _⟩ => show win15_5.index t (0 : Fin 2) * 5000 ≤ (i 0).val ∧ (i 0).val < win15_5.index t (0 : Fin 2) * 5000 + 5000; omega
  | ⟨1, _⟩ => show win15_5.index t (1 : Fin 2) * 64 ≤ (i 1).val ∧ (i 1).val < win15_5.index t (1 : Fin 2) * 64 + 64; omega

end Region

end Bn2L3

/-- The region's output array, when the region is left, is the batch normalisation and positive part of the array of
    entries by the four one-row arrays, all five as the region finds them. -/
theorem bn2_value15 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) :
    (Cert.KernelIdeal.Gen.dat15 (F := Ideal) V c).arrAt 5 Cert.KernelIdeal.cfg15.N
      = bnReluRows (n := 100000) (V c Cert.KernelIdeal.main_v190) (V c Cert.KernelIdeal.main_v194) (V c Cert.KernelIdeal.main_v195) (V c Cert.KernelIdeal.main_v180) (V c Cert.KernelIdeal.main_v183) :=
  (Cert.KernelIdeal.Gen.dat15 (F := Ideal) V c).arrAt_eq_of_cover 5 _ (fun t _ => Bn2L3.flushed15 V c t) Bn2L3.cover15

namespace Bn2L3

/-! ## The reference's chain read at an index -/

section RRead
open Cert.ReferenceIdeal

/-- The last list takes the maximum with zero, entry by entry. -/
theorem R_relu_3 (W : Valuation τ sig (Elt Ideal)) (p : Fin 100000) (q : Fin 64)
    (y bn : FVec Ideal S100000x64 .f32)
    (hy : StableHlo.after (Cert.ReferenceIdeal.Ops.hostOps0_39 (F := Ideal)) W (Proc.devRef .tc Cert.ReferenceIdeal.main_v374) = y)
    (hbn : W (Proc.devRef .tc Cert.ReferenceIdeal.main_v373) = bn) :
    y (ix2 p q) = max (bn (ix2 p q)) (Ideal.ofBits .f32 0x00000000#32) := by
  subst hy hbn
  after_results
  rfl

/-- The list before it subtracts the mean, multiplies by the reciprocal square root of the variance plus the small
    constant, multiplies by the scale and adds the shift, each of the four read at the entry's column. -/
theorem R_bn_3 (W : Valuation τ sig (Elt Ideal)) (p : Fin 100000) (q : Fin 64)
    (bn z : FVec Ideal S100000x64 .f32) (mu var g be : FVec Ideal S64 .f32)
    (hbn : StableHlo.after (Cert.ReferenceIdeal.Ops.hostOps0_38 (F := Ideal)) W (Proc.devRef .tc Cert.ReferenceIdeal.main_v373) = bn)
    (hz : W (Proc.devRef .tc Cert.ReferenceIdeal.main_v350) = z) (hmu : W (Proc.devRef .tc Cert.ReferenceIdeal.main_v357) = mu)
    (hvar : W (Proc.devRef .tc Cert.ReferenceIdeal.main_v358) = var)
    (hg : W (Proc.devRef .tc Cert.ReferenceIdeal.main_v352) = g) (hbe : W (Proc.devRef .tc Cert.ReferenceIdeal.main_v354) = be) :
    bn (ix2 p q) = (((z (ix2 p q) - mu (ix1 q)) * Ideal.rsqrt (var (ix1 q) + Ideal.ofBits .f32 0x3727C5AC#32)) * g (ix1 q)) + be (ix1 q) := by
  subst hbn hz hmu hvar hg hbe
  after_results
  simp only [addf_apply, mulf_apply, subf_apply]
  rw [bcast_1x64_nx64_apply, bcast_1x64_nx64_apply, bcast_1x64_nx64_apply, bcast_1x64_nx64_apply,
    bcast_64_1x64_apply, bcast_64_1x64_apply, bcast_64_1x64_apply, bcast_64_1x64_apply]
  rfl

end RRead

/-! ## The scale and shift rows: one row of the stacked parameter tables in both programs -/

section KParam
open Cert.KernelIdeal

/-- The kernel program's scale row is the layer's row of the scale table: a slice, flattened and made a row again. -/
theorem K_g_3 (W : Valuation τ sig (Elt Ideal)) (q : Fin 64) (g : FVec Ideal S1x64 .f32) (a : FVec Ideal S4x64 .f32)
    (hg : StableHlo.after (Cert.KernelIdeal.Gen.hostOps13 (F := Ideal)) W (Proc.devRef .tc Cert.KernelIdeal.main_v180) = g)
    (ha : W (Proc.devRef .tc Cert.KernelIdeal.main_arg13) = a) :
    g (ix2 (0 : Fin 1) q) = extractStridedSlice S1x64 _ a Cert.KernelIdeal.Gen.slices_S4x64_S1x64_3_0 (ix2 (0 : Fin 1) q) := by
  subst hg ha
  after_results_simp
  refine (shapeCast_a_1a_apply (a := 64) _ Gen.shapeCasts_S64_S1x64 (0 : Fin 1) q).trans ?_
  exact shapeCast_1a_a_apply (a := 64) _ Gen.shapeCasts_S1x64_S64 q

/-- The kernel program's shift row is the layer's row of the shift table, in the same way. -/
theorem K_be_3 (W : Valuation τ sig (Elt Ideal)) (q : Fin 64) (be : FVec Ideal S1x64 .f32) (a : FVec Ideal S4x64 .f32)
    (hbe : StableHlo.after (Cert.KernelIdeal.Gen.hostOps13 (F := Ideal)) W (Proc.devRef .tc Cert.KernelIdeal.main_v183) = be)
    (ha : W (Proc.devRef .tc Cert.KernelIdeal.main_arg14) = a) :
    be (ix2 (0 : Fin 1) q) = extractStridedSlice S1x64 _ a Cert.KernelIdeal.Gen.slices_S4x64_S1x64_3_0 (ix2 (0 : Fin 1) q) := by
  subst hbe ha
  after_results_simp
  refine (shapeCast_a_1a_apply (a := 64) _ Gen.shapeCasts_S64_S1x64 (0 : Fin 1) q).trans ?_
  exact shapeCast_1a_a_apply (a := 64) _ Gen.shapeCasts_S1x64_S64 q

end KParam

section RParam
open Cert.ReferenceIdeal

/-- The reference's scale vector is the layer's row of the scale table, flattened. -/
theorem R_g_3 (W : Valuation τ sig (Elt Ideal)) (q : Fin 64) (g : FVec Ideal S64 .f32) (a : FVec Ideal S4x64 .f32)
    (hg : StableHlo.after (Cert.ReferenceIdeal.Ops.hostOps0_36 (F := Ideal)) W (Proc.devRef .tc Cert.ReferenceIdeal.main_v352) = g)
    (ha : W (Proc.devRef .tc Cert.ReferenceIdeal.main_arg13) = a) :
    g (ix1 q) = extractStridedSlice S1x64 _ a Cert.ReferenceIdeal.Gen.slices_S4x64_S1x64_3_0 (ix2 (0 : Fin 1) q) := by
  subst hg ha
  after_results_simp
  exact shapeCast_1a_a_apply (a := 64) _ Gen.shapeCasts_S1x64_S64 q

/-- The reference's shift vector is the layer's row of the shift table, flattened. -/
theorem R_be_3 (W : Valuation τ sig (Elt Ideal)) (q : Fin 64) (be : FVec Ideal S64 .f32) (a : FVec Ideal S4x64 .f32)
    (hbe : StableHlo.after (Cert.ReferenceIdeal.Ops.hostOps0_36 (F := Ideal)) W (Proc.devRef .tc Cert.ReferenceIdeal.main_v354) = be)
    (ha : W (Proc.devRef .tc Cert.ReferenceIdeal.main_arg14) = a) :
    be (ix1 q) = extractStridedSlice S1x64 _ a Cert.ReferenceIdeal.Gen.slices_S4x64_S1x64_3_0 (ix2 (0 : Fin 1) q) := by
  subst hbe ha
  after_results_simp
  exact shapeCast_1a_a_apply (a := 64) _ Gen.shapeCasts_S1x64_S64 q

end RParam

/-! ## Each program's value of the layer's output, from the values it was computed from -/

section Assemble

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The kernel program's output of the layer is the batch normalisation and positive part of its second linear layer's
    output by its own mean, variance, scale and shift rows. -/
theorem K_h1_3 (c : Dev Cert.KernelIdeal.nD) :
    KV m ρ c Cert.KernelIdeal.main_v196
      = bnReluRows (n := 100000) (KV m ρ c Cert.KernelIdeal.main_v190) (KV m ρ c Cert.KernelIdeal.main_v194) (KV m ρ c Cert.KernelIdeal.main_v195)
          (KV m ρ c Cert.KernelIdeal.main_v180) (KV m ρ c Cert.KernelIdeal.main_v183) := by
  have h46 : Cert.KernelIdeal.Gen.V49 m ρ c Cert.KernelIdeal.main_v190 = KV m ρ c Cert.KernelIdeal.main_v190 := Cert.KernelIdeal.Keep.toEnd_49 m ρ c Cert.KernelIdeal.main_v190 (by decide)
  have h50 : Cert.KernelIdeal.Gen.V49 m ρ c Cert.KernelIdeal.main_v194 = KV m ρ c Cert.KernelIdeal.main_v194 := Cert.KernelIdeal.Keep.toEnd_49 m ρ c Cert.KernelIdeal.main_v194 (by decide)
  have h51 : Cert.KernelIdeal.Gen.V49 m ρ c Cert.KernelIdeal.main_v195 = KV m ρ c Cert.KernelIdeal.main_v195 := Cert.KernelIdeal.Keep.toEnd_49 m ρ c Cert.KernelIdeal.main_v195 (by decide)
  have h36 : Cert.KernelIdeal.Gen.V49 m ρ c Cert.KernelIdeal.main_v180 = KV m ρ c Cert.KernelIdeal.main_v180 := Cert.KernelIdeal.Keep.toEnd_49 m ρ c Cert.KernelIdeal.main_v180 (by decide)
  have h39 : Cert.KernelIdeal.Gen.V49 m ρ c Cert.KernelIdeal.main_v183 = KV m ρ c Cert.KernelIdeal.main_v183 := Cert.KernelIdeal.Keep.toEnd_49 m ρ c Cert.KernelIdeal.main_v183 (by decide)
  refine (Cert.KernelIdeal.Keep.toEnd_50 m ρ c Cert.KernelIdeal.main_v196 (by decide)).symm.trans ?_
  refine (Cert.KernelIdeal.Gen.W50_arr m ρ c 5).trans ?_
  refine (bn2_value15 (Cert.KernelIdeal.Gen.V49 m ρ) c).trans ?_
  rw [h46, h50, h51, h36, h39]

/-- The reference's output of the layer is the same function of its second linear layer's output and its mean,
    variance, scale and shift vectors. -/
theorem R_h1_3 (c : Dev Cert.ReferenceIdeal.nD) :
    RV m' c Cert.ReferenceIdeal.main_v374
      = bnReluVecs (n := 100000) (RV m' c Cert.ReferenceIdeal.main_v350) (RV m' c Cert.ReferenceIdeal.main_v357) (RV m' c Cert.ReferenceIdeal.main_v358)
          (RV m' c Cert.ReferenceIdeal.main_v352) (RV m' c Cert.ReferenceIdeal.main_v354) := by
  funext i
  obtain ⟨p, q, rfl⟩ : ∃ (p : Fin 100000) (q : Fin 64), i = ix2 p q := ⟨i 0, i 1, eq_ix2 i⟩
  have h1 := R_relu_3 (Cert.Bridge.R39 m' c) p q (RV m' c Cert.ReferenceIdeal.main_v374) (RV m' c Cert.ReferenceIdeal.main_v373)
    (Cert.ReferenceIdeal.Keep.toEnd_40 m' c Cert.ReferenceIdeal.main_v374 (by decide))
    (Cert.ReferenceIdeal.Keep.toEnd_39 m' c Cert.ReferenceIdeal.main_v373 (by decide))
  have h2 := R_bn_3 (Cert.Bridge.R38 m' c) p q (RV m' c Cert.ReferenceIdeal.main_v373) (RV m' c Cert.ReferenceIdeal.main_v350)
    (RV m' c Cert.ReferenceIdeal.main_v357) (RV m' c Cert.ReferenceIdeal.main_v358) (RV m' c Cert.ReferenceIdeal.main_v352) (RV m' c Cert.ReferenceIdeal.main_v354)
    (Cert.ReferenceIdeal.Keep.toEnd_39 m' c Cert.ReferenceIdeal.main_v373 (by decide))
    (Cert.ReferenceIdeal.Keep.toEnd_38 m' c Cert.ReferenceIdeal.main_v350 (by decide))
    (Cert.ReferenceIdeal.Keep.toEnd_38 m' c Cert.ReferenceIdeal.main_v357 (by decide))
    (Cert.ReferenceIdeal.Keep.toEnd_38 m' c Cert.ReferenceIdeal.main_v358 (by decide))
    (Cert.ReferenceIdeal.Keep.toEnd_38 m' c Cert.ReferenceIdeal.main_v352 (by decide))
    (Cert.ReferenceIdeal.Keep.toEnd_38 m' c Cert.ReferenceIdeal.main_v354 (by decide))
  refine h1.trans ?_
  rw [h2]
  unfold bnReluVecs
  rw [bnRelu_apply]

/-- The two programs' scale data agree column by column: both are the layer's row of the one scale table. -/
theorem g_corr_3 (hag : Agree m m') (c : Dev Cert.KernelIdeal.nD) (q : Fin 64) :
    (KV m ρ c Cert.KernelIdeal.main_v180 : FVec Ideal Cert.KernelIdeal.S1x64 .f32) (ix2 (0 : Fin 1) q)
      = (RV m' c Cert.ReferenceIdeal.main_v352 : FVec Ideal Cert.ReferenceIdeal.S64 .f32) (ix1 q) := by
  have hk := K_g_3 (Cert.KernelIdeal.Gen.W42 m ρ c) q (KV m ρ c Cert.KernelIdeal.main_v180)
    (m ((c.tc : Thread Cert.KernelIdeal.nD Cert.KernelIdeal.τ).loc Cert.KernelIdeal.main_arg13))
    (Cert.KernelIdeal.Keep.toEnd_43 m ρ c Cert.KernelIdeal.main_v180 (by decide))
    ((Cert.KernelIdeal.Keep.toEnd_42 m ρ c Cert.KernelIdeal.main_arg13 (by decide)).trans (KV_scale m ρ c))
  have hr := R_g_3 (Cert.Bridge.R36 m' c) q (RV m' c Cert.ReferenceIdeal.main_v352)
    (m' ((c.tc : Thread Cert.ReferenceIdeal.nD Cert.ReferenceIdeal.τ).loc Cert.ReferenceIdeal.main_arg13))
    (Cert.ReferenceIdeal.Keep.toEnd_37 m' c Cert.ReferenceIdeal.main_v352 (by decide))
    ((Cert.ReferenceIdeal.Keep.toEnd_36 m' c Cert.ReferenceIdeal.main_arg13 (by decide)).trans (RV_scale m' c))
  refine hk.trans (Eq.trans ?_ hr.symm)
  rw [agree_scale m m' hag c]

/-- The two programs' shift data agree column by column: both are the layer's row of the one shift table. -/
theorem be_corr_3 (hag : Agree m m') (c : Dev Cert.KernelIdeal.nD) (q : Fin 64) :
    (KV m ρ c Cert.KernelIdeal.main_v183 : FVec Ideal Cert.KernelIdeal.S1x64 .f32) (ix2 (0 : Fin 1) q)
      = (RV m' c Cert.ReferenceIdeal.main_v354 : FVec Ideal Cert.ReferenceIdeal.S64 .f32) (ix1 q) := by
  have hk := K_be_3 (Cert.KernelIdeal.Gen.W42 m ρ c) q (KV m ρ c Cert.KernelIdeal.main_v183)
    (m ((c.tc : Thread Cert.KernelIdeal.nD Cert.KernelIdeal.τ).loc Cert.KernelIdeal.main_arg14))
    (Cert.KernelIdeal.Keep.toEnd_43 m ρ c Cert.KernelIdeal.main_v183 (by decide))
    ((Cert.KernelIdeal.Keep.toEnd_42 m ρ c Cert.KernelIdeal.main_arg14 (by decide)).trans (KV_shift m ρ c))
  have hr := R_be_3 (Cert.Bridge.R36 m' c) q (RV m' c Cert.ReferenceIdeal.main_v354)
    (m' ((c.tc : Thread Cert.ReferenceIdeal.nD Cert.ReferenceIdeal.τ).loc Cert.ReferenceIdeal.main_arg14))
    (Cert.ReferenceIdeal.Keep.toEnd_37 m' c Cert.ReferenceIdeal.main_v354 (by decide))
    ((Cert.ReferenceIdeal.Keep.toEnd_36 m' c Cert.ReferenceIdeal.main_arg14 (by decide)).trans (RV_shift m' c))
  refine hk.trans (Eq.trans ?_ hr.symm)
  rw [agree_shift m m' hag c]

end Assemble

end Bn2L3

/-- The layer's output agrees between the two programs, given that the second linear layer's outputs agree and that
    the two means and the two variances agree column by column (the kernel program keeps each as one row of 64, the
    reference as a vector of 64). -/
theorem corr_h1_3
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (hag : Agree m m')
    (hz : KV m ρ c Cert.KernelIdeal.main_v190 = RV m' c Cert.ReferenceIdeal.main_v350)
    (hmu : ∀ j : Fin 64, (KV m ρ c Cert.KernelIdeal.main_v194 : FVec Ideal Cert.KernelIdeal.S1x64 .f32) (ix2 (0 : Fin 1) j)
      = (RV m' c Cert.ReferenceIdeal.main_v357 : FVec Ideal Cert.ReferenceIdeal.S64 .f32) (ix1 j))
    (hvar : ∀ j : Fin 64, (KV m ρ c Cert.KernelIdeal.main_v195 : FVec Ideal Cert.KernelIdeal.S1x64 .f32) (ix2 (0 : Fin 1) j)
      = (RV m' c Cert.ReferenceIdeal.main_v358 : FVec Ideal Cert.ReferenceIdeal.S64 .f32) (ix1 j)) :
    KV m ρ c Cert.KernelIdeal.main_v196 = RV m' c Cert.ReferenceIdeal.main_v374 := by
  refine (Bn2L3.K_h1_3 m ρ c).trans (Eq.trans ?_ (Bn2L3.R_h1_3 m' c).symm)
  funext i
  obtain ⟨p, q, rfl⟩ : ∃ (p : Fin 100000) (q : Fin 64), i = ix2 p q := ⟨i 0, i 1, eq_ix2 i⟩
  unfold bnReluRows bnReluVecs
  refine bnRelu_congr (n := 100000) (n' := 100000) (KV m ρ c Cert.KernelIdeal.main_v190) (RV m' c Cert.ReferenceIdeal.main_v350)
    _ _ _ _ _ _ _ _ (ix2 p q) (ix2 p q) rfl ?_ hmu hvar (Bn2L3.g_corr_3 m ρ m' hag c) (Bn2L3.be_corr_3 m ρ m' hag c)
  rw [hz]

end Cert.Bridge

end
-- ==== Proof.Bridge.Chain.lean ====
/- The result of the idealized kernel program is the result of the idealized reference, from launch memories that
   agree on the arguments and under the index ranges: the correspondences of the stages, threaded in program order.
   Edge endpoints and the node features: both programs hold the same source and destination rows and the same gathered
   feature table. Then, layer by layer: the gathered neighbour features and edge embeddings, the rectified messages,
   their sums per destination node, the first linear map, its batch statistics, the normalised, rectified and
   linearly mapped rows, their statistics, and the normalised, rectified node features that the next layer reads.
   Last, the per-graph sums and the two-layer classifier. -/
import proofs.«417278_j53197464928922_1_alg».proof.Proof.Bridge.Head
import proofs.«417278_j53197464928922_1_alg».proof.Proof.Bridge.Tail
import proofs.«417278_j53197464928922_1_alg».proof.Proof.Bridge.Gather
import proofs.«417278_j53197464928922_1_alg».proof.Proof.Bridge.Gather_L1
import proofs.«417278_j53197464928922_1_alg».proof.Proof.Bridge.Gather_L2
import proofs.«417278_j53197464928922_1_alg».proof.Proof.Bridge.Gather_L3
import proofs.«417278_j53197464928922_1_alg».proof.Proof.Bridge.Edge
import proofs.«417278_j53197464928922_1_alg».proof.Proof.Bridge.Edge_L1
import proofs.«417278_j53197464928922_1_alg».proof.Proof.Bridge.Edge_L2
import proofs.«417278_j53197464928922_1_alg».proof.Proof.Bridge.Edge_L3
import proofs.«417278_j53197464928922_1_alg».proof.Proof.Bridge.Mlp1
import proofs.«417278_j53197464928922_1_alg».proof.Proof.Bridge.Mlp1_L1
import proofs.«417278_j53197464928922_1_alg».proof.Proof.Bridge.Mlp1_L2
import proofs.«417278_j53197464928922_1_alg».proof.Proof.Bridge.Mlp1_L3
import proofs.«417278_j53197464928922_1_alg».proof.Proof.Bridge.Stats
import proofs.«417278_j53197464928922_1_alg».proof.Proof.Bridge.Stats_L1
import proofs.«417278_j53197464928922_1_alg».proof.Proof.Bridge.Stats_L2
import proofs.«417278_j53197464928922_1_alg».proof.Proof.Bridge.Stats_L3
import proofs.«417278_j53197464928922_1_alg».proof.Proof.Bridge.Mlp2
import proofs.«417278_j53197464928922_1_alg».proof.Proof.Bridge.Mlp2_L1
import proofs.«417278_j53197464928922_1_alg».proof.Proof.Bridge.Mlp2_L2
import proofs.«417278_j53197464928922_1_alg».proof.Proof.Bridge.Mlp2_L3
import proofs.«417278_j53197464928922_1_alg».proof.Proof.Bridge.Bn2
import proofs.«417278_j53197464928922_1_alg».proof.Proof.Bridge.Bn2_L1
import proofs.«417278_j53197464928922_1_alg».proof.Proof.Bridge.Bn2_L2
import proofs.«417278_j53197464928922_1_alg».proof.Proof.Bridge.Bn2_L3

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- Layer 0: equal node features going in give equal node features coming out. -/
theorem layer0 (hag : Agree m m') (hr : Ranges m) (c : Dev Cert.KernelIdeal.nD)
    (hs : KV m ρ c Cert.KernelIdeal.main_v1 = RV m' c Cert.ReferenceIdeal.main_v1)
    (hd : KV m ρ c Cert.KernelIdeal.main_v3 = RV m' c Cert.ReferenceIdeal.main_v3)
    (hh : KV m ρ c Cert.KernelIdeal.main_v4 = RV m' c Cert.ReferenceIdeal.main_v10) :
    KV m ρ c Cert.KernelIdeal.main_v52 = RV m' c Cert.ReferenceIdeal.main_v101 := by
  have a := corr_hsrc0 (m := m) (ρ := ρ) (m' := m') hag hr c hh hs
  have e := corr_eattr0 (m := m) (ρ := ρ) (m' := m') hag hr c
  have g := corr_msg0 (m := m) (ρ := ρ) (m' := m') c a e
  have s := corr_agg0 (m := m) (ρ := ρ) (m' := m') c g hd
  have z := corr_z1_0 (m := m) (ρ := ρ) (m' := m') hag c hh s
  have t := corr_stats1_0 (m := m) (ρ := ρ) (m' := m') c z
  have y := corr_z2_0 (m := m) (ρ := ρ) (m' := m') hag c z t
  have u := corr_stats2_0 (m := m) (ρ := ρ) (m' := m') c y
  exact corr_h1_0 (m := m) (ρ := ρ) (m' := m') (c := c) hag y u.1 u.2

/-- Layer 1: equal node features going in give equal node features coming out. -/
theorem layer1 (hag : Agree m m') (hr : Ranges m) (c : Dev Cert.KernelIdeal.nD)
    (hs : KV m ρ c Cert.KernelIdeal.main_v1 = RV m' c Cert.ReferenceIdeal.main_v1)
    (hd : KV m ρ c Cert.KernelIdeal.main_v3 = RV m' c Cert.ReferenceIdeal.main_v3)
    (hh : KV m ρ c Cert.KernelIdeal.main_v52 = RV m' c Cert.ReferenceIdeal.main_v101) :
    KV m ρ c Cert.KernelIdeal.main_v100 = RV m' c Cert.ReferenceIdeal.main_v192 := by
  have a := corr_hsrc1 (m := m) (ρ := ρ) (m' := m') hag hr c hh hs
  have e := corr_eattr1 (m := m) (ρ := ρ) (m' := m') hag hr c
  have g := corr_msg1 (m := m) (ρ := ρ) (m' := m') c a e
  have s := corr_agg1 (m := m) (ρ := ρ) (m' := m') c g hd
  have z := corr_z1_1 (m := m) (ρ := ρ) (m' := m') hag c hh s
  have t := corr_stats1_1 (m := m) (ρ := ρ) (m' := m') c z
  have y := corr_z2_1 (m := m) (ρ := ρ) (m' := m') hag c z t
  have u := corr_stats2_1 (m := m) (ρ := ρ) (m' := m') c y
  exact corr_h1_1 (m := m) (ρ := ρ) (m' := m') (c := c) hag y u.1 u.2

/-- Layer 2: equal node features going in give equal node features coming out. -/
theorem layer2 (hag : Agree m m') (hr : Ranges m) (c : Dev Cert.KernelIdeal.nD)
    (hs : KV m ρ c Cert.KernelIdeal.main_v1 = RV m' c Cert.ReferenceIdeal.main_v1)
    (hd : KV m ρ c Cert.KernelIdeal.main_v3 = RV m' c Cert.ReferenceIdeal.main_v3)
    (hh : KV m ρ c Cert.KernelIdeal.main_v100 = RV m' c Cert.ReferenceIdeal.main_v192) :
    KV m ρ c Cert.KernelIdeal.main_v148 = RV m' c Cert.ReferenceIdeal.main_v283 := by
  have a := corr_hsrc2 (m := m) (ρ := ρ) (m' := m') hag hr c hh hs
  have e := corr_eattr2 (m := m) (ρ := ρ) (m' := m') hag hr c
  have g := corr_msg2 (m := m) (ρ := ρ) (m' := m') c a e
  have s := corr_agg2 (m := m) (ρ := ρ) (m' := m') c g hd
  have z := corr_z1_2 (m := m) (ρ := ρ) (m' := m') hag c hh s
  have t := corr_stats1_2 (m := m) (ρ := ρ) (m' := m') c z
  have y := corr_z2_2 (m := m) (ρ := ρ) (m' := m') hag c z t
  have u := corr_stats2_2 (m := m) (ρ := ρ) (m' := m') c y
  exact corr_h1_2 (m := m) (ρ := ρ) (m' := m') (c := c) hag y u.1 u.2

/-- Layer 3: equal node features going in give equal node features coming out. -/
theorem layer3 (hag : Agree m m') (hr : Ranges m) (c : Dev Cert.KernelIdeal.nD)
    (hs : KV m ρ c Cert.KernelIdeal.main_v1 = RV m' c Cert.ReferenceIdeal.main_v1)
    (hd : KV m ρ c Cert.KernelIdeal.main_v3 = RV m' c Cert.ReferenceIdeal.main_v3)
    (hh : KV m ρ c Cert.KernelIdeal.main_v148 = RV m' c Cert.ReferenceIdeal.main_v283) :
    KV m ρ c Cert.KernelIdeal.main_v196 = RV m' c Cert.ReferenceIdeal.main_v374 := by
  have a := corr_hsrc3 (m := m) (ρ := ρ) (m' := m') hag hr c hh hs
  have e := corr_eattr3 (m := m) (ρ := ρ) (m' := m') hag hr c
  have g := corr_msg3 (m := m) (ρ := ρ) (m' := m') c a e
  have s := corr_agg3 (m := m) (ρ := ρ) (m' := m') c g hd
  have z := corr_z1_3 (m := m) (ρ := ρ) (m' := m') hag c hh s
  have t := corr_stats1_3 (m := m) (ρ := ρ) (m' := m') c z
  have y := corr_z2_3 (m := m) (ρ := ρ) (m' := m') hag c z t
  have u := corr_stats2_3 (m := m) (ρ := ρ) (m' := m') c y
  exact corr_h1_3 (m := m) (ρ := ρ) (m' := m') (c := c) hag y u.1 u.2

/-- The kernel program's result array is the reference's. -/
theorem out_eq (hag : Agree m m') (hr : Ranges m) (c : Dev Cert.KernelIdeal.nD) :
    KV m ρ c Cert.KernelIdeal.main_v202 = RV m' c Cert.ReferenceIdeal.main_v386 := by
  have hs := corr_src (m := m) (ρ := ρ) (m' := m') hag c
  have hd := corr_dst (m := m) (ρ := ρ) (m' := m') hag c
  have h0 := corr_h0 (m := m) (ρ := ρ) (m' := m') hag hr c
  have h1 := layer0 m ρ m' hag hr c hs hd h0
  have h2 := layer1 m ρ m' hag hr c hs hd h1
  have h3 := layer2 m ρ m' hag hr c hs hd h2
  have h4 := layer3 m ρ m' hag hr c hs hd h3
  exact corr_out (m := m) (ρ := ρ) (m' := m') hag c (corr_pooled (m := m) (ρ := ρ) (m' := m') hag c h4)

end Cert.Bridge

end
-- ==== Proof.lean ====
/- A four-layer edge-conditioned graph network (node features gathered from a table, per layer: neighbour features
   and edge embeddings gathered along the edges, rectified, summed per destination node, then a linear map, batch
   normalisation, rectification, a second linear map, batch normalisation and rectification; at the end per-graph sums
   and a two-layer classifier), computed once with seventeen pallas_calls between host gathers, scatters and batch
   statistics, and once entirely by host operations. Over the extended reals the two agree whenever the gathered
   indices lie inside their tables (outside, the kernel program's gathers fill with NaN where the reference clamps):
   every stage of one program is the same function of the same arrays as the corresponding stage of the other
   (Proof/Bridge), the only algebra being commutativity of the product and the reading of each matrix product as a
   plain sum. The kernel programs' frames are the generated ones; the reference's frame is its run as a straight line
   of host operations with the result dropped; the idealization rewrote nothing. -/
import proofs.«417278_j53197464928922_1_alg».proof.Defs
import proofs.«417278_j53197464928922_1_alg».proof.Proof.Gen.Kernel
import proofs.«417278_j53197464928922_1_alg».proof.Proof.Gen.Kernel.Skeleton
import proofs.«417278_j53197464928922_1_alg».proof.Proof.Gen.Kernel.Launch
import proofs.«417278_j53197464928922_1_alg».proof.Proof.Gen.Kernel.Points
import proofs.«417278_j53197464928922_1_alg».proof.Proof.Gen.Kernel.Frame
import proofs.«417278_j53197464928922_1_alg».proof.Proof.Gen.KernelIdeal
import proofs.«417278_j53197464928922_1_alg».proof.Proof.Gen.KernelIdeal.Skeleton
import proofs.«417278_j53197464928922_1_alg».proof.Proof.Gen.KernelIdeal.Launch
import proofs.«417278_j53197464928922_1_alg».proof.Proof.Gen.KernelIdeal.Points
import proofs.«417278_j53197464928922_1_alg».proof.Proof.Gen.KernelIdeal.Frame
import proofs.«417278_j53197464928922_1_alg».proof.Proof.Gen.ReferenceIdeal
import proofs.«417278_j53197464928922_1_alg».proof.Proof.Gen.Pre_finite_inputs
import proofs.«417278_j53197464928922_1_alg».proof.Proof.KRun
import proofs.«417278_j53197464928922_1_alg».proof.Proof.RRun
import proofs.«417278_j53197464928922_1_alg».proof.Proof.RKeep
import proofs.«417278_j53197464928922_1_alg».proof.Proof.PreRanges
import proofs.«417278_j53197464928922_1_alg».proof.Proof.Bridge.Chain
import Idealize.ShloMosaic.Adequacy
import Idealize.ShloMosaic.Init

noncomputable section

namespace Cert.Proof

open Idealize.ShloMosaic Idealize.SL.Sem

/-- The reference terminates without a fault and leaves its arguments as launched: its run, with everything but the
    argument arrays forgotten. -/
theorem frame_reference : Cert.frame_ReferenceIdeal (hReferenceIdeal := Cert.ReferenceIdeal.Gen.facts) (hPre_finite_inputs := Cert.Pre_finite_inputs.Gen.facts) :=
  fun m ρ _ =>
    (θ_run (Cert.ReferenceIdeal.defs (F := Ideal)) _ _).mono (fun r h c =>
      ⟨(h c Cert.ReferenceIdeal.main_arg0).trans (Cert.ReferenceIdeal.Keep.arg_kept_0 m c),
      (h c Cert.ReferenceIdeal.main_arg1).trans (Cert.ReferenceIdeal.Keep.arg_kept_1 m c),
      (h c Cert.ReferenceIdeal.main_arg2).trans (Cert.ReferenceIdeal.Keep.arg_kept_2 m c),
      (h c Cert.ReferenceIdeal.main_arg3).trans (Cert.ReferenceIdeal.Keep.arg_kept_3 m c),
      (h c Cert.ReferenceIdeal.main_arg4).trans (Cert.ReferenceIdeal.Keep.arg_kept_4 m c),
      (h c Cert.ReferenceIdeal.main_arg5).trans (Cert.ReferenceIdeal.Keep.arg_kept_5 m c),
      (h c Cert.ReferenceIdeal.main_arg6).trans (Cert.ReferenceIdeal.Keep.arg_kept_6 m c),
      (h c Cert.ReferenceIdeal.main_arg7).trans (Cert.ReferenceIdeal.Keep.arg_kept_7 m c),
      (h c Cert.ReferenceIdeal.main_arg8).trans (Cert.ReferenceIdeal.Keep.arg_kept_8 m c),
      (h c Cert.ReferenceIdeal.main_arg9).trans (Cert.ReferenceIdeal.Keep.arg_kept_9 m c),
      (h c Cert.ReferenceIdeal.main_arg10).trans (Cert.ReferenceIdeal.Keep.arg_kept_10 m c),
      (h c Cert.ReferenceIdeal.main_arg11).trans (Cert.ReferenceIdeal.Keep.arg_kept_11 m c),
      (h c Cert.ReferenceIdeal.main_arg12).trans (Cert.ReferenceIdeal.Keep.arg_kept_12 m c),
      (h c Cert.ReferenceIdeal.main_arg13).trans (Cert.ReferenceIdeal.Keep.arg_kept_13 m c),
      (h c Cert.ReferenceIdeal.main_arg14).trans (Cert.ReferenceIdeal.Keep.arg_kept_14 m c),
      (h c Cert.ReferenceIdeal.main_arg15).trans (Cert.ReferenceIdeal.Keep.arg_kept_15 m c),
      (h c Cert.ReferenceIdeal.main_arg16).trans (Cert.ReferenceIdeal.Keep.arg_kept_16 m c),
      (h c Cert.ReferenceIdeal.main_arg17).trans (Cert.ReferenceIdeal.Keep.arg_kept_17 m c),
      (h c Cert.ReferenceIdeal.main_arg18).trans (Cert.ReferenceIdeal.Keep.arg_kept_18 m c)⟩)
      (Cert.ReferenceIdeal.RRun.run m ρ)

/-- Both programs run, and the kernel program's result array is the reference's: the kernel program ends with every
    buffer at the last boundary of its run, the reference with every buffer at the fold of its operations, and the two
    result buffers hold the same array. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hr : Cert.Bridge.Ranges m := Cert.Bridge.ranges_of_pre m hpre
  have hag : Cert.Bridge.Agree m m' := hagree
  refine ⟨fun c => Cert.Bridge.KV m ρ c Cert.KernelIdeal.main_v202, ?_, ?_⟩
  · exact (θ_run (Cert.KernelIdeal.defs (F := Ideal)) _ _).mono (fun r h c =>
      ⟨h c _ (Cert.KernelIdeal.Gen.mem_uc Cert.KernelIdeal.main_v202 (by decide)),
        (h c _ (Cert.KernelIdeal.Gen.mem_uc Cert.KernelIdeal.main_arg0 (by decide))).trans (Cert.KernelIdeal.Gen.W52_main_arg0 m ρ c),
        (h c _ (Cert.KernelIdeal.Gen.mem_uc Cert.KernelIdeal.main_arg1 (by decide))).trans (Cert.KernelIdeal.Gen.W52_main_arg1 m ρ c),
        (h c _ (Cert.KernelIdeal.Gen.mem_uc Cert.KernelIdeal.main_arg2 (by decide))).trans (Cert.KernelIdeal.Gen.W52_main_arg2 m ρ c),
        (h c _ (Cert.KernelIdeal.Gen.mem_uc Cert.KernelIdeal.main_arg3 (by decide))).trans (Cert.KernelIdeal.Gen.W52_main_arg3 m ρ c),
        (h c _ (Cert.KernelIdeal.Gen.mem_uc Cert.KernelIdeal.main_arg4 (by decide))).trans (Cert.KernelIdeal.Gen.W52_main_arg4 m ρ c),
        (h c _ (Cert.KernelIdeal.Gen.mem_uc Cert.KernelIdeal.main_arg5 (by decide))).trans (Cert.KernelIdeal.Gen.W52_main_arg5 m ρ c),
        (h c _ (Cert.KernelIdeal.Gen.mem_uc Cert.KernelIdeal.main_arg6 (by decide))).trans (Cert.KernelIdeal.Gen.W52_main_arg6 m ρ c),
        (h c _ (Cert.KernelIdeal.Gen.mem_uc Cert.KernelIdeal.main_arg7 (by decide))).trans (Cert.KernelIdeal.Gen.W52_main_arg7 m ρ c),
        (h c _ (Cert.KernelIdeal.Gen.mem_uc Cert.KernelIdeal.main_arg8 (by decide))).trans (Cert.KernelIdeal.Gen.W52_main_arg8 m ρ c),
        (h c _ (Cert.KernelIdeal.Gen.mem_uc Cert.KernelIdeal.main_arg9 (by decide))).trans (Cert.KernelIdeal.Gen.W52_main_arg9 m ρ c),
        (h c _ (Cert.KernelIdeal.Gen.mem_uc Cert.KernelIdeal.main_arg10 (by decide))).trans (Cert.KernelIdeal.Gen.W52_main_arg10 m ρ c),
        (h c _ (Cert.KernelIdeal.Gen.mem_uc Cert.KernelIdeal.main_arg11 (by decide))).trans (Cert.KernelIdeal.Gen.W52_main_arg11 m ρ c),
        (h c _ (Cert.KernelIdeal.Gen.mem_uc Cert.KernelIdeal.main_arg12 (by decide))).trans (Cert.KernelIdeal.Gen.W52_main_arg12 m ρ c),
        (h c _ (Cert.KernelIdeal.Gen.mem_uc Cert.KernelIdeal.main_arg13 (by decide))).trans (Cert.KernelIdeal.Gen.W52_main_arg13 m ρ c),
        (h c _ (Cert.KernelIdeal.Gen.mem_uc Cert.KernelIdeal.main_arg14 (by decide))).trans (Cert.KernelIdeal.Gen.W52_main_arg14 m ρ c),
        (h c _ (Cert.KernelIdeal.Gen.mem_uc Cert.KernelIdeal.main_arg15 (by decide))).trans (Cert.KernelIdeal.Gen.W52_main_arg15 m ρ c),
        (h c _ (Cert.KernelIdeal.Gen.mem_uc Cert.KernelIdeal.main_arg16 (by decide))).trans (Cert.KernelIdeal.Gen.W52_main_arg16 m ρ c),
        (h c _ (Cert.KernelIdeal.Gen.mem_uc Cert.KernelIdeal.main_arg17 (by decide))).trans (Cert.KernelIdeal.Gen.W52_main_arg17 m ρ c),
        (h c _ (Cert.KernelIdeal.Gen.mem_uc Cert.KernelIdeal.main_arg18 (by decide))).trans (Cert.KernelIdeal.Gen.W52_main_arg18 m ρ c)⟩)
      (Cert.KernelIdeal.KRun.run_all m ρ)
  · exact (θ_run (Cert.ReferenceIdeal.defs (F := Ideal)) _ _).mono (fun r h c =>
      ⟨(h c Cert.ReferenceIdeal.main_v386).trans (Cert.Bridge.out_eq m ρ m' hag hr c).symm,
        (h c Cert.ReferenceIdeal.main_arg0).trans (Cert.ReferenceIdeal.Keep.arg_kept_0 m' c),
        (h c Cert.ReferenceIdeal.main_arg1).trans (Cert.ReferenceIdeal.Keep.arg_kept_1 m' c),
        (h c Cert.ReferenceIdeal.main_arg2).trans (Cert.ReferenceIdeal.Keep.arg_kept_2 m' c),
        (h c Cert.ReferenceIdeal.main_arg3).trans (Cert.ReferenceIdeal.Keep.arg_kept_3 m' c),
        (h c Cert.ReferenceIdeal.main_arg4).trans (Cert.ReferenceIdeal.Keep.arg_kept_4 m' c),
        (h c Cert.ReferenceIdeal.main_arg5).trans (Cert.ReferenceIdeal.Keep.arg_kept_5 m' c),
        (h c Cert.ReferenceIdeal.main_arg6).trans (Cert.ReferenceIdeal.Keep.arg_kept_6 m' c),
        (h c Cert.ReferenceIdeal.main_arg7).trans (Cert.ReferenceIdeal.Keep.arg_kept_7 m' c),
        (h c Cert.ReferenceIdeal.main_arg8).trans (Cert.ReferenceIdeal.Keep.arg_kept_8 m' c),
        (h c Cert.ReferenceIdeal.main_arg9).trans (Cert.ReferenceIdeal.Keep.arg_kept_9 m' c),
        (h c Cert.ReferenceIdeal.main_arg10).trans (Cert.ReferenceIdeal.Keep.arg_kept_10 m' c),
        (h c Cert.ReferenceIdeal.main_arg11).trans (Cert.ReferenceIdeal.Keep.arg_kept_11 m' c),
        (h c Cert.ReferenceIdeal.main_arg12).trans (Cert.ReferenceIdeal.Keep.arg_kept_12 m' c),
        (h c Cert.ReferenceIdeal.main_arg13).trans (Cert.ReferenceIdeal.Keep.arg_kept_13 m' c),
        (h c Cert.ReferenceIdeal.main_arg14).trans (Cert.ReferenceIdeal.Keep.arg_kept_14 m' c),
        (h c Cert.ReferenceIdeal.main_arg15).trans (Cert.ReferenceIdeal.Keep.arg_kept_15 m' c),
        (h c Cert.ReferenceIdeal.main_arg16).trans (Cert.ReferenceIdeal.Keep.arg_kept_16 m' c),
        (h c Cert.ReferenceIdeal.main_arg17).trans (Cert.ReferenceIdeal.Keep.arg_kept_17 m' c),
        (h c Cert.ReferenceIdeal.main_arg18).trans (Cert.ReferenceIdeal.Keep.arg_kept_18 m' c)⟩)
      (Cert.ReferenceIdeal.RRun.run m' ρ')

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
